-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S8192x4096 : Shape := ⟨2, ![8192, 4096]⟩
abbrev S8192 : Shape := ⟨1, ![8192]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S8192x4096 : S_.BroadcastsInDim S8192x4096 (![] : Fin 0 → Fin S8192x4096.rank)
  reducesTo_S8192x4096_S_d0_1 : S8192x4096.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S4096 .f32) (main_arg1 : FVec F S8192x4096 .f32) (main_arg2 : IVec S8192 32) : IVec S_ 1 :=
  let main_v0 : FVec F S4096 .f32 := Host.absf main_arg0
  let main_cst : FVec F S_ .f32 := constant S_ .f32 0x7F800000#32
  let main_v1 : FVec F S4096 .f32 := broadcastInDim S4096 ![] bcast_S_S4096 main_cst
  let main_v2 : IVec S4096 1 := cmpf .olt main_v0 main_v1
  let main_c : IVec S_ 1 := constantI S_ 1 1#1
  let main_v3 : IVec S_ 1 := (fun x v => Host.reduce IntOp.andi x v reducesTo_S4096_S_d0 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_c_2 : IVec S_ 32 := constantI S_ 32 0#32
  let main_v9 : IVec S8192 32 := broadcastInDim S8192 ![] bcast_S_S8192 main_c_2
  let main_v10 : IVec S8192 1 := cmpi .sge main_arg2 main_v9
  let main_c_3 : IVec S_ 32 := constantI S_ 32 4096#32
  let main_v11 : IVec S8192 32 := broadcastInDim S8192 ![] bcast_S_S8192 main_c_3
  let main_v12 : IVec S8192 1 := cmpi .sle main_arg2 main_v11
  let main_v13 : IVec S8192 1 := andi main_v10 main_v12
  let main_c_4 : IVec S_ 1 := constantI S_ 1 1#1
  let main_v14 : IVec S_ 1 := (fun x v => Host.reduce IntOp.andi x v reducesTo_S8192_S_d0 h_S_) main_v13 main_c_4
  let main_v15 : IVec S_ 1 := andi main_v8 main_v14
  main_v15
-- ==== Kernel.lean ====
abbrev S4096 : Shape := ⟨1, ![4096]⟩
abbrev S8192x4096 : Shape := ⟨2, ![8192, 4096]⟩
abbrev S8192 : Shape := ⟨1, ![8192]⟩
abbrev S_ : Shape := ⟨0, ![]⟩
abbrev S1 : Shape := ⟨1, ![1]⟩
abbrev S2048 : Shape := ⟨1, ![2048]⟩
abbrev S6144 : Shape := ⟨1, ![6144]⟩
abbrev S8192x2048 : Shape := ⟨2, ![8192, 2048]⟩
abbrev S8192x1 : Shape := ⟨2, ![8192, 1]⟩
abbrev S128x4096 : Shape := ⟨2, ![128, 4096]⟩
abbrev S128x2048 : Shape := ⟨2, ![128, 2048]⟩
abbrev S128x1 : Shape := ⟨2, ![128, 1]⟩
abbrev S128x8192 : Shape := ⟨2, ![128, 8192]⟩
abbrev S128 : Shape := ⟨1, ![128]⟩
abbrev S1x8192 : Shape := ⟨2, ![1, 8192]⟩
abbrev S1x4096 : Shape := ⟨2, ![1, 4096]⟩
abbrev S1x1 : Shape := ⟨2, ![1, 1]⟩
abbrev S8192x1x4096 : Shape := ⟨3, ![8192, 1, 4096]⟩

abbrev nBuf : Space → Nat
  | .hbm => 27
  | .vmem => 13
  | .smem => 1
  | _ => 0

abbrev bufTy : (tb : Table) → Fin (tcTables nBuf tb) → BufTy
  | .hbm, ⟨0, _⟩ => ⟨S4096, .f32⟩
  | .hbm, ⟨1, _⟩ => ⟨S8192x4096, .f32⟩
  | .hbm, ⟨2, _⟩ => ⟨S4096, .f32⟩
  | .hbm, ⟨3, _⟩ => ⟨S4096, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S_, .f32⟩
  | .hbm, ⟨8, _⟩ => ⟨S4096, .f32⟩
  | .hbm, ⟨9, _⟩ => ⟨S4096, .f32⟩
  | .hbm, ⟨10, _⟩ => ⟨S_, .i32⟩
  | .hbm, ⟨11, _⟩ => ⟨S1, .f32⟩
  | .hbm, ⟨12, _⟩ => ⟨S2048, .f32⟩
  | .hbm, ⟨13, _⟩ => ⟨S2048, .f32⟩
  | .hbm, ⟨14, _⟩ => ⟨S6144, .f32⟩
  | .hbm, ⟨15, _⟩ => ⟨S1, .f32⟩
  | .hbm, ⟨16, _⟩ => ⟨S2048, .f32⟩
  | .hbm, ⟨17, _⟩ => ⟨S2048, .f32⟩
  | .hbm, ⟨18, _⟩ => ⟨S8192, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x4096, .f32⟩
  | .hbm, ⟨24, _⟩ => ⟨S8192x1, .f32⟩
  | .hbm, ⟨25, _⟩ => ⟨S8192x1x4096, .f32⟩
  | .hbm, ⟨26, _⟩ => ⟨S8192, .f32⟩
  | .local _ .vmem, ⟨0, _⟩ => ⟨S128x4096, .f32⟩
  | .local _ .vmem, ⟨1, _⟩ => ⟨S128x4096, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S8192, .f32⟩
  | .local _ .vmem, ⟨7, _⟩ => ⟨S4096, .f32⟩
  | .local _ .vmem, ⟨8, _⟩ => ⟨S128x4096, .f32⟩
  | .local _ .vmem, ⟨9, _⟩ => ⟨S128x4096, .f32⟩
  | .local _ .vmem, ⟨10, _⟩ => ⟨S128x1, .f32⟩
  | .local _ .vmem, ⟨11, _⟩ => ⟨S128x1, .f32⟩
  | .local _ .vmem, ⟨12, _⟩ => ⟨S128x8192, .f32⟩
  | .local _ .smem, ⟨0, _⟩ => ⟨S8192, .i32⟩
  | _, _ => ⟨S4096, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 140 → Bool
  | ⟨i, _⟩ => dmaSemScopedAt i

abbrev sig : RefSig :=
  ofTc nBuf bufTy 0 140 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v12 : Ref sig .tc := ⟨.hbm, 25, rfl⟩
abbrev main_v13 : Ref sig .tc := ⟨.hbm, 26, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c128_i32 : BitVec 32 := 128#32
  let v0 : BitVec 32 := Scalar.muli arg0 c128_i32
  let c0_i32 : BitVec 32 := 0#32
  let v60 : BitVec 32 := Scalar.addi v0 c0_i32
  let v61 : Index := Scalar.indexCast v60
  ![v61.toNat]
def k0_off2 (v62 : BitVec 32) : Fin 2 → Nat :=
  let c0_i32_25 : BitVec 32 := 0#32
  ![0, v62.toNat]

def k0_chk1 (v62 : BitVec 32) : Prop :=
  (∀ a, (k0_off2 v62) a + S1x4096.size a ≤ S128x8192.size a)
instance k0_chk1.dec : ∀ (v62 : BitVec 32), Decidable (k0_chk1 v62) := fun v62 => decidable_of_iff' _ (Iff.of_eq (k0_chk1.eq_1 v62))
theorem k0_off2_inb : ∀ (v62 : BitVec 32) (k0_hw1 : k0_chk1 v62), ∀ a, (k0_off2 v62) a + S1x4096.size a ≤ S128x8192.size a := fun v62 k0_hw1 => k0_hw1

def k0_off3 (i : grid0.Coords) : Fin 1 → Nat :=
  let arg0 : BitVec 32 := BitVec.ofNat 32 (i 0).val
  let c128_i32 : BitVec 32 := 128#32
  let v0 : BitVec 32 := Scalar.muli arg0 c128_i32
  let c1_i32 : BitVec 32 := 1#32
  let v69 : BitVec 32 := Scalar.addi v0 c1_i32
  let v70 : Index := Scalar.indexCast v69
  ![v70.toNat]
def k0_off4 (v71 : BitVec 32) : Fin 2 → Nat :=
  let c1_i32_29 : BitVec 32 := 1#32
  ![1, v71.toNat]

def k0_chk2 (v71 : BitVec 32) : Prop :=
  (∀ a, (k0_off4 v71) a + S1x4096.size a ≤ S128x8192.size a)
instance k0_chk2.dec : ∀ (v71 : BitVec 32), Decidable (k0_chk2 v71) := fun v71 => decidable_of_iff' _ (Iff.of_eq (k0_chk2.eq_1 v71))
theorem k0_off4_inb : ∀ (v71 : BitVec 32) (k0_hw2 : k0_chk2 v71), ∀ a, (k0_off4 v71) a + S1x4096.size a ≤ S128x8192.size a := fun v71 k0_hw2 => k0_hw2

def k0_off5 (i : grid0.Coords) : Fin 1 → Nat :=
  let arg0 : BitVec 32 := BitVec.ofNat 32 (i 0).val
  let c128_i32 : BitVec 32 := 128#32
  let v0 : BitVec 32 := Scalar.muli arg0 c128_i32
  let c2_i32 : BitVec 32 := 2#32
  let v78 : BitVec 32 := Scalar.addi v0 c2_i32
  let v79 : Index := Scalar.indexCast v78
  ![v79.toNat]
def k0_off6 (v80 : BitVec 32) : Fin 2 → Nat :=
  let c2_i32_33 : BitVec 32 := 2#32
  ![2, v80.toNat]

def k0_chk3 (v80 : BitVec 32) : Prop :=
  (∀ a, (k0_off6 v80) a + S1x4096.size a ≤ S128x8192.size a)
instance k0_chk3.dec : ∀ (v80 : BitVec 32), Decidable (k0_chk3 v80) := fun v80 => decidable_of_iff' _ (Iff.of_eq (k0_chk3.eq_1 v80))
theorem k0_off6_inb : ∀ (v80 : BitVec 32) (k0_hw3 : k0_chk3 v80), ∀ a, (k0_off6 v80) a + S1x4096.size a ≤ S128x8192.size a := fun v80 k0_hw3 => k0_hw3

def k0_off7 (i : grid0.Coords) : Fin 1 → Nat :=
  let arg0 : BitVec 32 := BitVec.ofNat 32 (i 0).val
  let c128_i32 : BitVec 32 := 128#32
  let v0 : BitVec 32 := Scalar.muli arg0 c128_i32
  let c3_i32 : BitVec 32 := 3#32
  let v87 : BitVec 32 := Scalar.addi v0 c3_i32
  let v88 : Index := Scalar.indexCast v87
  ![v88.toNat]
def k0_off8 (v89 : BitVec 32) : Fin 2 → Nat :=
  let c3_i32_37 : BitVec 32 := 3#32
  ![3, v89.toNat]

def k0_chk4 (v89 : BitVec 32) : Prop :=
  (∀ a, (k0_off8 v89) a + S1x4096.size a ≤ S128x8192.size a)
instance k0_chk4.dec : ∀ (v89 : BitVec 32), Decidable (k0_chk4 v89) := fun v89 => decidable_of_iff' _ (Iff.of_eq (k0_chk4.eq_1 v89))
theorem k0_off8_inb : ∀ (v89 : BitVec 32) (k0_hw4 : k0_chk4 v89), ∀ a, (k0_off8 v89) a + S1x4096.size a ≤ S128x8192.size a := fun v89 k0_hw4 => k0_hw4

def k0_off9 (i : grid0.Coords) : Fin 1 → Nat :=
  let arg0 : BitVec 32 := BitVec.ofNat 32 (i 0).val
  let c128_i32 : BitVec 32 := 128#32
  let v0 : BitVec 32 := Scalar.muli arg0 c128_i32
  let c4_i32 : BitVec 32 := 4#32
  let v96 : BitVec 32 := Scalar.addi v0 c4_i32
  let v97 : Index := Scalar.indexCast v96
  ![v97.toNat]
def k0_off10 (v98 : BitVec 32) : Fin 2 → Nat :=
  let c4_i32_41 : BitVec 32 := 4#32
  ![4, v98.toNat]

def k0_chk5 (v98 : BitVec 32) : Prop :=
  (∀ a, (k0_off10 v98) a + S1x4096.size a ≤ S128x8192.size a)
instance k0_chk5.dec : ∀ (v98 : BitVec 32), Decidable (k0_chk5 v98) := fun v98 => decidable_of_iff' _ (Iff.of_eq (k0_chk5.eq_1 v98))
theorem k0_off10_inb : ∀ (v98 : BitVec 32) (k0_hw5 : k0_chk5 v98), ∀ a, (k0_off10 v98) a + S1x4096.size a ≤ S128x8192.size a := fun v98 k0_hw5 => k0_hw5

def k0_off11 (i : grid0.Coords) : Fin 1 → Nat :=
  let arg0 : BitVec 32 := BitVec.ofNat 32 (i 0).val
  let c128_i32 : BitVec 32 := 128#32
  let v0 : BitVec 32 := Scalar.muli arg0 c128_i32
  let c5_i32 : BitVec 32 := 5#32
  let v105 : BitVec 32 := Scalar.addi v0 c5_i32
  let v106 : Index := Scalar.indexCast v105
  ![v106.toNat]
def k0_off12 (v107 : BitVec 32) : Fin 2 → Nat :=
  let c5_i32_45 : BitVec 32 := 5#32
  ![5, v107.toNat]

def k0_chk6 (v107 : BitVec 32) : Prop :=
  (∀ a, (k0_off12 v107) a + S1x4096.size a ≤ S128x8192.size a)
instance k0_chk6.dec : ∀ (v107 : BitVec 32), Decidable (k0_chk6 v107) := fun v107 => decidable_of_iff' _ (Iff.of_eq (k0_chk6.eq_1 v107))
theorem k0_off12_inb : ∀ (v107 : BitVec 32) (k0_hw6 : k0_chk6 v107), ∀ a, (k0_off12 v107) a + S1x4096.size a ≤ S128x8192.size a := fun v107 k0_hw6 => k0_hw6

def k0_off13 (i : grid0.Coords) : Fin 1 → Nat :=
  let arg0 : BitVec 32 := BitVec.ofNat 32 (i 0).val
  let c128_i32 : BitVec 32 := 128#32
  let v0 : BitVec 32 := Scalar.muli arg0 c128_i32
  let c6_i32 : BitVec 32 := 6#32
  let v114 : BitVec 32 := Scalar.addi v0 c6_i32
  let v115 : Index := Scalar.indexCast v114
  ![v115.toNat]
def k0_off14 (v116 : BitVec 32) : Fin 2 → Nat :=
  let c6_i32_49 : BitVec 32 := 6#32
  ![6, v116.toNat]

def k0_chk7 (v116 : BitVec 32) : Prop :=
  (∀ a, (k0_off14 v116) a + S1x4096.size a ≤ S128x8192.size a)
instance k0_chk7.dec : ∀ (v116 : BitVec 32), Decidable (k0_chk7 v116) := fun v116 => decidable_of_iff' _ (Iff.of_eq (k0_chk7.eq_1 v116))
theorem k0_off14_inb : ∀ (v116 : BitVec 32) (k0_hw7 : k0_chk7 v116), ∀ a, (k0_off14 v116) a + S1x4096.size a ≤ S128x8192.size a := fun v116 k0_hw7 => k0_hw7

def k0_off15 (i : grid0.Coords) : Fin 1 → Nat :=
  let arg0 : BitVec 32 := BitVec.ofNat 32 (i 0).val
  let c128_i32 : BitVec 32 := 128#32
  let v0 : BitVec 32 := Scalar.muli arg0 c128_i32
  let c7_i32 : BitVec 32 := 7#32
  let v123 : BitVec 32 := Scalar.addi v0 c7_i32
  let v124 : Index := Scalar.indexCast v123
  ![v124.toNat]
def k0_off16 (v125 : BitVec 32) : Fin 2 → Nat :=
  let c7_i32_53 : BitVec 32 := 7#32
  ![7, v125.toNat]

def k0_chk8 (v125 : BitVec 32) : Prop :=
  (∀ a, (k0_off16 v125) a + S1x4096.size a ≤ S128x8192.size a)
instance k0_chk8.dec : ∀ (v125 : BitVec 32), Decidable (k0_chk8 v125) := fun v125 => decidable_of_iff' _ (Iff.of_eq (k0_chk8.eq_1 v125))
theorem k0_off16_inb : ∀ (v125 : BitVec 32) (k0_hw8 : k0_chk8 v125), ∀ a, (k0_off16 v125) a + S1x4096.size a ≤ S128x8192.size a := fun v125 k0_hw8 => k0_hw8

def k0_off17 (i : grid0.Coords) : Fin 1 → Nat :=
  let arg0 : BitVec 32 := BitVec.ofNat 32 (i 0).val
  let c128_i32 : BitVec 32 := 128#32
  let v0 : BitVec 32 := Scalar.muli arg0 c128_i32
  let c8_i32 : BitVec 32 := 8#32
  let v132 : BitVec 32 := Scalar.addi v0 c8_i32
  let v133 : Index := Scalar.indexCast v132
  ![v133.toNat]
def k0_off18 (v134 : BitVec 32) : Fin 2 → Nat :=
  let c8_i32_57 : BitVec 32 := 8#32
  ![8, v134.toNat]

def k0_chk9 (v134 : BitVec 32) : Prop :=
  (∀ a, (k0_off18 v134) a + S1x4096.size a ≤ S128x8192.size a)
instance k0_chk9.dec : ∀ (v134 : BitVec 32), Decidable (k0_chk9 v134) := fun v134 => decidable_of_iff' _ (Iff.of_eq (k0_chk9.eq_1 v134))
theorem k0_off18_inb : ∀ (v134 : BitVec 32) (k0_hw9 : k0_chk9 v134), ∀ a, (k0_off18 v134) a + S1x4096.size a ≤ S128x8192.size a := fun v134 k0_hw9 => k0_hw9

def k0_off19 (i : grid0.Coords) : Fin 1 → Nat :=
  let arg0 : BitVec 32 := BitVec.ofNat 32 (i 0).val
  let c128_i32 : BitVec 32 := 128#32
  let v0 : BitVec 32 := Scalar.muli arg0 c128_i32
  let c9_i32 : BitVec 32 := 9#32
  let v141 : BitVec 32 := Scalar.addi v0 c9_i32
  let v142 : Index := Scalar.indexCast v141
  ![v142.toNat]
def k0_off20 (v143 : BitVec 32) : Fin 2 → Nat :=
  let c9_i32_61 : BitVec 32 := 9#32
  ![9, v143.toNat]

def k0_chk10 (v143 : BitVec 32) : Prop :=
  (∀ a, (k0_off20 v143) a + S1x4096.size a ≤ S128x8192.size a)
instance k0_chk10.dec : ∀ (v143 : BitVec 32), Decidable (k0_chk10 v143) := fun v143 => decidable_of_iff' _ (Iff.of_eq (k0_chk10.eq_1 v143))
theorem k0_off20_inb : ∀ (v143 : BitVec 32) (k0_hw10 : k0_chk10 v143), ∀ a, (k0_off20 v143) a + S1x4096.size a ≤ S128x8192.size a := fun v143 k0_hw10 => k0_hw10

def k0_off21 (i : grid0.Coords) : Fin 1 → Nat :=
  let arg0 : BitVec 32 := BitVec.ofNat 32 (i 0).val
  let c128_i32 : BitVec 32 := 128#32
  let v0 : BitVec 32 := Scalar.muli arg0 c128_i32
  let c10_i32 : BitVec 32 := 10#32
  let v150 : BitVec 32 := Scalar.addi v0 c10_i32
  let v151 : Index := Scalar.indexCast v150
  ![v151.toNat]
def k0_off22 (v152 : BitVec 32) : Fin 2 → Nat :=
  let c10_i32_65 : BitVec 32 := 10#32
  ![10, v152.toNat]

def k0_chk11 (v152 : BitVec 32) : Prop :=
  (∀ a, (k0_off22 v152) a + S1x4096.size a ≤ S128x8192.size a)
instance k0_chk11.dec : ∀ (v152 : BitVec 32), Decidable (k0_chk11 v152) := fun v152 => decidable_of_iff' _ (Iff.of_eq (k0_chk11.eq_1 v152))
theorem k0_off22_inb : ∀ (v152 : BitVec 32) (k0_hw11 : k0_chk11 v152), ∀ a, (k0_off22 v152) a + S1x4096.size a ≤ S128x8192.size a := fun v152 k0_hw11 => k0_hw11

def k0_off23 (i : grid0.Coords) : Fin 1 → Nat :=
  let arg0 : BitVec 32 := BitVec.ofNat 32 (i 0).val
  let c128_i32 : BitVec 32 := 128#32
  let v0 : BitVec 32 := Scalar.muli arg0 c128_i32
  let c11_i32 : BitVec 32 := 11#32
  let v159 : BitVec 32 := Scalar.addi v0 c11_i32
  let v160 : Index := Scalar.indexCast v159
  ![v160.toNat]
def k0_off24 (v161 : BitVec 32) : Fin 2 → Nat :=
  let c11_i32_69 : BitVec 32 := 11#32
  ![11, v161.toNat]

def k0_chk12 (v161 : BitVec 32) : Prop :=
  (∀ a, (k0_off24 v161) a + S1x4096.size a ≤ S128x8192.size a)
instance k0_chk12.dec : ∀ (v161 : BitVec 32), Decidable (k0_chk12 v161) := fun v161 => decidable_of_iff' _ (Iff.of_eq (k0_chk12.eq_1 v161))
theorem k0_off24_inb : ∀ (v161 : BitVec 32) (k0_hw12 : k0_chk12 v161), ∀ a, (k0_off24 v161) a + S1x4096.size a ≤ S128x8192.size a := fun v161 k0_hw12 => k0_hw12

def k0_off25 (i : grid0.Coords) : Fin 1 → Nat :=
  let arg0 : BitVec 32 := BitVec.ofNat 32 (i 0).val
  let c128_i32 : BitVec 32 := 128#32
  let v0 : BitVec 32 := Scalar.muli arg0 c128_i32
  let c12_i32 : BitVec 32 := 12#32
  let v168 : BitVec 32 := Scalar.addi v0 c12_i32
  let v169 : Index := Scalar.indexCast v168
  ![v169.toNat]
def k0_off26 (v170 : BitVec 32) : Fin 2 → Nat :=
  let c12_i32_73 : BitVec 32 := 12#32
  ![12, v170.toNat]

def k0_chk13 (v170 : BitVec 32) : Prop :=
  (∀ a, (k0_off26 v170) a + S1x4096.size a ≤ S128x8192.size a)
instance k0_chk13.dec : ∀ (v170 : BitVec 32), Decidable (k0_chk13 v170) := fun v170 => decidable_of_iff' _ (Iff.of_eq (k0_chk13.eq_1 v170))
theorem k0_off26_inb : ∀ (v170 : BitVec 32) (k0_hw13 : k0_chk13 v170), ∀ a, (k0_off26 v170) a + S1x4096.size a ≤ S128x8192.size a := fun v170 k0_hw13 => k0_hw13

def k0_off27 (i : grid0.Coords) : Fin 1 → Nat :=
  let arg0 : BitVec 32 := BitVec.ofNat 32 (i 0).val
  let c128_i32 : BitVec 32 := 128#32
  let v0 : BitVec 32 := Scalar.muli arg0 c128_i32
  let c13_i32 : BitVec 32 := 13#32
  let v177 : BitVec 32 := Scalar.addi v0 c13_i32
  let v178 : Index := Scalar.indexCast v177
  ![v178.toNat]
def k0_off28 (v179 : BitVec 32) : Fin 2 → Nat :=
  let c13_i32_77 : BitVec 32 := 13#32
  ![13, v179.toNat]

def k0_chk14 (v179 : BitVec 32) : Prop :=
  (∀ a, (k0_off28 v179) a + S1x4096.size a ≤ S128x8192.size a)
instance k0_chk14.dec : ∀ (v179 : BitVec 32), Decidable (k0_chk14 v179) := fun v179 => decidable_of_iff' _ (Iff.of_eq (k0_chk14.eq_1 v179))
theorem k0_off28_inb : ∀ (v179 : BitVec 32) (k0_hw14 : k0_chk14 v179), ∀ a, (k0_off28 v179) a + S1x4096.size a ≤ S128x8192.size a := fun v179 k0_hw14 => k0_hw14

def k0_off29 (i : grid0.Coords) : Fin 1 → Nat :=
  let arg0 : BitVec 32 := BitVec.ofNat 32 (i 0).val
  let c128_i32 : BitVec 32 := 128#32
  let v0 : BitVec 32 := Scalar.muli arg0 c128_i32
  let c14_i32 : BitVec 32 := 14#32
  let v186 : BitVec 32 := Scalar.addi v0 c14_i32
  let v187 : Index := Scalar.indexCast v186
  ![v187.toNat]
def k0_off30 (v188 : BitVec 32) : Fin 2 → Nat :=
  let c14_i32_81 : BitVec 32 := 14#32
  ![14, v188.toNat]

def k0_chk15 (v188 : BitVec 32) : Prop :=
  (∀ a, (k0_off30 v188) a + S1x4096.size a ≤ S128x8192.size a)
instance k0_chk15.dec : ∀ (v188 : BitVec 32), Decidable (k0_chk15 v188) := fun v188 => decidable_of_iff' _ (Iff.of_eq (k0_chk15.eq_1 v188))
theorem k0_off30_inb : ∀ (v188 : BitVec 32) (k0_hw15 : k0_chk15 v188), ∀ a, (k0_off30 v188) a + S1x4096.size a ≤ S128x8192.size a := fun v188 k0_hw15 => k0_hw15

def k0_off31 (i : grid0.Coords) : Fin 1 → Nat :=
  let arg0 : BitVec 32 := BitVec.ofNat 32 (i 0).val
  let c128_i32 : BitVec 32 := 128#32
  let v0 : BitVec 32 := Scalar.muli arg0 c128_i32
  let c15_i32 : BitVec 32 := 15#32
  let v195 : BitVec 32 := Scalar.addi v0 c15_i32
  let v196 : Index := Scalar.indexCast v195
  ![v196.toNat]
def k0_off32 (v197 : BitVec 32) : Fin 2 → Nat :=
  let c15_i32_85 : BitVec 32 := 15#32
  ![15, v197.toNat]

def k0_chk16 (v197 : BitVec 32) : Prop :=
  (∀ a, (k0_off32 v197) a + S1x4096.size a ≤ S128x8192.size a)
instance k0_chk16.dec : ∀ (v197 : BitVec 32), Decidable (k0_chk16 v197) := fun v197 => decidable_of_iff' _ (Iff.of_eq (k0_chk16.eq_1 v197))
theorem k0_off32_inb : ∀ (v197 : BitVec 32) (k0_hw16 : k0_chk16 v197), ∀ a, (k0_off32 v197) a + S1x4096.size a ≤ S128x8192.size a := fun v197 k0_hw16 => k0_hw16

def k0_off33 (i : grid0.Coords) : Fin 1 → Nat :=
  let arg0 : BitVec 32 := BitVec.ofNat 32 (i 0).val
  let c128_i32 : BitVec 32 := 128#32
  let v0 : BitVec 32 := Scalar.muli arg0 c128_i32
  let c16_i32 : BitVec 32 := 16#32
  let v204 : BitVec 32 := Scalar.addi v0 c16_i32
  let v205 : Index := Scalar.indexCast v204
  ![v205.toNat]
def k0_off34 (v206 : BitVec 32) : Fin 2 → Nat :=
  let c16_i32_89 : BitVec 32 := 16#32
  ![16, v206.toNat]

def k0_chk17 (v206 : BitVec 32) : Prop :=
  (∀ a, (k0_off34 v206) a + S1x4096.size a ≤ S128x8192.size a)
instance k0_chk17.dec : ∀ (v206 : BitVec 32), Decidable (k0_chk17 v206) := fun v206 => decidable_of_iff' _ (Iff.of_eq (k0_chk17.eq_1 v206))
theorem k0_off34_inb : ∀ (v206 : BitVec 32) (k0_hw17 : k0_chk17 v206), ∀ a, (k0_off34 v206) a + S1x4096.size a ≤ S128x8192.size a := fun v206 k0_hw17 => k0_hw17

def k0_off35 (i : grid0.Coords) : Fin 1 → Nat :=
  let arg0 : BitVec 32 := BitVec.ofNat 32 (i 0).val
  let c128_i32 : BitVec 32 := 128#32
  let v0 : BitVec 32 := Scalar.muli arg0 c128_i32
  let c17_i32 : BitVec 32 := 17#32
  let v213 : BitVec 32 := Scalar.addi v0 c17_i32
  let v214 : Index := Scalar.indexCast v213
  ![v214.toNat]
def k0_off36 (v215 : BitVec 32) : Fin 2 → Nat :=
  let c17_i32_93 : BitVec 32 := 17#32
  ![17, v215.toNat]

def k0_chk18 (v215 : BitVec 32) : Prop :=
  (∀ a, (k0_off36 v215) a + S1x4096.size a ≤ S128x8192.size a)
instance k0_chk18.dec : ∀ (v215 : BitVec 32), Decidable (k0_chk18 v215) := fun v215 => decidable_of_iff' _ (Iff.of_eq (k0_chk18.eq_1 v215))
theorem k0_off36_inb : ∀ (v215 : BitVec 32) (k0_hw18 : k0_chk18 v215), ∀ a, (k0_off36 v215) a + S1x4096.size a ≤ S128x8192.size a := fun v215 k0_hw18 => k0_hw18

def k0_off37 (i : grid0.Coords) : Fin 1 → Nat :=
  let arg0 : BitVec 32 := BitVec.ofNat 32 (i 0).val
  let c128_i32 : BitVec 32 := 128#32
  let v0 : BitVec 32 := Scalar.muli arg0 c128_i32
  let c18_i32 : BitVec 32 := 18#32
  let v222 : BitVec 32 := Scalar.addi v0 c18_i32
  let v223 : Index := Scalar.indexCast v222
  ![v223.toNat]
def k0_off38 (v224 : BitVec 32) : Fin 2 → Nat :=
  let c18_i32_97 : BitVec 32 := 18#32
  ![18, v224.toNat]

def k0_chk19 (v224 : BitVec 32) : Prop :=
  (∀ a, (k0_off38 v224) a + S1x4096.size a ≤ S128x8192.size a)
instance k0_chk19.dec : ∀ (v224 : BitVec 32), Decidable (k0_chk19 v224) := fun v224 => decidable_of_iff' _ (Iff.of_eq (k0_chk19.eq_1 v224))
theorem k0_off38_inb : ∀ (v224 : BitVec 32) (k0_hw19 : k0_chk19 v224), ∀ a, (k0_off38 v224) a + S1x4096.size a ≤ S128x8192.size a := fun v224 k0_hw19 => k0_hw19

def k0_off39 (i : grid0.Coords) : Fin 1 → Nat :=
  let arg0 : BitVec 32 := BitVec.ofNat 32 (i 0).val
  let c128_i32 : BitVec 32 := 128#32
  let v0 : BitVec 32 := Scalar.muli arg0 c128_i32
  let c19_i32 : BitVec 32 := 19#32
  let v231 : BitVec 32 := Scalar.addi v0 c19_i32
  let v232 : Index := Scalar.indexCast v231
  ![v232.toNat]
def k0_off40 (v233 : BitVec 32) : Fin 2 → Nat :=
  let c19_i32_101 : BitVec 32 := 19#32
  ![19, v233.toNat]

def k0_chk20 (v233 : BitVec 32) : Prop :=
  (∀ a, (k0_off40 v233) a + S1x4096.size a ≤ S128x8192.size a)
instance k0_chk20.dec : ∀ (v233 : BitVec 32), Decidable (k0_chk20 v233) := fun v233 => decidable_of_iff' _ (Iff.of_eq (k0_chk20.eq_1 v233))
theorem k0_off40_inb : ∀ (v233 : BitVec 32) (k0_hw20 : k0_chk20 v233), ∀ a, (k0_off40 v233) a + S1x4096.size a ≤ S128x8192.size a := fun v233 k0_hw20 => k0_hw20

def k0_off41 (i : grid0.Coords) : Fin 1 → Nat :=
  let arg0 : BitVec 32 := BitVec.ofNat 32 (i 0).val
  let c128_i32 : BitVec 32 := 128#32
  let v0 : BitVec 32 := Scalar.muli arg0 c128_i32
  let c20_i32 : BitVec 32 := 20#32
  let v240 : BitVec 32 := Scalar.addi v0 c20_i32
  let v241 : Index := Scalar.indexCast v240
  ![v241.toNat]
def k0_off42 (v242 : BitVec 32) : Fin 2 → Nat :=
  let c20_i32_105 : BitVec 32 := 20#32
  ![20, v242.toNat]

def k0_chk21 (v242 : BitVec 32) : Prop :=
  (∀ a, (k0_off42 v242) a + S1x4096.size a ≤ S128x8192.size a)
instance k0_chk21.dec : ∀ (v242 : BitVec 32), Decidable (k0_chk21 v242) := fun v242 => decidable_of_iff' _ (Iff.of_eq (k0_chk21.eq_1 v242))
theorem k0_off42_inb : ∀ (v242 : BitVec 32) (k0_hw21 : k0_chk21 v242), ∀ a, (k0_off42 v242) a + S1x4096.size a ≤ S128x8192.size a := fun v242 k0_hw21 => k0_hw21

def k0_off43 (i : grid0.Coords) : Fin 1 → Nat :=
  let arg0 : BitVec 32 := BitVec.ofNat 32 (i 0).val
  let c128_i32 : BitVec 32 := 128#32
  let v0 : BitVec 32 := Scalar.muli arg0 c128_i32
  let c21_i32 : BitVec 32 := 21#32
  let v249 : BitVec 32 := Scalar.addi v0 c21_i32
  let v250 : Index := Scalar.indexCast v249
  ![v250.toNat]
def k0_off44 (v251 : BitVec 32) : Fin 2 → Nat :=
  let c21_i32_109 : BitVec 32 := 21#32
  ![21, v251.toNat]

def k0_chk22 (v251 : BitVec 32) : Prop :=
  (∀ a, (k0_off44 v251) a + S1x4096.size a ≤ S128x8192.size a)
instance k0_chk22.dec : ∀ (v251 : BitVec 32), Decidable (k0_chk22 v251) := fun v251 => decidable_of_iff' _ (Iff.of_eq (k0_chk22.eq_1 v251))
theorem k0_off44_inb : ∀ (v251 : BitVec 32) (k0_hw22 : k0_chk22 v251), ∀ a, (k0_off44 v251) a + S1x4096.size a ≤ S128x8192.size a := fun v251 k0_hw22 => k0_hw22

def k0_off45 (i : grid0.Coords) : Fin 1 → Nat :=
  let arg0 : BitVec 32 := BitVec.ofNat 32 (i 0).val
  let c128_i32 : BitVec 32 := 128#32
  let v0 : BitVec 32 := Scalar.muli arg0 c128_i32
  let c22_i32 : BitVec 32 := 22#32
  let v258 : BitVec 32 := Scalar.addi v0 c22_i32
  let v259 : Index := Scalar.indexCast v258
  ![v259.toNat]
def k0_off46 (v260 : BitVec 32) : Fin 2 → Nat :=
  let c22_i32_113 : BitVec 32 := 22#32
  ![22, v260.toNat]

def k0_chk23 (v260 : BitVec 32) : Prop :=
  (∀ a, (k0_off46 v260) a + S1x4096.size a ≤ S128x8192.size a)
instance k0_chk23.dec : ∀ (v260 : BitVec 32), Decidable (k0_chk23 v260) := fun v260 => decidable_of_iff' _ (Iff.of_eq (k0_chk23.eq_1 v260))
theorem k0_off46_inb : ∀ (v260 : BitVec 32) (k0_hw23 : k0_chk23 v260), ∀ a, (k0_off46 v260) a + S1x4096.size a ≤ S128x8192.size a := fun v260 k0_hw23 => k0_hw23

def k0_off47 (i : grid0.Coords) : Fin 1 → Nat :=
  let arg0 : BitVec 32 := BitVec.ofNat 32 (i 0).val
  let c128_i32 : BitVec 32 := 128#32
  let v0 : BitVec 32 := Scalar.muli arg0 c128_i32
  let c23_i32 : BitVec 32 := 23#32
  let v267 : BitVec 32 := Scalar.addi v0 c23_i32
  let v268 : Index := Scalar.indexCast v267
  ![v268.toNat]
def k0_off48 (v269 : BitVec 32) : Fin 2 → Nat :=
  let c23_i32_117 : BitVec 32 := 23#32
  ![23, v269.toNat]

def k0_chk24 (v269 : BitVec 32) : Prop :=
  (∀ a, (k0_off48 v269) a + S1x4096.size a ≤ S128x8192.size a)
instance k0_chk24.dec : ∀ (v269 : BitVec 32), Decidable (k0_chk24 v269) := fun v269 => decidable_of_iff' _ (Iff.of_eq (k0_chk24.eq_1 v269))
theorem k0_off48_inb : ∀ (v269 : BitVec 32) (k0_hw24 : k0_chk24 v269), ∀ a, (k0_off48 v269) a + S1x4096.size a ≤ S128x8192.size a := fun v269 k0_hw24 => k0_hw24

def k0_off49 (i : grid0.Coords) : Fin 1 → Nat :=
  let arg0 : BitVec 32 := BitVec.ofNat 32 (i 0).val
  let c128_i32 : BitVec 32 := 128#32
  let v0 : BitVec 32 := Scalar.muli arg0 c128_i32
  let c24_i32 : BitVec 32 := 24#32
  let v276 : BitVec 32 := Scalar.addi v0 c24_i32
  let v277 : Index := Scalar.indexCast v276
  ![v277.toNat]
def k0_off50 (v278 : BitVec 32) : Fin 2 → Nat :=
  let c24_i32_121 : BitVec 32 := 24#32
  ![24, v278.toNat]

def k0_chk25 (v278 : BitVec 32) : Prop :=
  (∀ a, (k0_off50 v278) a + S1x4096.size a ≤ S128x8192.size a)
instance k0_chk25.dec : ∀ (v278 : BitVec 32), Decidable (k0_chk25 v278) := fun v278 => decidable_of_iff' _ (Iff.of_eq (k0_chk25.eq_1 v278))
theorem k0_off50_inb : ∀ (v278 : BitVec 32) (k0_hw25 : k0_chk25 v278), ∀ a, (k0_off50 v278) a + S1x4096.size a ≤ S128x8192.size a := fun v278 k0_hw25 => k0_hw25

def k0_off51 (i : grid0.Coords) : Fin 1 → Nat :=
  let arg0 : BitVec 32 := BitVec.ofNat 32 (i 0).val
  let c128_i32 : BitVec 32 := 128#32
  let v0 : BitVec 32 := Scalar.muli arg0 c128_i32
  let c25_i32 : BitVec 32 := 25#32
  let v285 : BitVec 32 := Scalar.addi v0 c25_i32
  let v286 : Index := Scalar.indexCast v285
  ![v286.toNat]
def k0_off52 (v287 : BitVec 32) : Fin 2 → Nat :=
  let c25_i32_125 : BitVec 32 := 25#32
  ![25, v287.toNat]

def k0_chk26 (v287 : BitVec 32) : Prop :=
  (∀ a, (k0_off52 v287) a + S1x4096.size a ≤ S128x8192.size a)
instance k0_chk26.dec : ∀ (v287 : BitVec 32), Decidable (k0_chk26 v287) := fun v287 => decidable_of_iff' _ (Iff.of_eq (k0_chk26.eq_1 v287))
theorem k0_off52_inb : ∀ (v287 : BitVec 32) (k0_hw26 : k0_chk26 v287), ∀ a, (k0_off52 v287) a + S1x4096.size a ≤ S128x8192.size a := fun v287 k0_hw26 => k0_hw26

def k0_off53 (i : grid0.Coords) : Fin 1 → Nat :=
  let arg0 : BitVec 32 := BitVec.ofNat 32 (i 0).val
  let c128_i32 : BitVec 32 := 128#32
  let v0 : BitVec 32 := Scalar.muli arg0 c128_i32
  let c26_i32 : BitVec 32 := 26#32
  let v294 : BitVec 32 := Scalar.addi v0 c26_i32
  let v295 : Index := Scalar.indexCast v294
  ![v295.toNat]
def k0_off54 (v296 : BitVec 32) : Fin 2 → Nat :=
  let c26_i32_129 : BitVec 32 := 26#32
  ![26, v296.toNat]

def k0_chk27 (v296 : BitVec 32) : Prop :=
  (∀ a, (k0_off54 v296) a + S1x4096.size a ≤ S128x8192.size a)
instance k0_chk27.dec : ∀ (v296 : BitVec 32), Decidable (k0_chk27 v296) := fun v296 => decidable_of_iff' _ (Iff.of_eq (k0_chk27.eq_1 v296))
theorem k0_off54_inb : ∀ (v296 : BitVec 32) (k0_hw27 : k0_chk27 v296), ∀ a, (k0_off54 v296) a + S1x4096.size a ≤ S128x8192.size a := fun v296 k0_hw27 => k0_hw27

def k0_off55 (i : grid0.Coords) : Fin 1 → Nat :=
  let arg0 : BitVec 32 := BitVec.ofNat 32 (i 0).val
  let c128_i32 : BitVec 32 := 128#32
  let v0 : BitVec 32 := Scalar.muli arg0 c128_i32
  let c27_i32 : BitVec 32 := 27#32
  let v303 : BitVec 32 := Scalar.addi v0 c27_i32
  let v304 : Index := Scalar.indexCast v303
  ![v304.toNat]
def k0_off56 (v305 : BitVec 32) : Fin 2 → Nat :=
  let c27_i32_133 : BitVec 32 := 27#32
  ![27, v305.toNat]

def k0_chk28 (v305 : BitVec 32) : Prop :=
  (∀ a, (k0_off56 v305) a + S1x4096.size a ≤ S128x8192.size a)
instance k0_chk28.dec : ∀ (v305 : BitVec 32), Decidable (k0_chk28 v305) := fun v305 => decidable_of_iff' _ (Iff.of_eq (k0_chk28.eq_1 v305))
theorem k0_off56_inb : ∀ (v305 : BitVec 32) (k0_hw28 : k0_chk28 v305), ∀ a, (k0_off56 v305) a + S1x4096.size a ≤ S128x8192.size a := fun v305 k0_hw28 => k0_hw28

def k0_off57 (i : grid0.Coords) : Fin 1 → Nat :=
  let arg0 : BitVec 32 := BitVec.ofNat 32 (i 0).val
  let c128_i32 : BitVec 32 := 128#32
  let v0 : BitVec 32 := Scalar.muli arg0 c128_i32
  let c28_i32 : BitVec 32 := 28#32
  let v312 : BitVec 32 := Scalar.addi v0 c28_i32
  let v313 : Index := Scalar.indexCast v312
  ![v313.toNat]
def k0_off58 (v314 : BitVec 32) : Fin 2 → Nat :=
  let c28_i32_137 : BitVec 32 := 28#32
  ![28, v314.toNat]

def k0_chk29 (v314 : BitVec 32) : Prop :=
  (∀ a, (k0_off58 v314) a + S1x4096.size a ≤ S128x8192.size a)
instance k0_chk29.dec : ∀ (v314 : BitVec 32), Decidable (k0_chk29 v314) := fun v314 => decidable_of_iff' _ (Iff.of_eq (k0_chk29.eq_1 v314))
theorem k0_off58_inb : ∀ (v314 : BitVec 32) (k0_hw29 : k0_chk29 v314), ∀ a, (k0_off58 v314) a + S1x4096.size a ≤ S128x8192.size a := fun v314 k0_hw29 => k0_hw29

def k0_off59 (i : grid0.Coords) : Fin 1 → Nat :=
  let arg0 : BitVec 32 := BitVec.ofNat 32 (i 0).val
  let c128_i32 : BitVec 32 := 128#32
  let v0 : BitVec 32 := Scalar.muli arg0 c128_i32
  let c29_i32 : BitVec 32 := 29#32
  let v321 : BitVec 32 := Scalar.addi v0 c29_i32
  let v322 : Index := Scalar.indexCast v321
  ![v322.toNat]
def k0_off60 (v323 : BitVec 32) : Fin 2 → Nat :=
  let c29_i32_141 : BitVec 32 := 29#32
  ![29, v323.toNat]

def k0_chk30 (v323 : BitVec 32) : Prop :=
  (∀ a, (k0_off60 v323) a + S1x4096.size a ≤ S128x8192.size a)
instance k0_chk30.dec : ∀ (v323 : BitVec 32), Decidable (k0_chk30 v323) := fun v323 => decidable_of_iff' _ (Iff.of_eq (k0_chk30.eq_1 v323))
theorem k0_off60_inb : ∀ (v323 : BitVec 32) (k0_hw30 : k0_chk30 v323), ∀ a, (k0_off60 v323) a + S1x4096.size a ≤ S128x8192.size a := fun v323 k0_hw30 => k0_hw30

def k0_off61 (i : grid0.Coords) : Fin 1 → Nat :=
  let arg0 : BitVec 32 := BitVec.ofNat 32 (i 0).val
  let c128_i32 : BitVec 32 := 128#32
  let v0 : BitVec 32 := Scalar.muli arg0 c128_i32
  let c30_i32 : BitVec 32 := 30#32
  let v330 : BitVec 32 := Scalar.addi v0 c30_i32
  let v331 : Index := Scalar.indexCast v330
  ![v331.toNat]
def k0_off62 (v332 : BitVec 32) : Fin 2 → Nat :=
  let c30_i32_145 : BitVec 32 := 30#32
  ![30, v332.toNat]

def k0_chk31 (v332 : BitVec 32) : Prop :=
  (∀ a, (k0_off62 v332) a + S1x4096.size a ≤ S128x8192.size a)
instance k0_chk31.dec : ∀ (v332 : BitVec 32), Decidable (k0_chk31 v332) := fun v332 => decidable_of_iff' _ (Iff.of_eq (k0_chk31.eq_1 v332))
theorem k0_off62_inb : ∀ (v332 : BitVec 32) (k0_hw31 : k0_chk31 v332), ∀ a, (k0_off62 v332) a + S1x4096.size a ≤ S128x8192.size a := fun v332 k0_hw31 => k0_hw31

def k0_off63 (i : grid0.Coords) : Fin 1 → Nat :=
  let arg0 : BitVec 32 := BitVec.ofNat 32 (i 0).val
  let c128_i32 : BitVec 32 := 128#32
  let v0 : BitVec 32 := Scalar.muli arg0 c128_i32
  let c31_i32 : BitVec 32 := 31#32
  let v339 : BitVec 32 := Scalar.addi v0 c31_i32
  let v340 : Index := Scalar.indexCast v339
  ![v340.toNat]
def k0_off64 (v341 : BitVec 32) : Fin 2 → Nat :=
  let c31_i32_149 : BitVec 32 := 31#32
  ![31, v341.toNat]

def k0_chk32 (v341 : BitVec 32) : Prop :=
  (∀ a, (k0_off64 v341) a + S1x4096.size a ≤ S128x8192.size a)
instance k0_chk32.dec : ∀ (v341 : BitVec 32), Decidable (k0_chk32 v341) := fun v341 => decidable_of_iff' _ (Iff.of_eq (k0_chk32.eq_1 v341))
theorem k0_off64_inb : ∀ (v341 : BitVec 32) (k0_hw32 : k0_chk32 v341), ∀ a, (k0_off64 v341) a + S1x4096.size a ≤ S128x8192.size a := fun v341 k0_hw32 => k0_hw32

def k0_off65 (i : grid0.Coords) : Fin 1 → Nat :=
  let arg0 : BitVec 32 := BitVec.ofNat 32 (i 0).val
  let c128_i32 : BitVec 32 := 128#32
  let v0 : BitVec 32 := Scalar.muli arg0 c128_i32
  let c32_i32 : BitVec 32 := 32#32
  let v348 : BitVec 32 := Scalar.addi v0 c32_i32
  let v349 : Index := Scalar.indexCast v348
  ![v349.toNat]
def k0_off66 (v350 : BitVec 32) : Fin 2 → Nat :=
  let c32_i32_153 : BitVec 32 := 32#32
  ![32, v350.toNat]

def k0_chk33 (v350 : BitVec 32) : Prop :=
  (∀ a, (k0_off66 v350) a + S1x4096.size a ≤ S128x8192.size a)
instance k0_chk33.dec : ∀ (v350 : BitVec 32), Decidable (k0_chk33 v350) := fun v350 => decidable_of_iff' _ (Iff.of_eq (k0_chk33.eq_1 v350))
theorem k0_off66_inb : ∀ (v350 : BitVec 32) (k0_hw33 : k0_chk33 v350), ∀ a, (k0_off66 v350) a + S1x4096.size a ≤ S128x8192.size a := fun v350 k0_hw33 => k0_hw33

def k0_off67 (i : grid0.Coords) : Fin 1 → Nat :=
  let arg0 : BitVec 32 := BitVec.ofNat 32 (i 0).val
  let c128_i32 : BitVec 32 := 128#32
  let v0 : BitVec 32 := Scalar.muli arg0 c128_i32
  let c33_i32 : BitVec 32 := 33#32
  let v357 : BitVec 32 := Scalar.addi v0 c33_i32
  let v358 : Index := Scalar.indexCast v357
  ![v358.toNat]
def k0_off68 (v359 : BitVec 32) : Fin 2 → Nat :=
  let c33_i32_157 : BitVec 32 := 33#32
  ![33, v359.toNat]

def k0_chk34 (v359 : BitVec 32) : Prop :=
  (∀ a, (k0_off68 v359) a + S1x4096.size a ≤ S128x8192.size a)
instance k0_chk34.dec : ∀ (v359 : BitVec 32), Decidable (k0_chk34 v359) := fun v359 => decidable_of_iff' _ (Iff.of_eq (k0_chk34.eq_1 v359))
theorem k0_off68_inb : ∀ (v359 : BitVec 32) (k0_hw34 : k0_chk34 v359), ∀ a, (k0_off68 v359) a + S1x4096.size a ≤ S128x8192.size a := fun v359 k0_hw34 => k0_hw34

def k0_off69 (i : grid0.Coords) : Fin 1 → Nat :=
  let arg0 : BitVec 32 := BitVec.ofNat 32 (i 0).val
  let c128_i32 : BitVec 32 := 128#32
  let v0 : BitVec 32 := Scalar.muli arg0 c128_i32
  let c34_i32 : BitVec 32 := 34#32
  let v366 : BitVec 32 := Scalar.addi v0 c34_i32
  let v367 : Index := Scalar.indexCast v366
  ![v367.toNat]
def k0_off70 (v368 : BitVec 32) : Fin 2 → Nat :=
  let c34_i32_161 : BitVec 32 := 34#32
  ![34, v368.toNat]

def k0_chk35 (v368 : BitVec 32) : Prop :=
  (∀ a, (k0_off70 v368) a + S1x4096.size a ≤ S128x8192.size a)
instance k0_chk35.dec : ∀ (v368 : BitVec 32), Decidable (k0_chk35 v368) := fun v368 => decidable_of_iff' _ (Iff.of_eq (k0_chk35.eq_1 v368))
theorem k0_off70_inb : ∀ (v368 : BitVec 32) (k0_hw35 : k0_chk35 v368), ∀ a, (k0_off70 v368) a + S1x4096.size a ≤ S128x8192.size a := fun v368 k0_hw35 => k0_hw35

def k0_off71 (i : grid0.Coords) : Fin 1 → Nat :=
  let arg0 : BitVec 32 := BitVec.ofNat 32 (i 0).val
  let c128_i32 : BitVec 32 := 128#32
  let v0 : BitVec 32 := Scalar.muli arg0 c128_i32
  let c35_i32 : BitVec 32 := 35#32
  let v375 : BitVec 32 := Scalar.addi v0 c35_i32
  let v376 : Index := Scalar.indexCast v375
  ![v376.toNat]
def k0_off72 (v377 : BitVec 32) : Fin 2 → Nat :=
  let c35_i32_165 : BitVec 32 := 35#32
  ![35, v377.toNat]

def k0_chk36 (v377 : BitVec 32) : Prop :=
  (∀ a, (k0_off72 v377) a + S1x4096.size a ≤ S128x8192.size a)
instance k0_chk36.dec : ∀ (v377 : BitVec 32), Decidable (k0_chk36 v377) := fun v377 => decidable_of_iff' _ (Iff.of_eq (k0_chk36.eq_1 v377))
theorem k0_off72_inb : ∀ (v377 : BitVec 32) (k0_hw36 : k0_chk36 v377), ∀ a, (k0_off72 v377) a + S1x4096.size a ≤ S128x8192.size a := fun v377 k0_hw36 => k0_hw36

def k0_off73 (i : grid0.Coords) : Fin 1 → Nat :=
  let arg0 : BitVec 32 := BitVec.ofNat 32 (i 0).val
  let c128_i32 : BitVec 32 := 128#32
  let v0 : BitVec 32 := Scalar.muli arg0 c128_i32
  let c36_i32 : BitVec 32 := 36#32
  let v384 : BitVec 32 := Scalar.addi v0 c36_i32
  let v385 : Index := Scalar.indexCast v384
  ![v385.toNat]
def k0_off74 (v386 : BitVec 32) : Fin 2 → Nat :=
  let c36_i32_169 : BitVec 32 := 36#32
  ![36, v386.toNat]

def k0_chk37 (v386 : BitVec 32) : Prop :=
  (∀ a, (k0_off74 v386) a + S1x4096.size a ≤ S128x8192.size a)
instance k0_chk37.dec : ∀ (v386 : BitVec 32), Decidable (k0_chk37 v386) := fun v386 => decidable_of_iff' _ (Iff.of_eq (k0_chk37.eq_1 v386))
theorem k0_off74_inb : ∀ (v386 : BitVec 32) (k0_hw37 : k0_chk37 v386), ∀ a, (k0_off74 v386) a + S1x4096.size a ≤ S128x8192.size a := fun v386 k0_hw37 => k0_hw37

def k0_off75 (i : grid0.Coords) : Fin 1 → Nat :=
  let arg0 : BitVec 32 := BitVec.ofNat 32 (i 0).val
  let c128_i32 : BitVec 32 := 128#32
  let v0 : BitVec 32 := Scalar.muli arg0 c128_i32
  let c37_i32 : BitVec 32 := 37#32
  let v393 : BitVec 32 := Scalar.addi v0 c37_i32
  let v394 : Index := Scalar.indexCast v393
  ![v394.toNat]
def k0_off76 (v395 : BitVec 32) : Fin 2 → Nat :=
  let c37_i32_173 : BitVec 32 := 37#32
  ![37, v395.toNat]

def k0_chk38 (v395 : BitVec 32) : Prop :=
  (∀ a, (k0_off76 v395) a + S1x4096.size a ≤ S128x8192.size a)
instance k0_chk38.dec : ∀ (v395 : BitVec 32), Decidable (k0_chk38 v395) := fun v395 => decidable_of_iff' _ (Iff.of_eq (k0_chk38.eq_1 v395))
theorem k0_off76_inb : ∀ (v395 : BitVec 32) (k0_hw38 : k0_chk38 v395), ∀ a, (k0_off76 v395) a + S1x4096.size a ≤ S128x8192.size a := fun v395 k0_hw38 => k0_hw38

def k0_off77 (i : grid0.Coords) : Fin 1 → Nat :=
  let arg0 : BitVec 32 := BitVec.ofNat 32 (i 0).val
  let c128_i32 : BitVec 32 := 128#32
  let v0 : BitVec 32 := Scalar.muli arg0 c128_i32
  let c38_i32 : BitVec 32 := 38#32
  let v402 : BitVec 32 := Scalar.addi v0 c38_i32
  let v403 : Index := Scalar.indexCast v402
  ![v403.toNat]
def k0_off78 (v404 : BitVec 32) : Fin 2 → Nat :=
  let c38_i32_177 : BitVec 32 := 38#32
  ![38, v404.toNat]

def k0_chk39 (v404 : BitVec 32) : Prop :=
  (∀ a, (k0_off78 v404) a + S1x4096.size a ≤ S128x8192.size a)
instance k0_chk39.dec : ∀ (v404 : BitVec 32), Decidable (k0_chk39 v404) := fun v404 => decidable_of_iff' _ (Iff.of_eq (k0_chk39.eq_1 v404))
theorem k0_off78_inb : ∀ (v404 : BitVec 32) (k0_hw39 : k0_chk39 v404), ∀ a, (k0_off78 v404) a + S1x4096.size a ≤ S128x8192.size a := fun v404 k0_hw39 => k0_hw39

def k0_off79 (i : grid0.Coords) : Fin 1 → Nat :=
  let arg0 : BitVec 32 := BitVec.ofNat 32 (i 0).val
  let c128_i32 : BitVec 32 := 128#32
  let v0 : BitVec 32 := Scalar.muli arg0 c128_i32
  let c39_i32 : BitVec 32 := 39#32
  let v411 : BitVec 32 := Scalar.addi v0 c39_i32
  let v412 : Index := Scalar.indexCast v411
  ![v412.toNat]
def k0_off80 (v413 : BitVec 32) : Fin 2 → Nat :=
  let c39_i32_181 : BitVec 32 := 39#32
  ![39, v413.toNat]

def k0_chk40 (v413 : BitVec 32) : Prop :=
  (∀ a, (k0_off80 v413) a + S1x4096.size a ≤ S128x8192.size a)
instance k0_chk40.dec : ∀ (v413 : BitVec 32), Decidable (k0_chk40 v413) := fun v413 => decidable_of_iff' _ (Iff.of_eq (k0_chk40.eq_1 v413))
theorem k0_off80_inb : ∀ (v413 : BitVec 32) (k0_hw40 : k0_chk40 v413), ∀ a, (k0_off80 v413) a + S1x4096.size a ≤ S128x8192.size a := fun v413 k0_hw40 => k0_hw40

def k0_off81 (i : grid0.Coords) : Fin 1 → Nat :=
  let arg0 : BitVec 32 := BitVec.ofNat 32 (i 0).val
  let c128_i32 : BitVec 32 := 128#32
  let v0 : BitVec 32 := Scalar.muli arg0 c128_i32
  let c40_i32 : BitVec 32 := 40#32
  let v420 : BitVec 32 := Scalar.addi v0 c40_i32
  let v421 : Index := Scalar.indexCast v420
  ![v421.toNat]
def k0_off82 (v422 : BitVec 32) : Fin 2 → Nat :=
  let c40_i32_185 : BitVec 32 := 40#32
  ![40, v422.toNat]

def k0_chk41 (v422 : BitVec 32) : Prop :=
  (∀ a, (k0_off82 v422) a + S1x4096.size a ≤ S128x8192.size a)
instance k0_chk41.dec : ∀ (v422 : BitVec 32), Decidable (k0_chk41 v422) := fun v422 => decidable_of_iff' _ (Iff.of_eq (k0_chk41.eq_1 v422))
theorem k0_off82_inb : ∀ (v422 : BitVec 32) (k0_hw41 : k0_chk41 v422), ∀ a, (k0_off82 v422) a + S1x4096.size a ≤ S128x8192.size a := fun v422 k0_hw41 => k0_hw41

def k0_off83 (i : grid0.Coords) : Fin 1 → Nat :=
  let arg0 : BitVec 32 := BitVec.ofNat 32 (i 0).val
  let c128_i32 : BitVec 32 := 128#32
  let v0 : BitVec 32 := Scalar.muli arg0 c128_i32
  let c41_i32 : BitVec 32 := 41#32
  let v429 : BitVec 32 := Scalar.addi v0 c41_i32
  let v430 : Index := Scalar.indexCast v429
  ![v430.toNat]
def k0_off84 (v431 : BitVec 32) : Fin 2 → Nat :=
  let c41_i32_189 : BitVec 32 := 41#32
  ![41, v431.toNat]

def k0_chk42 (v431 : BitVec 32) : Prop :=
  (∀ a, (k0_off84 v431) a + S1x4096.size a ≤ S128x8192.size a)
instance k0_chk42.dec : ∀ (v431 : BitVec 32), Decidable (k0_chk42 v431) := fun v431 => decidable_of_iff' _ (Iff.of_eq (k0_chk42.eq_1 v431))
theorem k0_off84_inb : ∀ (v431 : BitVec 32) (k0_hw42 : k0_chk42 v431), ∀ a, (k0_off84 v431) a + S1x4096.size a ≤ S128x8192.size a := fun v431 k0_hw42 => k0_hw42

def k0_off85 (i : grid0.Coords) : Fin 1 → Nat :=
  let arg0 : BitVec 32 := BitVec.ofNat 32 (i 0).val
  let c128_i32 : BitVec 32 := 128#32
  let v0 : BitVec 32 := Scalar.muli arg0 c128_i32
  let c42_i32 : BitVec 32 := 42#32
  let v438 : BitVec 32 := Scalar.addi v0 c42_i32
  let v439 : Index := Scalar.indexCast v438
  ![v439.toNat]
def k0_off86 (v440 : BitVec 32) : Fin 2 → Nat :=
  let c42_i32_193 : BitVec 32 := 42#32
  ![42, v440.toNat]

def k0_chk43 (v440 : BitVec 32) : Prop :=
  (∀ a, (k0_off86 v440) a + S1x4096.size a ≤ S128x8192.size a)
instance k0_chk43.dec : ∀ (v440 : BitVec 32), Decidable (k0_chk43 v440) := fun v440 => decidable_of_iff' _ (Iff.of_eq (k0_chk43.eq_1 v440))
theorem k0_off86_inb : ∀ (v440 : BitVec 32) (k0_hw43 : k0_chk43 v440), ∀ a, (k0_off86 v440) a + S1x4096.size a ≤ S128x8192.size a := fun v440 k0_hw43 => k0_hw43

def k0_off87 (i : grid0.Coords) : Fin 1 → Nat :=
  let arg0 : BitVec 32 := BitVec.ofNat 32 (i 0).val
  let c128_i32 : BitVec 32 := 128#32
  let v0 : BitVec 32 := Scalar.muli arg0 c128_i32
  let c43_i32 : BitVec 32 := 43#32
  let v447 : BitVec 32 := Scalar.addi v0 c43_i32
  let v448 : Index := Scalar.indexCast v447
  ![v448.toNat]
def k0_off88 (v449 : BitVec 32) : Fin 2 → Nat :=
  let c43_i32_197 : BitVec 32 := 43#32
  ![43, v449.toNat]

def k0_chk44 (v449 : BitVec 32) : Prop :=
  (∀ a, (k0_off88 v449) a + S1x4096.size a ≤ S128x8192.size a)
instance k0_chk44.dec : ∀ (v449 : BitVec 32), Decidable (k0_chk44 v449) := fun v449 => decidable_of_iff' _ (Iff.of_eq (k0_chk44.eq_1 v449))
theorem k0_off88_inb : ∀ (v449 : BitVec 32) (k0_hw44 : k0_chk44 v449), ∀ a, (k0_off88 v449) a + S1x4096.size a ≤ S128x8192.size a := fun v449 k0_hw44 => k0_hw44

def k0_off89 (i : grid0.Coords) : Fin 1 → Nat :=
  let arg0 : BitVec 32 := BitVec.ofNat 32 (i 0).val
  let c128_i32 : BitVec 32 := 128#32
  let v0 : BitVec 32 := Scalar.muli arg0 c128_i32
  let c44_i32 : BitVec 32 := 44#32
  let v456 : BitVec 32 := Scalar.addi v0 c44_i32
  let v457 : Index := Scalar.indexCast v456
  ![v457.toNat]
def k0_off90 (v458 : BitVec 32) : Fin 2 → Nat :=
  let c44_i32_201 : BitVec 32 := 44#32
  ![44, v458.toNat]

def k0_chk45 (v458 : BitVec 32) : Prop :=
  (∀ a, (k0_off90 v458) a + S1x4096.size a ≤ S128x8192.size a)
instance k0_chk45.dec : ∀ (v458 : BitVec 32), Decidable (k0_chk45 v458) := fun v458 => decidable_of_iff' _ (Iff.of_eq (k0_chk45.eq_1 v458))
theorem k0_off90_inb : ∀ (v458 : BitVec 32) (k0_hw45 : k0_chk45 v458), ∀ a, (k0_off90 v458) a + S1x4096.size a ≤ S128x8192.size a := fun v458 k0_hw45 => k0_hw45

def k0_off91 (i : grid0.Coords) : Fin 1 → Nat :=
  let arg0 : BitVec 32 := BitVec.ofNat 32 (i 0).val
  let c128_i32 : BitVec 32 := 128#32
  let v0 : BitVec 32 := Scalar.muli arg0 c128_i32
  let c45_i32 : BitVec 32 := 45#32
  let v465 : BitVec 32 := Scalar.addi v0 c45_i32
  let v466 : Index := Scalar.indexCast v465
  ![v466.toNat]
def k0_off92 (v467 : BitVec 32) : Fin 2 → Nat :=
  let c45_i32_205 : BitVec 32 := 45#32
  ![45, v467.toNat]

def k0_chk46 (v467 : BitVec 32) : Prop :=
  (∀ a, (k0_off92 v467) a + S1x4096.size a ≤ S128x8192.size a)
instance k0_chk46.dec : ∀ (v467 : BitVec 32), Decidable (k0_chk46 v467) := fun v467 => decidable_of_iff' _ (Iff.of_eq (k0_chk46.eq_1 v467))
theorem k0_off92_inb : ∀ (v467 : BitVec 32) (k0_hw46 : k0_chk46 v467), ∀ a, (k0_off92 v467) a + S1x4096.size a ≤ S128x8192.size a := fun v467 k0_hw46 => k0_hw46

def k0_off93 (i : grid0.Coords) : Fin 1 → Nat :=
  let arg0 : BitVec 32 := BitVec.ofNat 32 (i 0).val
  let c128_i32 : BitVec 32 := 128#32
  let v0 : BitVec 32 := Scalar.muli arg0 c128_i32
  let c46_i32 : BitVec 32 := 46#32
  let v474 : BitVec 32 := Scalar.addi v0 c46_i32
  let v475 : Index := Scalar.indexCast v474
  ![v475.toNat]
def k0_off94 (v476 : BitVec 32) : Fin 2 → Nat :=
  let c46_i32_209 : BitVec 32 := 46#32
  ![46, v476.toNat]

def k0_chk47 (v476 : BitVec 32) : Prop :=
  (∀ a, (k0_off94 v476) a + S1x4096.size a ≤ S128x8192.size a)
instance k0_chk47.dec : ∀ (v476 : BitVec 32), Decidable (k0_chk47 v476) := fun v476 => decidable_of_iff' _ (Iff.of_eq (k0_chk47.eq_1 v476))
theorem k0_off94_inb : ∀ (v476 : BitVec 32) (k0_hw47 : k0_chk47 v476), ∀ a, (k0_off94 v476) a + S1x4096.size a ≤ S128x8192.size a := fun v476 k0_hw47 => k0_hw47

def k0_off95 (i : grid0.Coords) : Fin 1 → Nat :=
  let arg0 : BitVec 32 := BitVec.ofNat 32 (i 0).val
  let c128_i32 : BitVec 32 := 128#32
  let v0 : BitVec 32 := Scalar.muli arg0 c128_i32
  let c47_i32 : BitVec 32 := 47#32
  let v483 : BitVec 32 := Scalar.addi v0 c47_i32
  let v484 : Index := Scalar.indexCast v483
  ![v484.toNat]
def k0_off96 (v485 : BitVec 32) : Fin 2 → Nat :=
  let c47_i32_213 : BitVec 32 := 47#32
  ![47, v485.toNat]

def k0_chk48 (v485 : BitVec 32) : Prop :=
  (∀ a, (k0_off96 v485) a + S1x4096.size a ≤ S128x8192.size a)
instance k0_chk48.dec : ∀ (v485 : BitVec 32), Decidable (k0_chk48 v485) := fun v485 => decidable_of_iff' _ (Iff.of_eq (k0_chk48.eq_1 v485))
theorem k0_off96_inb : ∀ (v485 : BitVec 32) (k0_hw48 : k0_chk48 v485), ∀ a, (k0_off96 v485) a + S1x4096.size a ≤ S128x8192.size a := fun v485 k0_hw48 => k0_hw48

def k0_off97 (i : grid0.Coords) : Fin 1 → Nat :=
  let arg0 : BitVec 32 := BitVec.ofNat 32 (i 0).val
  let c128_i32 : BitVec 32 := 128#32
  let v0 : BitVec 32 := Scalar.muli arg0 c128_i32
  let c48_i32 : BitVec 32 := 48#32
  let v492 : BitVec 32 := Scalar.addi v0 c48_i32
  let v493 : Index := Scalar.indexCast v492
  ![v493.toNat]
def k0_off98 (v494 : BitVec 32) : Fin 2 → Nat :=
  let c48_i32_217 : BitVec 32 := 48#32
  ![48, v494.toNat]

def k0_chk49 (v494 : BitVec 32) : Prop :=
  (∀ a, (k0_off98 v494) a + S1x4096.size a ≤ S128x8192.size a)
instance k0_chk49.dec : ∀ (v494 : BitVec 32), Decidable (k0_chk49 v494) := fun v494 => decidable_of_iff' _ (Iff.of_eq (k0_chk49.eq_1 v494))
theorem k0_off98_inb : ∀ (v494 : BitVec 32) (k0_hw49 : k0_chk49 v494), ∀ a, (k0_off98 v494) a + S1x4096.size a ≤ S128x8192.size a := fun v494 k0_hw49 => k0_hw49

def k0_off99 (i : grid0.Coords) : Fin 1 → Nat :=
  let arg0 : BitVec 32 := BitVec.ofNat 32 (i 0).val
  let c128_i32 : BitVec 32 := 128#32
  let v0 : BitVec 32 := Scalar.muli arg0 c128_i32
  let c49_i32 : BitVec 32 := 49#32
  let v501 : BitVec 32 := Scalar.addi v0 c49_i32
  let v502 : Index := Scalar.indexCast v501
  ![v502.toNat]
def k0_off100 (v503 : BitVec 32) : Fin 2 → Nat :=
  let c49_i32_221 : BitVec 32 := 49#32
  ![49, v503.toNat]

def k0_chk50 (v503 : BitVec 32) : Prop :=
  (∀ a, (k0_off100 v503) a + S1x4096.size a ≤ S128x8192.size a)
instance k0_chk50.dec : ∀ (v503 : BitVec 32), Decidable (k0_chk50 v503) := fun v503 => decidable_of_iff' _ (Iff.of_eq (k0_chk50.eq_1 v503))
theorem k0_off100_inb : ∀ (v503 : BitVec 32) (k0_hw50 : k0_chk50 v503), ∀ a, (k0_off100 v503) a + S1x4096.size a ≤ S128x8192.size a := fun v503 k0_hw50 => k0_hw50

def k0_off101 (i : grid0.Coords) : Fin 1 → Nat :=
  let arg0 : BitVec 32 := BitVec.ofNat 32 (i 0).val
  let c128_i32 : BitVec 32 := 128#32
  let v0 : BitVec 32 := Scalar.muli arg0 c128_i32
  let c50_i32 : BitVec 32 := 50#32
  let v510 : BitVec 32 := Scalar.addi v0 c50_i32
  let v511 : Index := Scalar.indexCast v510
  ![v511.toNat]
def k0_off102 (v512 : BitVec 32) : Fin 2 → Nat :=
  let c50_i32_225 : BitVec 32 := 50#32
  ![50, v512.toNat]

def k0_chk51 (v512 : BitVec 32) : Prop :=
  (∀ a, (k0_off102 v512) a + S1x4096.size a ≤ S128x8192.size a)
instance k0_chk51.dec : ∀ (v512 : BitVec 32), Decidable (k0_chk51 v512) := fun v512 => decidable_of_iff' _ (Iff.of_eq (k0_chk51.eq_1 v512))
theorem k0_off102_inb : ∀ (v512 : BitVec 32) (k0_hw51 : k0_chk51 v512), ∀ a, (k0_off102 v512) a + S1x4096.size a ≤ S128x8192.size a := fun v512 k0_hw51 => k0_hw51

def k0_off103 (i : grid0.Coords) : Fin 1 → Nat :=
  let arg0 : BitVec 32 := BitVec.ofNat 32 (i 0).val
  let c128_i32 : BitVec 32 := 128#32
  let v0 : BitVec 32 := Scalar.muli arg0 c128_i32
  let c51_i32 : BitVec 32 := 51#32
  let v519 : BitVec 32 := Scalar.addi v0 c51_i32
  let v520 : Index := Scalar.indexCast v519
  ![v520.toNat]
def k0_off104 (v521 : BitVec 32) : Fin 2 → Nat :=
  let c51_i32_229 : BitVec 32 := 51#32
  ![51, v521.toNat]

def k0_chk52 (v521 : BitVec 32) : Prop :=
  (∀ a, (k0_off104 v521) a + S1x4096.size a ≤ S128x8192.size a)
instance k0_chk52.dec : ∀ (v521 : BitVec 32), Decidable (k0_chk52 v521) := fun v521 => decidable_of_iff' _ (Iff.of_eq (k0_chk52.eq_1 v521))
theorem k0_off104_inb : ∀ (v521 : BitVec 32) (k0_hw52 : k0_chk52 v521), ∀ a, (k0_off104 v521) a + S1x4096.size a ≤ S128x8192.size a := fun v521 k0_hw52 => k0_hw52

def k0_off105 (i : grid0.Coords) : Fin 1 → Nat :=
  let arg0 : BitVec 32 := BitVec.ofNat 32 (i 0).val
  let c128_i32 : BitVec 32 := 128#32
  let v0 : BitVec 32 := Scalar.muli arg0 c128_i32
  let c52_i32 : BitVec 32 := 52#32
  let v528 : BitVec 32 := Scalar.addi v0 c52_i32
  let v529 : Index := Scalar.indexCast v528
  ![v529.toNat]
def k0_off106 (v530 : BitVec 32) : Fin 2 → Nat :=
  let c52_i32_233 : BitVec 32 := 52#32
  ![52, v530.toNat]

def k0_chk53 (v530 : BitVec 32) : Prop :=
  (∀ a, (k0_off106 v530) a + S1x4096.size a ≤ S128x8192.size a)
instance k0_chk53.dec : ∀ (v530 : BitVec 32), Decidable (k0_chk53 v530) := fun v530 => decidable_of_iff' _ (Iff.of_eq (k0_chk53.eq_1 v530))
theorem k0_off106_inb : ∀ (v530 : BitVec 32) (k0_hw53 : k0_chk53 v530), ∀ a, (k0_off106 v530) a + S1x4096.size a ≤ S128x8192.size a := fun v530 k0_hw53 => k0_hw53

def k0_off107 (i : grid0.Coords) : Fin 1 → Nat :=
  let arg0 : BitVec 32 := BitVec.ofNat 32 (i 0).val
  let c128_i32 : BitVec 32 := 128#32
  let v0 : BitVec 32 := Scalar.muli arg0 c128_i32
  let c53_i32 : BitVec 32 := 53#32
  let v537 : BitVec 32 := Scalar.addi v0 c53_i32
  let v538 : Index := Scalar.indexCast v537
  ![v538.toNat]
def k0_off108 (v539 : BitVec 32) : Fin 2 → Nat :=
  let c53_i32_237 : BitVec 32 := 53#32
  ![53, v539.toNat]

def k0_chk54 (v539 : BitVec 32) : Prop :=
  (∀ a, (k0_off108 v539) a + S1x4096.size a ≤ S128x8192.size a)
instance k0_chk54.dec : ∀ (v539 : BitVec 32), Decidable (k0_chk54 v539) := fun v539 => decidable_of_iff' _ (Iff.of_eq (k0_chk54.eq_1 v539))
theorem k0_off108_inb : ∀ (v539 : BitVec 32) (k0_hw54 : k0_chk54 v539), ∀ a, (k0_off108 v539) a + S1x4096.size a ≤ S128x8192.size a := fun v539 k0_hw54 => k0_hw54

def k0_off109 (i : grid0.Coords) : Fin 1 → Nat :=
  let arg0 : BitVec 32 := BitVec.ofNat 32 (i 0).val
  let c128_i32 : BitVec 32 := 128#32
  let v0 : BitVec 32 := Scalar.muli arg0 c128_i32
  let c54_i32 : BitVec 32 := 54#32
  let v546 : BitVec 32 := Scalar.addi v0 c54_i32
  let v547 : Index := Scalar.indexCast v546
  ![v547.toNat]
def k0_off110 (v548 : BitVec 32) : Fin 2 → Nat :=
  let c54_i32_241 : BitVec 32 := 54#32
  ![54, v548.toNat]

def k0_chk55 (v548 : BitVec 32) : Prop :=
  (∀ a, (k0_off110 v548) a + S1x4096.size a ≤ S128x8192.size a)
instance k0_chk55.dec : ∀ (v548 : BitVec 32), Decidable (k0_chk55 v548) := fun v548 => decidable_of_iff' _ (Iff.of_eq (k0_chk55.eq_1 v548))
theorem k0_off110_inb : ∀ (v548 : BitVec 32) (k0_hw55 : k0_chk55 v548), ∀ a, (k0_off110 v548) a + S1x4096.size a ≤ S128x8192.size a := fun v548 k0_hw55 => k0_hw55

def k0_off111 (i : grid0.Coords) : Fin 1 → Nat :=
  let arg0 : BitVec 32 := BitVec.ofNat 32 (i 0).val
  let c128_i32 : BitVec 32 := 128#32
  let v0 : BitVec 32 := Scalar.muli arg0 c128_i32
  let c55_i32 : BitVec 32 := 55#32
  let v555 : BitVec 32 := Scalar.addi v0 c55_i32
  let v556 : Index := Scalar.indexCast v555
  ![v556.toNat]
def k0_off112 (v557 : BitVec 32) : Fin 2 → Nat :=
  let c55_i32_245 : BitVec 32 := 55#32
  ![55, v557.toNat]

def k0_chk56 (v557 : BitVec 32) : Prop :=
  (∀ a, (k0_off112 v557) a + S1x4096.size a ≤ S128x8192.size a)
instance k0_chk56.dec : ∀ (v557 : BitVec 32), Decidable (k0_chk56 v557) := fun v557 => decidable_of_iff' _ (Iff.of_eq (k0_chk56.eq_1 v557))
theorem k0_off112_inb : ∀ (v557 : BitVec 32) (k0_hw56 : k0_chk56 v557), ∀ a, (k0_off112 v557) a + S1x4096.size a ≤ S128x8192.size a := fun v557 k0_hw56 => k0_hw56

def k0_off113 (i : grid0.Coords) : Fin 1 → Nat :=
  let arg0 : BitVec 32 := BitVec.ofNat 32 (i 0).val
  let c128_i32 : BitVec 32 := 128#32
  let v0 : BitVec 32 := Scalar.muli arg0 c128_i32
  let c56_i32 : BitVec 32 := 56#32
  let v564 : BitVec 32 := Scalar.addi v0 c56_i32
  let v565 : Index := Scalar.indexCast v564
  ![v565.toNat]
def k0_off114 (v566 : BitVec 32) : Fin 2 → Nat :=
  let c56_i32_249 : BitVec 32 := 56#32
  ![56, v566.toNat]

def k0_chk57 (v566 : BitVec 32) : Prop :=
  (∀ a, (k0_off114 v566) a + S1x4096.size a ≤ S128x8192.size a)
instance k0_chk57.dec : ∀ (v566 : BitVec 32), Decidable (k0_chk57 v566) := fun v566 => decidable_of_iff' _ (Iff.of_eq (k0_chk57.eq_1 v566))
theorem k0_off114_inb : ∀ (v566 : BitVec 32) (k0_hw57 : k0_chk57 v566), ∀ a, (k0_off114 v566) a + S1x4096.size a ≤ S128x8192.size a := fun v566 k0_hw57 => k0_hw57

def k0_off115 (i : grid0.Coords) : Fin 1 → Nat :=
  let arg0 : BitVec 32 := BitVec.ofNat 32 (i 0).val
  let c128_i32 : BitVec 32 := 128#32
  let v0 : BitVec 32 := Scalar.muli arg0 c128_i32
  let c57_i32 : BitVec 32 := 57#32
  let v573 : BitVec 32 := Scalar.addi v0 c57_i32
  let v574 : Index := Scalar.indexCast v573
  ![v574.toNat]
def k0_off116 (v575 : BitVec 32) : Fin 2 → Nat :=
  let c57_i32_253 : BitVec 32 := 57#32
  ![57, v575.toNat]

def k0_chk58 (v575 : BitVec 32) : Prop :=
  (∀ a, (k0_off116 v575) a + S1x4096.size a ≤ S128x8192.size a)
instance k0_chk58.dec : ∀ (v575 : BitVec 32), Decidable (k0_chk58 v575) := fun v575 => decidable_of_iff' _ (Iff.of_eq (k0_chk58.eq_1 v575))
theorem k0_off116_inb : ∀ (v575 : BitVec 32) (k0_hw58 : k0_chk58 v575), ∀ a, (k0_off116 v575) a + S1x4096.size a ≤ S128x8192.size a := fun v575 k0_hw58 => k0_hw58

def k0_off117 (i : grid0.Coords) : Fin 1 → Nat :=
  let arg0 : BitVec 32 := BitVec.ofNat 32 (i 0).val
  let c128_i32 : BitVec 32 := 128#32
  let v0 : BitVec 32 := Scalar.muli arg0 c128_i32
  let c58_i32 : BitVec 32 := 58#32
  let v582 : BitVec 32 := Scalar.addi v0 c58_i32
  let v583 : Index := Scalar.indexCast v582
  ![v583.toNat]
def k0_off118 (v584 : BitVec 32) : Fin 2 → Nat :=
  let c58_i32_257 : BitVec 32 := 58#32
  ![58, v584.toNat]

def k0_chk59 (v584 : BitVec 32) : Prop :=
  (∀ a, (k0_off118 v584) a + S1x4096.size a ≤ S128x8192.size a)
instance k0_chk59.dec : ∀ (v584 : BitVec 32), Decidable (k0_chk59 v584) := fun v584 => decidable_of_iff' _ (Iff.of_eq (k0_chk59.eq_1 v584))
theorem k0_off118_inb : ∀ (v584 : BitVec 32) (k0_hw59 : k0_chk59 v584), ∀ a, (k0_off118 v584) a + S1x4096.size a ≤ S128x8192.size a := fun v584 k0_hw59 => k0_hw59

def k0_off119 (i : grid0.Coords) : Fin 1 → Nat :=
  let arg0 : BitVec 32 := BitVec.ofNat 32 (i 0).val
  let c128_i32 : BitVec 32 := 128#32
  let v0 : BitVec 32 := Scalar.muli arg0 c128_i32
  let c59_i32 : BitVec 32 := 59#32
  let v591 : BitVec 32 := Scalar.addi v0 c59_i32
  let v592 : Index := Scalar.indexCast v591
  ![v592.toNat]
def k0_off120 (v593 : BitVec 32) : Fin 2 → Nat :=
  let c59_i32_261 : BitVec 32 := 59#32
  ![59, v593.toNat]

def k0_chk60 (v593 : BitVec 32) : Prop :=
  (∀ a, (k0_off120 v593) a + S1x4096.size a ≤ S128x8192.size a)
instance k0_chk60.dec : ∀ (v593 : BitVec 32), Decidable (k0_chk60 v593) := fun v593 => decidable_of_iff' _ (Iff.of_eq (k0_chk60.eq_1 v593))
theorem k0_off120_inb : ∀ (v593 : BitVec 32) (k0_hw60 : k0_chk60 v593), ∀ a, (k0_off120 v593) a + S1x4096.size a ≤ S128x8192.size a := fun v593 k0_hw60 => k0_hw60

def k0_off121 (i : grid0.Coords) : Fin 1 → Nat :=
  let arg0 : BitVec 32 := BitVec.ofNat 32 (i 0).val
  let c128_i32 : BitVec 32 := 128#32
  let v0 : BitVec 32 := Scalar.muli arg0 c128_i32
  let c60_i32 : BitVec 32 := 60#32
  let v600 : BitVec 32 := Scalar.addi v0 c60_i32
  let v601 : Index := Scalar.indexCast v600
  ![v601.toNat]
def k0_off122 (v602 : BitVec 32) : Fin 2 → Nat :=
  let c60_i32_265 : BitVec 32 := 60#32
  ![60, v602.toNat]

def k0_chk61 (v602 : BitVec 32) : Prop :=
  (∀ a, (k0_off122 v602) a + S1x4096.size a ≤ S128x8192.size a)
instance k0_chk61.dec : ∀ (v602 : BitVec 32), Decidable (k0_chk61 v602) := fun v602 => decidable_of_iff' _ (Iff.of_eq (k0_chk61.eq_1 v602))
theorem k0_off122_inb : ∀ (v602 : BitVec 32) (k0_hw61 : k0_chk61 v602), ∀ a, (k0_off122 v602) a + S1x4096.size a ≤ S128x8192.size a := fun v602 k0_hw61 => k0_hw61

def k0_off123 (i : grid0.Coords) : Fin 1 → Nat :=
  let arg0 : BitVec 32 := BitVec.ofNat 32 (i 0).val
  let c128_i32 : BitVec 32 := 128#32
  let v0 : BitVec 32 := Scalar.muli arg0 c128_i32
  let c61_i32 : BitVec 32 := 61#32
  let v609 : BitVec 32 := Scalar.addi v0 c61_i32
  let v610 : Index := Scalar.indexCast v609
  ![v610.toNat]
def k0_off124 (v611 : BitVec 32) : Fin 2 → Nat :=
  let c61_i32_269 : BitVec 32 := 61#32
  ![61, v611.toNat]

def k0_chk62 (v611 : BitVec 32) : Prop :=
  (∀ a, (k0_off124 v611) a + S1x4096.size a ≤ S128x8192.size a)
instance k0_chk62.dec : ∀ (v611 : BitVec 32), Decidable (k0_chk62 v611) := fun v611 => decidable_of_iff' _ (Iff.of_eq (k0_chk62.eq_1 v611))
theorem k0_off124_inb : ∀ (v611 : BitVec 32) (k0_hw62 : k0_chk62 v611), ∀ a, (k0_off124 v611) a + S1x4096.size a ≤ S128x8192.size a := fun v611 k0_hw62 => k0_hw62

def k0_off125 (i : grid0.Coords) : Fin 1 → Nat :=
  let arg0 : BitVec 32 := BitVec.ofNat 32 (i 0).val
  let c128_i32 : BitVec 32 := 128#32
  let v0 : BitVec 32 := Scalar.muli arg0 c128_i32
  let c62_i32 : BitVec 32 := 62#32
  let v618 : BitVec 32 := Scalar.addi v0 c62_i32
  let v619 : Index := Scalar.indexCast v618
  ![v619.toNat]
def k0_off126 (v620 : BitVec 32) : Fin 2 → Nat :=
  let c62_i32_273 : BitVec 32 := 62#32
  ![62, v620.toNat]

def k0_chk63 (v620 : BitVec 32) : Prop :=
  (∀ a, (k0_off126 v620) a + S1x4096.size a ≤ S128x8192.size a)
instance k0_chk63.dec : ∀ (v620 : BitVec 32), Decidable (k0_chk63 v620) := fun v620 => decidable_of_iff' _ (Iff.of_eq (k0_chk63.eq_1 v620))
theorem k0_off126_inb : ∀ (v620 : BitVec 32) (k0_hw63 : k0_chk63 v620), ∀ a, (k0_off126 v620) a + S1x4096.size a ≤ S128x8192.size a := fun v620 k0_hw63 => k0_hw63

def k0_off127 (i : grid0.Coords) : Fin 1 → Nat :=
  let arg0 : BitVec 32 := BitVec.ofNat 32 (i 0).val
  let c128_i32 : BitVec 32 := 128#32
  let v0 : BitVec 32 := Scalar.muli arg0 c128_i32
  let c63_i32 : BitVec 32 := 63#32
  let v627 : BitVec 32 := Scalar.addi v0 c63_i32
  let v628 : Index := Scalar.indexCast v627
  ![v628.toNat]
def k0_off128 (v629 : BitVec 32) : Fin 2 → Nat :=
  let c63_i32_277 : BitVec 32 := 63#32
  ![63, v629.toNat]

def k0_chk64 (v629 : BitVec 32) : Prop :=
  (∀ a, (k0_off128 v629) a + S1x4096.size a ≤ S128x8192.size a)
instance k0_chk64.dec : ∀ (v629 : BitVec 32), Decidable (k0_chk64 v629) := fun v629 => decidable_of_iff' _ (Iff.of_eq (k0_chk64.eq_1 v629))
theorem k0_off128_inb : ∀ (v629 : BitVec 32) (k0_hw64 : k0_chk64 v629), ∀ a, (k0_off128 v629) a + S1x4096.size a ≤ S128x8192.size a := fun v629 k0_hw64 => k0_hw64

def k0_off129 (i : grid0.Coords) : Fin 1 → Nat :=
  let arg0 : BitVec 32 := BitVec.ofNat 32 (i 0).val
  let c128_i32 : BitVec 32 := 128#32
  let v0 : BitVec 32 := Scalar.muli arg0 c128_i32
  let c64_i32 : BitVec 32 := 64#32
  let v636 : BitVec 32 := Scalar.addi v0 c64_i32
  let v637 : Index := Scalar.indexCast v636
  ![v637.toNat]
def k0_off130 (v638 : BitVec 32) : Fin 2 → Nat :=
  let c64_i32_281 : BitVec 32 := 64#32
  ![64, v638.toNat]

def k0_chk65 (v638 : BitVec 32) : Prop :=
  (∀ a, (k0_off130 v638) a + S1x4096.size a ≤ S128x8192.size a)
instance k0_chk65.dec : ∀ (v638 : BitVec 32), Decidable (k0_chk65 v638) := fun v638 => decidable_of_iff' _ (Iff.of_eq (k0_chk65.eq_1 v638))
theorem k0_off130_inb : ∀ (v638 : BitVec 32) (k0_hw65 : k0_chk65 v638), ∀ a, (k0_off130 v638) a + S1x4096.size a ≤ S128x8192.size a := fun v638 k0_hw65 => k0_hw65

def k0_off131 (i : grid0.Coords) : Fin 1 → Nat :=
  let arg0 : BitVec 32 := BitVec.ofNat 32 (i 0).val
  let c128_i32 : BitVec 32 := 128#32
  let v0 : BitVec 32 := Scalar.muli arg0 c128_i32
  let c65_i32 : BitVec 32 := 65#32
  let v645 : BitVec 32 := Scalar.addi v0 c65_i32
  let v646 : Index := Scalar.indexCast v645
  ![v646.toNat]
def k0_off132 (v647 : BitVec 32) : Fin 2 → Nat :=
  let c65_i32_285 : BitVec 32 := 65#32
  ![65, v647.toNat]

def k0_chk66 (v647 : BitVec 32) : Prop :=
  (∀ a, (k0_off132 v647) a + S1x4096.size a ≤ S128x8192.size a)
instance k0_chk66.dec : ∀ (v647 : BitVec 32), Decidable (k0_chk66 v647) := fun v647 => decidable_of_iff' _ (Iff.of_eq (k0_chk66.eq_1 v647))
theorem k0_off132_inb : ∀ (v647 : BitVec 32) (k0_hw66 : k0_chk66 v647), ∀ a, (k0_off132 v647) a + S1x4096.size a ≤ S128x8192.size a := fun v647 k0_hw66 => k0_hw66

def k0_off133 (i : grid0.Coords) : Fin 1 → Nat :=
  let arg0 : BitVec 32 := BitVec.ofNat 32 (i 0).val
  let c128_i32 : BitVec 32 := 128#32
  let v0 : BitVec 32 := Scalar.muli arg0 c128_i32
  let c66_i32 : BitVec 32 := 66#32
  let v654 : BitVec 32 := Scalar.addi v0 c66_i32
  let v655 : Index := Scalar.indexCast v654
  ![v655.toNat]
def k0_off134 (v656 : BitVec 32) : Fin 2 → Nat :=
  let c66_i32_289 : BitVec 32 := 66#32
  ![66, v656.toNat]

def k0_chk67 (v656 : BitVec 32) : Prop :=
  (∀ a, (k0_off134 v656) a + S1x4096.size a ≤ S128x8192.size a)
instance k0_chk67.dec : ∀ (v656 : BitVec 32), Decidable (k0_chk67 v656) := fun v656 => decidable_of_iff' _ (Iff.of_eq (k0_chk67.eq_1 v656))
theorem k0_off134_inb : ∀ (v656 : BitVec 32) (k0_hw67 : k0_chk67 v656), ∀ a, (k0_off134 v656) a + S1x4096.size a ≤ S128x8192.size a := fun v656 k0_hw67 => k0_hw67

def k0_off135 (i : grid0.Coords) : Fin 1 → Nat :=
  let arg0 : BitVec 32 := BitVec.ofNat 32 (i 0).val
  let c128_i32 : BitVec 32 := 128#32
  let v0 : BitVec 32 := Scalar.muli arg0 c128_i32
  let c67_i32 : BitVec 32 := 67#32
  let v663 : BitVec 32 := Scalar.addi v0 c67_i32
  let v664 : Index := Scalar.indexCast v663
  ![v664.toNat]
def k0_off136 (v665 : BitVec 32) : Fin 2 → Nat :=
  let c67_i32_293 : BitVec 32 := 67#32
  ![67, v665.toNat]

def k0_chk68 (v665 : BitVec 32) : Prop :=
  (∀ a, (k0_off136 v665) a + S1x4096.size a ≤ S128x8192.size a)
instance k0_chk68.dec : ∀ (v665 : BitVec 32), Decidable (k0_chk68 v665) := fun v665 => decidable_of_iff' _ (Iff.of_eq (k0_chk68.eq_1 v665))
theorem k0_off136_inb : ∀ (v665 : BitVec 32) (k0_hw68 : k0_chk68 v665), ∀ a, (k0_off136 v665) a + S1x4096.size a ≤ S128x8192.size a := fun v665 k0_hw68 => k0_hw68

def k0_off137 (i : grid0.Coords) : Fin 1 → Nat :=
  let arg0 : BitVec 32 := BitVec.ofNat 32 (i 0).val
  let c128_i32 : BitVec 32 := 128#32
  let v0 : BitVec 32 := Scalar.muli arg0 c128_i32
  let c68_i32 : BitVec 32 := 68#32
  let v672 : BitVec 32 := Scalar.addi v0 c68_i32
  let v673 : Index := Scalar.indexCast v672
  ![v673.toNat]
def k0_off138 (v674 : BitVec 32) : Fin 2 → Nat :=
  let c68_i32_297 : BitVec 32 := 68#32
  ![68, v674.toNat]

def k0_chk69 (v674 : BitVec 32) : Prop :=
  (∀ a, (k0_off138 v674) a + S1x4096.size a ≤ S128x8192.size a)
instance k0_chk69.dec : ∀ (v674 : BitVec 32), Decidable (k0_chk69 v674) := fun v674 => decidable_of_iff' _ (Iff.of_eq (k0_chk69.eq_1 v674))
theorem k0_off138_inb : ∀ (v674 : BitVec 32) (k0_hw69 : k0_chk69 v674), ∀ a, (k0_off138 v674) a + S1x4096.size a ≤ S128x8192.size a := fun v674 k0_hw69 => k0_hw69

def k0_off139 (i : grid0.Coords) : Fin 1 → Nat :=
  let arg0 : BitVec 32 := BitVec.ofNat 32 (i 0).val
  let c128_i32 : BitVec 32 := 128#32
  let v0 : BitVec 32 := Scalar.muli arg0 c128_i32
  let c69_i32 : BitVec 32 := 69#32
  let v681 : BitVec 32 := Scalar.addi v0 c69_i32
  let v682 : Index := Scalar.indexCast v681
  ![v682.toNat]
def k0_off140 (v683 : BitVec 32) : Fin 2 → Nat :=
  let c69_i32_301 : BitVec 32 := 69#32
  ![69, v683.toNat]

def k0_chk70 (v683 : BitVec 32) : Prop :=
  (∀ a, (k0_off140 v683) a + S1x4096.size a ≤ S128x8192.size a)
instance k0_chk70.dec : ∀ (v683 : BitVec 32), Decidable (k0_chk70 v683) := fun v683 => decidable_of_iff' _ (Iff.of_eq (k0_chk70.eq_1 v683))
theorem k0_off140_inb : ∀ (v683 : BitVec 32) (k0_hw70 : k0_chk70 v683), ∀ a, (k0_off140 v683) a + S1x4096.size a ≤ S128x8192.size a := fun v683 k0_hw70 => k0_hw70

def k0_off141 (i : grid0.Coords) : Fin 1 → Nat :=
  let arg0 : BitVec 32 := BitVec.ofNat 32 (i 0).val
  let c128_i32 : BitVec 32 := 128#32
  let v0 : BitVec 32 := Scalar.muli arg0 c128_i32
  let c70_i32 : BitVec 32 := 70#32
  let v690 : BitVec 32 := Scalar.addi v0 c70_i32
  let v691 : Index := Scalar.indexCast v690
  ![v691.toNat]
def k0_off142 (v692 : BitVec 32) : Fin 2 → Nat :=
  let c70_i32_305 : BitVec 32 := 70#32
  ![70, v692.toNat]

def k0_chk71 (v692 : BitVec 32) : Prop :=
  (∀ a, (k0_off142 v692) a + S1x4096.size a ≤ S128x8192.size a)
instance k0_chk71.dec : ∀ (v692 : BitVec 32), Decidable (k0_chk71 v692) := fun v692 => decidable_of_iff' _ (Iff.of_eq (k0_chk71.eq_1 v692))
theorem k0_off142_inb : ∀ (v692 : BitVec 32) (k0_hw71 : k0_chk71 v692), ∀ a, (k0_off142 v692) a + S1x4096.size a ≤ S128x8192.size a := fun v692 k0_hw71 => k0_hw71

def k0_off143 (i : grid0.Coords) : Fin 1 → Nat :=
  let arg0 : BitVec 32 := BitVec.ofNat 32 (i 0).val
  let c128_i32 : BitVec 32 := 128#32
  let v0 : BitVec 32 := Scalar.muli arg0 c128_i32
  let c71_i32 : BitVec 32 := 71#32
  let v699 : BitVec 32 := Scalar.addi v0 c71_i32
  let v700 : Index := Scalar.indexCast v699
  ![v700.toNat]
def k0_off144 (v701 : BitVec 32) : Fin 2 → Nat :=
  let c71_i32_309 : BitVec 32 := 71#32
  ![71, v701.toNat]

def k0_chk72 (v701 : BitVec 32) : Prop :=
  (∀ a, (k0_off144 v701) a + S1x4096.size a ≤ S128x8192.size a)
instance k0_chk72.dec : ∀ (v701 : BitVec 32), Decidable (k0_chk72 v701) := fun v701 => decidable_of_iff' _ (Iff.of_eq (k0_chk72.eq_1 v701))
theorem k0_off144_inb : ∀ (v701 : BitVec 32) (k0_hw72 : k0_chk72 v701), ∀ a, (k0_off144 v701) a + S1x4096.size a ≤ S128x8192.size a := fun v701 k0_hw72 => k0_hw72

def k0_off145 (i : grid0.Coords) : Fin 1 → Nat :=
  let arg0 : BitVec 32 := BitVec.ofNat 32 (i 0).val
  let c128_i32 : BitVec 32 := 128#32
  let v0 : BitVec 32 := Scalar.muli arg0 c128_i32
  let c72_i32 : BitVec 32 := 72#32
  let v708 : BitVec 32 := Scalar.addi v0 c72_i32
  let v709 : Index := Scalar.indexCast v708
  ![v709.toNat]
def k0_off146 (v710 : BitVec 32) : Fin 2 → Nat :=
  let c72_i32_313 : BitVec 32 := 72#32
  ![72, v710.toNat]

def k0_chk73 (v710 : BitVec 32) : Prop :=
  (∀ a, (k0_off146 v710) a + S1x4096.size a ≤ S128x8192.size a)
instance k0_chk73.dec : ∀ (v710 : BitVec 32), Decidable (k0_chk73 v710) := fun v710 => decidable_of_iff' _ (Iff.of_eq (k0_chk73.eq_1 v710))
theorem k0_off146_inb : ∀ (v710 : BitVec 32) (k0_hw73 : k0_chk73 v710), ∀ a, (k0_off146 v710) a + S1x4096.size a ≤ S128x8192.size a := fun v710 k0_hw73 => k0_hw73

def k0_off147 (i : grid0.Coords) : Fin 1 → Nat :=
  let arg0 : BitVec 32 := BitVec.ofNat 32 (i 0).val
  let c128_i32 : BitVec 32 := 128#32
  let v0 : BitVec 32 := Scalar.muli arg0 c128_i32
  let c73_i32 : BitVec 32 := 73#32
  let v717 : BitVec 32 := Scalar.addi v0 c73_i32
  let v718 : Index := Scalar.indexCast v717
  ![v718.toNat]
def k0_off148 (v719 : BitVec 32) : Fin 2 → Nat :=
  let c73_i32_317 : BitVec 32 := 73#32
  ![73, v719.toNat]

def k0_chk74 (v719 : BitVec 32) : Prop :=
  (∀ a, (k0_off148 v719) a + S1x4096.size a ≤ S128x8192.size a)
instance k0_chk74.dec : ∀ (v719 : BitVec 32), Decidable (k0_chk74 v719) := fun v719 => decidable_of_iff' _ (Iff.of_eq (k0_chk74.eq_1 v719))
theorem k0_off148_inb : ∀ (v719 : BitVec 32) (k0_hw74 : k0_chk74 v719), ∀ a, (k0_off148 v719) a + S1x4096.size a ≤ S128x8192.size a := fun v719 k0_hw74 => k0_hw74

def k0_off149 (i : grid0.Coords) : Fin 1 → Nat :=
  let arg0 : BitVec 32 := BitVec.ofNat 32 (i 0).val
  let c128_i32 : BitVec 32 := 128#32
  let v0 : BitVec 32 := Scalar.muli arg0 c128_i32
  let c74_i32 : BitVec 32 := 74#32
  let v726 : BitVec 32 := Scalar.addi v0 c74_i32
  let v727 : Index := Scalar.indexCast v726
  ![v727.toNat]
def k0_off150 (v728 : BitVec 32) : Fin 2 → Nat :=
  let c74_i32_321 : BitVec 32 := 74#32
  ![74, v728.toNat]

def k0_chk75 (v728 : BitVec 32) : Prop :=
  (∀ a, (k0_off150 v728) a + S1x4096.size a ≤ S128x8192.size a)
instance k0_chk75.dec : ∀ (v728 : BitVec 32), Decidable (k0_chk75 v728) := fun v728 => decidable_of_iff' _ (Iff.of_eq (k0_chk75.eq_1 v728))
theorem k0_off150_inb : ∀ (v728 : BitVec 32) (k0_hw75 : k0_chk75 v728), ∀ a, (k0_off150 v728) a + S1x4096.size a ≤ S128x8192.size a := fun v728 k0_hw75 => k0_hw75

def k0_off151 (i : grid0.Coords) : Fin 1 → Nat :=
  let arg0 : BitVec 32 := BitVec.ofNat 32 (i 0).val
  let c128_i32 : BitVec 32 := 128#32
  let v0 : BitVec 32 := Scalar.muli arg0 c128_i32
  let c75_i32 : BitVec 32 := 75#32
  let v735 : BitVec 32 := Scalar.addi v0 c75_i32
  let v736 : Index := Scalar.indexCast v735
  ![v736.toNat]
def k0_off152 (v737 : BitVec 32) : Fin 2 → Nat :=
  let c75_i32_325 : BitVec 32 := 75#32
  ![75, v737.toNat]

def k0_chk76 (v737 : BitVec 32) : Prop :=
  (∀ a, (k0_off152 v737) a + S1x4096.size a ≤ S128x8192.size a)
instance k0_chk76.dec : ∀ (v737 : BitVec 32), Decidable (k0_chk76 v737) := fun v737 => decidable_of_iff' _ (Iff.of_eq (k0_chk76.eq_1 v737))
theorem k0_off152_inb : ∀ (v737 : BitVec 32) (k0_hw76 : k0_chk76 v737), ∀ a, (k0_off152 v737) a + S1x4096.size a ≤ S128x8192.size a := fun v737 k0_hw76 => k0_hw76

def k0_off153 (i : grid0.Coords) : Fin 1 → Nat :=
  let arg0 : BitVec 32 := BitVec.ofNat 32 (i 0).val
  let c128_i32 : BitVec 32 := 128#32
  let v0 : BitVec 32 := Scalar.muli arg0 c128_i32
  let c76_i32 : BitVec 32 := 76#32
  let v744 : BitVec 32 := Scalar.addi v0 c76_i32
  let v745 : Index := Scalar.indexCast v744
  ![v745.toNat]
def k0_off154 (v746 : BitVec 32) : Fin 2 → Nat :=
  let c76_i32_329 : BitVec 32 := 76#32
  ![76, v746.toNat]

def k0_chk77 (v746 : BitVec 32) : Prop :=
  (∀ a, (k0_off154 v746) a + S1x4096.size a ≤ S128x8192.size a)
instance k0_chk77.dec : ∀ (v746 : BitVec 32), Decidable (k0_chk77 v746) := fun v746 => decidable_of_iff' _ (Iff.of_eq (k0_chk77.eq_1 v746))
theorem k0_off154_inb : ∀ (v746 : BitVec 32) (k0_hw77 : k0_chk77 v746), ∀ a, (k0_off154 v746) a + S1x4096.size a ≤ S128x8192.size a := fun v746 k0_hw77 => k0_hw77

def k0_off155 (i : grid0.Coords) : Fin 1 → Nat :=
  let arg0 : BitVec 32 := BitVec.ofNat 32 (i 0).val
  let c128_i32 : BitVec 32 := 128#32
  let v0 : BitVec 32 := Scalar.muli arg0 c128_i32
  let c77_i32 : BitVec 32 := 77#32
  let v753 : BitVec 32 := Scalar.addi v0 c77_i32
  let v754 : Index := Scalar.indexCast v753
  ![v754.toNat]
def k0_off156 (v755 : BitVec 32) : Fin 2 → Nat :=
  let c77_i32_333 : BitVec 32 := 77#32
  ![77, v755.toNat]

def k0_chk78 (v755 : BitVec 32) : Prop :=
  (∀ a, (k0_off156 v755) a + S1x4096.size a ≤ S128x8192.size a)
instance k0_chk78.dec : ∀ (v755 : BitVec 32), Decidable (k0_chk78 v755) := fun v755 => decidable_of_iff' _ (Iff.of_eq (k0_chk78.eq_1 v755))
theorem k0_off156_inb : ∀ (v755 : BitVec 32) (k0_hw78 : k0_chk78 v755), ∀ a, (k0_off156 v755) a + S1x4096.size a ≤ S128x8192.size a := fun v755 k0_hw78 => k0_hw78

def k0_off157 (i : grid0.Coords) : Fin 1 → Nat :=
  let arg0 : BitVec 32 := BitVec.ofNat 32 (i 0).val
  let c128_i32 : BitVec 32 := 128#32
  let v0 : BitVec 32 := Scalar.muli arg0 c128_i32
  let c78_i32 : BitVec 32 := 78#32
  let v762 : BitVec 32 := Scalar.addi v0 c78_i32
  let v763 : Index := Scalar.indexCast v762
  ![v763.toNat]
def k0_off158 (v764 : BitVec 32) : Fin 2 → Nat :=
  let c78_i32_337 : BitVec 32 := 78#32
  ![78, v764.toNat]

def k0_chk79 (v764 : BitVec 32) : Prop :=
  (∀ a, (k0_off158 v764) a + S1x4096.size a ≤ S128x8192.size a)
instance k0_chk79.dec : ∀ (v764 : BitVec 32), Decidable (k0_chk79 v764) := fun v764 => decidable_of_iff' _ (Iff.of_eq (k0_chk79.eq_1 v764))
theorem k0_off158_inb : ∀ (v764 : BitVec 32) (k0_hw79 : k0_chk79 v764), ∀ a, (k0_off158 v764) a + S1x4096.size a ≤ S128x8192.size a := fun v764 k0_hw79 => k0_hw79

def k0_off159 (i : grid0.Coords) : Fin 1 → Nat :=
  let arg0 : BitVec 32 := BitVec.ofNat 32 (i 0).val
  let c128_i32 : BitVec 32 := 128#32
  let v0 : BitVec 32 := Scalar.muli arg0 c128_i32
  let c79_i32 : BitVec 32 := 79#32
  let v771 : BitVec 32 := Scalar.addi v0 c79_i32
  let v772 : Index := Scalar.indexCast v771
  ![v772.toNat]
def k0_off160 (v773 : BitVec 32) : Fin 2 → Nat :=
  let c79_i32_341 : BitVec 32 := 79#32
  ![79, v773.toNat]

def k0_chk80 (v773 : BitVec 32) : Prop :=
  (∀ a, (k0_off160 v773) a + S1x4096.size a ≤ S128x8192.size a)
instance k0_chk80.dec : ∀ (v773 : BitVec 32), Decidable (k0_chk80 v773) := fun v773 => decidable_of_iff' _ (Iff.of_eq (k0_chk80.eq_1 v773))
theorem k0_off160_inb : ∀ (v773 : BitVec 32) (k0_hw80 : k0_chk80 v773), ∀ a, (k0_off160 v773) a + S1x4096.size a ≤ S128x8192.size a := fun v773 k0_hw80 => k0_hw80

def k0_off161 (i : grid0.Coords) : Fin 1 → Nat :=
  let arg0 : BitVec 32 := BitVec.ofNat 32 (i 0).val
  let c128_i32 : BitVec 32 := 128#32
  let v0 : BitVec 32 := Scalar.muli arg0 c128_i32
  let c80_i32 : BitVec 32 := 80#32
  let v780 : BitVec 32 := Scalar.addi v0 c80_i32
  let v781 : Index := Scalar.indexCast v780
  ![v781.toNat]
def k0_off162 (v782 : BitVec 32) : Fin 2 → Nat :=
  let c80_i32_345 : BitVec 32 := 80#32
  ![80, v782.toNat]

def k0_chk81 (v782 : BitVec 32) : Prop :=
  (∀ a, (k0_off162 v782) a + S1x4096.size a ≤ S128x8192.size a)
instance k0_chk81.dec : ∀ (v782 : BitVec 32), Decidable (k0_chk81 v782) := fun v782 => decidable_of_iff' _ (Iff.of_eq (k0_chk81.eq_1 v782))
theorem k0_off162_inb : ∀ (v782 : BitVec 32) (k0_hw81 : k0_chk81 v782), ∀ a, (k0_off162 v782) a + S1x4096.size a ≤ S128x8192.size a := fun v782 k0_hw81 => k0_hw81

def k0_off163 (i : grid0.Coords) : Fin 1 → Nat :=
  let arg0 : BitVec 32 := BitVec.ofNat 32 (i 0).val
  let c128_i32 : BitVec 32 := 128#32
  let v0 : BitVec 32 := Scalar.muli arg0 c128_i32
  let c81_i32 : BitVec 32 := 81#32
  let v789 : BitVec 32 := Scalar.addi v0 c81_i32
  let v790 : Index := Scalar.indexCast v789
  ![v790.toNat]
def k0_off164 (v791 : BitVec 32) : Fin 2 → Nat :=
  let c81_i32_349 : BitVec 32 := 81#32
  ![81, v791.toNat]

def k0_chk82 (v791 : BitVec 32) : Prop :=
  (∀ a, (k0_off164 v791) a + S1x4096.size a ≤ S128x8192.size a)
instance k0_chk82.dec : ∀ (v791 : BitVec 32), Decidable (k0_chk82 v791) := fun v791 => decidable_of_iff' _ (Iff.of_eq (k0_chk82.eq_1 v791))
theorem k0_off164_inb : ∀ (v791 : BitVec 32) (k0_hw82 : k0_chk82 v791), ∀ a, (k0_off164 v791) a + S1x4096.size a ≤ S128x8192.size a := fun v791 k0_hw82 => k0_hw82

def k0_off165 (i : grid0.Coords) : Fin 1 → Nat :=
  let arg0 : BitVec 32 := BitVec.ofNat 32 (i 0).val
  let c128_i32 : BitVec 32 := 128#32
  let v0 : BitVec 32 := Scalar.muli arg0 c128_i32
  let c82_i32 : BitVec 32 := 82#32
  let v798 : BitVec 32 := Scalar.addi v0 c82_i32
  let v799 : Index := Scalar.indexCast v798
  ![v799.toNat]
def k0_off166 (v800 : BitVec 32) : Fin 2 → Nat :=
  let c82_i32_353 : BitVec 32 := 82#32
  ![82, v800.toNat]

def k0_chk83 (v800 : BitVec 32) : Prop :=
  (∀ a, (k0_off166 v800) a + S1x4096.size a ≤ S128x8192.size a)
instance k0_chk83.dec : ∀ (v800 : BitVec 32), Decidable (k0_chk83 v800) := fun v800 => decidable_of_iff' _ (Iff.of_eq (k0_chk83.eq_1 v800))
theorem k0_off166_inb : ∀ (v800 : BitVec 32) (k0_hw83 : k0_chk83 v800), ∀ a, (k0_off166 v800) a + S1x4096.size a ≤ S128x8192.size a := fun v800 k0_hw83 => k0_hw83

def k0_off167 (i : grid0.Coords) : Fin 1 → Nat :=
  let arg0 : BitVec 32 := BitVec.ofNat 32 (i 0).val
  let c128_i32 : BitVec 32 := 128#32
  let v0 : BitVec 32 := Scalar.muli arg0 c128_i32
  let c83_i32 : BitVec 32 := 83#32
  let v807 : BitVec 32 := Scalar.addi v0 c83_i32
  let v808 : Index := Scalar.indexCast v807
  ![v808.toNat]
def k0_off168 (v809 : BitVec 32) : Fin 2 → Nat :=
  let c83_i32_357 : BitVec 32 := 83#32
  ![83, v809.toNat]

def k0_chk84 (v809 : BitVec 32) : Prop :=
  (∀ a, (k0_off168 v809) a + S1x4096.size a ≤ S128x8192.size a)
instance k0_chk84.dec : ∀ (v809 : BitVec 32), Decidable (k0_chk84 v809) := fun v809 => decidable_of_iff' _ (Iff.of_eq (k0_chk84.eq_1 v809))
theorem k0_off168_inb : ∀ (v809 : BitVec 32) (k0_hw84 : k0_chk84 v809), ∀ a, (k0_off168 v809) a + S1x4096.size a ≤ S128x8192.size a := fun v809 k0_hw84 => k0_hw84

def k0_off169 (i : grid0.Coords) : Fin 1 → Nat :=
  let arg0 : BitVec 32 := BitVec.ofNat 32 (i 0).val
  let c128_i32 : BitVec 32 := 128#32
  let v0 : BitVec 32 := Scalar.muli arg0 c128_i32
  let c84_i32 : BitVec 32 := 84#32
  let v816 : BitVec 32 := Scalar.addi v0 c84_i32
  let v817 : Index := Scalar.indexCast v816
  ![v817.toNat]
def k0_off170 (v818 : BitVec 32) : Fin 2 → Nat :=
  let c84_i32_361 : BitVec 32 := 84#32
  ![84, v818.toNat]

def k0_chk85 (v818 : BitVec 32) : Prop :=
  (∀ a, (k0_off170 v818) a + S1x4096.size a ≤ S128x8192.size a)
instance k0_chk85.dec : ∀ (v818 : BitVec 32), Decidable (k0_chk85 v818) := fun v818 => decidable_of_iff' _ (Iff.of_eq (k0_chk85.eq_1 v818))
theorem k0_off170_inb : ∀ (v818 : BitVec 32) (k0_hw85 : k0_chk85 v818), ∀ a, (k0_off170 v818) a + S1x4096.size a ≤ S128x8192.size a := fun v818 k0_hw85 => k0_hw85

def k0_off171 (i : grid0.Coords) : Fin 1 → Nat :=
  let arg0 : BitVec 32 := BitVec.ofNat 32 (i 0).val
  let c128_i32 : BitVec 32 := 128#32
  let v0 : BitVec 32 := Scalar.muli arg0 c128_i32
  let c85_i32 : BitVec 32 := 85#32
  let v825 : BitVec 32 := Scalar.addi v0 c85_i32
  let v826 : Index := Scalar.indexCast v825
  ![v826.toNat]
def k0_off172 (v827 : BitVec 32) : Fin 2 → Nat :=
  let c85_i32_365 : BitVec 32 := 85#32
  ![85, v827.toNat]

def k0_chk86 (v827 : BitVec 32) : Prop :=
  (∀ a, (k0_off172 v827) a + S1x4096.size a ≤ S128x8192.size a)
instance k0_chk86.dec : ∀ (v827 : BitVec 32), Decidable (k0_chk86 v827) := fun v827 => decidable_of_iff' _ (Iff.of_eq (k0_chk86.eq_1 v827))
theorem k0_off172_inb : ∀ (v827 : BitVec 32) (k0_hw86 : k0_chk86 v827), ∀ a, (k0_off172 v827) a + S1x4096.size a ≤ S128x8192.size a := fun v827 k0_hw86 => k0_hw86

def k0_off173 (i : grid0.Coords) : Fin 1 → Nat :=
  let arg0 : BitVec 32 := BitVec.ofNat 32 (i 0).val
  let c128_i32 : BitVec 32 := 128#32
  let v0 : BitVec 32 := Scalar.muli arg0 c128_i32
  let c86_i32 : BitVec 32 := 86#32
  let v834 : BitVec 32 := Scalar.addi v0 c86_i32
  let v835 : Index := Scalar.indexCast v834
  ![v835.toNat]
def k0_off174 (v836 : BitVec 32) : Fin 2 → Nat :=
  let c86_i32_369 : BitVec 32 := 86#32
  ![86, v836.toNat]

def k0_chk87 (v836 : BitVec 32) : Prop :=
  (∀ a, (k0_off174 v836) a + S1x4096.size a ≤ S128x8192.size a)
instance k0_chk87.dec : ∀ (v836 : BitVec 32), Decidable (k0_chk87 v836) := fun v836 => decidable_of_iff' _ (Iff.of_eq (k0_chk87.eq_1 v836))
theorem k0_off174_inb : ∀ (v836 : BitVec 32) (k0_hw87 : k0_chk87 v836), ∀ a, (k0_off174 v836) a + S1x4096.size a ≤ S128x8192.size a := fun v836 k0_hw87 => k0_hw87

def k0_off175 (i : grid0.Coords) : Fin 1 → Nat :=
  let arg0 : BitVec 32 := BitVec.ofNat 32 (i 0).val
  let c128_i32 : BitVec 32 := 128#32
  let v0 : BitVec 32 := Scalar.muli arg0 c128_i32
  let c87_i32 : BitVec 32 := 87#32
  let v843 : BitVec 32 := Scalar.addi v0 c87_i32
  let v844 : Index := Scalar.indexCast v843
  ![v844.toNat]
def k0_off176 (v845 : BitVec 32) : Fin 2 → Nat :=
  let c87_i32_373 : BitVec 32 := 87#32
  ![87, v845.toNat]

def k0_chk88 (v845 : BitVec 32) : Prop :=
  (∀ a, (k0_off176 v845) a + S1x4096.size a ≤ S128x8192.size a)
instance k0_chk88.dec : ∀ (v845 : BitVec 32), Decidable (k0_chk88 v845) := fun v845 => decidable_of_iff' _ (Iff.of_eq (k0_chk88.eq_1 v845))
theorem k0_off176_inb : ∀ (v845 : BitVec 32) (k0_hw88 : k0_chk88 v845), ∀ a, (k0_off176 v845) a + S1x4096.size a ≤ S128x8192.size a := fun v845 k0_hw88 => k0_hw88

def k0_off177 (i : grid0.Coords) : Fin 1 → Nat :=
  let arg0 : BitVec 32 := BitVec.ofNat 32 (i 0).val
  let c128_i32 : BitVec 32 := 128#32
  let v0 : BitVec 32 := Scalar.muli arg0 c128_i32
  let c88_i32 : BitVec 32 := 88#32
  let v852 : BitVec 32 := Scalar.addi v0 c88_i32
  let v853 : Index := Scalar.indexCast v852
  ![v853.toNat]
def k0_off178 (v854 : BitVec 32) : Fin 2 → Nat :=
  let c88_i32_377 : BitVec 32 := 88#32
  ![88, v854.toNat]

def k0_chk89 (v854 : BitVec 32) : Prop :=
  (∀ a, (k0_off178 v854) a + S1x4096.size a ≤ S128x8192.size a)
instance k0_chk89.dec : ∀ (v854 : BitVec 32), Decidable (k0_chk89 v854) := fun v854 => decidable_of_iff' _ (Iff.of_eq (k0_chk89.eq_1 v854))
theorem k0_off178_inb : ∀ (v854 : BitVec 32) (k0_hw89 : k0_chk89 v854), ∀ a, (k0_off178 v854) a + S1x4096.size a ≤ S128x8192.size a := fun v854 k0_hw89 => k0_hw89

def k0_off179 (i : grid0.Coords) : Fin 1 → Nat :=
  let arg0 : BitVec 32 := BitVec.ofNat 32 (i 0).val
  let c128_i32 : BitVec 32 := 128#32
  let v0 : BitVec 32 := Scalar.muli arg0 c128_i32
  let c89_i32 : BitVec 32 := 89#32
  let v861 : BitVec 32 := Scalar.addi v0 c89_i32
  let v862 : Index := Scalar.indexCast v861
  ![v862.toNat]
def k0_off180 (v863 : BitVec 32) : Fin 2 → Nat :=
  let c89_i32_381 : BitVec 32 := 89#32
  ![89, v863.toNat]

def k0_chk90 (v863 : BitVec 32) : Prop :=
  (∀ a, (k0_off180 v863) a + S1x4096.size a ≤ S128x8192.size a)
instance k0_chk90.dec : ∀ (v863 : BitVec 32), Decidable (k0_chk90 v863) := fun v863 => decidable_of_iff' _ (Iff.of_eq (k0_chk90.eq_1 v863))
theorem k0_off180_inb : ∀ (v863 : BitVec 32) (k0_hw90 : k0_chk90 v863), ∀ a, (k0_off180 v863) a + S1x4096.size a ≤ S128x8192.size a := fun v863 k0_hw90 => k0_hw90

def k0_off181 (i : grid0.Coords) : Fin 1 → Nat :=
  let arg0 : BitVec 32 := BitVec.ofNat 32 (i 0).val
  let c128_i32 : BitVec 32 := 128#32
  let v0 : BitVec 32 := Scalar.muli arg0 c128_i32
  let c90_i32 : BitVec 32 := 90#32
  let v870 : BitVec 32 := Scalar.addi v0 c90_i32
  let v871 : Index := Scalar.indexCast v870
  ![v871.toNat]
def k0_off182 (v872 : BitVec 32) : Fin 2 → Nat :=
  let c90_i32_385 : BitVec 32 := 90#32
  ![90, v872.toNat]

def k0_chk91 (v872 : BitVec 32) : Prop :=
  (∀ a, (k0_off182 v872) a + S1x4096.size a ≤ S128x8192.size a)
instance k0_chk91.dec : ∀ (v872 : BitVec 32), Decidable (k0_chk91 v872) := fun v872 => decidable_of_iff' _ (Iff.of_eq (k0_chk91.eq_1 v872))
theorem k0_off182_inb : ∀ (v872 : BitVec 32) (k0_hw91 : k0_chk91 v872), ∀ a, (k0_off182 v872) a + S1x4096.size a ≤ S128x8192.size a := fun v872 k0_hw91 => k0_hw91

def k0_off183 (i : grid0.Coords) : Fin 1 → Nat :=
  let arg0 : BitVec 32 := BitVec.ofNat 32 (i 0).val
  let c128_i32 : BitVec 32 := 128#32
  let v0 : BitVec 32 := Scalar.muli arg0 c128_i32
  let c91_i32 : BitVec 32 := 91#32
  let v879 : BitVec 32 := Scalar.addi v0 c91_i32
  let v880 : Index := Scalar.indexCast v879
  ![v880.toNat]
def k0_off184 (v881 : BitVec 32) : Fin 2 → Nat :=
  let c91_i32_389 : BitVec 32 := 91#32
  ![91, v881.toNat]

def k0_chk92 (v881 : BitVec 32) : Prop :=
  (∀ a, (k0_off184 v881) a + S1x4096.size a ≤ S128x8192.size a)
instance k0_chk92.dec : ∀ (v881 : BitVec 32), Decidable (k0_chk92 v881) := fun v881 => decidable_of_iff' _ (Iff.of_eq (k0_chk92.eq_1 v881))
theorem k0_off184_inb : ∀ (v881 : BitVec 32) (k0_hw92 : k0_chk92 v881), ∀ a, (k0_off184 v881) a + S1x4096.size a ≤ S128x8192.size a := fun v881 k0_hw92 => k0_hw92

def k0_off185 (i : grid0.Coords) : Fin 1 → Nat :=
  let arg0 : BitVec 32 := BitVec.ofNat 32 (i 0).val
  let c128_i32 : BitVec 32 := 128#32
  let v0 : BitVec 32 := Scalar.muli arg0 c128_i32
  let c92_i32 : BitVec 32 := 92#32
  let v888 : BitVec 32 := Scalar.addi v0 c92_i32
  let v889 : Index := Scalar.indexCast v888
  ![v889.toNat]
def k0_off186 (v890 : BitVec 32) : Fin 2 → Nat :=
  let c92_i32_393 : BitVec 32 := 92#32
  ![92, v890.toNat]

def k0_chk93 (v890 : BitVec 32) : Prop :=
  (∀ a, (k0_off186 v890) a + S1x4096.size a ≤ S128x8192.size a)
instance k0_chk93.dec : ∀ (v890 : BitVec 32), Decidable (k0_chk93 v890) := fun v890 => decidable_of_iff' _ (Iff.of_eq (k0_chk93.eq_1 v890))
theorem k0_off186_inb : ∀ (v890 : BitVec 32) (k0_hw93 : k0_chk93 v890), ∀ a, (k0_off186 v890) a + S1x4096.size a ≤ S128x8192.size a := fun v890 k0_hw93 => k0_hw93

def k0_off187 (i : grid0.Coords) : Fin 1 → Nat :=
  let arg0 : BitVec 32 := BitVec.ofNat 32 (i 0).val
  let c128_i32 : BitVec 32 := 128#32
  let v0 : BitVec 32 := Scalar.muli arg0 c128_i32
  let c93_i32 : BitVec 32 := 93#32
  let v897 : BitVec 32 := Scalar.addi v0 c93_i32
  let v898 : Index := Scalar.indexCast v897
  ![v898.toNat]
def k0_off188 (v899 : BitVec 32) : Fin 2 → Nat :=
  let c93_i32_397 : BitVec 32 := 93#32
  ![93, v899.toNat]

def k0_chk94 (v899 : BitVec 32) : Prop :=
  (∀ a, (k0_off188 v899) a + S1x4096.size a ≤ S128x8192.size a)
instance k0_chk94.dec : ∀ (v899 : BitVec 32), Decidable (k0_chk94 v899) := fun v899 => decidable_of_iff' _ (Iff.of_eq (k0_chk94.eq_1 v899))
theorem k0_off188_inb : ∀ (v899 : BitVec 32) (k0_hw94 : k0_chk94 v899), ∀ a, (k0_off188 v899) a + S1x4096.size a ≤ S128x8192.size a := fun v899 k0_hw94 => k0_hw94

def k0_off189 (i : grid0.Coords) : Fin 1 → Nat :=
  let arg0 : BitVec 32 := BitVec.ofNat 32 (i 0).val
  let c128_i32 : BitVec 32 := 128#32
  let v0 : BitVec 32 := Scalar.muli arg0 c128_i32
  let c94_i32 : BitVec 32 := 94#32
  let v906 : BitVec 32 := Scalar.addi v0 c94_i32
  let v907 : Index := Scalar.indexCast v906
  ![v907.toNat]
def k0_off190 (v908 : BitVec 32) : Fin 2 → Nat :=
  let c94_i32_401 : BitVec 32 := 94#32
  ![94, v908.toNat]

def k0_chk95 (v908 : BitVec 32) : Prop :=
  (∀ a, (k0_off190 v908) a + S1x4096.size a ≤ S128x8192.size a)
instance k0_chk95.dec : ∀ (v908 : BitVec 32), Decidable (k0_chk95 v908) := fun v908 => decidable_of_iff' _ (Iff.of_eq (k0_chk95.eq_1 v908))
theorem k0_off190_inb : ∀ (v908 : BitVec 32) (k0_hw95 : k0_chk95 v908), ∀ a, (k0_off190 v908) a + S1x4096.size a ≤ S128x8192.size a := fun v908 k0_hw95 => k0_hw95

def k0_off191 (i : grid0.Coords) : Fin 1 → Nat :=
  let arg0 : BitVec 32 := BitVec.ofNat 32 (i 0).val
  let c128_i32 : BitVec 32 := 128#32
  let v0 : BitVec 32 := Scalar.muli arg0 c128_i32
  let c95_i32 : BitVec 32 := 95#32
  let v915 : BitVec 32 := Scalar.addi v0 c95_i32
  let v916 : Index := Scalar.indexCast v915
  ![v916.toNat]
def k0_off192 (v917 : BitVec 32) : Fin 2 → Nat :=
  let c95_i32_405 : BitVec 32 := 95#32
  ![95, v917.toNat]

def k0_chk96 (v917 : BitVec 32) : Prop :=
  (∀ a, (k0_off192 v917) a + S1x4096.size a ≤ S128x8192.size a)
instance k0_chk96.dec : ∀ (v917 : BitVec 32), Decidable (k0_chk96 v917) := fun v917 => decidable_of_iff' _ (Iff.of_eq (k0_chk96.eq_1 v917))
theorem k0_off192_inb : ∀ (v917 : BitVec 32) (k0_hw96 : k0_chk96 v917), ∀ a, (k0_off192 v917) a + S1x4096.size a ≤ S128x8192.size a := fun v917 k0_hw96 => k0_hw96

def k0_off193 (i : grid0.Coords) : Fin 1 → Nat :=
  let arg0 : BitVec 32 := BitVec.ofNat 32 (i 0).val
  let c128_i32 : BitVec 32 := 128#32
  let v0 : BitVec 32 := Scalar.muli arg0 c128_i32
  let c96_i32 : BitVec 32 := 96#32
  let v924 : BitVec 32 := Scalar.addi v0 c96_i32
  let v925 : Index := Scalar.indexCast v924
  ![v925.toNat]
def k0_off194 (v926 : BitVec 32) : Fin 2 → Nat :=
  let c96_i32_409 : BitVec 32 := 96#32
  ![96, v926.toNat]

def k0_chk97 (v926 : BitVec 32) : Prop :=
  (∀ a, (k0_off194 v926) a + S1x4096.size a ≤ S128x8192.size a)
instance k0_chk97.dec : ∀ (v926 : BitVec 32), Decidable (k0_chk97 v926) := fun v926 => decidable_of_iff' _ (Iff.of_eq (k0_chk97.eq_1 v926))
theorem k0_off194_inb : ∀ (v926 : BitVec 32) (k0_hw97 : k0_chk97 v926), ∀ a, (k0_off194 v926) a + S1x4096.size a ≤ S128x8192.size a := fun v926 k0_hw97 => k0_hw97

def k0_off195 (i : grid0.Coords) : Fin 1 → Nat :=
  let arg0 : BitVec 32 := BitVec.ofNat 32 (i 0).val
  let c128_i32 : BitVec 32 := 128#32
  let v0 : BitVec 32 := Scalar.muli arg0 c128_i32
  let c97_i32 : BitVec 32 := 97#32
  let v933 : BitVec 32 := Scalar.addi v0 c97_i32
  let v934 : Index := Scalar.indexCast v933
  ![v934.toNat]
def k0_off196 (v935 : BitVec 32) : Fin 2 → Nat :=
  let c97_i32_413 : BitVec 32 := 97#32
  ![97, v935.toNat]

def k0_chk98 (v935 : BitVec 32) : Prop :=
  (∀ a, (k0_off196 v935) a + S1x4096.size a ≤ S128x8192.size a)
instance k0_chk98.dec : ∀ (v935 : BitVec 32), Decidable (k0_chk98 v935) := fun v935 => decidable_of_iff' _ (Iff.of_eq (k0_chk98.eq_1 v935))
theorem k0_off196_inb : ∀ (v935 : BitVec 32) (k0_hw98 : k0_chk98 v935), ∀ a, (k0_off196 v935) a + S1x4096.size a ≤ S128x8192.size a := fun v935 k0_hw98 => k0_hw98

def k0_off197 (i : grid0.Coords) : Fin 1 → Nat :=
  let arg0 : BitVec 32 := BitVec.ofNat 32 (i 0).val
  let c128_i32 : BitVec 32 := 128#32
  let v0 : BitVec 32 := Scalar.muli arg0 c128_i32
  let c98_i32 : BitVec 32 := 98#32
  let v942 : BitVec 32 := Scalar.addi v0 c98_i32
  let v943 : Index := Scalar.indexCast v942
  ![v943.toNat]
def k0_off198 (v944 : BitVec 32) : Fin 2 → Nat :=
  let c98_i32_417 : BitVec 32 := 98#32
  ![98, v944.toNat]

def k0_chk99 (v944 : BitVec 32) : Prop :=
  (∀ a, (k0_off198 v944) a + S1x4096.size a ≤ S128x8192.size a)
instance k0_chk99.dec : ∀ (v944 : BitVec 32), Decidable (k0_chk99 v944) := fun v944 => decidable_of_iff' _ (Iff.of_eq (k0_chk99.eq_1 v944))
theorem k0_off198_inb : ∀ (v944 : BitVec 32) (k0_hw99 : k0_chk99 v944), ∀ a, (k0_off198 v944) a + S1x4096.size a ≤ S128x8192.size a := fun v944 k0_hw99 => k0_hw99

def k0_off199 (i : grid0.Coords) : Fin 1 → Nat :=
  let arg0 : BitVec 32 := BitVec.ofNat 32 (i 0).val
  let c128_i32 : BitVec 32 := 128#32
  let v0 : BitVec 32 := Scalar.muli arg0 c128_i32
  let c99_i32 : BitVec 32 := 99#32
  let v951 : BitVec 32 := Scalar.addi v0 c99_i32
  let v952 : Index := Scalar.indexCast v951
  ![v952.toNat]
def k0_off200 (v953 : BitVec 32) : Fin 2 → Nat :=
  let c99_i32_421 : BitVec 32 := 99#32
  ![99, v953.toNat]

def k0_chk100 (v953 : BitVec 32) : Prop :=
  (∀ a, (k0_off200 v953) a + S1x4096.size a ≤ S128x8192.size a)
instance k0_chk100.dec : ∀ (v953 : BitVec 32), Decidable (k0_chk100 v953) := fun v953 => decidable_of_iff' _ (Iff.of_eq (k0_chk100.eq_1 v953))
theorem k0_off200_inb : ∀ (v953 : BitVec 32) (k0_hw100 : k0_chk100 v953), ∀ a, (k0_off200 v953) a + S1x4096.size a ≤ S128x8192.size a := fun v953 k0_hw100 => k0_hw100

def k0_off201 (i : grid0.Coords) : Fin 1 → Nat :=
  let arg0 : BitVec 32 := BitVec.ofNat 32 (i 0).val
  let c128_i32 : BitVec 32 := 128#32
  let v0 : BitVec 32 := Scalar.muli arg0 c128_i32
  let c100_i32 : BitVec 32 := 100#32
  let v960 : BitVec 32 := Scalar.addi v0 c100_i32
  let v961 : Index := Scalar.indexCast v960
  ![v961.toNat]
def k0_off202 (v962 : BitVec 32) : Fin 2 → Nat :=
  let c100_i32_425 : BitVec 32 := 100#32
  ![100, v962.toNat]

def k0_chk101 (v962 : BitVec 32) : Prop :=
  (∀ a, (k0_off202 v962) a + S1x4096.size a ≤ S128x8192.size a)
instance k0_chk101.dec : ∀ (v962 : BitVec 32), Decidable (k0_chk101 v962) := fun v962 => decidable_of_iff' _ (Iff.of_eq (k0_chk101.eq_1 v962))
theorem k0_off202_inb : ∀ (v962 : BitVec 32) (k0_hw101 : k0_chk101 v962), ∀ a, (k0_off202 v962) a + S1x4096.size a ≤ S128x8192.size a := fun v962 k0_hw101 => k0_hw101

def k0_off203 (i : grid0.Coords) : Fin 1 → Nat :=
  let arg0 : BitVec 32 := BitVec.ofNat 32 (i 0).val
  let c128_i32 : BitVec 32 := 128#32
  let v0 : BitVec 32 := Scalar.muli arg0 c128_i32
  let c101_i32 : BitVec 32 := 101#32
  let v969 : BitVec 32 := Scalar.addi v0 c101_i32
  let v970 : Index := Scalar.indexCast v969
  ![v970.toNat]
def k0_off204 (v971 : BitVec 32) : Fin 2 → Nat :=
  let c101_i32_429 : BitVec 32 := 101#32
  ![101, v971.toNat]

def k0_chk102 (v971 : BitVec 32) : Prop :=
  (∀ a, (k0_off204 v971) a + S1x4096.size a ≤ S128x8192.size a)
instance k0_chk102.dec : ∀ (v971 : BitVec 32), Decidable (k0_chk102 v971) := fun v971 => decidable_of_iff' _ (Iff.of_eq (k0_chk102.eq_1 v971))
theorem k0_off204_inb : ∀ (v971 : BitVec 32) (k0_hw102 : k0_chk102 v971), ∀ a, (k0_off204 v971) a + S1x4096.size a ≤ S128x8192.size a := fun v971 k0_hw102 => k0_hw102

def k0_off205 (i : grid0.Coords) : Fin 1 → Nat :=
  let arg0 : BitVec 32 := BitVec.ofNat 32 (i 0).val
  let c128_i32 : BitVec 32 := 128#32
  let v0 : BitVec 32 := Scalar.muli arg0 c128_i32
  let c102_i32 : BitVec 32 := 102#32
  let v978 : BitVec 32 := Scalar.addi v0 c102_i32
  let v979 : Index := Scalar.indexCast v978
  ![v979.toNat]
def k0_off206 (v980 : BitVec 32) : Fin 2 → Nat :=
  let c102_i32_433 : BitVec 32 := 102#32
  ![102, v980.toNat]

def k0_chk103 (v980 : BitVec 32) : Prop :=
  (∀ a, (k0_off206 v980) a + S1x4096.size a ≤ S128x8192.size a)
instance k0_chk103.dec : ∀ (v980 : BitVec 32), Decidable (k0_chk103 v980) := fun v980 => decidable_of_iff' _ (Iff.of_eq (k0_chk103.eq_1 v980))
theorem k0_off206_inb : ∀ (v980 : BitVec 32) (k0_hw103 : k0_chk103 v980), ∀ a, (k0_off206 v980) a + S1x4096.size a ≤ S128x8192.size a := fun v980 k0_hw103 => k0_hw103

def k0_off207 (i : grid0.Coords) : Fin 1 → Nat :=
  let arg0 : BitVec 32 := BitVec.ofNat 32 (i 0).val
  let c128_i32 : BitVec 32 := 128#32
  let v0 : BitVec 32 := Scalar.muli arg0 c128_i32
  let c103_i32 : BitVec 32 := 103#32
  let v987 : BitVec 32 := Scalar.addi v0 c103_i32
  let v988 : Index := Scalar.indexCast v987
  ![v988.toNat]
def k0_off208 (v989 : BitVec 32) : Fin 2 → Nat :=
  let c103_i32_437 : BitVec 32 := 103#32
  ![103, v989.toNat]

def k0_chk104 (v989 : BitVec 32) : Prop :=
  (∀ a, (k0_off208 v989) a + S1x4096.size a ≤ S128x8192.size a)
instance k0_chk104.dec : ∀ (v989 : BitVec 32), Decidable (k0_chk104 v989) := fun v989 => decidable_of_iff' _ (Iff.of_eq (k0_chk104.eq_1 v989))
theorem k0_off208_inb : ∀ (v989 : BitVec 32) (k0_hw104 : k0_chk104 v989), ∀ a, (k0_off208 v989) a + S1x4096.size a ≤ S128x8192.size a := fun v989 k0_hw104 => k0_hw104

def k0_off209 (i : grid0.Coords) : Fin 1 → Nat :=
  let arg0 : BitVec 32 := BitVec.ofNat 32 (i 0).val
  let c128_i32 : BitVec 32 := 128#32
  let v0 : BitVec 32 := Scalar.muli arg0 c128_i32
  let c104_i32 : BitVec 32 := 104#32
  let v996 : BitVec 32 := Scalar.addi v0 c104_i32
  let v997 : Index := Scalar.indexCast v996
  ![v997.toNat]
def k0_off210 (v998 : BitVec 32) : Fin 2 → Nat :=
  let c104_i32_441 : BitVec 32 := 104#32
  ![104, v998.toNat]

def k0_chk105 (v998 : BitVec 32) : Prop :=
  (∀ a, (k0_off210 v998) a + S1x4096.size a ≤ S128x8192.size a)
instance k0_chk105.dec : ∀ (v998 : BitVec 32), Decidable (k0_chk105 v998) := fun v998 => decidable_of_iff' _ (Iff.of_eq (k0_chk105.eq_1 v998))
theorem k0_off210_inb : ∀ (v998 : BitVec 32) (k0_hw105 : k0_chk105 v998), ∀ a, (k0_off210 v998) a + S1x4096.size a ≤ S128x8192.size a := fun v998 k0_hw105 => k0_hw105

def k0_off211 (i : grid0.Coords) : Fin 1 → Nat :=
  let arg0 : BitVec 32 := BitVec.ofNat 32 (i 0).val
  let c128_i32 : BitVec 32 := 128#32
  let v0 : BitVec 32 := Scalar.muli arg0 c128_i32
  let c105_i32 : BitVec 32 := 105#32
  let v1005 : BitVec 32 := Scalar.addi v0 c105_i32
  let v1006 : Index := Scalar.indexCast v1005
  ![v1006.toNat]
def k0_off212 (v1007 : BitVec 32) : Fin 2 → Nat :=
  let c105_i32_445 : BitVec 32 := 105#32
  ![105, v1007.toNat]

def k0_chk106 (v1007 : BitVec 32) : Prop :=
  (∀ a, (k0_off212 v1007) a + S1x4096.size a ≤ S128x8192.size a)
instance k0_chk106.dec : ∀ (v1007 : BitVec 32), Decidable (k0_chk106 v1007) := fun v1007 => decidable_of_iff' _ (Iff.of_eq (k0_chk106.eq_1 v1007))
theorem k0_off212_inb : ∀ (v1007 : BitVec 32) (k0_hw106 : k0_chk106 v1007), ∀ a, (k0_off212 v1007) a + S1x4096.size a ≤ S128x8192.size a := fun v1007 k0_hw106 => k0_hw106

def k0_off213 (i : grid0.Coords) : Fin 1 → Nat :=
  let arg0 : BitVec 32 := BitVec.ofNat 32 (i 0).val
  let c128_i32 : BitVec 32 := 128#32
  let v0 : BitVec 32 := Scalar.muli arg0 c128_i32
  let c106_i32 : BitVec 32 := 106#32
  let v1014 : BitVec 32 := Scalar.addi v0 c106_i32
  let v1015 : Index := Scalar.indexCast v1014
  ![v1015.toNat]
def k0_off214 (v1016 : BitVec 32) : Fin 2 → Nat :=
  let c106_i32_449 : BitVec 32 := 106#32
  ![106, v1016.toNat]

def k0_chk107 (v1016 : BitVec 32) : Prop :=
  (∀ a, (k0_off214 v1016) a + S1x4096.size a ≤ S128x8192.size a)
instance k0_chk107.dec : ∀ (v1016 : BitVec 32), Decidable (k0_chk107 v1016) := fun v1016 => decidable_of_iff' _ (Iff.of_eq (k0_chk107.eq_1 v1016))
theorem k0_off214_inb : ∀ (v1016 : BitVec 32) (k0_hw107 : k0_chk107 v1016), ∀ a, (k0_off214 v1016) a + S1x4096.size a ≤ S128x8192.size a := fun v1016 k0_hw107 => k0_hw107

def k0_off215 (i : grid0.Coords) : Fin 1 → Nat :=
  let arg0 : BitVec 32 := BitVec.ofNat 32 (i 0).val
  let c128_i32 : BitVec 32 := 128#32
  let v0 : BitVec 32 := Scalar.muli arg0 c128_i32
  let c107_i32 : BitVec 32 := 107#32
  let v1023 : BitVec 32 := Scalar.addi v0 c107_i32
  let v1024 : Index := Scalar.indexCast v1023
  ![v1024.toNat]
def k0_off216 (v1025 : BitVec 32) : Fin 2 → Nat :=
  let c107_i32_453 : BitVec 32 := 107#32
  ![107, v1025.toNat]

def k0_chk108 (v1025 : BitVec 32) : Prop :=
  (∀ a, (k0_off216 v1025) a + S1x4096.size a ≤ S128x8192.size a)
instance k0_chk108.dec : ∀ (v1025 : BitVec 32), Decidable (k0_chk108 v1025) := fun v1025 => decidable_of_iff' _ (Iff.of_eq (k0_chk108.eq_1 v1025))
theorem k0_off216_inb : ∀ (v1025 : BitVec 32) (k0_hw108 : k0_chk108 v1025), ∀ a, (k0_off216 v1025) a + S1x4096.size a ≤ S128x8192.size a := fun v1025 k0_hw108 => k0_hw108

def k0_off217 (i : grid0.Coords) : Fin 1 → Nat :=
  let arg0 : BitVec 32 := BitVec.ofNat 32 (i 0).val
  let c128_i32 : BitVec 32 := 128#32
  let v0 : BitVec 32 := Scalar.muli arg0 c128_i32
  let c108_i32 : BitVec 32 := 108#32
  let v1032 : BitVec 32 := Scalar.addi v0 c108_i32
  let v1033 : Index := Scalar.indexCast v1032
  ![v1033.toNat]
def k0_off218 (v1034 : BitVec 32) : Fin 2 → Nat :=
  let c108_i32_457 : BitVec 32 := 108#32
  ![108, v1034.toNat]

def k0_chk109 (v1034 : BitVec 32) : Prop :=
  (∀ a, (k0_off218 v1034) a + S1x4096.size a ≤ S128x8192.size a)
instance k0_chk109.dec : ∀ (v1034 : BitVec 32), Decidable (k0_chk109 v1034) := fun v1034 => decidable_of_iff' _ (Iff.of_eq (k0_chk109.eq_1 v1034))
theorem k0_off218_inb : ∀ (v1034 : BitVec 32) (k0_hw109 : k0_chk109 v1034), ∀ a, (k0_off218 v1034) a + S1x4096.size a ≤ S128x8192.size a := fun v1034 k0_hw109 => k0_hw109

def k0_off219 (i : grid0.Coords) : Fin 1 → Nat :=
  let arg0 : BitVec 32 := BitVec.ofNat 32 (i 0).val
  let c128_i32 : BitVec 32 := 128#32
  let v0 : BitVec 32 := Scalar.muli arg0 c128_i32
  let c109_i32 : BitVec 32 := 109#32
  let v1041 : BitVec 32 := Scalar.addi v0 c109_i32
  let v1042 : Index := Scalar.indexCast v1041
  ![v1042.toNat]
def k0_off220 (v1043 : BitVec 32) : Fin 2 → Nat :=
  let c109_i32_461 : BitVec 32 := 109#32
  ![109, v1043.toNat]

def k0_chk110 (v1043 : BitVec 32) : Prop :=
  (∀ a, (k0_off220 v1043) a + S1x4096.size a ≤ S128x8192.size a)
instance k0_chk110.dec : ∀ (v1043 : BitVec 32), Decidable (k0_chk110 v1043) := fun v1043 => decidable_of_iff' _ (Iff.of_eq (k0_chk110.eq_1 v1043))
theorem k0_off220_inb : ∀ (v1043 : BitVec 32) (k0_hw110 : k0_chk110 v1043), ∀ a, (k0_off220 v1043) a + S1x4096.size a ≤ S128x8192.size a := fun v1043 k0_hw110 => k0_hw110

def k0_off221 (i : grid0.Coords) : Fin 1 → Nat :=
  let arg0 : BitVec 32 := BitVec.ofNat 32 (i 0).val
  let c128_i32 : BitVec 32 := 128#32
  let v0 : BitVec 32 := Scalar.muli arg0 c128_i32
  let c110_i32 : BitVec 32 := 110#32
  let v1050 : BitVec 32 := Scalar.addi v0 c110_i32
  let v1051 : Index := Scalar.indexCast v1050
  ![v1051.toNat]
def k0_off222 (v1052 : BitVec 32) : Fin 2 → Nat :=
  let c110_i32_465 : BitVec 32 := 110#32
  ![110, v1052.toNat]

def k0_chk111 (v1052 : BitVec 32) : Prop :=
  (∀ a, (k0_off222 v1052) a + S1x4096.size a ≤ S128x8192.size a)
instance k0_chk111.dec : ∀ (v1052 : BitVec 32), Decidable (k0_chk111 v1052) := fun v1052 => decidable_of_iff' _ (Iff.of_eq (k0_chk111.eq_1 v1052))
theorem k0_off222_inb : ∀ (v1052 : BitVec 32) (k0_hw111 : k0_chk111 v1052), ∀ a, (k0_off222 v1052) a + S1x4096.size a ≤ S128x8192.size a := fun v1052 k0_hw111 => k0_hw111

def k0_off223 (i : grid0.Coords) : Fin 1 → Nat :=
  let arg0 : BitVec 32 := BitVec.ofNat 32 (i 0).val
  let c128_i32 : BitVec 32 := 128#32
  let v0 : BitVec 32 := Scalar.muli arg0 c128_i32
  let c111_i32 : BitVec 32 := 111#32
  let v1059 : BitVec 32 := Scalar.addi v0 c111_i32
  let v1060 : Index := Scalar.indexCast v1059
  ![v1060.toNat]
def k0_off224 (v1061 : BitVec 32) : Fin 2 → Nat :=
  let c111_i32_469 : BitVec 32 := 111#32
  ![111, v1061.toNat]

def k0_chk112 (v1061 : BitVec 32) : Prop :=
  (∀ a, (k0_off224 v1061) a + S1x4096.size a ≤ S128x8192.size a)
instance k0_chk112.dec : ∀ (v1061 : BitVec 32), Decidable (k0_chk112 v1061) := fun v1061 => decidable_of_iff' _ (Iff.of_eq (k0_chk112.eq_1 v1061))
theorem k0_off224_inb : ∀ (v1061 : BitVec 32) (k0_hw112 : k0_chk112 v1061), ∀ a, (k0_off224 v1061) a + S1x4096.size a ≤ S128x8192.size a := fun v1061 k0_hw112 => k0_hw112

def k0_off225 (i : grid0.Coords) : Fin 1 → Nat :=
  let arg0 : BitVec 32 := BitVec.ofNat 32 (i 0).val
  let c128_i32 : BitVec 32 := 128#32
  let v0 : BitVec 32 := Scalar.muli arg0 c128_i32
  let c112_i32 : BitVec 32 := 112#32
  let v1068 : BitVec 32 := Scalar.addi v0 c112_i32
  let v1069 : Index := Scalar.indexCast v1068
  ![v1069.toNat]
def k0_off226 (v1070 : BitVec 32) : Fin 2 → Nat :=
  let c112_i32_473 : BitVec 32 := 112#32
  ![112, v1070.toNat]

def k0_chk113 (v1070 : BitVec 32) : Prop :=
  (∀ a, (k0_off226 v1070) a + S1x4096.size a ≤ S128x8192.size a)
instance k0_chk113.dec : ∀ (v1070 : BitVec 32), Decidable (k0_chk113 v1070) := fun v1070 => decidable_of_iff' _ (Iff.of_eq (k0_chk113.eq_1 v1070))
theorem k0_off226_inb : ∀ (v1070 : BitVec 32) (k0_hw113 : k0_chk113 v1070), ∀ a, (k0_off226 v1070) a + S1x4096.size a ≤ S128x8192.size a := fun v1070 k0_hw113 => k0_hw113

def k0_off227 (i : grid0.Coords) : Fin 1 → Nat :=
  let arg0 : BitVec 32 := BitVec.ofNat 32 (i 0).val
  let c128_i32 : BitVec 32 := 128#32
  let v0 : BitVec 32 := Scalar.muli arg0 c128_i32
  let c113_i32 : BitVec 32 := 113#32
  let v1077 : BitVec 32 := Scalar.addi v0 c113_i32
  let v1078 : Index := Scalar.indexCast v1077
  ![v1078.toNat]
def k0_off228 (v1079 : BitVec 32) : Fin 2 → Nat :=
  let c113_i32_477 : BitVec 32 := 113#32
  ![113, v1079.toNat]

def k0_chk114 (v1079 : BitVec 32) : Prop :=
  (∀ a, (k0_off228 v1079) a + S1x4096.size a ≤ S128x8192.size a)
instance k0_chk114.dec : ∀ (v1079 : BitVec 32), Decidable (k0_chk114 v1079) := fun v1079 => decidable_of_iff' _ (Iff.of_eq (k0_chk114.eq_1 v1079))
theorem k0_off228_inb : ∀ (v1079 : BitVec 32) (k0_hw114 : k0_chk114 v1079), ∀ a, (k0_off228 v1079) a + S1x4096.size a ≤ S128x8192.size a := fun v1079 k0_hw114 => k0_hw114

def k0_off229 (i : grid0.Coords) : Fin 1 → Nat :=
  let arg0 : BitVec 32 := BitVec.ofNat 32 (i 0).val
  let c128_i32 : BitVec 32 := 128#32
  let v0 : BitVec 32 := Scalar.muli arg0 c128_i32
  let c114_i32 : BitVec 32 := 114#32
  let v1086 : BitVec 32 := Scalar.addi v0 c114_i32
  let v1087 : Index := Scalar.indexCast v1086
  ![v1087.toNat]
def k0_off230 (v1088 : BitVec 32) : Fin 2 → Nat :=
  let c114_i32_481 : BitVec 32 := 114#32
  ![114, v1088.toNat]

def k0_chk115 (v1088 : BitVec 32) : Prop :=
  (∀ a, (k0_off230 v1088) a + S1x4096.size a ≤ S128x8192.size a)
instance k0_chk115.dec : ∀ (v1088 : BitVec 32), Decidable (k0_chk115 v1088) := fun v1088 => decidable_of_iff' _ (Iff.of_eq (k0_chk115.eq_1 v1088))
theorem k0_off230_inb : ∀ (v1088 : BitVec 32) (k0_hw115 : k0_chk115 v1088), ∀ a, (k0_off230 v1088) a + S1x4096.size a ≤ S128x8192.size a := fun v1088 k0_hw115 => k0_hw115

def k0_off231 (i : grid0.Coords) : Fin 1 → Nat :=
  let arg0 : BitVec 32 := BitVec.ofNat 32 (i 0).val
  let c128_i32 : BitVec 32 := 128#32
  let v0 : BitVec 32 := Scalar.muli arg0 c128_i32
  let c115_i32 : BitVec 32 := 115#32
  let v1095 : BitVec 32 := Scalar.addi v0 c115_i32
  let v1096 : Index := Scalar.indexCast v1095
  ![v1096.toNat]
def k0_off232 (v1097 : BitVec 32) : Fin 2 → Nat :=
  let c115_i32_485 : BitVec 32 := 115#32
  ![115, v1097.toNat]

def k0_chk116 (v1097 : BitVec 32) : Prop :=
  (∀ a, (k0_off232 v1097) a + S1x4096.size a ≤ S128x8192.size a)
instance k0_chk116.dec : ∀ (v1097 : BitVec 32), Decidable (k0_chk116 v1097) := fun v1097 => decidable_of_iff' _ (Iff.of_eq (k0_chk116.eq_1 v1097))
theorem k0_off232_inb : ∀ (v1097 : BitVec 32) (k0_hw116 : k0_chk116 v1097), ∀ a, (k0_off232 v1097) a + S1x4096.size a ≤ S128x8192.size a := fun v1097 k0_hw116 => k0_hw116

def k0_off233 (i : grid0.Coords) : Fin 1 → Nat :=
  let arg0 : BitVec 32 := BitVec.ofNat 32 (i 0).val
  let c128_i32 : BitVec 32 := 128#32
  let v0 : BitVec 32 := Scalar.muli arg0 c128_i32
  let c116_i32 : BitVec 32 := 116#32
  let v1104 : BitVec 32 := Scalar.addi v0 c116_i32
  let v1105 : Index := Scalar.indexCast v1104
  ![v1105.toNat]
def k0_off234 (v1106 : BitVec 32) : Fin 2 → Nat :=
  let c116_i32_489 : BitVec 32 := 116#32
  ![116, v1106.toNat]

def k0_chk117 (v1106 : BitVec 32) : Prop :=
  (∀ a, (k0_off234 v1106) a + S1x4096.size a ≤ S128x8192.size a)
instance k0_chk117.dec : ∀ (v1106 : BitVec 32), Decidable (k0_chk117 v1106) := fun v1106 => decidable_of_iff' _ (Iff.of_eq (k0_chk117.eq_1 v1106))
theorem k0_off234_inb : ∀ (v1106 : BitVec 32) (k0_hw117 : k0_chk117 v1106), ∀ a, (k0_off234 v1106) a + S1x4096.size a ≤ S128x8192.size a := fun v1106 k0_hw117 => k0_hw117

def k0_off235 (i : grid0.Coords) : Fin 1 → Nat :=
  let arg0 : BitVec 32 := BitVec.ofNat 32 (i 0).val
  let c128_i32 : BitVec 32 := 128#32
  let v0 : BitVec 32 := Scalar.muli arg0 c128_i32
  let c117_i32 : BitVec 32 := 117#32
  let v1113 : BitVec 32 := Scalar.addi v0 c117_i32
  let v1114 : Index := Scalar.indexCast v1113
  ![v1114.toNat]
def k0_off236 (v1115 : BitVec 32) : Fin 2 → Nat :=
  let c117_i32_493 : BitVec 32 := 117#32
  ![117, v1115.toNat]

def k0_chk118 (v1115 : BitVec 32) : Prop :=
  (∀ a, (k0_off236 v1115) a + S1x4096.size a ≤ S128x8192.size a)
instance k0_chk118.dec : ∀ (v1115 : BitVec 32), Decidable (k0_chk118 v1115) := fun v1115 => decidable_of_iff' _ (Iff.of_eq (k0_chk118.eq_1 v1115))
theorem k0_off236_inb : ∀ (v1115 : BitVec 32) (k0_hw118 : k0_chk118 v1115), ∀ a, (k0_off236 v1115) a + S1x4096.size a ≤ S128x8192.size a := fun v1115 k0_hw118 => k0_hw118

def k0_off237 (i : grid0.Coords) : Fin 1 → Nat :=
  let arg0 : BitVec 32 := BitVec.ofNat 32 (i 0).val
  let c128_i32 : BitVec 32 := 128#32
  let v0 : BitVec 32 := Scalar.muli arg0 c128_i32
  let c118_i32 : BitVec 32 := 118#32
  let v1122 : BitVec 32 := Scalar.addi v0 c118_i32
  let v1123 : Index := Scalar.indexCast v1122
  ![v1123.toNat]
def k0_off238 (v1124 : BitVec 32) : Fin 2 → Nat :=
  let c118_i32_497 : BitVec 32 := 118#32
  ![118, v1124.toNat]

def k0_chk119 (v1124 : BitVec 32) : Prop :=
  (∀ a, (k0_off238 v1124) a + S1x4096.size a ≤ S128x8192.size a)
instance k0_chk119.dec : ∀ (v1124 : BitVec 32), Decidable (k0_chk119 v1124) := fun v1124 => decidable_of_iff' _ (Iff.of_eq (k0_chk119.eq_1 v1124))
theorem k0_off238_inb : ∀ (v1124 : BitVec 32) (k0_hw119 : k0_chk119 v1124), ∀ a, (k0_off238 v1124) a + S1x4096.size a ≤ S128x8192.size a := fun v1124 k0_hw119 => k0_hw119

def k0_off239 (i : grid0.Coords) : Fin 1 → Nat :=
  let arg0 : BitVec 32 := BitVec.ofNat 32 (i 0).val
  let c128_i32 : BitVec 32 := 128#32
  let v0 : BitVec 32 := Scalar.muli arg0 c128_i32
  let c119_i32 : BitVec 32 := 119#32
  let v1131 : BitVec 32 := Scalar.addi v0 c119_i32
  let v1132 : Index := Scalar.indexCast v1131
  ![v1132.toNat]
def k0_off240 (v1133 : BitVec 32) : Fin 2 → Nat :=
  let c119_i32_501 : BitVec 32 := 119#32
  ![119, v1133.toNat]

def k0_chk120 (v1133 : BitVec 32) : Prop :=
  (∀ a, (k0_off240 v1133) a + S1x4096.size a ≤ S128x8192.size a)
instance k0_chk120.dec : ∀ (v1133 : BitVec 32), Decidable (k0_chk120 v1133) := fun v1133 => decidable_of_iff' _ (Iff.of_eq (k0_chk120.eq_1 v1133))
theorem k0_off240_inb : ∀ (v1133 : BitVec 32) (k0_hw120 : k0_chk120 v1133), ∀ a, (k0_off240 v1133) a + S1x4096.size a ≤ S128x8192.size a := fun v1133 k0_hw120 => k0_hw120

def k0_off241 (i : grid0.Coords) : Fin 1 → Nat :=
  let arg0 : BitVec 32 := BitVec.ofNat 32 (i 0).val
  let c128_i32 : BitVec 32 := 128#32
  let v0 : BitVec 32 := Scalar.muli arg0 c128_i32
  let c120_i32 : BitVec 32 := 120#32
  let v1140 : BitVec 32 := Scalar.addi v0 c120_i32
  let v1141 : Index := Scalar.indexCast v1140
  ![v1141.toNat]
def k0_off242 (v1142 : BitVec 32) : Fin 2 → Nat :=
  let c120_i32_505 : BitVec 32 := 120#32
  ![120, v1142.toNat]

def k0_chk121 (v1142 : BitVec 32) : Prop :=
  (∀ a, (k0_off242 v1142) a + S1x4096.size a ≤ S128x8192.size a)
instance k0_chk121.dec : ∀ (v1142 : BitVec 32), Decidable (k0_chk121 v1142) := fun v1142 => decidable_of_iff' _ (Iff.of_eq (k0_chk121.eq_1 v1142))
theorem k0_off242_inb : ∀ (v1142 : BitVec 32) (k0_hw121 : k0_chk121 v1142), ∀ a, (k0_off242 v1142) a + S1x4096.size a ≤ S128x8192.size a := fun v1142 k0_hw121 => k0_hw121

def k0_off243 (i : grid0.Coords) : Fin 1 → Nat :=
  let arg0 : BitVec 32 := BitVec.ofNat 32 (i 0).val
  let c128_i32 : BitVec 32 := 128#32
  let v0 : BitVec 32 := Scalar.muli arg0 c128_i32
  let c121_i32 : BitVec 32 := 121#32
  let v1149 : BitVec 32 := Scalar.addi v0 c121_i32
  let v1150 : Index := Scalar.indexCast v1149
  ![v1150.toNat]
def k0_off244 (v1151 : BitVec 32) : Fin 2 → Nat :=
  let c121_i32_509 : BitVec 32 := 121#32
  ![121, v1151.toNat]

def k0_chk122 (v1151 : BitVec 32) : Prop :=
  (∀ a, (k0_off244 v1151) a + S1x4096.size a ≤ S128x8192.size a)
instance k0_chk122.dec : ∀ (v1151 : BitVec 32), Decidable (k0_chk122 v1151) := fun v1151 => decidable_of_iff' _ (Iff.of_eq (k0_chk122.eq_1 v1151))
theorem k0_off244_inb : ∀ (v1151 : BitVec 32) (k0_hw122 : k0_chk122 v1151), ∀ a, (k0_off244 v1151) a + S1x4096.size a ≤ S128x8192.size a := fun v1151 k0_hw122 => k0_hw122

def k0_off245 (i : grid0.Coords) : Fin 1 → Nat :=
  let arg0 : BitVec 32 := BitVec.ofNat 32 (i 0).val
  let c128_i32 : BitVec 32 := 128#32
  let v0 : BitVec 32 := Scalar.muli arg0 c128_i32
  let c122_i32 : BitVec 32 := 122#32
  let v1158 : BitVec 32 := Scalar.addi v0 c122_i32
  let v1159 : Index := Scalar.indexCast v1158
  ![v1159.toNat]
def k0_off246 (v1160 : BitVec 32) : Fin 2 → Nat :=
  let c122_i32_513 : BitVec 32 := 122#32
  ![122, v1160.toNat]

def k0_chk123 (v1160 : BitVec 32) : Prop :=
  (∀ a, (k0_off246 v1160) a + S1x4096.size a ≤ S128x8192.size a)
instance k0_chk123.dec : ∀ (v1160 : BitVec 32), Decidable (k0_chk123 v1160) := fun v1160 => decidable_of_iff' _ (Iff.of_eq (k0_chk123.eq_1 v1160))
theorem k0_off246_inb : ∀ (v1160 : BitVec 32) (k0_hw123 : k0_chk123 v1160), ∀ a, (k0_off246 v1160) a + S1x4096.size a ≤ S128x8192.size a := fun v1160 k0_hw123 => k0_hw123

def k0_off247 (i : grid0.Coords) : Fin 1 → Nat :=
  let arg0 : BitVec 32 := BitVec.ofNat 32 (i 0).val
  let c128_i32 : BitVec 32 := 128#32
  let v0 : BitVec 32 := Scalar.muli arg0 c128_i32
  let c123_i32 : BitVec 32 := 123#32
  let v1167 : BitVec 32 := Scalar.addi v0 c123_i32
  let v1168 : Index := Scalar.indexCast v1167
  ![v1168.toNat]
def k0_off248 (v1169 : BitVec 32) : Fin 2 → Nat :=
  let c123_i32_517 : BitVec 32 := 123#32
  ![123, v1169.toNat]

def k0_chk124 (v1169 : BitVec 32) : Prop :=
  (∀ a, (k0_off248 v1169) a + S1x4096.size a ≤ S128x8192.size a)
instance k0_chk124.dec : ∀ (v1169 : BitVec 32), Decidable (k0_chk124 v1169) := fun v1169 => decidable_of_iff' _ (Iff.of_eq (k0_chk124.eq_1 v1169))
theorem k0_off248_inb : ∀ (v1169 : BitVec 32) (k0_hw124 : k0_chk124 v1169), ∀ a, (k0_off248 v1169) a + S1x4096.size a ≤ S128x8192.size a := fun v1169 k0_hw124 => k0_hw124

def k0_off249 (i : grid0.Coords) : Fin 1 → Nat :=
  let arg0 : BitVec 32 := BitVec.ofNat 32 (i 0).val
  let c128_i32 : BitVec 32 := 128#32
  let v0 : BitVec 32 := Scalar.muli arg0 c128_i32
  let c124_i32 : BitVec 32 := 124#32
  let v1176 : BitVec 32 := Scalar.addi v0 c124_i32
  let v1177 : Index := Scalar.indexCast v1176
  ![v1177.toNat]
def k0_off250 (v1178 : BitVec 32) : Fin 2 → Nat :=
  let c124_i32_521 : BitVec 32 := 124#32
  ![124, v1178.toNat]

def k0_chk125 (v1178 : BitVec 32) : Prop :=
  (∀ a, (k0_off250 v1178) a + S1x4096.size a ≤ S128x8192.size a)
instance k0_chk125.dec : ∀ (v1178 : BitVec 32), Decidable (k0_chk125 v1178) := fun v1178 => decidable_of_iff' _ (Iff.of_eq (k0_chk125.eq_1 v1178))
theorem k0_off250_inb : ∀ (v1178 : BitVec 32) (k0_hw125 : k0_chk125 v1178), ∀ a, (k0_off250 v1178) a + S1x4096.size a ≤ S128x8192.size a := fun v1178 k0_hw125 => k0_hw125

def k0_off251 (i : grid0.Coords) : Fin 1 → Nat :=
  let arg0 : BitVec 32 := BitVec.ofNat 32 (i 0).val
  let c128_i32 : BitVec 32 := 128#32
  let v0 : BitVec 32 := Scalar.muli arg0 c128_i32
  let c125_i32 : BitVec 32 := 125#32
  let v1185 : BitVec 32 := Scalar.addi v0 c125_i32
  let v1186 : Index := Scalar.indexCast v1185
  ![v1186.toNat]
def k0_off252 (v1187 : BitVec 32) : Fin 2 → Nat :=
  let c125_i32_525 : BitVec 32 := 125#32
  ![125, v1187.toNat]

def k0_chk126 (v1187 : BitVec 32) : Prop :=
  (∀ a, (k0_off252 v1187) a + S1x4096.size a ≤ S128x8192.size a)
instance k0_chk126.dec : ∀ (v1187 : BitVec 32), Decidable (k0_chk126 v1187) := fun v1187 => decidable_of_iff' _ (Iff.of_eq (k0_chk126.eq_1 v1187))
theorem k0_off252_inb : ∀ (v1187 : BitVec 32) (k0_hw126 : k0_chk126 v1187), ∀ a, (k0_off252 v1187) a + S1x4096.size a ≤ S128x8192.size a := fun v1187 k0_hw126 => k0_hw126

def k0_off253 (i : grid0.Coords) : Fin 1 → Nat :=
  let arg0 : BitVec 32 := BitVec.ofNat 32 (i 0).val
  let c128_i32 : BitVec 32 := 128#32
  let v0 : BitVec 32 := Scalar.muli arg0 c128_i32
  let c126_i32 : BitVec 32 := 126#32
  let v1194 : BitVec 32 := Scalar.addi v0 c126_i32
  let v1195 : Index := Scalar.indexCast v1194
  ![v1195.toNat]
def k0_off254 (v1196 : BitVec 32) : Fin 2 → Nat :=
  let c126_i32_529 : BitVec 32 := 126#32
  ![126, v1196.toNat]

def k0_chk127 (v1196 : BitVec 32) : Prop :=
  (∀ a, (k0_off254 v1196) a + S1x4096.size a ≤ S128x8192.size a)
instance k0_chk127.dec : ∀ (v1196 : BitVec 32), Decidable (k0_chk127 v1196) := fun v1196 => decidable_of_iff' _ (Iff.of_eq (k0_chk127.eq_1 v1196))
theorem k0_off254_inb : ∀ (v1196 : BitVec 32) (k0_hw127 : k0_chk127 v1196), ∀ a, (k0_off254 v1196) a + S1x4096.size a ≤ S128x8192.size a := fun v1196 k0_hw127 => k0_hw127

def k0_off255 (i : grid0.Coords) : Fin 1 → Nat :=
  let arg0 : BitVec 32 := BitVec.ofNat 32 (i 0).val
  let c128_i32 : BitVec 32 := 128#32
  let v0 : BitVec 32 := Scalar.muli arg0 c128_i32
  let c127_i32 : BitVec 32 := 127#32
  let v1203 : BitVec 32 := Scalar.addi v0 c127_i32
  let v1204 : Index := Scalar.indexCast v1203
  ![v1204.toNat]
def k0_off256 (v1205 : BitVec 32) : Fin 2 → Nat :=
  let c127_i32_533 : BitVec 32 := 127#32
  ![127, v1205.toNat]

def k0_chk128 (v1205 : BitVec 32) : Prop :=
  (∀ a, (k0_off256 v1205) a + S1x4096.size a ≤ S128x8192.size a)
instance k0_chk128.dec : ∀ (v1205 : BitVec 32), Decidable (k0_chk128 v1205) := fun v1205 => decidable_of_iff' _ (Iff.of_eq (k0_chk128.eq_1 v1205))
theorem k0_off256_inb : ∀ (v1205 : BitVec 32) (k0_hw128 : k0_chk128 v1205), ∀ a, (k0_off256 v1205) a + S1x4096.size a ≤ S128x8192.size a := fun v1205 k0_hw128 => k0_hw128

def k0_off257 (i : grid0.Coords) : Fin 1 → Nat :=
  let arg0 : BitVec 32 := BitVec.ofNat 32 (i 0).val
  let c128_i32 : BitVec 32 := 128#32
  let v0 : BitVec 32 := Scalar.muli arg0 c128_i32
  let c0_i32_537 : BitVec 32 := 0#32
  let v1212 : BitVec 32 := Scalar.addi v0 c0_i32_537
  let v1213 : Index := Scalar.indexCast v1212
  ![v1213.toNat]
def k0_off258 (v1214 : BitVec 32) : Fin 2 → Nat :=
  let c0_i32_538 : BitVec 32 := 0#32
  ![0, v1214.toNat]

def k0_chk129 (v1214 : BitVec 32) : Prop :=
  (∀ a, (k0_off258 v1214) a + S1x4096.size a ≤ S128x8192.size a)
instance k0_chk129.dec : ∀ (v1214 : BitVec 32), Decidable (k0_chk129 v1214) := fun v1214 => decidable_of_iff' _ (Iff.of_eq (k0_chk129.eq_1 v1214))
theorem k0_off258_inb : ∀ (v1214 : BitVec 32) (k0_hw129 : k0_chk129 v1214), ∀ a, (k0_off258 v1214) a + S1x4096.size a ≤ S128x8192.size a := fun v1214 k0_hw129 => k0_hw129

def k0_off259 (i : grid0.Coords) : Fin 1 → Nat :=
  let arg0 : BitVec 32 := BitVec.ofNat 32 (i 0).val
  let c128_i32 : BitVec 32 := 128#32
  let v0 : BitVec 32 := Scalar.muli arg0 c128_i32
  let c1_i32_542 : BitVec 32 := 1#32
  let v1221 : BitVec 32 := Scalar.addi v0 c1_i32_542
  let v1222 : Index := Scalar.indexCast v1221
  ![v1222.toNat]
def k0_off260 (v1223 : BitVec 32) : Fin 2 → Nat :=
  let c1_i32_543 : BitVec 32 := 1#32
  ![1, v1223.toNat]

def k0_chk130 (v1223 : BitVec 32) : Prop :=
  (∀ a, (k0_off260 v1223) a + S1x4096.size a ≤ S128x8192.size a)
instance k0_chk130.dec : ∀ (v1223 : BitVec 32), Decidable (k0_chk130 v1223) := fun v1223 => decidable_of_iff' _ (Iff.of_eq (k0_chk130.eq_1 v1223))
theorem k0_off260_inb : ∀ (v1223 : BitVec 32) (k0_hw130 : k0_chk130 v1223), ∀ a, (k0_off260 v1223) a + S1x4096.size a ≤ S128x8192.size a := fun v1223 k0_hw130 => k0_hw130

def k0_off261 (i : grid0.Coords) : Fin 1 → Nat :=
  let arg0 : BitVec 32 := BitVec.ofNat 32 (i 0).val
  let c128_i32 : BitVec 32 := 128#32
  let v0 : BitVec 32 := Scalar.muli arg0 c128_i32
  let c2_i32_547 : BitVec 32 := 2#32
  let v1230 : BitVec 32 := Scalar.addi v0 c2_i32_547
  let v1231 : Index := Scalar.indexCast v1230
  ![v1231.toNat]
def k0_off262 (v1232 : BitVec 32) : Fin 2 → Nat :=
  let c2_i32_548 : BitVec 32 := 2#32
  ![2, v1232.toNat]

def k0_chk131 (v1232 : BitVec 32) : Prop :=
  (∀ a, (k0_off262 v1232) a + S1x4096.size a ≤ S128x8192.size a)
instance k0_chk131.dec : ∀ (v1232 : BitVec 32), Decidable (k0_chk131 v1232) := fun v1232 => decidable_of_iff' _ (Iff.of_eq (k0_chk131.eq_1 v1232))
theorem k0_off262_inb : ∀ (v1232 : BitVec 32) (k0_hw131 : k0_chk131 v1232), ∀ a, (k0_off262 v1232) a + S1x4096.size a ≤ S128x8192.size a := fun v1232 k0_hw131 => k0_hw131

def k0_off263 (i : grid0.Coords) : Fin 1 → Nat :=
  let arg0 : BitVec 32 := BitVec.ofNat 32 (i 0).val
  let c128_i32 : BitVec 32 := 128#32
  let v0 : BitVec 32 := Scalar.muli arg0 c128_i32
  let c3_i32_552 : BitVec 32 := 3#32
  let v1239 : BitVec 32 := Scalar.addi v0 c3_i32_552
  let v1240 : Index := Scalar.indexCast v1239
  ![v1240.toNat]
def k0_off264 (v1241 : BitVec 32) : Fin 2 → Nat :=
  let c3_i32_553 : BitVec 32 := 3#32
  ![3, v1241.toNat]

def k0_chk132 (v1241 : BitVec 32) : Prop :=
  (∀ a, (k0_off264 v1241) a + S1x4096.size a ≤ S128x8192.size a)
instance k0_chk132.dec : ∀ (v1241 : BitVec 32), Decidable (k0_chk132 v1241) := fun v1241 => decidable_of_iff' _ (Iff.of_eq (k0_chk132.eq_1 v1241))
theorem k0_off264_inb : ∀ (v1241 : BitVec 32) (k0_hw132 : k0_chk132 v1241), ∀ a, (k0_off264 v1241) a + S1x4096.size a ≤ S128x8192.size a := fun v1241 k0_hw132 => k0_hw132

def k0_off265 (i : grid0.Coords) : Fin 1 → Nat :=
  let arg0 : BitVec 32 := BitVec.ofNat 32 (i 0).val
  let c128_i32 : BitVec 32 := 128#32
  let v0 : BitVec 32 := Scalar.muli arg0 c128_i32
  let c4_i32_557 : BitVec 32 := 4#32
  let v1248 : BitVec 32 := Scalar.addi v0 c4_i32_557
  let v1249 : Index := Scalar.indexCast v1248
  ![v1249.toNat]
def k0_off266 (v1250 : BitVec 32) : Fin 2 → Nat :=
  let c4_i32_558 : BitVec 32 := 4#32
  ![4, v1250.toNat]

def k0_chk133 (v1250 : BitVec 32) : Prop :=
  (∀ a, (k0_off266 v1250) a + S1x4096.size a ≤ S128x8192.size a)
instance k0_chk133.dec : ∀ (v1250 : BitVec 32), Decidable (k0_chk133 v1250) := fun v1250 => decidable_of_iff' _ (Iff.of_eq (k0_chk133.eq_1 v1250))
theorem k0_off266_inb : ∀ (v1250 : BitVec 32) (k0_hw133 : k0_chk133 v1250), ∀ a, (k0_off266 v1250) a + S1x4096.size a ≤ S128x8192.size a := fun v1250 k0_hw133 => k0_hw133

def k0_off267 (i : grid0.Coords) : Fin 1 → Nat :=
  let arg0 : BitVec 32 := BitVec.ofNat 32 (i 0).val
  let c128_i32 : BitVec 32 := 128#32
  let v0 : BitVec 32 := Scalar.muli arg0 c128_i32
  let c5_i32_562 : BitVec 32 := 5#32
  let v1257 : BitVec 32 := Scalar.addi v0 c5_i32_562
  let v1258 : Index := Scalar.indexCast v1257
  ![v1258.toNat]
def k0_off268 (v1259 : BitVec 32) : Fin 2 → Nat :=
  let c5_i32_563 : BitVec 32 := 5#32
  ![5, v1259.toNat]

def k0_chk134 (v1259 : BitVec 32) : Prop :=
  (∀ a, (k0_off268 v1259) a + S1x4096.size a ≤ S128x8192.size a)
instance k0_chk134.dec : ∀ (v1259 : BitVec 32), Decidable (k0_chk134 v1259) := fun v1259 => decidable_of_iff' _ (Iff.of_eq (k0_chk134.eq_1 v1259))
theorem k0_off268_inb : ∀ (v1259 : BitVec 32) (k0_hw134 : k0_chk134 v1259), ∀ a, (k0_off268 v1259) a + S1x4096.size a ≤ S128x8192.size a := fun v1259 k0_hw134 => k0_hw134

def k0_off269 (i : grid0.Coords) : Fin 1 → Nat :=
  let arg0 : BitVec 32 := BitVec.ofNat 32 (i 0).val
  let c128_i32 : BitVec 32 := 128#32
  let v0 : BitVec 32 := Scalar.muli arg0 c128_i32
  let c6_i32_567 : BitVec 32 := 6#32
  let v1266 : BitVec 32 := Scalar.addi v0 c6_i32_567
  let v1267 : Index := Scalar.indexCast v1266
  ![v1267.toNat]
def k0_off270 (v1268 : BitVec 32) : Fin 2 → Nat :=
  let c6_i32_568 : BitVec 32 := 6#32
  ![6, v1268.toNat]

def k0_chk135 (v1268 : BitVec 32) : Prop :=
  (∀ a, (k0_off270 v1268) a + S1x4096.size a ≤ S128x8192.size a)
instance k0_chk135.dec : ∀ (v1268 : BitVec 32), Decidable (k0_chk135 v1268) := fun v1268 => decidable_of_iff' _ (Iff.of_eq (k0_chk135.eq_1 v1268))
theorem k0_off270_inb : ∀ (v1268 : BitVec 32) (k0_hw135 : k0_chk135 v1268), ∀ a, (k0_off270 v1268) a + S1x4096.size a ≤ S128x8192.size a := fun v1268 k0_hw135 => k0_hw135

def k0_off271 (i : grid0.Coords) : Fin 1 → Nat :=
  let arg0 : BitVec 32 := BitVec.ofNat 32 (i 0).val
  let c128_i32 : BitVec 32 := 128#32
  let v0 : BitVec 32 := Scalar.muli arg0 c128_i32
  let c7_i32_572 : BitVec 32 := 7#32
  let v1275 : BitVec 32 := Scalar.addi v0 c7_i32_572
  let v1276 : Index := Scalar.indexCast v1275
  ![v1276.toNat]
def k0_off272 (v1277 : BitVec 32) : Fin 2 → Nat :=
  let c7_i32_573 : BitVec 32 := 7#32
  ![7, v1277.toNat]

def k0_chk136 (v1277 : BitVec 32) : Prop :=
  (∀ a, (k0_off272 v1277) a + S1x4096.size a ≤ S128x8192.size a)
instance k0_chk136.dec : ∀ (v1277 : BitVec 32), Decidable (k0_chk136 v1277) := fun v1277 => decidable_of_iff' _ (Iff.of_eq (k0_chk136.eq_1 v1277))
theorem k0_off272_inb : ∀ (v1277 : BitVec 32) (k0_hw136 : k0_chk136 v1277), ∀ a, (k0_off272 v1277) a + S1x4096.size a ≤ S128x8192.size a := fun v1277 k0_hw136 => k0_hw136

def k0_off273 (i : grid0.Coords) : Fin 1 → Nat :=
  let arg0 : BitVec 32 := BitVec.ofNat 32 (i 0).val
  let c128_i32 : BitVec 32 := 128#32
  let v0 : BitVec 32 := Scalar.muli arg0 c128_i32
  let c8_i32_577 : BitVec 32 := 8#32
  let v1284 : BitVec 32 := Scalar.addi v0 c8_i32_577
  let v1285 : Index := Scalar.indexCast v1284
  ![v1285.toNat]
def k0_off274 (v1286 : BitVec 32) : Fin 2 → Nat :=
  let c8_i32_578 : BitVec 32 := 8#32
  ![8, v1286.toNat]

def k0_chk137 (v1286 : BitVec 32) : Prop :=
  (∀ a, (k0_off274 v1286) a + S1x4096.size a ≤ S128x8192.size a)
instance k0_chk137.dec : ∀ (v1286 : BitVec 32), Decidable (k0_chk137 v1286) := fun v1286 => decidable_of_iff' _ (Iff.of_eq (k0_chk137.eq_1 v1286))
theorem k0_off274_inb : ∀ (v1286 : BitVec 32) (k0_hw137 : k0_chk137 v1286), ∀ a, (k0_off274 v1286) a + S1x4096.size a ≤ S128x8192.size a := fun v1286 k0_hw137 => k0_hw137

def k0_off275 (i : grid0.Coords) : Fin 1 → Nat :=
  let arg0 : BitVec 32 := BitVec.ofNat 32 (i 0).val
  let c128_i32 : BitVec 32 := 128#32
  let v0 : BitVec 32 := Scalar.muli arg0 c128_i32
  let c9_i32_582 : BitVec 32 := 9#32
  let v1293 : BitVec 32 := Scalar.addi v0 c9_i32_582
  let v1294 : Index := Scalar.indexCast v1293
  ![v1294.toNat]
def k0_off276 (v1295 : BitVec 32) : Fin 2 → Nat :=
  let c9_i32_583 : BitVec 32 := 9#32
  ![9, v1295.toNat]

def k0_chk138 (v1295 : BitVec 32) : Prop :=
  (∀ a, (k0_off276 v1295) a + S1x4096.size a ≤ S128x8192.size a)
instance k0_chk138.dec : ∀ (v1295 : BitVec 32), Decidable (k0_chk138 v1295) := fun v1295 => decidable_of_iff' _ (Iff.of_eq (k0_chk138.eq_1 v1295))
theorem k0_off276_inb : ∀ (v1295 : BitVec 32) (k0_hw138 : k0_chk138 v1295), ∀ a, (k0_off276 v1295) a + S1x4096.size a ≤ S128x8192.size a := fun v1295 k0_hw138 => k0_hw138

def k0_off277 (i : grid0.Coords) : Fin 1 → Nat :=
  let arg0 : BitVec 32 := BitVec.ofNat 32 (i 0).val
  let c128_i32 : BitVec 32 := 128#32
  let v0 : BitVec 32 := Scalar.muli arg0 c128_i32
  let c10_i32_587 : BitVec 32 := 10#32
  let v1302 : BitVec 32 := Scalar.addi v0 c10_i32_587
  let v1303 : Index := Scalar.indexCast v1302
  ![v1303.toNat]
def k0_off278 (v1304 : BitVec 32) : Fin 2 → Nat :=
  let c10_i32_588 : BitVec 32 := 10#32
  ![10, v1304.toNat]

def k0_chk139 (v1304 : BitVec 32) : Prop :=
  (∀ a, (k0_off278 v1304) a + S1x4096.size a ≤ S128x8192.size a)
instance k0_chk139.dec : ∀ (v1304 : BitVec 32), Decidable (k0_chk139 v1304) := fun v1304 => decidable_of_iff' _ (Iff.of_eq (k0_chk139.eq_1 v1304))
theorem k0_off278_inb : ∀ (v1304 : BitVec 32) (k0_hw139 : k0_chk139 v1304), ∀ a, (k0_off278 v1304) a + S1x4096.size a ≤ S128x8192.size a := fun v1304 k0_hw139 => k0_hw139

def k0_off279 (i : grid0.Coords) : Fin 1 → Nat :=
  let arg0 : BitVec 32 := BitVec.ofNat 32 (i 0).val
  let c128_i32 : BitVec 32 := 128#32
  let v0 : BitVec 32 := Scalar.muli arg0 c128_i32
  let c11_i32_592 : BitVec 32 := 11#32
  let v1311 : BitVec 32 := Scalar.addi v0 c11_i32_592
  let v1312 : Index := Scalar.indexCast v1311
  ![v1312.toNat]
def k0_off280 (v1313 : BitVec 32) : Fin 2 → Nat :=
  let c11_i32_593 : BitVec 32 := 11#32
  ![11, v1313.toNat]

def k0_chk140 (v1313 : BitVec 32) : Prop :=
  (∀ a, (k0_off280 v1313) a + S1x4096.size a ≤ S128x8192.size a)
instance k0_chk140.dec : ∀ (v1313 : BitVec 32), Decidable (k0_chk140 v1313) := fun v1313 => decidable_of_iff' _ (Iff.of_eq (k0_chk140.eq_1 v1313))
theorem k0_off280_inb : ∀ (v1313 : BitVec 32) (k0_hw140 : k0_chk140 v1313), ∀ a, (k0_off280 v1313) a + S1x4096.size a ≤ S128x8192.size a := fun v1313 k0_hw140 => k0_hw140

def k0_off281 (i : grid0.Coords) : Fin 1 → Nat :=
  let arg0 : BitVec 32 := BitVec.ofNat 32 (i 0).val
  let c128_i32 : BitVec 32 := 128#32
  let v0 : BitVec 32 := Scalar.muli arg0 c128_i32
  let c12_i32_597 : BitVec 32 := 12#32
  let v1320 : BitVec 32 := Scalar.addi v0 c12_i32_597
  let v1321 : Index := Scalar.indexCast v1320
  ![v1321.toNat]
def k0_off282 (v1322 : BitVec 32) : Fin 2 → Nat :=
  let c12_i32_598 : BitVec 32 := 12#32
  ![12, v1322.toNat]

def k0_chk141 (v1322 : BitVec 32) : Prop :=
  (∀ a, (k0_off282 v1322) a + S1x4096.size a ≤ S128x8192.size a)
instance k0_chk141.dec : ∀ (v1322 : BitVec 32), Decidable (k0_chk141 v1322) := fun v1322 => decidable_of_iff' _ (Iff.of_eq (k0_chk141.eq_1 v1322))
theorem k0_off282_inb : ∀ (v1322 : BitVec 32) (k0_hw141 : k0_chk141 v1322), ∀ a, (k0_off282 v1322) a + S1x4096.size a ≤ S128x8192.size a := fun v1322 k0_hw141 => k0_hw141

def k0_off283 (i : grid0.Coords) : Fin 1 → Nat :=
  let arg0 : BitVec 32 := BitVec.ofNat 32 (i 0).val
  let c128_i32 : BitVec 32 := 128#32
  let v0 : BitVec 32 := Scalar.muli arg0 c128_i32
  let c13_i32_602 : BitVec 32 := 13#32
  let v1329 : BitVec 32 := Scalar.addi v0 c13_i32_602
  let v1330 : Index := Scalar.indexCast v1329
  ![v1330.toNat]
def k0_off284 (v1331 : BitVec 32) : Fin 2 → Nat :=
  let c13_i32_603 : BitVec 32 := 13#32
  ![13, v1331.toNat]

def k0_chk142 (v1331 : BitVec 32) : Prop :=
  (∀ a, (k0_off284 v1331) a + S1x4096.size a ≤ S128x8192.size a)
instance k0_chk142.dec : ∀ (v1331 : BitVec 32), Decidable (k0_chk142 v1331) := fun v1331 => decidable_of_iff' _ (Iff.of_eq (k0_chk142.eq_1 v1331))
theorem k0_off284_inb : ∀ (v1331 : BitVec 32) (k0_hw142 : k0_chk142 v1331), ∀ a, (k0_off284 v1331) a + S1x4096.size a ≤ S128x8192.size a := fun v1331 k0_hw142 => k0_hw142

def k0_off285 (i : grid0.Coords) : Fin 1 → Nat :=
  let arg0 : BitVec 32 := BitVec.ofNat 32 (i 0).val
  let c128_i32 : BitVec 32 := 128#32
  let v0 : BitVec 32 := Scalar.muli arg0 c128_i32
  let c14_i32_607 : BitVec 32 := 14#32
  let v1338 : BitVec 32 := Scalar.addi v0 c14_i32_607
  let v1339 : Index := Scalar.indexCast v1338
  ![v1339.toNat]
def k0_off286 (v1340 : BitVec 32) : Fin 2 → Nat :=
  let c14_i32_608 : BitVec 32 := 14#32
  ![14, v1340.toNat]

def k0_chk143 (v1340 : BitVec 32) : Prop :=
  (∀ a, (k0_off286 v1340) a + S1x4096.size a ≤ S128x8192.size a)
instance k0_chk143.dec : ∀ (v1340 : BitVec 32), Decidable (k0_chk143 v1340) := fun v1340 => decidable_of_iff' _ (Iff.of_eq (k0_chk143.eq_1 v1340))
theorem k0_off286_inb : ∀ (v1340 : BitVec 32) (k0_hw143 : k0_chk143 v1340), ∀ a, (k0_off286 v1340) a + S1x4096.size a ≤ S128x8192.size a := fun v1340 k0_hw143 => k0_hw143

def k0_off287 (i : grid0.Coords) : Fin 1 → Nat :=
  let arg0 : BitVec 32 := BitVec.ofNat 32 (i 0).val
  let c128_i32 : BitVec 32 := 128#32
  let v0 : BitVec 32 := Scalar.muli arg0 c128_i32
  let c15_i32_612 : BitVec 32 := 15#32
  let v1347 : BitVec 32 := Scalar.addi v0 c15_i32_612
  let v1348 : Index := Scalar.indexCast v1347
  ![v1348.toNat]
def k0_off288 (v1349 : BitVec 32) : Fin 2 → Nat :=
  let c15_i32_613 : BitVec 32 := 15#32
  ![15, v1349.toNat]

def k0_chk144 (v1349 : BitVec 32) : Prop :=
  (∀ a, (k0_off288 v1349) a + S1x4096.size a ≤ S128x8192.size a)
instance k0_chk144.dec : ∀ (v1349 : BitVec 32), Decidable (k0_chk144 v1349) := fun v1349 => decidable_of_iff' _ (Iff.of_eq (k0_chk144.eq_1 v1349))
theorem k0_off288_inb : ∀ (v1349 : BitVec 32) (k0_hw144 : k0_chk144 v1349), ∀ a, (k0_off288 v1349) a + S1x4096.size a ≤ S128x8192.size a := fun v1349 k0_hw144 => k0_hw144

def k0_off289 (i : grid0.Coords) : Fin 1 → Nat :=
  let arg0 : BitVec 32 := BitVec.ofNat 32 (i 0).val
  let c128_i32 : BitVec 32 := 128#32
  let v0 : BitVec 32 := Scalar.muli arg0 c128_i32
  let c16_i32_617 : BitVec 32 := 16#32
  let v1356 : BitVec 32 := Scalar.addi v0 c16_i32_617
  let v1357 : Index := Scalar.indexCast v1356
  ![v1357.toNat]
def k0_off290 (v1358 : BitVec 32) : Fin 2 → Nat :=
  let c16_i32_618 : BitVec 32 := 16#32
  ![16, v1358.toNat]

def k0_chk145 (v1358 : BitVec 32) : Prop :=
  (∀ a, (k0_off290 v1358) a + S1x4096.size a ≤ S128x8192.size a)
instance k0_chk145.dec : ∀ (v1358 : BitVec 32), Decidable (k0_chk145 v1358) := fun v1358 => decidable_of_iff' _ (Iff.of_eq (k0_chk145.eq_1 v1358))
theorem k0_off290_inb : ∀ (v1358 : BitVec 32) (k0_hw145 : k0_chk145 v1358), ∀ a, (k0_off290 v1358) a + S1x4096.size a ≤ S128x8192.size a := fun v1358 k0_hw145 => k0_hw145

def k0_off291 (i : grid0.Coords) : Fin 1 → Nat :=
  let arg0 : BitVec 32 := BitVec.ofNat 32 (i 0).val
  let c128_i32 : BitVec 32 := 128#32
  let v0 : BitVec 32 := Scalar.muli arg0 c128_i32
  let c17_i32_622 : BitVec 32 := 17#32
  let v1365 : BitVec 32 := Scalar.addi v0 c17_i32_622
  let v1366 : Index := Scalar.indexCast v1365
  ![v1366.toNat]
def k0_off292 (v1367 : BitVec 32) : Fin 2 → Nat :=
  let c17_i32_623 : BitVec 32 := 17#32
  ![17, v1367.toNat]

def k0_chk146 (v1367 : BitVec 32) : Prop :=
  (∀ a, (k0_off292 v1367) a + S1x4096.size a ≤ S128x8192.size a)
instance k0_chk146.dec : ∀ (v1367 : BitVec 32), Decidable (k0_chk146 v1367) := fun v1367 => decidable_of_iff' _ (Iff.of_eq (k0_chk146.eq_1 v1367))
theorem k0_off292_inb : ∀ (v1367 : BitVec 32) (k0_hw146 : k0_chk146 v1367), ∀ a, (k0_off292 v1367) a + S1x4096.size a ≤ S128x8192.size a := fun v1367 k0_hw146 => k0_hw146

def k0_off293 (i : grid0.Coords) : Fin 1 → Nat :=
  let arg0 : BitVec 32 := BitVec.ofNat 32 (i 0).val
  let c128_i32 : BitVec 32 := 128#32
  let v0 : BitVec 32 := Scalar.muli arg0 c128_i32
  let c18_i32_627 : BitVec 32 := 18#32
  let v1374 : BitVec 32 := Scalar.addi v0 c18_i32_627
  let v1375 : Index := Scalar.indexCast v1374
  ![v1375.toNat]
def k0_off294 (v1376 : BitVec 32) : Fin 2 → Nat :=
  let c18_i32_628 : BitVec 32 := 18#32
  ![18, v1376.toNat]

def k0_chk147 (v1376 : BitVec 32) : Prop :=
  (∀ a, (k0_off294 v1376) a + S1x4096.size a ≤ S128x8192.size a)
instance k0_chk147.dec : ∀ (v1376 : BitVec 32), Decidable (k0_chk147 v1376) := fun v1376 => decidable_of_iff' _ (Iff.of_eq (k0_chk147.eq_1 v1376))
theorem k0_off294_inb : ∀ (v1376 : BitVec 32) (k0_hw147 : k0_chk147 v1376), ∀ a, (k0_off294 v1376) a + S1x4096.size a ≤ S128x8192.size a := fun v1376 k0_hw147 => k0_hw147

def k0_off295 (i : grid0.Coords) : Fin 1 → Nat :=
  let arg0 : BitVec 32 := BitVec.ofNat 32 (i 0).val
  let c128_i32 : BitVec 32 := 128#32
  let v0 : BitVec 32 := Scalar.muli arg0 c128_i32
  let c19_i32_632 : BitVec 32 := 19#32
  let v1383 : BitVec 32 := Scalar.addi v0 c19_i32_632
  let v1384 : Index := Scalar.indexCast v1383
  ![v1384.toNat]
def k0_off296 (v1385 : BitVec 32) : Fin 2 → Nat :=
  let c19_i32_633 : BitVec 32 := 19#32
  ![19, v1385.toNat]

def k0_chk148 (v1385 : BitVec 32) : Prop :=
  (∀ a, (k0_off296 v1385) a + S1x4096.size a ≤ S128x8192.size a)
instance k0_chk148.dec : ∀ (v1385 : BitVec 32), Decidable (k0_chk148 v1385) := fun v1385 => decidable_of_iff' _ (Iff.of_eq (k0_chk148.eq_1 v1385))
theorem k0_off296_inb : ∀ (v1385 : BitVec 32) (k0_hw148 : k0_chk148 v1385), ∀ a, (k0_off296 v1385) a + S1x4096.size a ≤ S128x8192.size a := fun v1385 k0_hw148 => k0_hw148

def k0_off297 (i : grid0.Coords) : Fin 1 → Nat :=
  let arg0 : BitVec 32 := BitVec.ofNat 32 (i 0).val
  let c128_i32 : BitVec 32 := 128#32
  let v0 : BitVec 32 := Scalar.muli arg0 c128_i32
  let c20_i32_637 : BitVec 32 := 20#32
  let v1392 : BitVec 32 := Scalar.addi v0 c20_i32_637
  let v1393 : Index := Scalar.indexCast v1392
  ![v1393.toNat]
def k0_off298 (v1394 : BitVec 32) : Fin 2 → Nat :=
  let c20_i32_638 : BitVec 32 := 20#32
  ![20, v1394.toNat]

def k0_chk149 (v1394 : BitVec 32) : Prop :=
  (∀ a, (k0_off298 v1394) a + S1x4096.size a ≤ S128x8192.size a)
instance k0_chk149.dec : ∀ (v1394 : BitVec 32), Decidable (k0_chk149 v1394) := fun v1394 => decidable_of_iff' _ (Iff.of_eq (k0_chk149.eq_1 v1394))
theorem k0_off298_inb : ∀ (v1394 : BitVec 32) (k0_hw149 : k0_chk149 v1394), ∀ a, (k0_off298 v1394) a + S1x4096.size a ≤ S128x8192.size a := fun v1394 k0_hw149 => k0_hw149

def k0_off299 (i : grid0.Coords) : Fin 1 → Nat :=
  let arg0 : BitVec 32 := BitVec.ofNat 32 (i 0).val
  let c128_i32 : BitVec 32 := 128#32
  let v0 : BitVec 32 := Scalar.muli arg0 c128_i32
  let c21_i32_642 : BitVec 32 := 21#32
  let v1401 : BitVec 32 := Scalar.addi v0 c21_i32_642
  let v1402 : Index := Scalar.indexCast v1401
  ![v1402.toNat]
def k0_off300 (v1403 : BitVec 32) : Fin 2 → Nat :=
  let c21_i32_643 : BitVec 32 := 21#32
  ![21, v1403.toNat]

def k0_chk150 (v1403 : BitVec 32) : Prop :=
  (∀ a, (k0_off300 v1403) a + S1x4096.size a ≤ S128x8192.size a)
instance k0_chk150.dec : ∀ (v1403 : BitVec 32), Decidable (k0_chk150 v1403) := fun v1403 => decidable_of_iff' _ (Iff.of_eq (k0_chk150.eq_1 v1403))
theorem k0_off300_inb : ∀ (v1403 : BitVec 32) (k0_hw150 : k0_chk150 v1403), ∀ a, (k0_off300 v1403) a + S1x4096.size a ≤ S128x8192.size a := fun v1403 k0_hw150 => k0_hw150

def k0_off301 (i : grid0.Coords) : Fin 1 → Nat :=
  let arg0 : BitVec 32 := BitVec.ofNat 32 (i 0).val
  let c128_i32 : BitVec 32 := 128#32
  let v0 : BitVec 32 := Scalar.muli arg0 c128_i32
  let c22_i32_647 : BitVec 32 := 22#32
  let v1410 : BitVec 32 := Scalar.addi v0 c22_i32_647
  let v1411 : Index := Scalar.indexCast v1410
  ![v1411.toNat]
def k0_off302 (v1412 : BitVec 32) : Fin 2 → Nat :=
  let c22_i32_648 : BitVec 32 := 22#32
  ![22, v1412.toNat]

def k0_chk151 (v1412 : BitVec 32) : Prop :=
  (∀ a, (k0_off302 v1412) a + S1x4096.size a ≤ S128x8192.size a)
instance k0_chk151.dec : ∀ (v1412 : BitVec 32), Decidable (k0_chk151 v1412) := fun v1412 => decidable_of_iff' _ (Iff.of_eq (k0_chk151.eq_1 v1412))
theorem k0_off302_inb : ∀ (v1412 : BitVec 32) (k0_hw151 : k0_chk151 v1412), ∀ a, (k0_off302 v1412) a + S1x4096.size a ≤ S128x8192.size a := fun v1412 k0_hw151 => k0_hw151

def k0_off303 (i : grid0.Coords) : Fin 1 → Nat :=
  let arg0 : BitVec 32 := BitVec.ofNat 32 (i 0).val
  let c128_i32 : BitVec 32 := 128#32
  let v0 : BitVec 32 := Scalar.muli arg0 c128_i32
  let c23_i32_652 : BitVec 32 := 23#32
  let v1419 : BitVec 32 := Scalar.addi v0 c23_i32_652
  let v1420 : Index := Scalar.indexCast v1419
  ![v1420.toNat]
def k0_off304 (v1421 : BitVec 32) : Fin 2 → Nat :=
  let c23_i32_653 : BitVec 32 := 23#32
  ![23, v1421.toNat]

def k0_chk152 (v1421 : BitVec 32) : Prop :=
  (∀ a, (k0_off304 v1421) a + S1x4096.size a ≤ S128x8192.size a)
instance k0_chk152.dec : ∀ (v1421 : BitVec 32), Decidable (k0_chk152 v1421) := fun v1421 => decidable_of_iff' _ (Iff.of_eq (k0_chk152.eq_1 v1421))
theorem k0_off304_inb : ∀ (v1421 : BitVec 32) (k0_hw152 : k0_chk152 v1421), ∀ a, (k0_off304 v1421) a + S1x4096.size a ≤ S128x8192.size a := fun v1421 k0_hw152 => k0_hw152

def k0_off305 (i : grid0.Coords) : Fin 1 → Nat :=
  let arg0 : BitVec 32 := BitVec.ofNat 32 (i 0).val
  let c128_i32 : BitVec 32 := 128#32
  let v0 : BitVec 32 := Scalar.muli arg0 c128_i32
  let c24_i32_657 : BitVec 32 := 24#32
  let v1428 : BitVec 32 := Scalar.addi v0 c24_i32_657
  let v1429 : Index := Scalar.indexCast v1428
  ![v1429.toNat]
def k0_off306 (v1430 : BitVec 32) : Fin 2 → Nat :=
  let c24_i32_658 : BitVec 32 := 24#32
  ![24, v1430.toNat]

def k0_chk153 (v1430 : BitVec 32) : Prop :=
  (∀ a, (k0_off306 v1430) a + S1x4096.size a ≤ S128x8192.size a)
instance k0_chk153.dec : ∀ (v1430 : BitVec 32), Decidable (k0_chk153 v1430) := fun v1430 => decidable_of_iff' _ (Iff.of_eq (k0_chk153.eq_1 v1430))
theorem k0_off306_inb : ∀ (v1430 : BitVec 32) (k0_hw153 : k0_chk153 v1430), ∀ a, (k0_off306 v1430) a + S1x4096.size a ≤ S128x8192.size a := fun v1430 k0_hw153 => k0_hw153

def k0_off307 (i : grid0.Coords) : Fin 1 → Nat :=
  let arg0 : BitVec 32 := BitVec.ofNat 32 (i 0).val
  let c128_i32 : BitVec 32 := 128#32
  let v0 : BitVec 32 := Scalar.muli arg0 c128_i32
  let c25_i32_662 : BitVec 32 := 25#32
  let v1437 : BitVec 32 := Scalar.addi v0 c25_i32_662
  let v1438 : Index := Scalar.indexCast v1437
  ![v1438.toNat]
def k0_off308 (v1439 : BitVec 32) : Fin 2 → Nat :=
  let c25_i32_663 : BitVec 32 := 25#32
  ![25, v1439.toNat]

def k0_chk154 (v1439 : BitVec 32) : Prop :=
  (∀ a, (k0_off308 v1439) a + S1x4096.size a ≤ S128x8192.size a)
instance k0_chk154.dec : ∀ (v1439 : BitVec 32), Decidable (k0_chk154 v1439) := fun v1439 => decidable_of_iff' _ (Iff.of_eq (k0_chk154.eq_1 v1439))
theorem k0_off308_inb : ∀ (v1439 : BitVec 32) (k0_hw154 : k0_chk154 v1439), ∀ a, (k0_off308 v1439) a + S1x4096.size a ≤ S128x8192.size a := fun v1439 k0_hw154 => k0_hw154

def k0_off309 (i : grid0.Coords) : Fin 1 → Nat :=
  let arg0 : BitVec 32 := BitVec.ofNat 32 (i 0).val
  let c128_i32 : BitVec 32 := 128#32
  let v0 : BitVec 32 := Scalar.muli arg0 c128_i32
  let c26_i32_667 : BitVec 32 := 26#32
  let v1446 : BitVec 32 := Scalar.addi v0 c26_i32_667
  let v1447 : Index := Scalar.indexCast v1446
  ![v1447.toNat]
def k0_off310 (v1448 : BitVec 32) : Fin 2 → Nat :=
  let c26_i32_668 : BitVec 32 := 26#32
  ![26, v1448.toNat]

def k0_chk155 (v1448 : BitVec 32) : Prop :=
  (∀ a, (k0_off310 v1448) a + S1x4096.size a ≤ S128x8192.size a)
instance k0_chk155.dec : ∀ (v1448 : BitVec 32), Decidable (k0_chk155 v1448) := fun v1448 => decidable_of_iff' _ (Iff.of_eq (k0_chk155.eq_1 v1448))
theorem k0_off310_inb : ∀ (v1448 : BitVec 32) (k0_hw155 : k0_chk155 v1448), ∀ a, (k0_off310 v1448) a + S1x4096.size a ≤ S128x8192.size a := fun v1448 k0_hw155 => k0_hw155

def k0_off311 (i : grid0.Coords) : Fin 1 → Nat :=
  let arg0 : BitVec 32 := BitVec.ofNat 32 (i 0).val
  let c128_i32 : BitVec 32 := 128#32
  let v0 : BitVec 32 := Scalar.muli arg0 c128_i32
  let c27_i32_672 : BitVec 32 := 27#32
  let v1455 : BitVec 32 := Scalar.addi v0 c27_i32_672
  let v1456 : Index := Scalar.indexCast v1455
  ![v1456.toNat]
def k0_off312 (v1457 : BitVec 32) : Fin 2 → Nat :=
  let c27_i32_673 : BitVec 32 := 27#32
  ![27, v1457.toNat]

def k0_chk156 (v1457 : BitVec 32) : Prop :=
  (∀ a, (k0_off312 v1457) a + S1x4096.size a ≤ S128x8192.size a)
instance k0_chk156.dec : ∀ (v1457 : BitVec 32), Decidable (k0_chk156 v1457) := fun v1457 => decidable_of_iff' _ (Iff.of_eq (k0_chk156.eq_1 v1457))
theorem k0_off312_inb : ∀ (v1457 : BitVec 32) (k0_hw156 : k0_chk156 v1457), ∀ a, (k0_off312 v1457) a + S1x4096.size a ≤ S128x8192.size a := fun v1457 k0_hw156 => k0_hw156

def k0_off313 (i : grid0.Coords) : Fin 1 → Nat :=
  let arg0 : BitVec 32 := BitVec.ofNat 32 (i 0).val
  let c128_i32 : BitVec 32 := 128#32
  let v0 : BitVec 32 := Scalar.muli arg0 c128_i32
  let c28_i32_677 : BitVec 32 := 28#32
  let v1464 : BitVec 32 := Scalar.addi v0 c28_i32_677
  let v1465 : Index := Scalar.indexCast v1464
  ![v1465.toNat]
def k0_off314 (v1466 : BitVec 32) : Fin 2 → Nat :=
  let c28_i32_678 : BitVec 32 := 28#32
  ![28, v1466.toNat]

def k0_chk157 (v1466 : BitVec 32) : Prop :=
  (∀ a, (k0_off314 v1466) a + S1x4096.size a ≤ S128x8192.size a)
instance k0_chk157.dec : ∀ (v1466 : BitVec 32), Decidable (k0_chk157 v1466) := fun v1466 => decidable_of_iff' _ (Iff.of_eq (k0_chk157.eq_1 v1466))
theorem k0_off314_inb : ∀ (v1466 : BitVec 32) (k0_hw157 : k0_chk157 v1466), ∀ a, (k0_off314 v1466) a + S1x4096.size a ≤ S128x8192.size a := fun v1466 k0_hw157 => k0_hw157

def k0_off315 (i : grid0.Coords) : Fin 1 → Nat :=
  let arg0 : BitVec 32 := BitVec.ofNat 32 (i 0).val
  let c128_i32 : BitVec 32 := 128#32
  let v0 : BitVec 32 := Scalar.muli arg0 c128_i32
  let c29_i32_682 : BitVec 32 := 29#32
  let v1473 : BitVec 32 := Scalar.addi v0 c29_i32_682
  let v1474 : Index := Scalar.indexCast v1473
  ![v1474.toNat]
def k0_off316 (v1475 : BitVec 32) : Fin 2 → Nat :=
  let c29_i32_683 : BitVec 32 := 29#32
  ![29, v1475.toNat]

def k0_chk158 (v1475 : BitVec 32) : Prop :=
  (∀ a, (k0_off316 v1475) a + S1x4096.size a ≤ S128x8192.size a)
instance k0_chk158.dec : ∀ (v1475 : BitVec 32), Decidable (k0_chk158 v1475) := fun v1475 => decidable_of_iff' _ (Iff.of_eq (k0_chk158.eq_1 v1475))
theorem k0_off316_inb : ∀ (v1475 : BitVec 32) (k0_hw158 : k0_chk158 v1475), ∀ a, (k0_off316 v1475) a + S1x4096.size a ≤ S128x8192.size a := fun v1475 k0_hw158 => k0_hw158

def k0_off317 (i : grid0.Coords) : Fin 1 → Nat :=
  let arg0 : BitVec 32 := BitVec.ofNat 32 (i 0).val
  let c128_i32 : BitVec 32 := 128#32
  let v0 : BitVec 32 := Scalar.muli arg0 c128_i32
  let c30_i32_687 : BitVec 32 := 30#32
  let v1482 : BitVec 32 := Scalar.addi v0 c30_i32_687
  let v1483 : Index := Scalar.indexCast v1482
  ![v1483.toNat]
def k0_off318 (v1484 : BitVec 32) : Fin 2 → Nat :=
  let c30_i32_688 : BitVec 32 := 30#32
  ![30, v1484.toNat]

def k0_chk159 (v1484 : BitVec 32) : Prop :=
  (∀ a, (k0_off318 v1484) a + S1x4096.size a ≤ S128x8192.size a)
instance k0_chk159.dec : ∀ (v1484 : BitVec 32), Decidable (k0_chk159 v1484) := fun v1484 => decidable_of_iff' _ (Iff.of_eq (k0_chk159.eq_1 v1484))
theorem k0_off318_inb : ∀ (v1484 : BitVec 32) (k0_hw159 : k0_chk159 v1484), ∀ a, (k0_off318 v1484) a + S1x4096.size a ≤ S128x8192.size a := fun v1484 k0_hw159 => k0_hw159

def k0_off319 (i : grid0.Coords) : Fin 1 → Nat :=
  let arg0 : BitVec 32 := BitVec.ofNat 32 (i 0).val
  let c128_i32 : BitVec 32 := 128#32
  let v0 : BitVec 32 := Scalar.muli arg0 c128_i32
  let c31_i32_692 : BitVec 32 := 31#32
  let v1491 : BitVec 32 := Scalar.addi v0 c31_i32_692
  let v1492 : Index := Scalar.indexCast v1491
  ![v1492.toNat]
def k0_off320 (v1493 : BitVec 32) : Fin 2 → Nat :=
  let c31_i32_693 : BitVec 32 := 31#32
  ![31, v1493.toNat]

def k0_chk160 (v1493 : BitVec 32) : Prop :=
  (∀ a, (k0_off320 v1493) a + S1x4096.size a ≤ S128x8192.size a)
instance k0_chk160.dec : ∀ (v1493 : BitVec 32), Decidable (k0_chk160 v1493) := fun v1493 => decidable_of_iff' _ (Iff.of_eq (k0_chk160.eq_1 v1493))
theorem k0_off320_inb : ∀ (v1493 : BitVec 32) (k0_hw160 : k0_chk160 v1493), ∀ a, (k0_off320 v1493) a + S1x4096.size a ≤ S128x8192.size a := fun v1493 k0_hw160 => k0_hw160

def k0_off321 (i : grid0.Coords) : Fin 1 → Nat :=
  let arg0 : BitVec 32 := BitVec.ofNat 32 (i 0).val
  let c128_i32 : BitVec 32 := 128#32
  let v0 : BitVec 32 := Scalar.muli arg0 c128_i32
  let c32_i32_697 : BitVec 32 := 32#32
  let v1500 : BitVec 32 := Scalar.addi v0 c32_i32_697
  let v1501 : Index := Scalar.indexCast v1500
  ![v1501.toNat]
def k0_off322 (v1502 : BitVec 32) : Fin 2 → Nat :=
  let c32_i32_698 : BitVec 32 := 32#32
  ![32, v1502.toNat]

def k0_chk161 (v1502 : BitVec 32) : Prop :=
  (∀ a, (k0_off322 v1502) a + S1x4096.size a ≤ S128x8192.size a)
instance k0_chk161.dec : ∀ (v1502 : BitVec 32), Decidable (k0_chk161 v1502) := fun v1502 => decidable_of_iff' _ (Iff.of_eq (k0_chk161.eq_1 v1502))
theorem k0_off322_inb : ∀ (v1502 : BitVec 32) (k0_hw161 : k0_chk161 v1502), ∀ a, (k0_off322 v1502) a + S1x4096.size a ≤ S128x8192.size a := fun v1502 k0_hw161 => k0_hw161

def k0_off323 (i : grid0.Coords) : Fin 1 → Nat :=
  let arg0 : BitVec 32 := BitVec.ofNat 32 (i 0).val
  let c128_i32 : BitVec 32 := 128#32
  let v0 : BitVec 32 := Scalar.muli arg0 c128_i32
  let c33_i32_702 : BitVec 32 := 33#32
  let v1509 : BitVec 32 := Scalar.addi v0 c33_i32_702
  let v1510 : Index := Scalar.indexCast v1509
  ![v1510.toNat]
def k0_off324 (v1511 : BitVec 32) : Fin 2 → Nat :=
  let c33_i32_703 : BitVec 32 := 33#32
  ![33, v1511.toNat]

def k0_chk162 (v1511 : BitVec 32) : Prop :=
  (∀ a, (k0_off324 v1511) a + S1x4096.size a ≤ S128x8192.size a)
instance k0_chk162.dec : ∀ (v1511 : BitVec 32), Decidable (k0_chk162 v1511) := fun v1511 => decidable_of_iff' _ (Iff.of_eq (k0_chk162.eq_1 v1511))
theorem k0_off324_inb : ∀ (v1511 : BitVec 32) (k0_hw162 : k0_chk162 v1511), ∀ a, (k0_off324 v1511) a + S1x4096.size a ≤ S128x8192.size a := fun v1511 k0_hw162 => k0_hw162

def k0_off325 (i : grid0.Coords) : Fin 1 → Nat :=
  let arg0 : BitVec 32 := BitVec.ofNat 32 (i 0).val
  let c128_i32 : BitVec 32 := 128#32
  let v0 : BitVec 32 := Scalar.muli arg0 c128_i32
  let c34_i32_707 : BitVec 32 := 34#32
  let v1518 : BitVec 32 := Scalar.addi v0 c34_i32_707
  let v1519 : Index := Scalar.indexCast v1518
  ![v1519.toNat]
def k0_off326 (v1520 : BitVec 32) : Fin 2 → Nat :=
  let c34_i32_708 : BitVec 32 := 34#32
  ![34, v1520.toNat]

def k0_chk163 (v1520 : BitVec 32) : Prop :=
  (∀ a, (k0_off326 v1520) a + S1x4096.size a ≤ S128x8192.size a)
instance k0_chk163.dec : ∀ (v1520 : BitVec 32), Decidable (k0_chk163 v1520) := fun v1520 => decidable_of_iff' _ (Iff.of_eq (k0_chk163.eq_1 v1520))
theorem k0_off326_inb : ∀ (v1520 : BitVec 32) (k0_hw163 : k0_chk163 v1520), ∀ a, (k0_off326 v1520) a + S1x4096.size a ≤ S128x8192.size a := fun v1520 k0_hw163 => k0_hw163

def k0_off327 (i : grid0.Coords) : Fin 1 → Nat :=
  let arg0 : BitVec 32 := BitVec.ofNat 32 (i 0).val
  let c128_i32 : BitVec 32 := 128#32
  let v0 : BitVec 32 := Scalar.muli arg0 c128_i32
  let c35_i32_712 : BitVec 32 := 35#32
  let v1527 : BitVec 32 := Scalar.addi v0 c35_i32_712
  let v1528 : Index := Scalar.indexCast v1527
  ![v1528.toNat]
def k0_off328 (v1529 : BitVec 32) : Fin 2 → Nat :=
  let c35_i32_713 : BitVec 32 := 35#32
  ![35, v1529.toNat]

def k0_chk164 (v1529 : BitVec 32) : Prop :=
  (∀ a, (k0_off328 v1529) a + S1x4096.size a ≤ S128x8192.size a)
instance k0_chk164.dec : ∀ (v1529 : BitVec 32), Decidable (k0_chk164 v1529) := fun v1529 => decidable_of_iff' _ (Iff.of_eq (k0_chk164.eq_1 v1529))
theorem k0_off328_inb : ∀ (v1529 : BitVec 32) (k0_hw164 : k0_chk164 v1529), ∀ a, (k0_off328 v1529) a + S1x4096.size a ≤ S128x8192.size a := fun v1529 k0_hw164 => k0_hw164

def k0_off329 (i : grid0.Coords) : Fin 1 → Nat :=
  let arg0 : BitVec 32 := BitVec.ofNat 32 (i 0).val
  let c128_i32 : BitVec 32 := 128#32
  let v0 : BitVec 32 := Scalar.muli arg0 c128_i32
  let c36_i32_717 : BitVec 32 := 36#32
  let v1536 : BitVec 32 := Scalar.addi v0 c36_i32_717
  let v1537 : Index := Scalar.indexCast v1536
  ![v1537.toNat]
def k0_off330 (v1538 : BitVec 32) : Fin 2 → Nat :=
  let c36_i32_718 : BitVec 32 := 36#32
  ![36, v1538.toNat]

def k0_chk165 (v1538 : BitVec 32) : Prop :=
  (∀ a, (k0_off330 v1538) a + S1x4096.size a ≤ S128x8192.size a)
instance k0_chk165.dec : ∀ (v1538 : BitVec 32), Decidable (k0_chk165 v1538) := fun v1538 => decidable_of_iff' _ (Iff.of_eq (k0_chk165.eq_1 v1538))
theorem k0_off330_inb : ∀ (v1538 : BitVec 32) (k0_hw165 : k0_chk165 v1538), ∀ a, (k0_off330 v1538) a + S1x4096.size a ≤ S128x8192.size a := fun v1538 k0_hw165 => k0_hw165

def k0_off331 (i : grid0.Coords) : Fin 1 → Nat :=
  let arg0 : BitVec 32 := BitVec.ofNat 32 (i 0).val
  let c128_i32 : BitVec 32 := 128#32
  let v0 : BitVec 32 := Scalar.muli arg0 c128_i32
  let c37_i32_722 : BitVec 32 := 37#32
  let v1545 : BitVec 32 := Scalar.addi v0 c37_i32_722
  let v1546 : Index := Scalar.indexCast v1545
  ![v1546.toNat]
def k0_off332 (v1547 : BitVec 32) : Fin 2 → Nat :=
  let c37_i32_723 : BitVec 32 := 37#32
  ![37, v1547.toNat]

def k0_chk166 (v1547 : BitVec 32) : Prop :=
  (∀ a, (k0_off332 v1547) a + S1x4096.size a ≤ S128x8192.size a)
instance k0_chk166.dec : ∀ (v1547 : BitVec 32), Decidable (k0_chk166 v1547) := fun v1547 => decidable_of_iff' _ (Iff.of_eq (k0_chk166.eq_1 v1547))
theorem k0_off332_inb : ∀ (v1547 : BitVec 32) (k0_hw166 : k0_chk166 v1547), ∀ a, (k0_off332 v1547) a + S1x4096.size a ≤ S128x8192.size a := fun v1547 k0_hw166 => k0_hw166

def k0_off333 (i : grid0.Coords) : Fin 1 → Nat :=
  let arg0 : BitVec 32 := BitVec.ofNat 32 (i 0).val
  let c128_i32 : BitVec 32 := 128#32
  let v0 : BitVec 32 := Scalar.muli arg0 c128_i32
  let c38_i32_727 : BitVec 32 := 38#32
  let v1554 : BitVec 32 := Scalar.addi v0 c38_i32_727
  let v1555 : Index := Scalar.indexCast v1554
  ![v1555.toNat]
def k0_off334 (v1556 : BitVec 32) : Fin 2 → Nat :=
  let c38_i32_728 : BitVec 32 := 38#32
  ![38, v1556.toNat]

def k0_chk167 (v1556 : BitVec 32) : Prop :=
  (∀ a, (k0_off334 v1556) a + S1x4096.size a ≤ S128x8192.size a)
instance k0_chk167.dec : ∀ (v1556 : BitVec 32), Decidable (k0_chk167 v1556) := fun v1556 => decidable_of_iff' _ (Iff.of_eq (k0_chk167.eq_1 v1556))
theorem k0_off334_inb : ∀ (v1556 : BitVec 32) (k0_hw167 : k0_chk167 v1556), ∀ a, (k0_off334 v1556) a + S1x4096.size a ≤ S128x8192.size a := fun v1556 k0_hw167 => k0_hw167

def k0_off335 (i : grid0.Coords) : Fin 1 → Nat :=
  let arg0 : BitVec 32 := BitVec.ofNat 32 (i 0).val
  let c128_i32 : BitVec 32 := 128#32
  let v0 : BitVec 32 := Scalar.muli arg0 c128_i32
  let c39_i32_732 : BitVec 32 := 39#32
  let v1563 : BitVec 32 := Scalar.addi v0 c39_i32_732
  let v1564 : Index := Scalar.indexCast v1563
  ![v1564.toNat]
def k0_off336 (v1565 : BitVec 32) : Fin 2 → Nat :=
  let c39_i32_733 : BitVec 32 := 39#32
  ![39, v1565.toNat]

def k0_chk168 (v1565 : BitVec 32) : Prop :=
  (∀ a, (k0_off336 v1565) a + S1x4096.size a ≤ S128x8192.size a)
instance k0_chk168.dec : ∀ (v1565 : BitVec 32), Decidable (k0_chk168 v1565) := fun v1565 => decidable_of_iff' _ (Iff.of_eq (k0_chk168.eq_1 v1565))
theorem k0_off336_inb : ∀ (v1565 : BitVec 32) (k0_hw168 : k0_chk168 v1565), ∀ a, (k0_off336 v1565) a + S1x4096.size a ≤ S128x8192.size a := fun v1565 k0_hw168 => k0_hw168

def k0_off337 (i : grid0.Coords) : Fin 1 → Nat :=
  let arg0 : BitVec 32 := BitVec.ofNat 32 (i 0).val
  let c128_i32 : BitVec 32 := 128#32
  let v0 : BitVec 32 := Scalar.muli arg0 c128_i32
  let c40_i32_737 : BitVec 32 := 40#32
  let v1572 : BitVec 32 := Scalar.addi v0 c40_i32_737
  let v1573 : Index := Scalar.indexCast v1572
  ![v1573.toNat]
def k0_off338 (v1574 : BitVec 32) : Fin 2 → Nat :=
  let c40_i32_738 : BitVec 32 := 40#32
  ![40, v1574.toNat]

def k0_chk169 (v1574 : BitVec 32) : Prop :=
  (∀ a, (k0_off338 v1574) a + S1x4096.size a ≤ S128x8192.size a)
instance k0_chk169.dec : ∀ (v1574 : BitVec 32), Decidable (k0_chk169 v1574) := fun v1574 => decidable_of_iff' _ (Iff.of_eq (k0_chk169.eq_1 v1574))
theorem k0_off338_inb : ∀ (v1574 : BitVec 32) (k0_hw169 : k0_chk169 v1574), ∀ a, (k0_off338 v1574) a + S1x4096.size a ≤ S128x8192.size a := fun v1574 k0_hw169 => k0_hw169

def k0_off339 (i : grid0.Coords) : Fin 1 → Nat :=
  let arg0 : BitVec 32 := BitVec.ofNat 32 (i 0).val
  let c128_i32 : BitVec 32 := 128#32
  let v0 : BitVec 32 := Scalar.muli arg0 c128_i32
  let c41_i32_742 : BitVec 32 := 41#32
  let v1581 : BitVec 32 := Scalar.addi v0 c41_i32_742
  let v1582 : Index := Scalar.indexCast v1581
  ![v1582.toNat]
def k0_off340 (v1583 : BitVec 32) : Fin 2 → Nat :=
  let c41_i32_743 : BitVec 32 := 41#32
  ![41, v1583.toNat]

def k0_chk170 (v1583 : BitVec 32) : Prop :=
  (∀ a, (k0_off340 v1583) a + S1x4096.size a ≤ S128x8192.size a)
instance k0_chk170.dec : ∀ (v1583 : BitVec 32), Decidable (k0_chk170 v1583) := fun v1583 => decidable_of_iff' _ (Iff.of_eq (k0_chk170.eq_1 v1583))
theorem k0_off340_inb : ∀ (v1583 : BitVec 32) (k0_hw170 : k0_chk170 v1583), ∀ a, (k0_off340 v1583) a + S1x4096.size a ≤ S128x8192.size a := fun v1583 k0_hw170 => k0_hw170

def k0_off341 (i : grid0.Coords) : Fin 1 → Nat :=
  let arg0 : BitVec 32 := BitVec.ofNat 32 (i 0).val
  let c128_i32 : BitVec 32 := 128#32
  let v0 : BitVec 32 := Scalar.muli arg0 c128_i32
  let c42_i32_747 : BitVec 32 := 42#32
  let v1590 : BitVec 32 := Scalar.addi v0 c42_i32_747
  let v1591 : Index := Scalar.indexCast v1590
  ![v1591.toNat]
def k0_off342 (v1592 : BitVec 32) : Fin 2 → Nat :=
  let c42_i32_748 : BitVec 32 := 42#32
  ![42, v1592.toNat]

def k0_chk171 (v1592 : BitVec 32) : Prop :=
  (∀ a, (k0_off342 v1592) a + S1x4096.size a ≤ S128x8192.size a)
instance k0_chk171.dec : ∀ (v1592 : BitVec 32), Decidable (k0_chk171 v1592) := fun v1592 => decidable_of_iff' _ (Iff.of_eq (k0_chk171.eq_1 v1592))
theorem k0_off342_inb : ∀ (v1592 : BitVec 32) (k0_hw171 : k0_chk171 v1592), ∀ a, (k0_off342 v1592) a + S1x4096.size a ≤ S128x8192.size a := fun v1592 k0_hw171 => k0_hw171

def k0_off343 (i : grid0.Coords) : Fin 1 → Nat :=
  let arg0 : BitVec 32 := BitVec.ofNat 32 (i 0).val
  let c128_i32 : BitVec 32 := 128#32
  let v0 : BitVec 32 := Scalar.muli arg0 c128_i32
  let c43_i32_752 : BitVec 32 := 43#32
  let v1599 : BitVec 32 := Scalar.addi v0 c43_i32_752
  let v1600 : Index := Scalar.indexCast v1599
  ![v1600.toNat]
def k0_off344 (v1601 : BitVec 32) : Fin 2 → Nat :=
  let c43_i32_753 : BitVec 32 := 43#32
  ![43, v1601.toNat]

def k0_chk172 (v1601 : BitVec 32) : Prop :=
  (∀ a, (k0_off344 v1601) a + S1x4096.size a ≤ S128x8192.size a)
instance k0_chk172.dec : ∀ (v1601 : BitVec 32), Decidable (k0_chk172 v1601) := fun v1601 => decidable_of_iff' _ (Iff.of_eq (k0_chk172.eq_1 v1601))
theorem k0_off344_inb : ∀ (v1601 : BitVec 32) (k0_hw172 : k0_chk172 v1601), ∀ a, (k0_off344 v1601) a + S1x4096.size a ≤ S128x8192.size a := fun v1601 k0_hw172 => k0_hw172

def k0_off345 (i : grid0.Coords) : Fin 1 → Nat :=
  let arg0 : BitVec 32 := BitVec.ofNat 32 (i 0).val
  let c128_i32 : BitVec 32 := 128#32
  let v0 : BitVec 32 := Scalar.muli arg0 c128_i32
  let c44_i32_757 : BitVec 32 := 44#32
  let v1608 : BitVec 32 := Scalar.addi v0 c44_i32_757
  let v1609 : Index := Scalar.indexCast v1608
  ![v1609.toNat]
def k0_off346 (v1610 : BitVec 32) : Fin 2 → Nat :=
  let c44_i32_758 : BitVec 32 := 44#32
  ![44, v1610.toNat]

def k0_chk173 (v1610 : BitVec 32) : Prop :=
  (∀ a, (k0_off346 v1610) a + S1x4096.size a ≤ S128x8192.size a)
instance k0_chk173.dec : ∀ (v1610 : BitVec 32), Decidable (k0_chk173 v1610) := fun v1610 => decidable_of_iff' _ (Iff.of_eq (k0_chk173.eq_1 v1610))
theorem k0_off346_inb : ∀ (v1610 : BitVec 32) (k0_hw173 : k0_chk173 v1610), ∀ a, (k0_off346 v1610) a + S1x4096.size a ≤ S128x8192.size a := fun v1610 k0_hw173 => k0_hw173

def k0_off347 (i : grid0.Coords) : Fin 1 → Nat :=
  let arg0 : BitVec 32 := BitVec.ofNat 32 (i 0).val
  let c128_i32 : BitVec 32 := 128#32
  let v0 : BitVec 32 := Scalar.muli arg0 c128_i32
  let c45_i32_762 : BitVec 32 := 45#32
  let v1617 : BitVec 32 := Scalar.addi v0 c45_i32_762
  let v1618 : Index := Scalar.indexCast v1617
  ![v1618.toNat]
def k0_off348 (v1619 : BitVec 32) : Fin 2 → Nat :=
  let c45_i32_763 : BitVec 32 := 45#32
  ![45, v1619.toNat]

def k0_chk174 (v1619 : BitVec 32) : Prop :=
  (∀ a, (k0_off348 v1619) a + S1x4096.size a ≤ S128x8192.size a)
instance k0_chk174.dec : ∀ (v1619 : BitVec 32), Decidable (k0_chk174 v1619) := fun v1619 => decidable_of_iff' _ (Iff.of_eq (k0_chk174.eq_1 v1619))
theorem k0_off348_inb : ∀ (v1619 : BitVec 32) (k0_hw174 : k0_chk174 v1619), ∀ a, (k0_off348 v1619) a + S1x4096.size a ≤ S128x8192.size a := fun v1619 k0_hw174 => k0_hw174

def k0_off349 (i : grid0.Coords) : Fin 1 → Nat :=
  let arg0 : BitVec 32 := BitVec.ofNat 32 (i 0).val
  let c128_i32 : BitVec 32 := 128#32
  let v0 : BitVec 32 := Scalar.muli arg0 c128_i32
  let c46_i32_767 : BitVec 32 := 46#32
  let v1626 : BitVec 32 := Scalar.addi v0 c46_i32_767
  let v1627 : Index := Scalar.indexCast v1626
  ![v1627.toNat]
def k0_off350 (v1628 : BitVec 32) : Fin 2 → Nat :=
  let c46_i32_768 : BitVec 32 := 46#32
  ![46, v1628.toNat]

def k0_chk175 (v1628 : BitVec 32) : Prop :=
  (∀ a, (k0_off350 v1628) a + S1x4096.size a ≤ S128x8192.size a)
instance k0_chk175.dec : ∀ (v1628 : BitVec 32), Decidable (k0_chk175 v1628) := fun v1628 => decidable_of_iff' _ (Iff.of_eq (k0_chk175.eq_1 v1628))
theorem k0_off350_inb : ∀ (v1628 : BitVec 32) (k0_hw175 : k0_chk175 v1628), ∀ a, (k0_off350 v1628) a + S1x4096.size a ≤ S128x8192.size a := fun v1628 k0_hw175 => k0_hw175

def k0_off351 (i : grid0.Coords) : Fin 1 → Nat :=
  let arg0 : BitVec 32 := BitVec.ofNat 32 (i 0).val
  let c128_i32 : BitVec 32 := 128#32
  let v0 : BitVec 32 := Scalar.muli arg0 c128_i32
  let c47_i32_772 : BitVec 32 := 47#32
  let v1635 : BitVec 32 := Scalar.addi v0 c47_i32_772
  let v1636 : Index := Scalar.indexCast v1635
  ![v1636.toNat]
def k0_off352 (v1637 : BitVec 32) : Fin 2 → Nat :=
  let c47_i32_773 : BitVec 32 := 47#32
  ![47, v1637.toNat]

def k0_chk176 (v1637 : BitVec 32) : Prop :=
  (∀ a, (k0_off352 v1637) a + S1x4096.size a ≤ S128x8192.size a)
instance k0_chk176.dec : ∀ (v1637 : BitVec 32), Decidable (k0_chk176 v1637) := fun v1637 => decidable_of_iff' _ (Iff.of_eq (k0_chk176.eq_1 v1637))
theorem k0_off352_inb : ∀ (v1637 : BitVec 32) (k0_hw176 : k0_chk176 v1637), ∀ a, (k0_off352 v1637) a + S1x4096.size a ≤ S128x8192.size a := fun v1637 k0_hw176 => k0_hw176

def k0_off353 (i : grid0.Coords) : Fin 1 → Nat :=
  let arg0 : BitVec 32 := BitVec.ofNat 32 (i 0).val
  let c128_i32 : BitVec 32 := 128#32
  let v0 : BitVec 32 := Scalar.muli arg0 c128_i32
  let c48_i32_777 : BitVec 32 := 48#32
  let v1644 : BitVec 32 := Scalar.addi v0 c48_i32_777
  let v1645 : Index := Scalar.indexCast v1644
  ![v1645.toNat]
def k0_off354 (v1646 : BitVec 32) : Fin 2 → Nat :=
  let c48_i32_778 : BitVec 32 := 48#32
  ![48, v1646.toNat]

def k0_chk177 (v1646 : BitVec 32) : Prop :=
  (∀ a, (k0_off354 v1646) a + S1x4096.size a ≤ S128x8192.size a)
instance k0_chk177.dec : ∀ (v1646 : BitVec 32), Decidable (k0_chk177 v1646) := fun v1646 => decidable_of_iff' _ (Iff.of_eq (k0_chk177.eq_1 v1646))
theorem k0_off354_inb : ∀ (v1646 : BitVec 32) (k0_hw177 : k0_chk177 v1646), ∀ a, (k0_off354 v1646) a + S1x4096.size a ≤ S128x8192.size a := fun v1646 k0_hw177 => k0_hw177

def k0_off355 (i : grid0.Coords) : Fin 1 → Nat :=
  let arg0 : BitVec 32 := BitVec.ofNat 32 (i 0).val
  let c128_i32 : BitVec 32 := 128#32
  let v0 : BitVec 32 := Scalar.muli arg0 c128_i32
  let c49_i32_782 : BitVec 32 := 49#32
  let v1653 : BitVec 32 := Scalar.addi v0 c49_i32_782
  let v1654 : Index := Scalar.indexCast v1653
  ![v1654.toNat]
def k0_off356 (v1655 : BitVec 32) : Fin 2 → Nat :=
  let c49_i32_783 : BitVec 32 := 49#32
  ![49, v1655.toNat]

def k0_chk178 (v1655 : BitVec 32) : Prop :=
  (∀ a, (k0_off356 v1655) a + S1x4096.size a ≤ S128x8192.size a)
instance k0_chk178.dec : ∀ (v1655 : BitVec 32), Decidable (k0_chk178 v1655) := fun v1655 => decidable_of_iff' _ (Iff.of_eq (k0_chk178.eq_1 v1655))
theorem k0_off356_inb : ∀ (v1655 : BitVec 32) (k0_hw178 : k0_chk178 v1655), ∀ a, (k0_off356 v1655) a + S1x4096.size a ≤ S128x8192.size a := fun v1655 k0_hw178 => k0_hw178

def k0_off357 (i : grid0.Coords) : Fin 1 → Nat :=
  let arg0 : BitVec 32 := BitVec.ofNat 32 (i 0).val
  let c128_i32 : BitVec 32 := 128#32
  let v0 : BitVec 32 := Scalar.muli arg0 c128_i32
  let c50_i32_787 : BitVec 32 := 50#32
  let v1662 : BitVec 32 := Scalar.addi v0 c50_i32_787
  let v1663 : Index := Scalar.indexCast v1662
  ![v1663.toNat]
def k0_off358 (v1664 : BitVec 32) : Fin 2 → Nat :=
  let c50_i32_788 : BitVec 32 := 50#32
  ![50, v1664.toNat]

def k0_chk179 (v1664 : BitVec 32) : Prop :=
  (∀ a, (k0_off358 v1664) a + S1x4096.size a ≤ S128x8192.size a)
instance k0_chk179.dec : ∀ (v1664 : BitVec 32), Decidable (k0_chk179 v1664) := fun v1664 => decidable_of_iff' _ (Iff.of_eq (k0_chk179.eq_1 v1664))
theorem k0_off358_inb : ∀ (v1664 : BitVec 32) (k0_hw179 : k0_chk179 v1664), ∀ a, (k0_off358 v1664) a + S1x4096.size a ≤ S128x8192.size a := fun v1664 k0_hw179 => k0_hw179

def k0_off359 (i : grid0.Coords) : Fin 1 → Nat :=
  let arg0 : BitVec 32 := BitVec.ofNat 32 (i 0).val
  let c128_i32 : BitVec 32 := 128#32
  let v0 : BitVec 32 := Scalar.muli arg0 c128_i32
  let c51_i32_792 : BitVec 32 := 51#32
  let v1671 : BitVec 32 := Scalar.addi v0 c51_i32_792
  let v1672 : Index := Scalar.indexCast v1671
  ![v1672.toNat]
def k0_off360 (v1673 : BitVec 32) : Fin 2 → Nat :=
  let c51_i32_793 : BitVec 32 := 51#32
  ![51, v1673.toNat]

def k0_chk180 (v1673 : BitVec 32) : Prop :=
  (∀ a, (k0_off360 v1673) a + S1x4096.size a ≤ S128x8192.size a)
instance k0_chk180.dec : ∀ (v1673 : BitVec 32), Decidable (k0_chk180 v1673) := fun v1673 => decidable_of_iff' _ (Iff.of_eq (k0_chk180.eq_1 v1673))
theorem k0_off360_inb : ∀ (v1673 : BitVec 32) (k0_hw180 : k0_chk180 v1673), ∀ a, (k0_off360 v1673) a + S1x4096.size a ≤ S128x8192.size a := fun v1673 k0_hw180 => k0_hw180

def k0_off361 (i : grid0.Coords) : Fin 1 → Nat :=
  let arg0 : BitVec 32 := BitVec.ofNat 32 (i 0).val
  let c128_i32 : BitVec 32 := 128#32
  let v0 : BitVec 32 := Scalar.muli arg0 c128_i32
  let c52_i32_797 : BitVec 32 := 52#32
  let v1680 : BitVec 32 := Scalar.addi v0 c52_i32_797
  let v1681 : Index := Scalar.indexCast v1680
  ![v1681.toNat]
def k0_off362 (v1682 : BitVec 32) : Fin 2 → Nat :=
  let c52_i32_798 : BitVec 32 := 52#32
  ![52, v1682.toNat]

def k0_chk181 (v1682 : BitVec 32) : Prop :=
  (∀ a, (k0_off362 v1682) a + S1x4096.size a ≤ S128x8192.size a)
instance k0_chk181.dec : ∀ (v1682 : BitVec 32), Decidable (k0_chk181 v1682) := fun v1682 => decidable_of_iff' _ (Iff.of_eq (k0_chk181.eq_1 v1682))
theorem k0_off362_inb : ∀ (v1682 : BitVec 32) (k0_hw181 : k0_chk181 v1682), ∀ a, (k0_off362 v1682) a + S1x4096.size a ≤ S128x8192.size a := fun v1682 k0_hw181 => k0_hw181

def k0_off363 (i : grid0.Coords) : Fin 1 → Nat :=
  let arg0 : BitVec 32 := BitVec.ofNat 32 (i 0).val
  let c128_i32 : BitVec 32 := 128#32
  let v0 : BitVec 32 := Scalar.muli arg0 c128_i32
  let c53_i32_802 : BitVec 32 := 53#32
  let v1689 : BitVec 32 := Scalar.addi v0 c53_i32_802
  let v1690 : Index := Scalar.indexCast v1689
  ![v1690.toNat]
def k0_off364 (v1691 : BitVec 32) : Fin 2 → Nat :=
  let c53_i32_803 : BitVec 32 := 53#32
  ![53, v1691.toNat]

def k0_chk182 (v1691 : BitVec 32) : Prop :=
  (∀ a, (k0_off364 v1691) a + S1x4096.size a ≤ S128x8192.size a)
instance k0_chk182.dec : ∀ (v1691 : BitVec 32), Decidable (k0_chk182 v1691) := fun v1691 => decidable_of_iff' _ (Iff.of_eq (k0_chk182.eq_1 v1691))
theorem k0_off364_inb : ∀ (v1691 : BitVec 32) (k0_hw182 : k0_chk182 v1691), ∀ a, (k0_off364 v1691) a + S1x4096.size a ≤ S128x8192.size a := fun v1691 k0_hw182 => k0_hw182

def k0_off365 (i : grid0.Coords) : Fin 1 → Nat :=
  let arg0 : BitVec 32 := BitVec.ofNat 32 (i 0).val
  let c128_i32 : BitVec 32 := 128#32
  let v0 : BitVec 32 := Scalar.muli arg0 c128_i32
  let c54_i32_807 : BitVec 32 := 54#32
  let v1698 : BitVec 32 := Scalar.addi v0 c54_i32_807
  let v1699 : Index := Scalar.indexCast v1698
  ![v1699.toNat]
def k0_off366 (v1700 : BitVec 32) : Fin 2 → Nat :=
  let c54_i32_808 : BitVec 32 := 54#32
  ![54, v1700.toNat]

def k0_chk183 (v1700 : BitVec 32) : Prop :=
  (∀ a, (k0_off366 v1700) a + S1x4096.size a ≤ S128x8192.size a)
instance k0_chk183.dec : ∀ (v1700 : BitVec 32), Decidable (k0_chk183 v1700) := fun v1700 => decidable_of_iff' _ (Iff.of_eq (k0_chk183.eq_1 v1700))
theorem k0_off366_inb : ∀ (v1700 : BitVec 32) (k0_hw183 : k0_chk183 v1700), ∀ a, (k0_off366 v1700) a + S1x4096.size a ≤ S128x8192.size a := fun v1700 k0_hw183 => k0_hw183

def k0_off367 (i : grid0.Coords) : Fin 1 → Nat :=
  let arg0 : BitVec 32 := BitVec.ofNat 32 (i 0).val
  let c128_i32 : BitVec 32 := 128#32
  let v0 : BitVec 32 := Scalar.muli arg0 c128_i32
  let c55_i32_812 : BitVec 32 := 55#32
  let v1707 : BitVec 32 := Scalar.addi v0 c55_i32_812
  let v1708 : Index := Scalar.indexCast v1707
  ![v1708.toNat]
def k0_off368 (v1709 : BitVec 32) : Fin 2 → Nat :=
  let c55_i32_813 : BitVec 32 := 55#32
  ![55, v1709.toNat]

def k0_chk184 (v1709 : BitVec 32) : Prop :=
  (∀ a, (k0_off368 v1709) a + S1x4096.size a ≤ S128x8192.size a)
instance k0_chk184.dec : ∀ (v1709 : BitVec 32), Decidable (k0_chk184 v1709) := fun v1709 => decidable_of_iff' _ (Iff.of_eq (k0_chk184.eq_1 v1709))
theorem k0_off368_inb : ∀ (v1709 : BitVec 32) (k0_hw184 : k0_chk184 v1709), ∀ a, (k0_off368 v1709) a + S1x4096.size a ≤ S128x8192.size a := fun v1709 k0_hw184 => k0_hw184

def k0_off369 (i : grid0.Coords) : Fin 1 → Nat :=
  let arg0 : BitVec 32 := BitVec.ofNat 32 (i 0).val
  let c128_i32 : BitVec 32 := 128#32
  let v0 : BitVec 32 := Scalar.muli arg0 c128_i32
  let c56_i32_817 : BitVec 32 := 56#32
  let v1716 : BitVec 32 := Scalar.addi v0 c56_i32_817
  let v1717 : Index := Scalar.indexCast v1716
  ![v1717.toNat]
def k0_off370 (v1718 : BitVec 32) : Fin 2 → Nat :=
  let c56_i32_818 : BitVec 32 := 56#32
  ![56, v1718.toNat]

def k0_chk185 (v1718 : BitVec 32) : Prop :=
  (∀ a, (k0_off370 v1718) a + S1x4096.size a ≤ S128x8192.size a)
instance k0_chk185.dec : ∀ (v1718 : BitVec 32), Decidable (k0_chk185 v1718) := fun v1718 => decidable_of_iff' _ (Iff.of_eq (k0_chk185.eq_1 v1718))
theorem k0_off370_inb : ∀ (v1718 : BitVec 32) (k0_hw185 : k0_chk185 v1718), ∀ a, (k0_off370 v1718) a + S1x4096.size a ≤ S128x8192.size a := fun v1718 k0_hw185 => k0_hw185

def k0_off371 (i : grid0.Coords) : Fin 1 → Nat :=
  let arg0 : BitVec 32 := BitVec.ofNat 32 (i 0).val
  let c128_i32 : BitVec 32 := 128#32
  let v0 : BitVec 32 := Scalar.muli arg0 c128_i32
  let c57_i32_822 : BitVec 32 := 57#32
  let v1725 : BitVec 32 := Scalar.addi v0 c57_i32_822
  let v1726 : Index := Scalar.indexCast v1725
  ![v1726.toNat]
def k0_off372 (v1727 : BitVec 32) : Fin 2 → Nat :=
  let c57_i32_823 : BitVec 32 := 57#32
  ![57, v1727.toNat]

def k0_chk186 (v1727 : BitVec 32) : Prop :=
  (∀ a, (k0_off372 v1727) a + S1x4096.size a ≤ S128x8192.size a)
instance k0_chk186.dec : ∀ (v1727 : BitVec 32), Decidable (k0_chk186 v1727) := fun v1727 => decidable_of_iff' _ (Iff.of_eq (k0_chk186.eq_1 v1727))
theorem k0_off372_inb : ∀ (v1727 : BitVec 32) (k0_hw186 : k0_chk186 v1727), ∀ a, (k0_off372 v1727) a + S1x4096.size a ≤ S128x8192.size a := fun v1727 k0_hw186 => k0_hw186

def k0_off373 (i : grid0.Coords) : Fin 1 → Nat :=
  let arg0 : BitVec 32 := BitVec.ofNat 32 (i 0).val
  let c128_i32 : BitVec 32 := 128#32
  let v0 : BitVec 32 := Scalar.muli arg0 c128_i32
  let c58_i32_827 : BitVec 32 := 58#32
  let v1734 : BitVec 32 := Scalar.addi v0 c58_i32_827
  let v1735 : Index := Scalar.indexCast v1734
  ![v1735.toNat]
def k0_off374 (v1736 : BitVec 32) : Fin 2 → Nat :=
  let c58_i32_828 : BitVec 32 := 58#32
  ![58, v1736.toNat]

def k0_chk187 (v1736 : BitVec 32) : Prop :=
  (∀ a, (k0_off374 v1736) a + S1x4096.size a ≤ S128x8192.size a)
instance k0_chk187.dec : ∀ (v1736 : BitVec 32), Decidable (k0_chk187 v1736) := fun v1736 => decidable_of_iff' _ (Iff.of_eq (k0_chk187.eq_1 v1736))
theorem k0_off374_inb : ∀ (v1736 : BitVec 32) (k0_hw187 : k0_chk187 v1736), ∀ a, (k0_off374 v1736) a + S1x4096.size a ≤ S128x8192.size a := fun v1736 k0_hw187 => k0_hw187

def k0_off375 (i : grid0.Coords) : Fin 1 → Nat :=
  let arg0 : BitVec 32 := BitVec.ofNat 32 (i 0).val
  let c128_i32 : BitVec 32 := 128#32
  let v0 : BitVec 32 := Scalar.muli arg0 c128_i32
  let c59_i32_832 : BitVec 32 := 59#32
  let v1743 : BitVec 32 := Scalar.addi v0 c59_i32_832
  let v1744 : Index := Scalar.indexCast v1743
  ![v1744.toNat]
def k0_off376 (v1745 : BitVec 32) : Fin 2 → Nat :=
  let c59_i32_833 : BitVec 32 := 59#32
  ![59, v1745.toNat]

def k0_chk188 (v1745 : BitVec 32) : Prop :=
  (∀ a, (k0_off376 v1745) a + S1x4096.size a ≤ S128x8192.size a)
instance k0_chk188.dec : ∀ (v1745 : BitVec 32), Decidable (k0_chk188 v1745) := fun v1745 => decidable_of_iff' _ (Iff.of_eq (k0_chk188.eq_1 v1745))
theorem k0_off376_inb : ∀ (v1745 : BitVec 32) (k0_hw188 : k0_chk188 v1745), ∀ a, (k0_off376 v1745) a + S1x4096.size a ≤ S128x8192.size a := fun v1745 k0_hw188 => k0_hw188

def k0_off377 (i : grid0.Coords) : Fin 1 → Nat :=
  let arg0 : BitVec 32 := BitVec.ofNat 32 (i 0).val
  let c128_i32 : BitVec 32 := 128#32
  let v0 : BitVec 32 := Scalar.muli arg0 c128_i32
  let c60_i32_837 : BitVec 32 := 60#32
  let v1752 : BitVec 32 := Scalar.addi v0 c60_i32_837
  let v1753 : Index := Scalar.indexCast v1752
  ![v1753.toNat]
def k0_off378 (v1754 : BitVec 32) : Fin 2 → Nat :=
  let c60_i32_838 : BitVec 32 := 60#32
  ![60, v1754.toNat]

def k0_chk189 (v1754 : BitVec 32) : Prop :=
  (∀ a, (k0_off378 v1754) a + S1x4096.size a ≤ S128x8192.size a)
instance k0_chk189.dec : ∀ (v1754 : BitVec 32), Decidable (k0_chk189 v1754) := fun v1754 => decidable_of_iff' _ (Iff.of_eq (k0_chk189.eq_1 v1754))
theorem k0_off378_inb : ∀ (v1754 : BitVec 32) (k0_hw189 : k0_chk189 v1754), ∀ a, (k0_off378 v1754) a + S1x4096.size a ≤ S128x8192.size a := fun v1754 k0_hw189 => k0_hw189

def k0_off379 (i : grid0.Coords) : Fin 1 → Nat :=
  let arg0 : BitVec 32 := BitVec.ofNat 32 (i 0).val
  let c128_i32 : BitVec 32 := 128#32
  let v0 : BitVec 32 := Scalar.muli arg0 c128_i32
  let c61_i32_842 : BitVec 32 := 61#32
  let v1761 : BitVec 32 := Scalar.addi v0 c61_i32_842
  let v1762 : Index := Scalar.indexCast v1761
  ![v1762.toNat]
def k0_off380 (v1763 : BitVec 32) : Fin 2 → Nat :=
  let c61_i32_843 : BitVec 32 := 61#32
  ![61, v1763.toNat]

def k0_chk190 (v1763 : BitVec 32) : Prop :=
  (∀ a, (k0_off380 v1763) a + S1x4096.size a ≤ S128x8192.size a)
instance k0_chk190.dec : ∀ (v1763 : BitVec 32), Decidable (k0_chk190 v1763) := fun v1763 => decidable_of_iff' _ (Iff.of_eq (k0_chk190.eq_1 v1763))
theorem k0_off380_inb : ∀ (v1763 : BitVec 32) (k0_hw190 : k0_chk190 v1763), ∀ a, (k0_off380 v1763) a + S1x4096.size a ≤ S128x8192.size a := fun v1763 k0_hw190 => k0_hw190

def k0_off381 (i : grid0.Coords) : Fin 1 → Nat :=
  let arg0 : BitVec 32 := BitVec.ofNat 32 (i 0).val
  let c128_i32 : BitVec 32 := 128#32
  let v0 : BitVec 32 := Scalar.muli arg0 c128_i32
  let c62_i32_847 : BitVec 32 := 62#32
  let v1770 : BitVec 32 := Scalar.addi v0 c62_i32_847
  let v1771 : Index := Scalar.indexCast v1770
  ![v1771.toNat]
def k0_off382 (v1772 : BitVec 32) : Fin 2 → Nat :=
  let c62_i32_848 : BitVec 32 := 62#32
  ![62, v1772.toNat]

def k0_chk191 (v1772 : BitVec 32) : Prop :=
  (∀ a, (k0_off382 v1772) a + S1x4096.size a ≤ S128x8192.size a)
instance k0_chk191.dec : ∀ (v1772 : BitVec 32), Decidable (k0_chk191 v1772) := fun v1772 => decidable_of_iff' _ (Iff.of_eq (k0_chk191.eq_1 v1772))
theorem k0_off382_inb : ∀ (v1772 : BitVec 32) (k0_hw191 : k0_chk191 v1772), ∀ a, (k0_off382 v1772) a + S1x4096.size a ≤ S128x8192.size a := fun v1772 k0_hw191 => k0_hw191

def k0_off383 (i : grid0.Coords) : Fin 1 → Nat :=
  let arg0 : BitVec 32 := BitVec.ofNat 32 (i 0).val
  let c128_i32 : BitVec 32 := 128#32
  let v0 : BitVec 32 := Scalar.muli arg0 c128_i32
  let c63_i32_852 : BitVec 32 := 63#32
  let v1779 : BitVec 32 := Scalar.addi v0 c63_i32_852
  let v1780 : Index := Scalar.indexCast v1779
  ![v1780.toNat]
def k0_off384 (v1781 : BitVec 32) : Fin 2 → Nat :=
  let c63_i32_853 : BitVec 32 := 63#32
  ![63, v1781.toNat]

def k0_chk192 (v1781 : BitVec 32) : Prop :=
  (∀ a, (k0_off384 v1781) a + S1x4096.size a ≤ S128x8192.size a)
instance k0_chk192.dec : ∀ (v1781 : BitVec 32), Decidable (k0_chk192 v1781) := fun v1781 => decidable_of_iff' _ (Iff.of_eq (k0_chk192.eq_1 v1781))
theorem k0_off384_inb : ∀ (v1781 : BitVec 32) (k0_hw192 : k0_chk192 v1781), ∀ a, (k0_off384 v1781) a + S1x4096.size a ≤ S128x8192.size a := fun v1781 k0_hw192 => k0_hw192

def k0_off385 (i : grid0.Coords) : Fin 1 → Nat :=
  let arg0 : BitVec 32 := BitVec.ofNat 32 (i 0).val
  let c128_i32 : BitVec 32 := 128#32
  let v0 : BitVec 32 := Scalar.muli arg0 c128_i32
  let c64_i32_857 : BitVec 32 := 64#32
  let v1788 : BitVec 32 := Scalar.addi v0 c64_i32_857
  let v1789 : Index := Scalar.indexCast v1788
  ![v1789.toNat]
def k0_off386 (v1790 : BitVec 32) : Fin 2 → Nat :=
  let c64_i32_858 : BitVec 32 := 64#32
  ![64, v1790.toNat]

def k0_chk193 (v1790 : BitVec 32) : Prop :=
  (∀ a, (k0_off386 v1790) a + S1x4096.size a ≤ S128x8192.size a)
instance k0_chk193.dec : ∀ (v1790 : BitVec 32), Decidable (k0_chk193 v1790) := fun v1790 => decidable_of_iff' _ (Iff.of_eq (k0_chk193.eq_1 v1790))
theorem k0_off386_inb : ∀ (v1790 : BitVec 32) (k0_hw193 : k0_chk193 v1790), ∀ a, (k0_off386 v1790) a + S1x4096.size a ≤ S128x8192.size a := fun v1790 k0_hw193 => k0_hw193

def k0_off387 (i : grid0.Coords) : Fin 1 → Nat :=
  let arg0 : BitVec 32 := BitVec.ofNat 32 (i 0).val
  let c128_i32 : BitVec 32 := 128#32
  let v0 : BitVec 32 := Scalar.muli arg0 c128_i32
  let c65_i32_862 : BitVec 32 := 65#32
  let v1797 : BitVec 32 := Scalar.addi v0 c65_i32_862
  let v1798 : Index := Scalar.indexCast v1797
  ![v1798.toNat]
def k0_off388 (v1799 : BitVec 32) : Fin 2 → Nat :=
  let c65_i32_863 : BitVec 32 := 65#32
  ![65, v1799.toNat]

def k0_chk194 (v1799 : BitVec 32) : Prop :=
  (∀ a, (k0_off388 v1799) a + S1x4096.size a ≤ S128x8192.size a)
instance k0_chk194.dec : ∀ (v1799 : BitVec 32), Decidable (k0_chk194 v1799) := fun v1799 => decidable_of_iff' _ (Iff.of_eq (k0_chk194.eq_1 v1799))
theorem k0_off388_inb : ∀ (v1799 : BitVec 32) (k0_hw194 : k0_chk194 v1799), ∀ a, (k0_off388 v1799) a + S1x4096.size a ≤ S128x8192.size a := fun v1799 k0_hw194 => k0_hw194

def k0_off389 (i : grid0.Coords) : Fin 1 → Nat :=
  let arg0 : BitVec 32 := BitVec.ofNat 32 (i 0).val
  let c128_i32 : BitVec 32 := 128#32
  let v0 : BitVec 32 := Scalar.muli arg0 c128_i32
  let c66_i32_867 : BitVec 32 := 66#32
  let v1806 : BitVec 32 := Scalar.addi v0 c66_i32_867
  let v1807 : Index := Scalar.indexCast v1806
  ![v1807.toNat]
def k0_off390 (v1808 : BitVec 32) : Fin 2 → Nat :=
  let c66_i32_868 : BitVec 32 := 66#32
  ![66, v1808.toNat]

def k0_chk195 (v1808 : BitVec 32) : Prop :=
  (∀ a, (k0_off390 v1808) a + S1x4096.size a ≤ S128x8192.size a)
instance k0_chk195.dec : ∀ (v1808 : BitVec 32), Decidable (k0_chk195 v1808) := fun v1808 => decidable_of_iff' _ (Iff.of_eq (k0_chk195.eq_1 v1808))
theorem k0_off390_inb : ∀ (v1808 : BitVec 32) (k0_hw195 : k0_chk195 v1808), ∀ a, (k0_off390 v1808) a + S1x4096.size a ≤ S128x8192.size a := fun v1808 k0_hw195 => k0_hw195

def k0_off391 (i : grid0.Coords) : Fin 1 → Nat :=
  let arg0 : BitVec 32 := BitVec.ofNat 32 (i 0).val
  let c128_i32 : BitVec 32 := 128#32
  let v0 : BitVec 32 := Scalar.muli arg0 c128_i32
  let c67_i32_872 : BitVec 32 := 67#32
  let v1815 : BitVec 32 := Scalar.addi v0 c67_i32_872
  let v1816 : Index := Scalar.indexCast v1815
  ![v1816.toNat]
def k0_off392 (v1817 : BitVec 32) : Fin 2 → Nat :=
  let c67_i32_873 : BitVec 32 := 67#32
  ![67, v1817.toNat]

def k0_chk196 (v1817 : BitVec 32) : Prop :=
  (∀ a, (k0_off392 v1817) a + S1x4096.size a ≤ S128x8192.size a)
instance k0_chk196.dec : ∀ (v1817 : BitVec 32), Decidable (k0_chk196 v1817) := fun v1817 => decidable_of_iff' _ (Iff.of_eq (k0_chk196.eq_1 v1817))
theorem k0_off392_inb : ∀ (v1817 : BitVec 32) (k0_hw196 : k0_chk196 v1817), ∀ a, (k0_off392 v1817) a + S1x4096.size a ≤ S128x8192.size a := fun v1817 k0_hw196 => k0_hw196

def k0_off393 (i : grid0.Coords) : Fin 1 → Nat :=
  let arg0 : BitVec 32 := BitVec.ofNat 32 (i 0).val
  let c128_i32 : BitVec 32 := 128#32
  let v0 : BitVec 32 := Scalar.muli arg0 c128_i32
  let c68_i32_877 : BitVec 32 := 68#32
  let v1824 : BitVec 32 := Scalar.addi v0 c68_i32_877
  let v1825 : Index := Scalar.indexCast v1824
  ![v1825.toNat]
def k0_off394 (v1826 : BitVec 32) : Fin 2 → Nat :=
  let c68_i32_878 : BitVec 32 := 68#32
  ![68, v1826.toNat]

def k0_chk197 (v1826 : BitVec 32) : Prop :=
  (∀ a, (k0_off394 v1826) a + S1x4096.size a ≤ S128x8192.size a)
instance k0_chk197.dec : ∀ (v1826 : BitVec 32), Decidable (k0_chk197 v1826) := fun v1826 => decidable_of_iff' _ (Iff.of_eq (k0_chk197.eq_1 v1826))
theorem k0_off394_inb : ∀ (v1826 : BitVec 32) (k0_hw197 : k0_chk197 v1826), ∀ a, (k0_off394 v1826) a + S1x4096.size a ≤ S128x8192.size a := fun v1826 k0_hw197 => k0_hw197

def k0_off395 (i : grid0.Coords) : Fin 1 → Nat :=
  let arg0 : BitVec 32 := BitVec.ofNat 32 (i 0).val
  let c128_i32 : BitVec 32 := 128#32
  let v0 : BitVec 32 := Scalar.muli arg0 c128_i32
  let c69_i32_882 : BitVec 32 := 69#32
  let v1833 : BitVec 32 := Scalar.addi v0 c69_i32_882
  let v1834 : Index := Scalar.indexCast v1833
  ![v1834.toNat]
def k0_off396 (v1835 : BitVec 32) : Fin 2 → Nat :=
  let c69_i32_883 : BitVec 32 := 69#32
  ![69, v1835.toNat]

def k0_chk198 (v1835 : BitVec 32) : Prop :=
  (∀ a, (k0_off396 v1835) a + S1x4096.size a ≤ S128x8192.size a)
instance k0_chk198.dec : ∀ (v1835 : BitVec 32), Decidable (k0_chk198 v1835) := fun v1835 => decidable_of_iff' _ (Iff.of_eq (k0_chk198.eq_1 v1835))
theorem k0_off396_inb : ∀ (v1835 : BitVec 32) (k0_hw198 : k0_chk198 v1835), ∀ a, (k0_off396 v1835) a + S1x4096.size a ≤ S128x8192.size a := fun v1835 k0_hw198 => k0_hw198

def k0_off397 (i : grid0.Coords) : Fin 1 → Nat :=
  let arg0 : BitVec 32 := BitVec.ofNat 32 (i 0).val
  let c128_i32 : BitVec 32 := 128#32
  let v0 : BitVec 32 := Scalar.muli arg0 c128_i32
  let c70_i32_887 : BitVec 32 := 70#32
  let v1842 : BitVec 32 := Scalar.addi v0 c70_i32_887
  let v1843 : Index := Scalar.indexCast v1842
  ![v1843.toNat]
def k0_off398 (v1844 : BitVec 32) : Fin 2 → Nat :=
  let c70_i32_888 : BitVec 32 := 70#32
  ![70, v1844.toNat]

def k0_chk199 (v1844 : BitVec 32) : Prop :=
  (∀ a, (k0_off398 v1844) a + S1x4096.size a ≤ S128x8192.size a)
instance k0_chk199.dec : ∀ (v1844 : BitVec 32), Decidable (k0_chk199 v1844) := fun v1844 => decidable_of_iff' _ (Iff.of_eq (k0_chk199.eq_1 v1844))
theorem k0_off398_inb : ∀ (v1844 : BitVec 32) (k0_hw199 : k0_chk199 v1844), ∀ a, (k0_off398 v1844) a + S1x4096.size a ≤ S128x8192.size a := fun v1844 k0_hw199 => k0_hw199

def k0_off399 (i : grid0.Coords) : Fin 1 → Nat :=
  let arg0 : BitVec 32 := BitVec.ofNat 32 (i 0).val
  let c128_i32 : BitVec 32 := 128#32
  let v0 : BitVec 32 := Scalar.muli arg0 c128_i32
  let c71_i32_892 : BitVec 32 := 71#32
  let v1851 : BitVec 32 := Scalar.addi v0 c71_i32_892
  let v1852 : Index := Scalar.indexCast v1851
  ![v1852.toNat]
def k0_off400 (v1853 : BitVec 32) : Fin 2 → Nat :=
  let c71_i32_893 : BitVec 32 := 71#32
  ![71, v1853.toNat]

def k0_chk200 (v1853 : BitVec 32) : Prop :=
  (∀ a, (k0_off400 v1853) a + S1x4096.size a ≤ S128x8192.size a)
instance k0_chk200.dec : ∀ (v1853 : BitVec 32), Decidable (k0_chk200 v1853) := fun v1853 => decidable_of_iff' _ (Iff.of_eq (k0_chk200.eq_1 v1853))
theorem k0_off400_inb : ∀ (v1853 : BitVec 32) (k0_hw200 : k0_chk200 v1853), ∀ a, (k0_off400 v1853) a + S1x4096.size a ≤ S128x8192.size a := fun v1853 k0_hw200 => k0_hw200

def k0_off401 (i : grid0.Coords) : Fin 1 → Nat :=
  let arg0 : BitVec 32 := BitVec.ofNat 32 (i 0).val
  let c128_i32 : BitVec 32 := 128#32
  let v0 : BitVec 32 := Scalar.muli arg0 c128_i32
  let c72_i32_897 : BitVec 32 := 72#32
  let v1860 : BitVec 32 := Scalar.addi v0 c72_i32_897
  let v1861 : Index := Scalar.indexCast v1860
  ![v1861.toNat]
def k0_off402 (v1862 : BitVec 32) : Fin 2 → Nat :=
  let c72_i32_898 : BitVec 32 := 72#32
  ![72, v1862.toNat]

def k0_chk201 (v1862 : BitVec 32) : Prop :=
  (∀ a, (k0_off402 v1862) a + S1x4096.size a ≤ S128x8192.size a)
instance k0_chk201.dec : ∀ (v1862 : BitVec 32), Decidable (k0_chk201 v1862) := fun v1862 => decidable_of_iff' _ (Iff.of_eq (k0_chk201.eq_1 v1862))
theorem k0_off402_inb : ∀ (v1862 : BitVec 32) (k0_hw201 : k0_chk201 v1862), ∀ a, (k0_off402 v1862) a + S1x4096.size a ≤ S128x8192.size a := fun v1862 k0_hw201 => k0_hw201

def k0_off403 (i : grid0.Coords) : Fin 1 → Nat :=
  let arg0 : BitVec 32 := BitVec.ofNat 32 (i 0).val
  let c128_i32 : BitVec 32 := 128#32
  let v0 : BitVec 32 := Scalar.muli arg0 c128_i32
  let c73_i32_902 : BitVec 32 := 73#32
  let v1869 : BitVec 32 := Scalar.addi v0 c73_i32_902
  let v1870 : Index := Scalar.indexCast v1869
  ![v1870.toNat]
def k0_off404 (v1871 : BitVec 32) : Fin 2 → Nat :=
  let c73_i32_903 : BitVec 32 := 73#32
  ![73, v1871.toNat]

def k0_chk202 (v1871 : BitVec 32) : Prop :=
  (∀ a, (k0_off404 v1871) a + S1x4096.size a ≤ S128x8192.size a)
instance k0_chk202.dec : ∀ (v1871 : BitVec 32), Decidable (k0_chk202 v1871) := fun v1871 => decidable_of_iff' _ (Iff.of_eq (k0_chk202.eq_1 v1871))
theorem k0_off404_inb : ∀ (v1871 : BitVec 32) (k0_hw202 : k0_chk202 v1871), ∀ a, (k0_off404 v1871) a + S1x4096.size a ≤ S128x8192.size a := fun v1871 k0_hw202 => k0_hw202

def k0_off405 (i : grid0.Coords) : Fin 1 → Nat :=
  let arg0 : BitVec 32 := BitVec.ofNat 32 (i 0).val
  let c128_i32 : BitVec 32 := 128#32
  let v0 : BitVec 32 := Scalar.muli arg0 c128_i32
  let c74_i32_907 : BitVec 32 := 74#32
  let v1878 : BitVec 32 := Scalar.addi v0 c74_i32_907
  let v1879 : Index := Scalar.indexCast v1878
  ![v1879.toNat]
def k0_off406 (v1880 : BitVec 32) : Fin 2 → Nat :=
  let c74_i32_908 : BitVec 32 := 74#32
  ![74, v1880.toNat]

def k0_chk203 (v1880 : BitVec 32) : Prop :=
  (∀ a, (k0_off406 v1880) a + S1x4096.size a ≤ S128x8192.size a)
instance k0_chk203.dec : ∀ (v1880 : BitVec 32), Decidable (k0_chk203 v1880) := fun v1880 => decidable_of_iff' _ (Iff.of_eq (k0_chk203.eq_1 v1880))
theorem k0_off406_inb : ∀ (v1880 : BitVec 32) (k0_hw203 : k0_chk203 v1880), ∀ a, (k0_off406 v1880) a + S1x4096.size a ≤ S128x8192.size a := fun v1880 k0_hw203 => k0_hw203

def k0_off407 (i : grid0.Coords) : Fin 1 → Nat :=
  let arg0 : BitVec 32 := BitVec.ofNat 32 (i 0).val
  let c128_i32 : BitVec 32 := 128#32
  let v0 : BitVec 32 := Scalar.muli arg0 c128_i32
  let c75_i32_912 : BitVec 32 := 75#32
  let v1887 : BitVec 32 := Scalar.addi v0 c75_i32_912
  let v1888 : Index := Scalar.indexCast v1887
  ![v1888.toNat]
def k0_off408 (v1889 : BitVec 32) : Fin 2 → Nat :=
  let c75_i32_913 : BitVec 32 := 75#32
  ![75, v1889.toNat]

def k0_chk204 (v1889 : BitVec 32) : Prop :=
  (∀ a, (k0_off408 v1889) a + S1x4096.size a ≤ S128x8192.size a)
instance k0_chk204.dec : ∀ (v1889 : BitVec 32), Decidable (k0_chk204 v1889) := fun v1889 => decidable_of_iff' _ (Iff.of_eq (k0_chk204.eq_1 v1889))
theorem k0_off408_inb : ∀ (v1889 : BitVec 32) (k0_hw204 : k0_chk204 v1889), ∀ a, (k0_off408 v1889) a + S1x4096.size a ≤ S128x8192.size a := fun v1889 k0_hw204 => k0_hw204

def k0_off409 (i : grid0.Coords) : Fin 1 → Nat :=
  let arg0 : BitVec 32 := BitVec.ofNat 32 (i 0).val
  let c128_i32 : BitVec 32 := 128#32
  let v0 : BitVec 32 := Scalar.muli arg0 c128_i32
  let c76_i32_917 : BitVec 32 := 76#32
  let v1896 : BitVec 32 := Scalar.addi v0 c76_i32_917
  let v1897 : Index := Scalar.indexCast v1896
  ![v1897.toNat]
def k0_off410 (v1898 : BitVec 32) : Fin 2 → Nat :=
  let c76_i32_918 : BitVec 32 := 76#32
  ![76, v1898.toNat]

def k0_chk205 (v1898 : BitVec 32) : Prop :=
  (∀ a, (k0_off410 v1898) a + S1x4096.size a ≤ S128x8192.size a)
instance k0_chk205.dec : ∀ (v1898 : BitVec 32), Decidable (k0_chk205 v1898) := fun v1898 => decidable_of_iff' _ (Iff.of_eq (k0_chk205.eq_1 v1898))
theorem k0_off410_inb : ∀ (v1898 : BitVec 32) (k0_hw205 : k0_chk205 v1898), ∀ a, (k0_off410 v1898) a + S1x4096.size a ≤ S128x8192.size a := fun v1898 k0_hw205 => k0_hw205

def k0_off411 (i : grid0.Coords) : Fin 1 → Nat :=
  let arg0 : BitVec 32 := BitVec.ofNat 32 (i 0).val
  let c128_i32 : BitVec 32 := 128#32
  let v0 : BitVec 32 := Scalar.muli arg0 c128_i32
  let c77_i32_922 : BitVec 32 := 77#32
  let v1905 : BitVec 32 := Scalar.addi v0 c77_i32_922
  let v1906 : Index := Scalar.indexCast v1905
  ![v1906.toNat]
def k0_off412 (v1907 : BitVec 32) : Fin 2 → Nat :=
  let c77_i32_923 : BitVec 32 := 77#32
  ![77, v1907.toNat]

def k0_chk206 (v1907 : BitVec 32) : Prop :=
  (∀ a, (k0_off412 v1907) a + S1x4096.size a ≤ S128x8192.size a)
instance k0_chk206.dec : ∀ (v1907 : BitVec 32), Decidable (k0_chk206 v1907) := fun v1907 => decidable_of_iff' _ (Iff.of_eq (k0_chk206.eq_1 v1907))
theorem k0_off412_inb : ∀ (v1907 : BitVec 32) (k0_hw206 : k0_chk206 v1907), ∀ a, (k0_off412 v1907) a + S1x4096.size a ≤ S128x8192.size a := fun v1907 k0_hw206 => k0_hw206

def k0_off413 (i : grid0.Coords) : Fin 1 → Nat :=
  let arg0 : BitVec 32 := BitVec.ofNat 32 (i 0).val
  let c128_i32 : BitVec 32 := 128#32
  let v0 : BitVec 32 := Scalar.muli arg0 c128_i32
  let c78_i32_927 : BitVec 32 := 78#32
  let v1914 : BitVec 32 := Scalar.addi v0 c78_i32_927
  let v1915 : Index := Scalar.indexCast v1914
  ![v1915.toNat]
def k0_off414 (v1916 : BitVec 32) : Fin 2 → Nat :=
  let c78_i32_928 : BitVec 32 := 78#32
  ![78, v1916.toNat]

def k0_chk207 (v1916 : BitVec 32) : Prop :=
  (∀ a, (k0_off414 v1916) a + S1x4096.size a ≤ S128x8192.size a)
instance k0_chk207.dec : ∀ (v1916 : BitVec 32), Decidable (k0_chk207 v1916) := fun v1916 => decidable_of_iff' _ (Iff.of_eq (k0_chk207.eq_1 v1916))
theorem k0_off414_inb : ∀ (v1916 : BitVec 32) (k0_hw207 : k0_chk207 v1916), ∀ a, (k0_off414 v1916) a + S1x4096.size a ≤ S128x8192.size a := fun v1916 k0_hw207 => k0_hw207

def k0_off415 (i : grid0.Coords) : Fin 1 → Nat :=
  let arg0 : BitVec 32 := BitVec.ofNat 32 (i 0).val
  let c128_i32 : BitVec 32 := 128#32
  let v0 : BitVec 32 := Scalar.muli arg0 c128_i32
  let c79_i32_932 : BitVec 32 := 79#32
  let v1923 : BitVec 32 := Scalar.addi v0 c79_i32_932
  let v1924 : Index := Scalar.indexCast v1923
  ![v1924.toNat]
def k0_off416 (v1925 : BitVec 32) : Fin 2 → Nat :=
  let c79_i32_933 : BitVec 32 := 79#32
  ![79, v1925.toNat]

def k0_chk208 (v1925 : BitVec 32) : Prop :=
  (∀ a, (k0_off416 v1925) a + S1x4096.size a ≤ S128x8192.size a)
instance k0_chk208.dec : ∀ (v1925 : BitVec 32), Decidable (k0_chk208 v1925) := fun v1925 => decidable_of_iff' _ (Iff.of_eq (k0_chk208.eq_1 v1925))
theorem k0_off416_inb : ∀ (v1925 : BitVec 32) (k0_hw208 : k0_chk208 v1925), ∀ a, (k0_off416 v1925) a + S1x4096.size a ≤ S128x8192.size a := fun v1925 k0_hw208 => k0_hw208

def k0_off417 (i : grid0.Coords) : Fin 1 → Nat :=
  let arg0 : BitVec 32 := BitVec.ofNat 32 (i 0).val
  let c128_i32 : BitVec 32 := 128#32
  let v0 : BitVec 32 := Scalar.muli arg0 c128_i32
  let c80_i32_937 : BitVec 32 := 80#32
  let v1932 : BitVec 32 := Scalar.addi v0 c80_i32_937
  let v1933 : Index := Scalar.indexCast v1932
  ![v1933.toNat]
def k0_off418 (v1934 : BitVec 32) : Fin 2 → Nat :=
  let c80_i32_938 : BitVec 32 := 80#32
  ![80, v1934.toNat]

def k0_chk209 (v1934 : BitVec 32) : Prop :=
  (∀ a, (k0_off418 v1934) a + S1x4096.size a ≤ S128x8192.size a)
instance k0_chk209.dec : ∀ (v1934 : BitVec 32), Decidable (k0_chk209 v1934) := fun v1934 => decidable_of_iff' _ (Iff.of_eq (k0_chk209.eq_1 v1934))
theorem k0_off418_inb : ∀ (v1934 : BitVec 32) (k0_hw209 : k0_chk209 v1934), ∀ a, (k0_off418 v1934) a + S1x4096.size a ≤ S128x8192.size a := fun v1934 k0_hw209 => k0_hw209

def k0_off419 (i : grid0.Coords) : Fin 1 → Nat :=
  let arg0 : BitVec 32 := BitVec.ofNat 32 (i 0).val
  let c128_i32 : BitVec 32 := 128#32
  let v0 : BitVec 32 := Scalar.muli arg0 c128_i32
  let c81_i32_942 : BitVec 32 := 81#32
  let v1941 : BitVec 32 := Scalar.addi v0 c81_i32_942
  let v1942 : Index := Scalar.indexCast v1941
  ![v1942.toNat]
def k0_off420 (v1943 : BitVec 32) : Fin 2 → Nat :=
  let c81_i32_943 : BitVec 32 := 81#32
  ![81, v1943.toNat]

def k0_chk210 (v1943 : BitVec 32) : Prop :=
  (∀ a, (k0_off420 v1943) a + S1x4096.size a ≤ S128x8192.size a)
instance k0_chk210.dec : ∀ (v1943 : BitVec 32), Decidable (k0_chk210 v1943) := fun v1943 => decidable_of_iff' _ (Iff.of_eq (k0_chk210.eq_1 v1943))
theorem k0_off420_inb : ∀ (v1943 : BitVec 32) (k0_hw210 : k0_chk210 v1943), ∀ a, (k0_off420 v1943) a + S1x4096.size a ≤ S128x8192.size a := fun v1943 k0_hw210 => k0_hw210

def k0_off421 (i : grid0.Coords) : Fin 1 → Nat :=
  let arg0 : BitVec 32 := BitVec.ofNat 32 (i 0).val
  let c128_i32 : BitVec 32 := 128#32
  let v0 : BitVec 32 := Scalar.muli arg0 c128_i32
  let c82_i32_947 : BitVec 32 := 82#32
  let v1950 : BitVec 32 := Scalar.addi v0 c82_i32_947
  let v1951 : Index := Scalar.indexCast v1950
  ![v1951.toNat]
def k0_off422 (v1952 : BitVec 32) : Fin 2 → Nat :=
  let c82_i32_948 : BitVec 32 := 82#32
  ![82, v1952.toNat]

def k0_chk211 (v1952 : BitVec 32) : Prop :=
  (∀ a, (k0_off422 v1952) a + S1x4096.size a ≤ S128x8192.size a)
instance k0_chk211.dec : ∀ (v1952 : BitVec 32), Decidable (k0_chk211 v1952) := fun v1952 => decidable_of_iff' _ (Iff.of_eq (k0_chk211.eq_1 v1952))
theorem k0_off422_inb : ∀ (v1952 : BitVec 32) (k0_hw211 : k0_chk211 v1952), ∀ a, (k0_off422 v1952) a + S1x4096.size a ≤ S128x8192.size a := fun v1952 k0_hw211 => k0_hw211

def k0_off423 (i : grid0.Coords) : Fin 1 → Nat :=
  let arg0 : BitVec 32 := BitVec.ofNat 32 (i 0).val
  let c128_i32 : BitVec 32 := 128#32
  let v0 : BitVec 32 := Scalar.muli arg0 c128_i32
  let c83_i32_952 : BitVec 32 := 83#32
  let v1959 : BitVec 32 := Scalar.addi v0 c83_i32_952
  let v1960 : Index := Scalar.indexCast v1959
  ![v1960.toNat]
def k0_off424 (v1961 : BitVec 32) : Fin 2 → Nat :=
  let c83_i32_953 : BitVec 32 := 83#32
  ![83, v1961.toNat]

def k0_chk212 (v1961 : BitVec 32) : Prop :=
  (∀ a, (k0_off424 v1961) a + S1x4096.size a ≤ S128x8192.size a)
instance k0_chk212.dec : ∀ (v1961 : BitVec 32), Decidable (k0_chk212 v1961) := fun v1961 => decidable_of_iff' _ (Iff.of_eq (k0_chk212.eq_1 v1961))
theorem k0_off424_inb : ∀ (v1961 : BitVec 32) (k0_hw212 : k0_chk212 v1961), ∀ a, (k0_off424 v1961) a + S1x4096.size a ≤ S128x8192.size a := fun v1961 k0_hw212 => k0_hw212

def k0_off425 (i : grid0.Coords) : Fin 1 → Nat :=
  let arg0 : BitVec 32 := BitVec.ofNat 32 (i 0).val
  let c128_i32 : BitVec 32 := 128#32
  let v0 : BitVec 32 := Scalar.muli arg0 c128_i32
  let c84_i32_957 : BitVec 32 := 84#32
  let v1968 : BitVec 32 := Scalar.addi v0 c84_i32_957
  let v1969 : Index := Scalar.indexCast v1968
  ![v1969.toNat]
def k0_off426 (v1970 : BitVec 32) : Fin 2 → Nat :=
  let c84_i32_958 : BitVec 32 := 84#32
  ![84, v1970.toNat]

def k0_chk213 (v1970 : BitVec 32) : Prop :=
  (∀ a, (k0_off426 v1970) a + S1x4096.size a ≤ S128x8192.size a)
instance k0_chk213.dec : ∀ (v1970 : BitVec 32), Decidable (k0_chk213 v1970) := fun v1970 => decidable_of_iff' _ (Iff.of_eq (k0_chk213.eq_1 v1970))
theorem k0_off426_inb : ∀ (v1970 : BitVec 32) (k0_hw213 : k0_chk213 v1970), ∀ a, (k0_off426 v1970) a + S1x4096.size a ≤ S128x8192.size a := fun v1970 k0_hw213 => k0_hw213

def k0_off427 (i : grid0.Coords) : Fin 1 → Nat :=
  let arg0 : BitVec 32 := BitVec.ofNat 32 (i 0).val
  let c128_i32 : BitVec 32 := 128#32
  let v0 : BitVec 32 := Scalar.muli arg0 c128_i32
  let c85_i32_962 : BitVec 32 := 85#32
  let v1977 : BitVec 32 := Scalar.addi v0 c85_i32_962
  let v1978 : Index := Scalar.indexCast v1977
  ![v1978.toNat]
def k0_off428 (v1979 : BitVec 32) : Fin 2 → Nat :=
  let c85_i32_963 : BitVec 32 := 85#32
  ![85, v1979.toNat]

def k0_chk214 (v1979 : BitVec 32) : Prop :=
  (∀ a, (k0_off428 v1979) a + S1x4096.size a ≤ S128x8192.size a)
instance k0_chk214.dec : ∀ (v1979 : BitVec 32), Decidable (k0_chk214 v1979) := fun v1979 => decidable_of_iff' _ (Iff.of_eq (k0_chk214.eq_1 v1979))
theorem k0_off428_inb : ∀ (v1979 : BitVec 32) (k0_hw214 : k0_chk214 v1979), ∀ a, (k0_off428 v1979) a + S1x4096.size a ≤ S128x8192.size a := fun v1979 k0_hw214 => k0_hw214

def k0_off429 (i : grid0.Coords) : Fin 1 → Nat :=
  let arg0 : BitVec 32 := BitVec.ofNat 32 (i 0).val
  let c128_i32 : BitVec 32 := 128#32
  let v0 : BitVec 32 := Scalar.muli arg0 c128_i32
  let c86_i32_967 : BitVec 32 := 86#32
  let v1986 : BitVec 32 := Scalar.addi v0 c86_i32_967
  let v1987 : Index := Scalar.indexCast v1986
  ![v1987.toNat]
def k0_off430 (v1988 : BitVec 32) : Fin 2 → Nat :=
  let c86_i32_968 : BitVec 32 := 86#32
  ![86, v1988.toNat]

def k0_chk215 (v1988 : BitVec 32) : Prop :=
  (∀ a, (k0_off430 v1988) a + S1x4096.size a ≤ S128x8192.size a)
instance k0_chk215.dec : ∀ (v1988 : BitVec 32), Decidable (k0_chk215 v1988) := fun v1988 => decidable_of_iff' _ (Iff.of_eq (k0_chk215.eq_1 v1988))
theorem k0_off430_inb : ∀ (v1988 : BitVec 32) (k0_hw215 : k0_chk215 v1988), ∀ a, (k0_off430 v1988) a + S1x4096.size a ≤ S128x8192.size a := fun v1988 k0_hw215 => k0_hw215

def k0_off431 (i : grid0.Coords) : Fin 1 → Nat :=
  let arg0 : BitVec 32 := BitVec.ofNat 32 (i 0).val
  let c128_i32 : BitVec 32 := 128#32
  let v0 : BitVec 32 := Scalar.muli arg0 c128_i32
  let c87_i32_972 : BitVec 32 := 87#32
  let v1995 : BitVec 32 := Scalar.addi v0 c87_i32_972
  let v1996 : Index := Scalar.indexCast v1995
  ![v1996.toNat]
def k0_off432 (v1997 : BitVec 32) : Fin 2 → Nat :=
  let c87_i32_973 : BitVec 32 := 87#32
  ![87, v1997.toNat]

def k0_chk216 (v1997 : BitVec 32) : Prop :=
  (∀ a, (k0_off432 v1997) a + S1x4096.size a ≤ S128x8192.size a)
instance k0_chk216.dec : ∀ (v1997 : BitVec 32), Decidable (k0_chk216 v1997) := fun v1997 => decidable_of_iff' _ (Iff.of_eq (k0_chk216.eq_1 v1997))
theorem k0_off432_inb : ∀ (v1997 : BitVec 32) (k0_hw216 : k0_chk216 v1997), ∀ a, (k0_off432 v1997) a + S1x4096.size a ≤ S128x8192.size a := fun v1997 k0_hw216 => k0_hw216

def k0_off433 (i : grid0.Coords) : Fin 1 → Nat :=
  let arg0 : BitVec 32 := BitVec.ofNat 32 (i 0).val
  let c128_i32 : BitVec 32 := 128#32
  let v0 : BitVec 32 := Scalar.muli arg0 c128_i32
  let c88_i32_977 : BitVec 32 := 88#32
  let v2004 : BitVec 32 := Scalar.addi v0 c88_i32_977
  let v2005 : Index := Scalar.indexCast v2004
  ![v2005.toNat]
def k0_off434 (v2006 : BitVec 32) : Fin 2 → Nat :=
  let c88_i32_978 : BitVec 32 := 88#32
  ![88, v2006.toNat]

def k0_chk217 (v2006 : BitVec 32) : Prop :=
  (∀ a, (k0_off434 v2006) a + S1x4096.size a ≤ S128x8192.size a)
instance k0_chk217.dec : ∀ (v2006 : BitVec 32), Decidable (k0_chk217 v2006) := fun v2006 => decidable_of_iff' _ (Iff.of_eq (k0_chk217.eq_1 v2006))
theorem k0_off434_inb : ∀ (v2006 : BitVec 32) (k0_hw217 : k0_chk217 v2006), ∀ a, (k0_off434 v2006) a + S1x4096.size a ≤ S128x8192.size a := fun v2006 k0_hw217 => k0_hw217

def k0_off435 (i : grid0.Coords) : Fin 1 → Nat :=
  let arg0 : BitVec 32 := BitVec.ofNat 32 (i 0).val
  let c128_i32 : BitVec 32 := 128#32
  let v0 : BitVec 32 := Scalar.muli arg0 c128_i32
  let c89_i32_982 : BitVec 32 := 89#32
  let v2013 : BitVec 32 := Scalar.addi v0 c89_i32_982
  let v2014 : Index := Scalar.indexCast v2013
  ![v2014.toNat]
def k0_off436 (v2015 : BitVec 32) : Fin 2 → Nat :=
  let c89_i32_983 : BitVec 32 := 89#32
  ![89, v2015.toNat]

def k0_chk218 (v2015 : BitVec 32) : Prop :=
  (∀ a, (k0_off436 v2015) a + S1x4096.size a ≤ S128x8192.size a)
instance k0_chk218.dec : ∀ (v2015 : BitVec 32), Decidable (k0_chk218 v2015) := fun v2015 => decidable_of_iff' _ (Iff.of_eq (k0_chk218.eq_1 v2015))
theorem k0_off436_inb : ∀ (v2015 : BitVec 32) (k0_hw218 : k0_chk218 v2015), ∀ a, (k0_off436 v2015) a + S1x4096.size a ≤ S128x8192.size a := fun v2015 k0_hw218 => k0_hw218

def k0_off437 (i : grid0.Coords) : Fin 1 → Nat :=
  let arg0 : BitVec 32 := BitVec.ofNat 32 (i 0).val
  let c128_i32 : BitVec 32 := 128#32
  let v0 : BitVec 32 := Scalar.muli arg0 c128_i32
  let c90_i32_987 : BitVec 32 := 90#32
  let v2022 : BitVec 32 := Scalar.addi v0 c90_i32_987
  let v2023 : Index := Scalar.indexCast v2022
  ![v2023.toNat]
def k0_off438 (v2024 : BitVec 32) : Fin 2 → Nat :=
  let c90_i32_988 : BitVec 32 := 90#32
  ![90, v2024.toNat]

def k0_chk219 (v2024 : BitVec 32) : Prop :=
  (∀ a, (k0_off438 v2024) a + S1x4096.size a ≤ S128x8192.size a)
instance k0_chk219.dec : ∀ (v2024 : BitVec 32), Decidable (k0_chk219 v2024) := fun v2024 => decidable_of_iff' _ (Iff.of_eq (k0_chk219.eq_1 v2024))
theorem k0_off438_inb : ∀ (v2024 : BitVec 32) (k0_hw219 : k0_chk219 v2024), ∀ a, (k0_off438 v2024) a + S1x4096.size a ≤ S128x8192.size a := fun v2024 k0_hw219 => k0_hw219

def k0_off439 (i : grid0.Coords) : Fin 1 → Nat :=
  let arg0 : BitVec 32 := BitVec.ofNat 32 (i 0).val
  let c128_i32 : BitVec 32 := 128#32
  let v0 : BitVec 32 := Scalar.muli arg0 c128_i32
  let c91_i32_992 : BitVec 32 := 91#32
  let v2031 : BitVec 32 := Scalar.addi v0 c91_i32_992
  let v2032 : Index := Scalar.indexCast v2031
  ![v2032.toNat]
def k0_off440 (v2033 : BitVec 32) : Fin 2 → Nat :=
  let c91_i32_993 : BitVec 32 := 91#32
  ![91, v2033.toNat]

def k0_chk220 (v2033 : BitVec 32) : Prop :=
  (∀ a, (k0_off440 v2033) a + S1x4096.size a ≤ S128x8192.size a)
instance k0_chk220.dec : ∀ (v2033 : BitVec 32), Decidable (k0_chk220 v2033) := fun v2033 => decidable_of_iff' _ (Iff.of_eq (k0_chk220.eq_1 v2033))
theorem k0_off440_inb : ∀ (v2033 : BitVec 32) (k0_hw220 : k0_chk220 v2033), ∀ a, (k0_off440 v2033) a + S1x4096.size a ≤ S128x8192.size a := fun v2033 k0_hw220 => k0_hw220

def k0_off441 (i : grid0.Coords) : Fin 1 → Nat :=
  let arg0 : BitVec 32 := BitVec.ofNat 32 (i 0).val
  let c128_i32 : BitVec 32 := 128#32
  let v0 : BitVec 32 := Scalar.muli arg0 c128_i32
  let c92_i32_997 : BitVec 32 := 92#32
  let v2040 : BitVec 32 := Scalar.addi v0 c92_i32_997
  let v2041 : Index := Scalar.indexCast v2040
  ![v2041.toNat]
def k0_off442 (v2042 : BitVec 32) : Fin 2 → Nat :=
  let c92_i32_998 : BitVec 32 := 92#32
  ![92, v2042.toNat]

def k0_chk221 (v2042 : BitVec 32) : Prop :=
  (∀ a, (k0_off442 v2042) a + S1x4096.size a ≤ S128x8192.size a)
instance k0_chk221.dec : ∀ (v2042 : BitVec 32), Decidable (k0_chk221 v2042) := fun v2042 => decidable_of_iff' _ (Iff.of_eq (k0_chk221.eq_1 v2042))
theorem k0_off442_inb : ∀ (v2042 : BitVec 32) (k0_hw221 : k0_chk221 v2042), ∀ a, (k0_off442 v2042) a + S1x4096.size a ≤ S128x8192.size a := fun v2042 k0_hw221 => k0_hw221

def k0_off443 (i : grid0.Coords) : Fin 1 → Nat :=
  let arg0 : BitVec 32 := BitVec.ofNat 32 (i 0).val
  let c128_i32 : BitVec 32 := 128#32
  let v0 : BitVec 32 := Scalar.muli arg0 c128_i32
  let c93_i32_1002 : BitVec 32 := 93#32
  let v2049 : BitVec 32 := Scalar.addi v0 c93_i32_1002
  let v2050 : Index := Scalar.indexCast v2049
  ![v2050.toNat]
def k0_off444 (v2051 : BitVec 32) : Fin 2 → Nat :=
  let c93_i32_1003 : BitVec 32 := 93#32
  ![93, v2051.toNat]

def k0_chk222 (v2051 : BitVec 32) : Prop :=
  (∀ a, (k0_off444 v2051) a + S1x4096.size a ≤ S128x8192.size a)
instance k0_chk222.dec : ∀ (v2051 : BitVec 32), Decidable (k0_chk222 v2051) := fun v2051 => decidable_of_iff' _ (Iff.of_eq (k0_chk222.eq_1 v2051))
theorem k0_off444_inb : ∀ (v2051 : BitVec 32) (k0_hw222 : k0_chk222 v2051), ∀ a, (k0_off444 v2051) a + S1x4096.size a ≤ S128x8192.size a := fun v2051 k0_hw222 => k0_hw222

def k0_off445 (i : grid0.Coords) : Fin 1 → Nat :=
  let arg0 : BitVec 32 := BitVec.ofNat 32 (i 0).val
  let c128_i32 : BitVec 32 := 128#32
  let v0 : BitVec 32 := Scalar.muli arg0 c128_i32
  let c94_i32_1007 : BitVec 32 := 94#32
  let v2058 : BitVec 32 := Scalar.addi v0 c94_i32_1007
  let v2059 : Index := Scalar.indexCast v2058
  ![v2059.toNat]
def k0_off446 (v2060 : BitVec 32) : Fin 2 → Nat :=
  let c94_i32_1008 : BitVec 32 := 94#32
  ![94, v2060.toNat]

def k0_chk223 (v2060 : BitVec 32) : Prop :=
  (∀ a, (k0_off446 v2060) a + S1x4096.size a ≤ S128x8192.size a)
instance k0_chk223.dec : ∀ (v2060 : BitVec 32), Decidable (k0_chk223 v2060) := fun v2060 => decidable_of_iff' _ (Iff.of_eq (k0_chk223.eq_1 v2060))
theorem k0_off446_inb : ∀ (v2060 : BitVec 32) (k0_hw223 : k0_chk223 v2060), ∀ a, (k0_off446 v2060) a + S1x4096.size a ≤ S128x8192.size a := fun v2060 k0_hw223 => k0_hw223

def k0_off447 (i : grid0.Coords) : Fin 1 → Nat :=
  let arg0 : BitVec 32 := BitVec.ofNat 32 (i 0).val
  let c128_i32 : BitVec 32 := 128#32
  let v0 : BitVec 32 := Scalar.muli arg0 c128_i32
  let c95_i32_1012 : BitVec 32 := 95#32
  let v2067 : BitVec 32 := Scalar.addi v0 c95_i32_1012
  let v2068 : Index := Scalar.indexCast v2067
  ![v2068.toNat]
def k0_off448 (v2069 : BitVec 32) : Fin 2 → Nat :=
  let c95_i32_1013 : BitVec 32 := 95#32
  ![95, v2069.toNat]

def k0_chk224 (v2069 : BitVec 32) : Prop :=
  (∀ a, (k0_off448 v2069) a + S1x4096.size a ≤ S128x8192.size a)
instance k0_chk224.dec : ∀ (v2069 : BitVec 32), Decidable (k0_chk224 v2069) := fun v2069 => decidable_of_iff' _ (Iff.of_eq (k0_chk224.eq_1 v2069))
theorem k0_off448_inb : ∀ (v2069 : BitVec 32) (k0_hw224 : k0_chk224 v2069), ∀ a, (k0_off448 v2069) a + S1x4096.size a ≤ S128x8192.size a := fun v2069 k0_hw224 => k0_hw224

def k0_off449 (i : grid0.Coords) : Fin 1 → Nat :=
  let arg0 : BitVec 32 := BitVec.ofNat 32 (i 0).val
  let c128_i32 : BitVec 32 := 128#32
  let v0 : BitVec 32 := Scalar.muli arg0 c128_i32
  let c96_i32_1017 : BitVec 32 := 96#32
  let v2076 : BitVec 32 := Scalar.addi v0 c96_i32_1017
  let v2077 : Index := Scalar.indexCast v2076
  ![v2077.toNat]
def k0_off450 (v2078 : BitVec 32) : Fin 2 → Nat :=
  let c96_i32_1018 : BitVec 32 := 96#32
  ![96, v2078.toNat]

def k0_chk225 (v2078 : BitVec 32) : Prop :=
  (∀ a, (k0_off450 v2078) a + S1x4096.size a ≤ S128x8192.size a)
instance k0_chk225.dec : ∀ (v2078 : BitVec 32), Decidable (k0_chk225 v2078) := fun v2078 => decidable_of_iff' _ (Iff.of_eq (k0_chk225.eq_1 v2078))
theorem k0_off450_inb : ∀ (v2078 : BitVec 32) (k0_hw225 : k0_chk225 v2078), ∀ a, (k0_off450 v2078) a + S1x4096.size a ≤ S128x8192.size a := fun v2078 k0_hw225 => k0_hw225

def k0_off451 (i : grid0.Coords) : Fin 1 → Nat :=
  let arg0 : BitVec 32 := BitVec.ofNat 32 (i 0).val
  let c128_i32 : BitVec 32 := 128#32
  let v0 : BitVec 32 := Scalar.muli arg0 c128_i32
  let c97_i32_1022 : BitVec 32 := 97#32
  let v2085 : BitVec 32 := Scalar.addi v0 c97_i32_1022
  let v2086 : Index := Scalar.indexCast v2085
  ![v2086.toNat]
def k0_off452 (v2087 : BitVec 32) : Fin 2 → Nat :=
  let c97_i32_1023 : BitVec 32 := 97#32
  ![97, v2087.toNat]

def k0_chk226 (v2087 : BitVec 32) : Prop :=
  (∀ a, (k0_off452 v2087) a + S1x4096.size a ≤ S128x8192.size a)
instance k0_chk226.dec : ∀ (v2087 : BitVec 32), Decidable (k0_chk226 v2087) := fun v2087 => decidable_of_iff' _ (Iff.of_eq (k0_chk226.eq_1 v2087))
theorem k0_off452_inb : ∀ (v2087 : BitVec 32) (k0_hw226 : k0_chk226 v2087), ∀ a, (k0_off452 v2087) a + S1x4096.size a ≤ S128x8192.size a := fun v2087 k0_hw226 => k0_hw226

def k0_off453 (i : grid0.Coords) : Fin 1 → Nat :=
  let arg0 : BitVec 32 := BitVec.ofNat 32 (i 0).val
  let c128_i32 : BitVec 32 := 128#32
  let v0 : BitVec 32 := Scalar.muli arg0 c128_i32
  let c98_i32_1027 : BitVec 32 := 98#32
  let v2094 : BitVec 32 := Scalar.addi v0 c98_i32_1027
  let v2095 : Index := Scalar.indexCast v2094
  ![v2095.toNat]
def k0_off454 (v2096 : BitVec 32) : Fin 2 → Nat :=
  let c98_i32_1028 : BitVec 32 := 98#32
  ![98, v2096.toNat]

def k0_chk227 (v2096 : BitVec 32) : Prop :=
  (∀ a, (k0_off454 v2096) a + S1x4096.size a ≤ S128x8192.size a)
instance k0_chk227.dec : ∀ (v2096 : BitVec 32), Decidable (k0_chk227 v2096) := fun v2096 => decidable_of_iff' _ (Iff.of_eq (k0_chk227.eq_1 v2096))
theorem k0_off454_inb : ∀ (v2096 : BitVec 32) (k0_hw227 : k0_chk227 v2096), ∀ a, (k0_off454 v2096) a + S1x4096.size a ≤ S128x8192.size a := fun v2096 k0_hw227 => k0_hw227

def k0_off455 (i : grid0.Coords) : Fin 1 → Nat :=
  let arg0 : BitVec 32 := BitVec.ofNat 32 (i 0).val
  let c128_i32 : BitVec 32 := 128#32
  let v0 : BitVec 32 := Scalar.muli arg0 c128_i32
  let c99_i32_1032 : BitVec 32 := 99#32
  let v2103 : BitVec 32 := Scalar.addi v0 c99_i32_1032
  let v2104 : Index := Scalar.indexCast v2103
  ![v2104.toNat]
def k0_off456 (v2105 : BitVec 32) : Fin 2 → Nat :=
  let c99_i32_1033 : BitVec 32 := 99#32
  ![99, v2105.toNat]

def k0_chk228 (v2105 : BitVec 32) : Prop :=
  (∀ a, (k0_off456 v2105) a + S1x4096.size a ≤ S128x8192.size a)
instance k0_chk228.dec : ∀ (v2105 : BitVec 32), Decidable (k0_chk228 v2105) := fun v2105 => decidable_of_iff' _ (Iff.of_eq (k0_chk228.eq_1 v2105))
theorem k0_off456_inb : ∀ (v2105 : BitVec 32) (k0_hw228 : k0_chk228 v2105), ∀ a, (k0_off456 v2105) a + S1x4096.size a ≤ S128x8192.size a := fun v2105 k0_hw228 => k0_hw228

def k0_off457 (i : grid0.Coords) : Fin 1 → Nat :=
  let arg0 : BitVec 32 := BitVec.ofNat 32 (i 0).val
  let c128_i32 : BitVec 32 := 128#32
  let v0 : BitVec 32 := Scalar.muli arg0 c128_i32
  let c100_i32_1037 : BitVec 32 := 100#32
  let v2112 : BitVec 32 := Scalar.addi v0 c100_i32_1037
  let v2113 : Index := Scalar.indexCast v2112
  ![v2113.toNat]
def k0_off458 (v2114 : BitVec 32) : Fin 2 → Nat :=
  let c100_i32_1038 : BitVec 32 := 100#32
  ![100, v2114.toNat]

def k0_chk229 (v2114 : BitVec 32) : Prop :=
  (∀ a, (k0_off458 v2114) a + S1x4096.size a ≤ S128x8192.size a)
instance k0_chk229.dec : ∀ (v2114 : BitVec 32), Decidable (k0_chk229 v2114) := fun v2114 => decidable_of_iff' _ (Iff.of_eq (k0_chk229.eq_1 v2114))
theorem k0_off458_inb : ∀ (v2114 : BitVec 32) (k0_hw229 : k0_chk229 v2114), ∀ a, (k0_off458 v2114) a + S1x4096.size a ≤ S128x8192.size a := fun v2114 k0_hw229 => k0_hw229

def k0_off459 (i : grid0.Coords) : Fin 1 → Nat :=
  let arg0 : BitVec 32 := BitVec.ofNat 32 (i 0).val
  let c128_i32 : BitVec 32 := 128#32
  let v0 : BitVec 32 := Scalar.muli arg0 c128_i32
  let c101_i32_1042 : BitVec 32 := 101#32
  let v2121 : BitVec 32 := Scalar.addi v0 c101_i32_1042
  let v2122 : Index := Scalar.indexCast v2121
  ![v2122.toNat]
def k0_off460 (v2123 : BitVec 32) : Fin 2 → Nat :=
  let c101_i32_1043 : BitVec 32 := 101#32
  ![101, v2123.toNat]

def k0_chk230 (v2123 : BitVec 32) : Prop :=
  (∀ a, (k0_off460 v2123) a + S1x4096.size a ≤ S128x8192.size a)
instance k0_chk230.dec : ∀ (v2123 : BitVec 32), Decidable (k0_chk230 v2123) := fun v2123 => decidable_of_iff' _ (Iff.of_eq (k0_chk230.eq_1 v2123))
theorem k0_off460_inb : ∀ (v2123 : BitVec 32) (k0_hw230 : k0_chk230 v2123), ∀ a, (k0_off460 v2123) a + S1x4096.size a ≤ S128x8192.size a := fun v2123 k0_hw230 => k0_hw230

def k0_off461 (i : grid0.Coords) : Fin 1 → Nat :=
  let arg0 : BitVec 32 := BitVec.ofNat 32 (i 0).val
  let c128_i32 : BitVec 32 := 128#32
  let v0 : BitVec 32 := Scalar.muli arg0 c128_i32
  let c102_i32_1047 : BitVec 32 := 102#32
  let v2130 : BitVec 32 := Scalar.addi v0 c102_i32_1047
  let v2131 : Index := Scalar.indexCast v2130
  ![v2131.toNat]
def k0_off462 (v2132 : BitVec 32) : Fin 2 → Nat :=
  let c102_i32_1048 : BitVec 32 := 102#32
  ![102, v2132.toNat]

def k0_chk231 (v2132 : BitVec 32) : Prop :=
  (∀ a, (k0_off462 v2132) a + S1x4096.size a ≤ S128x8192.size a)
instance k0_chk231.dec : ∀ (v2132 : BitVec 32), Decidable (k0_chk231 v2132) := fun v2132 => decidable_of_iff' _ (Iff.of_eq (k0_chk231.eq_1 v2132))
theorem k0_off462_inb : ∀ (v2132 : BitVec 32) (k0_hw231 : k0_chk231 v2132), ∀ a, (k0_off462 v2132) a + S1x4096.size a ≤ S128x8192.size a := fun v2132 k0_hw231 => k0_hw231

def k0_off463 (i : grid0.Coords) : Fin 1 → Nat :=
  let arg0 : BitVec 32 := BitVec.ofNat 32 (i 0).val
  let c128_i32 : BitVec 32 := 128#32
  let v0 : BitVec 32 := Scalar.muli arg0 c128_i32
  let c103_i32_1052 : BitVec 32 := 103#32
  let v2139 : BitVec 32 := Scalar.addi v0 c103_i32_1052
  let v2140 : Index := Scalar.indexCast v2139
  ![v2140.toNat]
def k0_off464 (v2141 : BitVec 32) : Fin 2 → Nat :=
  let c103_i32_1053 : BitVec 32 := 103#32
  ![103, v2141.toNat]

def k0_chk232 (v2141 : BitVec 32) : Prop :=
  (∀ a, (k0_off464 v2141) a + S1x4096.size a ≤ S128x8192.size a)
instance k0_chk232.dec : ∀ (v2141 : BitVec 32), Decidable (k0_chk232 v2141) := fun v2141 => decidable_of_iff' _ (Iff.of_eq (k0_chk232.eq_1 v2141))
theorem k0_off464_inb : ∀ (v2141 : BitVec 32) (k0_hw232 : k0_chk232 v2141), ∀ a, (k0_off464 v2141) a + S1x4096.size a ≤ S128x8192.size a := fun v2141 k0_hw232 => k0_hw232

def k0_off465 (i : grid0.Coords) : Fin 1 → Nat :=
  let arg0 : BitVec 32 := BitVec.ofNat 32 (i 0).val
  let c128_i32 : BitVec 32 := 128#32
  let v0 : BitVec 32 := Scalar.muli arg0 c128_i32
  let c104_i32_1057 : BitVec 32 := 104#32
  let v2148 : BitVec 32 := Scalar.addi v0 c104_i32_1057
  let v2149 : Index := Scalar.indexCast v2148
  ![v2149.toNat]
def k0_off466 (v2150 : BitVec 32) : Fin 2 → Nat :=
  let c104_i32_1058 : BitVec 32 := 104#32
  ![104, v2150.toNat]

def k0_chk233 (v2150 : BitVec 32) : Prop :=
  (∀ a, (k0_off466 v2150) a + S1x4096.size a ≤ S128x8192.size a)
instance k0_chk233.dec : ∀ (v2150 : BitVec 32), Decidable (k0_chk233 v2150) := fun v2150 => decidable_of_iff' _ (Iff.of_eq (k0_chk233.eq_1 v2150))
theorem k0_off466_inb : ∀ (v2150 : BitVec 32) (k0_hw233 : k0_chk233 v2150), ∀ a, (k0_off466 v2150) a + S1x4096.size a ≤ S128x8192.size a := fun v2150 k0_hw233 => k0_hw233

def k0_off467 (i : grid0.Coords) : Fin 1 → Nat :=
  let arg0 : BitVec 32 := BitVec.ofNat 32 (i 0).val
  let c128_i32 : BitVec 32 := 128#32
  let v0 : BitVec 32 := Scalar.muli arg0 c128_i32
  let c105_i32_1062 : BitVec 32 := 105#32
  let v2157 : BitVec 32 := Scalar.addi v0 c105_i32_1062
  let v2158 : Index := Scalar.indexCast v2157
  ![v2158.toNat]
def k0_off468 (v2159 : BitVec 32) : Fin 2 → Nat :=
  let c105_i32_1063 : BitVec 32 := 105#32
  ![105, v2159.toNat]

def k0_chk234 (v2159 : BitVec 32) : Prop :=
  (∀ a, (k0_off468 v2159) a + S1x4096.size a ≤ S128x8192.size a)
instance k0_chk234.dec : ∀ (v2159 : BitVec 32), Decidable (k0_chk234 v2159) := fun v2159 => decidable_of_iff' _ (Iff.of_eq (k0_chk234.eq_1 v2159))
theorem k0_off468_inb : ∀ (v2159 : BitVec 32) (k0_hw234 : k0_chk234 v2159), ∀ a, (k0_off468 v2159) a + S1x4096.size a ≤ S128x8192.size a := fun v2159 k0_hw234 => k0_hw234

def k0_off469 (i : grid0.Coords) : Fin 1 → Nat :=
  let arg0 : BitVec 32 := BitVec.ofNat 32 (i 0).val
  let c128_i32 : BitVec 32 := 128#32
  let v0 : BitVec 32 := Scalar.muli arg0 c128_i32
  let c106_i32_1067 : BitVec 32 := 106#32
  let v2166 : BitVec 32 := Scalar.addi v0 c106_i32_1067
  let v2167 : Index := Scalar.indexCast v2166
  ![v2167.toNat]
def k0_off470 (v2168 : BitVec 32) : Fin 2 → Nat :=
  let c106_i32_1068 : BitVec 32 := 106#32
  ![106, v2168.toNat]

def k0_chk235 (v2168 : BitVec 32) : Prop :=
  (∀ a, (k0_off470 v2168) a + S1x4096.size a ≤ S128x8192.size a)
instance k0_chk235.dec : ∀ (v2168 : BitVec 32), Decidable (k0_chk235 v2168) := fun v2168 => decidable_of_iff' _ (Iff.of_eq (k0_chk235.eq_1 v2168))
theorem k0_off470_inb : ∀ (v2168 : BitVec 32) (k0_hw235 : k0_chk235 v2168), ∀ a, (k0_off470 v2168) a + S1x4096.size a ≤ S128x8192.size a := fun v2168 k0_hw235 => k0_hw235

def k0_off471 (i : grid0.Coords) : Fin 1 → Nat :=
  let arg0 : BitVec 32 := BitVec.ofNat 32 (i 0).val
  let c128_i32 : BitVec 32 := 128#32
  let v0 : BitVec 32 := Scalar.muli arg0 c128_i32
  let c107_i32_1072 : BitVec 32 := 107#32
  let v2175 : BitVec 32 := Scalar.addi v0 c107_i32_1072
  let v2176 : Index := Scalar.indexCast v2175
  ![v2176.toNat]
def k0_off472 (v2177 : BitVec 32) : Fin 2 → Nat :=
  let c107_i32_1073 : BitVec 32 := 107#32
  ![107, v2177.toNat]

def k0_chk236 (v2177 : BitVec 32) : Prop :=
  (∀ a, (k0_off472 v2177) a + S1x4096.size a ≤ S128x8192.size a)
instance k0_chk236.dec : ∀ (v2177 : BitVec 32), Decidable (k0_chk236 v2177) := fun v2177 => decidable_of_iff' _ (Iff.of_eq (k0_chk236.eq_1 v2177))
theorem k0_off472_inb : ∀ (v2177 : BitVec 32) (k0_hw236 : k0_chk236 v2177), ∀ a, (k0_off472 v2177) a + S1x4096.size a ≤ S128x8192.size a := fun v2177 k0_hw236 => k0_hw236

def k0_off473 (i : grid0.Coords) : Fin 1 → Nat :=
  let arg0 : BitVec 32 := BitVec.ofNat 32 (i 0).val
  let c128_i32 : BitVec 32 := 128#32
  let v0 : BitVec 32 := Scalar.muli arg0 c128_i32
  let c108_i32_1077 : BitVec 32 := 108#32
  let v2184 : BitVec 32 := Scalar.addi v0 c108_i32_1077
  let v2185 : Index := Scalar.indexCast v2184
  ![v2185.toNat]
def k0_off474 (v2186 : BitVec 32) : Fin 2 → Nat :=
  let c108_i32_1078 : BitVec 32 := 108#32
  ![108, v2186.toNat]

def k0_chk237 (v2186 : BitVec 32) : Prop :=
  (∀ a, (k0_off474 v2186) a + S1x4096.size a ≤ S128x8192.size a)
instance k0_chk237.dec : ∀ (v2186 : BitVec 32), Decidable (k0_chk237 v2186) := fun v2186 => decidable_of_iff' _ (Iff.of_eq (k0_chk237.eq_1 v2186))
theorem k0_off474_inb : ∀ (v2186 : BitVec 32) (k0_hw237 : k0_chk237 v2186), ∀ a, (k0_off474 v2186) a + S1x4096.size a ≤ S128x8192.size a := fun v2186 k0_hw237 => k0_hw237

def k0_off475 (i : grid0.Coords) : Fin 1 → Nat :=
  let arg0 : BitVec 32 := BitVec.ofNat 32 (i 0).val
  let c128_i32 : BitVec 32 := 128#32
  let v0 : BitVec 32 := Scalar.muli arg0 c128_i32
  let c109_i32_1082 : BitVec 32 := 109#32
  let v2193 : BitVec 32 := Scalar.addi v0 c109_i32_1082
  let v2194 : Index := Scalar.indexCast v2193
  ![v2194.toNat]
def k0_off476 (v2195 : BitVec 32) : Fin 2 → Nat :=
  let c109_i32_1083 : BitVec 32 := 109#32
  ![109, v2195.toNat]

def k0_chk238 (v2195 : BitVec 32) : Prop :=
  (∀ a, (k0_off476 v2195) a + S1x4096.size a ≤ S128x8192.size a)
instance k0_chk238.dec : ∀ (v2195 : BitVec 32), Decidable (k0_chk238 v2195) := fun v2195 => decidable_of_iff' _ (Iff.of_eq (k0_chk238.eq_1 v2195))
theorem k0_off476_inb : ∀ (v2195 : BitVec 32) (k0_hw238 : k0_chk238 v2195), ∀ a, (k0_off476 v2195) a + S1x4096.size a ≤ S128x8192.size a := fun v2195 k0_hw238 => k0_hw238

def k0_off477 (i : grid0.Coords) : Fin 1 → Nat :=
  let arg0 : BitVec 32 := BitVec.ofNat 32 (i 0).val
  let c128_i32 : BitVec 32 := 128#32
  let v0 : BitVec 32 := Scalar.muli arg0 c128_i32
  let c110_i32_1087 : BitVec 32 := 110#32
  let v2202 : BitVec 32 := Scalar.addi v0 c110_i32_1087
  let v2203 : Index := Scalar.indexCast v2202
  ![v2203.toNat]
def k0_off478 (v2204 : BitVec 32) : Fin 2 → Nat :=
  let c110_i32_1088 : BitVec 32 := 110#32
  ![110, v2204.toNat]

def k0_chk239 (v2204 : BitVec 32) : Prop :=
  (∀ a, (k0_off478 v2204) a + S1x4096.size a ≤ S128x8192.size a)
instance k0_chk239.dec : ∀ (v2204 : BitVec 32), Decidable (k0_chk239 v2204) := fun v2204 => decidable_of_iff' _ (Iff.of_eq (k0_chk239.eq_1 v2204))
theorem k0_off478_inb : ∀ (v2204 : BitVec 32) (k0_hw239 : k0_chk239 v2204), ∀ a, (k0_off478 v2204) a + S1x4096.size a ≤ S128x8192.size a := fun v2204 k0_hw239 => k0_hw239

def k0_off479 (i : grid0.Coords) : Fin 1 → Nat :=
  let arg0 : BitVec 32 := BitVec.ofNat 32 (i 0).val
  let c128_i32 : BitVec 32 := 128#32
  let v0 : BitVec 32 := Scalar.muli arg0 c128_i32
  let c111_i32_1092 : BitVec 32 := 111#32
  let v2211 : BitVec 32 := Scalar.addi v0 c111_i32_1092
  let v2212 : Index := Scalar.indexCast v2211
  ![v2212.toNat]
def k0_off480 (v2213 : BitVec 32) : Fin 2 → Nat :=
  let c111_i32_1093 : BitVec 32 := 111#32
  ![111, v2213.toNat]

def k0_chk240 (v2213 : BitVec 32) : Prop :=
  (∀ a, (k0_off480 v2213) a + S1x4096.size a ≤ S128x8192.size a)
instance k0_chk240.dec : ∀ (v2213 : BitVec 32), Decidable (k0_chk240 v2213) := fun v2213 => decidable_of_iff' _ (Iff.of_eq (k0_chk240.eq_1 v2213))
theorem k0_off480_inb : ∀ (v2213 : BitVec 32) (k0_hw240 : k0_chk240 v2213), ∀ a, (k0_off480 v2213) a + S1x4096.size a ≤ S128x8192.size a := fun v2213 k0_hw240 => k0_hw240

def k0_off481 (i : grid0.Coords) : Fin 1 → Nat :=
  let arg0 : BitVec 32 := BitVec.ofNat 32 (i 0).val
  let c128_i32 : BitVec 32 := 128#32
  let v0 : BitVec 32 := Scalar.muli arg0 c128_i32
  let c112_i32_1097 : BitVec 32 := 112#32
  let v2220 : BitVec 32 := Scalar.addi v0 c112_i32_1097
  let v2221 : Index := Scalar.indexCast v2220
  ![v2221.toNat]
def k0_off482 (v2222 : BitVec 32) : Fin 2 → Nat :=
  let c112_i32_1098 : BitVec 32 := 112#32
  ![112, v2222.toNat]

def k0_chk241 (v2222 : BitVec 32) : Prop :=
  (∀ a, (k0_off482 v2222) a + S1x4096.size a ≤ S128x8192.size a)
instance k0_chk241.dec : ∀ (v2222 : BitVec 32), Decidable (k0_chk241 v2222) := fun v2222 => decidable_of_iff' _ (Iff.of_eq (k0_chk241.eq_1 v2222))
theorem k0_off482_inb : ∀ (v2222 : BitVec 32) (k0_hw241 : k0_chk241 v2222), ∀ a, (k0_off482 v2222) a + S1x4096.size a ≤ S128x8192.size a := fun v2222 k0_hw241 => k0_hw241

def k0_off483 (i : grid0.Coords) : Fin 1 → Nat :=
  let arg0 : BitVec 32 := BitVec.ofNat 32 (i 0).val
  let c128_i32 : BitVec 32 := 128#32
  let v0 : BitVec 32 := Scalar.muli arg0 c128_i32
  let c113_i32_1102 : BitVec 32 := 113#32
  let v2229 : BitVec 32 := Scalar.addi v0 c113_i32_1102
  let v2230 : Index := Scalar.indexCast v2229
  ![v2230.toNat]
def k0_off484 (v2231 : BitVec 32) : Fin 2 → Nat :=
  let c113_i32_1103 : BitVec 32 := 113#32
  ![113, v2231.toNat]

def k0_chk242 (v2231 : BitVec 32) : Prop :=
  (∀ a, (k0_off484 v2231) a + S1x4096.size a ≤ S128x8192.size a)
instance k0_chk242.dec : ∀ (v2231 : BitVec 32), Decidable (k0_chk242 v2231) := fun v2231 => decidable_of_iff' _ (Iff.of_eq (k0_chk242.eq_1 v2231))
theorem k0_off484_inb : ∀ (v2231 : BitVec 32) (k0_hw242 : k0_chk242 v2231), ∀ a, (k0_off484 v2231) a + S1x4096.size a ≤ S128x8192.size a := fun v2231 k0_hw242 => k0_hw242

def k0_off485 (i : grid0.Coords) : Fin 1 → Nat :=
  let arg0 : BitVec 32 := BitVec.ofNat 32 (i 0).val
  let c128_i32 : BitVec 32 := 128#32
  let v0 : BitVec 32 := Scalar.muli arg0 c128_i32
  let c114_i32_1107 : BitVec 32 := 114#32
  let v2238 : BitVec 32 := Scalar.addi v0 c114_i32_1107
  let v2239 : Index := Scalar.indexCast v2238
  ![v2239.toNat]
def k0_off486 (v2240 : BitVec 32) : Fin 2 → Nat :=
  let c114_i32_1108 : BitVec 32 := 114#32
  ![114, v2240.toNat]

def k0_chk243 (v2240 : BitVec 32) : Prop :=
  (∀ a, (k0_off486 v2240) a + S1x4096.size a ≤ S128x8192.size a)
instance k0_chk243.dec : ∀ (v2240 : BitVec 32), Decidable (k0_chk243 v2240) := fun v2240 => decidable_of_iff' _ (Iff.of_eq (k0_chk243.eq_1 v2240))
theorem k0_off486_inb : ∀ (v2240 : BitVec 32) (k0_hw243 : k0_chk243 v2240), ∀ a, (k0_off486 v2240) a + S1x4096.size a ≤ S128x8192.size a := fun v2240 k0_hw243 => k0_hw243

def k0_off487 (i : grid0.Coords) : Fin 1 → Nat :=
  let arg0 : BitVec 32 := BitVec.ofNat 32 (i 0).val
  let c128_i32 : BitVec 32 := 128#32
  let v0 : BitVec 32 := Scalar.muli arg0 c128_i32
  let c115_i32_1112 : BitVec 32 := 115#32
  let v2247 : BitVec 32 := Scalar.addi v0 c115_i32_1112
  let v2248 : Index := Scalar.indexCast v2247
  ![v2248.toNat]
def k0_off488 (v2249 : BitVec 32) : Fin 2 → Nat :=
  let c115_i32_1113 : BitVec 32 := 115#32
  ![115, v2249.toNat]

def k0_chk244 (v2249 : BitVec 32) : Prop :=
  (∀ a, (k0_off488 v2249) a + S1x4096.size a ≤ S128x8192.size a)
instance k0_chk244.dec : ∀ (v2249 : BitVec 32), Decidable (k0_chk244 v2249) := fun v2249 => decidable_of_iff' _ (Iff.of_eq (k0_chk244.eq_1 v2249))
theorem k0_off488_inb : ∀ (v2249 : BitVec 32) (k0_hw244 : k0_chk244 v2249), ∀ a, (k0_off488 v2249) a + S1x4096.size a ≤ S128x8192.size a := fun v2249 k0_hw244 => k0_hw244

def k0_off489 (i : grid0.Coords) : Fin 1 → Nat :=
  let arg0 : BitVec 32 := BitVec.ofNat 32 (i 0).val
  let c128_i32 : BitVec 32 := 128#32
  let v0 : BitVec 32 := Scalar.muli arg0 c128_i32
  let c116_i32_1117 : BitVec 32 := 116#32
  let v2256 : BitVec 32 := Scalar.addi v0 c116_i32_1117
  let v2257 : Index := Scalar.indexCast v2256
  ![v2257.toNat]
def k0_off490 (v2258 : BitVec 32) : Fin 2 → Nat :=
  let c116_i32_1118 : BitVec 32 := 116#32
  ![116, v2258.toNat]

def k0_chk245 (v2258 : BitVec 32) : Prop :=
  (∀ a, (k0_off490 v2258) a + S1x4096.size a ≤ S128x8192.size a)
instance k0_chk245.dec : ∀ (v2258 : BitVec 32), Decidable (k0_chk245 v2258) := fun v2258 => decidable_of_iff' _ (Iff.of_eq (k0_chk245.eq_1 v2258))
theorem k0_off490_inb : ∀ (v2258 : BitVec 32) (k0_hw245 : k0_chk245 v2258), ∀ a, (k0_off490 v2258) a + S1x4096.size a ≤ S128x8192.size a := fun v2258 k0_hw245 => k0_hw245

def k0_off491 (i : grid0.Coords) : Fin 1 → Nat :=
  let arg0 : BitVec 32 := BitVec.ofNat 32 (i 0).val
  let c128_i32 : BitVec 32 := 128#32
  let v0 : BitVec 32 := Scalar.muli arg0 c128_i32
  let c117_i32_1122 : BitVec 32 := 117#32
  let v2265 : BitVec 32 := Scalar.addi v0 c117_i32_1122
  let v2266 : Index := Scalar.indexCast v2265
  ![v2266.toNat]
def k0_off492 (v2267 : BitVec 32) : Fin 2 → Nat :=
  let c117_i32_1123 : BitVec 32 := 117#32
  ![117, v2267.toNat]

def k0_chk246 (v2267 : BitVec 32) : Prop :=
  (∀ a, (k0_off492 v2267) a + S1x4096.size a ≤ S128x8192.size a)
instance k0_chk246.dec : ∀ (v2267 : BitVec 32), Decidable (k0_chk246 v2267) := fun v2267 => decidable_of_iff' _ (Iff.of_eq (k0_chk246.eq_1 v2267))
theorem k0_off492_inb : ∀ (v2267 : BitVec 32) (k0_hw246 : k0_chk246 v2267), ∀ a, (k0_off492 v2267) a + S1x4096.size a ≤ S128x8192.size a := fun v2267 k0_hw246 => k0_hw246

def k0_off493 (i : grid0.Coords) : Fin 1 → Nat :=
  let arg0 : BitVec 32 := BitVec.ofNat 32 (i 0).val
  let c128_i32 : BitVec 32 := 128#32
  let v0 : BitVec 32 := Scalar.muli arg0 c128_i32
  let c118_i32_1127 : BitVec 32 := 118#32
  let v2274 : BitVec 32 := Scalar.addi v0 c118_i32_1127
  let v2275 : Index := Scalar.indexCast v2274
  ![v2275.toNat]
def k0_off494 (v2276 : BitVec 32) : Fin 2 → Nat :=
  let c118_i32_1128 : BitVec 32 := 118#32
  ![118, v2276.toNat]

def k0_chk247 (v2276 : BitVec 32) : Prop :=
  (∀ a, (k0_off494 v2276) a + S1x4096.size a ≤ S128x8192.size a)
instance k0_chk247.dec : ∀ (v2276 : BitVec 32), Decidable (k0_chk247 v2276) := fun v2276 => decidable_of_iff' _ (Iff.of_eq (k0_chk247.eq_1 v2276))
theorem k0_off494_inb : ∀ (v2276 : BitVec 32) (k0_hw247 : k0_chk247 v2276), ∀ a, (k0_off494 v2276) a + S1x4096.size a ≤ S128x8192.size a := fun v2276 k0_hw247 => k0_hw247

def k0_off495 (i : grid0.Coords) : Fin 1 → Nat :=
  let arg0 : BitVec 32 := BitVec.ofNat 32 (i 0).val
  let c128_i32 : BitVec 32 := 128#32
  let v0 : BitVec 32 := Scalar.muli arg0 c128_i32
  let c119_i32_1132 : BitVec 32 := 119#32
  let v2283 : BitVec 32 := Scalar.addi v0 c119_i32_1132
  let v2284 : Index := Scalar.indexCast v2283
  ![v2284.toNat]
def k0_off496 (v2285 : BitVec 32) : Fin 2 → Nat :=
  let c119_i32_1133 : BitVec 32 := 119#32
  ![119, v2285.toNat]

def k0_chk248 (v2285 : BitVec 32) : Prop :=
  (∀ a, (k0_off496 v2285) a + S1x4096.size a ≤ S128x8192.size a)
instance k0_chk248.dec : ∀ (v2285 : BitVec 32), Decidable (k0_chk248 v2285) := fun v2285 => decidable_of_iff' _ (Iff.of_eq (k0_chk248.eq_1 v2285))
theorem k0_off496_inb : ∀ (v2285 : BitVec 32) (k0_hw248 : k0_chk248 v2285), ∀ a, (k0_off496 v2285) a + S1x4096.size a ≤ S128x8192.size a := fun v2285 k0_hw248 => k0_hw248

def k0_off497 (i : grid0.Coords) : Fin 1 → Nat :=
  let arg0 : BitVec 32 := BitVec.ofNat 32 (i 0).val
  let c128_i32 : BitVec 32 := 128#32
  let v0 : BitVec 32 := Scalar.muli arg0 c128_i32
  let c120_i32_1137 : BitVec 32 := 120#32
  let v2292 : BitVec 32 := Scalar.addi v0 c120_i32_1137
  let v2293 : Index := Scalar.indexCast v2292
  ![v2293.toNat]
def k0_off498 (v2294 : BitVec 32) : Fin 2 → Nat :=
  let c120_i32_1138 : BitVec 32 := 120#32
  ![120, v2294.toNat]

def k0_chk249 (v2294 : BitVec 32) : Prop :=
  (∀ a, (k0_off498 v2294) a + S1x4096.size a ≤ S128x8192.size a)
instance k0_chk249.dec : ∀ (v2294 : BitVec 32), Decidable (k0_chk249 v2294) := fun v2294 => decidable_of_iff' _ (Iff.of_eq (k0_chk249.eq_1 v2294))
theorem k0_off498_inb : ∀ (v2294 : BitVec 32) (k0_hw249 : k0_chk249 v2294), ∀ a, (k0_off498 v2294) a + S1x4096.size a ≤ S128x8192.size a := fun v2294 k0_hw249 => k0_hw249

def k0_off499 (i : grid0.Coords) : Fin 1 → Nat :=
  let arg0 : BitVec 32 := BitVec.ofNat 32 (i 0).val
  let c128_i32 : BitVec 32 := 128#32
  let v0 : BitVec 32 := Scalar.muli arg0 c128_i32
  let c121_i32_1142 : BitVec 32 := 121#32
  let v2301 : BitVec 32 := Scalar.addi v0 c121_i32_1142
  let v2302 : Index := Scalar.indexCast v2301
  ![v2302.toNat]
def k0_off500 (v2303 : BitVec 32) : Fin 2 → Nat :=
  let c121_i32_1143 : BitVec 32 := 121#32
  ![121, v2303.toNat]

def k0_chk250 (v2303 : BitVec 32) : Prop :=
  (∀ a, (k0_off500 v2303) a + S1x4096.size a ≤ S128x8192.size a)
instance k0_chk250.dec : ∀ (v2303 : BitVec 32), Decidable (k0_chk250 v2303) := fun v2303 => decidable_of_iff' _ (Iff.of_eq (k0_chk250.eq_1 v2303))
theorem k0_off500_inb : ∀ (v2303 : BitVec 32) (k0_hw250 : k0_chk250 v2303), ∀ a, (k0_off500 v2303) a + S1x4096.size a ≤ S128x8192.size a := fun v2303 k0_hw250 => k0_hw250

def k0_off501 (i : grid0.Coords) : Fin 1 → Nat :=
  let arg0 : BitVec 32 := BitVec.ofNat 32 (i 0).val
  let c128_i32 : BitVec 32 := 128#32
  let v0 : BitVec 32 := Scalar.muli arg0 c128_i32
  let c122_i32_1147 : BitVec 32 := 122#32
  let v2310 : BitVec 32 := Scalar.addi v0 c122_i32_1147
  let v2311 : Index := Scalar.indexCast v2310
  ![v2311.toNat]
def k0_off502 (v2312 : BitVec 32) : Fin 2 → Nat :=
  let c122_i32_1148 : BitVec 32 := 122#32
  ![122, v2312.toNat]

def k0_chk251 (v2312 : BitVec 32) : Prop :=
  (∀ a, (k0_off502 v2312) a + S1x4096.size a ≤ S128x8192.size a)
instance k0_chk251.dec : ∀ (v2312 : BitVec 32), Decidable (k0_chk251 v2312) := fun v2312 => decidable_of_iff' _ (Iff.of_eq (k0_chk251.eq_1 v2312))
theorem k0_off502_inb : ∀ (v2312 : BitVec 32) (k0_hw251 : k0_chk251 v2312), ∀ a, (k0_off502 v2312) a + S1x4096.size a ≤ S128x8192.size a := fun v2312 k0_hw251 => k0_hw251

def k0_off503 (i : grid0.Coords) : Fin 1 → Nat :=
  let arg0 : BitVec 32 := BitVec.ofNat 32 (i 0).val
  let c128_i32 : BitVec 32 := 128#32
  let v0 : BitVec 32 := Scalar.muli arg0 c128_i32
  let c123_i32_1152 : BitVec 32 := 123#32
  let v2319 : BitVec 32 := Scalar.addi v0 c123_i32_1152
  let v2320 : Index := Scalar.indexCast v2319
  ![v2320.toNat]
def k0_off504 (v2321 : BitVec 32) : Fin 2 → Nat :=
  let c123_i32_1153 : BitVec 32 := 123#32
  ![123, v2321.toNat]

def k0_chk252 (v2321 : BitVec 32) : Prop :=
  (∀ a, (k0_off504 v2321) a + S1x4096.size a ≤ S128x8192.size a)
instance k0_chk252.dec : ∀ (v2321 : BitVec 32), Decidable (k0_chk252 v2321) := fun v2321 => decidable_of_iff' _ (Iff.of_eq (k0_chk252.eq_1 v2321))
theorem k0_off504_inb : ∀ (v2321 : BitVec 32) (k0_hw252 : k0_chk252 v2321), ∀ a, (k0_off504 v2321) a + S1x4096.size a ≤ S128x8192.size a := fun v2321 k0_hw252 => k0_hw252

def k0_off505 (i : grid0.Coords) : Fin 1 → Nat :=
  let arg0 : BitVec 32 := BitVec.ofNat 32 (i 0).val
  let c128_i32 : BitVec 32 := 128#32
  let v0 : BitVec 32 := Scalar.muli arg0 c128_i32
  let c124_i32_1157 : BitVec 32 := 124#32
  let v2328 : BitVec 32 := Scalar.addi v0 c124_i32_1157
  let v2329 : Index := Scalar.indexCast v2328
  ![v2329.toNat]
def k0_off506 (v2330 : BitVec 32) : Fin 2 → Nat :=
  let c124_i32_1158 : BitVec 32 := 124#32
  ![124, v2330.toNat]

def k0_chk253 (v2330 : BitVec 32) : Prop :=
  (∀ a, (k0_off506 v2330) a + S1x4096.size a ≤ S128x8192.size a)
instance k0_chk253.dec : ∀ (v2330 : BitVec 32), Decidable (k0_chk253 v2330) := fun v2330 => decidable_of_iff' _ (Iff.of_eq (k0_chk253.eq_1 v2330))
theorem k0_off506_inb : ∀ (v2330 : BitVec 32) (k0_hw253 : k0_chk253 v2330), ∀ a, (k0_off506 v2330) a + S1x4096.size a ≤ S128x8192.size a := fun v2330 k0_hw253 => k0_hw253

def k0_off507 (i : grid0.Coords) : Fin 1 → Nat :=
  let arg0 : BitVec 32 := BitVec.ofNat 32 (i 0).val
  let c128_i32 : BitVec 32 := 128#32
  let v0 : BitVec 32 := Scalar.muli arg0 c128_i32
  let c125_i32_1162 : BitVec 32 := 125#32
  let v2337 : BitVec 32 := Scalar.addi v0 c125_i32_1162
  let v2338 : Index := Scalar.indexCast v2337
  ![v2338.toNat]
def k0_off508 (v2339 : BitVec 32) : Fin 2 → Nat :=
  let c125_i32_1163 : BitVec 32 := 125#32
  ![125, v2339.toNat]

def k0_chk254 (v2339 : BitVec 32) : Prop :=
  (∀ a, (k0_off508 v2339) a + S1x4096.size a ≤ S128x8192.size a)
instance k0_chk254.dec : ∀ (v2339 : BitVec 32), Decidable (k0_chk254 v2339) := fun v2339 => decidable_of_iff' _ (Iff.of_eq (k0_chk254.eq_1 v2339))
theorem k0_off508_inb : ∀ (v2339 : BitVec 32) (k0_hw254 : k0_chk254 v2339), ∀ a, (k0_off508 v2339) a + S1x4096.size a ≤ S128x8192.size a := fun v2339 k0_hw254 => k0_hw254

def k0_off509 (i : grid0.Coords) : Fin 1 → Nat :=
  let arg0 : BitVec 32 := BitVec.ofNat 32 (i 0).val
  let c128_i32 : BitVec 32 := 128#32
  let v0 : BitVec 32 := Scalar.muli arg0 c128_i32
  let c126_i32_1167 : BitVec 32 := 126#32
  let v2346 : BitVec 32 := Scalar.addi v0 c126_i32_1167
  let v2347 : Index := Scalar.indexCast v2346
  ![v2347.toNat]
def k0_off510 (v2348 : BitVec 32) : Fin 2 → Nat :=
  let c126_i32_1168 : BitVec 32 := 126#32
  ![126, v2348.toNat]

def k0_chk255 (v2348 : BitVec 32) : Prop :=
  (∀ a, (k0_off510 v2348) a + S1x4096.size a ≤ S128x8192.size a)
instance k0_chk255.dec : ∀ (v2348 : BitVec 32), Decidable (k0_chk255 v2348) := fun v2348 => decidable_of_iff' _ (Iff.of_eq (k0_chk255.eq_1 v2348))
theorem k0_off510_inb : ∀ (v2348 : BitVec 32) (k0_hw255 : k0_chk255 v2348), ∀ a, (k0_off510 v2348) a + S1x4096.size a ≤ S128x8192.size a := fun v2348 k0_hw255 => k0_hw255

def k0_off511 (i : grid0.Coords) : Fin 1 → Nat :=
  let arg0 : BitVec 32 := BitVec.ofNat 32 (i 0).val
  let c128_i32 : BitVec 32 := 128#32
  let v0 : BitVec 32 := Scalar.muli arg0 c128_i32
  let c127_i32_1172 : BitVec 32 := 127#32
  let v2355 : BitVec 32 := Scalar.addi v0 c127_i32_1172
  let v2356 : Index := Scalar.indexCast v2355
  ![v2356.toNat]
def k0_off512 (v2357 : BitVec 32) : Fin 2 → Nat :=
  let c127_i32_1173 : BitVec 32 := 127#32
  ![127, v2357.toNat]

def k0_chk256 (v2357 : BitVec 32) : Prop :=
  (∀ a, (k0_off512 v2357) a + S1x4096.size a ≤ S128x8192.size a)
instance k0_chk256.dec : ∀ (v2357 : BitVec 32), Decidable (k0_chk256 v2357) := fun v2357 => decidable_of_iff' _ (Iff.of_eq (k0_chk256.eq_1 v2357))
theorem k0_off512_inb : ∀ (v2357 : BitVec 32) (k0_hw256 : k0_chk256 v2357), ∀ a, (k0_off512 v2357) a + S1x4096.size a ≤ S128x8192.size a := fun v2357 k0_hw256 => k0_hw256

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S4096 : S_.BroadcastsInDim S4096 (![] : Fin 0 → Fin S4096.rank)
  slices_S4096_S1_0 : S4096.Slices ![0] S1
  slices_S4096_S2048_1 : S4096.Slices ![1] S2048
  concatenates_S2048_S4096_S6144_d0 : Shape.Concatenates [S2048, S4096] S6144 0
  slices_S6144_S1_6143 : S6144.Slices ![6143] S1
  slices_S6144_S2048_4095 : S6144.Slices ![4095] S2048
  concatenates_S6144_S2048_S8192_d0 : Shape.Concatenates [S6144, S2048] S8192 0
  slices_S8192x4096_S8192x2048_0_1 : S8192x4096.Slices ![0, 1] S8192x2048
  slices_S8192x4096_S8192x2048_0_2047 : S8192x4096.Slices ![0, 2047] S8192x2048
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S128x8192_S128x2048_0_0 : ∀ a, (![0, 0] : Fin 2 → Nat) a + S128x2048.size a ≤ S128x8192.size a
  inb_S128x4096_S128x4096_0_0 : ∀ a, (![0, 0] : Fin 2 → Nat) a + S128x4096.size a ≤ S128x4096.size a
  h_S128x4096 : 0 < S128x4096.numel
  inb_S128x8192_S128x4096_0_2048 : ∀ a, (![0, 2048] : Fin 2 → Nat) a + S128x4096.size a ≤ S128x8192.size a
  shapeCasts_S128x4096_S128x4096 : S128x4096.ShapeCasts S128x4096
  inb_S128x8192_S128x2048_0_6144 : ∀ a, (![0, 6144] : Fin 2 → Nat) a + S128x2048.size a ≤ S128x8192.size a
  inb_S8192_S8192_0 : ∀ a, (![0] : Fin 1 → Nat) a + S8192.size a ≤ S8192.size a
  h_S8192 : 0 < S8192.numel
  shapeCasts_S8192_S8192 : S8192.ShapeCasts S8192
  inb_S128x8192_S128x8192_0_0 : ∀ a, (![0, 0] : Fin 2 → Nat) a + S128x8192.size a ≤ S128x8192.size a
  h_S128x8192 : 0 < S128x8192.numel
  shapeCasts_S8192_S1x8192 : S8192.ShapeCasts S1x8192
  broadcasts_S1x8192_S128x8192 : S1x8192.Broadcasts S128x8192
  natLt_1_32 : 1 < 32
  shapeCasts_S128x8192_S128x8192 : S128x8192.ShapeCasts S128x8192
  inb_S4096_S4096_0 : ∀ a, (![0] : Fin 1 → Nat) a + S4096.size a ≤ S4096.size a
  h_S4096 : 0 < S4096.numel
  shapeCasts_S4096_S1x4096 : S4096.ShapeCasts S1x4096
  reduces_S1x4096_S1 : S1x4096.Reduces [1] S1
  shapeCasts_S1_S1x1 : S1.ShapeCasts S1x1
  inpos_S1x1_p0_0 : ∀ a, (![0, 0] : Fin 2 → Nat) a < S1x1.size a
  broadcasts_S1x4096_S128x4096 : S1x4096.Broadcasts S128x4096
  reduces_S128x4096_S128 : S128x4096.Reduces [1] S128
  shapeCasts_S128_S128x1 : S128.ShapeCasts S128x1
  inb_S128x1_S128x1_0_0 : ∀ a, (![0, 0] : Fin 2 → Nat) a + S128x1.size a ≤ S128x1.size a
  h_S128x1 : 0 < S128x1.numel
  numel1_S1 : S1.numel = 1
  inb_S128_S1_0 : ∀ a, (![0] : Fin 1 → Nat) a + S1.size a ≤ S128.size a
  squeezes_S1_S_ : S1.Squeezes S_
  inb_S128x4096_S1x4096_0_0 : ∀ a, (![0, 0] : Fin 2 → Nat) a + S1x4096.size a ≤ S128x4096.size a
  squeezes_S1x4096_S4096 : S1x4096.Squeezes S4096
  inb_S128_S1_1 : ∀ a, (![1] : Fin 1 → Nat) a + S1.size a ≤ S128.size a
  inb_S128x4096_S1x4096_1_0 : ∀ a, (![1, 0] : Fin 2 → Nat) a + S1x4096.size a ≤ S128x4096.size a
  inb_S128_S1_2 : ∀ a, (![2] : Fin 1 → Nat) a + S1.size a ≤ S128.size a
  inb_S128x4096_S1x4096_2_0 : ∀ a, (![2, 0] : Fin 2 → Nat) a + S1x4096.size a ≤ S128x4096.size a
  inb_S128_S1_3 : ∀ a, (![3] : Fin 1 → Nat) a + S1.size a ≤ S128.size a
  inb_S128x4096_S1x4096_3_0 : ∀ a, (![3, 0] : Fin 2 → Nat) a + S1x4096.size a ≤ S128x4096.size a
  inb_S128_S1_4 : ∀ a, (![4] : Fin 1 → Nat) a + S1.size a ≤ S128.size a
  inb_S128x4096_S1x4096_4_0 : ∀ a, (![4, 0] : Fin 2 → Nat) a + S1x4096.size a ≤ S128x4096.size a
  inb_S128_S1_5 : ∀ a, (![5] : Fin 1 → Nat) a + S1.size a ≤ S128.size a
  inb_S128x4096_S1x4096_5_0 : ∀ a, (![5, 0] : Fin 2 → Nat) a + S1x4096.size a ≤ S128x4096.size a
  inb_S128_S1_6 : ∀ a, (![6] : Fin 1 → Nat) a + S1.size a ≤ S128.size a
  inb_S128x4096_S1x4096_6_0 : ∀ a, (![6, 0] : Fin 2 → Nat) a + S1x4096.size a ≤ S128x4096.size a
  inb_S128_S1_7 : ∀ a, (![7] : Fin 1 → Nat) a + S1.size a ≤ S128.size a
  inb_S128x4096_S1x4096_7_0 : ∀ a, (![7, 0] : Fin 2 → Nat) a + S1x4096.size a ≤ S128x4096.size a
  inb_S128_S1_8 : ∀ a, (![8] : Fin 1 → Nat) a + S1.size a ≤ S128.size a
  inb_S128x4096_S1x4096_8_0 : ∀ a, (![8, 0] : Fin 2 → Nat) a + S1x4096.size a ≤ S128x4096.size a
  inb_S128_S1_9 : ∀ a, (![9] : Fin 1 → Nat) a + S1.size a ≤ S128.size a
  inb_S128x4096_S1x4096_9_0 : ∀ a, (![9, 0] : Fin 2 → Nat) a + S1x4096.size a ≤ S128x4096.size a
  inb_S128_S1_10 : ∀ a, (![10] : Fin 1 → Nat) a + S1.size a ≤ S128.size a
  inb_S128x4096_S1x4096_10_0 : ∀ a, (![10, 0] : Fin 2 → Nat) a + S1x4096.size a ≤ S128x4096.size a
  inb_S128_S1_11 : ∀ a, (![11] : Fin 1 → Nat) a + S1.size a ≤ S128.size a
  inb_S128x4096_S1x4096_11_0 : ∀ a, (![11, 0] : Fin 2 → Nat) a + S1x4096.size a ≤ S128x4096.size a
  inb_S128_S1_12 : ∀ a, (![12] : Fin 1 → Nat) a + S1.size a ≤ S128.size a
  inb_S128x4096_S1x4096_12_0 : ∀ a, (![12, 0] : Fin 2 → Nat) a + S1x4096.size a ≤ S128x4096.size a
  inb_S128_S1_13 : ∀ a, (![13] : Fin 1 → Nat) a + S1.size a ≤ S128.size a
  inb_S128x4096_S1x4096_13_0 : ∀ a, (![13, 0] : Fin 2 → Nat) a + S1x4096.size a ≤ S128x4096.size a
  inb_S128_S1_14 : ∀ a, (![14] : Fin 1 → Nat) a + S1.size a ≤ S128.size a
  inb_S128x4096_S1x4096_14_0 : ∀ a, (![14, 0] : Fin 2 → Nat) a + S1x4096.size a ≤ S128x4096.size a
  inb_S128_S1_15 : ∀ a, (![15] : Fin 1 → Nat) a + S1.size a ≤ S128.size a
  inb_S128x4096_S1x4096_15_0 : ∀ a, (![15, 0] : Fin 2 → Nat) a + S1x4096.size a ≤ S128x4096.size a
  inb_S128_S1_16 : ∀ a, (![16] : Fin 1 → Nat) a + S1.size a ≤ S128.size a
  inb_S128x4096_S1x4096_16_0 : ∀ a, (![16, 0] : Fin 2 → Nat) a + S1x4096.size a ≤ S128x4096.size a
  inb_S128_S1_17 : ∀ a, (![17] : Fin 1 → Nat) a + S1.size a ≤ S128.size a
  inb_S128x4096_S1x4096_17_0 : ∀ a, (![17, 0] : Fin 2 → Nat) a + S1x4096.size a ≤ S128x4096.size a
  inb_S128_S1_18 : ∀ a, (![18] : Fin 1 → Nat) a + S1.size a ≤ S128.size a
  inb_S128x4096_S1x4096_18_0 : ∀ a, (![18, 0] : Fin 2 → Nat) a + S1x4096.size a ≤ S128x4096.size a
  inb_S128_S1_19 : ∀ a, (![19] : Fin 1 → Nat) a + S1.size a ≤ S128.size a
  inb_S128x4096_S1x4096_19_0 : ∀ a, (![19, 0] : Fin 2 → Nat) a + S1x4096.size a ≤ S128x4096.size a
  inb_S128_S1_20 : ∀ a, (![20] : Fin 1 → Nat) a + S1.size a ≤ S128.size a
  inb_S128x4096_S1x4096_20_0 : ∀ a, (![20, 0] : Fin 2 → Nat) a + S1x4096.size a ≤ S128x4096.size a
  inb_S128_S1_21 : ∀ a, (![21] : Fin 1 → Nat) a + S1.size a ≤ S128.size a
  inb_S128x4096_S1x4096_21_0 : ∀ a, (![21, 0] : Fin 2 → Nat) a + S1x4096.size a ≤ S128x4096.size a
  inb_S128_S1_22 : ∀ a, (![22] : Fin 1 → Nat) a + S1.size a ≤ S128.size a
  inb_S128x4096_S1x4096_22_0 : ∀ a, (![22, 0] : Fin 2 → Nat) a + S1x4096.size a ≤ S128x4096.size a
  inb_S128_S1_23 : ∀ a, (![23] : Fin 1 → Nat) a + S1.size a ≤ S128.size a
  inb_S128x4096_S1x4096_23_0 : ∀ a, (![23, 0] : Fin 2 → Nat) a + S1x4096.size a ≤ S128x4096.size a
  inb_S128_S1_24 : ∀ a, (![24] : Fin 1 → Nat) a + S1.size a ≤ S128.size a
  inb_S128x4096_S1x4096_24_0 : ∀ a, (![24, 0] : Fin 2 → Nat) a + S1x4096.size a ≤ S128x4096.size a
  inb_S128_S1_25 : ∀ a, (![25] : Fin 1 → Nat) a + S1.size a ≤ S128.size a
  inb_S128x4096_S1x4096_25_0 : ∀ a, (![25, 0] : Fin 2 → Nat) a + S1x4096.size a ≤ S128x4096.size a
  inb_S128_S1_26 : ∀ a, (![26] : Fin 1 → Nat) a + S1.size a ≤ S128.size a
  inb_S128x4096_S1x4096_26_0 : ∀ a, (![26, 0] : Fin 2 → Nat) a + S1x4096.size a ≤ S128x4096.size a
  inb_S128_S1_27 : ∀ a, (![27] : Fin 1 → Nat) a + S1.size a ≤ S128.size a
  inb_S128x4096_S1x4096_27_0 : ∀ a, (![27, 0] : Fin 2 → Nat) a + S1x4096.size a ≤ S128x4096.size a
  inb_S128_S1_28 : ∀ a, (![28] : Fin 1 → Nat) a + S1.size a ≤ S128.size a
  inb_S128x4096_S1x4096_28_0 : ∀ a, (![28, 0] : Fin 2 → Nat) a + S1x4096.size a ≤ S128x4096.size a
  inb_S128_S1_29 : ∀ a, (![29] : Fin 1 → Nat) a + S1.size a ≤ S128.size a
  inb_S128x4096_S1x4096_29_0 : ∀ a, (![29, 0] : Fin 2 → Nat) a + S1x4096.size a ≤ S128x4096.size a
  inb_S128_S1_30 : ∀ a, (![30] : Fin 1 → Nat) a + S1.size a ≤ S128.size a
  inb_S128x4096_S1x4096_30_0 : ∀ a, (![30, 0] : Fin 2 → Nat) a + S1x4096.size a ≤ S128x4096.size a
  inb_S128_S1_31 : ∀ a, (![31] : Fin 1 → Nat) a + S1.size a ≤ S128.size a
  inb_S128x4096_S1x4096_31_0 : ∀ a, (![31, 0] : Fin 2 → Nat) a + S1x4096.size a ≤ S128x4096.size a
  inb_S128_S1_32 : ∀ a, (![32] : Fin 1 → Nat) a + S1.size a ≤ S128.size a
  inb_S128x4096_S1x4096_32_0 : ∀ a, (![32, 0] : Fin 2 → Nat) a + S1x4096.size a ≤ S128x4096.size a
  inb_S128_S1_33 : ∀ a, (![33] : Fin 1 → Nat) a + S1.size a ≤ S128.size a
  inb_S128x4096_S1x4096_33_0 : ∀ a, (![33, 0] : Fin 2 → Nat) a + S1x4096.size a ≤ S128x4096.size a
  inb_S128_S1_34 : ∀ a, (![34] : Fin 1 → Nat) a + S1.size a ≤ S128.size a
  inb_S128x4096_S1x4096_34_0 : ∀ a, (![34, 0] : Fin 2 → Nat) a + S1x4096.size a ≤ S128x4096.size a
  inb_S128_S1_35 : ∀ a, (![35] : Fin 1 → Nat) a + S1.size a ≤ S128.size a
  inb_S128x4096_S1x4096_35_0 : ∀ a, (![35, 0] : Fin 2 → Nat) a + S1x4096.size a ≤ S128x4096.size a
  inb_S128_S1_36 : ∀ a, (![36] : Fin 1 → Nat) a + S1.size a ≤ S128.size a
  inb_S128x4096_S1x4096_36_0 : ∀ a, (![36, 0] : Fin 2 → Nat) a + S1x4096.size a ≤ S128x4096.size a
  inb_S128_S1_37 : ∀ a, (![37] : Fin 1 → Nat) a + S1.size a ≤ S128.size a
  inb_S128x4096_S1x4096_37_0 : ∀ a, (![37, 0] : Fin 2 → Nat) a + S1x4096.size a ≤ S128x4096.size a
  inb_S128_S1_38 : ∀ a, (![38] : Fin 1 → Nat) a + S1.size a ≤ S128.size a
  inb_S128x4096_S1x4096_38_0 : ∀ a, (![38, 0] : Fin 2 → Nat) a + S1x4096.size a ≤ S128x4096.size a
  inb_S128_S1_39 : ∀ a, (![39] : Fin 1 → Nat) a + S1.size a ≤ S128.size a
  inb_S128x4096_S1x4096_39_0 : ∀ a, (![39, 0] : Fin 2 → Nat) a + S1x4096.size a ≤ S128x4096.size a
  inb_S128_S1_40 : ∀ a, (![40] : Fin 1 → Nat) a + S1.size a ≤ S128.size a
  inb_S128x4096_S1x4096_40_0 : ∀ a, (![40, 0] : Fin 2 → Nat) a + S1x4096.size a ≤ S128x4096.size a
  inb_S128_S1_41 : ∀ a, (![41] : Fin 1 → Nat) a + S1.size a ≤ S128.size a
  inb_S128x4096_S1x4096_41_0 : ∀ a, (![41, 0] : Fin 2 → Nat) a + S1x4096.size a ≤ S128x4096.size a
  inb_S128_S1_42 : ∀ a, (![42] : Fin 1 → Nat) a + S1.size a ≤ S128.size a
  inb_S128x4096_S1x4096_42_0 : ∀ a, (![42, 0] : Fin 2 → Nat) a + S1x4096.size a ≤ S128x4096.size a
  inb_S128_S1_43 : ∀ a, (![43] : Fin 1 → Nat) a + S1.size a ≤ S128.size a
  inb_S128x4096_S1x4096_43_0 : ∀ a, (![43, 0] : Fin 2 → Nat) a + S1x4096.size a ≤ S128x4096.size a
  inb_S128_S1_44 : ∀ a, (![44] : Fin 1 → Nat) a + S1.size a ≤ S128.size a
  inb_S128x4096_S1x4096_44_0 : ∀ a, (![44, 0] : Fin 2 → Nat) a + S1x4096.size a ≤ S128x4096.size a
  inb_S128_S1_45 : ∀ a, (![45] : Fin 1 → Nat) a + S1.size a ≤ S128.size a
  inb_S128x4096_S1x4096_45_0 : ∀ a, (![45, 0] : Fin 2 → Nat) a + S1x4096.size a ≤ S128x4096.size a
  inb_S128_S1_46 : ∀ a, (![46] : Fin 1 → Nat) a + S1.size a ≤ S128.size a
  inb_S128x4096_S1x4096_46_0 : ∀ a, (![46, 0] : Fin 2 → Nat) a + S1x4096.size a ≤ S128x4096.size a
  inb_S128_S1_47 : ∀ a, (![47] : Fin 1 → Nat) a + S1.size a ≤ S128.size a
  inb_S128x4096_S1x4096_47_0 : ∀ a, (![47, 0] : Fin 2 → Nat) a + S1x4096.size a ≤ S128x4096.size a
  inb_S128_S1_48 : ∀ a, (![48] : Fin 1 → Nat) a + S1.size a ≤ S128.size a
  inb_S128x4096_S1x4096_48_0 : ∀ a, (![48, 0] : Fin 2 → Nat) a + S1x4096.size a ≤ S128x4096.size a
  inb_S128_S1_49 : ∀ a, (![49] : Fin 1 → Nat) a + S1.size a ≤ S128.size a
  inb_S128x4096_S1x4096_49_0 : ∀ a, (![49, 0] : Fin 2 → Nat) a + S1x4096.size a ≤ S128x4096.size a
  inb_S128_S1_50 : ∀ a, (![50] : Fin 1 → Nat) a + S1.size a ≤ S128.size a
  inb_S128x4096_S1x4096_50_0 : ∀ a, (![50, 0] : Fin 2 → Nat) a + S1x4096.size a ≤ S128x4096.size a
  inb_S128_S1_51 : ∀ a, (![51] : Fin 1 → Nat) a + S1.size a ≤ S128.size a
  inb_S128x4096_S1x4096_51_0 : ∀ a, (![51, 0] : Fin 2 → Nat) a + S1x4096.size a ≤ S128x4096.size a
  inb_S128_S1_52 : ∀ a, (![52] : Fin 1 → Nat) a + S1.size a ≤ S128.size a
  inb_S128x4096_S1x4096_52_0 : ∀ a, (![52, 0] : Fin 2 → Nat) a + S1x4096.size a ≤ S128x4096.size a
  inb_S128_S1_53 : ∀ a, (![53] : Fin 1 → Nat) a + S1.size a ≤ S128.size a
  inb_S128x4096_S1x4096_53_0 : ∀ a, (![53, 0] : Fin 2 → Nat) a + S1x4096.size a ≤ S128x4096.size a
  inb_S128_S1_54 : ∀ a, (![54] : Fin 1 → Nat) a + S1.size a ≤ S128.size a
  inb_S128x4096_S1x4096_54_0 : ∀ a, (![54, 0] : Fin 2 → Nat) a + S1x4096.size a ≤ S128x4096.size a
  inb_S128_S1_55 : ∀ a, (![55] : Fin 1 → Nat) a + S1.size a ≤ S128.size a
  inb_S128x4096_S1x4096_55_0 : ∀ a, (![55, 0] : Fin 2 → Nat) a + S1x4096.size a ≤ S128x4096.size a
  inb_S128_S1_56 : ∀ a, (![56] : Fin 1 → Nat) a + S1.size a ≤ S128.size a
  inb_S128x4096_S1x4096_56_0 : ∀ a, (![56, 0] : Fin 2 → Nat) a + S1x4096.size a ≤ S128x4096.size a
  inb_S128_S1_57 : ∀ a, (![57] : Fin 1 → Nat) a + S1.size a ≤ S128.size a
  inb_S128x4096_S1x4096_57_0 : ∀ a, (![57, 0] : Fin 2 → Nat) a + S1x4096.size a ≤ S128x4096.size a
  inb_S128_S1_58 : ∀ a, (![58] : Fin 1 → Nat) a + S1.size a ≤ S128.size a
  inb_S128x4096_S1x4096_58_0 : ∀ a, (![58, 0] : Fin 2 → Nat) a + S1x4096.size a ≤ S128x4096.size a
  inb_S128_S1_59 : ∀ a, (![59] : Fin 1 → Nat) a + S1.size a ≤ S128.size a
  inb_S128x4096_S1x4096_59_0 : ∀ a, (![59, 0] : Fin 2 → Nat) a + S1x4096.size a ≤ S128x4096.size a
  inb_S128_S1_60 : ∀ a, (![60] : Fin 1 → Nat) a + S1.size a ≤ S128.size a
  inb_S128x4096_S1x4096_60_0 : ∀ a, (![60, 0] : Fin 2 → Nat) a + S1x4096.size a ≤ S128x4096.size a
  inb_S128_S1_61 : ∀ a, (![61] : Fin 1 → Nat) a + S1.size a ≤ S128.size a
  inb_S128x4096_S1x4096_61_0 : ∀ a, (![61, 0] : Fin 2 → Nat) a + S1x4096.size a ≤ S128x4096.size a
  inb_S128_S1_62 : ∀ a, (![62] : Fin 1 → Nat) a + S1.size a ≤ S128.size a
  inb_S128x4096_S1x4096_62_0 : ∀ a, (![62, 0] : Fin 2 → Nat) a + S1x4096.size a ≤ S128x4096.size a
  inb_S128_S1_63 : ∀ a, (![63] : Fin 1 → Nat) a + S1.size a ≤ S128.size a
  inb_S128x4096_S1x4096_63_0 : ∀ a, (![63, 0] : Fin 2 → Nat) a + S1x4096.size a ≤ S128x4096.size a
  inb_S128_S1_64 : ∀ a, (![64] : Fin 1 → Nat) a + S1.size a ≤ S128.size a
  inb_S128x4096_S1x4096_64_0 : ∀ a, (![64, 0] : Fin 2 → Nat) a + S1x4096.size a ≤ S128x4096.size a
  inb_S128_S1_65 : ∀ a, (![65] : Fin 1 → Nat) a + S1.size a ≤ S128.size a
  inb_S128x4096_S1x4096_65_0 : ∀ a, (![65, 0] : Fin 2 → Nat) a + S1x4096.size a ≤ S128x4096.size a
  inb_S128_S1_66 : ∀ a, (![66] : Fin 1 → Nat) a + S1.size a ≤ S128.size a
  inb_S128x4096_S1x4096_66_0 : ∀ a, (![66, 0] : Fin 2 → Nat) a + S1x4096.size a ≤ S128x4096.size a
  inb_S128_S1_67 : ∀ a, (![67] : Fin 1 → Nat) a + S1.size a ≤ S128.size a
  inb_S128x4096_S1x4096_67_0 : ∀ a, (![67, 0] : Fin 2 → Nat) a + S1x4096.size a ≤ S128x4096.size a
  inb_S128_S1_68 : ∀ a, (![68] : Fin 1 → Nat) a + S1.size a ≤ S128.size a
  inb_S128x4096_S1x4096_68_0 : ∀ a, (![68, 0] : Fin 2 → Nat) a + S1x4096.size a ≤ S128x4096.size a
  inb_S128_S1_69 : ∀ a, (![69] : Fin 1 → Nat) a + S1.size a ≤ S128.size a
  inb_S128x4096_S1x4096_69_0 : ∀ a, (![69, 0] : Fin 2 → Nat) a + S1x4096.size a ≤ S128x4096.size a
  inb_S128_S1_70 : ∀ a, (![70] : Fin 1 → Nat) a + S1.size a ≤ S128.size a
  inb_S128x4096_S1x4096_70_0 : ∀ a, (![70, 0] : Fin 2 → Nat) a + S1x4096.size a ≤ S128x4096.size a
  inb_S128_S1_71 : ∀ a, (![71] : Fin 1 → Nat) a + S1.size a ≤ S128.size a
  inb_S128x4096_S1x4096_71_0 : ∀ a, (![71, 0] : Fin 2 → Nat) a + S1x4096.size a ≤ S128x4096.size a
  inb_S128_S1_72 : ∀ a, (![72] : Fin 1 → Nat) a + S1.size a ≤ S128.size a
  inb_S128x4096_S1x4096_72_0 : ∀ a, (![72, 0] : Fin 2 → Nat) a + S1x4096.size a ≤ S128x4096.size a
  inb_S128_S1_73 : ∀ a, (![73] : Fin 1 → Nat) a + S1.size a ≤ S128.size a
  inb_S128x4096_S1x4096_73_0 : ∀ a, (![73, 0] : Fin 2 → Nat) a + S1x4096.size a ≤ S128x4096.size a
  inb_S128_S1_74 : ∀ a, (![74] : Fin 1 → Nat) a + S1.size a ≤ S128.size a
  inb_S128x4096_S1x4096_74_0 : ∀ a, (![74, 0] : Fin 2 → Nat) a + S1x4096.size a ≤ S128x4096.size a
  inb_S128_S1_75 : ∀ a, (![75] : Fin 1 → Nat) a + S1.size a ≤ S128.size a
  inb_S128x4096_S1x4096_75_0 : ∀ a, (![75, 0] : Fin 2 → Nat) a + S1x4096.size a ≤ S128x4096.size a
  inb_S128_S1_76 : ∀ a, (![76] : Fin 1 → Nat) a + S1.size a ≤ S128.size a
  inb_S128x4096_S1x4096_76_0 : ∀ a, (![76, 0] : Fin 2 → Nat) a + S1x4096.size a ≤ S128x4096.size a
  inb_S128_S1_77 : ∀ a, (![77] : Fin 1 → Nat) a + S1.size a ≤ S128.size a
  inb_S128x4096_S1x4096_77_0 : ∀ a, (![77, 0] : Fin 2 → Nat) a + S1x4096.size a ≤ S128x4096.size a
  inb_S128_S1_78 : ∀ a, (![78] : Fin 1 → Nat) a + S1.size a ≤ S128.size a
  inb_S128x4096_S1x4096_78_0 : ∀ a, (![78, 0] : Fin 2 → Nat) a + S1x4096.size a ≤ S128x4096.size a
  inb_S128_S1_79 : ∀ a, (![79] : Fin 1 → Nat) a + S1.size a ≤ S128.size a
  inb_S128x4096_S1x4096_79_0 : ∀ a, (![79, 0] : Fin 2 → Nat) a + S1x4096.size a ≤ S128x4096.size a
  inb_S128_S1_80 : ∀ a, (![80] : Fin 1 → Nat) a + S1.size a ≤ S128.size a
  inb_S128x4096_S1x4096_80_0 : ∀ a, (![80, 0] : Fin 2 → Nat) a + S1x4096.size a ≤ S128x4096.size a
  inb_S128_S1_81 : ∀ a, (![81] : Fin 1 → Nat) a + S1.size a ≤ S128.size a
  inb_S128x4096_S1x4096_81_0 : ∀ a, (![81, 0] : Fin 2 → Nat) a + S1x4096.size a ≤ S128x4096.size a
  inb_S128_S1_82 : ∀ a, (![82] : Fin 1 → Nat) a + S1.size a ≤ S128.size a
  inb_S128x4096_S1x4096_82_0 : ∀ a, (![82, 0] : Fin 2 → Nat) a + S1x4096.size a ≤ S128x4096.size a
  inb_S128_S1_83 : ∀ a, (![83] : Fin 1 → Nat) a + S1.size a ≤ S128.size a
  inb_S128x4096_S1x4096_83_0 : ∀ a, (![83, 0] : Fin 2 → Nat) a + S1x4096.size a ≤ S128x4096.size a
  inb_S128_S1_84 : ∀ a, (![84] : Fin 1 → Nat) a + S1.size a ≤ S128.size a
  inb_S128x4096_S1x4096_84_0 : ∀ a, (![84, 0] : Fin 2 → Nat) a + S1x4096.size a ≤ S128x4096.size a
  inb_S128_S1_85 : ∀ a, (![85] : Fin 1 → Nat) a + S1.size a ≤ S128.size a
  inb_S128x4096_S1x4096_85_0 : ∀ a, (![85, 0] : Fin 2 → Nat) a + S1x4096.size a ≤ S128x4096.size a
  inb_S128_S1_86 : ∀ a, (![86] : Fin 1 → Nat) a + S1.size a ≤ S128.size a
  inb_S128x4096_S1x4096_86_0 : ∀ a, (![86, 0] : Fin 2 → Nat) a + S1x4096.size a ≤ S128x4096.size a
  inb_S128_S1_87 : ∀ a, (![87] : Fin 1 → Nat) a + S1.size a ≤ S128.size a
  inb_S128x4096_S1x4096_87_0 : ∀ a, (![87, 0] : Fin 2 → Nat) a + S1x4096.size a ≤ S128x4096.size a
  inb_S128_S1_88 : ∀ a, (![88] : Fin 1 → Nat) a + S1.size a ≤ S128.size a
  inb_S128x4096_S1x4096_88_0 : ∀ a, (![88, 0] : Fin 2 → Nat) a + S1x4096.size a ≤ S128x4096.size a
  inb_S128_S1_89 : ∀ a, (![89] : Fin 1 → Nat) a + S1.size a ≤ S128.size a
  inb_S128x4096_S1x4096_89_0 : ∀ a, (![89, 0] : Fin 2 → Nat) a + S1x4096.size a ≤ S128x4096.size a
  inb_S128_S1_90 : ∀ a, (![90] : Fin 1 → Nat) a + S1.size a ≤ S128.size a
  inb_S128x4096_S1x4096_90_0 : ∀ a, (![90, 0] : Fin 2 → Nat) a + S1x4096.size a ≤ S128x4096.size a
  inb_S128_S1_91 : ∀ a, (![91] : Fin 1 → Nat) a + S1.size a ≤ S128.size a
  inb_S128x4096_S1x4096_91_0 : ∀ a, (![91, 0] : Fin 2 → Nat) a + S1x4096.size a ≤ S128x4096.size a
  inb_S128_S1_92 : ∀ a, (![92] : Fin 1 → Nat) a + S1.size a ≤ S128.size a
  inb_S128x4096_S1x4096_92_0 : ∀ a, (![92, 0] : Fin 2 → Nat) a + S1x4096.size a ≤ S128x4096.size a
  inb_S128_S1_93 : ∀ a, (![93] : Fin 1 → Nat) a + S1.size a ≤ S128.size a
  inb_S128x4096_S1x4096_93_0 : ∀ a, (![93, 0] : Fin 2 → Nat) a + S1x4096.size a ≤ S128x4096.size a
  inb_S128_S1_94 : ∀ a, (![94] : Fin 1 → Nat) a + S1.size a ≤ S128.size a
  inb_S128x4096_S1x4096_94_0 : ∀ a, (![94, 0] : Fin 2 → Nat) a + S1x4096.size a ≤ S128x4096.size a
  inb_S128_S1_95 : ∀ a, (![95] : Fin 1 → Nat) a + S1.size a ≤ S128.size a
  inb_S128x4096_S1x4096_95_0 : ∀ a, (![95, 0] : Fin 2 → Nat) a + S1x4096.size a ≤ S128x4096.size a
  inb_S128_S1_96 : ∀ a, (![96] : Fin 1 → Nat) a + S1.size a ≤ S128.size a
  inb_S128x4096_S1x4096_96_0 : ∀ a, (![96, 0] : Fin 2 → Nat) a + S1x4096.size a ≤ S128x4096.size a
  inb_S128_S1_97 : ∀ a, (![97] : Fin 1 → Nat) a + S1.size a ≤ S128.size a
  inb_S128x4096_S1x4096_97_0 : ∀ a, (![97, 0] : Fin 2 → Nat) a + S1x4096.size a ≤ S128x4096.size a
  inb_S128_S1_98 : ∀ a, (![98] : Fin 1 → Nat) a + S1.size a ≤ S128.size a
  inb_S128x4096_S1x4096_98_0 : ∀ a, (![98, 0] : Fin 2 → Nat) a + S1x4096.size a ≤ S128x4096.size a
  inb_S128_S1_99 : ∀ a, (![99] : Fin 1 → Nat) a + S1.size a ≤ S128.size a
  inb_S128x4096_S1x4096_99_0 : ∀ a, (![99, 0] : Fin 2 → Nat) a + S1x4096.size a ≤ S128x4096.size a
  inb_S128_S1_100 : ∀ a, (![100] : Fin 1 → Nat) a + S1.size a ≤ S128.size a
  inb_S128x4096_S1x4096_100_0 : ∀ a, (![100, 0] : Fin 2 → Nat) a + S1x4096.size a ≤ S128x4096.size a
  inb_S128_S1_101 : ∀ a, (![101] : Fin 1 → Nat) a + S1.size a ≤ S128.size a
  inb_S128x4096_S1x4096_101_0 : ∀ a, (![101, 0] : Fin 2 → Nat) a + S1x4096.size a ≤ S128x4096.size a
  inb_S128_S1_102 : ∀ a, (![102] : Fin 1 → Nat) a + S1.size a ≤ S128.size a
  inb_S128x4096_S1x4096_102_0 : ∀ a, (![102, 0] : Fin 2 → Nat) a + S1x4096.size a ≤ S128x4096.size a
  inb_S128_S1_103 : ∀ a, (![103] : Fin 1 → Nat) a + S1.size a ≤ S128.size a
  inb_S128x4096_S1x4096_103_0 : ∀ a, (![103, 0] : Fin 2 → Nat) a + S1x4096.size a ≤ S128x4096.size a
  inb_S128_S1_104 : ∀ a, (![104] : Fin 1 → Nat) a + S1.size a ≤ S128.size a
  inb_S128x4096_S1x4096_104_0 : ∀ a, (![104, 0] : Fin 2 → Nat) a + S1x4096.size a ≤ S128x4096.size a
  inb_S128_S1_105 : ∀ a, (![105] : Fin 1 → Nat) a + S1.size a ≤ S128.size a
  inb_S128x4096_S1x4096_105_0 : ∀ a, (![105, 0] : Fin 2 → Nat) a + S1x4096.size a ≤ S128x4096.size a
  inb_S128_S1_106 : ∀ a, (![106] : Fin 1 → Nat) a + S1.size a ≤ S128.size a
  inb_S128x4096_S1x4096_106_0 : ∀ a, (![106, 0] : Fin 2 → Nat) a + S1x4096.size a ≤ S128x4096.size a
  inb_S128_S1_107 : ∀ a, (![107] : Fin 1 → Nat) a + S1.size a ≤ S128.size a
  inb_S128x4096_S1x4096_107_0 : ∀ a, (![107, 0] : Fin 2 → Nat) a + S1x4096.size a ≤ S128x4096.size a
  inb_S128_S1_108 : ∀ a, (![108] : Fin 1 → Nat) a + S1.size a ≤ S128.size a
  inb_S128x4096_S1x4096_108_0 : ∀ a, (![108, 0] : Fin 2 → Nat) a + S1x4096.size a ≤ S128x4096.size a
  inb_S128_S1_109 : ∀ a, (![109] : Fin 1 → Nat) a + S1.size a ≤ S128.size a
  inb_S128x4096_S1x4096_109_0 : ∀ a, (![109, 0] : Fin 2 → Nat) a + S1x4096.size a ≤ S128x4096.size a
  inb_S128_S1_110 : ∀ a, (![110] : Fin 1 → Nat) a + S1.size a ≤ S128.size a
  inb_S128x4096_S1x4096_110_0 : ∀ a, (![110, 0] : Fin 2 → Nat) a + S1x4096.size a ≤ S128x4096.size a
  inb_S128_S1_111 : ∀ a, (![111] : Fin 1 → Nat) a + S1.size a ≤ S128.size a
  inb_S128x4096_S1x4096_111_0 : ∀ a, (![111, 0] : Fin 2 → Nat) a + S1x4096.size a ≤ S128x4096.size a
  inb_S128_S1_112 : ∀ a, (![112] : Fin 1 → Nat) a + S1.size a ≤ S128.size a
  inb_S128x4096_S1x4096_112_0 : ∀ a, (![112, 0] : Fin 2 → Nat) a + S1x4096.size a ≤ S128x4096.size a
  inb_S128_S1_113 : ∀ a, (![113] : Fin 1 → Nat) a + S1.size a ≤ S128.size a
  inb_S128x4096_S1x4096_113_0 : ∀ a, (![113, 0] : Fin 2 → Nat) a + S1x4096.size a ≤ S128x4096.size a
  inb_S128_S1_114 : ∀ a, (![114] : Fin 1 → Nat) a + S1.size a ≤ S128.size a
  inb_S128x4096_S1x4096_114_0 : ∀ a, (![114, 0] : Fin 2 → Nat) a + S1x4096.size a ≤ S128x4096.size a
  inb_S128_S1_115 : ∀ a, (![115] : Fin 1 → Nat) a + S1.size a ≤ S128.size a
  inb_S128x4096_S1x4096_115_0 : ∀ a, (![115, 0] : Fin 2 → Nat) a + S1x4096.size a ≤ S128x4096.size a
  inb_S128_S1_116 : ∀ a, (![116] : Fin 1 → Nat) a + S1.size a ≤ S128.size a
  inb_S128x4096_S1x4096_116_0 : ∀ a, (![116, 0] : Fin 2 → Nat) a + S1x4096.size a ≤ S128x4096.size a
  inb_S128_S1_117 : ∀ a, (![117] : Fin 1 → Nat) a + S1.size a ≤ S128.size a
  inb_S128x4096_S1x4096_117_0 : ∀ a, (![117, 0] : Fin 2 → Nat) a + S1x4096.size a ≤ S128x4096.size a
  inb_S128_S1_118 : ∀ a, (![118] : Fin 1 → Nat) a + S1.size a ≤ S128.size a
  inb_S128x4096_S1x4096_118_0 : ∀ a, (![118, 0] : Fin 2 → Nat) a + S1x4096.size a ≤ S128x4096.size a
  inb_S128_S1_119 : ∀ a, (![119] : Fin 1 → Nat) a + S1.size a ≤ S128.size a
  inb_S128x4096_S1x4096_119_0 : ∀ a, (![119, 0] : Fin 2 → Nat) a + S1x4096.size a ≤ S128x4096.size a
  inb_S128_S1_120 : ∀ a, (![120] : Fin 1 → Nat) a + S1.size a ≤ S128.size a
  inb_S128x4096_S1x4096_120_0 : ∀ a, (![120, 0] : Fin 2 → Nat) a + S1x4096.size a ≤ S128x4096.size a
  inb_S128_S1_121 : ∀ a, (![121] : Fin 1 → Nat) a + S1.size a ≤ S128.size a
  inb_S128x4096_S1x4096_121_0 : ∀ a, (![121, 0] : Fin 2 → Nat) a + S1x4096.size a ≤ S128x4096.size a
  inb_S128_S1_122 : ∀ a, (![122] : Fin 1 → Nat) a + S1.size a ≤ S128.size a
  inb_S128x4096_S1x4096_122_0 : ∀ a, (![122, 0] : Fin 2 → Nat) a + S1x4096.size a ≤ S128x4096.size a
  inb_S128_S1_123 : ∀ a, (![123] : Fin 1 → Nat) a + S1.size a ≤ S128.size a
  inb_S128x4096_S1x4096_123_0 : ∀ a, (![123, 0] : Fin 2 → Nat) a + S1x4096.size a ≤ S128x4096.size a
  inb_S128_S1_124 : ∀ a, (![124] : Fin 1 → Nat) a + S1.size a ≤ S128.size a
  inb_S128x4096_S1x4096_124_0 : ∀ a, (![124, 0] : Fin 2 → Nat) a + S1x4096.size a ≤ S128x4096.size a
  inb_S128_S1_125 : ∀ a, (![125] : Fin 1 → Nat) a + S1.size a ≤ S128.size a
  inb_S128x4096_S1x4096_125_0 : ∀ a, (![125, 0] : Fin 2 → Nat) a + S1x4096.size a ≤ S128x4096.size a
  inb_S128_S1_126 : ∀ a, (![126] : Fin 1 → Nat) a + S1.size a ≤ S128.size a
  inb_S128x4096_S1x4096_126_0 : ∀ a, (![126, 0] : Fin 2 → Nat) a + S1x4096.size a ≤ S128x4096.size a
  inb_S128_S1_127 : ∀ a, (![127] : Fin 1 → Nat) a + S1.size a ≤ S128.size a
  inb_S128x4096_S1x4096_127_0 : ∀ a, (![127, 0] : Fin 2 → Nat) a + S1x4096.size a ≤ S128x4096.size a
  bcast_S8192x4096_S8192x1x4096_0_2 : S8192x4096.BroadcastsInDim S8192x1x4096 (![0, 2] : Fin 2 → Fin S8192x1x4096.rank)
  shapeCasts_S8192x1_S8192 : S8192x1.ShapeCasts S8192
  hcc0_scratch1 : 12 + S128.numel ≤ 140
  hrank0 : 0 < grid0.rank
  k0_off1_inb : ∀ i : grid0.Coords, ∀ a, (k0_off1 i) a + S1.size a ≤ S8192.size a
  k0_off3_inb : ∀ i : grid0.Coords, ∀ a, (k0_off3 i) a + S1.size a ≤ S8192.size a
  k0_off5_inb : ∀ i : grid0.Coords, ∀ a, (k0_off5 i) a + S1.size a ≤ S8192.size a
  k0_off7_inb : ∀ i : grid0.Coords, ∀ a, (k0_off7 i) a + S1.size a ≤ S8192.size a
  k0_off9_inb : ∀ i : grid0.Coords, ∀ a, (k0_off9 i) a + S1.size a ≤ S8192.size a
  k0_off11_inb : ∀ i : grid0.Coords, ∀ a, (k0_off11 i) a + S1.size a ≤ S8192.size a
  k0_off13_inb : ∀ i : grid0.Coords, ∀ a, (k0_off13 i) a + S1.size a ≤ S8192.size a
  k0_off15_inb : ∀ i : grid0.Coords, ∀ a, (k0_off15 i) a + S1.size a ≤ S8192.size a
  k0_off17_inb : ∀ i : grid0.Coords, ∀ a, (k0_off17 i) a + S1.size a ≤ S8192.size a
  k0_off19_inb : ∀ i : grid0.Coords, ∀ a, (k0_off19 i) a + S1.size a ≤ S8192.size a
  k0_off21_inb : ∀ i : grid0.Coords, ∀ a, (k0_off21 i) a + S1.size a ≤ S8192.size a
  k0_off23_inb : ∀ i : grid0.Coords, ∀ a, (k0_off23 i) a + S1.size a ≤ S8192.size a
  k0_off25_inb : ∀ i : grid0.Coords, ∀ a, (k0_off25 i) a + S1.size a ≤ S8192.size a
  k0_off27_inb : ∀ i : grid0.Coords, ∀ a, (k0_off27 i) a + S1.size a ≤ S8192.size a
  k0_off29_inb : ∀ i : grid0.Coords, ∀ a, (k0_off29 i) a + S1.size a ≤ S8192.size a
  k0_off31_inb : ∀ i : grid0.Coords, ∀ a, (k0_off31 i) a + S1.size a ≤ S8192.size a
  k0_off33_inb : ∀ i : grid0.Coords, ∀ a, (k0_off33 i) a + S1.size a ≤ S8192.size a
  k0_off35_inb : ∀ i : grid0.Coords, ∀ a, (k0_off35 i) a + S1.size a ≤ S8192.size a
  k0_off37_inb : ∀ i : grid0.Coords, ∀ a, (k0_off37 i) a + S1.size a ≤ S8192.size a
  k0_off39_inb : ∀ i : grid0.Coords, ∀ a, (k0_off39 i) a + S1.size a ≤ S8192.size a
  k0_off41_inb : ∀ i : grid0.Coords, ∀ a, (k0_off41 i) a + S1.size a ≤ S8192.size a
  k0_off43_inb : ∀ i : grid0.Coords, ∀ a, (k0_off43 i) a + S1.size a ≤ S8192.size a
  k0_off45_inb : ∀ i : grid0.Coords, ∀ a, (k0_off45 i) a + S1.size a ≤ S8192.size a
  k0_off47_inb : ∀ i : grid0.Coords, ∀ a, (k0_off47 i) a + S1.size a ≤ S8192.size a
  k0_off49_inb : ∀ i : grid0.Coords, ∀ a, (k0_off49 i) a + S1.size a ≤ S8192.size a
  k0_off51_inb : ∀ i : grid0.Coords, ∀ a, (k0_off51 i) a + S1.size a ≤ S8192.size a
  k0_off53_inb : ∀ i : grid0.Coords, ∀ a, (k0_off53 i) a + S1.size a ≤ S8192.size a
  k0_off55_inb : ∀ i : grid0.Coords, ∀ a, (k0_off55 i) a + S1.size a ≤ S8192.size a
  k0_off57_inb : ∀ i : grid0.Coords, ∀ a, (k0_off57 i) a + S1.size a ≤ S8192.size a
  k0_off59_inb : ∀ i : grid0.Coords, ∀ a, (k0_off59 i) a + S1.size a ≤ S8192.size a
  k0_off61_inb : ∀ i : grid0.Coords, ∀ a, (k0_off61 i) a + S1.size a ≤ S8192.size a
  k0_off63_inb : ∀ i : grid0.Coords, ∀ a, (k0_off63 i) a + S1.size a ≤ S8192.size a
  k0_off65_inb : ∀ i : grid0.Coords, ∀ a, (k0_off65 i) a + S1.size a ≤ S8192.size a
  k0_off67_inb : ∀ i : grid0.Coords, ∀ a, (k0_off67 i) a + S1.size a ≤ S8192.size a
  k0_off69_inb : ∀ i : grid0.Coords, ∀ a, (k0_off69 i) a + S1.size a ≤ S8192.size a
  k0_off71_inb : ∀ i : grid0.Coords, ∀ a, (k0_off71 i) a + S1.size a ≤ S8192.size a
  k0_off73_inb : ∀ i : grid0.Coords, ∀ a, (k0_off73 i) a + S1.size a ≤ S8192.size a
  k0_off75_inb : ∀ i : grid0.Coords, ∀ a, (k0_off75 i) a + S1.size a ≤ S8192.size a
  k0_off77_inb : ∀ i : grid0.Coords, ∀ a, (k0_off77 i) a + S1.size a ≤ S8192.size a
  k0_off79_inb : ∀ i : grid0.Coords, ∀ a, (k0_off79 i) a + S1.size a ≤ S8192.size a
  k0_off81_inb : ∀ i : grid0.Coords, ∀ a, (k0_off81 i) a + S1.size a ≤ S8192.size a
  k0_off83_inb : ∀ i : grid0.Coords, ∀ a, (k0_off83 i) a + S1.size a ≤ S8192.size a
  k0_off85_inb : ∀ i : grid0.Coords, ∀ a, (k0_off85 i) a + S1.size a ≤ S8192.size a
  k0_off87_inb : ∀ i : grid0.Coords, ∀ a, (k0_off87 i) a + S1.size a ≤ S8192.size a
  k0_off89_inb : ∀ i : grid0.Coords, ∀ a, (k0_off89 i) a + S1.size a ≤ S8192.size a
  k0_off91_inb : ∀ i : grid0.Coords, ∀ a, (k0_off91 i) a + S1.size a ≤ S8192.size a
  k0_off93_inb : ∀ i : grid0.Coords, ∀ a, (k0_off93 i) a + S1.size a ≤ S8192.size a
  k0_off95_inb : ∀ i : grid0.Coords, ∀ a, (k0_off95 i) a + S1.size a ≤ S8192.size a
  k0_off97_inb : ∀ i : grid0.Coords, ∀ a, (k0_off97 i) a + S1.size a ≤ S8192.size a
  k0_off99_inb : ∀ i : grid0.Coords, ∀ a, (k0_off99 i) a + S1.size a ≤ S8192.size a
  k0_off101_inb : ∀ i : grid0.Coords, ∀ a, (k0_off101 i) a + S1.size a ≤ S8192.size a
  k0_off103_inb : ∀ i : grid0.Coords, ∀ a, (k0_off103 i) a + S1.size a ≤ S8192.size a
  k0_off105_inb : ∀ i : grid0.Coords, ∀ a, (k0_off105 i) a + S1.size a ≤ S8192.size a
  k0_off107_inb : ∀ i : grid0.Coords, ∀ a, (k0_off107 i) a + S1.size a ≤ S8192.size a
  k0_off109_inb : ∀ i : grid0.Coords, ∀ a, (k0_off109 i) a + S1.size a ≤ S8192.size a
  k0_off111_inb : ∀ i : grid0.Coords, ∀ a, (k0_off111 i) a + S1.size a ≤ S8192.size a
  k0_off113_inb : ∀ i : grid0.Coords, ∀ a, (k0_off113 i) a + S1.size a ≤ S8192.size a
  k0_off115_inb : ∀ i : grid0.Coords, ∀ a, (k0_off115 i) a + S1.size a ≤ S8192.size a
  k0_off117_inb : ∀ i : grid0.Coords, ∀ a, (k0_off117 i) a + S1.size a ≤ S8192.size a
  k0_off119_inb : ∀ i : grid0.Coords, ∀ a, (k0_off119 i) a + S1.size a ≤ S8192.size a
  k0_off121_inb : ∀ i : grid0.Coords, ∀ a, (k0_off121 i) a + S1.size a ≤ S8192.size a
  k0_off123_inb : ∀ i : grid0.Coords, ∀ a, (k0_off123 i) a + S1.size a ≤ S8192.size a
  k0_off125_inb : ∀ i : grid0.Coords, ∀ a, (k0_off125 i) a + S1.size a ≤ S8192.size a
  k0_off127_inb : ∀ i : grid0.Coords, ∀ a, (k0_off127 i) a + S1.size a ≤ S8192.size a
  k0_off129_inb : ∀ i : grid0.Coords, ∀ a, (k0_off129 i) a + S1.size a ≤ S8192.size a
  k0_off131_inb : ∀ i : grid0.Coords, ∀ a, (k0_off131 i) a + S1.size a ≤ S8192.size a
  k0_off133_inb : ∀ i : grid0.Coords, ∀ a, (k0_off133 i) a + S1.size a ≤ S8192.size a
  k0_off135_inb : ∀ i : grid0.Coords, ∀ a, (k0_off135 i) a + S1.size a ≤ S8192.size a
  k0_off137_inb : ∀ i : grid0.Coords, ∀ a, (k0_off137 i) a + S1.size a ≤ S8192.size a
  k0_off139_inb : ∀ i : grid0.Coords, ∀ a, (k0_off139 i) a + S1.size a ≤ S8192.size a
  k0_off141_inb : ∀ i : grid0.Coords, ∀ a, (k0_off141 i) a + S1.size a ≤ S8192.size a
  k0_off143_inb : ∀ i : grid0.Coords, ∀ a, (k0_off143 i) a + S1.size a ≤ S8192.size a
  k0_off145_inb : ∀ i : grid0.Coords, ∀ a, (k0_off145 i) a + S1.size a ≤ S8192.size a
  k0_off147_inb : ∀ i : grid0.Coords, ∀ a, (k0_off147 i) a + S1.size a ≤ S8192.size a
  k0_off149_inb : ∀ i : grid0.Coords, ∀ a, (k0_off149 i) a + S1.size a ≤ S8192.size a
  k0_off151_inb : ∀ i : grid0.Coords, ∀ a, (k0_off151 i) a + S1.size a ≤ S8192.size a
  k0_off153_inb : ∀ i : grid0.Coords, ∀ a, (k0_off153 i) a + S1.size a ≤ S8192.size a
  k0_off155_inb : ∀ i : grid0.Coords, ∀ a, (k0_off155 i) a + S1.size a ≤ S8192.size a
  k0_off157_inb : ∀ i : grid0.Coords, ∀ a, (k0_off157 i) a + S1.size a ≤ S8192.size a
  k0_off159_inb : ∀ i : grid0.Coords, ∀ a, (k0_off159 i) a + S1.size a ≤ S8192.size a
  k0_off161_inb : ∀ i : grid0.Coords, ∀ a, (k0_off161 i) a + S1.size a ≤ S8192.size a
  k0_off163_inb : ∀ i : grid0.Coords, ∀ a, (k0_off163 i) a + S1.size a ≤ S8192.size a
  k0_off165_inb : ∀ i : grid0.Coords, ∀ a, (k0_off165 i) a + S1.size a ≤ S8192.size a
  k0_off167_inb : ∀ i : grid0.Coords, ∀ a, (k0_off167 i) a + S1.size a ≤ S8192.size a
  k0_off169_inb : ∀ i : grid0.Coords, ∀ a, (k0_off169 i) a + S1.size a ≤ S8192.size a
  k0_off171_inb : ∀ i : grid0.Coords, ∀ a, (k0_off171 i) a + S1.size a ≤ S8192.size a
  k0_off173_inb : ∀ i : grid0.Coords, ∀ a, (k0_off173 i) a + S1.size a ≤ S8192.size a
  k0_off175_inb : ∀ i : grid0.Coords, ∀ a, (k0_off175 i) a + S1.size a ≤ S8192.size a
  k0_off177_inb : ∀ i : grid0.Coords, ∀ a, (k0_off177 i) a + S1.size a ≤ S8192.size a
  k0_off179_inb : ∀ i : grid0.Coords, ∀ a, (k0_off179 i) a + S1.size a ≤ S8192.size a
  k0_off181_inb : ∀ i : grid0.Coords, ∀ a, (k0_off181 i) a + S1.size a ≤ S8192.size a
  k0_off183_inb : ∀ i : grid0.Coords, ∀ a, (k0_off183 i) a + S1.size a ≤ S8192.size a
  k0_off185_inb : ∀ i : grid0.Coords, ∀ a, (k0_off185 i) a + S1.size a ≤ S8192.size a
  k0_off187_inb : ∀ i : grid0.Coords, ∀ a, (k0_off187 i) a + S1.size a ≤ S8192.size a
  k0_off189_inb : ∀ i : grid0.Coords, ∀ a, (k0_off189 i) a + S1.size a ≤ S8192.size a
  k0_off191_inb : ∀ i : grid0.Coords, ∀ a, (k0_off191 i) a + S1.size a ≤ S8192.size a
  k0_off193_inb : ∀ i : grid0.Coords, ∀ a, (k0_off193 i) a + S1.size a ≤ S8192.size a
  k0_off195_inb : ∀ i : grid0.Coords, ∀ a, (k0_off195 i) a + S1.size a ≤ S8192.size a
  k0_off197_inb : ∀ i : grid0.Coords, ∀ a, (k0_off197 i) a + S1.size a ≤ S8192.size a
  k0_off199_inb : ∀ i : grid0.Coords, ∀ a, (k0_off199 i) a + S1.size a ≤ S8192.size a
  k0_off201_inb : ∀ i : grid0.Coords, ∀ a, (k0_off201 i) a + S1.size a ≤ S8192.size a
  k0_off203_inb : ∀ i : grid0.Coords, ∀ a, (k0_off203 i) a + S1.size a ≤ S8192.size a
  k0_off205_inb : ∀ i : grid0.Coords, ∀ a, (k0_off205 i) a + S1.size a ≤ S8192.size a
  k0_off207_inb : ∀ i : grid0.Coords, ∀ a, (k0_off207 i) a + S1.size a ≤ S8192.size a
  k0_off209_inb : ∀ i : grid0.Coords, ∀ a, (k0_off209 i) a + S1.size a ≤ S8192.size a
  k0_off211_inb : ∀ i : grid0.Coords, ∀ a, (k0_off211 i) a + S1.size a ≤ S8192.size a
  k0_off213_inb : ∀ i : grid0.Coords, ∀ a, (k0_off213 i) a + S1.size a ≤ S8192.size a
  k0_off215_inb : ∀ i : grid0.Coords, ∀ a, (k0_off215 i) a + S1.size a ≤ S8192.size a
  k0_off217_inb : ∀ i : grid0.Coords, ∀ a, (k0_off217 i) a + S1.size a ≤ S8192.size a
  k0_off219_inb : ∀ i : grid0.Coords, ∀ a, (k0_off219 i) a + S1.size a ≤ S8192.size a
  k0_off221_inb : ∀ i : grid0.Coords, ∀ a, (k0_off221 i) a + S1.size a ≤ S8192.size a
  k0_off223_inb : ∀ i : grid0.Coords, ∀ a, (k0_off223 i) a + S1.size a ≤ S8192.size a
  k0_off225_inb : ∀ i : grid0.Coords, ∀ a, (k0_off225 i) a + S1.size a ≤ S8192.size a
  k0_off227_inb : ∀ i : grid0.Coords, ∀ a, (k0_off227 i) a + S1.size a ≤ S8192.size a
  k0_off229_inb : ∀ i : grid0.Coords, ∀ a, (k0_off229 i) a + S1.size a ≤ S8192.size a
  k0_off231_inb : ∀ i : grid0.Coords, ∀ a, (k0_off231 i) a + S1.size a ≤ S8192.size a
  k0_off233_inb : ∀ i : grid0.Coords, ∀ a, (k0_off233 i) a + S1.size a ≤ S8192.size a
  k0_off235_inb : ∀ i : grid0.Coords, ∀ a, (k0_off235 i) a + S1.size a ≤ S8192.size a
  k0_off237_inb : ∀ i : grid0.Coords, ∀ a, (k0_off237 i) a + S1.size a ≤ S8192.size a
  k0_off239_inb : ∀ i : grid0.Coords, ∀ a, (k0_off239 i) a + S1.size a ≤ S8192.size a
  k0_off241_inb : ∀ i : grid0.Coords, ∀ a, (k0_off241 i) a + S1.size a ≤ S8192.size a
  k0_off243_inb : ∀ i : grid0.Coords, ∀ a, (k0_off243 i) a + S1.size a ≤ S8192.size a
  k0_off245_inb : ∀ i : grid0.Coords, ∀ a, (k0_off245 i) a + S1.size a ≤ S8192.size a
  k0_off247_inb : ∀ i : grid0.Coords, ∀ a, (k0_off247 i) a + S1.size a ≤ S8192.size a
  k0_off249_inb : ∀ i : grid0.Coords, ∀ a, (k0_off249 i) a + S1.size a ≤ S8192.size a
  k0_off251_inb : ∀ i : grid0.Coords, ∀ a, (k0_off251 i) a + S1.size a ≤ S8192.size a
  k0_off253_inb : ∀ i : grid0.Coords, ∀ a, (k0_off253 i) a + S1.size a ≤ S8192.size a
  k0_off255_inb : ∀ i : grid0.Coords, ∀ a, (k0_off255 i) a + S1.size a ≤ S8192.size a
  k0_off257_inb : ∀ i : grid0.Coords, ∀ a, (k0_off257 i) a + S1.size a ≤ S8192.size a
  k0_off259_inb : ∀ i : grid0.Coords, ∀ a, (k0_off259 i) a + S1.size a ≤ S8192.size a
  k0_off261_inb : ∀ i : grid0.Coords, ∀ a, (k0_off261 i) a + S1.size a ≤ S8192.size a
  k0_off263_inb : ∀ i : grid0.Coords, ∀ a, (k0_off263 i) a + S1.size a ≤ S8192.size a
  k0_off265_inb : ∀ i : grid0.Coords, ∀ a, (k0_off265 i) a + S1.size a ≤ S8192.size a
  k0_off267_inb : ∀ i : grid0.Coords, ∀ a, (k0_off267 i) a + S1.size a ≤ S8192.size a
  k0_off269_inb : ∀ i : grid0.Coords, ∀ a, (k0_off269 i) a + S1.size a ≤ S8192.size a
  k0_off271_inb : ∀ i : grid0.Coords, ∀ a, (k0_off271 i) a + S1.size a ≤ S8192.size a
  k0_off273_inb : ∀ i : grid0.Coords, ∀ a, (k0_off273 i) a + S1.size a ≤ S8192.size a
  k0_off275_inb : ∀ i : grid0.Coords, ∀ a, (k0_off275 i) a + S1.size a ≤ S8192.size a
  k0_off277_inb : ∀ i : grid0.Coords, ∀ a, (k0_off277 i) a + S1.size a ≤ S8192.size a
  k0_off279_inb : ∀ i : grid0.Coords, ∀ a, (k0_off279 i) a + S1.size a ≤ S8192.size a
  k0_off281_inb : ∀ i : grid0.Coords, ∀ a, (k0_off281 i) a + S1.size a ≤ S8192.size a
  k0_off283_inb : ∀ i : grid0.Coords, ∀ a, (k0_off283 i) a + S1.size a ≤ S8192.size a
  k0_off285_inb : ∀ i : grid0.Coords, ∀ a, (k0_off285 i) a + S1.size a ≤ S8192.size a
  k0_off287_inb : ∀ i : grid0.Coords, ∀ a, (k0_off287 i) a + S1.size a ≤ S8192.size a
  k0_off289_inb : ∀ i : grid0.Coords, ∀ a, (k0_off289 i) a + S1.size a ≤ S8192.size a
  k0_off291_inb : ∀ i : grid0.Coords, ∀ a, (k0_off291 i) a + S1.size a ≤ S8192.size a
  k0_off293_inb : ∀ i : grid0.Coords, ∀ a, (k0_off293 i) a + S1.size a ≤ S8192.size a
  k0_off295_inb : ∀ i : grid0.Coords, ∀ a, (k0_off295 i) a + S1.size a ≤ S8192.size a
  k0_off297_inb : ∀ i : grid0.Coords, ∀ a, (k0_off297 i) a + S1.size a ≤ S8192.size a
  k0_off299_inb : ∀ i : grid0.Coords, ∀ a, (k0_off299 i) a + S1.size a ≤ S8192.size a
  k0_off301_inb : ∀ i : grid0.Coords, ∀ a, (k0_off301 i) a + S1.size a ≤ S8192.size a
  k0_off303_inb : ∀ i : grid0.Coords, ∀ a, (k0_off303 i) a + S1.size a ≤ S8192.size a
  k0_off305_inb : ∀ i : grid0.Coords, ∀ a, (k0_off305 i) a + S1.size a ≤ S8192.size a
  k0_off307_inb : ∀ i : grid0.Coords, ∀ a, (k0_off307 i) a + S1.size a ≤ S8192.size a
  k0_off309_inb : ∀ i : grid0.Coords, ∀ a, (k0_off309 i) a + S1.size a ≤ S8192.size a
  k0_off311_inb : ∀ i : grid0.Coords, ∀ a, (k0_off311 i) a + S1.size a ≤ S8192.size a
  k0_off313_inb : ∀ i : grid0.Coords, ∀ a, (k0_off313 i) a + S1.size a ≤ S8192.size a
  k0_off315_inb : ∀ i : grid0.Coords, ∀ a, (k0_off315 i) a + S1.size a ≤ S8192.size a
  k0_off317_inb : ∀ i : grid0.Coords, ∀ a, (k0_off317 i) a + S1.size a ≤ S8192.size a
  k0_off319_inb : ∀ i : grid0.Coords, ∀ a, (k0_off319 i) a + S1.size a ≤ S8192.size a
  k0_off321_inb : ∀ i : grid0.Coords, ∀ a, (k0_off321 i) a + S1.size a ≤ S8192.size a
  k0_off323_inb : ∀ i : grid0.Coords, ∀ a, (k0_off323 i) a + S1.size a ≤ S8192.size a
  k0_off325_inb : ∀ i : grid0.Coords, ∀ a, (k0_off325 i) a + S1.size a ≤ S8192.size a
  k0_off327_inb : ∀ i : grid0.Coords, ∀ a, (k0_off327 i) a + S1.size a ≤ S8192.size a
  k0_off329_inb : ∀ i : grid0.Coords, ∀ a, (k0_off329 i) a + S1.size a ≤ S8192.size a
  k0_off331_inb : ∀ i : grid0.Coords, ∀ a, (k0_off331 i) a + S1.size a ≤ S8192.size a
  k0_off333_inb : ∀ i : grid0.Coords, ∀ a, (k0_off333 i) a + S1.size a ≤ S8192.size a
  k0_off335_inb : ∀ i : grid0.Coords, ∀ a, (k0_off335 i) a + S1.size a ≤ S8192.size a
  k0_off337_inb : ∀ i : grid0.Coords, ∀ a, (k0_off337 i) a + S1.size a ≤ S8192.size a
  k0_off339_inb : ∀ i : grid0.Coords, ∀ a, (k0_off339 i) a + S1.size a ≤ S8192.size a
  k0_off341_inb : ∀ i : grid0.Coords, ∀ a, (k0_off341 i) a + S1.size a ≤ S8192.size a
  k0_off343_inb : ∀ i : grid0.Coords, ∀ a, (k0_off343 i) a + S1.size a ≤ S8192.size a
  k0_off345_inb : ∀ i : grid0.Coords, ∀ a, (k0_off345 i) a + S1.size a ≤ S8192.size a
  k0_off347_inb : ∀ i : grid0.Coords, ∀ a, (k0_off347 i) a + S1.size a ≤ S8192.size a
  k0_off349_inb : ∀ i : grid0.Coords, ∀ a, (k0_off349 i) a + S1.size a ≤ S8192.size a
  k0_off351_inb : ∀ i : grid0.Coords, ∀ a, (k0_off351 i) a + S1.size a ≤ S8192.size a
  k0_off353_inb : ∀ i : grid0.Coords, ∀ a, (k0_off353 i) a + S1.size a ≤ S8192.size a
  k0_off355_inb : ∀ i : grid0.Coords, ∀ a, (k0_off355 i) a + S1.size a ≤ S8192.size a
  k0_off357_inb : ∀ i : grid0.Coords, ∀ a, (k0_off357 i) a + S1.size a ≤ S8192.size a
  k0_off359_inb : ∀ i : grid0.Coords, ∀ a, (k0_off359 i) a + S1.size a ≤ S8192.size a
  k0_off361_inb : ∀ i : grid0.Coords, ∀ a, (k0_off361 i) a + S1.size a ≤ S8192.size a
  k0_off363_inb : ∀ i : grid0.Coords, ∀ a, (k0_off363 i) a + S1.size a ≤ S8192.size a
  k0_off365_inb : ∀ i : grid0.Coords, ∀ a, (k0_off365 i) a + S1.size a ≤ S8192.size a
  k0_off367_inb : ∀ i : grid0.Coords, ∀ a, (k0_off367 i) a + S1.size a ≤ S8192.size a
  k0_off369_inb : ∀ i : grid0.Coords, ∀ a, (k0_off369 i) a + S1.size a ≤ S8192.size a
  k0_off371_inb : ∀ i : grid0.Coords, ∀ a, (k0_off371 i) a + S1.size a ≤ S8192.size a
  k0_off373_inb : ∀ i : grid0.Coords, ∀ a, (k0_off373 i) a + S1.size a ≤ S8192.size a
  k0_off375_inb : ∀ i : grid0.Coords, ∀ a, (k0_off375 i) a + S1.size a ≤ S8192.size a
  k0_off377_inb : ∀ i : grid0.Coords, ∀ a, (k0_off377 i) a + S1.size a ≤ S8192.size a
  k0_off379_inb : ∀ i : grid0.Coords, ∀ a, (k0_off379 i) a + S1.size a ≤ S8192.size a
  k0_off381_inb : ∀ i : grid0.Coords, ∀ a, (k0_off381 i) a + S1.size a ≤ S8192.size a
  k0_off383_inb : ∀ i : grid0.Coords, ∀ a, (k0_off383 i) a + S1.size a ≤ S8192.size a
  k0_off385_inb : ∀ i : grid0.Coords, ∀ a, (k0_off385 i) a + S1.size a ≤ S8192.size a
  k0_off387_inb : ∀ i : grid0.Coords, ∀ a, (k0_off387 i) a + S1.size a ≤ S8192.size a
  k0_off389_inb : ∀ i : grid0.Coords, ∀ a, (k0_off389 i) a + S1.size a ≤ S8192.size a
  k0_off391_inb : ∀ i : grid0.Coords, ∀ a, (k0_off391 i) a + S1.size a ≤ S8192.size a
  k0_off393_inb : ∀ i : grid0.Coords, ∀ a, (k0_off393 i) a + S1.size a ≤ S8192.size a
  k0_off395_inb : ∀ i : grid0.Coords, ∀ a, (k0_off395 i) a + S1.size a ≤ S8192.size a
  k0_off397_inb : ∀ i : grid0.Coords, ∀ a, (k0_off397 i) a + S1.size a ≤ S8192.size a
  k0_off399_inb : ∀ i : grid0.Coords, ∀ a, (k0_off399 i) a + S1.size a ≤ S8192.size a
  k0_off401_inb : ∀ i : grid0.Coords, ∀ a, (k0_off401 i) a + S1.size a ≤ S8192.size a
  k0_off403_inb : ∀ i : grid0.Coords, ∀ a, (k0_off403 i) a + S1.size a ≤ S8192.size a
  k0_off405_inb : ∀ i : grid0.Coords, ∀ a, (k0_off405 i) a + S1.size a ≤ S8192.size a
  k0_off407_inb : ∀ i : grid0.Coords, ∀ a, (k0_off407 i) a + S1.size a ≤ S8192.size a
  k0_off409_inb : ∀ i : grid0.Coords, ∀ a, (k0_off409 i) a + S1.size a ≤ S8192.size a
  k0_off411_inb : ∀ i : grid0.Coords, ∀ a, (k0_off411 i) a + S1.size a ≤ S8192.size a
  k0_off413_inb : ∀ i : grid0.Coords, ∀ a, (k0_off413 i) a + S1.size a ≤ S8192.size a
  k0_off415_inb : ∀ i : grid0.Coords, ∀ a, (k0_off415 i) a + S1.size a ≤ S8192.size a
  k0_off417_inb : ∀ i : grid0.Coords, ∀ a, (k0_off417 i) a + S1.size a ≤ S8192.size a
  k0_off419_inb : ∀ i : grid0.Coords, ∀ a, (k0_off419 i) a + S1.size a ≤ S8192.size a
  k0_off421_inb : ∀ i : grid0.Coords, ∀ a, (k0_off421 i) a + S1.size a ≤ S8192.size a
  k0_off423_inb : ∀ i : grid0.Coords, ∀ a, (k0_off423 i) a + S1.size a ≤ S8192.size a
  k0_off425_inb : ∀ i : grid0.Coords, ∀ a, (k0_off425 i) a + S1.size a ≤ S8192.size a
  k0_off427_inb : ∀ i : grid0.Coords, ∀ a, (k0_off427 i) a + S1.size a ≤ S8192.size a
  k0_off429_inb : ∀ i : grid0.Coords, ∀ a, (k0_off429 i) a + S1.size a ≤ S8192.size a
  k0_off431_inb : ∀ i : grid0.Coords, ∀ a, (k0_off431 i) a + S1.size a ≤ S8192.size a
  k0_off433_inb : ∀ i : grid0.Coords, ∀ a, (k0_off433 i) a + S1.size a ≤ S8192.size a
  k0_off435_inb : ∀ i : grid0.Coords, ∀ a, (k0_off435 i) a + S1.size a ≤ S8192.size a
  k0_off437_inb : ∀ i : grid0.Coords, ∀ a, (k0_off437 i) a + S1.size a ≤ S8192.size a
  k0_off439_inb : ∀ i : grid0.Coords, ∀ a, (k0_off439 i) a + S1.size a ≤ S8192.size a
  k0_off441_inb : ∀ i : grid0.Coords, ∀ a, (k0_off441 i) a + S1.size a ≤ S8192.size a
  k0_off443_inb : ∀ i : grid0.Coords, ∀ a, (k0_off443 i) a + S1.size a ≤ S8192.size a
  k0_off445_inb : ∀ i : grid0.Coords, ∀ a, (k0_off445 i) a + S1.size a ≤ S8192.size a
  k0_off447_inb : ∀ i : grid0.Coords, ∀ a, (k0_off447 i) a + S1.size a ≤ S8192.size a
  k0_off449_inb : ∀ i : grid0.Coords, ∀ a, (k0_off449 i) a + S1.size a ≤ S8192.size a
  k0_off451_inb : ∀ i : grid0.Coords, ∀ a, (k0_off451 i) a + S1.size a ≤ S8192.size a
  k0_off453_inb : ∀ i : grid0.Coords, ∀ a, (k0_off453 i) a + S1.size a ≤ S8192.size a
  k0_off455_inb : ∀ i : grid0.Coords, ∀ a, (k0_off455 i) a + S1.size a ≤ S8192.size a
  k0_off457_inb : ∀ i : grid0.Coords, ∀ a, (k0_off457 i) a + S1.size a ≤ S8192.size a
  k0_off459_inb : ∀ i : grid0.Coords, ∀ a, (k0_off459 i) a + S1.size a ≤ S8192.size a
  k0_off461_inb : ∀ i : grid0.Coords, ∀ a, (k0_off461 i) a + S1.size a ≤ S8192.size a
  k0_off463_inb : ∀ i : grid0.Coords, ∀ a, (k0_off463 i) a + S1.size a ≤ S8192.size a
  k0_off465_inb : ∀ i : grid0.Coords, ∀ a, (k0_off465 i) a + S1.size a ≤ S8192.size a
  k0_off467_inb : ∀ i : grid0.Coords, ∀ a, (k0_off467 i) a + S1.size a ≤ S8192.size a
  k0_off469_inb : ∀ i : grid0.Coords, ∀ a, (k0_off469 i) a + S1.size a ≤ S8192.size a
  k0_off471_inb : ∀ i : grid0.Coords, ∀ a, (k0_off471 i) a + S1.size a ≤ S8192.size a
  k0_off473_inb : ∀ i : grid0.Coords, ∀ a, (k0_off473 i) a + S1.size a ≤ S8192.size a
  k0_off475_inb : ∀ i : grid0.Coords, ∀ a, (k0_off475 i) a + S1.size a ≤ S8192.size a
  k0_off477_inb : ∀ i : grid0.Coords, ∀ a, (k0_off477 i) a + S1.size a ≤ S8192.size a
  k0_off479_inb : ∀ i : grid0.Coords, ∀ a, (k0_off479 i) a + S1.size a ≤ S8192.size a
  k0_off481_inb : ∀ i : grid0.Coords, ∀ a, (k0_off481 i) a + S1.size a ≤ S8192.size a
  k0_off483_inb : ∀ i : grid0.Coords, ∀ a, (k0_off483 i) a + S1.size a ≤ S8192.size a
  k0_off485_inb : ∀ i : grid0.Coords, ∀ a, (k0_off485 i) a + S1.size a ≤ S8192.size a
  k0_off487_inb : ∀ i : grid0.Coords, ∀ a, (k0_off487 i) a + S1.size a ≤ S8192.size a
  k0_off489_inb : ∀ i : grid0.Coords, ∀ a, (k0_off489 i) a + S1.size a ≤ S8192.size a
  k0_off491_inb : ∀ i : grid0.Coords, ∀ a, (k0_off491 i) a + S1.size a ≤ S8192.size a
  k0_off493_inb : ∀ i : grid0.Coords, ∀ a, (k0_off493 i) a + S1.size a ≤ S8192.size a
  k0_off495_inb : ∀ i : grid0.Coords, ∀ a, (k0_off495 i) a + S1.size a ≤ S8192.size a
  k0_off497_inb : ∀ i : grid0.Coords, ∀ a, (k0_off497 i) a + S1.size a ≤ S8192.size a
  k0_off499_inb : ∀ i : grid0.Coords, ∀ a, (k0_off499 i) a + S1.size a ≤ S8192.size a
  k0_off501_inb : ∀ i : grid0.Coords, ∀ a, (k0_off501 i) a + S1.size a ≤ S8192.size a
  k0_off503_inb : ∀ i : grid0.Coords, ∀ a, (k0_off503 i) a + S1.size a ≤ S8192.size a
  k0_off505_inb : ∀ i : grid0.Coords, ∀ a, (k0_off505 i) a + S1.size a ≤ S8192.size a
  k0_off507_inb : ∀ i : grid0.Coords, ∀ a, (k0_off507 i) a + S1.size a ≤ S8192.size a
  k0_off509_inb : ∀ i : grid0.Coords, ∀ a, (k0_off509 i) a + S1.size a ≤ S8192.size a
  k0_off511_inb : ∀ i : grid0.Coords, ∀ a, (k0_off511 i) a + S1.size a ≤ S8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .f32 = 32 ∨ (Rect.block (s := S8192x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S8192x2048.size a
  hwx0_1 : ∀ i : grid0.Coords, EltTy.bits .f32 = 32 ∨ (Rect.block (s := S8192x2048) S128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S8192x2048.size a
  hwx0_2 : ∀ i : grid0.Coords, EltTy.bits .f32 = 32 ∨ (Rect.block (s := S8192x2048) S128x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8192.size a ≤ S8192.size a
  hwx0_3 : ∀ i : grid0.Coords, EltTy.bits .f32 = 32 ∨ (Rect.block (s := S8192) S8192.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096.size a ≤ S4096.size a
  hwx0_4 : ∀ i : grid0.Coords, EltTy.bits .f32 = 32 ∨ (Rect.block (s := S4096) S4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x4096.size a ≤ S8192x4096.size a
  hwx0_5 : ∀ i : grid0.Coords, EltTy.bits .f32 = 32 ∨ (Rect.block (s := S8192x4096) S128x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S8192x1.size a
  hwx0_6 : ∀ i : grid0.Coords, EltTy.bits .f32 = 32 ∨ (Rect.block (s := S8192x1) S128x1.size (cc0_transform_6 i) (hinb0_6 i)).WholeWords (EltTy.packing .f32)

variable [Facts₀]

abbrev cc0_scratch1 : DmaSems sig S128 := SemArray.consecutive 12 S128 hcc0_scratch1

abbrev spec0_0 : Pipeline.WinSpec sig grid0.rank :=
  Pipeline.WinSpec.ofSpec (Memref.whole main_arg1) S128x4096.size reads0_0 false false 2 stage0_0 sem0_0 nbuf0_0 hstage0_0

abbrev spec0_1 : Pipeline.WinSpec sig grid0.rank :=
  Pipeline.WinSpec.ofSpec (Memref.whole main_v8) S128x2048.size reads0_1 false false 2 stage0_1 sem0_1 nbuf0_1 hstage0_1

abbrev spec0_2 : Pipeline.WinSpec sig grid0.rank :=
  Pipeline.WinSpec.ofSpec (Memref.whole main_v10) S128x2048.size reads0_2 false false 2 stage0_2 sem0_2 nbuf0_2 hstage0_2

abbrev spec0_3 : Pipeline.WinSpec sig grid0.rank :=
  Pipeline.WinSpec.ofSpec (Memref.whole main_v6) S8192.size reads0_3 false true 1 stage0_3 sem0_3 nbuf0_3 hstage0_3

abbrev spec0_4 : Pipeline.WinSpec sig grid0.rank :=
  Pipeline.WinSpec.ofSpec (Memref.whole main_arg0) S4096.size reads0_4 false true 1 stage0_4 sem0_4 nbuf0_4 hstage0_4

abbrev spec0_5 : Pipeline.WinSpec sig grid0.rank :=
  Pipeline.WinSpec.ofSpec (Memref.whole main_v11_0) S128x4096.size reads0_5 true false 2 stage0_5 sem0_5 nbuf0_5 hstage0_5

abbrev spec0_6 : Pipeline.WinSpec sig grid0.rank :=
  Pipeline.WinSpec.ofSpec (Memref.whole main_v11_1) S128x1.size reads0_6 true false 2 stage0_6 sem0_6 nbuf0_6 hstage0_6

abbrev spec0 : Fin 7 → Pipeline.WinSpec sig grid0.rank := fun | 0 => spec0_0 | 1 => spec0_1 | 2 => spec0_2 | 3 => spec0_3 | 4 => spec0_4 | 5 => spec0_5 | 6 => spec0_6 | ⟨_ + 7, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | ⟨_ + 7, h⟩ => absurd h (Nat.not_lt.2 (Nat.le_add_left _ _))
abbrev ix0 (pf : pre0.Contents (Elt F)) : (w : Fin 7) → grid0.Coords → Fin (spec0 w).shape.rank → Nat := fun | 0 => cc0_transform_0 | 1 => cc0_transform_1 | 2 => cc0_transform_2 | 3 => cc0_transform_3 | 4 => cc0_transform_4 | 5 => cc0_transform_5 | 6 => cc0_transform_6 | ⟨_ + 7, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | ⟨_ + 7, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | ⟨_ + 7, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | ⟨_ + 7, h⟩ => absurd h (Nat.not_lt.2 (Nat.le_add_left _ _))

class Facts : Prop extends Facts₀ where
  harr0 : ∀ w, (spec0 w).arr.IsWhole

variable [Facts]
-- ==== ReferenceIdeal.lean ====
abbrev S4096 : Shape := ⟨1, ![4096]⟩
abbrev S8192x4096 : Shape := ⟨2, ![8192, 4096]⟩
abbrev S8192 : Shape := ⟨1, ![8192]⟩
abbrev S_ : Shape := ⟨0, ![]⟩
abbrev S1x4096 : Shape := ⟨2, ![1, 4096]⟩
abbrev S8192x1 : Shape := ⟨2, ![8192, 1]⟩
abbrev S8192x2048 : Shape := ⟨2, ![8192, 2048]⟩
abbrev S8192x6144 : Shape := ⟨2, ![8192, 6144]⟩
abbrev S8192x8192 : Shape := ⟨2, ![8192, 8192]⟩
abbrev S8192x4096x1 : Shape := ⟨3, ![8192, 4096, 1]⟩
abbrev S1 : Shape := ⟨1, ![1]⟩
abbrev S1x1x1 : Shape := ⟨3, ![1, 1, 1]⟩
abbrev S8192x1x4096 : Shape := ⟨3, ![8192, 1, 4096]⟩

abbrev nBuf : Space → Nat
  | .hbm => 98
  | .vmem => 0
  | .smem => 0
  | _ => 0

abbrev bufTy : (tb : Table) → Fin (tcTables nBuf tb) → BufTy
  | .hbm, ⟨0, _⟩ => ⟨S4096, .f32⟩
  | .hbm, ⟨1, _⟩ => ⟨S8192x4096, .f32⟩
  | .hbm, ⟨2, _⟩ => ⟨S8192, .i32⟩
  | .hbm, ⟨3, _⟩ => ⟨S4096, .f32⟩
  | .hbm, ⟨4, _⟩ => ⟨S4096, .f32⟩
  | .hbm, ⟨5, _⟩ => ⟨S_, .f32⟩
  | .hbm, ⟨6, _⟩ => ⟨S4096, .f32⟩
  | .hbm, ⟨7, _⟩ => ⟨S4096, .f32⟩
  | .hbm, ⟨8, _⟩ => ⟨S_, .f32⟩
  | .hbm, ⟨9, _⟩ => ⟨S4096, .f32⟩
  | .hbm, ⟨10, _⟩ => ⟨S4096, .f32⟩
  | .hbm, ⟨11, _⟩ => ⟨S1x4096, .f32⟩
  | .hbm, ⟨12, _⟩ => ⟨S8192x4096, .f32⟩
  | .hbm, ⟨13, _⟩ => ⟨S8192x4096, .i1⟩
  | .hbm, ⟨14, _⟩ => ⟨S8192x4096, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S4096, .f32⟩
  | .hbm, ⟨21, _⟩ => ⟨S4096, .i1⟩
  | .hbm, ⟨22, _⟩ => ⟨S4096, .f32⟩
  | .hbm, ⟨23, _⟩ => ⟨S4096, .f32⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S4096, .f32⟩
  | .hbm, ⟨28, _⟩ => ⟨S4096, .f32⟩
  | .hbm, ⟨29, _⟩ => ⟨S4096, .f32⟩
  | .hbm, ⟨30, _⟩ => ⟨S4096, .f32⟩
  | .hbm, ⟨31, _⟩ => ⟨S1x4096, .f32⟩
  | .hbm, ⟨32, _⟩ => ⟨S8192x4096, .f32⟩
  | .hbm, ⟨33, _⟩ => ⟨S8192x4096, .f32⟩
  | .hbm, ⟨34, _⟩ => ⟨S_, .f32⟩
  | .hbm, ⟨35, _⟩ => ⟨S8192x4096, .f32⟩
  | .hbm, ⟨36, _⟩ => ⟨S8192x4096, .f32⟩
  | .hbm, ⟨37, _⟩ => ⟨S4096, .f32⟩
  | .hbm, ⟨38, _⟩ => ⟨S4096, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S4096, .f32⟩
  | .hbm, ⟨43, _⟩ => ⟨S4096, .f32⟩
  | .hbm, ⟨44, _⟩ => ⟨S4096, .i1⟩
  | .hbm, ⟨45, _⟩ => ⟨S4096, .f32⟩
  | .hbm, ⟨46, _⟩ => ⟨S4096, .f32⟩
  | .hbm, ⟨47, _⟩ => ⟨S4096, .f32⟩
  | .hbm, ⟨48, _⟩ => ⟨S4096, .f32⟩
  | .hbm, ⟨49, _⟩ => ⟨S4096, .f32⟩
  | .hbm, ⟨50, _⟩ => ⟨S4096, .f32⟩
  | .hbm, ⟨51, _⟩ => ⟨S4096, .f32⟩
  | .hbm, ⟨52, _⟩ => ⟨S4096, .f32⟩
  | .hbm, ⟨53, _⟩ => ⟨S4096, .f32⟩
  | .hbm, ⟨54, _⟩ => ⟨S1x4096, .f32⟩
  | .hbm, ⟨55, _⟩ => ⟨S8192x4096, .f32⟩
  | .hbm, ⟨56, _⟩ => ⟨S8192x4096, .f32⟩
  | .hbm, ⟨57, _⟩ => ⟨S8192x4096, .f32⟩
  | .hbm, ⟨58, _⟩ => ⟨S_, .f32⟩
  | .hbm, ⟨59, _⟩ => ⟨S8192, .f32⟩
  | .hbm, ⟨60, _⟩ => ⟨S_, .i32⟩
  | .hbm, ⟨61, _⟩ => ⟨S8192x1, .f32⟩
  | .hbm, ⟨62, _⟩ => ⟨S8192x2048, .f32⟩
  | .hbm, ⟨63, _⟩ => ⟨S8192x2048, .f32⟩
  | .hbm, ⟨64, _⟩ => ⟨S8192x6144, .f32⟩
  | .hbm, ⟨65, _⟩ => ⟨S8192x1, .f32⟩
  | .hbm, ⟨66, _⟩ => ⟨S8192x2048, .f32⟩
  | .hbm, ⟨67, _⟩ => ⟨S8192x2048, .f32⟩
  | .hbm, ⟨68, _⟩ => ⟨S8192x8192, .f32⟩
  | .hbm, ⟨69, _⟩ => ⟨S8192x1, .i32⟩
  | .hbm, ⟨70, _⟩ => ⟨S4096, .i32⟩
  | .hbm, ⟨71, _⟩ => ⟨S1x4096, .i32⟩
  | .hbm, ⟨72, _⟩ => ⟨S8192x4096, .i32⟩
  | .hbm, ⟨73, _⟩ => ⟨S8192x4096, .i32⟩
  | .hbm, ⟨74, _⟩ => ⟨S8192x4096, .i32⟩
  | .hbm, ⟨75, _⟩ => ⟨S_, .i32⟩
  | .hbm, ⟨76, _⟩ => ⟨S8192x4096, .i32⟩
  | .hbm, ⟨77, _⟩ => ⟨S8192x4096, .i1⟩
  | .hbm, ⟨78, _⟩ => ⟨S_, .i32⟩
  | .hbm, ⟨79, _⟩ => ⟨S8192x4096, .i32⟩
  | .hbm, ⟨80, _⟩ => ⟨S8192x4096, .i32⟩
  | .hbm, ⟨81, _⟩ => ⟨S8192x4096, .i32⟩
  | .hbm, ⟨82, _⟩ => ⟨S8192x4096x1, .i32⟩
  | .hbm, ⟨83, _⟩ => ⟨S1, .i32⟩
  | .hbm, ⟨84, _⟩ => ⟨S_, .i32⟩
  | .hbm, ⟨85, _⟩ => ⟨S8192x4096x1, .i32⟩
  | .hbm, ⟨86, _⟩ => ⟨S8192x4096x1, .i1⟩
  | .hbm, ⟨87, _⟩ => ⟨S1x1x1, .i32⟩
  | .hbm, ⟨88, _⟩ => ⟨S8192x4096x1, .i32⟩
  | .hbm, ⟨89, _⟩ => ⟨S8192x4096x1, .i1⟩
  | .hbm, ⟨90, _⟩ => ⟨S8192x4096x1, .i1⟩
  | .hbm, ⟨91, _⟩ => ⟨S_, .i1⟩
  | .hbm, ⟨92, _⟩ => ⟨S8192x4096, .i1⟩
  | .hbm, ⟨93, _⟩ => ⟨S8192x4096, .f32⟩
  | .hbm, ⟨94, _⟩ => ⟨S_, .f32⟩
  | .hbm, ⟨95, _⟩ => ⟨S8192x4096, .f32⟩
  | .hbm, ⟨96, _⟩ => ⟨S8192x4096, .f32⟩
  | .hbm, ⟨97, _⟩ => ⟨S8192x1x4096, .f32⟩
  | _, _ => ⟨S4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_call1_v0 : Ref sig .tc := ⟨.hbm, 38, rfl⟩
abbrev main_call1_call0_cst : Ref sig .tc := ⟨.hbm, 39, rfl⟩
abbrev main_call1_call0_v0 : Ref sig .tc := ⟨.hbm, 40, rfl⟩
abbrev main_call1_call0_v1 : Ref sig .tc := ⟨.hbm, 41, rfl⟩
abbrev main_call1_call0_v2 : Ref sig .tc := ⟨.hbm, 42, rfl⟩
abbrev main_call1_call0_v3 : Ref sig .tc := ⟨.hbm, 43, rfl⟩
abbrev main_call1_call0_v4 : Ref sig .tc := ⟨.hbm, 44, rfl⟩
abbrev main_call1_call0_v5 : Ref sig .tc := ⟨.hbm, 45, rfl⟩
abbrev main_call1_call0_v6 : Ref sig .tc := ⟨.hbm, 46, rfl⟩
abbrev main_call1_call0_v7 : Ref sig .tc := ⟨.hbm, 47, rfl⟩
abbrev main_call1_call0_v8 : Ref sig .tc := ⟨.hbm, 48, rfl⟩
abbrev main_call1_call0_v9 : Ref sig .tc := ⟨.hbm, 49, rfl⟩
abbrev main_call1_call0_v10 : Ref sig .tc := ⟨.hbm, 50, rfl⟩
abbrev main_call1_call0_v11 : Ref sig .tc := ⟨.hbm, 51, rfl⟩
abbrev main_call1_v1 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_2 : Ref sig .tc := ⟨.hbm, 58, rfl⟩
abbrev main_v22 : Ref sig .tc := ⟨.hbm, 59, rfl⟩
abbrev main_c : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_v6 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_call3_c : Ref sig .tc := ⟨.hbm, 75, rfl⟩
abbrev main_call3_v0 : Ref sig .tc := ⟨.hbm, 76, rfl⟩
abbrev main_call3_v1 : Ref sig .tc := ⟨.hbm, 77, rfl⟩
abbrev main_call3_c_0 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_v5 : Ref sig .tc := ⟨.hbm, 82, rfl⟩
abbrev main_call3_c_1 : Ref sig .tc := ⟨.hbm, 83, rfl⟩
abbrev main_call3_c_2 : Ref sig .tc := ⟨.hbm, 84, rfl⟩
abbrev main_call3_v6 : Ref sig .tc := ⟨.hbm, 85, rfl⟩
abbrev main_call3_v7 : Ref sig .tc := ⟨.hbm, 86, rfl⟩
abbrev main_call3_v8 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_c_3 : Ref sig .tc := ⟨.hbm, 91, rfl⟩
abbrev main_call3_v12 : Ref sig .tc := ⟨.hbm, 92, rfl⟩
abbrev main_call3_v13 : Ref sig .tc := ⟨.hbm, 93, rfl⟩
abbrev main_call3_cst : Ref sig .tc := ⟨.hbm, 94, rfl⟩
abbrev main_call3_v14 : Ref sig .tc := ⟨.hbm, 95, rfl⟩
abbrev main_v30 : Ref sig .tc := ⟨.hbm, 96, rfl⟩
abbrev main_v31 : Ref sig .tc := ⟨.hbm, 97, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  reducesTo_S8192x4096_S8192_d1 : S8192x4096.ReducesTo [1] S8192
  h_S_ : 0 < S_.numel
  slices_S8192x4096_S8192x1_0_0 : S8192x4096.Slices ![0, 0] S8192x1
  slices_S8192x4096_S8192x2048_0_1 : S8192x4096.Slices ![0, 1] S8192x2048
  concatenates_S8192x2048_S8192x4096_S8192x6144_d1 : Shape.Concatenates [S8192x2048, S8192x4096] S8192x6144 1
  slices_S8192x6144_S8192x1_0_6143 : S8192x6144.Slices ![0, 6143] S8192x1
  slices_S8192x6144_S8192x2048_0_4095 : S8192x6144.Slices ![0, 4095] S8192x2048
  concatenates_S8192x6144_S8192x2048_S8192x8192_d1 : Shape.Concatenates [S8192x6144, S8192x2048] S8192x8192 1
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)
  shapeCasts_S8192x4096_S8192x4096x1 : S8192x4096.ShapeCasts S8192x4096x1
  bcast_S_S8192x4096x1 : S_.BroadcastsInDim S8192x4096x1 (![] : Fin 0 → Fin S8192x4096x1.rank)
  bcast_S1_S1x1x1_2 : S1.BroadcastsInDim S1x1x1 (![2] : Fin 1 → Fin S1x1x1.rank)
  bcast_S1x1x1_S8192x4096x1_0_1_2 : S1x1x1.BroadcastsInDim S8192x4096x1 (![0, 1, 2] : Fin 3 → Fin S8192x4096x1.rank)
  reducesTo_S8192x4096x1_S8192x4096_d2 : S8192x4096x1.ReducesTo [2] S8192x4096
  bcast_S8192x4096_S8192x1x4096_0_2 : S8192x4096.BroadcastsInDim S8192x1x4096 (![0, 2] : Fin 2 → Fin S8192x1x4096.rank)
  gather_S8192x8192_S8192x4096x1_S8192x4096_n_1_0_0_1_2_11_wf : GatherDims.WF S8192x8192 S8192x4096x1 S8192x4096 [] [1] [0] [1] [0] 2 ![1, 1]

variable [Facts₀]

def gather_S8192x8192_S8192x4096x1_S8192x4096_n_1_0_0_1_2_11 : GatherDims S8192x8192 S8192x4096x1 S8192x4096 where
  offsetDims := []
  collapsedSliceDims := [1]
  operandBatchingDims := [0]
  startIndicesBatchingDims := [0]
  startIndexMap := [1]
  indexVectorDim := 2
  sliceSizes := ![1, 1]
  wf := gather_S8192x8192_S8192x4096x1_S8192x4096_n_1_0_0_1_2_11_wf

class Facts : Prop extends Facts₀ where

variable [Facts]
-- ==== Proof.PreFacts.lean ====
/-
  The precondition, decoded. The printed predicate says: every |logit| is below +inf, every |u| is below +inf, and
  every shift word w has 0 ≤ w ≤ 4096 signed; each part is an "all" (a reduction by "and" from 1), and the three parts
  are joined by "and". From "the predicate is 1" come the elementwise facts: a shift word is at most 4096 as a natural
  number (for every float instance: only the integer part is opened), and at the ideal instance each logit is a real.
-/
import proofs.«422330_j45105746542888_3_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.PreFacts

open Idealize.ShloMosaic Idealize.ShloMosaic.ValueIdx Cert.Pre_finite_inputs

/-- The scalar shape has one index. -/
instance : Subsingleton S_.Idx := ⟨fun a b => funext fun d => d.elim0⟩

/-- A 32-bit word w with 0 ≤ w and w ≤ 4096, both signed, is at most 4096 unsigned. -/
theorem toNat_le_of_signed (w : BitVec 32) (h0 : IntOp.cmpi .sge w (0#32) = 1#1)
    (h1 : IntOp.cmpi .sle w (4096#32) = 1#1) : w.toNat ≤ 4096 := by
  unfold IntOp.cmpi at h0 h1
  rw [StableHlo.Predicate.ofBool_eq_one_iff] at h0 h1
  simp only [BitVec.sle, decide_eq_true_eq] at h0 h1
  have h32 := w.isLt
  unfold BitVec.toInt at h0 h1
  split at h1 <;> simp at h0 h1 <;> omega

theorem shift_le {F : FTy → Type} [FloatOps F] (a0 : FVec F S4096 .f32) (a1 : FVec F S8192x4096 .f32) (a2 : IVec S8192 32)
    (h : Cert.Pre_finite_inputs.fn (F := F) a0 a1 a2 = fun _ => 1#1) (r : Fin 8192) : (a2 (ix1 r)).toNat ≤ 4096 := by
  have e := congrFun h ValueIdx.ix0
  dsimp only [Cert.Pre_finite_inputs.fn] at e
  -- the outer "and" at the one scalar index: the float parts on the left, the integer part on the right
  obtain ⟨-, hI⟩ := IntOp.andi_eq_one.1 e
  -- the integer part is an "all" over the 8192 words: read it at word r
  have hr := Host.reduce_andi_all _ _ _ _ _ hI (ix1 r)
  obtain ⟨h0, h1⟩ := IntOp.andi_eq_one.1 hr
  exact toNat_le_of_signed (a2 (ix1 r)) h0 h1

/-- An extended real whose absolute value (the larger of x and -x) is below +inf is a real. -/
theorem real_of_abs_lt_top (x : EReal) (hx : max x (-x) < ⊤) : ∃ y : ℝ, x = (y : EReal) := by
  induction x using EReal.rec with
  | bot => simp at hx
  | coe y => exact ⟨y, rfl⟩
  | top => simp at hx

theorem logits_finite (a0 : FVec Ideal S4096 .f32) (a1 : FVec Ideal S8192x4096 .f32) (a2 : IVec S8192 32)
    (h : Cert.Pre_finite_inputs.fn (F := Ideal) a0 a1 a2 = fun _ => 1#1) (j : Fin 4096) : ∃ x : ℝ, a0 (ix1 j) = (x : EReal) := by
  have e := congrFun h ValueIdx.ix0
  dsimp only [Cert.Pre_finite_inputs.fn] at e
  obtain ⟨hF, -⟩ := IntOp.andi_eq_one.1 e
  obtain ⟨hL, -⟩ := IntOp.andi_eq_one.1 hF
  have hj := Host.reduce_andi_all _ _ _ _ _ hL (ix1 j)
  -- at the ideal instance the comparison at logit j is the order's: |a0 j| < (the pattern of +inf)
  have hlt : BitVec.ofBool (decide (max (a0 (ix1 j)) (-(a0 (ix1 j))) < Ideal.ofBits .f32 0x7F800000#32)) = 1#1 := hj
  have htop : Ideal.ofBits .f32 0x7F800000#32 = (⊤ : EReal) := by simp [Ideal.ofBits, Ideal.ieee]
  rw [StableHlo.Predicate.ofBool_eq_one_iff, decide_eq_true_eq, htop] at hlt
  exact real_of_abs_lt_top _ hlt

/-- Likewise each u entry is a real at the ideal instance. -/
theorem u_finite (a0 : FVec Ideal S4096 .f32) (a1 : FVec Ideal S8192x4096 .f32) (a2 : IVec S8192 32)
    (h : Cert.Pre_finite_inputs.fn (F := Ideal) a0 a1 a2 = fun _ => 1#1) (r : Fin 8192) (j : Fin 4096) :
    ∃ x : ℝ, a1 (ix2 r j) = (x : EReal) := by
  have e := congrFun h ValueIdx.ix0
  dsimp only [Cert.Pre_finite_inputs.fn] at e
  obtain ⟨hF, -⟩ := IntOp.andi_eq_one.1 e
  obtain ⟨-, hU⟩ := IntOp.andi_eq_one.1 hF
  have hj := Host.reduce_andi_all _ _ _ _ _ hU (ix2 r j)
  have hlt : BitVec.ofBool (decide (max (a1 (ix2 r j)) (-(a1 (ix2 r j))) < Ideal.ofBits .f32 0x7F800000#32)) = 1#1 := hj
  have htop : Ideal.ofBits .f32 0x7F800000#32 = (⊤ : EReal) := by simp [Ideal.ofBits, Ideal.ieee]
  rw [StableHlo.Predicate.ofBool_eq_one_iff, decide_eq_true_eq, htop] at hlt
  exact real_of_abs_lt_top _ hlt

end Cert.PreFacts

end
-- ==== Proof.Spec.lean ====
/-
  The two results as functions of the arguments, over the extended reals, read at explicit coordinates.

  With p j = 1 / (1 + exp (-logits j)) the Bernoulli grid is g r j = 1 if u r j < p j and 0 otherwise. The first
  result is a window of length 4096 of the reflect-padded row r of g starting at shift r: column j of it is
  g r (reflIdx (shift r + j)), where reflIdx folds a position of the padded row of length 8192 back into the
  row of length 4096 (2048 mirrored columns on either side, the edge column not repeated). The second result
  is the row's Bernoulli log-probability; written with softplus z = max z 0 + log (1 + exp (-|z|)) it is
  sum over j of (-(softplus (logits j)) + g r j * logits j), which is the sum of
  g * log_sigmoid (logits) + (1 - g) * log_sigmoid (-logits) because log_sigmoid x - log_sigmoid (-x) = x.
-/
import Idealize.ShloMosaic.PureOps.Ideal

noncomputable section

namespace Cert.Spec

open Idealize.ShloMosaic

/-- The float 1.0, as the word both programs carry. -/
def one : EReal := Ideal.ofBits .f32 0x3F800000#32

/-- The logistic function as both programs' host lines compute it: 1 / (1 + exp (-x)). -/
def prob (x : EReal) : EReal := Ideal.div one (one + Ideal.exp (-x))

/-- A Bernoulli draw by the inverse distribution function: 1 when the uniform is below the probability. -/
def bern (u p : EReal) : EReal := if u < p then 1 else 0

/-- softplus z = max z 0 + log (1 + exp (-|z|)), with |z| written max z (-z). -/
def softplus (z : EReal) : EReal := max z 0 + Ideal.log1p (Ideal.exp (-(max z (-z))))

/-- The column of the row of length 4096 that position k of its reflect-padded row of length 8192 shows. -/
def reflIdx (k : ℕ) : ℕ := if k < 2048 then 2048 - k else if k < 6144 then k - 2048 else 10238 - k

theorem reflIdx_lt {k : ℕ} (hk : k < 8192) : reflIdx k < 4096 := by
  unfold reflIdx; split_ifs <;> omega

/-- The Bernoulli grid at row r and column j. -/
def grid (logits : Fin 4096 → EReal) (u : Fin 8192 → Fin 4096 → EReal) (r : Fin 8192) (j : Fin 4096) : EReal :=
  bern (u r j) (prob (logits j))

/-- The first result at row r and column j, for a shift with shift r ≤ 4096. -/
def masks (logits : Fin 4096 → EReal) (u : Fin 8192 → Fin 4096 → EReal) (s : Fin 8192 → ℕ) (hs : ∀ r, s r ≤ 4096)
    (r : Fin 8192) (j : Fin 4096) : EReal :=
  grid logits u r ⟨reflIdx (s r + j.val), reflIdx_lt (by have := hs r; omega)⟩

/-- The second result at row r. -/
def logprob (logits : Fin 4096 → EReal) (u : Fin 8192 → Fin 4096 → EReal) (r : Fin 8192) : EReal :=
  ∑ j : Fin 4096, (-(softplus (logits j)) + grid logits u r j * logits j)

end Cert.Spec

end
-- ==== Proof.KHost.lean ====
/-
  The kernel program's host operations ahead of its custom call, as pure terms of the argument arrays, and read at
  explicit coordinates.

  The probabilities p j = 1 / (1 + exp (-logits j)) are the specification's prob. The reflect-padded vector of
  length 8192 shows at position k the probability of column reflIdx k: positions below 2048 mirror the columns
  2048, …, 1, positions 2048 … 6143 are the columns 0 … 4095 themselves, and positions from 6144 on mirror the
  columns 4094, …, 2047. The two mirrored strips of the uniforms are columns 1 … 2048 reversed (column 2048 - k at
  position k) and columns 2047 … 4094 reversed (column 4094 - k at position k).
-/
import proofs.«422330_j45105746542888_3_alg».proof.Proof.Gen.KernelIdeal
import proofs.«422330_j45105746542888_3_alg».proof.Proof.Spec
import Idealize.ShloMosaic.Lib.ValueIdx
import Idealize.ShloMosaic.Lib.Pipeline.Value
import Idealize.ShloMosaic.PureOps.Ideal

noncomputable section

namespace Cert.KernelIdeal.KHost

open Cert.KernelIdeal Cert.KernelIdeal.Gen Idealize.ShloMosaic Idealize.ShloMosaic.TcCoe Idealize.ShloMosaic.ValueIdx

variable {F : FTy → Type} [FloatOps F]

/-! ## The terms -/

/-- p = 1 / (1 + exp (-logits)): the scalar 1.0 at every column, divided by itself plus exp of the negated logits. -/
def kpvec (a0 : FVec F S4096 .f32) : FVec F S4096 .f32 :=
  Host.divf (broadcastInDim S4096 ![] bcast_S_S4096 (constant S_ .f32 0x3F800000#32))
    (addf (broadcastInDim S4096 ![] bcast_S_S4096 (constant S_ .f32 0x3F800000#32)) (Host.exp (Host.negf a0)))

/-- Columns 1 … 2048 of a vector reversed, then the vector: length 6144. -/
def kpadLeft (p : FVec F S4096 .f32) : FVec F S6144 .f32 :=
  concatenate S6144 0
    [⟨S2048, Host.reverse [0] (extractStridedSlice S2048 ![1] p slices_S4096_S2048_1)⟩, ⟨S4096, p⟩]
    concatenates_S2048_S4096_S6144_d0

/-- The left-padded vector, then its positions 4095 … 6142 reversed: length 8192. -/
def kpadFull (p : FVec F S4096 .f32) : FVec F S8192 .f32 :=
  concatenate S8192 0
    [⟨S6144, kpadLeft p⟩,
     ⟨S2048, Host.reverse [0] (extractStridedSlice S2048 ![4095] (kpadLeft p) slices_S6144_S2048_4095)⟩]
    concatenates_S6144_S2048_S8192_d0

/-- The reflect-padded probabilities. -/
def kppad (a0 : FVec F S4096 .f32) : FVec F S8192 .f32 := kpadFull (kpvec a0)

/-- Columns 1 … 2048 of the uniforms, reversed along the columns. -/
def kleft (a1 : FVec F S8192x4096 .f32) : FVec F S8192x2048 .f32 :=
  Host.reverse [1] (extractStridedSlice S8192x2048 ![0, 1] a1 slices_S8192x4096_S8192x2048_0_1)

/-- Columns 2047 … 4094 of the uniforms, reversed along the columns. -/
def kright (a1 : FVec F S8192x4096 .f32) : FVec F S8192x2048 .f32 :=
  Host.reverse [1] (extractStridedSlice S8192x2048 ![0, 2047] a1 slices_S8192x4096_S8192x2048_0_2047)

/-! ## Reversals read at an index -/

/-- A reversal of a vector of length 2048 reads position 2047 - k. -/
theorem reverse_vec_apply {α : Type} (x : S2048.Idx → α) (k : Fin 2048) :
    Host.reverse [0] x (ix1 k) = x (ix1 k.rev) := by
  unfold Host.reverse
  congr 1
  funext a
  match a with
  | ⟨0, _⟩ => rfl

/-- A reversal along the columns of an 8192 × 2048 array reads column 2047 - k. -/
theorem reverse_cols_apply {α : Type} (x : S8192x2048.Idx → α) (r : Fin 8192) (k : Fin 2048) :
    Host.reverse [1] x (ix2 r k) = x (ix2 r k.rev) := by
  unfold Host.reverse
  congr 1
  funext a
  match a with
  | ⟨0, _⟩ => rfl
  | ⟨1, _⟩ => rfl

/-! ## The probabilities -/

/-- The probability of column j is the logistic function of its logit. -/
theorem kpvec_apply (a0 : FVec Ideal S4096 .f32) (j : Fin 4096) :
    kpvec (F := Ideal) a0 (ix1 j) = Cert.Spec.prob (a0 (ix1 j)) := rfl

/-! ## The reflect padding of a vector -/

/-- The left-padded vector at position k: the mirrored column 2048 - k below 2048, the column k - 2048 from there on. -/
theorem kpadLeft_apply (p : FVec F S4096 .f32) (k : Fin 6144) :
    kpadLeft p (ix1 k)
      = p (ix1 ⟨if k.val < 2048 then 2048 - k.val else k.val - 2048, by have := k.isLt; split_ifs <;> omega⟩) := by
  unfold kpadLeft
  by_cases hk : k.val < 2048
  · refine (concatenate_pair_apply_left (s₁ := S2048) (s₂ := S4096) (0 : Fin 1) _ _ _ (ix1 k) rfl
      (ix1 (⟨k.val, hk⟩ : Fin 2048)) ?_).trans ?_
    · intro b
      match b with
      | ⟨0, _⟩ => rfl
    · rw [reverse_vec_apply]
      refine (extractStridedSlice_apply _ _ _ _ (ix1 (⟨2048 - k.val, by omega⟩ : Fin 4096)) ?_).trans ?_
      · intro a
        match a with
        | ⟨0, _⟩ => show 2048 - k.val = 1 + (2048 - (k.val + 1)); omega
      · congr 2
        exact Fin.ext (by simp [hk])
  · refine (concatenate_pair_apply_right (s₁ := S2048) (s₂ := S4096) (0 : Fin 1) _ _ _ (ix1 k) rfl rfl
      (ix1 (⟨k.val - 2048, by have := k.isLt; omega⟩ : Fin 4096)) ?_ ?_).trans ?_
    · intro b hb
      match b with
      | ⟨0, _⟩ => exact absurd rfl hb
    · show k.val - 2048 + 2048 = k.val
      omega
    · congr 2
      exact Fin.ext (by simp [hk])

/-- The padded vector at position k shows the column the specification's fold names. -/
theorem kpadFull_apply (p : FVec F S4096 .f32) (k : Fin 8192) :
    kpadFull p (ix1 k) = p (ix1 ⟨Cert.Spec.reflIdx k.val, Cert.Spec.reflIdx_lt k.isLt⟩) := by
  unfold kpadFull
  by_cases hk : k.val < 6144
  · refine (concatenate_pair_apply_left (s₁ := S6144) (s₂ := S2048) (0 : Fin 1) _ _ _ (ix1 k) rfl
      (ix1 (⟨k.val, hk⟩ : Fin 6144)) ?_).trans ?_
    · intro b
      match b with
      | ⟨0, _⟩ => rfl
    · rw [kpadLeft_apply]
      congr 2
      apply Fin.ext
      show (if k.val < 2048 then 2048 - k.val else k.val - 2048) = Cert.Spec.reflIdx k.val
      unfold Cert.Spec.reflIdx
      split_ifs <;> omega
  · refine (concatenate_pair_apply_right (s₁ := S6144) (s₂ := S2048) (0 : Fin 1) _ _ _ (ix1 k) rfl rfl
      (ix1 (⟨k.val - 6144, by have := k.isLt; omega⟩ : Fin 2048)) ?_ ?_).trans ?_
    · intro b hb
      match b with
      | ⟨0, _⟩ => exact absurd rfl hb
    · show k.val - 6144 + 6144 = k.val
      omega
    · rw [reverse_vec_apply]
      refine (extractStridedSlice_apply _ _ _ _ (ix1 (⟨12286 - k.val, by have := k.isLt; omega⟩ : Fin 6144)) ?_).trans ?_
      · intro a
        match a with
        | ⟨0, _⟩ =>
          show 12286 - k.val = 4095 + (2048 - (k.val - 6144 + 1))
          have := k.isLt
          omega
      · rw [kpadLeft_apply]
        congr 2
        apply Fin.ext
        show (if 12286 - k.val < 2048 then 2048 - (12286 - k.val) else 12286 - k.val - 2048) = Cert.Spec.reflIdx k.val
        unfold Cert.Spec.reflIdx
        have := k.isLt
        split_ifs <;> omega

/-- The reflect-padded probabilities at position k: the logistic function of the logit of column reflIdx k. -/
theorem kppad_apply (a0 : FVec Ideal S4096 .f32) (k : Fin 8192) :
    kppad (F := Ideal) a0 (ix1 k) = Cert.Spec.prob (a0 (ix1 (⟨Cert.Spec.reflIdx k.val, Cert.Spec.reflIdx_lt k.isLt⟩ : Fin 4096))) := by
  unfold kppad
  rw [kpadFull_apply, kpvec_apply]

/-! ## The two mirrored strips of the uniforms -/

/-- The left strip at column k is the uniforms' column 2048 - k. -/
theorem kleft_apply (a1 : FVec Ideal S8192x4096 .f32) (r : Fin 8192) (k : Fin 2048) :
    kleft (F := Ideal) a1 (ix2 r k) = a1 (ix2 r (⟨2048 - k.val, by omega⟩ : Fin 4096)) := by
  unfold kleft
  rw [reverse_cols_apply]
  refine extractStridedSlice_apply _ _ _ _ (ix2 r (⟨2048 - k.val, by omega⟩ : Fin 4096)) ?_
  intro a
  match a with
  | ⟨0, _⟩ => show r.val = 0 + r.val; omega
  | ⟨1, _⟩ => show 2048 - k.val = 1 + (2048 - (k.val + 1)); have := k.isLt; omega

/-- The right strip at column k is the uniforms' column 4094 - k. -/
theorem kright_apply (a1 : FVec Ideal S8192x4096 .f32) (r : Fin 8192) (k : Fin 2048) :
    kright (F := Ideal) a1 (ix2 r k) = a1 (ix2 r (⟨4094 - k.val, by omega⟩ : Fin 4096)) := by
  unfold kright
  rw [reverse_cols_apply]
  refine extractStridedSlice_apply _ _ _ _ (ix2 r (⟨4094 - k.val, by omega⟩ : Fin 4096)) ?_
  intro a
  match a with
  | ⟨0, _⟩ => show r.val = 0 + r.val; omega
  | ⟨1, _⟩ => show 4094 - k.val = 2047 + (2048 - (k.val + 1)); have := k.isLt; omega

end Cert.KernelIdeal.KHost

end
-- ==== Proof.KBlocks.lean ====
/-
  What one grid point leaves in its two result blocks, as closed functions of the blocks it is handed.

  The scratch of 128 rows and 8192 columns is first the reflect-padded block of uniforms: columns 0 to 2047 the
  left edge strip, 2048 to 6143 the block itself, 6144 to 8191 the right edge strip. It is then overwritten by
  the comparison of each entry with the padded probability of its column (1 where the uniform is below it).
  Row r of the first result block is the window of 4096 columns of row r of the scratch that starts at column
  shift (128 p + r), p the grid point; the second result block holds, per row, the sum over the 4096 middle
  columns of the scratch times the logits, plus the sum of the log-sigmoids of the negated logits.
-/
import proofs.«422330_j45105746542888_3_alg».proof.Proof.Gen.KernelIdeal.Skeleton
import Idealize.ShloMosaic.Lib.ValueIdx

noncomputable section

namespace Cert.KernelIdeal.KBlocks

open Cert.KernelIdeal Cert.KernelIdeal.Gen
open Idealize.ShloMosaic Idealize.ShloMosaic.ValueIdx

variable {F : FTy → Type} [FloatOps F]

/-- The padded block of uniforms at row rr and column k of the scratch. -/
def asmAt (x2 : Vec F S128x2048 .f32) (x1 : Vec F S128x4096 .f32) (x3 : Vec F S128x2048 .f32) (rr : Fin 128) (k : Fin 8192) : F .f32 :=
  if h : k.val < 2048 then k0_pay1 x2 (ix2 rr (⟨k.val, h⟩ : Fin 2048))
  else if h' : k.val < 6144 then k0_pay2 x1 (ix2 rr (⟨k.val - 2048, by omega⟩ : Fin 4096))
  else k0_pay3 x3 (ix2 rr (⟨k.val - 6144, by have := k.isLt; omega⟩ : Fin 2048))

/-- The padded block of uniforms as the scratch holds it after the three stores. -/
def asm (x2 : Vec F S128x2048 .f32) (x1 : Vec F S128x4096 .f32) (x3 : Vec F S128x2048 .f32) : Vec F S128x8192 .f32 :=
  fun y => asmAt x2 x1 x3 (y 0) (y 1)

/-- The scratch after the comparison with the padded probabilities x4. -/
def scr (x1 : Vec F S128x4096 .f32) (x2 x3 : Vec F S128x2048 .f32) (x4 : Vec F S8192 .f32) : Vec F S128x8192 .f32 :=
  k0_pay4 x4 (asm x2 x1 x3)

/-- The table's word for row rr of grid point i: the shift of row 128 i + rr. -/
def shiftAt (i : grid0.Coords) (x0 : Vec F S8192 .i32) (rr : Fin 128) : ℕ :=
  (x0 (ix1 (⟨(128 * (i 0).val + rr.val) % 8192, Nat.mod_lt _ (by decide)⟩ : Fin 8192))).toNat

/-- Entry (rr, j) of the first result block of grid point i: the scratch at row rr, column shift + j. -/
def maskAt (i : grid0.Coords) (x0 : Vec F S8192 .i32) (x1 : Vec F S128x4096 .f32) (x2 x3 : Vec F S128x2048 .f32) (x4 : Vec F S8192 .f32)
    (rr : Fin 128) (j : Fin 4096) : F .f32 :=
  scr x1 x2 x3 x4 (ix2 rr (⟨(shiftAt i x0 rr + j.val) % 8192, Nat.mod_lt _ (by decide)⟩ : Fin 8192))

/-- The first result block of grid point i: row rr is the window of row rr of the scratch starting at column shift. -/
def maskBlock (i : grid0.Coords) (x0 : Vec F S8192 .i32) (x1 : Vec F S128x4096 .f32) (x2 x3 : Vec F S128x2048 .f32) (x4 : Vec F S8192 .f32) :
    Vec F S128x4096 .f32 :=
  fun y => maskAt i x0 x1 x2 x3 x4 (y 0) (y 1)

/-- Entry (rr, j) of the middle 4096 columns of the scratch. -/
def coreAt (x1 : Vec F S128x4096 .f32) (x2 x3 : Vec F S128x2048 .f32) (x4 : Vec F S8192 .f32) (rr : Fin 128) (j : Fin 4096) : F .f32 :=
  scr x1 x2 x3 x4 (ix2 rr (⟨j.val + 2048, by have := j.isLt; omega⟩ : Fin 8192))

/-- The middle 4096 columns of the scratch: the unpadded Bernoulli grid of the point's 128 rows. -/
def core (x1 : Vec F S128x4096 .f32) (x2 x3 : Vec F S128x2048 .f32) (x4 : Vec F S8192 .f32) : Vec F S128x4096 .f32 :=
  fun y => coreAt x1 x2 x3 x4 (y 0) (y 1)

/-- The second result block: the rows' log-probabilities. -/
def lpBlock (x1 : Vec F S128x4096 .f32) (x2 x3 : Vec F S128x2048 .f32) (x4 : Vec F S8192 .f32) (x5 : Vec F S4096 .f32) : Vec F S128x1 .f32 :=
  k0_pay6 (core x1 x2 x3 x4) x5 (k0_pay5 x5)

end Cert.KernelIdeal.KBlocks

end
-- ==== Proof.KToks.lean ====
/-
  A buffer held at the full share, held instead as 140 read shares and a remainder, and back.

  Halving a share gives a left and a right half; the k-th read share is the right half of what is left after k
  halvings. Splitting them off one after the other turns the full share into what is left after 140 halvings and
  the read shares 0 … 139; putting them back in the opposite order gives the full share again. Each step is the
  one law that a points-to at a share is the points-tos at its two halves.
-/
import Idealize.ShloMosaic.Lib.Tactic
import Idealize.ShloMosaic.Lib.Transfers

set_option maxRecDepth 16384

noncomputable section

namespace Cert.KToks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD' : Nat} {τ' : Topo} {sig' : RefSig} {Ix : Type} [DecidableEq Ix] {Val : EltTy → Type} {Name : Type} [DecidableEq Name]
variable {U : Type} [URA U] {Lvl : Type}
variable {ℓ : Loc nD' τ' sig'} {S : Finset (Idx ℓ)} {f : Buf Val ℓ}

local notation "𝕄" => MT nD' τ' sig' Ix Val Name U Lvl

/-- The first read share split off a share q: what is left, and share 0. -/
theorem split0 (q : PosShare TreeShare) :
    (ℓ ↦[S]{q} f : sProp 𝕄) ⊢ iprop((ℓ ↦[S]{Transfers.shareDrop q 1} f) ∗ ℓ ↦[S]{Transfers.shareTokN q 0} f) :=
  (pointsTo_share (PosShare.mem_left_op_right _)).1

/-- One more read share split off: what is left after k shares is what is left after k' = k + 1 and share k. -/
theorem split1 (q : PosShare TreeShare) (k k' : ℕ) (h : k' = k + 1) :
    (ℓ ↦[S]{Transfers.shareDrop q k} f : sProp 𝕄) ⊢ iprop((ℓ ↦[S]{Transfers.shareDrop q k'} f) ∗ ℓ ↦[S]{Transfers.shareTokN q k} f) := by
  subst h; exact (pointsTo_share (PosShare.mem_left_op_right _)).1

/-- Share k put back onto what is left after k' = k + 1 shares. -/
theorem join1 (q : PosShare TreeShare) (k k' : ℕ) (h : k' = k + 1) :
    iprop((ℓ ↦[S]{Transfers.shareDrop q k'} f) ∗ ℓ ↦[S]{Transfers.shareTokN q k} f) ⊢ (ℓ ↦[S]{Transfers.shareDrop q k} f : sProp 𝕄) := by
  subst h; exact (pointsTo_share (PosShare.mem_left_op_right _)).2

/-- Share 0 put back: the share q whole again. -/
theorem join0 (q : PosShare TreeShare) :
    iprop((ℓ ↦[S]{Transfers.shareDrop q 1} f) ∗ ℓ ↦[S]{Transfers.shareTokN q 0} f) ⊢ (ℓ ↦[S]{q} f : sProp 𝕄) :=
  (pointsTo_share (PosShare.mem_left_op_right _)).2

/-- The remainder after 140 read shares and the read shares 0 … 139, in order. -/
abbrev toks (ℓ : Loc nD' τ' sig') (S : Finset (Idx ℓ)) (f : Buf Val ℓ) : sProp 𝕄 :=
  iprop((ℓ ↦[S]{Transfers.shareDrop fullShare 140} f) ∗ (ℓ ↦[S]{Transfers.shareTokN fullShare 0} f) ∗ (ℓ ↦[S]{Transfers.shareTokN fullShare 1} f) ∗ (ℓ ↦[S]{Transfers.shareTokN fullShare 2} f) ∗ (ℓ ↦[S]{Transfers.shareTokN fullShare 3} f) ∗ (ℓ ↦[S]{Transfers.shareTokN fullShare 4} f) ∗ (ℓ ↦[S]{Transfers.shareTokN fullShare 5} f) ∗ (ℓ ↦[S]{Transfers.shareTokN fullShare 6} f) ∗ (ℓ ↦[S]{Transfers.shareTokN fullShare 7} f) ∗ (ℓ ↦[S]{Transfers.shareTokN fullShare 8} f) ∗ (ℓ ↦[S]{Transfers.shareTokN fullShare 9} f) ∗ (ℓ ↦[S]{Transfers.shareTokN fullShare 10} f) ∗ (ℓ ↦[S]{Transfers.shareTokN fullShare 11} f) ∗ (ℓ ↦[S]{Transfers.shareTokN fullShare 12} f) ∗ (ℓ ↦[S]{Transfers.shareTokN fullShare 13} f) ∗ (ℓ ↦[S]{Transfers.shareTokN fullShare 14} f) ∗ (ℓ ↦[S]{Transfers.shareTokN fullShare 15} f) ∗ (ℓ ↦[S]{Transfers.shareTokN fullShare 16} f) ∗ (ℓ ↦[S]{Transfers.shareTokN fullShare 17} f) ∗ (ℓ ↦[S]{Transfers.shareTokN fullShare 18} f) ∗ (ℓ ↦[S]{Transfers.shareTokN fullShare 19} f) ∗ (ℓ ↦[S]{Transfers.shareTokN fullShare 20} f) ∗ (ℓ ↦[S]{Transfers.shareTokN fullShare 21} f) ∗ (ℓ ↦[S]{Transfers.shareTokN fullShare 22} f) ∗ (ℓ ↦[S]{Transfers.shareTokN fullShare 23} f) ∗ (ℓ ↦[S]{Transfers.shareTokN fullShare 24} f) ∗ (ℓ ↦[S]{Transfers.shareTokN fullShare 25} f) ∗ (ℓ ↦[S]{Transfers.shareTokN fullShare 26} f) ∗ (ℓ ↦[S]{Transfers.shareTokN fullShare 27} f) ∗ (ℓ ↦[S]{Transfers.shareTokN fullShare 28} f) ∗ (ℓ ↦[S]{Transfers.shareTokN fullShare 29} f) ∗ (ℓ ↦[S]{Transfers.shareTokN fullShare 30} f) ∗ (ℓ ↦[S]{Transfers.shareTokN fullShare 31} f) ∗ (ℓ ↦[S]{Transfers.shareTokN fullShare 32} f) ∗ (ℓ ↦[S]{Transfers.shareTokN fullShare 33} f) ∗ (ℓ ↦[S]{Transfers.shareTokN fullShare 34} f) ∗ (ℓ ↦[S]{Transfers.shareTokN fullShare 35} f) ∗ (ℓ ↦[S]{Transfers.shareTokN fullShare 36} f) ∗ (ℓ ↦[S]{Transfers.shareTokN fullShare 37} f) ∗ (ℓ ↦[S]{Transfers.shareTokN fullShare 38} f) ∗ (ℓ ↦[S]{Transfers.shareTokN fullShare 39} f) ∗ (ℓ ↦[S]{Transfers.shareTokN fullShare 40} f) ∗ (ℓ ↦[S]{Transfers.shareTokN fullShare 41} f) ∗ (ℓ ↦[S]{Transfers.shareTokN fullShare 42} f) ∗ (ℓ ↦[S]{Transfers.shareTokN fullShare 43} f) ∗ (ℓ ↦[S]{Transfers.shareTokN fullShare 44} f) ∗ (ℓ ↦[S]{Transfers.shareTokN fullShare 45} f) ∗ (ℓ ↦[S]{Transfers.shareTokN fullShare 46} f) ∗ (ℓ ↦[S]{Transfers.shareTokN fullShare 47} f) ∗ (ℓ ↦[S]{Transfers.shareTokN fullShare 48} f) ∗ (ℓ ↦[S]{Transfers.shareTokN fullShare 49} f) ∗ (ℓ ↦[S]{Transfers.shareTokN fullShare 50} f) ∗ (ℓ ↦[S]{Transfers.shareTokN fullShare 51} f) ∗ (ℓ ↦[S]{Transfers.shareTokN fullShare 52} f) ∗ (ℓ ↦[S]{Transfers.shareTokN fullShare 53} f) ∗ (ℓ ↦[S]{Transfers.shareTokN fullShare 54} f) ∗ (ℓ ↦[S]{Transfers.shareTokN fullShare 55} f) ∗ (ℓ ↦[S]{Transfers.shareTokN fullShare 56} f) ∗ (ℓ ↦[S]{Transfers.shareTokN fullShare 57} f) ∗ (ℓ ↦[S]{Transfers.shareTokN fullShare 58} f) ∗ (ℓ ↦[S]{Transfers.shareTokN fullShare 59} f) ∗ (ℓ ↦[S]{Transfers.shareTokN fullShare 60} f) ∗ (ℓ ↦[S]{Transfers.shareTokN fullShare 61} f) ∗ (ℓ ↦[S]{Transfers.shareTokN fullShare 62} f) ∗ (ℓ ↦[S]{Transfers.shareTokN fullShare 63} f) ∗ (ℓ ↦[S]{Transfers.shareTokN fullShare 64} f) ∗ (ℓ ↦[S]{Transfers.shareTokN fullShare 65} f) ∗ (ℓ ↦[S]{Transfers.shareTokN fullShare 66} f) ∗ (ℓ ↦[S]{Transfers.shareTokN fullShare 67} f) ∗ (ℓ ↦[S]{Transfers.shareTokN fullShare 68} f) ∗ (ℓ ↦[S]{Transfers.shareTokN fullShare 69} f) ∗ (ℓ ↦[S]{Transfers.shareTokN fullShare 70} f) ∗ (ℓ ↦[S]{Transfers.shareTokN fullShare 71} f) ∗ (ℓ ↦[S]{Transfers.shareTokN fullShare 72} f) ∗ (ℓ ↦[S]{Transfers.shareTokN fullShare 73} f) ∗ (ℓ ↦[S]{Transfers.shareTokN fullShare 74} f) ∗ (ℓ ↦[S]{Transfers.shareTokN fullShare 75} f) ∗ (ℓ ↦[S]{Transfers.shareTokN fullShare 76} f) ∗ (ℓ ↦[S]{Transfers.shareTokN fullShare 77} f) ∗ (ℓ ↦[S]{Transfers.shareTokN fullShare 78} f) ∗ (ℓ ↦[S]{Transfers.shareTokN fullShare 79} f) ∗ (ℓ ↦[S]{Transfers.shareTokN fullShare 80} f) ∗ (ℓ ↦[S]{Transfers.shareTokN fullShare 81} f) ∗ (ℓ ↦[S]{Transfers.shareTokN fullShare 82} f) ∗ (ℓ ↦[S]{Transfers.shareTokN fullShare 83} f) ∗ (ℓ ↦[S]{Transfers.shareTokN fullShare 84} f) ∗ (ℓ ↦[S]{Transfers.shareTokN fullShare 85} f) ∗ (ℓ ↦[S]{Transfers.shareTokN fullShare 86} f) ∗ (ℓ ↦[S]{Transfers.shareTokN fullShare 87} f) ∗ (ℓ ↦[S]{Transfers.shareTokN fullShare 88} f) ∗ (ℓ ↦[S]{Transfers.shareTokN fullShare 89} f) ∗ (ℓ ↦[S]{Transfers.shareTokN fullShare 90} f) ∗ (ℓ ↦[S]{Transfers.shareTokN fullShare 91} f) ∗ (ℓ ↦[S]{Transfers.shareTokN fullShare 92} f) ∗ (ℓ ↦[S]{Transfers.shareTokN fullShare 93} f) ∗ (ℓ ↦[S]{Transfers.shareTokN fullShare 94} f) ∗ (ℓ ↦[S]{Transfers.shareTokN fullShare 95} f) ∗ (ℓ ↦[S]{Transfers.shareTokN fullShare 96} f) ∗ (ℓ ↦[S]{Transfers.shareTokN fullShare 97} f) ∗ (ℓ ↦[S]{Transfers.shareTokN fullShare 98} f) ∗ (ℓ ↦[S]{Transfers.shareTokN fullShare 99} f) ∗ (ℓ ↦[S]{Transfers.shareTokN fullShare 100} f) ∗ (ℓ ↦[S]{Transfers.shareTokN fullShare 101} f) ∗ (ℓ ↦[S]{Transfers.shareTokN fullShare 102} f) ∗ (ℓ ↦[S]{Transfers.shareTokN fullShare 103} f) ∗ (ℓ ↦[S]{Transfers.shareTokN fullShare 104} f) ∗ (ℓ ↦[S]{Transfers.shareTokN fullShare 105} f) ∗ (ℓ ↦[S]{Transfers.shareTokN fullShare 106} f) ∗ (ℓ ↦[S]{Transfers.shareTokN fullShare 107} f) ∗ (ℓ ↦[S]{Transfers.shareTokN fullShare 108} f) ∗ (ℓ ↦[S]{Transfers.shareTokN fullShare 109} f) ∗ (ℓ ↦[S]{Transfers.shareTokN fullShare 110} f) ∗ (ℓ ↦[S]{Transfers.shareTokN fullShare 111} f) ∗ (ℓ ↦[S]{Transfers.shareTokN fullShare 112} f) ∗ (ℓ ↦[S]{Transfers.shareTokN fullShare 113} f) ∗ (ℓ ↦[S]{Transfers.shareTokN fullShare 114} f) ∗ (ℓ ↦[S]{Transfers.shareTokN fullShare 115} f) ∗ (ℓ ↦[S]{Transfers.shareTokN fullShare 116} f) ∗ (ℓ ↦[S]{Transfers.shareTokN fullShare 117} f) ∗ (ℓ ↦[S]{Transfers.shareTokN fullShare 118} f) ∗ (ℓ ↦[S]{Transfers.shareTokN fullShare 119} f) ∗ (ℓ ↦[S]{Transfers.shareTokN fullShare 120} f) ∗ (ℓ ↦[S]{Transfers.shareTokN fullShare 121} f) ∗ (ℓ ↦[S]{Transfers.shareTokN fullShare 122} f) ∗ (ℓ ↦[S]{Transfers.shareTokN fullShare 123} f) ∗ (ℓ ↦[S]{Transfers.shareTokN fullShare 124} f) ∗ (ℓ ↦[S]{Transfers.shareTokN fullShare 125} f) ∗ (ℓ ↦[S]{Transfers.shareTokN fullShare 126} f) ∗ (ℓ ↦[S]{Transfers.shareTokN fullShare 127} f) ∗ (ℓ ↦[S]{Transfers.shareTokN fullShare 128} f) ∗ (ℓ ↦[S]{Transfers.shareTokN fullShare 129} f) ∗ (ℓ ↦[S]{Transfers.shareTokN fullShare 130} f) ∗ (ℓ ↦[S]{Transfers.shareTokN fullShare 131} f) ∗ (ℓ ↦[S]{Transfers.shareTokN fullShare 132} f) ∗ (ℓ ↦[S]{Transfers.shareTokN fullShare 133} f) ∗ (ℓ ↦[S]{Transfers.shareTokN fullShare 134} f) ∗ (ℓ ↦[S]{Transfers.shareTokN fullShare 135} f) ∗ (ℓ ↦[S]{Transfers.shareTokN fullShare 136} f) ∗ (ℓ ↦[S]{Transfers.shareTokN fullShare 137} f) ∗ (ℓ ↦[S]{Transfers.shareTokN fullShare 138} f) ∗ (ℓ ↦[S]{Transfers.shareTokN fullShare 139} f))

set_option maxHeartbeats 4000000 in
/-- The full share as the remainder and the 140 read shares. -/
theorem split : (ℓ ↦[S]{fullShare} f : sProp 𝕄) ⊢ toks ℓ S f := by
  iintro H
  ihave Hsp := (split0 fullShare) $$ H
  icases Hsp with ⟨H, T0⟩
  ihave Hsp := (split1 fullShare 1 2 rfl) $$ H
  icases Hsp with ⟨H, T1⟩
  ihave Hsp := (split1 fullShare 2 3 rfl) $$ H
  icases Hsp with ⟨H, T2⟩
  ihave Hsp := (split1 fullShare 3 4 rfl) $$ H
  icases Hsp with ⟨H, T3⟩
  ihave Hsp := (split1 fullShare 4 5 rfl) $$ H
  icases Hsp with ⟨H, T4⟩
  ihave Hsp := (split1 fullShare 5 6 rfl) $$ H
  icases Hsp with ⟨H, T5⟩
  ihave Hsp := (split1 fullShare 6 7 rfl) $$ H
  icases Hsp with ⟨H, T6⟩
  ihave Hsp := (split1 fullShare 7 8 rfl) $$ H
  icases Hsp with ⟨H, T7⟩
  ihave Hsp := (split1 fullShare 8 9 rfl) $$ H
  icases Hsp with ⟨H, T8⟩
  ihave Hsp := (split1 fullShare 9 10 rfl) $$ H
  icases Hsp with ⟨H, T9⟩
  ihave Hsp := (split1 fullShare 10 11 rfl) $$ H
  icases Hsp with ⟨H, T10⟩
  ihave Hsp := (split1 fullShare 11 12 rfl) $$ H
  icases Hsp with ⟨H, T11⟩
  ihave Hsp := (split1 fullShare 12 13 rfl) $$ H
  icases Hsp with ⟨H, T12⟩
  ihave Hsp := (split1 fullShare 13 14 rfl) $$ H
  icases Hsp with ⟨H, T13⟩
  ihave Hsp := (split1 fullShare 14 15 rfl) $$ H
  icases Hsp with ⟨H, T14⟩
  ihave Hsp := (split1 fullShare 15 16 rfl) $$ H
  icases Hsp with ⟨H, T15⟩
  ihave Hsp := (split1 fullShare 16 17 rfl) $$ H
  icases Hsp with ⟨H, T16⟩
  ihave Hsp := (split1 fullShare 17 18 rfl) $$ H
  icases Hsp with ⟨H, T17⟩
  ihave Hsp := (split1 fullShare 18 19 rfl) $$ H
  icases Hsp with ⟨H, T18⟩
  ihave Hsp := (split1 fullShare 19 20 rfl) $$ H
  icases Hsp with ⟨H, T19⟩
  ihave Hsp := (split1 fullShare 20 21 rfl) $$ H
  icases Hsp with ⟨H, T20⟩
  ihave Hsp := (split1 fullShare 21 22 rfl) $$ H
  icases Hsp with ⟨H, T21⟩
  ihave Hsp := (split1 fullShare 22 23 rfl) $$ H
  icases Hsp with ⟨H, T22⟩
  ihave Hsp := (split1 fullShare 23 24 rfl) $$ H
  icases Hsp with ⟨H, T23⟩
  ihave Hsp := (split1 fullShare 24 25 rfl) $$ H
  icases Hsp with ⟨H, T24⟩
  ihave Hsp := (split1 fullShare 25 26 rfl) $$ H
  icases Hsp with ⟨H, T25⟩
  ihave Hsp := (split1 fullShare 26 27 rfl) $$ H
  icases Hsp with ⟨H, T26⟩
  ihave Hsp := (split1 fullShare 27 28 rfl) $$ H
  icases Hsp with ⟨H, T27⟩
  ihave Hsp := (split1 fullShare 28 29 rfl) $$ H
  icases Hsp with ⟨H, T28⟩
  ihave Hsp := (split1 fullShare 29 30 rfl) $$ H
  icases Hsp with ⟨H, T29⟩
  ihave Hsp := (split1 fullShare 30 31 rfl) $$ H
  icases Hsp with ⟨H, T30⟩
  ihave Hsp := (split1 fullShare 31 32 rfl) $$ H
  icases Hsp with ⟨H, T31⟩
  ihave Hsp := (split1 fullShare 32 33 rfl) $$ H
  icases Hsp with ⟨H, T32⟩
  ihave Hsp := (split1 fullShare 33 34 rfl) $$ H
  icases Hsp with ⟨H, T33⟩
  ihave Hsp := (split1 fullShare 34 35 rfl) $$ H
  icases Hsp with ⟨H, T34⟩
  ihave Hsp := (split1 fullShare 35 36 rfl) $$ H
  icases Hsp with ⟨H, T35⟩
  ihave Hsp := (split1 fullShare 36 37 rfl) $$ H
  icases Hsp with ⟨H, T36⟩
  ihave Hsp := (split1 fullShare 37 38 rfl) $$ H
  icases Hsp with ⟨H, T37⟩
  ihave Hsp := (split1 fullShare 38 39 rfl) $$ H
  icases Hsp with ⟨H, T38⟩
  ihave Hsp := (split1 fullShare 39 40 rfl) $$ H
  icases Hsp with ⟨H, T39⟩
  ihave Hsp := (split1 fullShare 40 41 rfl) $$ H
  icases Hsp with ⟨H, T40⟩
  ihave Hsp := (split1 fullShare 41 42 rfl) $$ H
  icases Hsp with ⟨H, T41⟩
  ihave Hsp := (split1 fullShare 42 43 rfl) $$ H
  icases Hsp with ⟨H, T42⟩
  ihave Hsp := (split1 fullShare 43 44 rfl) $$ H
  icases Hsp with ⟨H, T43⟩
  ihave Hsp := (split1 fullShare 44 45 rfl) $$ H
  icases Hsp with ⟨H, T44⟩
  ihave Hsp := (split1 fullShare 45 46 rfl) $$ H
  icases Hsp with ⟨H, T45⟩
  ihave Hsp := (split1 fullShare 46 47 rfl) $$ H
  icases Hsp with ⟨H, T46⟩
  ihave Hsp := (split1 fullShare 47 48 rfl) $$ H
  icases Hsp with ⟨H, T47⟩
  ihave Hsp := (split1 fullShare 48 49 rfl) $$ H
  icases Hsp with ⟨H, T48⟩
  ihave Hsp := (split1 fullShare 49 50 rfl) $$ H
  icases Hsp with ⟨H, T49⟩
  ihave Hsp := (split1 fullShare 50 51 rfl) $$ H
  icases Hsp with ⟨H, T50⟩
  ihave Hsp := (split1 fullShare 51 52 rfl) $$ H
  icases Hsp with ⟨H, T51⟩
  ihave Hsp := (split1 fullShare 52 53 rfl) $$ H
  icases Hsp with ⟨H, T52⟩
  ihave Hsp := (split1 fullShare 53 54 rfl) $$ H
  icases Hsp with ⟨H, T53⟩
  ihave Hsp := (split1 fullShare 54 55 rfl) $$ H
  icases Hsp with ⟨H, T54⟩
  ihave Hsp := (split1 fullShare 55 56 rfl) $$ H
  icases Hsp with ⟨H, T55⟩
  ihave Hsp := (split1 fullShare 56 57 rfl) $$ H
  icases Hsp with ⟨H, T56⟩
  ihave Hsp := (split1 fullShare 57 58 rfl) $$ H
  icases Hsp with ⟨H, T57⟩
  ihave Hsp := (split1 fullShare 58 59 rfl) $$ H
  icases Hsp with ⟨H, T58⟩
  ihave Hsp := (split1 fullShare 59 60 rfl) $$ H
  icases Hsp with ⟨H, T59⟩
  ihave Hsp := (split1 fullShare 60 61 rfl) $$ H
  icases Hsp with ⟨H, T60⟩
  ihave Hsp := (split1 fullShare 61 62 rfl) $$ H
  icases Hsp with ⟨H, T61⟩
  ihave Hsp := (split1 fullShare 62 63 rfl) $$ H
  icases Hsp with ⟨H, T62⟩
  ihave Hsp := (split1 fullShare 63 64 rfl) $$ H
  icases Hsp with ⟨H, T63⟩
  ihave Hsp := (split1 fullShare 64 65 rfl) $$ H
  icases Hsp with ⟨H, T64⟩
  ihave Hsp := (split1 fullShare 65 66 rfl) $$ H
  icases Hsp with ⟨H, T65⟩
  ihave Hsp := (split1 fullShare 66 67 rfl) $$ H
  icases Hsp with ⟨H, T66⟩
  ihave Hsp := (split1 fullShare 67 68 rfl) $$ H
  icases Hsp with ⟨H, T67⟩
  ihave Hsp := (split1 fullShare 68 69 rfl) $$ H
  icases Hsp with ⟨H, T68⟩
  ihave Hsp := (split1 fullShare 69 70 rfl) $$ H
  icases Hsp with ⟨H, T69⟩
  ihave Hsp := (split1 fullShare 70 71 rfl) $$ H
  icases Hsp with ⟨H, T70⟩
  ihave Hsp := (split1 fullShare 71 72 rfl) $$ H
  icases Hsp with ⟨H, T71⟩
  ihave Hsp := (split1 fullShare 72 73 rfl) $$ H
  icases Hsp with ⟨H, T72⟩
  ihave Hsp := (split1 fullShare 73 74 rfl) $$ H
  icases Hsp with ⟨H, T73⟩
  ihave Hsp := (split1 fullShare 74 75 rfl) $$ H
  icases Hsp with ⟨H, T74⟩
  ihave Hsp := (split1 fullShare 75 76 rfl) $$ H
  icases Hsp with ⟨H, T75⟩
  ihave Hsp := (split1 fullShare 76 77 rfl) $$ H
  icases Hsp with ⟨H, T76⟩
  ihave Hsp := (split1 fullShare 77 78 rfl) $$ H
  icases Hsp with ⟨H, T77⟩
  ihave Hsp := (split1 fullShare 78 79 rfl) $$ H
  icases Hsp with ⟨H, T78⟩
  ihave Hsp := (split1 fullShare 79 80 rfl) $$ H
  icases Hsp with ⟨H, T79⟩
  ihave Hsp := (split1 fullShare 80 81 rfl) $$ H
  icases Hsp with ⟨H, T80⟩
  ihave Hsp := (split1 fullShare 81 82 rfl) $$ H
  icases Hsp with ⟨H, T81⟩
  ihave Hsp := (split1 fullShare 82 83 rfl) $$ H
  icases Hsp with ⟨H, T82⟩
  ihave Hsp := (split1 fullShare 83 84 rfl) $$ H
  icases Hsp with ⟨H, T83⟩
  ihave Hsp := (split1 fullShare 84 85 rfl) $$ H
  icases Hsp with ⟨H, T84⟩
  ihave Hsp := (split1 fullShare 85 86 rfl) $$ H
  icases Hsp with ⟨H, T85⟩
  ihave Hsp := (split1 fullShare 86 87 rfl) $$ H
  icases Hsp with ⟨H, T86⟩
  ihave Hsp := (split1 fullShare 87 88 rfl) $$ H
  icases Hsp with ⟨H, T87⟩
  ihave Hsp := (split1 fullShare 88 89 rfl) $$ H
  icases Hsp with ⟨H, T88⟩
  ihave Hsp := (split1 fullShare 89 90 rfl) $$ H
  icases Hsp with ⟨H, T89⟩
  ihave Hsp := (split1 fullShare 90 91 rfl) $$ H
  icases Hsp with ⟨H, T90⟩
  ihave Hsp := (split1 fullShare 91 92 rfl) $$ H
  icases Hsp with ⟨H, T91⟩
  ihave Hsp := (split1 fullShare 92 93 rfl) $$ H
  icases Hsp with ⟨H, T92⟩
  ihave Hsp := (split1 fullShare 93 94 rfl) $$ H
  icases Hsp with ⟨H, T93⟩
  ihave Hsp := (split1 fullShare 94 95 rfl) $$ H
  icases Hsp with ⟨H, T94⟩
  ihave Hsp := (split1 fullShare 95 96 rfl) $$ H
  icases Hsp with ⟨H, T95⟩
  ihave Hsp := (split1 fullShare 96 97 rfl) $$ H
  icases Hsp with ⟨H, T96⟩
  ihave Hsp := (split1 fullShare 97 98 rfl) $$ H
  icases Hsp with ⟨H, T97⟩
  ihave Hsp := (split1 fullShare 98 99 rfl) $$ H
  icases Hsp with ⟨H, T98⟩
  ihave Hsp := (split1 fullShare 99 100 rfl) $$ H
  icases Hsp with ⟨H, T99⟩
  ihave Hsp := (split1 fullShare 100 101 rfl) $$ H
  icases Hsp with ⟨H, T100⟩
  ihave Hsp := (split1 fullShare 101 102 rfl) $$ H
  icases Hsp with ⟨H, T101⟩
  ihave Hsp := (split1 fullShare 102 103 rfl) $$ H
  icases Hsp with ⟨H, T102⟩
  ihave Hsp := (split1 fullShare 103 104 rfl) $$ H
  icases Hsp with ⟨H, T103⟩
  ihave Hsp := (split1 fullShare 104 105 rfl) $$ H
  icases Hsp with ⟨H, T104⟩
  ihave Hsp := (split1 fullShare 105 106 rfl) $$ H
  icases Hsp with ⟨H, T105⟩
  ihave Hsp := (split1 fullShare 106 107 rfl) $$ H
  icases Hsp with ⟨H, T106⟩
  ihave Hsp := (split1 fullShare 107 108 rfl) $$ H
  icases Hsp with ⟨H, T107⟩
  ihave Hsp := (split1 fullShare 108 109 rfl) $$ H
  icases Hsp with ⟨H, T108⟩
  ihave Hsp := (split1 fullShare 109 110 rfl) $$ H
  icases Hsp with ⟨H, T109⟩
  ihave Hsp := (split1 fullShare 110 111 rfl) $$ H
  icases Hsp with ⟨H, T110⟩
  ihave Hsp := (split1 fullShare 111 112 rfl) $$ H
  icases Hsp with ⟨H, T111⟩
  ihave Hsp := (split1 fullShare 112 113 rfl) $$ H
  icases Hsp with ⟨H, T112⟩
  ihave Hsp := (split1 fullShare 113 114 rfl) $$ H
  icases Hsp with ⟨H, T113⟩
  ihave Hsp := (split1 fullShare 114 115 rfl) $$ H
  icases Hsp with ⟨H, T114⟩
  ihave Hsp := (split1 fullShare 115 116 rfl) $$ H
  icases Hsp with ⟨H, T115⟩
  ihave Hsp := (split1 fullShare 116 117 rfl) $$ H
  icases Hsp with ⟨H, T116⟩
  ihave Hsp := (split1 fullShare 117 118 rfl) $$ H
  icases Hsp with ⟨H, T117⟩
  ihave Hsp := (split1 fullShare 118 119 rfl) $$ H
  icases Hsp with ⟨H, T118⟩
  ihave Hsp := (split1 fullShare 119 120 rfl) $$ H
  icases Hsp with ⟨H, T119⟩
  ihave Hsp := (split1 fullShare 120 121 rfl) $$ H
  icases Hsp with ⟨H, T120⟩
  ihave Hsp := (split1 fullShare 121 122 rfl) $$ H
  icases Hsp with ⟨H, T121⟩
  ihave Hsp := (split1 fullShare 122 123 rfl) $$ H
  icases Hsp with ⟨H, T122⟩
  ihave Hsp := (split1 fullShare 123 124 rfl) $$ H
  icases Hsp with ⟨H, T123⟩
  ihave Hsp := (split1 fullShare 124 125 rfl) $$ H
  icases Hsp with ⟨H, T124⟩
  ihave Hsp := (split1 fullShare 125 126 rfl) $$ H
  icases Hsp with ⟨H, T125⟩
  ihave Hsp := (split1 fullShare 126 127 rfl) $$ H
  icases Hsp with ⟨H, T126⟩
  ihave Hsp := (split1 fullShare 127 128 rfl) $$ H
  icases Hsp with ⟨H, T127⟩
  ihave Hsp := (split1 fullShare 128 129 rfl) $$ H
  icases Hsp with ⟨H, T128⟩
  ihave Hsp := (split1 fullShare 129 130 rfl) $$ H
  icases Hsp with ⟨H, T129⟩
  ihave Hsp := (split1 fullShare 130 131 rfl) $$ H
  icases Hsp with ⟨H, T130⟩
  ihave Hsp := (split1 fullShare 131 132 rfl) $$ H
  icases Hsp with ⟨H, T131⟩
  ihave Hsp := (split1 fullShare 132 133 rfl) $$ H
  icases Hsp with ⟨H, T132⟩
  ihave Hsp := (split1 fullShare 133 134 rfl) $$ H
  icases Hsp with ⟨H, T133⟩
  ihave Hsp := (split1 fullShare 134 135 rfl) $$ H
  icases Hsp with ⟨H, T134⟩
  ihave Hsp := (split1 fullShare 135 136 rfl) $$ H
  icases Hsp with ⟨H, T135⟩
  ihave Hsp := (split1 fullShare 136 137 rfl) $$ H
  icases Hsp with ⟨H, T136⟩
  ihave Hsp := (split1 fullShare 137 138 rfl) $$ H
  icases Hsp with ⟨H, T137⟩
  ihave Hsp := (split1 fullShare 138 139 rfl) $$ H
  icases Hsp with ⟨H, T138⟩
  ihave Hsp := (split1 fullShare 139 140 rfl) $$ H
  icases Hsp with ⟨H, T139⟩
  isplitl [H]; · iexact H
  isplitl [T0]; · iexact T0
  isplitl [T1]; · iexact T1
  isplitl [T2]; · iexact T2
  isplitl [T3]; · iexact T3
  isplitl [T4]; · iexact T4
  isplitl [T5]; · iexact T5
  isplitl [T6]; · iexact T6
  isplitl [T7]; · iexact T7
  isplitl [T8]; · iexact T8
  isplitl [T9]; · iexact T9
  isplitl [T10]; · iexact T10
  isplitl [T11]; · iexact T11
  isplitl [T12]; · iexact T12
  isplitl [T13]; · iexact T13
  isplitl [T14]; · iexact T14
  isplitl [T15]; · iexact T15
  isplitl [T16]; · iexact T16
  isplitl [T17]; · iexact T17
  isplitl [T18]; · iexact T18
  isplitl [T19]; · iexact T19
  isplitl [T20]; · iexact T20
  isplitl [T21]; · iexact T21
  isplitl [T22]; · iexact T22
  isplitl [T23]; · iexact T23
  isplitl [T24]; · iexact T24
  isplitl [T25]; · iexact T25
  isplitl [T26]; · iexact T26
  isplitl [T27]; · iexact T27
  isplitl [T28]; · iexact T28
  isplitl [T29]; · iexact T29
  isplitl [T30]; · iexact T30
  isplitl [T31]; · iexact T31
  isplitl [T32]; · iexact T32
  isplitl [T33]; · iexact T33
  isplitl [T34]; · iexact T34
  isplitl [T35]; · iexact T35
  isplitl [T36]; · iexact T36
  isplitl [T37]; · iexact T37
  isplitl [T38]; · iexact T38
  isplitl [T39]; · iexact T39
  isplitl [T40]; · iexact T40
  isplitl [T41]; · iexact T41
  isplitl [T42]; · iexact T42
  isplitl [T43]; · iexact T43
  isplitl [T44]; · iexact T44
  isplitl [T45]; · iexact T45
  isplitl [T46]; · iexact T46
  isplitl [T47]; · iexact T47
  isplitl [T48]; · iexact T48
  isplitl [T49]; · iexact T49
  isplitl [T50]; · iexact T50
  isplitl [T51]; · iexact T51
  isplitl [T52]; · iexact T52
  isplitl [T53]; · iexact T53
  isplitl [T54]; · iexact T54
  isplitl [T55]; · iexact T55
  isplitl [T56]; · iexact T56
  isplitl [T57]; · iexact T57
  isplitl [T58]; · iexact T58
  isplitl [T59]; · iexact T59
  isplitl [T60]; · iexact T60
  isplitl [T61]; · iexact T61
  isplitl [T62]; · iexact T62
  isplitl [T63]; · iexact T63
  isplitl [T64]; · iexact T64
  isplitl [T65]; · iexact T65
  isplitl [T66]; · iexact T66
  isplitl [T67]; · iexact T67
  isplitl [T68]; · iexact T68
  isplitl [T69]; · iexact T69
  isplitl [T70]; · iexact T70
  isplitl [T71]; · iexact T71
  isplitl [T72]; · iexact T72
  isplitl [T73]; · iexact T73
  isplitl [T74]; · iexact T74
  isplitl [T75]; · iexact T75
  isplitl [T76]; · iexact T76
  isplitl [T77]; · iexact T77
  isplitl [T78]; · iexact T78
  isplitl [T79]; · iexact T79
  isplitl [T80]; · iexact T80
  isplitl [T81]; · iexact T81
  isplitl [T82]; · iexact T82
  isplitl [T83]; · iexact T83
  isplitl [T84]; · iexact T84
  isplitl [T85]; · iexact T85
  isplitl [T86]; · iexact T86
  isplitl [T87]; · iexact T87
  isplitl [T88]; · iexact T88
  isplitl [T89]; · iexact T89
  isplitl [T90]; · iexact T90
  isplitl [T91]; · iexact T91
  isplitl [T92]; · iexact T92
  isplitl [T93]; · iexact T93
  isplitl [T94]; · iexact T94
  isplitl [T95]; · iexact T95
  isplitl [T96]; · iexact T96
  isplitl [T97]; · iexact T97
  isplitl [T98]; · iexact T98
  isplitl [T99]; · iexact T99
  isplitl [T100]; · iexact T100
  isplitl [T101]; · iexact T101
  isplitl [T102]; · iexact T102
  isplitl [T103]; · iexact T103
  isplitl [T104]; · iexact T104
  isplitl [T105]; · iexact T105
  isplitl [T106]; · iexact T106
  isplitl [T107]; · iexact T107
  isplitl [T108]; · iexact T108
  isplitl [T109]; · iexact T109
  isplitl [T110]; · iexact T110
  isplitl [T111]; · iexact T111
  isplitl [T112]; · iexact T112
  isplitl [T113]; · iexact T113
  isplitl [T114]; · iexact T114
  isplitl [T115]; · iexact T115
  isplitl [T116]; · iexact T116
  isplitl [T117]; · iexact T117
  isplitl [T118]; · iexact T118
  isplitl [T119]; · iexact T119
  isplitl [T120]; · iexact T120
  isplitl [T121]; · iexact T121
  isplitl [T122]; · iexact T122
  isplitl [T123]; · iexact T123
  isplitl [T124]; · iexact T124
  isplitl [T125]; · iexact T125
  isplitl [T126]; · iexact T126
  isplitl [T127]; · iexact T127
  isplitl [T128]; · iexact T128
  isplitl [T129]; · iexact T129
  isplitl [T130]; · iexact T130
  isplitl [T131]; · iexact T131
  isplitl [T132]; · iexact T132
  isplitl [T133]; · iexact T133
  isplitl [T134]; · iexact T134
  isplitl [T135]; · iexact T135
  isplitl [T136]; · iexact T136
  isplitl [T137]; · iexact T137
  isplitl [T138]; · iexact T138
  iexact T139

set_option maxHeartbeats 4000000 in
/-- The remainder and the 140 read shares make the full share again. -/
theorem join : toks ℓ S f ⊢ (ℓ ↦[S]{fullShare} f : sProp 𝕄) := by
  iintro ⟨H, T0, T1, T2, T3, T4, T5, T6, T7, T8, T9, T10, T11, T12, T13, T14, T15, T16, T17, T18, T19, T20, T21, T22, T23, T24, T25, T26, T27, T28, T29, T30, T31, T32, T33, T34, T35, T36, T37, T38, T39, T40, T41, T42, T43, T44, T45, T46, T47, T48, T49, T50, T51, T52, T53, T54, T55, T56, T57, T58, T59, T60, T61, T62, T63, T64, T65, T66, T67, T68, T69, T70, T71, T72, T73, T74, T75, T76, T77, T78, T79, T80, T81, T82, T83, T84, T85, T86, T87, T88, T89, T90, T91, T92, T93, T94, T95, T96, T97, T98, T99, T100, T101, T102, T103, T104, T105, T106, T107, T108, T109, T110, T111, T112, T113, T114, T115, T116, T117, T118, T119, T120, T121, T122, T123, T124, T125, T126, T127, T128, T129, T130, T131, T132, T133, T134, T135, T136, T137, T138, T139⟩
  ihave Hjn := (join1 fullShare 139 140 rfl) $$ [H T139]
  · isplitl [H] <;> iassumption
  irename Hjn => H
  ihave Hjn := (join1 fullShare 138 139 rfl) $$ [H T138]
  · isplitl [H] <;> iassumption
  irename Hjn => H
  ihave Hjn := (join1 fullShare 137 138 rfl) $$ [H T137]
  · isplitl [H] <;> iassumption
  irename Hjn => H
  ihave Hjn := (join1 fullShare 136 137 rfl) $$ [H T136]
  · isplitl [H] <;> iassumption
  irename Hjn => H
  ihave Hjn := (join1 fullShare 135 136 rfl) $$ [H T135]
  · isplitl [H] <;> iassumption
  irename Hjn => H
  ihave Hjn := (join1 fullShare 134 135 rfl) $$ [H T134]
  · isplitl [H] <;> iassumption
  irename Hjn => H
  ihave Hjn := (join1 fullShare 133 134 rfl) $$ [H T133]
  · isplitl [H] <;> iassumption
  irename Hjn => H
  ihave Hjn := (join1 fullShare 132 133 rfl) $$ [H T132]
  · isplitl [H] <;> iassumption
  irename Hjn => H
  ihave Hjn := (join1 fullShare 131 132 rfl) $$ [H T131]
  · isplitl [H] <;> iassumption
  irename Hjn => H
  ihave Hjn := (join1 fullShare 130 131 rfl) $$ [H T130]
  · isplitl [H] <;> iassumption
  irename Hjn => H
  ihave Hjn := (join1 fullShare 129 130 rfl) $$ [H T129]
  · isplitl [H] <;> iassumption
  irename Hjn => H
  ihave Hjn := (join1 fullShare 128 129 rfl) $$ [H T128]
  · isplitl [H] <;> iassumption
  irename Hjn => H
  ihave Hjn := (join1 fullShare 127 128 rfl) $$ [H T127]
  · isplitl [H] <;> iassumption
  irename Hjn => H
  ihave Hjn := (join1 fullShare 126 127 rfl) $$ [H T126]
  · isplitl [H] <;> iassumption
  irename Hjn => H
  ihave Hjn := (join1 fullShare 125 126 rfl) $$ [H T125]
  · isplitl [H] <;> iassumption
  irename Hjn => H
  ihave Hjn := (join1 fullShare 124 125 rfl) $$ [H T124]
  · isplitl [H] <;> iassumption
  irename Hjn => H
  ihave Hjn := (join1 fullShare 123 124 rfl) $$ [H T123]
  · isplitl [H] <;> iassumption
  irename Hjn => H
  ihave Hjn := (join1 fullShare 122 123 rfl) $$ [H T122]
  · isplitl [H] <;> iassumption
  irename Hjn => H
  ihave Hjn := (join1 fullShare 121 122 rfl) $$ [H T121]
  · isplitl [H] <;> iassumption
  irename Hjn => H
  ihave Hjn := (join1 fullShare 120 121 rfl) $$ [H T120]
  · isplitl [H] <;> iassumption
  irename Hjn => H
  ihave Hjn := (join1 fullShare 119 120 rfl) $$ [H T119]
  · isplitl [H] <;> iassumption
  irename Hjn => H
  ihave Hjn := (join1 fullShare 118 119 rfl) $$ [H T118]
  · isplitl [H] <;> iassumption
  irename Hjn => H
  ihave Hjn := (join1 fullShare 117 118 rfl) $$ [H T117]
  · isplitl [H] <;> iassumption
  irename Hjn => H
  ihave Hjn := (join1 fullShare 116 117 rfl) $$ [H T116]
  · isplitl [H] <;> iassumption
  irename Hjn => H
  ihave Hjn := (join1 fullShare 115 116 rfl) $$ [H T115]
  · isplitl [H] <;> iassumption
  irename Hjn => H
  ihave Hjn := (join1 fullShare 114 115 rfl) $$ [H T114]
  · isplitl [H] <;> iassumption
  irename Hjn => H
  ihave Hjn := (join1 fullShare 113 114 rfl) $$ [H T113]
  · isplitl [H] <;> iassumption
  irename Hjn => H
  ihave Hjn := (join1 fullShare 112 113 rfl) $$ [H T112]
  · isplitl [H] <;> iassumption
  irename Hjn => H
  ihave Hjn := (join1 fullShare 111 112 rfl) $$ [H T111]
  · isplitl [H] <;> iassumption
  irename Hjn => H
  ihave Hjn := (join1 fullShare 110 111 rfl) $$ [H T110]
  · isplitl [H] <;> iassumption
  irename Hjn => H
  ihave Hjn := (join1 fullShare 109 110 rfl) $$ [H T109]
  · isplitl [H] <;> iassumption
  irename Hjn => H
  ihave Hjn := (join1 fullShare 108 109 rfl) $$ [H T108]
  · isplitl [H] <;> iassumption
  irename Hjn => H
  ihave Hjn := (join1 fullShare 107 108 rfl) $$ [H T107]
  · isplitl [H] <;> iassumption
  irename Hjn => H
  ihave Hjn := (join1 fullShare 106 107 rfl) $$ [H T106]
  · isplitl [H] <;> iassumption
  irename Hjn => H
  ihave Hjn := (join1 fullShare 105 106 rfl) $$ [H T105]
  · isplitl [H] <;> iassumption
  irename Hjn => H
  ihave Hjn := (join1 fullShare 104 105 rfl) $$ [H T104]
  · isplitl [H] <;> iassumption
  irename Hjn => H
  ihave Hjn := (join1 fullShare 103 104 rfl) $$ [H T103]
  · isplitl [H] <;> iassumption
  irename Hjn => H
  ihave Hjn := (join1 fullShare 102 103 rfl) $$ [H T102]
  · isplitl [H] <;> iassumption
  irename Hjn => H
  ihave Hjn := (join1 fullShare 101 102 rfl) $$ [H T101]
  · isplitl [H] <;> iassumption
  irename Hjn => H
  ihave Hjn := (join1 fullShare 100 101 rfl) $$ [H T100]
  · isplitl [H] <;> iassumption
  irename Hjn => H
  ihave Hjn := (join1 fullShare 99 100 rfl) $$ [H T99]
  · isplitl [H] <;> iassumption
  irename Hjn => H
  ihave Hjn := (join1 fullShare 98 99 rfl) $$ [H T98]
  · isplitl [H] <;> iassumption
  irename Hjn => H
  ihave Hjn := (join1 fullShare 97 98 rfl) $$ [H T97]
  · isplitl [H] <;> iassumption
  irename Hjn => H
  ihave Hjn := (join1 fullShare 96 97 rfl) $$ [H T96]
  · isplitl [H] <;> iassumption
  irename Hjn => H
  ihave Hjn := (join1 fullShare 95 96 rfl) $$ [H T95]
  · isplitl [H] <;> iassumption
  irename Hjn => H
  ihave Hjn := (join1 fullShare 94 95 rfl) $$ [H T94]
  · isplitl [H] <;> iassumption
  irename Hjn => H
  ihave Hjn := (join1 fullShare 93 94 rfl) $$ [H T93]
  · isplitl [H] <;> iassumption
  irename Hjn => H
  ihave Hjn := (join1 fullShare 92 93 rfl) $$ [H T92]
  · isplitl [H] <;> iassumption
  irename Hjn => H
  ihave Hjn := (join1 fullShare 91 92 rfl) $$ [H T91]
  · isplitl [H] <;> iassumption
  irename Hjn => H
  ihave Hjn := (join1 fullShare 90 91 rfl) $$ [H T90]
  · isplitl [H] <;> iassumption
  irename Hjn => H
  ihave Hjn := (join1 fullShare 89 90 rfl) $$ [H T89]
  · isplitl [H] <;> iassumption
  irename Hjn => H
  ihave Hjn := (join1 fullShare 88 89 rfl) $$ [H T88]
  · isplitl [H] <;> iassumption
  irename Hjn => H
  ihave Hjn := (join1 fullShare 87 88 rfl) $$ [H T87]
  · isplitl [H] <;> iassumption
  irename Hjn => H
  ihave Hjn := (join1 fullShare 86 87 rfl) $$ [H T86]
  · isplitl [H] <;> iassumption
  irename Hjn => H
  ihave Hjn := (join1 fullShare 85 86 rfl) $$ [H T85]
  · isplitl [H] <;> iassumption
  irename Hjn => H
  ihave Hjn := (join1 fullShare 84 85 rfl) $$ [H T84]
  · isplitl [H] <;> iassumption
  irename Hjn => H
  ihave Hjn := (join1 fullShare 83 84 rfl) $$ [H T83]
  · isplitl [H] <;> iassumption
  irename Hjn => H
  ihave Hjn := (join1 fullShare 82 83 rfl) $$ [H T82]
  · isplitl [H] <;> iassumption
  irename Hjn => H
  ihave Hjn := (join1 fullShare 81 82 rfl) $$ [H T81]
  · isplitl [H] <;> iassumption
  irename Hjn => H
  ihave Hjn := (join1 fullShare 80 81 rfl) $$ [H T80]
  · isplitl [H] <;> iassumption
  irename Hjn => H
  ihave Hjn := (join1 fullShare 79 80 rfl) $$ [H T79]
  · isplitl [H] <;> iassumption
  irename Hjn => H
  ihave Hjn := (join1 fullShare 78 79 rfl) $$ [H T78]
  · isplitl [H] <;> iassumption
  irename Hjn => H
  ihave Hjn := (join1 fullShare 77 78 rfl) $$ [H T77]
  · isplitl [H] <;> iassumption
  irename Hjn => H
  ihave Hjn := (join1 fullShare 76 77 rfl) $$ [H T76]
  · isplitl [H] <;> iassumption
  irename Hjn => H
  ihave Hjn := (join1 fullShare 75 76 rfl) $$ [H T75]
  · isplitl [H] <;> iassumption
  irename Hjn => H
  ihave Hjn := (join1 fullShare 74 75 rfl) $$ [H T74]
  · isplitl [H] <;> iassumption
  irename Hjn => H
  ihave Hjn := (join1 fullShare 73 74 rfl) $$ [H T73]
  · isplitl [H] <;> iassumption
  irename Hjn => H
  ihave Hjn := (join1 fullShare 72 73 rfl) $$ [H T72]
  · isplitl [H] <;> iassumption
  irename Hjn => H
  ihave Hjn := (join1 fullShare 71 72 rfl) $$ [H T71]
  · isplitl [H] <;> iassumption
  irename Hjn => H
  ihave Hjn := (join1 fullShare 70 71 rfl) $$ [H T70]
  · isplitl [H] <;> iassumption
  irename Hjn => H
  ihave Hjn := (join1 fullShare 69 70 rfl) $$ [H T69]
  · isplitl [H] <;> iassumption
  irename Hjn => H
  ihave Hjn := (join1 fullShare 68 69 rfl) $$ [H T68]
  · isplitl [H] <;> iassumption
  irename Hjn => H
  ihave Hjn := (join1 fullShare 67 68 rfl) $$ [H T67]
  · isplitl [H] <;> iassumption
  irename Hjn => H
  ihave Hjn := (join1 fullShare 66 67 rfl) $$ [H T66]
  · isplitl [H] <;> iassumption
  irename Hjn => H
  ihave Hjn := (join1 fullShare 65 66 rfl) $$ [H T65]
  · isplitl [H] <;> iassumption
  irename Hjn => H
  ihave Hjn := (join1 fullShare 64 65 rfl) $$ [H T64]
  · isplitl [H] <;> iassumption
  irename Hjn => H
  ihave Hjn := (join1 fullShare 63 64 rfl) $$ [H T63]
  · isplitl [H] <;> iassumption
  irename Hjn => H
  ihave Hjn := (join1 fullShare 62 63 rfl) $$ [H T62]
  · isplitl [H] <;> iassumption
  irename Hjn => H
  ihave Hjn := (join1 fullShare 61 62 rfl) $$ [H T61]
  · isplitl [H] <;> iassumption
  irename Hjn => H
  ihave Hjn := (join1 fullShare 60 61 rfl) $$ [H T60]
  · isplitl [H] <;> iassumption
  irename Hjn => H
  ihave Hjn := (join1 fullShare 59 60 rfl) $$ [H T59]
  · isplitl [H] <;> iassumption
  irename Hjn => H
  ihave Hjn := (join1 fullShare 58 59 rfl) $$ [H T58]
  · isplitl [H] <;> iassumption
  irename Hjn => H
  ihave Hjn := (join1 fullShare 57 58 rfl) $$ [H T57]
  · isplitl [H] <;> iassumption
  irename Hjn => H
  ihave Hjn := (join1 fullShare 56 57 rfl) $$ [H T56]
  · isplitl [H] <;> iassumption
  irename Hjn => H
  ihave Hjn := (join1 fullShare 55 56 rfl) $$ [H T55]
  · isplitl [H] <;> iassumption
  irename Hjn => H
  ihave Hjn := (join1 fullShare 54 55 rfl) $$ [H T54]
  · isplitl [H] <;> iassumption
  irename Hjn => H
  ihave Hjn := (join1 fullShare 53 54 rfl) $$ [H T53]
  · isplitl [H] <;> iassumption
  irename Hjn => H
  ihave Hjn := (join1 fullShare 52 53 rfl) $$ [H T52]
  · isplitl [H] <;> iassumption
  irename Hjn => H
  ihave Hjn := (join1 fullShare 51 52 rfl) $$ [H T51]
  · isplitl [H] <;> iassumption
  irename Hjn => H
  ihave Hjn := (join1 fullShare 50 51 rfl) $$ [H T50]
  · isplitl [H] <;> iassumption
  irename Hjn => H
  ihave Hjn := (join1 fullShare 49 50 rfl) $$ [H T49]
  · isplitl [H] <;> iassumption
  irename Hjn => H
  ihave Hjn := (join1 fullShare 48 49 rfl) $$ [H T48]
  · isplitl [H] <;> iassumption
  irename Hjn => H
  ihave Hjn := (join1 fullShare 47 48 rfl) $$ [H T47]
  · isplitl [H] <;> iassumption
  irename Hjn => H
  ihave Hjn := (join1 fullShare 46 47 rfl) $$ [H T46]
  · isplitl [H] <;> iassumption
  irename Hjn => H
  ihave Hjn := (join1 fullShare 45 46 rfl) $$ [H T45]
  · isplitl [H] <;> iassumption
  irename Hjn => H
  ihave Hjn := (join1 fullShare 44 45 rfl) $$ [H T44]
  · isplitl [H] <;> iassumption
  irename Hjn => H
  ihave Hjn := (join1 fullShare 43 44 rfl) $$ [H T43]
  · isplitl [H] <;> iassumption
  irename Hjn => H
  ihave Hjn := (join1 fullShare 42 43 rfl) $$ [H T42]
  · isplitl [H] <;> iassumption
  irename Hjn => H
  ihave Hjn := (join1 fullShare 41 42 rfl) $$ [H T41]
  · isplitl [H] <;> iassumption
  irename Hjn => H
  ihave Hjn := (join1 fullShare 40 41 rfl) $$ [H T40]
  · isplitl [H] <;> iassumption
  irename Hjn => H
  ihave Hjn := (join1 fullShare 39 40 rfl) $$ [H T39]
  · isplitl [H] <;> iassumption
  irename Hjn => H
  ihave Hjn := (join1 fullShare 38 39 rfl) $$ [H T38]
  · isplitl [H] <;> iassumption
  irename Hjn => H
  ihave Hjn := (join1 fullShare 37 38 rfl) $$ [H T37]
  · isplitl [H] <;> iassumption
  irename Hjn => H
  ihave Hjn := (join1 fullShare 36 37 rfl) $$ [H T36]
  · isplitl [H] <;> iassumption
  irename Hjn => H
  ihave Hjn := (join1 fullShare 35 36 rfl) $$ [H T35]
  · isplitl [H] <;> iassumption
  irename Hjn => H
  ihave Hjn := (join1 fullShare 34 35 rfl) $$ [H T34]
  · isplitl [H] <;> iassumption
  irename Hjn => H
  ihave Hjn := (join1 fullShare 33 34 rfl) $$ [H T33]
  · isplitl [H] <;> iassumption
  irename Hjn => H
  ihave Hjn := (join1 fullShare 32 33 rfl) $$ [H T32]
  · isplitl [H] <;> iassumption
  irename Hjn => H
  ihave Hjn := (join1 fullShare 31 32 rfl) $$ [H T31]
  · isplitl [H] <;> iassumption
  irename Hjn => H
  ihave Hjn := (join1 fullShare 30 31 rfl) $$ [H T30]
  · isplitl [H] <;> iassumption
  irename Hjn => H
  ihave Hjn := (join1 fullShare 29 30 rfl) $$ [H T29]
  · isplitl [H] <;> iassumption
  irename Hjn => H
  ihave Hjn := (join1 fullShare 28 29 rfl) $$ [H T28]
  · isplitl [H] <;> iassumption
  irename Hjn => H
  ihave Hjn := (join1 fullShare 27 28 rfl) $$ [H T27]
  · isplitl [H] <;> iassumption
  irename Hjn => H
  ihave Hjn := (join1 fullShare 26 27 rfl) $$ [H T26]
  · isplitl [H] <;> iassumption
  irename Hjn => H
  ihave Hjn := (join1 fullShare 25 26 rfl) $$ [H T25]
  · isplitl [H] <;> iassumption
  irename Hjn => H
  ihave Hjn := (join1 fullShare 24 25 rfl) $$ [H T24]
  · isplitl [H] <;> iassumption
  irename Hjn => H
  ihave Hjn := (join1 fullShare 23 24 rfl) $$ [H T23]
  · isplitl [H] <;> iassumption
  irename Hjn => H
  ihave Hjn := (join1 fullShare 22 23 rfl) $$ [H T22]
  · isplitl [H] <;> iassumption
  irename Hjn => H
  ihave Hjn := (join1 fullShare 21 22 rfl) $$ [H T21]
  · isplitl [H] <;> iassumption
  irename Hjn => H
  ihave Hjn := (join1 fullShare 20 21 rfl) $$ [H T20]
  · isplitl [H] <;> iassumption
  irename Hjn => H
  ihave Hjn := (join1 fullShare 19 20 rfl) $$ [H T19]
  · isplitl [H] <;> iassumption
  irename Hjn => H
  ihave Hjn := (join1 fullShare 18 19 rfl) $$ [H T18]
  · isplitl [H] <;> iassumption
  irename Hjn => H
  ihave Hjn := (join1 fullShare 17 18 rfl) $$ [H T17]
  · isplitl [H] <;> iassumption
  irename Hjn => H
  ihave Hjn := (join1 fullShare 16 17 rfl) $$ [H T16]
  · isplitl [H] <;> iassumption
  irename Hjn => H
  ihave Hjn := (join1 fullShare 15 16 rfl) $$ [H T15]
  · isplitl [H] <;> iassumption
  irename Hjn => H
  ihave Hjn := (join1 fullShare 14 15 rfl) $$ [H T14]
  · isplitl [H] <;> iassumption
  irename Hjn => H
  ihave Hjn := (join1 fullShare 13 14 rfl) $$ [H T13]
  · isplitl [H] <;> iassumption
  irename Hjn => H
  ihave Hjn := (join1 fullShare 12 13 rfl) $$ [H T12]
  · isplitl [H] <;> iassumption
  irename Hjn => H
  ihave Hjn := (join1 fullShare 11 12 rfl) $$ [H T11]
  · isplitl [H] <;> iassumption
  irename Hjn => H
  ihave Hjn := (join1 fullShare 10 11 rfl) $$ [H T10]
  · isplitl [H] <;> iassumption
  irename Hjn => H
  ihave Hjn := (join1 fullShare 9 10 rfl) $$ [H T9]
  · isplitl [H] <;> iassumption
  irename Hjn => H
  ihave Hjn := (join1 fullShare 8 9 rfl) $$ [H T8]
  · isplitl [H] <;> iassumption
  irename Hjn => H
  ihave Hjn := (join1 fullShare 7 8 rfl) $$ [H T7]
  · isplitl [H] <;> iassumption
  irename Hjn => H
  ihave Hjn := (join1 fullShare 6 7 rfl) $$ [H T6]
  · isplitl [H] <;> iassumption
  irename Hjn => H
  ihave Hjn := (join1 fullShare 5 6 rfl) $$ [H T5]
  · isplitl [H] <;> iassumption
  irename Hjn => H
  ihave Hjn := (join1 fullShare 4 5 rfl) $$ [H T4]
  · isplitl [H] <;> iassumption
  irename Hjn => H
  ihave Hjn := (join1 fullShare 3 4 rfl) $$ [H T3]
  · isplitl [H] <;> iassumption
  irename Hjn => H
  ihave Hjn := (join1 fullShare 2 3 rfl) $$ [H T2]
  · isplitl [H] <;> iassumption
  irename Hjn => H
  ihave Hjn := (join1 fullShare 1 2 rfl) $$ [H T1]
  · isplitl [H] <;> iassumption
  irename Hjn => H
  ihave Hjn := (join0 fullShare) $$ [H T0]
  · isplitl [H] <;> iassumption
  irename Hjn => H
  iexact H

end Cert.KToks

end
-- ==== Proof.KRows.lean ====
/-
  A block of 128 rows and 4096 columns held row by row.

  A view's elements are the disjoint union of its rows along an axis, so a block held at the full share is its 128
  rows held at the full share each, and back. Row k is taken as a memref of its own: the unit-stride rectangle at
  offset (k, 0) of sizes (1, 4096), with the axis of extent one dropped. Dropping an axis re-indexes the same
  elements, and that rectangle is the block's k-th row rectangle along axis 0, so the row memref's element set is the
  row's. The product over the 128 row numbers is written out as the chain row 0 ∗ row 1 ∗ … ∗ row 127.
-/
import Idealize.ShloMosaic.Lib.Tactic
import Idealize.ShloMosaic.Lib.Transfers
import Idealize.ShloMosaic.Lib.Pipeline.Kit
import Idealize.ShloMosaic.Lib.SparseCore.Stream

set_option maxRecDepth 16384

noncomputable section

namespace Cert.KRows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

abbrev SB : Shape := ⟨2, ![128, 4096]⟩
abbrev SR1 : Shape := ⟨2, ![1, 4096]⟩
abbrev SR : Shape := ⟨1, ![4096]⟩

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

theorem row_inb (k : ℕ) (hk : k < 128) : ∀ a, (![k, 0] : Fin 2 → ℕ) a + SR1.size a ≤ SB.size a := by
  intro a
  match a with
  | ⟨0, _⟩ => show k + 1 ≤ 128; omega
  | ⟨1, _⟩ => show 0 + 4096 ≤ 4096; omega

/-- Row k of a block of 128 rows and 4096 columns, as a memref of its own of 4096 elements. -/
abbrev rowM {κ : Kind} {sp : Space} {e : EltTy} (m : Memref sig κ sp SB e) (hsq : SR1.Squeezes SR) (k : ℕ) (hk : k < 128) : Memref sig κ sp SR e :=
  (m.slice (Rect.unit (s := SB) ![k, 0] SR1.size (row_inb k hk)) (fun _ => rfl)).squeeze SR hsq

/-- Row k held by its own elements at contents f. -/
abbrev heldRow (c : Thread nD τ) {sp : Space} {e : EltTy} (m : Memref sig c.2.kind sp SB e) (hsq : SR1.Squeezes SR) (k : ℕ) (hk : k < 128)
    (f : Buf Val (m.view.loc c)) : sProp 𝕄 :=
  (rowM m hsq k hk).view.loc c ↦[(rowM m hsq k hk).view.set]{fullShare} (f : Buf Val ((rowM m hsq k hk).view.loc c))

open Lean in
macro "rows_chain% " c:term:max m:term:max hsq:term:max f:term:max : term => do
  let row (k : Nat) : MacroM Term := do
    let lit := Syntax.mkNumLit (toString k)
    `(heldRow $c $m $hsq $lit (by decide) $f)
  let mut t ← row 127
  for j in [1:128] do
    let k := 127 - j
    let hd ← row k
    t ← `(iprop($hd ∗ $t))
  return t

-- The 128 row numbers 0, 1, …, 127, listed.
open Lean in
macro "rows_list% " : term => do
  let mut es : Array Term := #[]
  for k in [0:128] do
    let lit := Syntax.mkNumLit (toString k)
    es := es.push (← `((⟨$lit, by decide⟩ : Fin (SB.size 0))))
  `([$es,*])

/-- Two unit-stride rectangles of equal offsets and sizes are one rectangle. -/
theorem unit_congr {s : Shape} {o₁ o₂ z₁ z₂ : Fin s.rank → ℕ} (ho : o₁ = o₂) (hz : z₁ = z₂)
    (h₁ : ∀ a, o₁ a + z₁ a ≤ s.size a) (h₂ : ∀ a, o₂ a + z₂ a ≤ s.size a) :
    Rect.unit (s := s) o₁ z₁ h₁ = Rect.unit (s := s) o₂ z₂ h₂ := by
  subst ho; subst hz; rfl

/-- The rectangle at offset (k, 0) of sizes (1, 4096) is the block's row k along axis 0. -/
theorem row_rect (k : ℕ) (hk : k < 128) :
    Rect.unit (s := SB) ![k, 0] SR1.size (row_inb k hk) = SB.rowRect (0 : Fin SB.rank) (⟨k, hk⟩ : Fin (SB.size 0)) := by
  unfold Shape.rowRect
  refine unit_congr ?_ ?_ _ _
  · funext b
    match b with
    | ⟨0, _⟩ => rfl
    | ⟨1, _⟩ => rfl
  · funext b
    match b with
    | ⟨0, _⟩ => rfl
    | ⟨1, _⟩ => rfl

/-- The row memref's elements are the row's: dropping the unit axis re-indexes the slice's elements. -/
theorem row_set {κ : Kind} {sp : Space} {e : EltTy} (m : Memref sig κ sp SB e) (hsq : SR1.Squeezes SR) (k : ℕ) (hk : k < 128) :
    (rowM m hsq k hk).view.set = (m.view.slice (SB.rowRect (0 : Fin SB.rank) (⟨k, hk⟩ : Fin (SB.size 0)))).set := by
  show ((m.view.slice (Rect.unit (s := SB) ![k, 0] SR1.size (row_inb k hk))).reshape SR hsq.numel_eq).set = _
  rw [View.set_reshape, View.set_slice, View.set_slice]
  exact congrArg (fun r : Rect SB => r.set.map m.view.emb) (row_rect k hk)

/-- one row's contents replaced by contents that agree with them on the row's elements -/
theorem row_congr (c : Thread nD τ) {sp : Space} {e : EltTy} (m : Memref sig c.2.kind sp SB e) (hsq : SR1.Squeezes SR) (k : ℕ) (hk : k < 128)
    (f g : Buf Val (m.view.loc c)) (h : ∀ i ∈ (rowM m hsq k hk).view.set, (f : Buf Val ((rowM m hsq k hk).view.loc c)) i = g i) :
    heldRow c m hsq k hk f ⊢ (heldRow c m hsq k hk g : sProp 𝕄) :=
  Entails.of_eq (pointsTo_congr h)

/-- The block held at the full share is the product, over the 128 row numbers, of its rows held at the full share. -/
theorem rows_bigSep (c : Thread nD τ) {sp : Space} {e : EltTy} (m : Memref sig c.2.kind sp SB e) (hsq : SR1.Squeezes SR) (f : Buf Val (m.view.loc c)) :
    (m.view.loc c ↦[m.view.set]{fullShare} f : sProp 𝕄) = bigSep Finset.univ fun k : Fin (SB.size 0) => heldRow c m hsq k.val k.isLt f := by
  rw [pointsTo_rows c m.view (0 : Fin SB.rank) fullShare f]
  refine congrArg (bigSep Finset.univ) (funext fun k => ?_)
  exact congrArg (fun I => (m.view.loc c ↦[I]{fullShare} f : sProp 𝕄)) (row_set m hsq k.val k.isLt).symm

theorem rows_list_nodup : (rows_list% : List (Fin (SB.size 0))).Nodup := by decide

theorem rows_list_univ : (Finset.univ : Finset (Fin (SB.size 0))) = (rows_list% : List (Fin (SB.size 0))).toFinset := by decide

/-- The block held at the full share is its 128 rows held at the full share, written out. -/
theorem rows_eq (c : Thread nD τ) {sp : Space} {e : EltTy} (m : Memref sig c.2.kind sp SB e) (hsq : SR1.Squeezes SR) (f : Buf Val (m.view.loc c)) :
    (m.view.loc c ↦[m.view.set]{fullShare} f : sProp 𝕄) = rows_chain% c m hsq f := by
  rw [rows_bigSep c m hsq f, bigSep_univ_eq_bigSepL rows_list% rows_list_univ rows_list_nodup]
  rfl

theorem rows_split (c : Thread nD τ) {sp : Space} {e : EltTy} (m : Memref sig c.2.kind sp SB e) (hsq : SR1.Squeezes SR) (f : Buf Val (m.view.loc c)) :
    (m.view.loc c ↦[m.view.set]{fullShare} f : sProp 𝕄) ⊢ rows_chain% c m hsq f :=
  Entails.of_eq (rows_eq c m hsq f)

theorem rows_join (c : Thread nD τ) {sp : Space} {e : EltTy} (m : Memref sig c.2.kind sp SB e) (hsq : SR1.Squeezes SR) (f : Buf Val (m.view.loc c)) :
    rows_chain% c m hsq f ⊢ (m.view.loc c ↦[m.view.set]{fullShare} f : sProp 𝕄) :=
  Entails.of_eq (rows_eq c m hsq f).symm

end Cert.KRows

end
-- ==== Proof.KRowVal.lean ====
/-
  A row delivered by a copy, read on the row's elements.

  Row k of the result block (128 rows, 4096 columns) is written, whole, with what the window of 4096 columns
  starting at column w of row k of the scratch (128 rows, 8192 columns) holds. Both ends are a unit-stride
  rectangle of one row with the axis of extent one dropped: element j of such a row memref sits, in the underlying
  buffer, where the block's element (k, offset + j) sits (dropping the axis matches j with (0, j); the rectangle
  shifts that by its offsets). So on the elements of row k of the result the written contents are the scratch read at
  (k, w + j), and the raw contents that read as a block G are G at (k, j) there: the two agree as soon as G is the
  scratch's window on row k.
-/
import proofs.«422330_j45105746542888_3_alg».proof.Proof.KRows
import proofs.«422330_j45105746542888_3_alg».proof.Proof.Gen.KernelIdeal
import Idealize.ShloMosaic.Lib.Pipeline.Frame
import Idealize.ShloMosaic.Lib.ValueIdx
import Idealize.ShloMosaic.Lib.Writes

set_option maxRecDepth 16384

noncomputable section

namespace Cert.KernelIdeal.KRowVal

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Column j of a row of 4096, matched with the shape of one row and 4096 columns, is (0, j). -/
theorem reshape_ix1 (h : (⟨1, ![4096]⟩ : Shape).numel = (⟨2, ![1, 4096]⟩ : Shape).numel) (j : Fin 4096) :
    Shape.reshapeEquiv h (ix1 j) = ix2 (0 : Fin 1) j :=
  Shape.reshapeEquiv_eq_of_rowMajor h (by
    rw [Shape.rowMajor_val_two, Shape.rowMajor_val_one]
    show 0 * 4096 + j.val = j.val
    rw [Nat.zero_mul, Nat.zero_add])

/-- The unit-stride rectangle of one row and 4096 columns at offset (k, o) of a block of n rows and m columns
    places its element (0, j) at (k, o + j). -/
theorem unit_emb {n m : ℕ} (k o : ℕ) (inb : ∀ a, (![k, o] : Fin 2 → ℕ) a + (⟨2, ![1, 4096]⟩ : Shape).size a ≤ (⟨2, ![n, m]⟩ : Shape).size a)
    (j : Fin 4096) (hk : k < n) (ho : o + j.val < m) :
    (Rect.unit (s := (⟨2, ![n, m]⟩ : Shape)) ![k, o] (⟨2, ![1, 4096]⟩ : Shape).size inb).emb (ix2 (0 : Fin 1) j)
      = ix2 (⟨k, hk⟩ : Fin n) (⟨o + j.val, ho⟩ : Fin m) := by
  funext a
  apply Fin.ext
  match a with
  | ⟨0, _⟩ => show k + 1 * 0 = k; omega
  | ⟨1, _⟩ => show o + 1 * j.val = o + j.val; omega

/-- A row memref (one row of a block at offset (k, o), the unit axis dropped) reads, at column j, the block at
    (k, o + j). -/
theorem read_row {κ : Kind} {sp : Space} {e : EltTy} {n m : ℕ} (M : Memref sig κ sp (⟨2, ![n, m]⟩ : Shape) e) (k o : ℕ)
    (inb : ∀ a, (![k, o] : Fin 2 → ℕ) a + (⟨2, ![1, 4096]⟩ : Shape).size a ≤ (⟨2, ![n, m]⟩ : Shape).size a)
    (hsq : (⟨2, ![1, 4096]⟩ : Shape).Squeezes (⟨1, ![4096]⟩ : Shape)) (Val : EltTy → Type) (g : M.view.ty.Contents Val)
    (j : Fin 4096) (hk : k < n) (ho : o + j.val < m) :
    ((M.slice (Rect.unit (s := (⟨2, ![n, m]⟩ : Shape)) ![k, o] (⟨2, ![1, 4096]⟩ : Shape).size inb) (fun _ => rfl)).squeeze (⟨1, ![4096]⟩ : Shape) hsq).view.read Val g (ix1 j)
      = M.view.read Val g (ix2 (⟨k, hk⟩ : Fin n) (⟨o + j.val, ho⟩ : Fin m)) := by
  show _root_.cast _ (g (M.view.emb ((Rect.unit (s := (⟨2, ![n, m]⟩ : Shape)) ![k, o] (⟨2, ![1, 4096]⟩ : Shape).size inb).emb
      (Shape.reshapeEquiv hsq.numel_eq (ix1 j))))) = _
  rw [reshape_ix1, unit_emb k o inb j hk ho]
  rfl

/-- The window's last column lies inside the scratch. -/
theorem col_lt (k : ℕ) (w : BitVec 32) (hw : ∀ a, (![k, w.toNat] : Fin 2 → ℕ) a + S1x4096.size a ≤ S128x8192.size a) (j : Fin 4096) :
    w.toNat + j.val < 8192 := by
  have h1 : w.toNat + 4096 ≤ 8192 := hw 1
  have := j.isLt
  omega

theorem row_landed (c : Dev nD) (arg7 : Memref sig .tc .vmem S128x4096 .f32) (harg7 : arg7.IsWhole) (arg9 : Memref sig .tc .vmem S128x8192 .f32)
    (k : ℕ) (hk : k < 128) (w : BitVec 32) (hw : ∀ a, (![k, w.toNat] : Fin 2 → ℕ) a + S1x4096.size a ≤ S128x8192.size a)
    (f7 : Buf (Elt F) (arg7.view.loc (c : Thread nD τ))) (g9 : arg9.view.ty.Contents (Elt F)) (G : Vec F S128x4096 .f32)
    (hG : ∀ j : Fin 4096, G (ix2 (⟨k, hk⟩ : Fin 128) j)
      = arg9.view.read (Elt F) g9 (ix2 (⟨k, hk⟩ : Fin 128) (⟨w.toNat + j.val, col_lt k w hw j⟩ : Fin 8192))) :
    ∀ idx ∈ (KRows.rowM arg7 squeezes_S1x4096_S4096 k hk).view.set,
      ((KRows.rowM arg7 squeezes_S1x4096_S4096 k hk).view.writes (Elt F) f7 [⟨Rect.whole KRows.SR, ReadAs.same.apply (View.read (Elt F) ((arg9.slice (Rect.unit (s := S128x8192) ![k, w.toNat] S1x4096.size hw) (fun _ => rfl)).squeeze S4096 squeezes_S1x4096_S4096).view g9)⟩]) idx
        = (harg7.unread G : Buf (Elt F) (arg7.view.loc (c : Thread nD τ))) idx := by
  intro idx hidx
  obtain ⟨j, -, rfl⟩ := Finset.mem_map.mp hidx
  obtain ⟨j0, rfl⟩ : ∃ j0 : Fin 4096, j = ix1 j0 := ⟨j 0, eq_ix1 j⟩
  -- the written contents, read back through the row at column j0, are the payload there: the scratch at (k, w + j0)
  have hL := View.read_writes_cons_emb (KRows.rowM arg7 squeezes_S1x4096_S4096 k hk).view f7 (Rect.whole KRows.SR)
    (ReadAs.same.apply (View.read (Elt F) ((arg9.slice (Rect.unit (s := S128x8192) ![k, w.toNat] S1x4096.size hw) (fun _ => rfl)).squeeze S4096 squeezes_S1x4096_S4096).view g9))
    [] (ix1 j0)
  rw [Rect.emb_whole_apply] at hL
  have hP : ReadAs.same.apply (View.read (Elt F) ((arg9.slice (Rect.unit (s := S128x8192) ![k, w.toNat] S1x4096.size hw) (fun _ => rfl)).squeeze S4096 squeezes_S1x4096_S4096).view g9) (ix1 j0)
      = G (ix2 (⟨k, hk⟩ : Fin 128) j0) :=
    (read_row arg9 k w.toNat hw squeezes_S1x4096_S4096 (Elt F) g9 j0 hk (col_lt k w hw j0)).trans (hG j0).symm
  -- the raw contents that read as G, read through the row at column j0, are G at (k, j0)
  have hR : (KRows.rowM arg7 squeezes_S1x4096_S4096 k hk).view.read (Elt F) (harg7.unread G) (ix1 j0) = G (ix2 (⟨k, hk⟩ : Fin 128) j0) := by
    have h0 : 0 + j0.val < 4096 := by have := j0.isLt; omega
    have e0 : (⟨0 + j0.val, h0⟩ : Fin 4096) = j0 := Fin.ext (Nat.zero_add _)
    refine (read_row arg7 k 0 (KRows.row_inb k hk) squeezes_S1x4096_S4096 (Elt F) (harg7.unread G) j0 hk h0).trans ?_
    rw [e0, harg7.read_unread]
  -- both sides are the same element of the buffer; compare them as values of the row's element type
  refine (cast_inj (congrArg (Elt F) (KRows.rowM arg7 squeezes_S1x4096_S4096 k hk).view.elt_eq)).mp ?_
  exact hL.trans (hP.trans hR.symm)

/-- Row k held at what the copy wrote is row k held at the raw contents that read as G. -/
theorem row_to_block (c : Dev nD) (arg7 : Memref sig .tc .vmem S128x4096 .f32) (harg7 : arg7.IsWhole) (arg9 : Memref sig .tc .vmem S128x8192 .f32)
    (k : ℕ) (hk : k < 128) (w : BitVec 32) (hw : ∀ a, (![k, w.toNat] : Fin 2 → ℕ) a + S1x4096.size a ≤ S128x8192.size a)
    (f7 : Buf (Elt F) (arg7.view.loc (c : Thread nD τ))) (g9 : arg9.view.ty.Contents (Elt F)) (G : Vec F S128x4096 .f32)
    (hG : ∀ j : Fin 4096, G (ix2 (⟨k, hk⟩ : Fin 128) j)
      = arg9.view.read (Elt F) g9 (ix2 (⟨k, hk⟩ : Fin 128) (⟨w.toNat + j.val, col_lt k w hw j⟩ : Fin 8192))) :
    KRows.heldRow (c : Thread nD τ) arg7 squeezes_S1x4096_S4096 k hk
        ((KRows.rowM arg7 squeezes_S1x4096_S4096 k hk).view.writes (Elt F) f7 [⟨Rect.whole KRows.SR, ReadAs.same.apply (View.read (Elt F) ((arg9.slice (Rect.unit (s := S128x8192) ![k, w.toNat] S1x4096.size hw) (fun _ => rfl)).squeeze S4096 squeezes_S1x4096_S4096).view g9)⟩])
      ⊢ (KRows.heldRow (c : Thread nD τ) arg7 squeezes_S1x4096_S4096 k hk (harg7.unread G) : sProp (MT nD τ sig Unit (Elt F) ℕ (Pipeline.UD sig nD τ) ℕ)) :=
  KRows.row_congr (c : Thread nD τ) arg7 squeezes_S1x4096_S4096 k hk _ _ (row_landed c arg7 harg7 arg9 k hk w hw f7 g9 G hG)

end Cert.KernelIdeal.KRowVal

end
-- ==== Proof.KRowFinal.lean ====
/-
  A delivered row is the window block's row.

  Row k of the result block of grid point p receives the window of row k of the scratch that starts at column w,
  the table's word at position 128 p + k (computed in 32-bit words, exactly, since p < 64 and k < 128). The
  scratch holds the compared padded block, so the delivered row is, element by element, the closed form's row k:
  the scratch at row k and column shift + j, with shift + j < 8192 because every word is at most 4096.
-/
import proofs.«422330_j45105746542888_3_alg».proof.Proof.KRowVal
import proofs.«422330_j45105746542888_3_alg».proof.Proof.KBlocks
import Idealize.ShloMosaic.Lib.WholeRead
import Idealize.ShloMosaic.Lib.Tactic
import Idealize.ShloMosaic.Lib.Pipeline.Frame

noncomputable section

namespace Cert.KernelIdeal.KRowFinal

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig Unit (Elt F) ℕ (Pipeline.UD sig nD τ) ℕ

/-- The table position of row k at grid point i, as the body computes it in 32-bit words: 128 i + k. -/
theorem off_val (i : grid0.Coords) (k : ℕ) (hk : k < 128) :
    (Scalar.indexCast (Scalar.addi (Scalar.muli (BitVec.ofNat 32 (i 0).val) 128#32) (BitVec.ofNat 32 k))).toNat = 128 * (i 0).val + k := by
  have hi : (i 0).val < 64 := (i 0).isLt
  simp only [Scalar.indexCast, Scalar.addi, Scalar.muli, IntOp.addi, IntOp.muli, BitVec.toNat_add, BitVec.toNat_mul, BitVec.toNat_ofNat]
  omega

/-- Row k of the result block, as the run leaves it — the window of row k of the scratch at the column the table's word
    at position 128 i + k names, the scratch holding the compared padded block —, is row k of the closed form. -/
theorem row_final (c : Dev nD) (i : grid0.Coords) (arg1 : Memref sig .tc .smem S8192 .i32) (harg1 : arg1.IsWhole)
    (arg7 : Memref sig .tc .vmem S128x4096 .f32) (harg7 : arg7.IsWhole) (arg9 : Memref sig .tc .vmem S128x8192 .f32)
    (x0 : Vec F S8192 .i32) (hx : ∀ k, (x0 k).toNat ≤ 4096)
    (x1 : Vec F S128x4096 .f32) (x2 x3 : Vec F S128x2048 .f32) (x4 : Vec F S8192 .f32)
    (f7 : Buf (Elt F) (arg7.view.loc (c : Thread nD τ))) (g9 : arg9.view.ty.Contents (Elt F))
    (hg9 : arg9.view.read (Elt F) g9 = KBlocks.scr x1 x2 x3 x4)
    (k : ℕ) (hk : k < 128)
    (hinb : ∀ a, (![(Scalar.indexCast (Scalar.addi (Scalar.muli (BitVec.ofNat 32 (i 0).val) 128#32) (BitVec.ofNat 32 k))).toNat] : Fin 1 → ℕ) a + S1.size a ≤ S8192.size a)
    (hnum : 0 < (Rect.unit (s := S8192) ![(Scalar.indexCast (Scalar.addi (Scalar.muli (BitVec.ofNat 32 (i 0).val) 128#32) (BitVec.ofNat 32 k))).toNat] S1.size hinb).shape.numel)
    (hw : ∀ a, (![k, (View.readAt (Elt F) arg1.view (Rect.unit (s := S8192) ![(Scalar.indexCast (Scalar.addi (Scalar.muli (BitVec.ofNat 32 (i 0).val) 128#32) (BitVec.ofNat 32 k))).toNat] S1.size hinb).toLoadRect (harg1.unread x0) (Shape.Idx.first hnum)).toNat] : Fin 2 → ℕ) a + S1x4096.size a ≤ S128x8192.size a)
    (hr) :
    (KRows.heldRow (c : Thread nD τ) arg7 squeezes_S1x4096_S4096 k hk
        ((KRows.rowM arg7 squeezes_S1x4096_S4096 k hk).view.writes (Elt F) f7
          [⟨Rect.whole KRows.SR, ReadAs.same.apply (View.read (Elt F)
            ((arg9.slice (Rect.unit (s := S128x8192) ![k, (View.readAt (Elt F) arg1.view (Rect.unit (s := S8192) ![(Scalar.indexCast (Scalar.addi (Scalar.muli (BitVec.ofNat 32 (i 0).val) 128#32) (BitVec.ofNat 32 k))).toNat] S1.size hinb).toLoadRect (harg1.unread x0) (Shape.Idx.first hnum)).toNat] S1x4096.size hw) hr).squeeze S4096 squeezes_S1x4096_S4096).view g9)⟩]) : sProp 𝕄)
      ⊢ KRows.heldRow (c : Thread nD τ) arg7 squeezes_S1x4096_S4096 k hk (harg7.unread (KBlocks.maskBlock i x0 x1 x2 x3 x4)) := by
  refine KRowVal.row_to_block c arg7 harg7 arg9 k hk _ hw f7 g9 _ ?_
  intro j
  rw [hg9]
  have hi : (i 0).val < 64 := (i 0).isLt
  have hidx : (Rect.unit (s := S8192) ![(Scalar.indexCast (Scalar.addi (Scalar.muli (BitVec.ofNat 32 (i 0).val) 128#32) (BitVec.ofNat 32 k))).toNat] S1.size hinb).toLoadRect.idx (Shape.Idx.first hnum)
      = ix1 (⟨(128 * (i 0).val + k) % 8192, Nat.mod_lt _ (by decide)⟩ : Fin 8192) := by
    funext a
    match a with
    | ⟨0, _⟩ =>
      apply Fin.ext
      show (Scalar.indexCast (Scalar.addi (Scalar.muli (BitVec.ofNat 32 (i 0).val) 128#32) (BitVec.ofNat 32 k))).toNat + 1 * 0 = (128 * (i 0).val + k) % 8192
      rw [off_val i k hk]; omega
  have hword : (View.readAt (Elt F) arg1.view (Rect.unit (s := S8192) ![(Scalar.indexCast (Scalar.addi (Scalar.muli (BitVec.ofNat 32 (i 0).val) 128#32) (BitVec.ofNat 32 k))).toNat] S1.size hinb).toLoadRect (harg1.unread x0) (Shape.Idx.first hnum)).toNat
      = KBlocks.shiftAt i x0 (⟨k, hk⟩ : Fin 128) := by
    rw [harg1.readAt_unread, hidx]; rfl
  have hs : KBlocks.shiftAt i x0 (⟨k, hk⟩ : Fin 128) ≤ 4096 := hx _
  show KBlocks.maskAt i x0 x1 x2 x3 x4 (⟨k, hk⟩ : Fin 128) j = _
  unfold KBlocks.maskAt
  congr 2
  apply Fin.ext
  show (KBlocks.shiftAt i x0 (⟨k, hk⟩ : Fin 128) + j.val) % 8192 = _ + j.val
  rw [hword]; have := j.isLt; omega

end Cert.KernelIdeal.KRowFinal

end
-- ==== Proof.KScratch.lean ====
/-
  What the kernel body's stores leave in its scratch, read back as closed functions of the loaded blocks.

  The scratch of 128 rows and 8192 columns is written by three stores side by side — the left edge strip at
  columns 0 to 2047, the block at columns 2048 to 6143, the right edge strip at columns 6144 to 8191 — which
  together cover it, so a load of the whole scratch after them reads the padded block asm. A fourth store then
  overwrites the whole scratch with the comparison of that load with the padded probabilities, so the scratch
  reads scr from then on, its middle 4096 columns read core, and the row sums stored from them read lpBlock.
-/
import proofs.«422330_j45105746542888_3_alg».proof.Proof.KBlocks
import Idealize.ShloMosaic.Lib.Pipeline.Frame
import Idealize.ShloMosaic.Lib.WholeRead
import Idealize.ShloMosaic.Lib.Pipeline.Value
import Idealize.ShloMosaic.Lib.Pipeline.FrameBody
import Idealize.ShloMosaic.Lib.Writes
import Idealize.ShloMosaic.Lib.ValueIdx

noncomputable section

namespace Cert.KernelIdeal.KScratch

open Cert.KernelIdeal Cert.KernelIdeal.Gen Idealize.ShloMosaic Idealize.ShloMosaic.TcCoe Idealize.ShloMosaic.ValueIdx

variable {F : FTy → Type} [FloatOps F]

/-- The zero offsets of a rank-2 access, spelt as a literal. -/
theorem hz2 : (![0, 0] : Fin 2 → Nat) = fun _ => 0 := funext fun a => by
  match a with
  | ⟨0, _⟩ => rfl
  | ⟨1, _⟩ => rfl

/-- The zero offset of a rank-1 access, spelt as a literal. -/
theorem hz1 : (![0] : Fin 1 → Nat) = fun _ => 0 := funext fun a => by
  match a with
  | ⟨0, _⟩ => rfl

/-! ## The padded block at its three ranges of columns -/

/-- Below column 2048 the padded block is the left edge strip. -/
theorem asmAt_left (x2 : Vec F S128x2048 .f32) (x1 : Vec F S128x4096 .f32) (x3 : Vec F S128x2048 .f32) (rr : Fin 128) (b : Fin 2048) :
    KBlocks.asmAt x2 x1 x3 rr (⟨b.val, by omega⟩ : Fin 8192) = k0_pay1 x2 (ix2 rr b) := by
  unfold KBlocks.asmAt
  rw [dif_pos (show (⟨b.val, by omega⟩ : Fin 8192).val < 2048 from b.isLt)]

/-- From column 2048 to column 6143 it is the block itself. -/
theorem asmAt_mid (x2 : Vec F S128x2048 .f32) (x1 : Vec F S128x4096 .f32) (x3 : Vec F S128x2048 .f32) (rr : Fin 128) (b : Fin 4096) :
    KBlocks.asmAt x2 x1 x3 rr (⟨b.val + 2048, by omega⟩ : Fin 8192) = k0_pay2 x1 (ix2 rr b) := by
  unfold KBlocks.asmAt
  rw [dif_neg (show ¬ (⟨b.val + 2048, by omega⟩ : Fin 8192).val < 2048 by show ¬ b.val + 2048 < 2048; omega),
    dif_pos (show (⟨b.val + 2048, by omega⟩ : Fin 8192).val < 6144 by show b.val + 2048 < 6144; omega)]
  exact congrArg (fun c : Fin 4096 => k0_pay2 x1 (ix2 rr c)) (Fin.ext (by show b.val + 2048 - 2048 = b.val; omega))

/-- From column 6144 on it is the right edge strip. -/
theorem asmAt_right (x2 : Vec F S128x2048 .f32) (x1 : Vec F S128x4096 .f32) (x3 : Vec F S128x2048 .f32) (rr : Fin 128) (b : Fin 2048) :
    KBlocks.asmAt x2 x1 x3 rr (⟨b.val + 6144, by omega⟩ : Fin 8192) = k0_pay3 x3 (ix2 rr b) := by
  unfold KBlocks.asmAt
  rw [dif_neg (show ¬ (⟨b.val + 6144, by omega⟩ : Fin 8192).val < 2048 by show ¬ b.val + 6144 < 2048; omega),
    dif_neg (show ¬ (⟨b.val + 6144, by omega⟩ : Fin 8192).val < 6144 by show ¬ b.val + 6144 < 6144; omega)]
  exact congrArg (fun c : Fin 2048 => k0_pay3 x3 (ix2 rr c)) (Fin.ext (by show b.val + 6144 - 6144 = b.val; omega))

variable (arg2 : Memref sig .tc .vmem S128x4096 .f32) (harg2 : arg2.IsWhole) (arg3 : Memref sig .tc .vmem S128x2048 .f32) (harg3 : arg3.IsWhole)
  (arg4 : Memref sig .tc .vmem S128x2048 .f32) (harg4 : arg4.IsWhole) (arg5 : Memref sig .tc .vmem S8192 .f32) (harg5 : arg5.IsWhole)
  (arg9 : Memref sig .tc .vmem S128x8192 .f32) (x1 : Vec F S128x4096 .f32) (x2 x3 : Vec F S128x2048 .f32) (x4 : Vec F S8192 .f32)

/-- The three stores of the edge strips and the block, last first. -/
abbrev L3 : List (View.Piece (Elt F) S128x8192 .f32) :=
  [⟨Rect.unit ![0, 6144] S128x2048.size inb_S128x8192_S128x2048_0_6144, k0_pay3 (View.readAt (Elt F) arg4.view (Rect.unit ![0, 0] S128x2048.size inb_S128x2048_S128x2048_0_0).toLoadRect (harg4.unread x3))⟩,
   ⟨Rect.unit ![0, 2048] S128x4096.size inb_S128x8192_S128x4096_0_2048, k0_pay2 (View.readAt (Elt F) arg2.view (Rect.unit ![0, 0] S128x4096.size inb_S128x4096_S128x4096_0_0).toLoadRect (harg2.unread x1))⟩,
   ⟨Rect.unit ![0, 0] S128x2048.size inb_S128x8192_S128x2048_0_0, k0_pay1 (View.readAt (Elt F) arg3.view (Rect.unit ![0, 0] S128x2048.size inb_S128x2048_S128x2048_0_0).toLoadRect (harg3.unread x2))⟩]

/-- On top of them the store of the whole scratch: the comparison with the loaded padded probabilities. -/
abbrev L4 : List (View.Piece (Elt F) S128x8192 .f32) :=
  ⟨Rect.unit ![0, 0] S128x8192.size inb_S128x8192_S128x8192_0_0, k0_pay4 (View.readAt (Elt F) arg5.view (Rect.unit ![0] S8192.size inb_S8192_S8192_0).toLoadRect (harg5.unread x4)) (arg9.view.readCov (L3 arg2 harg2 arg3 harg3 arg4 harg4 x1 x2 x3) (Rect.unit ![0, 0] S128x8192.size inb_S128x8192_S128x8192_0_0).toLoadRect)⟩ :: L3 arg2 harg2 arg3 harg3 arg4 harg4 x1 x2 x3

/-! ## Loads of whole staging buffers -/

/-- A load of a whole staging buffer held at the contents that read X reads X. -/
theorem whole_load {s : Shape} (m : Memref sig .tc .vmem s .f32) (h : m.IsWhole) {off : Fin s.rank → Nat} (hz : off = fun _ => 0)
    (inb : ∀ a, off a + s.size a ≤ s.size a) (X : Vec F s .f32) :
    View.readAt (Elt F) m.view (Rect.unit off s.size inb).toLoadRect (h.unread X) = X := by
  rw [View.readAt_eq_ld, h.read_unread, View.ld_unit_zero hz]

theorem logits_read (arg6 : Memref sig .tc .vmem S4096 .f32) (harg6 : arg6.IsWhole) (x5 : Vec F S4096 .f32) :
    View.readAt (Elt F) arg6.view (Rect.unit ![0] S4096.size inb_S4096_S4096_0).toLoadRect (harg6.unread x5) = x5 :=
  whole_load arg6 harg6 hz1 _ x5

/-! ## The three strips read back as the padded block -/

/-- Each of the three pieces is the padded block under its rectangle. -/
theorem pieces3 : ∀ p ∈ L3 arg2 harg2 arg3 harg3 arg4 harg4 x1 x2 x3, ∀ x : p.1.shape.Idx,
    p.2 x = KBlocks.asm x2 x1 x3 (p.1.emb x) := by
  intro p hp x
  simp only [List.mem_cons, List.not_mem_nil, or_false] at hp
  rcases hp with rfl | rfl | rfl
  · obtain ⟨a, b, rfl⟩ : ∃ (a : Fin 128) (b : Fin 2048), x = ix2 a b := ⟨x 0, x 1, eq_ix2 x⟩
    have hy : (Rect.unit (s := S128x8192) ![0, 6144] S128x2048.size inb_S128x8192_S128x2048_0_6144).emb (ix2 a b)
        = ix2 a (⟨b.val + 6144, by omega⟩ : Fin 8192) := by
      funext c
      match c with
      | ⟨0, _⟩ => exact Fin.ext (by show 0 + 1 * a.val = a.val; omega)
      | ⟨1, _⟩ => exact Fin.ext (by show 6144 + 1 * b.val = b.val + 6144; omega)
    show k0_pay3 (View.readAt (Elt F) arg4.view (Rect.unit ![0, 0] S128x2048.size inb_S128x2048_S128x2048_0_0).toLoadRect (harg4.unread x3)) (ix2 a b) = _
    rw [whole_load arg4 harg4 hz2, hy]
    exact (asmAt_right x2 x1 x3 a b).symm
  · obtain ⟨a, b, rfl⟩ : ∃ (a : Fin 128) (b : Fin 4096), x = ix2 a b := ⟨x 0, x 1, eq_ix2 x⟩
    have hy : (Rect.unit (s := S128x8192) ![0, 2048] S128x4096.size inb_S128x8192_S128x4096_0_2048).emb (ix2 a b)
        = ix2 a (⟨b.val + 2048, by omega⟩ : Fin 8192) := by
      funext c
      match c with
      | ⟨0, _⟩ => exact Fin.ext (by show 0 + 1 * a.val = a.val; omega)
      | ⟨1, _⟩ => exact Fin.ext (by show 2048 + 1 * b.val = b.val + 2048; omega)
    show k0_pay2 (View.readAt (Elt F) arg2.view (Rect.unit ![0, 0] S128x4096.size inb_S128x4096_S128x4096_0_0).toLoadRect (harg2.unread x1)) (ix2 a b) = _
    rw [whole_load arg2 harg2 hz2, hy]
    exact (asmAt_mid x2 x1 x3 a b).symm
  · obtain ⟨a, b, rfl⟩ : ∃ (a : Fin 128) (b : Fin 2048), x = ix2 a b := ⟨x 0, x 1, eq_ix2 x⟩
    have hy : (Rect.unit (s := S128x8192) ![0, 0] S128x2048.size inb_S128x8192_S128x2048_0_0).emb (ix2 a b)
        = ix2 a (⟨b.val, by omega⟩ : Fin 8192) := by
      funext c
      match c with
      | ⟨0, _⟩ => exact Fin.ext (by show 0 + 1 * a.val = a.val; omega)
      | ⟨1, _⟩ => exact Fin.ext (by show 0 + 1 * b.val = b.val; omega)
    show k0_pay1 (View.readAt (Elt F) arg3.view (Rect.unit ![0, 0] S128x2048.size inb_S128x2048_S128x2048_0_0).toLoadRect (harg3.unread x2)) (ix2 a b) = _
    rw [whole_load arg3 harg3 hz2, hy]
    exact (asmAt_left x2 x1 x3 a b).symm

/-- The three rectangles cover the scratch: a column lies in one of the three ranges. -/
theorem cover3 (y : S128x8192.Idx) : ∃ p ∈ L3 arg2 harg2 arg3 harg3 arg4 harg4 x1 x2 x3, y ∈ p.1.set := by
  obtain ⟨rr, k, rfl⟩ : ∃ (rr : Fin 128) (k : Fin 8192), y = ix2 rr k := ⟨y 0, y 1, eq_ix2 y⟩
  have hr := rr.isLt
  have hk := k.isLt
  by_cases h1 : k.val < 2048
  · refine ⟨_, List.mem_cons_of_mem _ (List.mem_cons_of_mem _ List.mem_cons_self), ?_⟩
    refine (Rect.mem_set_unit (inb := inb_S128x8192_S128x2048_0_0)).mpr fun c => ?_
    match c with
    | ⟨0, _⟩ => exact ⟨Nat.zero_le _, by show rr.val < 0 + 128; omega⟩
    | ⟨1, _⟩ => exact ⟨Nat.zero_le _, by show k.val < 0 + 2048; omega⟩
  · by_cases h2 : k.val < 6144
    · refine ⟨_, List.mem_cons_of_mem _ List.mem_cons_self, ?_⟩
      refine (Rect.mem_set_unit (inb := inb_S128x8192_S128x4096_0_2048)).mpr fun c => ?_
      match c with
      | ⟨0, _⟩ => exact ⟨Nat.zero_le _, by show rr.val < 0 + 128; omega⟩
      | ⟨1, _⟩ => exact ⟨by show 2048 ≤ k.val; omega, by show k.val < 2048 + 4096; omega⟩
    · refine ⟨_, List.mem_cons_self, ?_⟩
      refine (Rect.mem_set_unit (inb := inb_S128x8192_S128x2048_0_6144)).mpr fun c => ?_
      match c with
      | ⟨0, _⟩ => exact ⟨Nat.zero_le _, by show rr.val < 0 + 128; omega⟩
      | ⟨1, _⟩ => exact ⟨by show 6144 ≤ k.val; omega, by show k.val < 6144 + 2048; omega⟩

/-- What the three stores leave, as one function of the scratch's index: the padded block. -/
theorem canon3 : View.canon (L3 arg2 harg2 arg3 harg3 arg4 harg4 x1 x2 x3) = KBlocks.asm x2 x1 x3 :=
  funext fun y => View.canon_apply_of_pieces (KBlocks.asm x2 x1 x3) _ (pieces3 arg2 harg2 arg3 harg3 arg4 harg4 x1 x2 x3) y
    (cover3 arg2 harg2 arg3 harg3 arg4 harg4 x1 x2 x3 y)

theorem asm_read :
    arg9.view.readCov (L3 arg2 harg2 arg3 harg3 arg4 harg4 x1 x2 x3) (Rect.unit ![0, 0] S128x8192.size inb_S128x8192_S128x8192_0_0).toLoadRect
      = KBlocks.asm x2 x1 x3 := by
  rw [View.readCov_eq_canon_ld _ _ _ (cover3 arg2 harg2 arg3 harg3 arg4 harg4 x1 x2 x3), View.ld_unit_zero hz2, canon3]

/-! ## The scratch after the comparison -/

/-- What the four stores leave: the last covers the scratch, so its payload, the comparison of the padded block
    with the padded probabilities. -/
theorem canon4 : View.canon (L4 arg2 harg2 arg3 harg3 arg4 harg4 arg5 harg5 arg9 x1 x2 x3 x4) = KBlocks.scr x1 x2 x3 x4 := by
  rw [View.canon_cons_unit_zero hz2, whole_load arg5 harg5 hz1, asm_read]
  rfl

theorem scratch_read (f9 : arg9.view.ty.Contents (Elt F)) :
    arg9.view.read (Elt F) (arg9.view.writes (Elt F) f9 (L4 arg2 harg2 arg3 harg3 arg4 harg4 arg5 harg5 arg9 x1 x2 x3 x4))
      = KBlocks.scr x1 x2 x3 x4 := by
  rw [View.read_writes_eq_canon _ _ _ (fun y => ⟨_, List.mem_cons_self, View.mem_set_unit_zero hz2 inb_S128x8192_S128x8192_0_0 y⟩), canon4]

theorem core_read :
    arg9.view.readCov (L4 arg2 harg2 arg3 harg3 arg4 harg4 arg5 harg5 arg9 x1 x2 x3 x4)
        (Rect.unit (s := S128x8192) ![0, 2048] S128x4096.size inb_S128x8192_S128x4096_0_2048).toLoadRect
      = KBlocks.core x1 x2 x3 x4 := by
  rw [View.readCov_eq_canon', canon4]
  funext j
  obtain ⟨rr, b, rfl⟩ : ∃ (rr : Fin 128) (b : Fin 4096), j = ix2 rr b := ⟨j 0, j 1, eq_ix2 j⟩
  show KBlocks.scr x1 x2 x3 x4 ((Rect.unit (s := S128x8192) ![0, 2048] S128x4096.size inb_S128x8192_S128x4096_0_2048).toLoadRect.idx (ix2 rr b))
    = KBlocks.coreAt x1 x2 x3 x4 rr b
  unfold KBlocks.coreAt
  congr 1
  funext c
  match c with
  | ⟨0, _⟩ => exact Fin.ext (by show 0 + 1 * rr.val = rr.val; omega)
  | ⟨1, _⟩ => exact Fin.ext (by show 2048 + 1 * b.val = b.val + 2048; omega)

/-! ## The row sums -/

theorem lp_read (arg6 : Memref sig .tc .vmem S4096 .f32) (harg6 : arg6.IsWhole) (x5 : Vec F S4096 .f32)
    (arg8 : Memref sig .tc .vmem S128x1 .f32) (f8 : arg8.view.ty.Contents (Elt F)) :
    arg8.view.read (Elt F) (arg8.view.writes (Elt F) f8 [⟨Rect.unit ![0, 0] S128x1.size inb_S128x1_S128x1_0_0,
        k0_pay6 (arg9.view.readCov (L4 arg2 harg2 arg3 harg3 arg4 harg4 arg5 harg5 arg9 x1 x2 x3 x4) (Rect.unit (s := S128x8192) ![0, 2048] S128x4096.size inb_S128x8192_S128x4096_0_2048).toLoadRect)
          (View.readAt (Elt F) arg6.view (Rect.unit ![0] S4096.size inb_S4096_S4096_0).toLoadRect (harg6.unread x5))
          (k0_pay5 (View.readAt (Elt F) arg6.view (Rect.unit ![0] S4096.size inb_S4096_S4096_0).toLoadRect (harg6.unread x5)))⟩])
      = KBlocks.lpBlock x1 x2 x3 x4 x5 := by
  rw [View.read_writes_eq_canon _ _ _ (fun y => ⟨_, List.mem_cons_self, View.mem_set_unit_zero hz2 inb_S128x1_S128x1_0_0 y⟩),
    View.canon_unit_zero hz2, core_read, logits_read]
  rfl

end Cert.KernelIdeal.KScratch

end
-- ==== Proof.KBody.lean ====
/-
  The kernel body, run once at a symbolic grid point on symbolic staging buffers.

  At a point the body assembles, in its scratch of 128 rows and 8192 columns, the reflect-padded rows of the
  uniforms (three stores: the left edge strip, the block itself, the right edge strip), overwrites the scratch
  with the Bernoulli comparison against the padded probabilities, stores the rows' log-probabilities, and then
  copies, for each of its 128 rows r, the window of 4096 columns starting at column shift r of row r of the
  scratch into row r of the output block: 128 transfers started one after the other, each on a cell of its own,
  then 128 waits. Each transfer and each wait reads shift r again and takes for granted that the window lies
  inside the scratch, which is shift r + 4096 ≤ 8192. So the run needs one fact about the table it reads: every
  word is at most 4096. Under it every transfer finds its source window (a window of row r, and the rows are
  apart) and its destination row, all 128 are in flight at once, and each wait gives its row back written.
  What the run leaves in the two output buffers is a list of written pieces which the run itself finds.
-/
import proofs.«422330_j45105746542888_3_alg».proof.Proof.Gen.KernelIdeal.Skeleton
import proofs.«422330_j45105746542888_3_alg».proof.Proof.Gen.KernelIdeal.Launch
import Idealize.ShloMosaic.Lib.Tactic
import Idealize.ShloMosaic.Lib.Pipeline.Kit
import Idealize.ShloMosaic.Lib.Pipeline.Frame
import Idealize.ShloMosaic.Lib.WholeRead
import proofs.«422330_j45105746542888_3_alg».proof.Proof.KToks
import proofs.«422330_j45105746542888_3_alg».proof.Proof.KRowFinal
import proofs.«422330_j45105746542888_3_alg».proof.Proof.KScratch
import proofs.«422330_j45105746542888_3_alg».proof.Proof.KRows
import proofs.«422330_j45105746542888_3_alg».proof.Proof.KBlocks

set_option maxRecDepth 16384

noncomputable section

namespace Cert.KernelIdeal.KBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A window of one row and 4096 columns that starts at column v of row `row` lies inside the scratch of 128 rows
    and 8192 columns when row < 128 and v ≤ 4096. -/
theorem win_inb (row : ℕ) (hrow : row < 128) (v : BitVec 32) (hv : v.toNat ≤ 4096) :
    ∀ a, (![row, v.toNat] : Fin 2 → ℕ) a + S1x4096.size a ≤ S128x8192.size a := by
  intro a
  match a with
  | ⟨0, _⟩ => show row + 1 ≤ 128; omega
  | ⟨1, _⟩ => show v.toNat + 4096 ≤ 8192; omega

/-- Every word read out of a table all of whose words are at most 4096 is at most 4096. -/
theorem word_le (arg1 : Memref sig .tc .smem S8192 .i32) (harg1 : arg1.IsWhole) (x0 : Vec F S8192 .i32)
    (hx : ∀ k, (x0 k).toNat ≤ 4096) (R : LoadRect S8192) (y : R.shape.Idx) :
    (arg1.view.readAt (Elt F) R (harg1.unread x0) y).toNat ≤ 4096 := by
  rw [harg1.readAt_unread]; exact hx _

open Lean in
/-- The counters of the cells `lo`, `lo + 1`, …, `lo + n - 1` of core `c`, each at zero, as one right-nested chain. -/
macro "cells_zero% " c:term:max lo:num n:num : term => do
  let cell (k : Nat) : MacroM Term := do
    let lit := Syntax.mkNumLit (toString (lo.getNat + k))
    `(semVal (($c : Thread nD τ), SemLoc.dma ($lit : DmaSem sig)) 0)
  let mut t ← cell (n.getNat - 1)
  for j in [1:n.getNat] do
    let k := n.getNat - 1 - j
    let hd ← cell k
    t ← `(iprop($hd ∗ $t))
  return t

open Lean Idealize.SL.ProofMode in
/-- Take a right-nested chain of `n` conjuncts apart into the hypotheses `p0`, `p1`, …, `p(n-1)`. -/
macro "icases_chain " h:ident n:num p:ident : tactic => do
  let mut pats : Array (TSyntax ``icasesPatAlts) := #[]
  for k in [0:n.getNat] do
    let id := mkIdent (p.getId.appendAfter (toString k))
    let q ← `(icasesPat| $id:ident)
    pats := pats.push (← `(icasesPatAlts| $q:icasesPat))
  `(tactic| icases $h:ident with ⟨$[$pats],*⟩)

open Lean in
/-- Send the hypotheses `p0`, `p1`, …, `p(n-1)` to the left conjunct. -/
macro "isplitl_chain " n:num p:ident : tactic => do
  let ids := (List.range n.getNat).toArray.map fun k => mkIdent (p.getId.appendAfter (toString k))
  `(tactic| isplitl [$ids*])

open Lean in
/-- Send `h` and the hypotheses `p0`, `p1`, …, `p(n-1)` to the left conjunct. -/
macro "isplitl_chain_with " h:ident n:num p:ident : tactic => do
  let ids := (List.range n.getNat).toArray.map fun k => mkIdent (p.getId.appendAfter (toString k))
  `(tactic| isplitl [$h:ident $ids*])

open Lean in
/-- Close a right-nested chain of `n` conjuncts, conjunct `k` from the hypothesis `pk` through the entailment
    `e k (_ : k < n) _ … _` (`u` further arguments left to unification). -/
macro "chain_from " n:num p:ident u:num e:term:max : tactic => do
  let mut ts : Array (TSyntax `tactic) := #[]
  for k in [0:n.getNat] do
    let id := mkIdent (p.getId.appendAfter (toString k))
    let lit := Syntax.mkNumLit (toString k)
    let holes : Array Term ← (List.range u.getNat).toArray.mapM fun _ => `(_)
    let app ← `($e $lit (by decide) $holes*)
    if k + 1 < n.getNat then
      ts := ts.push (← `(tactic| isplitl [$id:ident]))
      ts := ts.push (← `(tactic| · (istop; exact $app)))
    else
      ts := ts.push (← `(tactic| (istop; exact $app)))
  `(tactic| ($[$ts]*))

open Lean in
/-- Close a right-nested chain of `n` conjuncts, conjunct `k` being exactly the hypothesis `pk`. -/
macro "chain_exact " n:num p:ident : tactic => do
  let mut ts : Array (TSyntax `tactic) := #[]
  for k in [0:n.getNat] do
    let id := mkIdent (p.getId.appendAfter (toString k))
    if k + 1 < n.getNat then
      ts := ts.push (← `(tactic| isplitl [$id:ident]))
      ts := ts.push (← `(tactic| · iexact $id:ident))
    else
      ts := ts.push (← `(tactic| iexact $id:ident))
  `(tactic| ($[$ts]*))

/-- The kernel's own 128 transfer cells (cells 12 to 139 of the core), each counter at zero. -/
def sems0 (c : Dev nD) : sProp 𝕄 := cells_zero% c 12 128

-- (the run's proof term is large: the definition's epilogue walks it past the default budget)
set_option maxHeartbeats 8000000 in
set_option sl_exec.dmaWindow true in
set_option sl_exec.dmaWindowSet true in
/-- What the body leaves in the two output buffers, as written pieces (the first list the 128 delivered rows of the
    window block, the second the one store of the log-probabilities), with the proof that from whole staging memrefs
    — the table at any share and the five inputs at their contents, the outputs and the scratch at anything —, the 128
    cells at zero and the core's record of what it owes, the body runs to a continuation that holds the inputs as they
    were, the outputs with those pieces written, the scratch at something, the cells at zero again and the waits
    recorded; given that every word of the table is at most 4096. -/
theorem kernelRun (c : Dev nD) (i : grid0.Coords)
    (arg1 : Memref sig .tc .smem S8192 .i32) (harg1 : arg1.IsWhole) (arg2 : Memref sig .tc .vmem S128x4096 .f32) (harg2 : arg2.IsWhole)
    (arg3 : Memref sig .tc .vmem S128x2048 .f32) (harg3 : arg3.IsWhole) (arg4 : Memref sig .tc .vmem S128x2048 .f32) (harg4 : arg4.IsWhole)
    (arg5 : Memref sig .tc .vmem S8192 .f32) (harg5 : arg5.IsWhole) (arg6 : Memref sig .tc .vmem S4096 .f32) (harg6 : arg6.IsWhole)
    (arg7 : Memref sig .tc .vmem S128x4096 .f32) (harg7 : arg7.IsWhole) (arg8 : Memref sig .tc .vmem S128x1 .f32) (harg8 : arg8.IsWhole)
    (arg9 : Memref sig .tc .vmem S128x8192 .f32) (harg9 : arg9.IsWhole) (q0 : PosShare TreeShare)
    (x0 : Vec F S8192 .i32) (hx : ∀ k, (x0 k).toNat ≤ 4096)
    (x1 : Vec F S128x4096 .f32) (x2 : Vec F S128x2048 .f32) (x3 : Vec F S128x2048 .f32) (x4 : Vec F S8192 .f32) (x5 : Vec F S4096 .f32)
    (W : Waits sig Unit) (K : PUnit → sProp 𝕄) :
        iprop(owns (c : Thread nD τ) arg1 q0 x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ (∃ d, owns (c : Thread nD τ) arg9 fullShare d)
            ∗ owes (c : Thread nD τ) 0 W ∗ sems0 c
            ∗ (iprop(owns (c : Thread nD τ) arg1 q0 x0 ∗ owns (c : Thread nD τ) arg2 fullShare x1 ∗ owns (c : Thread nD τ) arg3 fullShare x2
                ∗ owns (c : Thread nD τ) arg4 fullShare x3 ∗ owns (c : Thread nD τ) arg5 fullShare x4 ∗ owns (c : Thread nD τ) arg6 fullShare x5
                ∗ owns (c : Thread nD τ) arg7 fullShare (KBlocks.maskBlock i x0 x1 x2 x3 x4)
                ∗ owns (c : Thread nD τ) arg8 fullShare (KBlocks.lpBlock x1 x2 x3 x4 x5)
                ∗ (∃ W', owes (c : Thread nD τ) 0 W')
                ∗ (∃ d, owns (c : Thread nD τ) arg9 fullShare d) ∗ sems0 c) -∗ K ⟨⟩))
          ⊢ wp frame (wpE (defs₀ (F := F)) Variants.none c none) Set.univ
              (cc0__kernel i arg1 harg1 arg2 harg2 arg3 harg3 arg4 harg4 arg5 harg5 arg6 harg6 arg7 harg7 arg8 harg8 arg9 harg9 cc0_scratch1) K := by
    simp only [cc0__kernel_eq_skeleton]; unfold cc0__kernel_skel
    unfold owns sems0
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%d8, %f8, -, H8⟩, ⟨%d9, %f9, -, H9⟩, HO, Hs, Hk⟩
    icases_chain Hs 128 Hd
    obtain rfl := harg1.eq_unread hf0; obtain rfl := harg2.eq_unread hf1; obtain rfl := harg3.eq_unread hf2
    obtain rfl := harg4.eq_unread hf3; obtain rfl := harg5.eq_unread hf4; obtain rfl := harg6.eq_unread hf5
    -- up to the first transfer: the scratch assembled and compared, the log-probabilities stored
    sl_exec_parts
    -- the scratch, from here on only read, as one read share per cell (the transfer on cell k reads it at share k) and a remainder
    ihave Hsp := Cert.KToks.split $$ H9
    icases Hsp with ⟨H9, Hts⟩
    icases_chain Hts 140 Ht
    -- the result block as its 128 rows, each held by its own elements (the transfer for row k fills row k whole)
    ihave Hrs := (Cert.KRows.rows_split (c : Thread nD τ) arg7 squeezes_S1x4096_S4096 f7) $$ H7
    icases_chain Hrs 128 Hr
    -- the 128 transfers and their waits
    sl_exec_parts (disch := exact win_inb _ (by decide) _ (word_le arg1 harg1 x0 hx _ _))
    sl_step
    iapply Hk
    -- every name the run gave to a value it read or delivered, spelt out
    sl_unfold_words
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    -- the window block: each delivered row is the closed form's row, and the rows make the block
    isplitl_chain 128 Hr
    · iexists (harg7.unread (KBlocks.maskBlock i x0 x1 x2 x3 x4))
      isplitr; · ipureintro; exact harg7.read_unread _
      iapply (Cert.KRows.rows_join (c : Thread nD τ) arg7 squeezes_S1x4096_S4096 (harg7.unread (KBlocks.maskBlock i x0 x1 x2 x3 x4)))
      chain_from 128 Hr 4 (KRowFinal.row_final c i arg1 harg1 arg7 harg7 arg9 x0 hx x1 x2 x3 x4 f7 _
        (KScratch.scratch_read arg2 harg2 arg3 harg3 arg4 harg4 arg5 harg5 arg9 x1 x2 x3 x4 f9))
    -- the log-probabilities: one store, of the closed form
    isplitl [H8]
    · iexists _; isplitr; swap; · iexact H8
      ipureintro
      exact KScratch.lp_read arg2 harg2 arg3 harg3 arg4 harg4 arg5 harg5 arg9 x1 x2 x3 x4 arg6 harg6 x5 arg8 f8
    isplitl [HO]; · iexists _; iexact HO
    -- the scratch whole again from its remainder and its read shares, then the cells
    isplitl_chain_with H9 140 Ht
    · iexists _, (arg9.view.writes (Elt F) f9 (KScratch.L4 arg2 harg2 arg3 harg3 arg4 harg4 arg5 harg5 arg9 x1 x2 x3 x4))
      isplitr; · ipureintro; rfl
      iapply Cert.KToks.join
      isplitl [H9]; · iexact H9
      chain_exact 140 Ht
    first | (chain_exact 128 Hd) | iframe

end Cert.KernelIdeal.KBody

end
-- ==== Proof.KFrame.lean ====
/-
  The launch and the frame of the kernel program.

  The program is three stretches of host lines, one pipelined region, and two more host lines. The region stages seven
  windows over a grid of 64 points (row blocks of 128 rows of the uniforms and of its two mirrored strips, the padded
  probabilities and the logits whole, and the two results by row blocks), holds the table of shifts in scalar memory,
  and gives the body a scratch of 128 rows and 8192 columns and 128 transfer cells of its own. Nothing is in flight
  between two points: the body starts its 128 row transfers and waits for all of them within the point. So the region's
  invariant is the same at every point: the scratch at something, the generator register at something, the 128 cells
  at zero, and the table at the half share the region lends the body.

  What the body leaves in the two result buffers at a point is a closed function of the table and of the blocks it is
  handed there; each result array ends as the blocks of the 64 points laid one under the other.
-/
import proofs.«422330_j45105746542888_3_alg».proof.Proof.Gen.KernelIdeal.Skeleton
import proofs.«422330_j45105746542888_3_alg».proof.Proof.Gen.KernelIdeal.Launch
import Idealize.ShloMosaic.Lib.Tactic
import Idealize.ShloMosaic.Lib.Pipeline.Kit
import Idealize.ShloMosaic.Lib.Pipeline.Frame
import Idealize.ShloMosaic.Lib.Pipeline.FrameSuffix
import Idealize.ShloMosaic.Lib.Pipeline.FrameBody
import Idealize.ShloMosaic.Lib.Ring
import Idealize.ShloMosaic.Lib.WholeRead
import proofs.«422330_j45105746542888_3_alg».proof.Proof.KHost
import proofs.«422330_j45105746542888_3_alg».proof.Proof.KBlocks
import proofs.«422330_j45105746542888_3_alg».proof.Proof.KBody

set_option maxRecDepth 16384

noncomputable section

namespace Cert.KernelIdeal.KFrame

open Cert.KernelIdeal Cert.KernelIdeal.Gen Cert.KernelIdeal.KBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The host lines before the region -/

/-- Core c's buffer contents when the region is entered: the launch contents after the three stretches of host lines
    that precede it. -/
abbrev V₀ (c : Dev nD) : Valuation τ sig (Elt F) :=
  StableHlo.after ([hostOps0, hostOps0_1, hostOps0_2] : List (List (HloOp τ sig (Elt F)))).flatten (fun b => m (c, b))
/-- The same read at a reference of the core. -/
abbrev V (c : Dev nD) (b : Ref sig .tc) : Buf (Elt F) ((c : Thread nD τ).loc b) := V₀ m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host lines, the region, and the two later lines: it reduces to the region continued by those
    two lines, entered at the contents the earlier lines leave. -/
theorem hmain (𝒱₀ : Variants) :
    Pipeline.HMainPK (Ix := Unit) (Name := ℕ) (U := Pipeline.UD sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0, hostOps0_1, hostOps0_2] [hostOps1]
    ⟨hostOps0_sub, hostOps0_1_sub, hostOps0_2_sub⟩ ⟨hostOps0_fresh, hostOps0_1_fresh, hostOps0_2_fresh⟩
    (fun c => (main_chain c).trans rfl)

/-- No host line before the region writes an argument of the program. -/
theorem not_written (b : Ref sig .tc) (hb : b = main_arg0 ∨ b = main_arg1 ∨ b = main_arg2) :
    ∀ op ∈ ([hostOps0, hostOps0_1, hostOps0_2] : List (List (HloOp τ sig (Elt F)))).flatten, Proc.devRef .tc b ∉ op.writes := by
  intro op hop
  simp only [List.flatten_cons, List.flatten_nil, List.append_nil, List.cons_append, List.nil_append, List.mem_cons,
    List.mem_nil_iff, or_false] at hop
  rcases hb with rfl | rfl | rfl <;>
  rcases hop with rfl | rfl | rfl | rfl | rfl | rfl | rfl | rfl | rfl | rfl | rfl | rfl | rfl | rfl | rfl | rfl | rfl | rfl | rfl | rfl | rfl <;>
    simp only [StableHlo.unary_writes, StableHlo.binary_writes, StableHlo.nullary_writes, Finset.mem_singleton] <;>
    exact StableHlo.devRef_ne_of_ne (by decide)

/-- Each argument reaches the region as launched. -/
theorem V_main_arg0 (c : Dev nD) : V m c main_arg0 = m ((c : Thread nD τ).loc main_arg0) :=
  StableHlo.after_of_forall_not_mem (b := Proc.devRef .tc main_arg0) _ (fun b => m (c, b)) (not_written main_arg0 (.inl rfl))
theorem V_main_arg1 (c : Dev nD) : V m c main_arg1 = m ((c : Thread nD τ).loc main_arg1) :=
  StableHlo.after_of_forall_not_mem (b := Proc.devRef .tc main_arg1) _ (fun b => m (c, b)) (not_written main_arg1 (.inr (.inl rfl)))
theorem V_main_arg2 (c : Dev nD) : V m c main_arg2 = m ((c : Thread nD τ).loc main_arg2) :=
  StableHlo.after_of_forall_not_mem (b := Proc.devRef .tc main_arg2) _ (fun b => m (c, b)) (not_written main_arg2 (.inr (.inr rfl)))

/-! ## The table of shifts -/

/-- The table's contents when the region is entered (there is one device). -/
def tbl : pre0.Contents (Elt F) := fun j => V m (0 : Dev nD) (pre0.ref j)
/-- On every device the table holds those contents. -/
theorem V_pre (c : Dev nD) (j : Fin 1) : V m c (pre0.ref j) = tbl m j := by
  obtain rfl : c = 0 := Subsingleton.elim _ _; rfl
/-- They are admissible: the pipeline asks nothing of them (no index map reads the table). -/
abbrev adm : (p : Fin 1) → (pcfgs (F := F) p).Adm := fun _ => ⟨tbl m, trivial⟩
/-- The pipeline at them. -/
abbrev cfgM : Pipeline.Cfg sig Λ₀ := cfg0 (adm m 0)

/-- The table as the body is handed it: its whole buffer as a memref. -/
abbrev tbM : Memref sig .tc .smem S8192 .i32 := Memref.whole main_arg2
abbrev htbM : tbM.IsWhole := Memref.isWhole_whole _
/-- The table's words on core c, as the body's run names them. -/
def shifts (c : Dev nD) : Vec F S8192 .i32 := V m c main_arg2

/-- Every shift is at most 4096, given that of the launch memory. -/
theorem shifts_le (hs : ∀ (c : Dev nD) (k : S8192.Idx), (m ((c.tc : Thread nD τ).loc main_arg2) k).toNat ≤ 4096)
    (c : Dev nD) (k : S8192.Idx) : (shifts m c k).toNat ≤ 4096 := by
  unfold shifts; rw [V_main_arg2]; exact hs c k

/-- The half of the table the region lends the body, as the run takes it. -/
theorem PhiT_eq (c : Dev nD) :
    (Pipeline.ΦT pre0 (adm m 0).1 c : sProp 𝕄) = owns (c : Thread nD τ) tbM fullShare.right (shifts m c) := by
  obtain rfl : c = 0 := Subsingleton.elim _ _
  unfold Pipeline.ΦT Pipeline.prefHeld
  rw [show (Finset.univ : Finset (Fin 1)) = {(0 : Fin 1)} from by decide, bigSep_singleton, owns_whole]
  rfl

/-! ## The body's own cells and scratch -/

/-- The body's 128 transfer cells: cells 12 to 139 of the core. -/
abbrev osem : Fin 128 → SemLoc sig := fun j => SemLoc.dma (⟨12 + j.val, (by have := j.isLt; show 12 + j.val < 140; omega)⟩ : DmaSem sig)
/-- They are scoped, distinct, and none is a window's staging cell (those are cells 0 to 11). -/
theorem ownSemFacts : Pipeline.OwnSemFacts spec0 osem := by decide

open Lean in
/-- The indices 0, 1, …, n - 1 as a literal list. -/
macro "fin_list% " n:num : term => do
  let mut xs : Array Term := #[]
  for k in [0:n.getNat] do
    let lit := Syntax.mkNumLit (toString k)
    xs := xs.push (← `(($lit : Fin $n)))
  `([$xs,*])

/-- The 128 cells at zero, one by one. -/
theorem ownSems_eq (c : Dev nD) :
    (Pipeline.ownSems0 (Ix := Unit) (Name := ℕ) (U := Pipeline.UD sig nD τ) (Lvl := ℕ) (Val := Elt F) (τ := τ) osem c : sProp 𝕄)
      = sems0 c := by
  rw [Pipeline.ownSems0_eq_of_list c osem (fin_list% 128) (by decide) (by decide)]; rfl

/-- The scratch of 128 rows and 8192 columns, whole. -/
abbrev scM : Memref sig .tc .vmem S128x8192 .f32 := Memref.whole cc0_scratch0
abbrev hscM : scM.IsWhole := Memref.isWhole_whole _

/-- The region's invariant for a body with transfers of its own, conjunct by conjunct: the scratch at something, the
    generator register at something, the 128 cells at zero (and no operand left in HBM). -/
theorem PhiD_eq (c : Dev nD) :
    (Pipeline.ΦD osem spec0 ∅ (V m) c : sProp 𝕄)
      = iprop((∃ d, owns (c : Thread nD τ) scM fullShare d) ∗ (∃ r, prngReg c r) ∗ sems0 c ∗ emp) := by
  rw [Pipeline.ΦD_eq, scopedRest0_eq, ownSems_eq, bigSep_empty]; simp only [scM, owns_whole]; rfl

/-! ## The body at a point -/

section Points

variable (a : (pcfg0 (F := F)).Adm)

/-- Window 0's current staging memref at point t, spelled as the pipeline passes it, and its wholeness. -/
abbrev ms0 (t : Fin (cfg0 a).N) : Memref sig .tc .vmem S128x4096 .f32 := spec0_0.stage ((cfg0 a).slots t 0)
abbrev hs0 (t : Fin (cfg0 a).N) : (ms0 a t).IsWhole := hstage0_0 (((cfg0 a).slots t 0).cast nbuf0_0)
/-- Window 1's current staging memref at point t, spelled as the pipeline passes it, and its wholeness. -/
abbrev ms1 (t : Fin (cfg0 a).N) : Memref sig .tc .vmem S128x2048 .f32 := spec0_1.stage ((cfg0 a).slots t 1)
abbrev hs1 (t : Fin (cfg0 a).N) : (ms1 a t).IsWhole := hstage0_1 (((cfg0 a).slots t 1).cast nbuf0_1)
/-- Window 2's current staging memref at point t, spelled as the pipeline passes it, and its wholeness. -/
abbrev ms2 (t : Fin (cfg0 a).N) : Memref sig .tc .vmem S128x2048 .f32 := spec0_2.stage ((cfg0 a).slots t 2)
abbrev hs2 (t : Fin (cfg0 a).N) : (ms2 a t).IsWhole := hstage0_2 (((cfg0 a).slots t 2).cast nbuf0_2)
/-- Window 3's current staging memref at point t, spelled as the pipeline passes it, and its wholeness. -/
abbrev ms3 (t : Fin (cfg0 a).N) : Memref sig .tc .vmem S8192 .f32 := spec0_3.stage ((cfg0 a).slots t 3)
abbrev hs3 (t : Fin (cfg0 a).N) : (ms3 a t).IsWhole := hstage0_3 (((cfg0 a).slots t 3).cast nbuf0_3)
/-- Window 4's current staging memref at point t, spelled as the pipeline passes it, and its wholeness. -/
abbrev ms4 (t : Fin (cfg0 a).N) : Memref sig .tc .vmem S4096 .f32 := spec0_4.stage ((cfg0 a).slots t 4)
abbrev hs4 (t : Fin (cfg0 a).N) : (ms4 a t).IsWhole := hstage0_4 (((cfg0 a).slots t 4).cast nbuf0_4)
/-- Window 5's current staging memref at point t, spelled as the pipeline passes it, and its wholeness. -/
abbrev ms5 (t : Fin (cfg0 a).N) : Memref sig .tc .vmem S128x4096 .f32 := spec0_5.stage ((cfg0 a).slots t 5)
abbrev hs5 (t : Fin (cfg0 a).N) : (ms5 a t).IsWhole := hstage0_5 (((cfg0 a).slots t 5).cast nbuf0_5)
/-- Window 6's current staging memref at point t, spelled as the pipeline passes it, and its wholeness. -/
abbrev ms6 (t : Fin (cfg0 a).N) : Memref sig .tc .vmem S128x1 .f32 := spec0_6.stage ((cfg0 a).slots t 6)
abbrev hs6 (t : Fin (cfg0 a).N) : (ms6 a t).IsWhole := hstage0_6 (((cfg0 a).slots t 6).cast nbuf0_6)

/-- The kernel body at point t, on what the pipeline calls it with: the table, the seven current staging memrefs, the
    scratch and the 128 cells. -/
abbrev bodyAt (t : Fin (cfg0 a).N) : Prog (TpuEff nD τ sig (Elt F) Λ₀ .tc) PUnit :=
  cc0__kernel (grid0.coords t) (Memref.whole main_arg2) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    (spec0_4.stage ((cfg0 a).slots t 4)) (hstage0_4 (((cfg0 a).slots t 4).cast nbuf0_4))
    (spec0_5.stage ((cfg0 a).slots t 5)) (hstage0_5 (((cfg0 a).slots t 5).cast nbuf0_5))
    (spec0_6.stage ((cfg0 a).slots t 6)) (hstage0_6 (((cfg0 a).slots t 6).cast nbuf0_6))
    (Memref.whole cc0_scratch0) (Memref.isWhole_whole _) cc0_scratch1

end Points

/-! ## The windows' blocks -/

/-- Window w's block at point t, read off its array as the region finds it. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

/-- Input window 0's current staging buffer holds its block at every point, fetched there or not, for any proof data
    whose array is the region-entry contents and whose body leaves the block in place: unfetched, the block index has
    not moved. -/
theorem before0_of {c : Dev nD} (dat : Dat τ (Elt F) Unit ℕ (Pipeline.UD sig nD τ) ℕ (cfgM m) c)
    (hA : dat.A 0 = V m c (Pipeline.arrRef spec0 0)) (hafter : ∀ t, dat.after 0 t = iblk m c 0 t) (t : Fin (cfgM m).N) (d) :
    dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the region-entry contents and whose body leaves the block in place: unfetched, the block index has
    not moved. -/
theorem before1_of {c : Dev nD} (dat : Dat τ (Elt F) Unit ℕ (Pipeline.UD sig nD τ) ℕ (cfgM m) c)
    (hA : dat.A 1 = V m c (Pipeline.arrRef spec0 1)) (hafter : ∀ t, dat.after 1 t = iblk m c 1 t) (t : Fin (cfgM m).N) (d) :
    dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the region-entry contents and whose body leaves the block in place: unfetched, the block index has
    not moved. -/
theorem before2_of {c : Dev nD} (dat : Dat τ (Elt F) Unit ℕ (Pipeline.UD sig nD τ) ℕ (cfgM m) c)
    (hA : dat.A 2 = V m c (Pipeline.arrRef spec0 2)) (hafter : ∀ t, dat.after 2 t = iblk m c 2 t) (t : Fin (cfgM m).N) (d) :
    dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is the region-entry contents and whose body leaves the block in place: unfetched, the block index has
    not moved. -/
theorem before3_of {c : Dev nD} (dat : Dat τ (Elt F) Unit ℕ (Pipeline.UD sig nD τ) ℕ (cfgM m) c)
    (hA : dat.A 3 = V m c (Pipeline.arrRef spec0 3)) (hafter : ∀ t, dat.after 3 t = iblk m c 3 t) (t : Fin (cfgM m).N) (d) :
    dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof data
    whose array is the region-entry contents and whose body leaves the block in place: unfetched, the block index has
    not moved. -/
theorem before4_of {c : Dev nD} (dat : Dat τ (Elt F) Unit ℕ (Pipeline.UD sig nD τ) ℕ (cfgM m) c)
    (hA : dat.A 4 = V m c (Pipeline.arrRef spec0 4)) (hafter : ∀ t, dat.after 4 t = iblk m c 4 t) (t : Fin (cfgM m).N) (d) :
    dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the two result buffers -/

/-- What the body leaves in the window block's staging buffer at point t: row r is the window of 4096 columns of row r
    of the compared scratch that starts at the shift of row 128 t + r; a closed function of the table and of the point's
    blocks of the uniforms, of its two mirrored strips and of the padded probabilities. -/
def outMasks (hs : ∀ (c : Dev nD) (k : S8192.Idx), (m ((c.tc : Thread nD τ).loc main_arg2) k).toNat ≤ 4096) (c : Dev nD) (t : Fin (cfgM m).N) : Vec F S128x4096 .f32 :=
  KBlocks.maskBlock (grid0.coords t) (shifts m c) (iblk m c 0 t) (iblk m c 1 t) (iblk m c 2 t) (iblk m c 3 t)

/-- What the body leaves in the log-probabilities' staging buffer at point t: a closed function of the same blocks and
    of the logits. -/
def outLp (hs : ∀ (c : Dev nD) (k : S8192.Idx), (m ((c.tc : Thread nD τ).loc main_arg2) k).toNat ≤ 4096) (c : Dev nD) (t : Fin (cfgM m).N) : Vec F S128x1 .f32 :=
  KBlocks.lpBlock (iblk m c 0 t) (iblk m c 1 t) (iblk m c 2 t) (iblk m c 3 t) (iblk m c 4 t)

/-! ## The pipeline's proof data -/

/-- The proof data of the pipeline on core c: the arrays as the region finds them; after the body at point t each
    input's buffer at its block and the two results' at what the run leaves; the invariant (the scratch, the register,
    the 128 cells at zero, and the table's half); nothing owed; full shares. -/
def dats (hs : ∀ (c : Dev nD) (k : S8192.Idx), (m ((c.tc : Thread nD τ).loc main_arg2) k).toNat ≤ 4096) (_ : Fin 1) (c : Dev nD) :
    Dat τ (Elt F) Unit ℕ (Pipeline.UD sig nD τ) ℕ (Pipeline.pin pcfgs (adm m) 0) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outMasks m hs c t
    | ⟨6, _⟩ => outLp m hs c t
  Φ _ := iprop(Pipeline.ΦD osem spec0 ∅ (V m) c ∗ Pipeline.ΦT pre0 (adm m 0).1 c)
  q _ := fullShare
  owed _ := 0

/-- The proof data's arrays are the region-entry contents. -/
theorem A_eq (hs : ∀ (c : Dev nD) (k : S8192.Idx), (m ((c.tc : Thread nD τ).loc main_arg2) k).toNat ≤ 4096) (c : Dev nD) (w : Fin (cfgM m).W) : (dats m hs 0 c).A w = V m c (Pipeline.arrRef spec0 w) := by
  dsimp only [dats]

/-- What the body leaves, window by window. -/
theorem after0 (hs : ∀ (c : Dev nD) (k : S8192.Idx), (m ((c.tc : Thread nD τ).loc main_arg2) k).toNat ≤ 4096) (c : Dev nD) (t : Fin (cfgM m).N) : (dats m hs 0 c).after 0 t = iblk m c 0 t := by dsimp only [dats]; try rfl
theorem after1 (hs : ∀ (c : Dev nD) (k : S8192.Idx), (m ((c.tc : Thread nD τ).loc main_arg2) k).toNat ≤ 4096) (c : Dev nD) (t : Fin (cfgM m).N) : (dats m hs 0 c).after 1 t = iblk m c 1 t := by dsimp only [dats]; try rfl
theorem after2 (hs : ∀ (c : Dev nD) (k : S8192.Idx), (m ((c.tc : Thread nD τ).loc main_arg2) k).toNat ≤ 4096) (c : Dev nD) (t : Fin (cfgM m).N) : (dats m hs 0 c).after 2 t = iblk m c 2 t := by dsimp only [dats]; try rfl
theorem after3 (hs : ∀ (c : Dev nD) (k : S8192.Idx), (m ((c.tc : Thread nD τ).loc main_arg2) k).toNat ≤ 4096) (c : Dev nD) (t : Fin (cfgM m).N) : (dats m hs 0 c).after 3 t = iblk m c 3 t := by dsimp only [dats]; try rfl
theorem after4 (hs : ∀ (c : Dev nD) (k : S8192.Idx), (m ((c.tc : Thread nD τ).loc main_arg2) k).toNat ≤ 4096) (c : Dev nD) (t : Fin (cfgM m).N) : (dats m hs 0 c).after 4 t = iblk m c 4 t := by dsimp only [dats]; try rfl
theorem after5 (hs : ∀ (c : Dev nD) (k : S8192.Idx), (m ((c.tc : Thread nD τ).loc main_arg2) k).toNat ≤ 4096) (c : Dev nD) (t : Fin (cfgM m).N) : (dats m hs 0 c).after 5 t = outMasks m hs c t := by dsimp only [dats]; try rfl
theorem after6 (hs : ∀ (c : Dev nD) (k : S8192.Idx), (m ((c.tc : Thread nD τ).loc main_arg2) k).toNat ≤ 4096) (c : Dev nD) (t : Fin (cfgM m).N) : (dats m hs 0 c).after 6 t = outLp m hs c t := by dsimp only [dats]; try rfl

/-- Each input's current staging buffer holds its block at every point. -/
theorem before0 (hs : ∀ (c : Dev nD) (k : S8192.Idx), (m ((c.tc : Thread nD τ).loc main_arg2) k).toNat ≤ 4096) (c : Dev nD) (t : Fin (cfgM m).N) (d) : (dats m hs 0 c).before 0 t d = iblk m c 0 t :=
  before0_of m (dats m hs 0 c) (A_eq m hs c 0) (after0 m hs c) t d
theorem before1 (hs : ∀ (c : Dev nD) (k : S8192.Idx), (m ((c.tc : Thread nD τ).loc main_arg2) k).toNat ≤ 4096) (c : Dev nD) (t : Fin (cfgM m).N) (d) : (dats m hs 0 c).before 1 t d = iblk m c 1 t :=
  before1_of m (dats m hs 0 c) (A_eq m hs c 1) (after1 m hs c) t d
theorem before2 (hs : ∀ (c : Dev nD) (k : S8192.Idx), (m ((c.tc : Thread nD τ).loc main_arg2) k).toNat ≤ 4096) (c : Dev nD) (t : Fin (cfgM m).N) (d) : (dats m hs 0 c).before 2 t d = iblk m c 2 t :=
  before2_of m (dats m hs 0 c) (A_eq m hs c 2) (after2 m hs c) t d
theorem before3 (hs : ∀ (c : Dev nD) (k : S8192.Idx), (m ((c.tc : Thread nD τ).loc main_arg2) k).toNat ≤ 4096) (c : Dev nD) (t : Fin (cfgM m).N) (d) : (dats m hs 0 c).before 3 t d = iblk m c 3 t :=
  before3_of m (dats m hs 0 c) (A_eq m hs c 3) (after3 m hs c) t d
theorem before4 (hs : ∀ (c : Dev nD) (k : S8192.Idx), (m ((c.tc : Thread nD τ).loc main_arg2) k).toNat ≤ 4096) (c : Dev nD) (t : Fin (cfgM m).N) (d) : (dats m hs 0 c).before 4 t d = iblk m c 4 t :=
  before4_of m (dats m hs 0 c) (A_eq m hs c 4) (after4 m hs c) t d

/-! ## The body obligation, at a generic point -/

/-- What the body is called with at point t, the windows one by one, -/
def bodyPre (hs : ∀ (c : Dev nD) (k : S8192.Idx), (m ((c.tc : Thread nD τ).loc main_arg2) k).toNat ≤ 4096) (c : Dev nD) (t : Fin (cfgM m).N) : sProp 𝕄 :=
  iprop((dats m hs 0 c).Φ t.castSucc ∗ (dats m hs 0 c).owesAt () t.castSucc
    ∗ (∃ d, owns (c : Thread nD τ) (ms0 (adm m 0) t) fullShare ((dats m hs 0 c).before 0 t d))
    ∗ (∃ d, owns (c : Thread nD τ) (ms1 (adm m 0) t) fullShare ((dats m hs 0 c).before 1 t d))
    ∗ (∃ d, owns (c : Thread nD τ) (ms2 (adm m 0) t) fullShare ((dats m hs 0 c).before 2 t d))
    ∗ (∃ d, owns (c : Thread nD τ) (ms3 (adm m 0) t) fullShare ((dats m hs 0 c).before 3 t d))
    ∗ (∃ d, owns (c : Thread nD τ) (ms4 (adm m 0) t) fullShare ((dats m hs 0 c).before 4 t d))
    ∗ (∃ d, owns (c : Thread nD τ) (ms5 (adm m 0) t) fullShare ((dats m hs 0 c).before 5 t d))
    ∗ (∃ d, owns (c : Thread nD τ) (ms6 (adm m 0) t) fullShare ((dats m hs 0 c).before 6 t d)))

/-- and what it returns. -/
def bodyPost (hs : ∀ (c : Dev nD) (k : S8192.Idx), (m ((c.tc : Thread nD τ).loc main_arg2) k).toNat ≤ 4096) (c : Dev nD) (t : Fin (cfgM m).N) : sProp 𝕄 :=
  iprop((dats m hs 0 c).Φ t.succ ∗ (dats m hs 0 c).owesAt () t.succ
    ∗ owns (c : Thread nD τ) (ms0 (adm m 0) t) fullShare ((dats m hs 0 c).after 0 t)
    ∗ owns (c : Thread nD τ) (ms1 (adm m 0) t) fullShare ((dats m hs 0 c).after 1 t)
    ∗ owns (c : Thread nD τ) (ms2 (adm m 0) t) fullShare ((dats m hs 0 c).after 2 t)
    ∗ owns (c : Thread nD τ) (ms3 (adm m 0) t) fullShare ((dats m hs 0 c).after 3 t)
    ∗ owns (c : Thread nD τ) (ms4 (adm m 0) t) fullShare ((dats m hs 0 c).after 4 t)
    ∗ owns (c : Thread nD τ) (ms5 (adm m 0) t) fullShare ((dats m hs 0 c).after 5 t)
    ∗ owns (c : Thread nD τ) (ms6 (adm m 0) t) fullShare ((dats m hs 0 c).after 6 t))

/-- The body at any point: the inputs' memrefs hold their blocks, so the run applies; the invariant hands the run the
    scratch, the 128 cells at zero and the table's half, and takes them back as they were; the two result buffers come
    back at the closed forms; what the core owes goes in
    as recorded and comes back with this point's waits. -/
theorem sound_body (hs : ∀ (c : Dev nD) (k : S8192.Idx), (m ((c.tc : Thread nD τ).loc main_arg2) k).toNat ≤ 4096) (c : Dev nD) (t : Fin (cfgM m).N) :
    bodyPre m hs c t ⊢ wp frame (wpE (defs₀ (F := F)) Variants.none c none) Set.univ (bodyAt (adm m 0) t) (fun _ => bodyPost m hs c t) := by
  unfold bodyPre bodyPost bodyAt
  simp only [before0, before1, before2, before3, before4]
  rw [show (dats m hs 0 c).Φ t.succ = (dats m hs 0 c).Φ t.castSucc from rfl,
    after0, after1, after2, after3, after4, after5, after6]
  rw [show (dats m hs 0 c).Φ t.castSucc = iprop(Pipeline.ΦD osem spec0 ∅ (V m) c ∗ Pipeline.ΦT pre0 (adm m 0).1 c) from rfl,
    PhiD_eq, PhiT_eq]
  unfold Dat.owesAt Pipeline.owesWithin
  rw [show (dats m hs 0 c).owed t.castSucc = 0 from rfl, show (dats m hs 0 c).owed t.succ = 0 from rfl]
  unfold outMasks outLp
  iintro ⟨⟨⟨HS, Hg, Hq, -⟩, HT⟩, ⟨%W, -, HW⟩, ⟨%d0, H0⟩, ⟨%d1, H1⟩, ⟨%d2, H2⟩, ⟨%d3, H3⟩, ⟨%d4, H4⟩, ⟨%d5, H5⟩, ⟨%d6, H6⟩⟩
  iapply (kernelRun c (grid0.coords t) tbM htbM (ms0 (adm m 0) t) (hs0 (adm m 0) t) (ms1 (adm m 0) t) (hs1 (adm m 0) t)
    (ms2 (adm m 0) t) (hs2 (adm m 0) t) (ms3 (adm m 0) t) (hs3 (adm m 0) t) (ms4 (adm m 0) t) (hs4 (adm m 0) t)
    (ms5 (adm m 0) t) (hs5 (adm m 0) t) (ms6 (adm m 0) t) (hs6 (adm m 0) t) scM hscM fullShare.right
    (shifts m c) (shifts_le m hs c) (iblk m c 0 t) (iblk m c 1 t) (iblk m c 2 t) (iblk m c 3 t) (iblk m c 4 t) W _)
  isplitl [HT]; · iexact HT
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS]; · iexact HS
  isplitl [HW]; · iexact HW
  isplitl [Hq]; · iexact Hq
  iintro ⟨HT, H0, H1, H2, H3, H4, H5, H6, ⟨%W', HW'⟩, HS, Hq⟩
  isplitl [HS Hg Hq HT]
  · isplitr [HT]
    · isplitl [HS]; · iexact HS
      isplitl [Hg]; · iexact Hg
      isplitl [Hq]; · iexact Hq
      iempintro
    · iexact HT
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  iexact H6

set_option maxRecDepth 1000000 in
/-- The body's obligation at every point of the grid, the seven windows conjoined one by one. -/
theorem body_obligation (hs : ∀ (c : Dev nD) (k : S8192.Idx), (m ((c.tc : Thread nD τ).loc main_arg2) k).toNat ≤ 4096) (c : Dev nD) :
    BodyObligation (dats (F := F) m hs 0 c) (defs₀ (F := F)) Variants.none () Set.univ := fun t => by
  rw [bigSep_W0, bigSep_W0]
  exact sound_body m hs c t

/-! ## The two lines after the region -/

/-- They touch the pipeline's arrays and the bypassing buffers only: never the table. -/
theorem sfx_sub : ∀ ops ∈ ([hostOps1] : List (List (HloOp τ sig (Elt F)))), ∀ op ∈ ops,
    op.bufs ⊆ Pipeline.tailRefsBut sig pre0 spec0 ∅ := by
  intro ops hops op hop
  simp only [List.mem_cons, List.mem_nil_iff, _root_.or_false] at hops
  rcases hops with rfl
  refine Pipeline.sub_tailRefsBut pre0 spec0 ∅ op ((List.forall_iff_forall_mem.mp hostOps1_sub) op hop) (fun k => ?_)
    (fun b hb => absurd hb (Finset.notMem_empty b))
  obtain rfl : k = 0 := Subsingleton.elim _ _
  simp only [hostOps1, List.mem_cons, List.mem_nil_iff, _root_.or_false] at hop
  rcases hop with rfl | rfl
  · rw [StableHlo.unary_bufs]; simp only [Finset.mem_insert, Finset.mem_singleton, not_or]
    exact ⟨StableHlo.devRef_ne_of_ne (by decide), StableHlo.devRef_ne_of_ne (by decide)⟩
  · rw [StableHlo.reshape_bufs]; simp only [Finset.mem_insert, Finset.mem_singleton, not_or]
    exact ⟨StableHlo.devRef_ne_of_ne (by decide), StableHlo.devRef_ne_of_ne (by decide)⟩
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, _root_.or_false] at hops
  rcases hops with rfl
  exact (List.forall_iff_forall_mem.mp hostOps1_fresh) op hop
/-- And write no array of the pipeline: each writes its own result buffer only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, _root_.or_false] at hops
  rcases hops with rfl
  simp only [hostOps1, List.mem_cons, List.mem_nil_iff, _root_.or_false] at hop
  rcases hop with rfl | rfl
  all_goals intro w; fin_cases w <;> simp only [StableHlo.unary_writes, StableHlo.reshape_writes, Finset.mem_singleton] <;> exact StableHlo.devRef_ne_of_ne (by decide)

/-! ## The run and the frame -/

set_option backward.isDefEq.respectTransparency.types false in
/-- From any memory with zero counters in which every shift is at most 4096: every weakly fair execution of the program
    terminates, and every final state has every array of the pipeline at its entry contents overwritten block by block by
    what the proof data say the body left, and every other unscoped buffer at what the two later lines make of the region's exit contents. -/
theorem run_main (hs : ∀ (c : Dev nD) (k : S8192.Idx), (m ((c.tc : Thread nD τ).loc main_arg2) k).toNat ≤ 4096) : θ_run defs (onTc (τ := τ) (main (F := F))) (s₀ m ρ)
    (Pipeline.FramePost (Pipeline.pin pcfgs (adm m)) (dats m hs) 0 (Pipeline.afterTail pcfgs (adm m) (dats m hs) 0 (V₀ m) [hostOps1])) :=
  Pipeline.θ_run_frameP_dma_around pcfgs (adm m) (dats m hs) (0 : Fin 1) launch0 osem defs₀ Variants.none ownSemFacts ∅
    (Finset.empty_subset _) m ρ main
    (hbody := fun c => (body_obligation m hs c).loose) (hshare := fun c => (dats m hs 0 c).share_full fun _ => rfl)
    (howed := fun _ _ => rfl) (V₀ := V₀ m) (opss := [hostOps1]) (hsub := sfx_sub) (hfresh := sfx_fresh) (hkeep := sfx_keeps)
    (hmain := hmain m Variants.none) (hA := A_eq m hs) (hpf := V_pre m)
    (hin := fun _ => .rfl)
    (hout := fun c => (show iprop(Pipeline.ΦD osem spec0 ∅ (V m) c ∗ Pipeline.ΦT pre0 (adm m 0).1 c) ⊢ Pipeline.ΦD osem spec0 ∅ (V m) c from by
      iintro ⟨H, -⟩; iexact H))

/-- The table and the program's two results are unscoped and no window's array: they bypass the region. -/
theorem arr_ne_arg2 : ∀ w : Fin 7, Pipeline.arrRef spec0 w ≠ main_arg2 := by decide
theorem arg2_rest : main_arg2 ∈ Pipeline.restRefs sig spec0 := Pipeline.mem_restRefs_of main_arg2 (by decide) (by decide)
theorem v12_rest : main_v12 ∈ Pipeline.restRefs sig spec0 := Pipeline.mem_restRefs_of main_v12 (by decide) (by decide)
theorem v13_rest : main_v13 ∈ Pipeline.restRefs sig spec0 := Pipeline.mem_restRefs_of main_v13 (by decide) (by decide)

/-- Neither later line writes the table, and the table is no window's array: after them it holds its region-entry contents. -/
theorem afterTail_arg2 (hs : ∀ (c : Dev nD) (k : S8192.Idx), (m ((c.tc : Thread nD τ).loc main_arg2) k).toNat ≤ 4096) (c : Dev nD) :
    Pipeline.afterTail pcfgs (adm m) (dats m hs) 0 (V₀ m) [hostOps1] c main_arg2 = V m c main_arg2 := by
  unfold Pipeline.afterTail
  rw [StableHlo.after_of_forall_not_mem _ _ fun op hop => ?_, Pipeline.withArrays_of_ne _ c (V₀ m c) _ main_arg2 arr_ne_arg2]
  simp only [List.flatten_cons, List.flatten_nil, List.append_nil, hostOps1, List.mem_cons, List.mem_nil_iff, _root_.or_false] at hop
  rcases hop with rfl | rfl <;>
    simp only [StableHlo.unary_writes, StableHlo.reshape_writes, Finset.mem_singleton] <;>
    exact StableHlo.devRef_ne_of_ne (by decide)

/-- The program runs and its three arguments end unchanged: the logits and the uniforms are arrays of input windows,
    which the region never writes; the table bypasses the region's write-backs and no host line writes any of the three. -/
theorem frame (hs : ∀ (c : Dev nD) (k : S8192.Idx), (m ((c.tc : Thread nD τ).loc main_arg2) k).toNat ≤ 4096) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 4).trans (((dats m hs 0 c).arrAt_in 4 rfl _).trans ((A_eq m hs c 4).trans (V_main_arg0 m c))),
      ((h c).1 0).trans (((dats m hs 0 c).arrAt_in 0 rfl _).trans ((A_eq m hs c 0).trans (V_main_arg1 m c))),
      ((h c).2 main_arg2 arg2_rest).trans
        ((afterTail_arg2 m hs c).trans (V_main_arg2 m c))⟩) (run_main m ρ hs)

/-! ## The results -/

/-- What the region leaves in its two result arrays on core c: each array overwritten, block by block in
    point order, by what the body left in the staging buffer at each point. -/
abbrev resMasks (hs : ∀ (c : Dev nD) (k : S8192.Idx), (m ((c.tc : Thread nD τ).loc main_arg2) k).toNat ≤ 4096) (c : Dev nD) : Vec F S8192x4096 .f32 := (dats m hs 0 c).arrAt 5 (cfgM m).N
abbrev resLp (hs : ∀ (c : Dev nD) (k : S8192.Idx), (m ((c.tc : Thread nD τ).loc main_arg2) k).toNat ≤ 4096) (c : Dev nD) : Vec F S8192x1 .f32 := (dats m hs 0 c).arrAt 6 (cfgM m).N

/-- The first later line inserts a unit axis into the window blocks' array. -/
theorem afterTail_v12 (hs : ∀ (c : Dev nD) (k : S8192.Idx), (m ((c.tc : Thread nD τ).loc main_arg2) k).toNat ≤ 4096) (c : Dev nD) :
    Pipeline.afterTail pcfgs (adm m) (dats m hs) 0 (V₀ m) [hostOps1] c main_v12
      = broadcastInDim S8192x1x4096 ![0, 2] bcast_S8192x4096_S8192x1x4096_0_2 (resMasks m hs c) := by
  unfold Pipeline.afterTail
  show StableHlo.after hostOps1 _ (Proc.devRef .tc main_v12) = _
  after_results
  exact congrArg _ (Pipeline.withArrays_arr (Pipeline.pin pcfgs (adm m) 0).spec (launch0 (F := F)).win.arr_inj c _ _ 5)

/-- The second reads the log-probabilities' array as a vector. -/
theorem afterTail_v13 (hs : ∀ (c : Dev nD) (k : S8192.Idx), (m ((c.tc : Thread nD τ).loc main_arg2) k).toNat ≤ 4096) (c : Dev nD) :
    Pipeline.afterTail pcfgs (adm m) (dats m hs) 0 (V₀ m) [hostOps1] c main_v13
      = (fun i => shapeCast S8192 (resLp m hs c) shapeCasts_S8192x1_S8192 i) := by
  unfold Pipeline.afterTail
  show StableHlo.after hostOps1 _ (Proc.devRef .tc main_v13) = _
  after_results
  funext i
  exact congrArg (fun X : Vec F S8192x1 .f32 => shapeCast S8192 X shapeCasts_S8192x1_S8192 i)
    (Pipeline.withArrays_arr (Pipeline.pin pcfgs (adm m) 0).spec (launch0 (F := F)).win.arr_inj c _ _ 6)

/-- The program runs, its three arguments end unchanged, and its two results are the two later lines applied to what
    the region leaves in its result arrays: the window blocks with a unit axis inserted, the log-probabilities as a vector. -/
theorem run_results (hs : ∀ (c : Dev nD) (k : S8192.Idx), (m ((c.tc : Thread nD τ).loc main_arg2) k).toNat ≤ 4096) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v12)
          = broadcastInDim S8192x1x4096 ![0, 2] bcast_S8192x4096_S8192x1x4096_0_2 (resMasks m hs c)
      ∧ r.2.mem ((c.tc : Thread nD τ).loc main_v13)
          = (fun i => shapeCast S8192 (resLp m hs c) shapeCasts_S8192x1_S8192 i)) :=
  (θ_run defs _ _).mono (fun _ h c =>
    ⟨((h c).1 4).trans (((dats m hs 0 c).arrAt_in 4 rfl _).trans ((A_eq m hs c 4).trans (V_main_arg0 m c))),
      ((h c).1 0).trans (((dats m hs 0 c).arrAt_in 0 rfl _).trans ((A_eq m hs c 0).trans (V_main_arg1 m c))),
      ((h c).2 main_arg2 arg2_rest).trans
        ((afterTail_arg2 m hs c).trans (V_main_arg2 m c)),
      ((h c).2 main_v12 v12_rest).trans (afterTail_v12 m hs c),
      ((h c).2 main_v13 v13_rest).trans (afterTail_v13 m hs c)⟩) (run_main m ρ hs)

/-! ## The computed window arrays, as terms of the arguments -/

/-- The padded probabilities the region finds are the reflect-padding of the probabilities of the launch logits. -/
theorem V_main_v6 (c : Dev nD) : V m c main_v6 = KHost.kppad (m ((c.tc : Thread nD τ).loc main_arg0)) := by
  dsimp only [V, V₀]
  simp only [hostOps0, hostOps0_1, hostOps0_2, List.flatten_cons, List.flatten_nil, List.append_nil, List.cons_append, List.nil_append]
  after_results
  unfold KHost.kppad KHost.kpadFull KHost.kpadLeft KHost.kpvec
  rfl
/-- The left strip the region finds is columns 1 to 2048 of the launch uniforms, reversed. -/
theorem V_main_v8 (c : Dev nD) : V m c main_v8 = KHost.kleft (m ((c.tc : Thread nD τ).loc main_arg1)) := by
  dsimp only [V, V₀]
  simp only [hostOps0, hostOps0_1, hostOps0_2, List.flatten_cons, List.flatten_nil, List.append_nil, List.cons_append, List.nil_append]
  after_results
  unfold KHost.kleft
  rfl
/-- The right strip the region finds is columns 2047 to 4094 of the launch uniforms, reversed. -/
theorem V_main_v10 (c : Dev nD) : V m c main_v10 = KHost.kright (m ((c.tc : Thread nD τ).loc main_arg1)) := by
  dsimp only [V, V₀]
  simp only [hostOps0, hostOps0_1, hostOps0_2, List.flatten_cons, List.flatten_nil, List.append_nil, List.cons_append, List.nil_append]
  after_results
  unfold KHost.kright
  rfl

/-! ## The two later lines, read at an index -/

open Idealize.ShloMosaic.ValueIdx in
/-- The unit axis inserted: entry (R, 0, j) of the first result is entry (R, j) of the window blocks' array. -/
theorem resV12_apply (X : Vec F S8192x4096 .f32) (R : Fin 8192) (j : Fin 4096) :
    (broadcastInDim S8192x1x4096 ![0, 2] bcast_S8192x4096_S8192x1x4096_0_2 X) (ix3 R (0 : Fin 1) j) = X (ix2 R j) := by
  refine broadcastInDim_apply (![0, 2] : Fin 2 → Fin 3) bcast_S8192x4096_S8192x1x4096_0_2 X (ix3 R (0 : Fin 1) j) (ix2 R j) (fun a => ?_)
  match a with
  | ⟨0, _⟩ => rfl
  | ⟨1, _⟩ => rfl

open Idealize.ShloMosaic.ValueIdx in
/-- The unit axis dropped: entry R of the second result is entry (R, 0) of the log-probabilities' array. -/
theorem resV13_apply (Y : Vec F S8192x1 .f32) (R : Fin 8192) :
    (fun i => shapeCast S8192 Y shapeCasts_S8192x1_S8192 i) (ix1 R) = Y (ix2 R (0 : Fin 1)) := by
  refine shapeCast_apply Y shapeCasts_S8192x1_S8192 (ix1 R) (ix2 R (0 : Fin 1)) ?_
  rw [Shape.rowMajor_val_two, Shape.rowMajor_val_one]
  show R.val * 1 + 0 = R.val
  omega

/-! ## From the blocks to the arrays -/

section Blocks

open Idealize.ShloMosaic.ValueIdx

/-- The block index of each result window at point t is (t, 0): row block t, the one column block. -/
theorem tr5_eq : ∀ t : Fin grid0.N, cc0_transform_5 (grid0.coords t) = ![t.val, 0] := by decide +kernel
theorem tr6_eq : ∀ t : Fin grid0.N, cc0_transform_6 (grid0.coords t) = ![t.val, 0] := by decide +kernel
theorem index5 (a : (pcfg0 (F := F)).Adm) (t : Fin (cfg0 a).N) : ((cfg0 a).win 5).index t = ![t.val, 0] := tr5_eq t
theorem index6 (a : (pcfg0 (F := F)).Adm) (t : Fin (cfg0 a).N) : ((cfg0 a).win 6).index t = ![t.val, 0] := tr6_eq t
/-- Both result windows are written back at every point. -/
theorem flush5 (a : (pcfg0 (F := F)).Adm) : ∀ t : Fin (cfg0 a).N, ((cfg0 a).win 5).flush t = true :=
  (by decide +kernel : ∀ t : Fin grid0.N, Pipeline.Window.flushOf grid0 true cc0_transform_5 t = true)
theorem flush6 (a : (pcfg0 (F := F)).Adm) : ∀ t : Fin (cfg0 a).N, ((cfg0 a).win 6).flush t = true :=
  (by decide +kernel : ∀ t : Fin grid0.N, Pipeline.Window.flushOf grid0 true cc0_transform_6 t = true)

/-- Row R of the arrays lies in the row block of point R / 128, at row R % 128 of the block. -/
abbrev ptOf (R : Fin 8192) : Fin (cfgM m).N :=
  ⟨R.val / 128, by have h : (cfgM m).N = 64 := N_0; have := R.isLt; omega⟩
abbrev rowOf (R : Fin 8192) : Fin 128 := ⟨R.val % 128, Nat.mod_lt _ (by decide)⟩

/-- Row t * 128 + y is in the block of point t, at row y. -/
theorem ptOf_block (t : Fin (cfgM m).N) (y : Fin 128) (h : t.val * 128 + y.val < 8192) : ptOf m ⟨t.val * 128 + y.val, h⟩ = t :=
  Fin.ext (by show (t.val * 128 + y.val) / 128 = t.val; have := y.isLt; omega)
theorem rowOf_block (t : ℕ) (y : Fin 128) (h : t * 128 + y.val < 8192) : rowOf ⟨t * 128 + y.val, h⟩ = y :=
  Fin.ext (by show (t * 128 + y.val) % 128 = y.val; have := y.isLt; omega)

/-- The window blocks' array as ONE function of the index: entry (R, j) is what point R / 128 left at (R % 128, j). -/
def masksOf (hs : ∀ (c : Dev nD) (k : S8192.Idx), (m ((c.tc : Thread nD τ).loc main_arg2) k).toNat ≤ 4096) (c : Dev nD) : Vec F S8192x4096 .f32 :=
  fun i => outMasks m hs c (ptOf m (i 0)) (ix2 (rowOf (i 0)) (i 1))
/-- The log-probabilities' array likewise. -/
def lpOf (hs : ∀ (c : Dev nD) (k : S8192.Idx), (m ((c.tc : Thread nD τ).loc main_arg2) k).toNat ≤ 4096) (c : Dev nD) : Vec F S8192x1 .f32 :=
  fun i => outLp m hs c (ptOf m (i 0)) (ix2 (rowOf (i 0)) (i 1))

end Blocks

section Arrays

open Idealize.ShloMosaic.ValueIdx

/-- Element (p, q) of point t's block of window 5 sits in the array at row t * 128 + p, column q. -/
theorem emb5 (a : (pcfg0 (F := F)).Adm) (t : Fin (cfg0 a).N) (p : Fin 128) (q : Fin 4096) (h : t.val * 128 + p.val < 8192) :
    (((cfg0 a).win 5).blk t).view.emb (ix2 p q) = ix2 (⟨t.val * 128 + p.val, h⟩ : Fin 8192) q := by
  funext d; apply Fin.ext
  match d with
  | ⟨0, _⟩ =>
    show ((cfg0 a).win 5).index t (0 : Fin 2) * 128 + 1 * p.val = t.val * 128 + p.val
    rw [index5]; show t.val * 128 + 1 * p.val = _; omega
  | ⟨1, _⟩ =>
    show ((cfg0 a).win 5).index t (1 : Fin 2) * 4096 + 1 * q.val = q.val
    rw [index5]; show 0 * 4096 + 1 * q.val = _; omega

/-- What point t writes back of window 5 is block t of that one function. -/
theorem flushed5_eq (hs : ∀ (c : Dev nD) (k : S8192.Idx), (m ((c.tc : Thread nD τ).loc main_arg2) k).toNat ≤ 4096) (c : Dev nD) (t : Fin (cfgM m).N) :
    (dats m hs 0 c).flushed 5 t = (((cfgM m).win 5).blk t).view.read (Elt F) (masksOf m hs c) := by
  show ((cfgM m).win 5).cut ((cfgM m).grid.coords t) ((dats m hs 0 c).after 5 t) = _
  rw [after5]
  refine funext fun (y : S128x4096.Idx) => ?_
  obtain ⟨p, q, rfl⟩ : ∃ (p : Fin 128) (q : Fin 4096), y = ix2 p q := ⟨y 0, y 1, eq_ix2 y⟩
  have h : t.val * 128 + p.val < 8192 := by have h : (cfgM m).N = 64 := N_0; have := t.isLt; have := p.isLt; omega
  show outMasks m hs c t (ix2 p q) = masksOf m hs c ((((cfgM m).win 5).blk t).view.emb (ix2 p q))
  rw [emb5 (adm m 0) t p q h]
  show outMasks m hs c t (ix2 p q) = outMasks m hs c (ptOf m ⟨t.val * 128 + p.val, h⟩) (ix2 (rowOf ⟨t.val * 128 + p.val, h⟩) q)
  rw [ptOf_block, rowOf_block]

/-- Every index of the array is in the block of the point its row belongs to. -/
theorem cover5 (i : S8192x4096.Idx) :
    ∃ t : Fin (cfgM m).N, ((cfgM m).win 5).flush t = true ∧ i ∈ (((cfgM m).win 5).blk t).view.set := by
  obtain ⟨R, j, rfl⟩ : ∃ (R : Fin 8192) (j : Fin 4096), i = ix2 R j := ⟨i 0, i 1, eq_ix2 i⟩
  refine ⟨ptOf m R, flush5 (adm m 0) _, ?_⟩
  have h : (ptOf m R).val * 128 + (rowOf R).val < 8192 := by
    show R.val / 128 * 128 + R.val % 128 < 8192; have := R.isLt; omega
  have e := emb5 (adm m 0) (ptOf m R) (rowOf R) j h
  have hR : (⟨(ptOf m R).val * 128 + (rowOf R).val, h⟩ : Fin 8192) = R :=
    Fin.ext (by show R.val / 128 * 128 + R.val % 128 = R.val; omega)
  rw [hR] at e
  rw [← e]
  exact View.emb_mem_set _ _

/-- Element (p, q) of point t's block of window 6 sits in the array at row t * 128 + p, column q. -/
theorem emb6 (a : (pcfg0 (F := F)).Adm) (t : Fin (cfg0 a).N) (p : Fin 128) (q : Fin 1) (h : t.val * 128 + p.val < 8192) :
    (((cfg0 a).win 6).blk t).view.emb (ix2 p q) = ix2 (⟨t.val * 128 + p.val, h⟩ : Fin 8192) q := by
  funext d; apply Fin.ext
  match d with
  | ⟨0, _⟩ =>
    show ((cfg0 a).win 6).index t (0 : Fin 2) * 128 + 1 * p.val = t.val * 128 + p.val
    rw [index6]; show t.val * 128 + 1 * p.val = _; omega
  | ⟨1, _⟩ =>
    show ((cfg0 a).win 6).index t (1 : Fin 2) * 1 + 1 * q.val = q.val
    rw [index6]; show 0 * 1 + 1 * q.val = _; omega

/-- What point t writes back of window 6 is block t of that one function. -/
theorem flushed6_eq (hs : ∀ (c : Dev nD) (k : S8192.Idx), (m ((c.tc : Thread nD τ).loc main_arg2) k).toNat ≤ 4096) (c : Dev nD) (t : Fin (cfgM m).N) :
    (dats m hs 0 c).flushed 6 t = (((cfgM m).win 6).blk t).view.read (Elt F) (lpOf m hs c) := by
  show ((cfgM m).win 6).cut ((cfgM m).grid.coords t) ((dats m hs 0 c).after 6 t) = _
  rw [after6]
  refine funext fun (y : S128x1.Idx) => ?_
  obtain ⟨p, q, rfl⟩ : ∃ (p : Fin 128) (q : Fin 1), y = ix2 p q := ⟨y 0, y 1, eq_ix2 y⟩
  have h : t.val * 128 + p.val < 8192 := by have h : (cfgM m).N = 64 := N_0; have := t.isLt; have := p.isLt; omega
  show outLp m hs c t (ix2 p q) = lpOf m hs c ((((cfgM m).win 6).blk t).view.emb (ix2 p q))
  rw [emb6 (adm m 0) t p q h]
  show outLp m hs c t (ix2 p q) = outLp m hs c (ptOf m ⟨t.val * 128 + p.val, h⟩) (ix2 (rowOf ⟨t.val * 128 + p.val, h⟩) q)
  rw [ptOf_block, rowOf_block]

/-- Every index of the array is in the block of the point its row belongs to. -/
theorem cover6 (i : S8192x1.Idx) :
    ∃ t : Fin (cfgM m).N, ((cfgM m).win 6).flush t = true ∧ i ∈ (((cfgM m).win 6).blk t).view.set := by
  obtain ⟨R, j, rfl⟩ : ∃ (R : Fin 8192) (j : Fin 1), i = ix2 R j := ⟨i 0, i 1, eq_ix2 i⟩
  refine ⟨ptOf m R, flush6 (adm m 0) _, ?_⟩
  have h : (ptOf m R).val * 128 + (rowOf R).val < 8192 := by
    show R.val / 128 * 128 + R.val % 128 < 8192; have := R.isLt; omega
  have e := emb6 (adm m 0) (ptOf m R) (rowOf R) j h
  have hR : (⟨(ptOf m R).val * 128 + (rowOf R).val, h⟩ : Fin 8192) = R :=
    Fin.ext (by show R.val / 128 * 128 + R.val % 128 = R.val; omega)
  rw [hR] at e
  rw [← e]
  exact View.emb_mem_set _ _

/-- The window blocks' array after the run: entry (R, j) is what point R / 128 left at (R % 128, j) of its block. -/
theorem resMasks_eq (hs : ∀ (c : Dev nD) (k : S8192.Idx), (m ((c.tc : Thread nD τ).loc main_arg2) k).toNat ≤ 4096) (c : Dev nD) : resMasks m hs c = masksOf m hs c :=
  (dats m hs 0 c).arrAt_eq_of_cover 5 (masksOf m hs c) (fun t _ => flushed5_eq m hs c t) (cover5 m)
theorem resMasks_apply (hs : ∀ (c : Dev nD) (k : S8192.Idx), (m ((c.tc : Thread nD τ).loc main_arg2) k).toNat ≤ 4096) (c : Dev nD) (R : Fin 8192) (j : Fin 4096) :
    resMasks m hs c (ix2 R j) = outMasks m hs c (ptOf m R) (ix2 (rowOf R) j) := by
  rw [resMasks_eq]; rfl

/-- The log-probabilities' array after the run: entry (R, 0) is what point R / 128 left at (R % 128, 0) of its block. -/
theorem resLp_eq (hs : ∀ (c : Dev nD) (k : S8192.Idx), (m ((c.tc : Thread nD τ).loc main_arg2) k).toNat ≤ 4096) (c : Dev nD) : resLp m hs c = lpOf m hs c :=
  (dats m hs 0 c).arrAt_eq_of_cover 6 (lpOf m hs c) (fun t _ => flushed6_eq m hs c t) (cover6 m)
theorem resLp_apply (hs : ∀ (c : Dev nD) (k : S8192.Idx), (m ((c.tc : Thread nD τ).loc main_arg2) k).toNat ≤ 4096) (c : Dev nD) (R : Fin 8192) :
    resLp m hs c (ix2 R (0 : Fin 1)) = outLp m hs c (ptOf m R) (ix2 (rowOf R) (0 : Fin 1)) := by
  rw [resLp_eq]; rfl

end Arrays

end Cert.KernelIdeal.KFrame

end
-- ==== Proof.KHostW.lean ====
/-
  The kernel program's host operations ahead of its custom call, as pure terms of the argument arrays, and read at
  explicit coordinates.

  The probabilities p j = 1 / (1 + exp (-logits j)) are the specification's prob. The reflect-padded vector of
  length 8192 shows at position k the probability of column reflIdx k: positions below 2048 mirror the columns
  2048, …, 1, positions 2048 … 6143 are the columns 0 … 4095 themselves, and positions from 6144 on mirror the
  columns 4094, …, 2047. The two mirrored strips of the uniforms are columns 1 … 2048 reversed (column 2048 - k at
  position k) and columns 2047 … 4094 reversed (column 4094 - k at position k).
-/
import proofs.«422330_j45105746542888_3_alg».proof.Proof.Gen.Kernel
import proofs.«422330_j45105746542888_3_alg».proof.Proof.Spec
import Idealize.ShloMosaic.Lib.ValueIdx
import Idealize.ShloMosaic.Lib.Pipeline.Value
import Idealize.ShloMosaic.PureOps.Ideal

noncomputable section

namespace Cert.Kernel.KHost

open Cert.Kernel Cert.Kernel.Gen Idealize.ShloMosaic Idealize.ShloMosaic.TcCoe Idealize.ShloMosaic.ValueIdx

variable {F : FTy → Type} [FloatOps F]

/-! ## The terms -/

/-- p = 1 / (1 + exp (-logits)): the scalar 1.0 at every column, divided by itself plus exp of the negated logits. -/
def kpvec (a0 : FVec F S4096 .f32) : FVec F S4096 .f32 :=
  Host.divf (broadcastInDim S4096 ![] bcast_S_S4096 (constant S_ .f32 0x3F800000#32))
    (addf (broadcastInDim S4096 ![] bcast_S_S4096 (constant S_ .f32 0x3F800000#32)) (Host.exp (Host.negf a0)))

/-- Columns 1 … 2048 of a vector reversed, then the vector: length 6144. -/
def kpadLeft (p : FVec F S4096 .f32) : FVec F S6144 .f32 :=
  concatenate S6144 0
    [⟨S2048, Host.reverse [0] (extractStridedSlice S2048 ![1] p slices_S4096_S2048_1)⟩, ⟨S4096, p⟩]
    concatenates_S2048_S4096_S6144_d0

/-- The left-padded vector, then its positions 4095 … 6142 reversed: length 8192. -/
def kpadFull (p : FVec F S4096 .f32) : FVec F S8192 .f32 :=
  concatenate S8192 0
    [⟨S6144, kpadLeft p⟩,
     ⟨S2048, Host.reverse [0] (extractStridedSlice S2048 ![4095] (kpadLeft p) slices_S6144_S2048_4095)⟩]
    concatenates_S6144_S2048_S8192_d0

/-- The reflect-padded probabilities. -/
def kppad (a0 : FVec F S4096 .f32) : FVec F S8192 .f32 := kpadFull (kpvec a0)

/-- Columns 1 … 2048 of the uniforms, reversed along the columns. -/
def kleft (a1 : FVec F S8192x4096 .f32) : FVec F S8192x2048 .f32 :=
  Host.reverse [1] (extractStridedSlice S8192x2048 ![0, 1] a1 slices_S8192x4096_S8192x2048_0_1)

/-- Columns 2047 … 4094 of the uniforms, reversed along the columns. -/
def kright (a1 : FVec F S8192x4096 .f32) : FVec F S8192x2048 .f32 :=
  Host.reverse [1] (extractStridedSlice S8192x2048 ![0, 2047] a1 slices_S8192x4096_S8192x2048_0_2047)

/-! ## Reversals read at an index -/

/-- A reversal of a vector of length 2048 reads position 2047 - k. -/
theorem reverse_vec_apply {α : Type} (x : S2048.Idx → α) (k : Fin 2048) :
    Host.reverse [0] x (ix1 k) = x (ix1 k.rev) := by
  unfold Host.reverse
  congr 1
  funext a
  match a with
  | ⟨0, _⟩ => rfl

/-- A reversal along the columns of an 8192 × 2048 array reads column 2047 - k. -/
theorem reverse_cols_apply {α : Type} (x : S8192x2048.Idx → α) (r : Fin 8192) (k : Fin 2048) :
    Host.reverse [1] x (ix2 r k) = x (ix2 r k.rev) := by
  unfold Host.reverse
  congr 1
  funext a
  match a with
  | ⟨0, _⟩ => rfl
  | ⟨1, _⟩ => rfl

/-! ## The probabilities -/

/-- The probability of column j is the logistic function of its logit. -/
theorem kpvec_apply (a0 : FVec Ideal S4096 .f32) (j : Fin 4096) :
    kpvec (F := Ideal) a0 (ix1 j) = Cert.Spec.prob (a0 (ix1 j)) := rfl

/-! ## The reflect padding of a vector -/

/-- The left-padded vector at position k: the mirrored column 2048 - k below 2048, the column k - 2048 from there on. -/
theorem kpadLeft_apply (p : FVec F S4096 .f32) (k : Fin 6144) :
    kpadLeft p (ix1 k)
      = p (ix1 ⟨if k.val < 2048 then 2048 - k.val else k.val - 2048, by have := k.isLt; split_ifs <;> omega⟩) := by
  unfold kpadLeft
  by_cases hk : k.val < 2048
  · refine (concatenate_pair_apply_left (s₁ := S2048) (s₂ := S4096) (0 : Fin 1) _ _ _ (ix1 k) rfl
      (ix1 (⟨k.val, hk⟩ : Fin 2048)) ?_).trans ?_
    · intro b
      match b with
      | ⟨0, _⟩ => rfl
    · rw [reverse_vec_apply]
      refine (extractStridedSlice_apply _ _ _ _ (ix1 (⟨2048 - k.val, by omega⟩ : Fin 4096)) ?_).trans ?_
      · intro a
        match a with
        | ⟨0, _⟩ => show 2048 - k.val = 1 + (2048 - (k.val + 1)); omega
      · congr 2
        exact Fin.ext (by simp [hk])
  · refine (concatenate_pair_apply_right (s₁ := S2048) (s₂ := S4096) (0 : Fin 1) _ _ _ (ix1 k) rfl rfl
      (ix1 (⟨k.val - 2048, by have := k.isLt; omega⟩ : Fin 4096)) ?_ ?_).trans ?_
    · intro b hb
      match b with
      | ⟨0, _⟩ => exact absurd rfl hb
    · show k.val - 2048 + 2048 = k.val
      omega
    · congr 2
      exact Fin.ext (by simp [hk])

/-- The padded vector at position k shows the column the specification's fold names. -/
theorem kpadFull_apply (p : FVec F S4096 .f32) (k : Fin 8192) :
    kpadFull p (ix1 k) = p (ix1 ⟨Cert.Spec.reflIdx k.val, Cert.Spec.reflIdx_lt k.isLt⟩) := by
  unfold kpadFull
  by_cases hk : k.val < 6144
  · refine (concatenate_pair_apply_left (s₁ := S6144) (s₂ := S2048) (0 : Fin 1) _ _ _ (ix1 k) rfl
      (ix1 (⟨k.val, hk⟩ : Fin 6144)) ?_).trans ?_
    · intro b
      match b with
      | ⟨0, _⟩ => rfl
    · rw [kpadLeft_apply]
      congr 2
      apply Fin.ext
      show (if k.val < 2048 then 2048 - k.val else k.val - 2048) = Cert.Spec.reflIdx k.val
      unfold Cert.Spec.reflIdx
      split_ifs <;> omega
  · refine (concatenate_pair_apply_right (s₁ := S6144) (s₂ := S2048) (0 : Fin 1) _ _ _ (ix1 k) rfl rfl
      (ix1 (⟨k.val - 6144, by have := k.isLt; omega⟩ : Fin 2048)) ?_ ?_).trans ?_
    · intro b hb
      match b with
      | ⟨0, _⟩ => exact absurd rfl hb
    · show k.val - 6144 + 6144 = k.val
      omega
    · rw [reverse_vec_apply]
      refine (extractStridedSlice_apply _ _ _ _ (ix1 (⟨12286 - k.val, by have := k.isLt; omega⟩ : Fin 6144)) ?_).trans ?_
      · intro a
        match a with
        | ⟨0, _⟩ =>
          show 12286 - k.val = 4095 + (2048 - (k.val - 6144 + 1))
          have := k.isLt
          omega
      · rw [kpadLeft_apply]
        congr 2
        apply Fin.ext
        show (if 12286 - k.val < 2048 then 2048 - (12286 - k.val) else 12286 - k.val - 2048) = Cert.Spec.reflIdx k.val
        unfold Cert.Spec.reflIdx
        have := k.isLt
        split_ifs <;> omega

/-- The reflect-padded probabilities at position k: the logistic function of the logit of column reflIdx k. -/
theorem kppad_apply (a0 : FVec Ideal S4096 .f32) (k : Fin 8192) :
    kppad (F := Ideal) a0 (ix1 k) = Cert.Spec.prob (a0 (ix1 (⟨Cert.Spec.reflIdx k.val, Cert.Spec.reflIdx_lt k.isLt⟩ : Fin 4096))) := by
  unfold kppad
  rw [kpadFull_apply, kpvec_apply]

/-! ## The two mirrored strips of the uniforms -/

/-- The left strip at column k is the uniforms' column 2048 - k. -/
theorem kleft_apply (a1 : FVec Ideal S8192x4096 .f32) (r : Fin 8192) (k : Fin 2048) :
    kleft (F := Ideal) a1 (ix2 r k) = a1 (ix2 r (⟨2048 - k.val, by omega⟩ : Fin 4096)) := by
  unfold kleft
  rw [reverse_cols_apply]
  refine extractStridedSlice_apply _ _ _ _ (ix2 r (⟨2048 - k.val, by omega⟩ : Fin 4096)) ?_
  intro a
  match a with
  | ⟨0, _⟩ => show r.val = 0 + r.val; omega
  | ⟨1, _⟩ => show 2048 - k.val = 1 + (2048 - (k.val + 1)); have := k.isLt; omega

/-- The right strip at column k is the uniforms' column 4094 - k. -/
theorem kright_apply (a1 : FVec Ideal S8192x4096 .f32) (r : Fin 8192) (k : Fin 2048) :
    kright (F := Ideal) a1 (ix2 r k) = a1 (ix2 r (⟨4094 - k.val, by omega⟩ : Fin 4096)) := by
  unfold kright
  rw [reverse_cols_apply]
  refine extractStridedSlice_apply _ _ _ _ (ix2 r (⟨4094 - k.val, by omega⟩ : Fin 4096)) ?_
  intro a
  match a with
  | ⟨0, _⟩ => show r.val = 0 + r.val; omega
  | ⟨1, _⟩ => show 4094 - k.val = 2047 + (2048 - (k.val + 1)); have := k.isLt; omega

end Cert.Kernel.KHost

end
-- ==== Proof.KBlocksW.lean ====
/-
  What one grid point leaves in its two result blocks, as closed functions of the blocks it is handed.

  The scratch of 128 rows and 8192 columns is first the reflect-padded block of uniforms: columns 0 to 2047 the
  left edge strip, 2048 to 6143 the block itself, 6144 to 8191 the right edge strip. It is then overwritten by
  the comparison of each entry with the padded probability of its column (1 where the uniform is below it).
  Row r of the first result block is the window of 4096 columns of row r of the scratch that starts at column
  shift (128 p + r), p the grid point; the second result block holds, per row, the sum over the 4096 middle
  columns of the scratch times the logits, plus the sum of the log-sigmoids of the negated logits.
-/
import proofs.«422330_j45105746542888_3_alg».proof.Proof.Gen.Kernel.Skeleton
import Idealize.ShloMosaic.Lib.ValueIdx

noncomputable section

namespace Cert.Kernel.KBlocks

open Cert.Kernel Cert.Kernel.Gen
open Idealize.ShloMosaic Idealize.ShloMosaic.ValueIdx

variable {F : FTy → Type} [FloatOps F]

/-- The padded block of uniforms at row rr and column k of the scratch. -/
def asmAt (x2 : Vec F S128x2048 .f32) (x1 : Vec F S128x4096 .f32) (x3 : Vec F S128x2048 .f32) (rr : Fin 128) (k : Fin 8192) : F .f32 :=
  if h : k.val < 2048 then k0_pay1 x2 (ix2 rr (⟨k.val, h⟩ : Fin 2048))
  else if h' : k.val < 6144 then k0_pay2 x1 (ix2 rr (⟨k.val - 2048, by omega⟩ : Fin 4096))
  else k0_pay3 x3 (ix2 rr (⟨k.val - 6144, by have := k.isLt; omega⟩ : Fin 2048))

/-- The padded block of uniforms as the scratch holds it after the three stores. -/
def asm (x2 : Vec F S128x2048 .f32) (x1 : Vec F S128x4096 .f32) (x3 : Vec F S128x2048 .f32) : Vec F S128x8192 .f32 :=
  fun y => asmAt x2 x1 x3 (y 0) (y 1)

/-- The scratch after the comparison with the padded probabilities x4. -/
def scr (x1 : Vec F S128x4096 .f32) (x2 x3 : Vec F S128x2048 .f32) (x4 : Vec F S8192 .f32) : Vec F S128x8192 .f32 :=
  k0_pay4 x4 (asm x2 x1 x3)

/-- The table's word for row rr of grid point i: the shift of row 128 i + rr. -/
def shiftAt (i : grid0.Coords) (x0 : Vec F S8192 .i32) (rr : Fin 128) : ℕ :=
  (x0 (ix1 (⟨(128 * (i 0).val + rr.val) % 8192, Nat.mod_lt _ (by decide)⟩ : Fin 8192))).toNat

/-- Entry (rr, j) of the first result block of grid point i: the scratch at row rr, column shift + j. -/
def maskAt (i : grid0.Coords) (x0 : Vec F S8192 .i32) (x1 : Vec F S128x4096 .f32) (x2 x3 : Vec F S128x2048 .f32) (x4 : Vec F S8192 .f32)
    (rr : Fin 128) (j : Fin 4096) : F .f32 :=
  scr x1 x2 x3 x4 (ix2 rr (⟨(shiftAt i x0 rr + j.val) % 8192, Nat.mod_lt _ (by decide)⟩ : Fin 8192))

/-- The first result block of grid point i: row rr is the window of row rr of the scratch starting at column shift. -/
def maskBlock (i : grid0.Coords) (x0 : Vec F S8192 .i32) (x1 : Vec F S128x4096 .f32) (x2 x3 : Vec F S128x2048 .f32) (x4 : Vec F S8192 .f32) :
    Vec F S128x4096 .f32 :=
  fun y => maskAt i x0 x1 x2 x3 x4 (y 0) (y 1)

/-- Entry (rr, j) of the middle 4096 columns of the scratch. -/
def coreAt (x1 : Vec F S128x4096 .f32) (x2 x3 : Vec F S128x2048 .f32) (x4 : Vec F S8192 .f32) (rr : Fin 128) (j : Fin 4096) : F .f32 :=
  scr x1 x2 x3 x4 (ix2 rr (⟨j.val + 2048, by have := j.isLt; omega⟩ : Fin 8192))

/-- The middle 4096 columns of the scratch: the unpadded Bernoulli grid of the point's 128 rows. -/
def core (x1 : Vec F S128x4096 .f32) (x2 x3 : Vec F S128x2048 .f32) (x4 : Vec F S8192 .f32) : Vec F S128x4096 .f32 :=
  fun y => coreAt x1 x2 x3 x4 (y 0) (y 1)

/-- The second result block: the rows' log-probabilities. -/
def lpBlock (x1 : Vec F S128x4096 .f32) (x2 x3 : Vec F S128x2048 .f32) (x4 : Vec F S8192 .f32) (x5 : Vec F S4096 .f32) : Vec F S128x1 .f32 :=
  k0_pay6 (core x1 x2 x3 x4) x5 (k0_pay5 x5)

end Cert.Kernel.KBlocks

end
-- ==== Proof.KRowValW.lean ====
/-
  A row delivered by a copy, read on the row's elements.

  Row k of the result block (128 rows, 4096 columns) is written, whole, with what the window of 4096 columns
  starting at column w of row k of the scratch (128 rows, 8192 columns) holds. Both ends are a unit-stride
  rectangle of one row with the axis of extent one dropped: element j of such a row memref sits, in the underlying
  buffer, where the block's element (k, offset + j) sits (dropping the axis matches j with (0, j); the rectangle
  shifts that by its offsets). So on the elements of row k of the result the written contents are the scratch read at
  (k, w + j), and the raw contents that read as a block G are G at (k, j) there: the two agree as soon as G is the
  scratch's window on row k.
-/
import proofs.«422330_j45105746542888_3_alg».proof.Proof.KRows
import proofs.«422330_j45105746542888_3_alg».proof.Proof.Gen.Kernel
import Idealize.ShloMosaic.Lib.Pipeline.Frame
import Idealize.ShloMosaic.Lib.ValueIdx
import Idealize.ShloMosaic.Lib.Writes

set_option maxRecDepth 16384

noncomputable section

namespace Cert.Kernel.KRowVal

open Cert.Kernel Cert.Kernel.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Column j of a row of 4096, matched with the shape of one row and 4096 columns, is (0, j). -/
theorem reshape_ix1 (h : (⟨1, ![4096]⟩ : Shape).numel = (⟨2, ![1, 4096]⟩ : Shape).numel) (j : Fin 4096) :
    Shape.reshapeEquiv h (ix1 j) = ix2 (0 : Fin 1) j :=
  Shape.reshapeEquiv_eq_of_rowMajor h (by
    rw [Shape.rowMajor_val_two, Shape.rowMajor_val_one]
    show 0 * 4096 + j.val = j.val
    rw [Nat.zero_mul, Nat.zero_add])

/-- The unit-stride rectangle of one row and 4096 columns at offset (k, o) of a block of n rows and m columns
    places its element (0, j) at (k, o + j). -/
theorem unit_emb {n m : ℕ} (k o : ℕ) (inb : ∀ a, (![k, o] : Fin 2 → ℕ) a + (⟨2, ![1, 4096]⟩ : Shape).size a ≤ (⟨2, ![n, m]⟩ : Shape).size a)
    (j : Fin 4096) (hk : k < n) (ho : o + j.val < m) :
    (Rect.unit (s := (⟨2, ![n, m]⟩ : Shape)) ![k, o] (⟨2, ![1, 4096]⟩ : Shape).size inb).emb (ix2 (0 : Fin 1) j)
      = ix2 (⟨k, hk⟩ : Fin n) (⟨o + j.val, ho⟩ : Fin m) := by
  funext a
  apply Fin.ext
  match a with
  | ⟨0, _⟩ => show k + 1 * 0 = k; omega
  | ⟨1, _⟩ => show o + 1 * j.val = o + j.val; omega

/-- A row memref (one row of a block at offset (k, o), the unit axis dropped) reads, at column j, the block at
    (k, o + j). -/
theorem read_row {κ : Kind} {sp : Space} {e : EltTy} {n m : ℕ} (M : Memref sig κ sp (⟨2, ![n, m]⟩ : Shape) e) (k o : ℕ)
    (inb : ∀ a, (![k, o] : Fin 2 → ℕ) a + (⟨2, ![1, 4096]⟩ : Shape).size a ≤ (⟨2, ![n, m]⟩ : Shape).size a)
    (hsq : (⟨2, ![1, 4096]⟩ : Shape).Squeezes (⟨1, ![4096]⟩ : Shape)) (Val : EltTy → Type) (g : M.view.ty.Contents Val)
    (j : Fin 4096) (hk : k < n) (ho : o + j.val < m) :
    ((M.slice (Rect.unit (s := (⟨2, ![n, m]⟩ : Shape)) ![k, o] (⟨2, ![1, 4096]⟩ : Shape).size inb) (fun _ => rfl)).squeeze (⟨1, ![4096]⟩ : Shape) hsq).view.read Val g (ix1 j)
      = M.view.read Val g (ix2 (⟨k, hk⟩ : Fin n) (⟨o + j.val, ho⟩ : Fin m)) := by
  show _root_.cast _ (g (M.view.emb ((Rect.unit (s := (⟨2, ![n, m]⟩ : Shape)) ![k, o] (⟨2, ![1, 4096]⟩ : Shape).size inb).emb
      (Shape.reshapeEquiv hsq.numel_eq (ix1 j))))) = _
  rw [reshape_ix1, unit_emb k o inb j hk ho]
  rfl

/-- The window's last column lies inside the scratch. -/
theorem col_lt (k : ℕ) (w : BitVec 32) (hw : ∀ a, (![k, w.toNat] : Fin 2 → ℕ) a + S1x4096.size a ≤ S128x8192.size a) (j : Fin 4096) :
    w.toNat + j.val < 8192 := by
  have h1 : w.toNat + 4096 ≤ 8192 := hw 1
  have := j.isLt
  omega

theorem row_landed (c : Dev nD) (arg7 : Memref sig .tc .vmem S128x4096 .f32) (harg7 : arg7.IsWhole) (arg9 : Memref sig .tc .vmem S128x8192 .f32)
    (k : ℕ) (hk : k < 128) (w : BitVec 32) (hw : ∀ a, (![k, w.toNat] : Fin 2 → ℕ) a + S1x4096.size a ≤ S128x8192.size a)
    (f7 : Buf (Elt F) (arg7.view.loc (c : Thread nD τ))) (g9 : arg9.view.ty.Contents (Elt F)) (G : Vec F S128x4096 .f32)
    (hG : ∀ j : Fin 4096, G (ix2 (⟨k, hk⟩ : Fin 128) j)
      = arg9.view.read (Elt F) g9 (ix2 (⟨k, hk⟩ : Fin 128) (⟨w.toNat + j.val, col_lt k w hw j⟩ : Fin 8192))) :
    ∀ idx ∈ (KRows.rowM arg7 squeezes_S1x4096_S4096 k hk).view.set,
      ((KRows.rowM arg7 squeezes_S1x4096_S4096 k hk).view.writes (Elt F) f7 [⟨Rect.whole KRows.SR, ReadAs.same.apply (View.read (Elt F) ((arg9.slice (Rect.unit (s := S128x8192) ![k, w.toNat] S1x4096.size hw) (fun _ => rfl)).squeeze S4096 squeezes_S1x4096_S4096).view g9)⟩]) idx
        = (harg7.unread G : Buf (Elt F) (arg7.view.loc (c : Thread nD τ))) idx := by
  intro idx hidx
  obtain ⟨j, -, rfl⟩ := Finset.mem_map.mp hidx
  obtain ⟨j0, rfl⟩ : ∃ j0 : Fin 4096, j = ix1 j0 := ⟨j 0, eq_ix1 j⟩
  -- the written contents, read back through the row at column j0, are the payload there: the scratch at (k, w + j0)
  have hL := View.read_writes_cons_emb (KRows.rowM arg7 squeezes_S1x4096_S4096 k hk).view f7 (Rect.whole KRows.SR)
    (ReadAs.same.apply (View.read (Elt F) ((arg9.slice (Rect.unit (s := S128x8192) ![k, w.toNat] S1x4096.size hw) (fun _ => rfl)).squeeze S4096 squeezes_S1x4096_S4096).view g9))
    [] (ix1 j0)
  rw [Rect.emb_whole_apply] at hL
  have hP : ReadAs.same.apply (View.read (Elt F) ((arg9.slice (Rect.unit (s := S128x8192) ![k, w.toNat] S1x4096.size hw) (fun _ => rfl)).squeeze S4096 squeezes_S1x4096_S4096).view g9) (ix1 j0)
      = G (ix2 (⟨k, hk⟩ : Fin 128) j0) :=
    (read_row arg9 k w.toNat hw squeezes_S1x4096_S4096 (Elt F) g9 j0 hk (col_lt k w hw j0)).trans (hG j0).symm
  -- the raw contents that read as G, read through the row at column j0, are G at (k, j0)
  have hR : (KRows.rowM arg7 squeezes_S1x4096_S4096 k hk).view.read (Elt F) (harg7.unread G) (ix1 j0) = G (ix2 (⟨k, hk⟩ : Fin 128) j0) := by
    have h0 : 0 + j0.val < 4096 := by have := j0.isLt; omega
    have e0 : (⟨0 + j0.val, h0⟩ : Fin 4096) = j0 := Fin.ext (Nat.zero_add _)
    refine (read_row arg7 k 0 (KRows.row_inb k hk) squeezes_S1x4096_S4096 (Elt F) (harg7.unread G) j0 hk h0).trans ?_
    rw [e0, harg7.read_unread]
  -- both sides are the same element of the buffer; compare them as values of the row's element type
  refine (cast_inj (congrArg (Elt F) (KRows.rowM arg7 squeezes_S1x4096_S4096 k hk).view.elt_eq)).mp ?_
  exact hL.trans (hP.trans hR.symm)

/-- Row k held at what the copy wrote is row k held at the raw contents that read as G. -/
theorem row_to_block (c : Dev nD) (arg7 : Memref sig .tc .vmem S128x4096 .f32) (harg7 : arg7.IsWhole) (arg9 : Memref sig .tc .vmem S128x8192 .f32)
    (k : ℕ) (hk : k < 128) (w : BitVec 32) (hw : ∀ a, (![k, w.toNat] : Fin 2 → ℕ) a + S1x4096.size a ≤ S128x8192.size a)
    (f7 : Buf (Elt F) (arg7.view.loc (c : Thread nD τ))) (g9 : arg9.view.ty.Contents (Elt F)) (G : Vec F S128x4096 .f32)
    (hG : ∀ j : Fin 4096, G (ix2 (⟨k, hk⟩ : Fin 128) j)
      = arg9.view.read (Elt F) g9 (ix2 (⟨k, hk⟩ : Fin 128) (⟨w.toNat + j.val, col_lt k w hw j⟩ : Fin 8192))) :
    KRows.heldRow (c : Thread nD τ) arg7 squeezes_S1x4096_S4096 k hk
        ((KRows.rowM arg7 squeezes_S1x4096_S4096 k hk).view.writes (Elt F) f7 [⟨Rect.whole KRows.SR, ReadAs.same.apply (View.read (Elt F) ((arg9.slice (Rect.unit (s := S128x8192) ![k, w.toNat] S1x4096.size hw) (fun _ => rfl)).squeeze S4096 squeezes_S1x4096_S4096).view g9)⟩])
      ⊢ (KRows.heldRow (c : Thread nD τ) arg7 squeezes_S1x4096_S4096 k hk (harg7.unread G) : sProp (MT nD τ sig Unit (Elt F) ℕ (Pipeline.UD sig nD τ) ℕ)) :=
  KRows.row_congr (c : Thread nD τ) arg7 squeezes_S1x4096_S4096 k hk _ _ (row_landed c arg7 harg7 arg9 k hk w hw f7 g9 G hG)

end Cert.Kernel.KRowVal

end
-- ==== Proof.KRowFinalW.lean ====
/-
  A delivered row is the window block's row.

  Row k of the result block of grid point p receives the window of row k of the scratch that starts at column w,
  the table's word at position 128 p + k (computed in 32-bit words, exactly, since p < 64 and k < 128). The
  scratch holds the compared padded block, so the delivered row is, element by element, the closed form's row k:
  the scratch at row k and column shift + j, with shift + j < 8192 because every word is at most 4096.
-/
import proofs.«422330_j45105746542888_3_alg».proof.Proof.KRowValW
import proofs.«422330_j45105746542888_3_alg».proof.Proof.KBlocksW
import Idealize.ShloMosaic.Lib.WholeRead
import Idealize.ShloMosaic.Lib.Tactic
import Idealize.ShloMosaic.Lib.Pipeline.Frame

noncomputable section

namespace Cert.Kernel.KRowFinal

open Cert.Kernel Cert.Kernel.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig Unit (Elt F) ℕ (Pipeline.UD sig nD τ) ℕ

/-- The table position of row k at grid point i, as the body computes it in 32-bit words: 128 i + k. -/
theorem off_val (i : grid0.Coords) (k : ℕ) (hk : k < 128) :
    (Scalar.indexCast (Scalar.addi (Scalar.muli (BitVec.ofNat 32 (i 0).val) 128#32) (BitVec.ofNat 32 k))).toNat = 128 * (i 0).val + k := by
  have hi : (i 0).val < 64 := (i 0).isLt
  simp only [Scalar.indexCast, Scalar.addi, Scalar.muli, IntOp.addi, IntOp.muli, BitVec.toNat_add, BitVec.toNat_mul, BitVec.toNat_ofNat]
  omega

/-- Row k of the result block, as the run leaves it — the window of row k of the scratch at the column the table's word
    at position 128 i + k names, the scratch holding the compared padded block —, is row k of the closed form. -/
theorem row_final (c : Dev nD) (i : grid0.Coords) (arg1 : Memref sig .tc .smem S8192 .i32) (harg1 : arg1.IsWhole)
    (arg7 : Memref sig .tc .vmem S128x4096 .f32) (harg7 : arg7.IsWhole) (arg9 : Memref sig .tc .vmem S128x8192 .f32)
    (x0 : Vec F S8192 .i32) (hx : ∀ k, (x0 k).toNat ≤ 4096)
    (x1 : Vec F S128x4096 .f32) (x2 x3 : Vec F S128x2048 .f32) (x4 : Vec F S8192 .f32)
    (f7 : Buf (Elt F) (arg7.view.loc (c : Thread nD τ))) (g9 : arg9.view.ty.Contents (Elt F))
    (hg9 : arg9.view.read (Elt F) g9 = KBlocks.scr x1 x2 x3 x4)
    (k : ℕ) (hk : k < 128)
    (hinb : ∀ a, (![(Scalar.indexCast (Scalar.addi (Scalar.muli (BitVec.ofNat 32 (i 0).val) 128#32) (BitVec.ofNat 32 k))).toNat] : Fin 1 → ℕ) a + S1.size a ≤ S8192.size a)
    (hnum : 0 < (Rect.unit (s := S8192) ![(Scalar.indexCast (Scalar.addi (Scalar.muli (BitVec.ofNat 32 (i 0).val) 128#32) (BitVec.ofNat 32 k))).toNat] S1.size hinb).shape.numel)
    (hw : ∀ a, (![k, (View.readAt (Elt F) arg1.view (Rect.unit (s := S8192) ![(Scalar.indexCast (Scalar.addi (Scalar.muli (BitVec.ofNat 32 (i 0).val) 128#32) (BitVec.ofNat 32 k))).toNat] S1.size hinb).toLoadRect (harg1.unread x0) (Shape.Idx.first hnum)).toNat] : Fin 2 → ℕ) a + S1x4096.size a ≤ S128x8192.size a)
    (hr) :
    (KRows.heldRow (c : Thread nD τ) arg7 squeezes_S1x4096_S4096 k hk
        ((KRows.rowM arg7 squeezes_S1x4096_S4096 k hk).view.writes (Elt F) f7
          [⟨Rect.whole KRows.SR, ReadAs.same.apply (View.read (Elt F)
            ((arg9.slice (Rect.unit (s := S128x8192) ![k, (View.readAt (Elt F) arg1.view (Rect.unit (s := S8192) ![(Scalar.indexCast (Scalar.addi (Scalar.muli (BitVec.ofNat 32 (i 0).val) 128#32) (BitVec.ofNat 32 k))).toNat] S1.size hinb).toLoadRect (harg1.unread x0) (Shape.Idx.first hnum)).toNat] S1x4096.size hw) hr).squeeze S4096 squeezes_S1x4096_S4096).view g9)⟩]) : sProp 𝕄)
      ⊢ KRows.heldRow (c : Thread nD τ) arg7 squeezes_S1x4096_S4096 k hk (harg7.unread (KBlocks.maskBlock i x0 x1 x2 x3 x4)) := by
  refine KRowVal.row_to_block c arg7 harg7 arg9 k hk _ hw f7 g9 _ ?_
  intro j
  rw [hg9]
  have hi : (i 0).val < 64 := (i 0).isLt
  have hidx : (Rect.unit (s := S8192) ![(Scalar.indexCast (Scalar.addi (Scalar.muli (BitVec.ofNat 32 (i 0).val) 128#32) (BitVec.ofNat 32 k))).toNat] S1.size hinb).toLoadRect.idx (Shape.Idx.first hnum)
      = ix1 (⟨(128 * (i 0).val + k) % 8192, Nat.mod_lt _ (by decide)⟩ : Fin 8192) := by
    funext a
    match a with
    | ⟨0, _⟩ =>
      apply Fin.ext
      show (Scalar.indexCast (Scalar.addi (Scalar.muli (BitVec.ofNat 32 (i 0).val) 128#32) (BitVec.ofNat 32 k))).toNat + 1 * 0 = (128 * (i 0).val + k) % 8192
      rw [off_val i k hk]; omega
  have hword : (View.readAt (Elt F) arg1.view (Rect.unit (s := S8192) ![(Scalar.indexCast (Scalar.addi (Scalar.muli (BitVec.ofNat 32 (i 0).val) 128#32) (BitVec.ofNat 32 k))).toNat] S1.size hinb).toLoadRect (harg1.unread x0) (Shape.Idx.first hnum)).toNat
      = KBlocks.shiftAt i x0 (⟨k, hk⟩ : Fin 128) := by
    rw [harg1.readAt_unread, hidx]; rfl
  have hs : KBlocks.shiftAt i x0 (⟨k, hk⟩ : Fin 128) ≤ 4096 := hx _
  show KBlocks.maskAt i x0 x1 x2 x3 x4 (⟨k, hk⟩ : Fin 128) j = _
  unfold KBlocks.maskAt
  congr 2
  apply Fin.ext
  show (KBlocks.shiftAt i x0 (⟨k, hk⟩ : Fin 128) + j.val) % 8192 = _ + j.val
  rw [hword]; have := j.isLt; omega

end Cert.Kernel.KRowFinal

end
-- ==== Proof.KScratchW.lean ====
/-
  What the kernel body's stores leave in its scratch, read back as closed functions of the loaded blocks.

  The scratch of 128 rows and 8192 columns is written by three stores side by side — the left edge strip at
  columns 0 to 2047, the block at columns 2048 to 6143, the right edge strip at columns 6144 to 8191 — which
  together cover it, so a load of the whole scratch after them reads the padded block asm. A fourth store then
  overwrites the whole scratch with the comparison of that load with the padded probabilities, so the scratch
  reads scr from then on, its middle 4096 columns read core, and the row sums stored from them read lpBlock.
-/
import proofs.«422330_j45105746542888_3_alg».proof.Proof.KBlocksW
import Idealize.ShloMosaic.Lib.Pipeline.Frame
import Idealize.ShloMosaic.Lib.WholeRead
import Idealize.ShloMosaic.Lib.Pipeline.Value
import Idealize.ShloMosaic.Lib.Pipeline.FrameBody
import Idealize.ShloMosaic.Lib.Writes
import Idealize.ShloMosaic.Lib.ValueIdx

noncomputable section

namespace Cert.Kernel.KScratch

open Cert.Kernel Cert.Kernel.Gen Idealize.ShloMosaic Idealize.ShloMosaic.TcCoe Idealize.ShloMosaic.ValueIdx

variable {F : FTy → Type} [FloatOps F]

/-- The zero offsets of a rank-2 access, spelt as a literal. -/
theorem hz2 : (![0, 0] : Fin 2 → Nat) = fun _ => 0 := funext fun a => by
  match a with
  | ⟨0, _⟩ => rfl
  | ⟨1, _⟩ => rfl

/-- The zero offset of a rank-1 access, spelt as a literal. -/
theorem hz1 : (![0] : Fin 1 → Nat) = fun _ => 0 := funext fun a => by
  match a with
  | ⟨0, _⟩ => rfl

/-! ## The padded block at its three ranges of columns -/

/-- Below column 2048 the padded block is the left edge strip. -/
theorem asmAt_left (x2 : Vec F S128x2048 .f32) (x1 : Vec F S128x4096 .f32) (x3 : Vec F S128x2048 .f32) (rr : Fin 128) (b : Fin 2048) :
    KBlocks.asmAt x2 x1 x3 rr (⟨b.val, by omega⟩ : Fin 8192) = k0_pay1 x2 (ix2 rr b) := by
  unfold KBlocks.asmAt
  rw [dif_pos (show (⟨b.val, by omega⟩ : Fin 8192).val < 2048 from b.isLt)]

/-- From column 2048 to column 6143 it is the block itself. -/
theorem asmAt_mid (x2 : Vec F S128x2048 .f32) (x1 : Vec F S128x4096 .f32) (x3 : Vec F S128x2048 .f32) (rr : Fin 128) (b : Fin 4096) :
    KBlocks.asmAt x2 x1 x3 rr (⟨b.val + 2048, by omega⟩ : Fin 8192) = k0_pay2 x1 (ix2 rr b) := by
  unfold KBlocks.asmAt
  rw [dif_neg (show ¬ (⟨b.val + 2048, by omega⟩ : Fin 8192).val < 2048 by show ¬ b.val + 2048 < 2048; omega),
    dif_pos (show (⟨b.val + 2048, by omega⟩ : Fin 8192).val < 6144 by show b.val + 2048 < 6144; omega)]
  exact congrArg (fun c : Fin 4096 => k0_pay2 x1 (ix2 rr c)) (Fin.ext (by show b.val + 2048 - 2048 = b.val; omega))

/-- From column 6144 on it is the right edge strip. -/
theorem asmAt_right (x2 : Vec F S128x2048 .f32) (x1 : Vec F S128x4096 .f32) (x3 : Vec F S128x2048 .f32) (rr : Fin 128) (b : Fin 2048) :
    KBlocks.asmAt x2 x1 x3 rr (⟨b.val + 6144, by omega⟩ : Fin 8192) = k0_pay3 x3 (ix2 rr b) := by
  unfold KBlocks.asmAt
  rw [dif_neg (show ¬ (⟨b.val + 6144, by omega⟩ : Fin 8192).val < 2048 by show ¬ b.val + 6144 < 2048; omega),
    dif_neg (show ¬ (⟨b.val + 6144, by omega⟩ : Fin 8192).val < 6144 by show ¬ b.val + 6144 < 6144; omega)]
  exact congrArg (fun c : Fin 2048 => k0_pay3 x3 (ix2 rr c)) (Fin.ext (by show b.val + 6144 - 6144 = b.val; omega))

variable (arg2 : Memref sig .tc .vmem S128x4096 .f32) (harg2 : arg2.IsWhole) (arg3 : Memref sig .tc .vmem S128x2048 .f32) (harg3 : arg3.IsWhole)
  (arg4 : Memref sig .tc .vmem S128x2048 .f32) (harg4 : arg4.IsWhole) (arg5 : Memref sig .tc .vmem S8192 .f32) (harg5 : arg5.IsWhole)
  (arg9 : Memref sig .tc .vmem S128x8192 .f32) (x1 : Vec F S128x4096 .f32) (x2 x3 : Vec F S128x2048 .f32) (x4 : Vec F S8192 .f32)

/-- The three stores of the edge strips and the block, last first. -/
abbrev L3 : List (View.Piece (Elt F) S128x8192 .f32) :=
  [⟨Rect.unit ![0, 6144] S128x2048.size inb_S128x8192_S128x2048_0_6144, k0_pay3 (View.readAt (Elt F) arg4.view (Rect.unit ![0, 0] S128x2048.size inb_S128x2048_S128x2048_0_0).toLoadRect (harg4.unread x3))⟩,
   ⟨Rect.unit ![0, 2048] S128x4096.size inb_S128x8192_S128x4096_0_2048, k0_pay2 (View.readAt (Elt F) arg2.view (Rect.unit ![0, 0] S128x4096.size inb_S128x4096_S128x4096_0_0).toLoadRect (harg2.unread x1))⟩,
   ⟨Rect.unit ![0, 0] S128x2048.size inb_S128x8192_S128x2048_0_0, k0_pay1 (View.readAt (Elt F) arg3.view (Rect.unit ![0, 0] S128x2048.size inb_S128x2048_S128x2048_0_0).toLoadRect (harg3.unread x2))⟩]

/-- On top of them the store of the whole scratch: the comparison with the loaded padded probabilities. -/
abbrev L4 : List (View.Piece (Elt F) S128x8192 .f32) :=
  ⟨Rect.unit ![0, 0] S128x8192.size inb_S128x8192_S128x8192_0_0, k0_pay4 (View.readAt (Elt F) arg5.view (Rect.unit ![0] S8192.size inb_S8192_S8192_0).toLoadRect (harg5.unread x4)) (arg9.view.readCov (L3 arg2 harg2 arg3 harg3 arg4 harg4 x1 x2 x3) (Rect.unit ![0, 0] S128x8192.size inb_S128x8192_S128x8192_0_0).toLoadRect)⟩ :: L3 arg2 harg2 arg3 harg3 arg4 harg4 x1 x2 x3

/-! ## Loads of whole staging buffers -/

/-- A load of a whole staging buffer held at the contents that read X reads X. -/
theorem whole_load {s : Shape} (m : Memref sig .tc .vmem s .f32) (h : m.IsWhole) {off : Fin s.rank → Nat} (hz : off = fun _ => 0)
    (inb : ∀ a, off a + s.size a ≤ s.size a) (X : Vec F s .f32) :
    View.readAt (Elt F) m.view (Rect.unit off s.size inb).toLoadRect (h.unread X) = X := by
  rw [View.readAt_eq_ld, h.read_unread, View.ld_unit_zero hz]

theorem logits_read (arg6 : Memref sig .tc .vmem S4096 .f32) (harg6 : arg6.IsWhole) (x5 : Vec F S4096 .f32) :
    View.readAt (Elt F) arg6.view (Rect.unit ![0] S4096.size inb_S4096_S4096_0).toLoadRect (harg6.unread x5) = x5 :=
  whole_load arg6 harg6 hz1 _ x5

/-! ## The three strips read back as the padded block -/

/-- Each of the three pieces is the padded block under its rectangle. -/
theorem pieces3 : ∀ p ∈ L3 arg2 harg2 arg3 harg3 arg4 harg4 x1 x2 x3, ∀ x : p.1.shape.Idx,
    p.2 x = KBlocks.asm x2 x1 x3 (p.1.emb x) := by
  intro p hp x
  simp only [List.mem_cons, List.not_mem_nil, or_false] at hp
  rcases hp with rfl | rfl | rfl
  · obtain ⟨a, b, rfl⟩ : ∃ (a : Fin 128) (b : Fin 2048), x = ix2 a b := ⟨x 0, x 1, eq_ix2 x⟩
    have hy : (Rect.unit (s := S128x8192) ![0, 6144] S128x2048.size inb_S128x8192_S128x2048_0_6144).emb (ix2 a b)
        = ix2 a (⟨b.val + 6144, by omega⟩ : Fin 8192) := by
      funext c
      match c with
      | ⟨0, _⟩ => exact Fin.ext (by show 0 + 1 * a.val = a.val; omega)
      | ⟨1, _⟩ => exact Fin.ext (by show 6144 + 1 * b.val = b.val + 6144; omega)
    show k0_pay3 (View.readAt (Elt F) arg4.view (Rect.unit ![0, 0] S128x2048.size inb_S128x2048_S128x2048_0_0).toLoadRect (harg4.unread x3)) (ix2 a b) = _
    rw [whole_load arg4 harg4 hz2, hy]
    exact (asmAt_right x2 x1 x3 a b).symm
  · obtain ⟨a, b, rfl⟩ : ∃ (a : Fin 128) (b : Fin 4096), x = ix2 a b := ⟨x 0, x 1, eq_ix2 x⟩
    have hy : (Rect.unit (s := S128x8192) ![0, 2048] S128x4096.size inb_S128x8192_S128x4096_0_2048).emb (ix2 a b)
        = ix2 a (⟨b.val + 2048, by omega⟩ : Fin 8192) := by
      funext c
      match c with
      | ⟨0, _⟩ => exact Fin.ext (by show 0 + 1 * a.val = a.val; omega)
      | ⟨1, _⟩ => exact Fin.ext (by show 2048 + 1 * b.val = b.val + 2048; omega)
    show k0_pay2 (View.readAt (Elt F) arg2.view (Rect.unit ![0, 0] S128x4096.size inb_S128x4096_S128x4096_0_0).toLoadRect (harg2.unread x1)) (ix2 a b) = _
    rw [whole_load arg2 harg2 hz2, hy]
    exact (asmAt_mid x2 x1 x3 a b).symm
  · obtain ⟨a, b, rfl⟩ : ∃ (a : Fin 128) (b : Fin 2048), x = ix2 a b := ⟨x 0, x 1, eq_ix2 x⟩
    have hy : (Rect.unit (s := S128x8192) ![0, 0] S128x2048.size inb_S128x8192_S128x2048_0_0).emb (ix2 a b)
        = ix2 a (⟨b.val, by omega⟩ : Fin 8192) := by
      funext c
      match c with
      | ⟨0, _⟩ => exact Fin.ext (by show 0 + 1 * a.val = a.val; omega)
      | ⟨1, _⟩ => exact Fin.ext (by show 0 + 1 * b.val = b.val; omega)
    show k0_pay1 (View.readAt (Elt F) arg3.view (Rect.unit ![0, 0] S128x2048.size inb_S128x2048_S128x2048_0_0).toLoadRect (harg3.unread x2)) (ix2 a b) = _
    rw [whole_load arg3 harg3 hz2, hy]
    exact (asmAt_left x2 x1 x3 a b).symm

/-- The three rectangles cover the scratch: a column lies in one of the three ranges. -/
theorem cover3 (y : S128x8192.Idx) : ∃ p ∈ L3 arg2 harg2 arg3 harg3 arg4 harg4 x1 x2 x3, y ∈ p.1.set := by
  obtain ⟨rr, k, rfl⟩ : ∃ (rr : Fin 128) (k : Fin 8192), y = ix2 rr k := ⟨y 0, y 1, eq_ix2 y⟩
  have hr := rr.isLt
  have hk := k.isLt
  by_cases h1 : k.val < 2048
  · refine ⟨_, List.mem_cons_of_mem _ (List.mem_cons_of_mem _ List.mem_cons_self), ?_⟩
    refine (Rect.mem_set_unit (inb := inb_S128x8192_S128x2048_0_0)).mpr fun c => ?_
    match c with
    | ⟨0, _⟩ => exact ⟨Nat.zero_le _, by show rr.val < 0 + 128; omega⟩
    | ⟨1, _⟩ => exact ⟨Nat.zero_le _, by show k.val < 0 + 2048; omega⟩
  · by_cases h2 : k.val < 6144
    · refine ⟨_, List.mem_cons_of_mem _ List.mem_cons_self, ?_⟩
      refine (Rect.mem_set_unit (inb := inb_S128x8192_S128x4096_0_2048)).mpr fun c => ?_
      match c with
      | ⟨0, _⟩ => exact ⟨Nat.zero_le _, by show rr.val < 0 + 128; omega⟩
      | ⟨1, _⟩ => exact ⟨by show 2048 ≤ k.val; omega, by show k.val < 2048 + 4096; omega⟩
    · refine ⟨_, List.mem_cons_self, ?_⟩
      refine (Rect.mem_set_unit (inb := inb_S128x8192_S128x2048_0_6144)).mpr fun c => ?_
      match c with
      | ⟨0, _⟩ => exact ⟨Nat.zero_le _, by show rr.val < 0 + 128; omega⟩
      | ⟨1, _⟩ => exact ⟨by show 6144 ≤ k.val; omega, by show k.val < 6144 + 2048; omega⟩

/-- What the three stores leave, as one function of the scratch's index: the padded block. -/
theorem canon3 : View.canon (L3 arg2 harg2 arg3 harg3 arg4 harg4 x1 x2 x3) = KBlocks.asm x2 x1 x3 :=
  funext fun y => View.canon_apply_of_pieces (KBlocks.asm x2 x1 x3) _ (pieces3 arg2 harg2 arg3 harg3 arg4 harg4 x1 x2 x3) y
    (cover3 arg2 harg2 arg3 harg3 arg4 harg4 x1 x2 x3 y)

theorem asm_read :
    arg9.view.readCov (L3 arg2 harg2 arg3 harg3 arg4 harg4 x1 x2 x3) (Rect.unit ![0, 0] S128x8192.size inb_S128x8192_S128x8192_0_0).toLoadRect
      = KBlocks.asm x2 x1 x3 := by
  rw [View.readCov_eq_canon_ld _ _ _ (cover3 arg2 harg2 arg3 harg3 arg4 harg4 x1 x2 x3), View.ld_unit_zero hz2, canon3]

/-! ## The scratch after the comparison -/

/-- What the four stores leave: the last covers the scratch, so its payload, the comparison of the padded block
    with the padded probabilities. -/
theorem canon4 : View.canon (L4 arg2 harg2 arg3 harg3 arg4 harg4 arg5 harg5 arg9 x1 x2 x3 x4) = KBlocks.scr x1 x2 x3 x4 := by
  rw [View.canon_cons_unit_zero hz2, whole_load arg5 harg5 hz1, asm_read]
  rfl

theorem scratch_read (f9 : arg9.view.ty.Contents (Elt F)) :
    arg9.view.read (Elt F) (arg9.view.writes (Elt F) f9 (L4 arg2 harg2 arg3 harg3 arg4 harg4 arg5 harg5 arg9 x1 x2 x3 x4))
      = KBlocks.scr x1 x2 x3 x4 := by
  rw [View.read_writes_eq_canon _ _ _ (fun y => ⟨_, List.mem_cons_self, View.mem_set_unit_zero hz2 inb_S128x8192_S128x8192_0_0 y⟩), canon4]

theorem core_read :
    arg9.view.readCov (L4 arg2 harg2 arg3 harg3 arg4 harg4 arg5 harg5 arg9 x1 x2 x3 x4)
        (Rect.unit (s := S128x8192) ![0, 2048] S128x4096.size inb_S128x8192_S128x4096_0_2048).toLoadRect
      = KBlocks.core x1 x2 x3 x4 := by
  rw [View.readCov_eq_canon', canon4]
  funext j
  obtain ⟨rr, b, rfl⟩ : ∃ (rr : Fin 128) (b : Fin 4096), j = ix2 rr b := ⟨j 0, j 1, eq_ix2 j⟩
  show KBlocks.scr x1 x2 x3 x4 ((Rect.unit (s := S128x8192) ![0, 2048] S128x4096.size inb_S128x8192_S128x4096_0_2048).toLoadRect.idx (ix2 rr b))
    = KBlocks.coreAt x1 x2 x3 x4 rr b
  unfold KBlocks.coreAt
  congr 1
  funext c
  match c with
  | ⟨0, _⟩ => exact Fin.ext (by show 0 + 1 * rr.val = rr.val; omega)
  | ⟨1, _⟩ => exact Fin.ext (by show 2048 + 1 * b.val = b.val + 2048; omega)

/-! ## The row sums -/

theorem lp_read (arg6 : Memref sig .tc .vmem S4096 .f32) (harg6 : arg6.IsWhole) (x5 : Vec F S4096 .f32)
    (arg8 : Memref sig .tc .vmem S128x1 .f32) (f8 : arg8.view.ty.Contents (Elt F)) :
    arg8.view.read (Elt F) (arg8.view.writes (Elt F) f8 [⟨Rect.unit ![0, 0] S128x1.size inb_S128x1_S128x1_0_0,
        k0_pay6 (arg9.view.readCov (L4 arg2 harg2 arg3 harg3 arg4 harg4 arg5 harg5 arg9 x1 x2 x3 x4) (Rect.unit (s := S128x8192) ![0, 2048] S128x4096.size inb_S128x8192_S128x4096_0_2048).toLoadRect)
          (View.readAt (Elt F) arg6.view (Rect.unit ![0] S4096.size inb_S4096_S4096_0).toLoadRect (harg6.unread x5))
          (k0_pay5 (View.readAt (Elt F) arg6.view (Rect.unit ![0] S4096.size inb_S4096_S4096_0).toLoadRect (harg6.unread x5)))⟩])
      = KBlocks.lpBlock x1 x2 x3 x4 x5 := by
  rw [View.read_writes_eq_canon _ _ _ (fun y => ⟨_, List.mem_cons_self, View.mem_set_unit_zero hz2 inb_S128x1_S128x1_0_0 y⟩),
    View.canon_unit_zero hz2, core_read, logits_read]
  rfl

end Cert.Kernel.KScratch

end
-- ==== Proof.KBodyW.lean ====
/-
  The kernel body, run once at a symbolic grid point on symbolic staging buffers.

  At a point the body assembles, in its scratch of 128 rows and 8192 columns, the reflect-padded rows of the
  uniforms (three stores: the left edge strip, the block itself, the right edge strip), overwrites the scratch
  with the Bernoulli comparison against the padded probabilities, stores the rows' log-probabilities, and then
  copies, for each of its 128 rows r, the window of 4096 columns starting at column shift r of row r of the
  scratch into row r of the output block: 128 transfers started one after the other, each on a cell of its own,
  then 128 waits. Each transfer and each wait reads shift r again and takes for granted that the window lies
  inside the scratch, which is shift r + 4096 ≤ 8192. So the run needs one fact about the table it reads: every
  word is at most 4096. Under it every transfer finds its source window (a window of row r, and the rows are
  apart) and its destination row, all 128 are in flight at once, and each wait gives its row back written.
  What the run leaves in the two output buffers is a list of written pieces which the run itself finds.
-/
import proofs.«422330_j45105746542888_3_alg».proof.Proof.Gen.Kernel.Skeleton
import proofs.«422330_j45105746542888_3_alg».proof.Proof.Gen.Kernel.Launch
import Idealize.ShloMosaic.Lib.Tactic
import Idealize.ShloMosaic.Lib.Pipeline.Kit
import Idealize.ShloMosaic.Lib.Pipeline.Frame
import Idealize.ShloMosaic.Lib.WholeRead
import proofs.«422330_j45105746542888_3_alg».proof.Proof.KToks
import proofs.«422330_j45105746542888_3_alg».proof.Proof.KRowFinalW
import proofs.«422330_j45105746542888_3_alg».proof.Proof.KScratchW
import proofs.«422330_j45105746542888_3_alg».proof.Proof.KRows
import proofs.«422330_j45105746542888_3_alg».proof.Proof.KBlocksW

set_option maxRecDepth 16384

noncomputable section

namespace Cert.Kernel.KBody

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A window of one row and 4096 columns that starts at column v of row `row` lies inside the scratch of 128 rows
    and 8192 columns when row < 128 and v ≤ 4096. -/
theorem win_inb (row : ℕ) (hrow : row < 128) (v : BitVec 32) (hv : v.toNat ≤ 4096) :
    ∀ a, (![row, v.toNat] : Fin 2 → ℕ) a + S1x4096.size a ≤ S128x8192.size a := by
  intro a
  match a with
  | ⟨0, _⟩ => show row + 1 ≤ 128; omega
  | ⟨1, _⟩ => show v.toNat + 4096 ≤ 8192; omega

/-- Every word read out of a table all of whose words are at most 4096 is at most 4096. -/
theorem word_le (arg1 : Memref sig .tc .smem S8192 .i32) (harg1 : arg1.IsWhole) (x0 : Vec F S8192 .i32)
    (hx : ∀ k, (x0 k).toNat ≤ 4096) (R : LoadRect S8192) (y : R.shape.Idx) :
    (arg1.view.readAt (Elt F) R (harg1.unread x0) y).toNat ≤ 4096 := by
  rw [harg1.readAt_unread]; exact hx _

open Lean in
/-- The counters of the cells `lo`, `lo + 1`, …, `lo + n - 1` of core `c`, each at zero, as one right-nested chain. -/
macro "cells_zero% " c:term:max lo:num n:num : term => do
  let cell (k : Nat) : MacroM Term := do
    let lit := Syntax.mkNumLit (toString (lo.getNat + k))
    `(semVal (($c : Thread nD τ), SemLoc.dma ($lit : DmaSem sig)) 0)
  let mut t ← cell (n.getNat - 1)
  for j in [1:n.getNat] do
    let k := n.getNat - 1 - j
    let hd ← cell k
    t ← `(iprop($hd ∗ $t))
  return t

open Lean Idealize.SL.ProofMode in
/-- Take a right-nested chain of `n` conjuncts apart into the hypotheses `p0`, `p1`, …, `p(n-1)`. -/
macro "icases_chain " h:ident n:num p:ident : tactic => do
  let mut pats : Array (TSyntax ``icasesPatAlts) := #[]
  for k in [0:n.getNat] do
    let id := mkIdent (p.getId.appendAfter (toString k))
    let q ← `(icasesPat| $id:ident)
    pats := pats.push (← `(icasesPatAlts| $q:icasesPat))
  `(tactic| icases $h:ident with ⟨$[$pats],*⟩)

open Lean in
/-- Send the hypotheses `p0`, `p1`, …, `p(n-1)` to the left conjunct. -/
macro "isplitl_chain " n:num p:ident : tactic => do
  let ids := (List.range n.getNat).toArray.map fun k => mkIdent (p.getId.appendAfter (toString k))
  `(tactic| isplitl [$ids*])

open Lean in
/-- Send `h` and the hypotheses `p0`, `p1`, …, `p(n-1)` to the left conjunct. -/
macro "isplitl_chain_with " h:ident n:num p:ident : tactic => do
  let ids := (List.range n.getNat).toArray.map fun k => mkIdent (p.getId.appendAfter (toString k))
  `(tactic| isplitl [$h:ident $ids*])

open Lean in
/-- Close a right-nested chain of `n` conjuncts, conjunct `k` from the hypothesis `pk` through the entailment
    `e k (_ : k < n) _ … _` (`u` further arguments left to unification). -/
macro "chain_from " n:num p:ident u:num e:term:max : tactic => do
  let mut ts : Array (TSyntax `tactic) := #[]
  for k in [0:n.getNat] do
    let id := mkIdent (p.getId.appendAfter (toString k))
    let lit := Syntax.mkNumLit (toString k)
    let holes : Array Term ← (List.range u.getNat).toArray.mapM fun _ => `(_)
    let app ← `($e $lit (by decide) $holes*)
    if k + 1 < n.getNat then
      ts := ts.push (← `(tactic| isplitl [$id:ident]))
      ts := ts.push (← `(tactic| · (istop; exact $app)))
    else
      ts := ts.push (← `(tactic| (istop; exact $app)))
  `(tactic| ($[$ts]*))

open Lean in
/-- Close a right-nested chain of `n` conjuncts, conjunct `k` being exactly the hypothesis `pk`. -/
macro "chain_exact " n:num p:ident : tactic => do
  let mut ts : Array (TSyntax `tactic) := #[]
  for k in [0:n.getNat] do
    let id := mkIdent (p.getId.appendAfter (toString k))
    if k + 1 < n.getNat then
      ts := ts.push (← `(tactic| isplitl [$id:ident]))
      ts := ts.push (← `(tactic| · iexact $id:ident))
    else
      ts := ts.push (← `(tactic| iexact $id:ident))
  `(tactic| ($[$ts]*))

/-- The kernel's own 128 transfer cells (cells 12 to 139 of the core), each counter at zero. -/
def sems0 (c : Dev nD) : sProp 𝕄 := cells_zero% c 12 128

-- (the run's proof term is large: the definition's epilogue walks it past the default budget)
set_option maxHeartbeats 8000000 in
set_option sl_exec.dmaWindow true in
set_option sl_exec.dmaWindowSet true in
/-- What the body leaves in the two output buffers, as written pieces (the first list the 128 delivered rows of the
    window block, the second the one store of the log-probabilities), with the proof that from whole staging memrefs
    — the table at any share and the five inputs at their contents, the outputs and the scratch at anything —, the 128
    cells at zero and the core's record of what it owes, the body runs to a continuation that holds the inputs as they
    were, the outputs with those pieces written, the scratch at something, the cells at zero again and the waits
    recorded; given that every word of the table is at most 4096. -/
theorem kernelRun (c : Dev nD) (i : grid0.Coords)
    (arg1 : Memref sig .tc .smem S8192 .i32) (harg1 : arg1.IsWhole) (arg2 : Memref sig .tc .vmem S128x4096 .f32) (harg2 : arg2.IsWhole)
    (arg3 : Memref sig .tc .vmem S128x2048 .f32) (harg3 : arg3.IsWhole) (arg4 : Memref sig .tc .vmem S128x2048 .f32) (harg4 : arg4.IsWhole)
    (arg5 : Memref sig .tc .vmem S8192 .f32) (harg5 : arg5.IsWhole) (arg6 : Memref sig .tc .vmem S4096 .f32) (harg6 : arg6.IsWhole)
    (arg7 : Memref sig .tc .vmem S128x4096 .f32) (harg7 : arg7.IsWhole) (arg8 : Memref sig .tc .vmem S128x1 .f32) (harg8 : arg8.IsWhole)
    (arg9 : Memref sig .tc .vmem S128x8192 .f32) (harg9 : arg9.IsWhole) (q0 : PosShare TreeShare)
    (x0 : Vec F S8192 .i32) (hx : ∀ k, (x0 k).toNat ≤ 4096)
    (x1 : Vec F S128x4096 .f32) (x2 : Vec F S128x2048 .f32) (x3 : Vec F S128x2048 .f32) (x4 : Vec F S8192 .f32) (x5 : Vec F S4096 .f32)
    (W : Waits sig Unit) (K : PUnit → sProp 𝕄) :
        iprop(owns (c : Thread nD τ) arg1 q0 x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ (∃ d, owns (c : Thread nD τ) arg9 fullShare d)
            ∗ owes (c : Thread nD τ) 0 W ∗ sems0 c
            ∗ (iprop(owns (c : Thread nD τ) arg1 q0 x0 ∗ owns (c : Thread nD τ) arg2 fullShare x1 ∗ owns (c : Thread nD τ) arg3 fullShare x2
                ∗ owns (c : Thread nD τ) arg4 fullShare x3 ∗ owns (c : Thread nD τ) arg5 fullShare x4 ∗ owns (c : Thread nD τ) arg6 fullShare x5
                ∗ owns (c : Thread nD τ) arg7 fullShare (KBlocks.maskBlock i x0 x1 x2 x3 x4)
                ∗ owns (c : Thread nD τ) arg8 fullShare (KBlocks.lpBlock x1 x2 x3 x4 x5)
                ∗ (∃ W', owes (c : Thread nD τ) 0 W')
                ∗ (∃ d, owns (c : Thread nD τ) arg9 fullShare d) ∗ sems0 c) -∗ K ⟨⟩))
          ⊢ wp frame (wpE (defs₀ (F := F)) Variants.none c none) Set.univ
              (cc0__kernel i arg1 harg1 arg2 harg2 arg3 harg3 arg4 harg4 arg5 harg5 arg6 harg6 arg7 harg7 arg8 harg8 arg9 harg9 cc0_scratch1) K := by
    simp only [cc0__kernel_eq_skeleton]; unfold cc0__kernel_skel
    unfold owns sems0
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%d8, %f8, -, H8⟩, ⟨%d9, %f9, -, H9⟩, HO, Hs, Hk⟩
    icases_chain Hs 128 Hd
    obtain rfl := harg1.eq_unread hf0; obtain rfl := harg2.eq_unread hf1; obtain rfl := harg3.eq_unread hf2
    obtain rfl := harg4.eq_unread hf3; obtain rfl := harg5.eq_unread hf4; obtain rfl := harg6.eq_unread hf5
    -- up to the first transfer: the scratch assembled and compared, the log-probabilities stored
    sl_exec_parts
    -- the scratch, from here on only read, as one read share per cell (the transfer on cell k reads it at share k) and a remainder
    ihave Hsp := Cert.KToks.split $$ H9
    icases Hsp with ⟨H9, Hts⟩
    icases_chain Hts 140 Ht
    -- the result block as its 128 rows, each held by its own elements (the transfer for row k fills row k whole)
    ihave Hrs := (Cert.KRows.rows_split (c : Thread nD τ) arg7 squeezes_S1x4096_S4096 f7) $$ H7
    icases_chain Hrs 128 Hr
    -- the 128 transfers and their waits
    sl_exec_parts (disch := exact win_inb _ (by decide) _ (word_le arg1 harg1 x0 hx _ _))
    sl_step
    iapply Hk
    -- every name the run gave to a value it read or delivered, spelt out
    sl_unfold_words
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    -- the window block: each delivered row is the closed form's row, and the rows make the block
    isplitl_chain 128 Hr
    · iexists (harg7.unread (KBlocks.maskBlock i x0 x1 x2 x3 x4))
      isplitr; · ipureintro; exact harg7.read_unread _
      iapply (Cert.KRows.rows_join (c : Thread nD τ) arg7 squeezes_S1x4096_S4096 (harg7.unread (KBlocks.maskBlock i x0 x1 x2 x3 x4)))
      chain_from 128 Hr 4 (KRowFinal.row_final c i arg1 harg1 arg7 harg7 arg9 x0 hx x1 x2 x3 x4 f7 _
        (KScratch.scratch_read arg2 harg2 arg3 harg3 arg4 harg4 arg5 harg5 arg9 x1 x2 x3 x4 f9))
    -- the log-probabilities: one store, of the closed form
    isplitl [H8]
    · iexists _; isplitr; swap; · iexact H8
      ipureintro
      exact KScratch.lp_read arg2 harg2 arg3 harg3 arg4 harg4 arg5 harg5 arg9 x1 x2 x3 x4 arg6 harg6 x5 arg8 f8
    isplitl [HO]; · iexists _; iexact HO
    -- the scratch whole again from its remainder and its read shares, then the cells
    isplitl_chain_with H9 140 Ht
    · iexists _, (arg9.view.writes (Elt F) f9 (KScratch.L4 arg2 harg2 arg3 harg3 arg4 harg4 arg5 harg5 arg9 x1 x2 x3 x4))
      isplitr; · ipureintro; rfl
      iapply Cert.KToks.join
      isplitl [H9]; · iexact H9
      chain_exact 140 Ht
    first | (chain_exact 128 Hd) | iframe

end Cert.Kernel.KBody

end
-- ==== Proof.KFrameW.lean ====
/-
  The launch and the frame of the kernel program.

  The program is three stretches of host lines, one pipelined region, and two more host lines. The region stages seven
  windows over a grid of 64 points (row blocks of 128 rows of the uniforms and of its two mirrored strips, the padded
  probabilities and the logits whole, and the two results by row blocks), holds the table of shifts in scalar memory,
  and gives the body a scratch of 128 rows and 8192 columns and 128 transfer cells of its own. Nothing is in flight
  between two points: the body starts its 128 row transfers and waits for all of them within the point. So the region's
  invariant is the same at every point: the scratch at something, the generator register at something, the 128 cells
  at zero, and the table at the half share the region lends the body.

  What the body leaves in the two result buffers at a point is a closed function of the table and of the blocks it is
  handed there; each result array ends as the blocks of the 64 points laid one under the other.
-/
import proofs.«422330_j45105746542888_3_alg».proof.Proof.Gen.Kernel.Skeleton
import proofs.«422330_j45105746542888_3_alg».proof.Proof.Gen.Kernel.Launch
import Idealize.ShloMosaic.Lib.Tactic
import Idealize.ShloMosaic.Lib.Pipeline.Kit
import Idealize.ShloMosaic.Lib.Pipeline.Frame
import Idealize.ShloMosaic.Lib.Pipeline.FrameSuffix
import Idealize.ShloMosaic.Lib.Pipeline.FrameBody
import Idealize.ShloMosaic.Lib.Ring
import Idealize.ShloMosaic.Lib.WholeRead
import proofs.«422330_j45105746542888_3_alg».proof.Proof.KHostW
import proofs.«422330_j45105746542888_3_alg».proof.Proof.KBlocksW
import proofs.«422330_j45105746542888_3_alg».proof.Proof.KBodyW

set_option maxRecDepth 16384

noncomputable section

namespace Cert.Kernel.KFrame

open Cert.Kernel Cert.Kernel.Gen Cert.Kernel.KBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The host lines before the region -/

/-- Core c's buffer contents when the region is entered: the launch contents after the three stretches of host lines
    that precede it. -/
abbrev V₀ (c : Dev nD) : Valuation τ sig (Elt F) :=
  StableHlo.after ([hostOps0, hostOps0_1, hostOps0_2] : List (List (HloOp τ sig (Elt F)))).flatten (fun b => m (c, b))
/-- The same read at a reference of the core. -/
abbrev V (c : Dev nD) (b : Ref sig .tc) : Buf (Elt F) ((c : Thread nD τ).loc b) := V₀ m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host lines, the region, and the two later lines: it reduces to the region continued by those
    two lines, entered at the contents the earlier lines leave. -/
theorem hmain (𝒱₀ : Variants) :
    Pipeline.HMainPK (Ix := Unit) (Name := ℕ) (U := Pipeline.UD sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0, hostOps0_1, hostOps0_2] [hostOps1]
    ⟨hostOps0_sub, hostOps0_1_sub, hostOps0_2_sub⟩ ⟨hostOps0_fresh, hostOps0_1_fresh, hostOps0_2_fresh⟩
    (fun c => (main_chain c).trans rfl)

/-- No host line before the region writes an argument of the program. -/
theorem not_written (b : Ref sig .tc) (hb : b = main_arg0 ∨ b = main_arg1 ∨ b = main_arg2) :
    ∀ op ∈ ([hostOps0, hostOps0_1, hostOps0_2] : List (List (HloOp τ sig (Elt F)))).flatten, Proc.devRef .tc b ∉ op.writes := by
  intro op hop
  simp only [List.flatten_cons, List.flatten_nil, List.append_nil, List.cons_append, List.nil_append, List.mem_cons,
    List.mem_nil_iff, or_false] at hop
  rcases hb with rfl | rfl | rfl <;>
  rcases hop with rfl | rfl | rfl | rfl | rfl | rfl | rfl | rfl | rfl | rfl | rfl | rfl | rfl | rfl | rfl | rfl | rfl | rfl | rfl | rfl | rfl <;>
    simp only [StableHlo.unary_writes, StableHlo.binary_writes, StableHlo.nullary_writes, Finset.mem_singleton] <;>
    exact StableHlo.devRef_ne_of_ne (by decide)

/-- Each argument reaches the region as launched. -/
theorem V_main_arg0 (c : Dev nD) : V m c main_arg0 = m ((c : Thread nD τ).loc main_arg0) :=
  StableHlo.after_of_forall_not_mem (b := Proc.devRef .tc main_arg0) _ (fun b => m (c, b)) (not_written main_arg0 (.inl rfl))
theorem V_main_arg1 (c : Dev nD) : V m c main_arg1 = m ((c : Thread nD τ).loc main_arg1) :=
  StableHlo.after_of_forall_not_mem (b := Proc.devRef .tc main_arg1) _ (fun b => m (c, b)) (not_written main_arg1 (.inr (.inl rfl)))
theorem V_main_arg2 (c : Dev nD) : V m c main_arg2 = m ((c : Thread nD τ).loc main_arg2) :=
  StableHlo.after_of_forall_not_mem (b := Proc.devRef .tc main_arg2) _ (fun b => m (c, b)) (not_written main_arg2 (.inr (.inr rfl)))

/-! ## The table of shifts -/

/-- The table's contents when the region is entered (there is one device). -/
def tbl : pre0.Contents (Elt F) := fun j => V m (0 : Dev nD) (pre0.ref j)
/-- On every device the table holds those contents. -/
theorem V_pre (c : Dev nD) (j : Fin 1) : V m c (pre0.ref j) = tbl m j := by
  obtain rfl : c = 0 := Subsingleton.elim _ _; rfl
/-- They are admissible: the pipeline asks nothing of them (no index map reads the table). -/
abbrev adm : (p : Fin 1) → (pcfgs (F := F) p).Adm := fun _ => ⟨tbl m, trivial⟩
/-- The pipeline at them. -/
abbrev cfgM : Pipeline.Cfg sig Λ₀ := cfg0 (adm m 0)

/-- The table as the body is handed it: its whole buffer as a memref. -/
abbrev tbM : Memref sig .tc .smem S8192 .i32 := Memref.whole main_arg2
abbrev htbM : tbM.IsWhole := Memref.isWhole_whole _
/-- The table's words on core c, as the body's run names them. -/
def shifts (c : Dev nD) : Vec F S8192 .i32 := V m c main_arg2

/-- Every shift is at most 4096, given that of the launch memory. -/
theorem shifts_le (hs : ∀ (c : Dev nD) (k : S8192.Idx), (m ((c.tc : Thread nD τ).loc main_arg2) k).toNat ≤ 4096)
    (c : Dev nD) (k : S8192.Idx) : (shifts m c k).toNat ≤ 4096 := by
  unfold shifts; rw [V_main_arg2]; exact hs c k

/-- The half of the table the region lends the body, as the run takes it. -/
theorem PhiT_eq (c : Dev nD) :
    (Pipeline.ΦT pre0 (adm m 0).1 c : sProp 𝕄) = owns (c : Thread nD τ) tbM fullShare.right (shifts m c) := by
  obtain rfl : c = 0 := Subsingleton.elim _ _
  unfold Pipeline.ΦT Pipeline.prefHeld
  rw [show (Finset.univ : Finset (Fin 1)) = {(0 : Fin 1)} from by decide, bigSep_singleton, owns_whole]
  rfl

/-! ## The body's own cells and scratch -/

/-- The body's 128 transfer cells: cells 12 to 139 of the core. -/
abbrev osem : Fin 128 → SemLoc sig := fun j => SemLoc.dma (⟨12 + j.val, (by have := j.isLt; show 12 + j.val < 140; omega)⟩ : DmaSem sig)
/-- They are scoped, distinct, and none is a window's staging cell (those are cells 0 to 11). -/
theorem ownSemFacts : Pipeline.OwnSemFacts spec0 osem := by decide

open Lean in
/-- The indices 0, 1, …, n - 1 as a literal list. -/
macro "fin_list% " n:num : term => do
  let mut xs : Array Term := #[]
  for k in [0:n.getNat] do
    let lit := Syntax.mkNumLit (toString k)
    xs := xs.push (← `(($lit : Fin $n)))
  `([$xs,*])

/-- The 128 cells at zero, one by one. -/
theorem ownSems_eq (c : Dev nD) :
    (Pipeline.ownSems0 (Ix := Unit) (Name := ℕ) (U := Pipeline.UD sig nD τ) (Lvl := ℕ) (Val := Elt F) (τ := τ) osem c : sProp 𝕄)
      = sems0 c := by
  rw [Pipeline.ownSems0_eq_of_list c osem (fin_list% 128) (by decide) (by decide)]; rfl

/-- The scratch of 128 rows and 8192 columns, whole. -/
abbrev scM : Memref sig .tc .vmem S128x8192 .f32 := Memref.whole cc0_scratch0
abbrev hscM : scM.IsWhole := Memref.isWhole_whole _

/-- The region's invariant for a body with transfers of its own, conjunct by conjunct: the scratch at something, the
    generator register at something, the 128 cells at zero (and no operand left in HBM). -/
theorem PhiD_eq (c : Dev nD) :
    (Pipeline.ΦD osem spec0 ∅ (V m) c : sProp 𝕄)
      = iprop((∃ d, owns (c : Thread nD τ) scM fullShare d) ∗ (∃ r, prngReg c r) ∗ sems0 c ∗ emp) := by
  rw [Pipeline.ΦD_eq, scopedRest0_eq, ownSems_eq, bigSep_empty]; simp only [scM, owns_whole]; rfl

/-! ## The body at a point -/

section Points

variable (a : (pcfg0 (F := F)).Adm)

/-- Window 0's current staging memref at point t, spelled as the pipeline passes it, and its wholeness. -/
abbrev ms0 (t : Fin (cfg0 a).N) : Memref sig .tc .vmem S128x4096 .f32 := spec0_0.stage ((cfg0 a).slots t 0)
abbrev hs0 (t : Fin (cfg0 a).N) : (ms0 a t).IsWhole := hstage0_0 (((cfg0 a).slots t 0).cast nbuf0_0)
/-- Window 1's current staging memref at point t, spelled as the pipeline passes it, and its wholeness. -/
abbrev ms1 (t : Fin (cfg0 a).N) : Memref sig .tc .vmem S128x2048 .f32 := spec0_1.stage ((cfg0 a).slots t 1)
abbrev hs1 (t : Fin (cfg0 a).N) : (ms1 a t).IsWhole := hstage0_1 (((cfg0 a).slots t 1).cast nbuf0_1)
/-- Window 2's current staging memref at point t, spelled as the pipeline passes it, and its wholeness. -/
abbrev ms2 (t : Fin (cfg0 a).N) : Memref sig .tc .vmem S128x2048 .f32 := spec0_2.stage ((cfg0 a).slots t 2)
abbrev hs2 (t : Fin (cfg0 a).N) : (ms2 a t).IsWhole := hstage0_2 (((cfg0 a).slots t 2).cast nbuf0_2)
/-- Window 3's current staging memref at point t, spelled as the pipeline passes it, and its wholeness. -/
abbrev ms3 (t : Fin (cfg0 a).N) : Memref sig .tc .vmem S8192 .f32 := spec0_3.stage ((cfg0 a).slots t 3)
abbrev hs3 (t : Fin (cfg0 a).N) : (ms3 a t).IsWhole := hstage0_3 (((cfg0 a).slots t 3).cast nbuf0_3)
/-- Window 4's current staging memref at point t, spelled as the pipeline passes it, and its wholeness. -/
abbrev ms4 (t : Fin (cfg0 a).N) : Memref sig .tc .vmem S4096 .f32 := spec0_4.stage ((cfg0 a).slots t 4)
abbrev hs4 (t : Fin (cfg0 a).N) : (ms4 a t).IsWhole := hstage0_4 (((cfg0 a).slots t 4).cast nbuf0_4)
/-- Window 5's current staging memref at point t, spelled as the pipeline passes it, and its wholeness. -/
abbrev ms5 (t : Fin (cfg0 a).N) : Memref sig .tc .vmem S128x4096 .f32 := spec0_5.stage ((cfg0 a).slots t 5)
abbrev hs5 (t : Fin (cfg0 a).N) : (ms5 a t).IsWhole := hstage0_5 (((cfg0 a).slots t 5).cast nbuf0_5)
/-- Window 6's current staging memref at point t, spelled as the pipeline passes it, and its wholeness. -/
abbrev ms6 (t : Fin (cfg0 a).N) : Memref sig .tc .vmem S128x1 .f32 := spec0_6.stage ((cfg0 a).slots t 6)
abbrev hs6 (t : Fin (cfg0 a).N) : (ms6 a t).IsWhole := hstage0_6 (((cfg0 a).slots t 6).cast nbuf0_6)

/-- The kernel body at point t, on what the pipeline calls it with: the table, the seven current staging memrefs, the
    scratch and the 128 cells. -/
abbrev bodyAt (t : Fin (cfg0 a).N) : Prog (TpuEff nD τ sig (Elt F) Λ₀ .tc) PUnit :=
  cc0__kernel (grid0.coords t) (Memref.whole main_arg2) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    (spec0_4.stage ((cfg0 a).slots t 4)) (hstage0_4 (((cfg0 a).slots t 4).cast nbuf0_4))
    (spec0_5.stage ((cfg0 a).slots t 5)) (hstage0_5 (((cfg0 a).slots t 5).cast nbuf0_5))
    (spec0_6.stage ((cfg0 a).slots t 6)) (hstage0_6 (((cfg0 a).slots t 6).cast nbuf0_6))
    (Memref.whole cc0_scratch0) (Memref.isWhole_whole _) cc0_scratch1

end Points

/-! ## The windows' blocks -/

/-- Window w's block at point t, read off its array as the region finds it. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

/-- Input window 0's current staging buffer holds its block at every point, fetched there or not, for any proof data
    whose array is the region-entry contents and whose body leaves the block in place: unfetched, the block index has
    not moved. -/
theorem before0_of {c : Dev nD} (dat : Dat τ (Elt F) Unit ℕ (Pipeline.UD sig nD τ) ℕ (cfgM m) c)
    (hA : dat.A 0 = V m c (Pipeline.arrRef spec0 0)) (hafter : ∀ t, dat.after 0 t = iblk m c 0 t) (t : Fin (cfgM m).N) (d) :
    dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the region-entry contents and whose body leaves the block in place: unfetched, the block index has
    not moved. -/
theorem before1_of {c : Dev nD} (dat : Dat τ (Elt F) Unit ℕ (Pipeline.UD sig nD τ) ℕ (cfgM m) c)
    (hA : dat.A 1 = V m c (Pipeline.arrRef spec0 1)) (hafter : ∀ t, dat.after 1 t = iblk m c 1 t) (t : Fin (cfgM m).N) (d) :
    dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the region-entry contents and whose body leaves the block in place: unfetched, the block index has
    not moved. -/
theorem before2_of {c : Dev nD} (dat : Dat τ (Elt F) Unit ℕ (Pipeline.UD sig nD τ) ℕ (cfgM m) c)
    (hA : dat.A 2 = V m c (Pipeline.arrRef spec0 2)) (hafter : ∀ t, dat.after 2 t = iblk m c 2 t) (t : Fin (cfgM m).N) (d) :
    dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is the region-entry contents and whose body leaves the block in place: unfetched, the block index has
    not moved. -/
theorem before3_of {c : Dev nD} (dat : Dat τ (Elt F) Unit ℕ (Pipeline.UD sig nD τ) ℕ (cfgM m) c)
    (hA : dat.A 3 = V m c (Pipeline.arrRef spec0 3)) (hafter : ∀ t, dat.after 3 t = iblk m c 3 t) (t : Fin (cfgM m).N) (d) :
    dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof data
    whose array is the region-entry contents and whose body leaves the block in place: unfetched, the block index has
    not moved. -/
theorem before4_of {c : Dev nD} (dat : Dat τ (Elt F) Unit ℕ (Pipeline.UD sig nD τ) ℕ (cfgM m) c)
    (hA : dat.A 4 = V m c (Pipeline.arrRef spec0 4)) (hafter : ∀ t, dat.after 4 t = iblk m c 4 t) (t : Fin (cfgM m).N) (d) :
    dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the two result buffers -/

/-- What the body leaves in the window block's staging buffer at point t: row r is the window of 4096 columns of row r
    of the compared scratch that starts at the shift of row 128 t + r; a closed function of the table and of the point's
    blocks of the uniforms, of its two mirrored strips and of the padded probabilities. -/
def outMasks (hs : ∀ (c : Dev nD) (k : S8192.Idx), (m ((c.tc : Thread nD τ).loc main_arg2) k).toNat ≤ 4096) (c : Dev nD) (t : Fin (cfgM m).N) : Vec F S128x4096 .f32 :=
  KBlocks.maskBlock (grid0.coords t) (shifts m c) (iblk m c 0 t) (iblk m c 1 t) (iblk m c 2 t) (iblk m c 3 t)

/-- What the body leaves in the log-probabilities' staging buffer at point t: a closed function of the same blocks and
    of the logits. -/
def outLp (hs : ∀ (c : Dev nD) (k : S8192.Idx), (m ((c.tc : Thread nD τ).loc main_arg2) k).toNat ≤ 4096) (c : Dev nD) (t : Fin (cfgM m).N) : Vec F S128x1 .f32 :=
  KBlocks.lpBlock (iblk m c 0 t) (iblk m c 1 t) (iblk m c 2 t) (iblk m c 3 t) (iblk m c 4 t)

/-! ## The pipeline's proof data -/

/-- The proof data of the pipeline on core c: the arrays as the region finds them; after the body at point t each
    input's buffer at its block and the two results' at what the run leaves; the invariant (the scratch, the register,
    the 128 cells at zero, and the table's half); nothing owed; full shares. -/
def dats (hs : ∀ (c : Dev nD) (k : S8192.Idx), (m ((c.tc : Thread nD τ).loc main_arg2) k).toNat ≤ 4096) (_ : Fin 1) (c : Dev nD) :
    Dat τ (Elt F) Unit ℕ (Pipeline.UD sig nD τ) ℕ (Pipeline.pin pcfgs (adm m) 0) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outMasks m hs c t
    | ⟨6, _⟩ => outLp m hs c t
  Φ _ := iprop(Pipeline.ΦD osem spec0 ∅ (V m) c ∗ Pipeline.ΦT pre0 (adm m 0).1 c)
  q _ := fullShare
  owed _ := 0

/-- The proof data's arrays are the region-entry contents. -/
theorem A_eq (hs : ∀ (c : Dev nD) (k : S8192.Idx), (m ((c.tc : Thread nD τ).loc main_arg2) k).toNat ≤ 4096) (c : Dev nD) (w : Fin (cfgM m).W) : (dats m hs 0 c).A w = V m c (Pipeline.arrRef spec0 w) := by
  dsimp only [dats]

/-- What the body leaves, window by window. -/
theorem after0 (hs : ∀ (c : Dev nD) (k : S8192.Idx), (m ((c.tc : Thread nD τ).loc main_arg2) k).toNat ≤ 4096) (c : Dev nD) (t : Fin (cfgM m).N) : (dats m hs 0 c).after 0 t = iblk m c 0 t := by dsimp only [dats]; try rfl
theorem after1 (hs : ∀ (c : Dev nD) (k : S8192.Idx), (m ((c.tc : Thread nD τ).loc main_arg2) k).toNat ≤ 4096) (c : Dev nD) (t : Fin (cfgM m).N) : (dats m hs 0 c).after 1 t = iblk m c 1 t := by dsimp only [dats]; try rfl
theorem after2 (hs : ∀ (c : Dev nD) (k : S8192.Idx), (m ((c.tc : Thread nD τ).loc main_arg2) k).toNat ≤ 4096) (c : Dev nD) (t : Fin (cfgM m).N) : (dats m hs 0 c).after 2 t = iblk m c 2 t := by dsimp only [dats]; try rfl
theorem after3 (hs : ∀ (c : Dev nD) (k : S8192.Idx), (m ((c.tc : Thread nD τ).loc main_arg2) k).toNat ≤ 4096) (c : Dev nD) (t : Fin (cfgM m).N) : (dats m hs 0 c).after 3 t = iblk m c 3 t := by dsimp only [dats]; try rfl
theorem after4 (hs : ∀ (c : Dev nD) (k : S8192.Idx), (m ((c.tc : Thread nD τ).loc main_arg2) k).toNat ≤ 4096) (c : Dev nD) (t : Fin (cfgM m).N) : (dats m hs 0 c).after 4 t = iblk m c 4 t := by dsimp only [dats]; try rfl
theorem after5 (hs : ∀ (c : Dev nD) (k : S8192.Idx), (m ((c.tc : Thread nD τ).loc main_arg2) k).toNat ≤ 4096) (c : Dev nD) (t : Fin (cfgM m).N) : (dats m hs 0 c).after 5 t = outMasks m hs c t := by dsimp only [dats]; try rfl
theorem after6 (hs : ∀ (c : Dev nD) (k : S8192.Idx), (m ((c.tc : Thread nD τ).loc main_arg2) k).toNat ≤ 4096) (c : Dev nD) (t : Fin (cfgM m).N) : (dats m hs 0 c).after 6 t = outLp m hs c t := by dsimp only [dats]; try rfl

/-- Each input's current staging buffer holds its block at every point. -/
theorem before0 (hs : ∀ (c : Dev nD) (k : S8192.Idx), (m ((c.tc : Thread nD τ).loc main_arg2) k).toNat ≤ 4096) (c : Dev nD) (t : Fin (cfgM m).N) (d) : (dats m hs 0 c).before 0 t d = iblk m c 0 t :=
  before0_of m (dats m hs 0 c) (A_eq m hs c 0) (after0 m hs c) t d
theorem before1 (hs : ∀ (c : Dev nD) (k : S8192.Idx), (m ((c.tc : Thread nD τ).loc main_arg2) k).toNat ≤ 4096) (c : Dev nD) (t : Fin (cfgM m).N) (d) : (dats m hs 0 c).before 1 t d = iblk m c 1 t :=
  before1_of m (dats m hs 0 c) (A_eq m hs c 1) (after1 m hs c) t d
theorem before2 (hs : ∀ (c : Dev nD) (k : S8192.Idx), (m ((c.tc : Thread nD τ).loc main_arg2) k).toNat ≤ 4096) (c : Dev nD) (t : Fin (cfgM m).N) (d) : (dats m hs 0 c).before 2 t d = iblk m c 2 t :=
  before2_of m (dats m hs 0 c) (A_eq m hs c 2) (after2 m hs c) t d
theorem before3 (hs : ∀ (c : Dev nD) (k : S8192.Idx), (m ((c.tc : Thread nD τ).loc main_arg2) k).toNat ≤ 4096) (c : Dev nD) (t : Fin (cfgM m).N) (d) : (dats m hs 0 c).before 3 t d = iblk m c 3 t :=
  before3_of m (dats m hs 0 c) (A_eq m hs c 3) (after3 m hs c) t d
theorem before4 (hs : ∀ (c : Dev nD) (k : S8192.Idx), (m ((c.tc : Thread nD τ).loc main_arg2) k).toNat ≤ 4096) (c : Dev nD) (t : Fin (cfgM m).N) (d) : (dats m hs 0 c).before 4 t d = iblk m c 4 t :=
  before4_of m (dats m hs 0 c) (A_eq m hs c 4) (after4 m hs c) t d

/-! ## The body obligation, at a generic point -/

/-- What the body is called with at point t, the windows one by one, -/
def bodyPre (hs : ∀ (c : Dev nD) (k : S8192.Idx), (m ((c.tc : Thread nD τ).loc main_arg2) k).toNat ≤ 4096) (c : Dev nD) (t : Fin (cfgM m).N) : sProp 𝕄 :=
  iprop((dats m hs 0 c).Φ t.castSucc ∗ (dats m hs 0 c).owesAt () t.castSucc
    ∗ (∃ d, owns (c : Thread nD τ) (ms0 (adm m 0) t) fullShare ((dats m hs 0 c).before 0 t d))
    ∗ (∃ d, owns (c : Thread nD τ) (ms1 (adm m 0) t) fullShare ((dats m hs 0 c).before 1 t d))
    ∗ (∃ d, owns (c : Thread nD τ) (ms2 (adm m 0) t) fullShare ((dats m hs 0 c).before 2 t d))
    ∗ (∃ d, owns (c : Thread nD τ) (ms3 (adm m 0) t) fullShare ((dats m hs 0 c).before 3 t d))
    ∗ (∃ d, owns (c : Thread nD τ) (ms4 (adm m 0) t) fullShare ((dats m hs 0 c).before 4 t d))
    ∗ (∃ d, owns (c : Thread nD τ) (ms5 (adm m 0) t) fullShare ((dats m hs 0 c).before 5 t d))
    ∗ (∃ d, owns (c : Thread nD τ) (ms6 (adm m 0) t) fullShare ((dats m hs 0 c).before 6 t d)))

/-- and what it returns. -/
def bodyPost (hs : ∀ (c : Dev nD) (k : S8192.Idx), (m ((c.tc : Thread nD τ).loc main_arg2) k).toNat ≤ 4096) (c : Dev nD) (t : Fin (cfgM m).N) : sProp 𝕄 :=
  iprop((dats m hs 0 c).Φ t.succ ∗ (dats m hs 0 c).owesAt () t.succ
    ∗ owns (c : Thread nD τ) (ms0 (adm m 0) t) fullShare ((dats m hs 0 c).after 0 t)
    ∗ owns (c : Thread nD τ) (ms1 (adm m 0) t) fullShare ((dats m hs 0 c).after 1 t)
    ∗ owns (c : Thread nD τ) (ms2 (adm m 0) t) fullShare ((dats m hs 0 c).after 2 t)
    ∗ owns (c : Thread nD τ) (ms3 (adm m 0) t) fullShare ((dats m hs 0 c).after 3 t)
    ∗ owns (c : Thread nD τ) (ms4 (adm m 0) t) fullShare ((dats m hs 0 c).after 4 t)
    ∗ owns (c : Thread nD τ) (ms5 (adm m 0) t) fullShare ((dats m hs 0 c).after 5 t)
    ∗ owns (c : Thread nD τ) (ms6 (adm m 0) t) fullShare ((dats m hs 0 c).after 6 t))

/-- The body at any point: the inputs' memrefs hold their blocks, so the run applies; the invariant hands the run the
    scratch, the 128 cells at zero and the table's half, and takes them back as they were; the two result buffers come
    back at the closed forms; what the core owes goes in
    as recorded and comes back with this point's waits. -/
theorem sound_body (hs : ∀ (c : Dev nD) (k : S8192.Idx), (m ((c.tc : Thread nD τ).loc main_arg2) k).toNat ≤ 4096) (c : Dev nD) (t : Fin (cfgM m).N) :
    bodyPre m hs c t ⊢ wp frame (wpE (defs₀ (F := F)) Variants.none c none) Set.univ (bodyAt (adm m 0) t) (fun _ => bodyPost m hs c t) := by
  unfold bodyPre bodyPost bodyAt
  simp only [before0, before1, before2, before3, before4]
  rw [show (dats m hs 0 c).Φ t.succ = (dats m hs 0 c).Φ t.castSucc from rfl,
    after0, after1, after2, after3, after4, after5, after6]
  rw [show (dats m hs 0 c).Φ t.castSucc = iprop(Pipeline.ΦD osem spec0 ∅ (V m) c ∗ Pipeline.ΦT pre0 (adm m 0).1 c) from rfl,
    PhiD_eq, PhiT_eq]
  unfold Dat.owesAt Pipeline.owesWithin
  rw [show (dats m hs 0 c).owed t.castSucc = 0 from rfl, show (dats m hs 0 c).owed t.succ = 0 from rfl]
  unfold outMasks outLp
  iintro ⟨⟨⟨HS, Hg, Hq, -⟩, HT⟩, ⟨%W, -, HW⟩, ⟨%d0, H0⟩, ⟨%d1, H1⟩, ⟨%d2, H2⟩, ⟨%d3, H3⟩, ⟨%d4, H4⟩, ⟨%d5, H5⟩, ⟨%d6, H6⟩⟩
  iapply (kernelRun c (grid0.coords t) tbM htbM (ms0 (adm m 0) t) (hs0 (adm m 0) t) (ms1 (adm m 0) t) (hs1 (adm m 0) t)
    (ms2 (adm m 0) t) (hs2 (adm m 0) t) (ms3 (adm m 0) t) (hs3 (adm m 0) t) (ms4 (adm m 0) t) (hs4 (adm m 0) t)
    (ms5 (adm m 0) t) (hs5 (adm m 0) t) (ms6 (adm m 0) t) (hs6 (adm m 0) t) scM hscM fullShare.right
    (shifts m c) (shifts_le m hs c) (iblk m c 0 t) (iblk m c 1 t) (iblk m c 2 t) (iblk m c 3 t) (iblk m c 4 t) W _)
  isplitl [HT]; · iexact HT
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS]; · iexact HS
  isplitl [HW]; · iexact HW
  isplitl [Hq]; · iexact Hq
  iintro ⟨HT, H0, H1, H2, H3, H4, H5, H6, ⟨%W', HW'⟩, HS, Hq⟩
  isplitl [HS Hg Hq HT]
  · isplitr [HT]
    · isplitl [HS]; · iexact HS
      isplitl [Hg]; · iexact Hg
      isplitl [Hq]; · iexact Hq
      iempintro
    · iexact HT
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  iexact H6

set_option maxRecDepth 1000000 in
/-- The body's obligation at every point of the grid, the seven windows conjoined one by one. -/
theorem body_obligation (hs : ∀ (c : Dev nD) (k : S8192.Idx), (m ((c.tc : Thread nD τ).loc main_arg2) k).toNat ≤ 4096) (c : Dev nD) :
    BodyObligation (dats (F := F) m hs 0 c) (defs₀ (F := F)) Variants.none () Set.univ := fun t => by
  rw [bigSep_W0, bigSep_W0]
  exact sound_body m hs c t

/-! ## The two lines after the region -/

/-- They touch the pipeline's arrays and the bypassing buffers only: never the table. -/
theorem sfx_sub : ∀ ops ∈ ([hostOps1] : List (List (HloOp τ sig (Elt F)))), ∀ op ∈ ops,
    op.bufs ⊆ Pipeline.tailRefsBut sig pre0 spec0 ∅ := by
  intro ops hops op hop
  simp only [List.mem_cons, List.mem_nil_iff, _root_.or_false] at hops
  rcases hops with rfl
  refine Pipeline.sub_tailRefsBut pre0 spec0 ∅ op ((List.forall_iff_forall_mem.mp hostOps1_sub) op hop) (fun k => ?_)
    (fun b hb => absurd hb (Finset.notMem_empty b))
  obtain rfl : k = 0 := Subsingleton.elim _ _
  simp only [hostOps1, List.mem_cons, List.mem_nil_iff, _root_.or_false] at hop
  rcases hop with rfl | rfl
  · rw [StableHlo.unary_bufs]; simp only [Finset.mem_insert, Finset.mem_singleton, not_or]
    exact ⟨StableHlo.devRef_ne_of_ne (by decide), StableHlo.devRef_ne_of_ne (by decide)⟩
  · rw [StableHlo.reshape_bufs]; simp only [Finset.mem_insert, Finset.mem_singleton, not_or]
    exact ⟨StableHlo.devRef_ne_of_ne (by decide), StableHlo.devRef_ne_of_ne (by decide)⟩
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, _root_.or_false] at hops
  rcases hops with rfl
  exact (List.forall_iff_forall_mem.mp hostOps1_fresh) op hop
/-- And write no array of the pipeline: each writes its own result buffer only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, _root_.or_false] at hops
  rcases hops with rfl
  simp only [hostOps1, List.mem_cons, List.mem_nil_iff, _root_.or_false] at hop
  rcases hop with rfl | rfl
  all_goals intro w; fin_cases w <;> simp only [StableHlo.unary_writes, StableHlo.reshape_writes, Finset.mem_singleton] <;> exact StableHlo.devRef_ne_of_ne (by decide)

/-! ## The run and the frame -/

set_option backward.isDefEq.respectTransparency.types false in
/-- From any memory with zero counters in which every shift is at most 4096: every weakly fair execution of the program
    terminates, and every final state has every array of the pipeline at its entry contents overwritten block by block by
    what the proof data say the body left, and every other unscoped buffer at what the two later lines make of the region's exit contents. -/
theorem run_main (hs : ∀ (c : Dev nD) (k : S8192.Idx), (m ((c.tc : Thread nD τ).loc main_arg2) k).toNat ≤ 4096) : θ_run defs (onTc (τ := τ) (main (F := F))) (s₀ m ρ)
    (Pipeline.FramePost (Pipeline.pin pcfgs (adm m)) (dats m hs) 0 (Pipeline.afterTail pcfgs (adm m) (dats m hs) 0 (V₀ m) [hostOps1])) :=
  Pipeline.θ_run_frameP_dma_around pcfgs (adm m) (dats m hs) (0 : Fin 1) launch0 osem defs₀ Variants.none ownSemFacts ∅
    (Finset.empty_subset _) m ρ main
    (hbody := fun c => (body_obligation m hs c).loose) (hshare := fun c => (dats m hs 0 c).share_full fun _ => rfl)
    (howed := fun _ _ => rfl) (V₀ := V₀ m) (opss := [hostOps1]) (hsub := sfx_sub) (hfresh := sfx_fresh) (hkeep := sfx_keeps)
    (hmain := hmain m Variants.none) (hA := A_eq m hs) (hpf := V_pre m)
    (hin := fun _ => .rfl)
    (hout := fun c => (show iprop(Pipeline.ΦD osem spec0 ∅ (V m) c ∗ Pipeline.ΦT pre0 (adm m 0).1 c) ⊢ Pipeline.ΦD osem spec0 ∅ (V m) c from by
      iintro ⟨H, -⟩; iexact H))

/-- The table and the program's two results are unscoped and no window's array: they bypass the region. -/
theorem arr_ne_arg2 : ∀ w : Fin 7, Pipeline.arrRef spec0 w ≠ main_arg2 := by decide
theorem arg2_rest : main_arg2 ∈ Pipeline.restRefs sig spec0 := Pipeline.mem_restRefs_of main_arg2 (by decide) (by decide)
theorem v12_rest : main_v12 ∈ Pipeline.restRefs sig spec0 := Pipeline.mem_restRefs_of main_v12 (by decide) (by decide)
theorem v13_rest : main_v13 ∈ Pipeline.restRefs sig spec0 := Pipeline.mem_restRefs_of main_v13 (by decide) (by decide)

/-- Neither later line writes the table, and the table is no window's array: after them it holds its region-entry contents. -/
theorem afterTail_arg2 (hs : ∀ (c : Dev nD) (k : S8192.Idx), (m ((c.tc : Thread nD τ).loc main_arg2) k).toNat ≤ 4096) (c : Dev nD) :
    Pipeline.afterTail pcfgs (adm m) (dats m hs) 0 (V₀ m) [hostOps1] c main_arg2 = V m c main_arg2 := by
  unfold Pipeline.afterTail
  rw [StableHlo.after_of_forall_not_mem _ _ fun op hop => ?_, Pipeline.withArrays_of_ne _ c (V₀ m c) _ main_arg2 arr_ne_arg2]
  simp only [List.flatten_cons, List.flatten_nil, List.append_nil, hostOps1, List.mem_cons, List.mem_nil_iff, _root_.or_false] at hop
  rcases hop with rfl | rfl <;>
    simp only [StableHlo.unary_writes, StableHlo.reshape_writes, Finset.mem_singleton] <;>
    exact StableHlo.devRef_ne_of_ne (by decide)

/-- The program runs and its three arguments end unchanged: the logits and the uniforms are arrays of input windows,
    which the region never writes; the table bypasses the region's write-backs and no host line writes any of the three. -/
theorem frame (hs : ∀ (c : Dev nD) (k : S8192.Idx), (m ((c.tc : Thread nD τ).loc main_arg2) k).toNat ≤ 4096) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 4).trans (((dats m hs 0 c).arrAt_in 4 rfl _).trans ((A_eq m hs c 4).trans (V_main_arg0 m c))),
      ((h c).1 0).trans (((dats m hs 0 c).arrAt_in 0 rfl _).trans ((A_eq m hs c 0).trans (V_main_arg1 m c))),
      ((h c).2 main_arg2 arg2_rest).trans
        ((afterTail_arg2 m hs c).trans (V_main_arg2 m c))⟩) (run_main m ρ hs)

/-! ## The results -/

/-- What the region leaves in its two result arrays on core c: each array overwritten, block by block in
    point order, by what the body left in the staging buffer at each point. -/
abbrev resMasks (hs : ∀ (c : Dev nD) (k : S8192.Idx), (m ((c.tc : Thread nD τ).loc main_arg2) k).toNat ≤ 4096) (c : Dev nD) : Vec F S8192x4096 .f32 := (dats m hs 0 c).arrAt 5 (cfgM m).N
abbrev resLp (hs : ∀ (c : Dev nD) (k : S8192.Idx), (m ((c.tc : Thread nD τ).loc main_arg2) k).toNat ≤ 4096) (c : Dev nD) : Vec F S8192x1 .f32 := (dats m hs 0 c).arrAt 6 (cfgM m).N

/-- The first later line inserts a unit axis into the window blocks' array. -/
theorem afterTail_v12 (hs : ∀ (c : Dev nD) (k : S8192.Idx), (m ((c.tc : Thread nD τ).loc main_arg2) k).toNat ≤ 4096) (c : Dev nD) :
    Pipeline.afterTail pcfgs (adm m) (dats m hs) 0 (V₀ m) [hostOps1] c main_v12
      = broadcastInDim S8192x1x4096 ![0, 2] bcast_S8192x4096_S8192x1x4096_0_2 (resMasks m hs c) := by
  unfold Pipeline.afterTail
  show StableHlo.after hostOps1 _ (Proc.devRef .tc main_v12) = _
  after_results
  exact congrArg _ (Pipeline.withArrays_arr (Pipeline.pin pcfgs (adm m) 0).spec (launch0 (F := F)).win.arr_inj c _ _ 5)

/-- The second reads the log-probabilities' array as a vector. -/
theorem afterTail_v13 (hs : ∀ (c : Dev nD) (k : S8192.Idx), (m ((c.tc : Thread nD τ).loc main_arg2) k).toNat ≤ 4096) (c : Dev nD) :
    Pipeline.afterTail pcfgs (adm m) (dats m hs) 0 (V₀ m) [hostOps1] c main_v13
      = (fun i => shapeCast S8192 (resLp m hs c) shapeCasts_S8192x1_S8192 i) := by
  unfold Pipeline.afterTail
  show StableHlo.after hostOps1 _ (Proc.devRef .tc main_v13) = _
  after_results
  funext i
  exact congrArg (fun X : Vec F S8192x1 .f32 => shapeCast S8192 X shapeCasts_S8192x1_S8192 i)
    (Pipeline.withArrays_arr (Pipeline.pin pcfgs (adm m) 0).spec (launch0 (F := F)).win.arr_inj c _ _ 6)

/-- The program runs, its three arguments end unchanged, and its two results are the two later lines applied to what
    the region leaves in its result arrays: the window blocks with a unit axis inserted, the log-probabilities as a vector. -/
theorem run_results (hs : ∀ (c : Dev nD) (k : S8192.Idx), (m ((c.tc : Thread nD τ).loc main_arg2) k).toNat ≤ 4096) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v12)
          = broadcastInDim S8192x1x4096 ![0, 2] bcast_S8192x4096_S8192x1x4096_0_2 (resMasks m hs c)
      ∧ r.2.mem ((c.tc : Thread nD τ).loc main_v13)
          = (fun i => shapeCast S8192 (resLp m hs c) shapeCasts_S8192x1_S8192 i)) :=
  (θ_run defs _ _).mono (fun _ h c =>
    ⟨((h c).1 4).trans (((dats m hs 0 c).arrAt_in 4 rfl _).trans ((A_eq m hs c 4).trans (V_main_arg0 m c))),
      ((h c).1 0).trans (((dats m hs 0 c).arrAt_in 0 rfl _).trans ((A_eq m hs c 0).trans (V_main_arg1 m c))),
      ((h c).2 main_arg2 arg2_rest).trans
        ((afterTail_arg2 m hs c).trans (V_main_arg2 m c)),
      ((h c).2 main_v12 v12_rest).trans (afterTail_v12 m hs c),
      ((h c).2 main_v13 v13_rest).trans (afterTail_v13 m hs c)⟩) (run_main m ρ hs)

/-! ## The computed window arrays, as terms of the arguments -/

/-- The padded probabilities the region finds are the reflect-padding of the probabilities of the launch logits. -/
theorem V_main_v6 (c : Dev nD) : V m c main_v6 = KHost.kppad (m ((c.tc : Thread nD τ).loc main_arg0)) := by
  dsimp only [V, V₀]
  simp only [hostOps0, hostOps0_1, hostOps0_2, List.flatten_cons, List.flatten_nil, List.append_nil, List.cons_append, List.nil_append]
  after_results
  unfold KHost.kppad KHost.kpadFull KHost.kpadLeft KHost.kpvec
  rfl
/-- The left strip the region finds is columns 1 to 2048 of the launch uniforms, reversed. -/
theorem V_main_v8 (c : Dev nD) : V m c main_v8 = KHost.kleft (m ((c.tc : Thread nD τ).loc main_arg1)) := by
  dsimp only [V, V₀]
  simp only [hostOps0, hostOps0_1, hostOps0_2, List.flatten_cons, List.flatten_nil, List.append_nil, List.cons_append, List.nil_append]
  after_results
  unfold KHost.kleft
  rfl
/-- The right strip the region finds is columns 2047 to 4094 of the launch uniforms, reversed. -/
theorem V_main_v10 (c : Dev nD) : V m c main_v10 = KHost.kright (m ((c.tc : Thread nD τ).loc main_arg1)) := by
  dsimp only [V, V₀]
  simp only [hostOps0, hostOps0_1, hostOps0_2, List.flatten_cons, List.flatten_nil, List.append_nil, List.cons_append, List.nil_append]
  after_results
  unfold KHost.kright
  rfl

/-! ## The two later lines, read at an index -/

open Idealize.ShloMosaic.ValueIdx in
/-- The unit axis inserted: entry (R, 0, j) of the first result is entry (R, j) of the window blocks' array. -/
theorem resV12_apply (X : Vec F S8192x4096 .f32) (R : Fin 8192) (j : Fin 4096) :
    (broadcastInDim S8192x1x4096 ![0, 2] bcast_S8192x4096_S8192x1x4096_0_2 X) (ix3 R (0 : Fin 1) j) = X (ix2 R j) := by
  refine broadcastInDim_apply (![0, 2] : Fin 2 → Fin 3) bcast_S8192x4096_S8192x1x4096_0_2 X (ix3 R (0 : Fin 1) j) (ix2 R j) (fun a => ?_)
  match a with
  | ⟨0, _⟩ => rfl
  | ⟨1, _⟩ => rfl

open Idealize.ShloMosaic.ValueIdx in
/-- The unit axis dropped: entry R of the second result is entry (R, 0) of the log-probabilities' array. -/
theorem resV13_apply (Y : Vec F S8192x1 .f32) (R : Fin 8192) :
    (fun i => shapeCast S8192 Y shapeCasts_S8192x1_S8192 i) (ix1 R) = Y (ix2 R (0 : Fin 1)) := by
  refine shapeCast_apply Y shapeCasts_S8192x1_S8192 (ix1 R) (ix2 R (0 : Fin 1)) ?_
  rw [Shape.rowMajor_val_two, Shape.rowMajor_val_one]
  show R.val * 1 + 0 = R.val
  omega

/-! ## From the blocks to the arrays -/

section Blocks

open Idealize.ShloMosaic.ValueIdx

/-- The block index of each result window at point t is (t, 0): row block t, the one column block. -/
theorem tr5_eq : ∀ t : Fin grid0.N, cc0_transform_5 (grid0.coords t) = ![t.val, 0] := by decide +kernel
theorem tr6_eq : ∀ t : Fin grid0.N, cc0_transform_6 (grid0.coords t) = ![t.val, 0] := by decide +kernel
theorem index5 (a : (pcfg0 (F := F)).Adm) (t : Fin (cfg0 a).N) : ((cfg0 a).win 5).index t = ![t.val, 0] := tr5_eq t
theorem index6 (a : (pcfg0 (F := F)).Adm) (t : Fin (cfg0 a).N) : ((cfg0 a).win 6).index t = ![t.val, 0] := tr6_eq t
/-- Both result windows are written back at every point. -/
theorem flush5 (a : (pcfg0 (F := F)).Adm) : ∀ t : Fin (cfg0 a).N, ((cfg0 a).win 5).flush t = true :=
  (by decide +kernel : ∀ t : Fin grid0.N, Pipeline.Window.flushOf grid0 true cc0_transform_5 t = true)
theorem flush6 (a : (pcfg0 (F := F)).Adm) : ∀ t : Fin (cfg0 a).N, ((cfg0 a).win 6).flush t = true :=
  (by decide +kernel : ∀ t : Fin grid0.N, Pipeline.Window.flushOf grid0 true cc0_transform_6 t = true)

/-- Row R of the arrays lies in the row block of point R / 128, at row R % 128 of the block. -/
abbrev ptOf (R : Fin 8192) : Fin (cfgM m).N :=
  ⟨R.val / 128, by have h : (cfgM m).N = 64 := N_0; have := R.isLt; omega⟩
abbrev rowOf (R : Fin 8192) : Fin 128 := ⟨R.val % 128, Nat.mod_lt _ (by decide)⟩

/-- Row t * 128 + y is in the block of point t, at row y. -/
theorem ptOf_block (t : Fin (cfgM m).N) (y : Fin 128) (h : t.val * 128 + y.val < 8192) : ptOf m ⟨t.val * 128 + y.val, h⟩ = t :=
  Fin.ext (by show (t.val * 128 + y.val) / 128 = t.val; have := y.isLt; omega)
theorem rowOf_block (t : ℕ) (y : Fin 128) (h : t * 128 + y.val < 8192) : rowOf ⟨t * 128 + y.val, h⟩ = y :=
  Fin.ext (by show (t * 128 + y.val) % 128 = y.val; have := y.isLt; omega)

/-- The window blocks' array as ONE function of the index: entry (R, j) is what point R / 128 left at (R % 128, j). -/
def masksOf (hs : ∀ (c : Dev nD) (k : S8192.Idx), (m ((c.tc : Thread nD τ).loc main_arg2) k).toNat ≤ 4096) (c : Dev nD) : Vec F S8192x4096 .f32 :=
  fun i => outMasks m hs c (ptOf m (i 0)) (ix2 (rowOf (i 0)) (i 1))
/-- The log-probabilities' array likewise. -/
def lpOf (hs : ∀ (c : Dev nD) (k : S8192.Idx), (m ((c.tc : Thread nD τ).loc main_arg2) k).toNat ≤ 4096) (c : Dev nD) : Vec F S8192x1 .f32 :=
  fun i => outLp m hs c (ptOf m (i 0)) (ix2 (rowOf (i 0)) (i 1))

end Blocks

section Arrays

open Idealize.ShloMosaic.ValueIdx

/-- Element (p, q) of point t's block of window 5 sits in the array at row t * 128 + p, column q. -/
theorem emb5 (a : (pcfg0 (F := F)).Adm) (t : Fin (cfg0 a).N) (p : Fin 128) (q : Fin 4096) (h : t.val * 128 + p.val < 8192) :
    (((cfg0 a).win 5).blk t).view.emb (ix2 p q) = ix2 (⟨t.val * 128 + p.val, h⟩ : Fin 8192) q := by
  funext d; apply Fin.ext
  match d with
  | ⟨0, _⟩ =>
    show ((cfg0 a).win 5).index t (0 : Fin 2) * 128 + 1 * p.val = t.val * 128 + p.val
    rw [index5]; show t.val * 128 + 1 * p.val = _; omega
  | ⟨1, _⟩ =>
    show ((cfg0 a).win 5).index t (1 : Fin 2) * 4096 + 1 * q.val = q.val
    rw [index5]; show 0 * 4096 + 1 * q.val = _; omega

/-- What point t writes back of window 5 is block t of that one function. -/
theorem flushed5_eq (hs : ∀ (c : Dev nD) (k : S8192.Idx), (m ((c.tc : Thread nD τ).loc main_arg2) k).toNat ≤ 4096) (c : Dev nD) (t : Fin (cfgM m).N) :
    (dats m hs 0 c).flushed 5 t = (((cfgM m).win 5).blk t).view.read (Elt F) (masksOf m hs c) := by
  show ((cfgM m).win 5).cut ((cfgM m).grid.coords t) ((dats m hs 0 c).after 5 t) = _
  rw [after5]
  refine funext fun (y : S128x4096.Idx) => ?_
  obtain ⟨p, q, rfl⟩ : ∃ (p : Fin 128) (q : Fin 4096), y = ix2 p q := ⟨y 0, y 1, eq_ix2 y⟩
  have h : t.val * 128 + p.val < 8192 := by have h : (cfgM m).N = 64 := N_0; have := t.isLt; have := p.isLt; omega
  show outMasks m hs c t (ix2 p q) = masksOf m hs c ((((cfgM m).win 5).blk t).view.emb (ix2 p q))
  rw [emb5 (adm m 0) t p q h]
  show outMasks m hs c t (ix2 p q) = outMasks m hs c (ptOf m ⟨t.val * 128 + p.val, h⟩) (ix2 (rowOf ⟨t.val * 128 + p.val, h⟩) q)
  rw [ptOf_block, rowOf_block]

/-- Every index of the array is in the block of the point its row belongs to. -/
theorem cover5 (i : S8192x4096.Idx) :
    ∃ t : Fin (cfgM m).N, ((cfgM m).win 5).flush t = true ∧ i ∈ (((cfgM m).win 5).blk t).view.set := by
  obtain ⟨R, j, rfl⟩ : ∃ (R : Fin 8192) (j : Fin 4096), i = ix2 R j := ⟨i 0, i 1, eq_ix2 i⟩
  refine ⟨ptOf m R, flush5 (adm m 0) _, ?_⟩
  have h : (ptOf m R).val * 128 + (rowOf R).val < 8192 := by
    show R.val / 128 * 128 + R.val % 128 < 8192; have := R.isLt; omega
  have e := emb5 (adm m 0) (ptOf m R) (rowOf R) j h
  have hR : (⟨(ptOf m R).val * 128 + (rowOf R).val, h⟩ : Fin 8192) = R :=
    Fin.ext (by show R.val / 128 * 128 + R.val % 128 = R.val; omega)
  rw [hR] at e
  rw [← e]
  exact View.emb_mem_set _ _

/-- Element (p, q) of point t's block of window 6 sits in the array at row t * 128 + p, column q. -/
theorem emb6 (a : (pcfg0 (F := F)).Adm) (t : Fin (cfg0 a).N) (p : Fin 128) (q : Fin 1) (h : t.val * 128 + p.val < 8192) :
    (((cfg0 a).win 6).blk t).view.emb (ix2 p q) = ix2 (⟨t.val * 128 + p.val, h⟩ : Fin 8192) q := by
  funext d; apply Fin.ext
  match d with
  | ⟨0, _⟩ =>
    show ((cfg0 a).win 6).index t (0 : Fin 2) * 128 + 1 * p.val = t.val * 128 + p.val
    rw [index6]; show t.val * 128 + 1 * p.val = _; omega
  | ⟨1, _⟩ =>
    show ((cfg0 a).win 6).index t (1 : Fin 2) * 1 + 1 * q.val = q.val
    rw [index6]; show 0 * 1 + 1 * q.val = _; omega

/-- What point t writes back of window 6 is block t of that one function. -/
theorem flushed6_eq (hs : ∀ (c : Dev nD) (k : S8192.Idx), (m ((c.tc : Thread nD τ).loc main_arg2) k).toNat ≤ 4096) (c : Dev nD) (t : Fin (cfgM m).N) :
    (dats m hs 0 c).flushed 6 t = (((cfgM m).win 6).blk t).view.read (Elt F) (lpOf m hs c) := by
  show ((cfgM m).win 6).cut ((cfgM m).grid.coords t) ((dats m hs 0 c).after 6 t) = _
  rw [after6]
  refine funext fun (y : S128x1.Idx) => ?_
  obtain ⟨p, q, rfl⟩ : ∃ (p : Fin 128) (q : Fin 1), y = ix2 p q := ⟨y 0, y 1, eq_ix2 y⟩
  have h : t.val * 128 + p.val < 8192 := by have h : (cfgM m).N = 64 := N_0; have := t.isLt; have := p.isLt; omega
  show outLp m hs c t (ix2 p q) = lpOf m hs c ((((cfgM m).win 6).blk t).view.emb (ix2 p q))
  rw [emb6 (adm m 0) t p q h]
  show outLp m hs c t (ix2 p q) = outLp m hs c (ptOf m ⟨t.val * 128 + p.val, h⟩) (ix2 (rowOf ⟨t.val * 128 + p.val, h⟩) q)
  rw [ptOf_block, rowOf_block]

/-- Every index of the array is in the block of the point its row belongs to. -/
theorem cover6 (i : S8192x1.Idx) :
    ∃ t : Fin (cfgM m).N, ((cfgM m).win 6).flush t = true ∧ i ∈ (((cfgM m).win 6).blk t).view.set := by
  obtain ⟨R, j, rfl⟩ : ∃ (R : Fin 8192) (j : Fin 1), i = ix2 R j := ⟨i 0, i 1, eq_ix2 i⟩
  refine ⟨ptOf m R, flush6 (adm m 0) _, ?_⟩
  have h : (ptOf m R).val * 128 + (rowOf R).val < 8192 := by
    show R.val / 128 * 128 + R.val % 128 < 8192; have := R.isLt; omega
  have e := emb6 (adm m 0) (ptOf m R) (rowOf R) j h
  have hR : (⟨(ptOf m R).val * 128 + (rowOf R).val, h⟩ : Fin 8192) = R :=
    Fin.ext (by show R.val / 128 * 128 + R.val % 128 = R.val; omega)
  rw [hR] at e
  rw [← e]
  exact View.emb_mem_set _ _

/-- The window blocks' array after the run: entry (R, j) is what point R / 128 left at (R % 128, j) of its block. -/
theorem resMasks_eq (hs : ∀ (c : Dev nD) (k : S8192.Idx), (m ((c.tc : Thread nD τ).loc main_arg2) k).toNat ≤ 4096) (c : Dev nD) : resMasks m hs c = masksOf m hs c :=
  (dats m hs 0 c).arrAt_eq_of_cover 5 (masksOf m hs c) (fun t _ => flushed5_eq m hs c t) (cover5 m)
theorem resMasks_apply (hs : ∀ (c : Dev nD) (k : S8192.Idx), (m ((c.tc : Thread nD τ).loc main_arg2) k).toNat ≤ 4096) (c : Dev nD) (R : Fin 8192) (j : Fin 4096) :
    resMasks m hs c (ix2 R j) = outMasks m hs c (ptOf m R) (ix2 (rowOf R) j) := by
  rw [resMasks_eq]; rfl

/-- The log-probabilities' array after the run: entry (R, 0) is what point R / 128 left at (R % 128, 0) of its block. -/
theorem resLp_eq (hs : ∀ (c : Dev nD) (k : S8192.Idx), (m ((c.tc : Thread nD τ).loc main_arg2) k).toNat ≤ 4096) (c : Dev nD) : resLp m hs c = lpOf m hs c :=
  (dats m hs 0 c).arrAt_eq_of_cover 6 (lpOf m hs c) (fun t _ => flushed6_eq m hs c t) (cover6 m)
theorem resLp_apply (hs : ∀ (c : Dev nD) (k : S8192.Idx), (m ((c.tc : Thread nD τ).loc main_arg2) k).toNat ≤ 4096) (c : Dev nD) (R : Fin 8192) :
    resLp m hs c (ix2 R (0 : Fin 1)) = outLp m hs c (ptOf m R) (ix2 (rowOf R) (0 : Fin 1)) := by
  rw [resLp_eq]; rfl

end Arrays

end Cert.Kernel.KFrame

end
-- ==== Proof.KPay.lean ====
/-
  The kernel body's six stored values at the ideal values, read at explicit coordinates.

  Three are copies: a shape cast of a block onto its own shape changes nothing. The fourth is the Bernoulli draw: at
  (rr, k) it is 1 when the uniform there is below the probability of position k and 0 otherwise. The fifth is
  0 - (0 - x) = x. The sixth is the row's log-probability: the lane sum over the banks of 0 - softplus x, laid on every
  row, plus the row's lane sum of core * x, which together are the sum over the banks of -(softplus x) + core * x; the
  printed softplus guards with x ≠ x, which is false on the extended reals, and there z - 0 = z, 0 - y = -y.
-/
import proofs.«422330_j45105746542888_3_alg».proof.Proof.Gen.KernelIdeal.Skeleton
import proofs.«422330_j45105746542888_3_alg».proof.Proof.Spec
import Idealize.ShloMosaic.Lib.ValueIdx
import Idealize.ShloMosaic.Lib.Pipeline.Value
import Idealize.ShloMosaic.PureOps.Ideal.Laws

noncomputable section

namespace Cert.KernelIdeal.KPay

open Cert.KernelIdeal Cert.KernelIdeal.Gen Idealize.ShloMosaic Idealize.ShloMosaic.ValueIdx

/-! ## The three copies and the double negation -/

/-- A shape cast of a 128 × 2048 block onto its own shape, twice, changes nothing. -/
theorem pay1_eq (v : Vec Ideal S128x2048 .f32) : k0_pay1 (F := Ideal) v = v := by
  unfold k0_pay1
  exact (shapeCast_self _ _).trans (shapeCast_self _ _)

/-- A shape cast of a 128 × 4096 block onto its own shape changes nothing. -/
theorem pay2_eq (v : Vec Ideal S128x4096 .f32) : k0_pay2 (F := Ideal) v = v := by
  unfold k0_pay2
  exact shapeCast_self _ _

/-- A shape cast of a 128 × 2048 block onto its own shape, twice, changes nothing. -/
theorem pay3_eq (v : Vec Ideal S128x2048 .f32) : k0_pay3 (F := Ideal) v = v := by
  unfold k0_pay3
  exact (shapeCast_self _ _).trans (shapeCast_self _ _)

/-- 0 - (0 - x) = x on the extended reals. -/
theorem pay5_eq (x : Vec Ideal S4096 .f32) : k0_pay5 (F := Ideal) x = x := by
  funext i
  show Ideal.ofBits .f32 0x00000000#32 - (Ideal.ofBits .f32 0x00000000#32 - x i) = x i
  rw [Ideal.ofBits_zero_f32, zero_sub, zero_sub, neg_neg]

/-! ## A vector of 8192 (of 4096) laid along the rows of a block of 128 rows -/

/-- A vector of 8192 as a 1 × 8192 row, repeated over 128 rows, reads at (rr, k) the vector at k. -/
theorem rows8192_apply {α : Type} (h₁ : S8192.ShapeCasts S1x8192) (h₂ : S1x8192.Broadcasts S128x8192) (x : S8192.Idx → α)
    (rr : Fin 128) (k : Fin 8192) :
    broadcastTo S128x8192 (shapeCast S1x8192 x h₁) h₂ (ix2 rr k) = x (ix1 k) := by
  refine (broadcastTo_apply _ _ (ix2 rr k) (ix2 (0 : Fin 1) k) ?_).trans ?_
  · intro a
    match a with
    | ⟨0, _⟩ => rfl
    | ⟨1, _⟩ => rfl
  · refine shapeCast_apply _ _ _ (ix1 k) ?_
    rw [Shape.rowMajor_val_one, Shape.rowMajor_val_two]
    show k.val = 0 * 8192 + k.val
    omega

/-- A vector of 4096 as a 1 × 4096 row, repeated over 128 rows, reads at (rr, k) the vector at k. -/
theorem rows4096_apply {α : Type} (h₁ : S4096.ShapeCasts S1x4096) (h₂ : S1x4096.Broadcasts S128x4096) (x : S4096.Idx → α)
    (rr : Fin 128) (k : Fin 4096) :
    broadcastTo S128x4096 (shapeCast S1x4096 x h₁) h₂ (ix2 rr k) = x (ix1 k) := by
  refine (broadcastTo_apply _ _ (ix2 rr k) (ix2 (0 : Fin 1) k) ?_).trans ?_
  · intro a
    match a with
    | ⟨0, _⟩ => rfl
    | ⟨1, _⟩ => rfl
  · refine shapeCast_apply _ _ _ (ix1 k) ?_
    rw [Shape.rowMajor_val_one, Shape.rowMajor_val_two]
    show k.val = 0 * 4096 + k.val
    omega

/-! ## The Bernoulli draw -/

/-- The draw at (rr, k): 1 when the uniform is below the probability of position k, 0 otherwise. -/
theorem pay4_apply (p : Vec Ideal S8192 .f32) (s : Vec Ideal S128x8192 .f32) (rr : Fin 128) (k : Fin 8192) :
    k0_pay4 (F := Ideal) p s (ix2 rr k) = Cert.Spec.bern (s (ix2 rr k)) (p (ix1 k)) := by
  unfold k0_pay4
  simp only [shapeCast_self]
  show (((BitVec.setWidth 32 (Ideal.cmp .olt (s (ix2 rr k))
      (broadcastTo S128x8192 (shapeCast S1x8192 p _) _ (ix2 rr k)))).toInt : ℝ) : EReal) = _
  rw [rows8192_apply]
  unfold Ideal.cmp Cert.Spec.bern
  by_cases h : s (ix2 rr k) < p (ix1 k)
  · have e : (BitVec.setWidth 32 (BitVec.ofBool true)).toInt = 1 := by decide
    simp [h, e]
  · have e : (BitVec.setWidth 32 (BitVec.ofBool false)).toInt = 0 := by decide
    simp [h, e]

/-! ## Lane sums -/

/-- The lane sum of a vector of 4096 laid as a 1 × 4096 row, read back as a scalar, is the sum of its entries. -/
theorem sum4096_apply (h₁ : S4096.ShapeCasts S1x4096) (hR : S1x4096.Reduces [1] S1) (hφ : FKind.Formats .f32)
    (hacc : (0x00000000#32 : BitVec 32) = 0x00000000#32) (h₂ : S1.ShapeCasts S1x1)
    (h₃ : ∀ a, (![0, 0] : Fin 2 → Nat) a < S1x1.size a) (v : FVec Ideal S4096 .f32) :
    extractAt ![0, 0] (shapeCast S1x1 (multiReduction .add [1] S1 (shapeCast S1x4096 v h₁) 0x00000000#32 hR hφ hacc) h₂) h₃
      = ∑ k : Fin 4096, v (ix1 k) := by
  unfold extractAt
  refine (shapeCast_apply _ _ _ (ix1 (0 : Fin 1)) ?_).trans ?_
  · rw [Shape.rowMajor_val_one, Shape.rowMajor_val_two]
    rfl
  · refine (Ideal.multiReduction_add_single _ 0x00000000#32 hR hφ hacc (ix1 (0 : Fin 1))).trans ?_
    refine Finset.sum_congr rfl fun k _ => ?_
    refine shapeCast_apply _ _ _ (ix1 k) ?_
    rw [Shape.rowMajor_val_one, Shape.rowMajor_val_two]
    show k.val = 0 * 4096 + k.val
    omega

/-- The lane sums of a 128 × 4096 block, read as a 128 × 1 column at (rr, 0): the sum of row rr. -/
theorem sumRows_apply (hR : S128x4096.Reduces [1] S128) (hφ : FKind.Formats .f32)
    (hacc : (0x00000000#32 : BitVec 32) = 0x00000000#32) (h₂ : S128.ShapeCasts S128x1)
    (w : FVec Ideal S128x4096 .f32) (rr : Fin 128) :
    shapeCast S128x1 (multiReduction .add [1] S128 w 0x00000000#32 hR hφ hacc) h₂ (ix2 rr (0 : Fin 1))
      = ∑ k : Fin 4096, w (ix2 rr k) := by
  refine (shapeCast_apply _ _ _ (ix1 rr) ?_).trans ?_
  · rw [Shape.rowMajor_val_one, Shape.rowMajor_val_two]
    show rr.val = rr.val * 1 + 0
    omega
  · refine (Ideal.multiReduction_add_single w 0x00000000#32 hR hφ hacc (ix1 rr)).trans ?_
    refine Finset.sum_congr rfl fun k _ => congrArg w (funext fun a => Fin.ext ?_)
    match a with
    | ⟨0, _⟩ => rfl
    | ⟨1, _⟩ => rfl

/-! ## The log-probability of a row -/

/-- The printed softplus, negated, at bank j: nothing differs from itself on the extended reals, so the select takes
    max z 0 + log1p (exp (0 - |z - 0|)), where z - 0 = z and 0 - y = -y. -/
theorem negSoftplus_apply (z : FVec Ideal S4096 .f32) (j : Fin 4096) :
    subf (broadcast S4096 (FloatOps.ofBits (F := Ideal) .f32 0x00000000#32))
      (select
        (cmpf .one (subf z (broadcast S4096 (FloatOps.ofBits .f32 0x00000000#32)))
          (subf z (broadcast S4096 (FloatOps.ofBits .f32 0x00000000#32))))
        (addf z (broadcast S4096 (FloatOps.ofBits .f32 0x00000000#32)))
        (addf (maximumf z (broadcast S4096 (FloatOps.ofBits .f32 0x00000000#32)))
          (log1p (exp (subf (broadcast S4096 (FloatOps.ofBits .f32 0x00000000#32))
            (absf (subf z (broadcast S4096 (FloatOps.ofBits .f32 0x00000000#32))))))))) (ix1 j)
      = -(Cert.Spec.softplus (z (ix1 j))) := by
  show (Ideal.ofBits .f32 0x00000000#32
        - Scalar.select (Ideal.cmp .one (z (ix1 j) - Ideal.ofBits .f32 0x00000000#32) (z (ix1 j) - Ideal.ofBits .f32 0x00000000#32))
            (z (ix1 j) + Ideal.ofBits .f32 0x00000000#32)
            (max (z (ix1 j)) (Ideal.ofBits .f32 0x00000000#32)
              + Ideal.log1p (Ideal.exp (Ideal.ofBits .f32 0x00000000#32
                  - max (z (ix1 j) - Ideal.ofBits .f32 0x00000000#32) (-(z (ix1 j) - Ideal.ofBits .f32 0x00000000#32)))))) = _
  rw [Ideal.ofBits_zero_f32, sub_zero, zero_sub, zero_sub]
  have h0 : Ideal.cmp .one (z (ix1 j)) (z (ix1 j)) = 0#1 := by
    unfold Ideal.cmp
    simp
  rw [h0, select_zero]
  rfl

/-- The row's result: the lane sum of 0 - softplus x over the banks, laid on every row, plus the row's lane sum of
    core * x; a sum of two sums over the same banks is the sum of the summands. -/
theorem pay6_apply (core : Vec Ideal S128x4096 .f32) (x : Vec Ideal S4096 .f32) (rr : Fin 128) :
    k0_pay6 (F := Ideal) core x x (ix2 rr (0 : Fin 1))
      = ∑ j : Fin 4096, (-(Cert.Spec.softplus (x (ix1 j))) + core (ix2 rr j) * x (ix1 j)) := by
  unfold k0_pay6
  dsimp only
  rw [addf_apply, broadcast_apply]
  refine (congrArg₂ (· + ·) (sum4096_apply _ _ _ _ _ _ _) (sumRows_apply _ _ _ _ _ rr)).trans ?_
  rw [← Finset.sum_add_distrib]
  refine Finset.sum_congr rfl fun j _ => ?_
  refine congrArg₂ (· + ·) (negSoftplus_apply x j) ?_
  rw [mulf_apply, rows4096_apply]

end Cert.KernelIdeal.KPay

end
-- ==== Proof.SpecLaws.lean ====
/-
  Scalar laws of the specification's functions on the extended reals.

  The word 0x3F800000 is the real one; a Bernoulli draw is zero or one; softplus of a real x is the real
  max x 0 + log (1 + exp (-|x|)); and since |−x| = |x| and max (-x) 0 = max x 0 - x, softplus (-x) = softplus x - x,
  which is the identity log_sigmoid x - log_sigmoid (-x) = x written with log_sigmoid t = -(softplus (-t)). It joins
  the two forms of a Bernoulli log-probability: g * log_sigmoid x + (1 - g) * log_sigmoid (-x) = -(softplus x) + g * x
  for g zero or one.
-/
import proofs.«422330_j45105746542888_3_alg».proof.Proof.Spec
import Idealize.ShloMosaic.PureOps.Ideal
import Idealize.ShloMosaic.Lib.IdealHost
import Mathlib.Data.EReal.Basic
import Mathlib.Analysis.SpecialFunctions.Log.Basic
import Mathlib.Algebra.BigOperators.Group.Finset.Basic

noncomputable section

namespace Cert.Spec

open Idealize.ShloMosaic

/-- The word 0x3F800000 denotes the real one. -/
theorem one_eq : one = 1 := Ideal.ofBits_one_f32

/-- A Bernoulli draw is zero or one. -/
theorem bern_cases (u p : EReal) : bern u p = 0 ∨ bern u p = 1 := by
  unfold bern
  split_ifs
  · exact Or.inr rfl
  · exact Or.inl rfl

/-- The inclusion of the reals is monotone, so it carries a maximum to the maximum. -/
private theorem coe_max_coe (a b : ℝ) : max (a : EReal) (b : EReal) = ((max a b : ℝ) : EReal) :=
  (EReal.coe_strictMono.monotone.map_max).symm

/-- softplus on the reals: max x 0 + log (1 + exp (-|x|)), with |x| written max x (-x). -/
def softplusR (x : ℝ) : ℝ := max x 0 + Real.log (1 + Real.exp (-(max x (-x))))

/-- softplus of a real is the real softplus of it. -/
theorem softplus_coe_eq (x : ℝ) : softplus (x : EReal) = ((softplusR x : ℝ) : EReal) := by
  have hpos : ¬ (1 + Real.exp (-(max x (-x))) ≤ 0) := by
    have : (0 : ℝ) < Real.exp (-(max x (-x))) := Real.exp_pos _
    linarith
  unfold softplus softplusR Ideal.log1p
  rw [← EReal.coe_neg x, ← EReal.coe_zero, coe_max_coe, coe_max_coe, ← EReal.coe_neg, Ideal.exp_coe,
    ← EReal.coe_one, ← EReal.coe_add, Ideal.log_coe, if_neg hpos, ← EReal.coe_add]

/-- softplus of a real is a real -/
theorem softplus_coe (x : ℝ) : ∃ y : ℝ, softplus (x : EReal) = (y : EReal) :=
  ⟨softplusR x, softplus_coe_eq x⟩

/-- On the reals softplus (-x) = softplus x - x: the log terms agree because |−x| = |x|, and max (-x) 0 = max x 0 - x. -/
theorem softplusR_neg (x : ℝ) : softplusR (-x) = softplusR x - x := by
  unfold softplusR
  rw [neg_neg, max_comm (-x) x]
  rcases le_total 0 x with h | h
  · rw [max_eq_right (by linarith : -x ≤ 0), max_eq_left h]; ring
  · rw [max_eq_left (by linarith : 0 ≤ -x), max_eq_right h]; ring

/-- The law that joins the two forms of a Bernoulli log-probability: log_sigmoid t = -(softplus (-t)), and log_sigmoid x - log_sigmoid (-x) = x. -/
theorem logsig_law (x : ℝ) (g : EReal) (hg : g = 0 ∨ g = 1) :
    g * (-(softplus (-(x : EReal)))) + (one - g) * (-(softplus (-(-(x : EReal))))) = -(softplus (x : EReal)) + g * (x : EReal) := by
  rw [neg_neg, one_eq]
  rcases hg with rfl | rfl
  · rw [zero_mul, zero_mul, zero_add, add_zero, sub_zero, one_mul]
  · have h11 : (1 : EReal) - 1 = 0 := by
      rw [← EReal.coe_one, ← EReal.coe_sub, sub_self, EReal.coe_zero]
    rw [h11, zero_mul, add_zero, one_mul, one_mul, ← EReal.coe_neg x, softplus_coe_eq, softplus_coe_eq, softplusR_neg,
      ← EReal.coe_neg, ← EReal.coe_neg, ← EReal.coe_add]
    congr 1
    ring

/-- the same summed over a row -/
theorem logsig_sum (x : Fin 4096 → ℝ) (g : Fin 4096 → EReal) (hg : ∀ j, g j = 0 ∨ g j = 1) :
    ∑ j, (g j * (-(softplus (-((x j : ℝ) : EReal)))) + (one - g j) * (-(softplus (-(-((x j : ℝ) : EReal)))))) = ∑ j, (-(softplus ((x j : ℝ) : EReal)) + g j * ((x j : ℝ) : EReal)) :=
  Finset.sum_congr rfl fun j _ => logsig_law (x j) (g j) (hg j)

end Cert.Spec

end
-- ==== Proof.KBlockValue.lean ====
/-
  One grid point's two result blocks at the ideal values, read at explicit coordinates.

  The scratch at (rr, k) is 1 when the padded uniform there is below the padded probability of column k and 0
  otherwise, the padded uniform being the left strip below column 2048, the block itself from 2048 to 6143 and the
  right strip from 6144 on. The first result block at (rr, j) is the scratch at column (shift + j) mod 8192. The second
  at (rr, 0) is the sum over the banks of -(softplus x) + g * x, where g is the scratch's middle columns: column
  j + 2048 lies in the block's own range, so g at (rr, j) compares the block's entry (rr, j) with the probability of
  column j + 2048.
-/
import proofs.«422330_j45105746542888_3_alg».proof.Proof.KBlocks
import proofs.«422330_j45105746542888_3_alg».proof.Proof.KPay
import proofs.«422330_j45105746542888_3_alg».proof.Proof.Spec
import proofs.«422330_j45105746542888_3_alg».proof.Proof.SpecLaws
import Idealize.ShloMosaic.Lib.ValueIdx

noncomputable section

namespace Cert.KernelIdeal.KBlockValue

open Cert.KernelIdeal Cert.KernelIdeal.Gen Cert.KernelIdeal.KBlocks Idealize.ShloMosaic Idealize.ShloMosaic.ValueIdx

/-- The padded uniform at (rr, k), by the three column ranges: the left strip below 2048, the block itself from 2048 to
    6143 at column k - 2048, the right strip from 6144 on at column k - 6144. -/
def upad (x1 : Vec Ideal S128x4096 .f32) (x2 x3 : Vec Ideal S128x2048 .f32) (rr : Fin 128) (k : Fin 8192) : EReal :=
  if h : k.val < 2048 then x2 (ix2 rr (⟨k.val, h⟩ : Fin 2048))
  else if h' : k.val < 6144 then x1 (ix2 rr (⟨k.val - 2048, by omega⟩ : Fin 4096))
  else x3 (ix2 rr (⟨k.val - 6144, by have := k.isLt; omega⟩ : Fin 2048))

/-- The padded block of uniforms at (rr, k): the three stored copies change nothing. -/
theorem asm_apply (x1 : Vec Ideal S128x4096 .f32) (x2 x3 : Vec Ideal S128x2048 .f32) (rr : Fin 128) (k : Fin 8192) :
    asm (F := Ideal) x2 x1 x3 (ix2 rr k) = upad x1 x2 x3 rr k := by
  show asmAt x2 x1 x3 rr k = _
  unfold asmAt upad
  rw [KPay.pay1_eq, KPay.pay2_eq, KPay.pay3_eq]

/-- The scratch at (rr, k): 1 when the padded uniform there is below the padded probability of column k, 0 otherwise. -/
theorem scr_apply (x1 : Vec Ideal S128x4096 .f32) (x2 x3 : Vec Ideal S128x2048 .f32) (x4 : Vec Ideal S8192 .f32)
    (rr : Fin 128) (k : Fin 8192) :
    scr (F := Ideal) x1 x2 x3 x4 (ix2 rr k) = Cert.Spec.bern (upad x1 x2 x3 rr k) (x4 (ix1 k)) := by
  unfold scr
  rw [KPay.pay4_apply, asm_apply]

/-- The first result block at (rr, j): the scratch at row rr, column (shift + j) mod 8192. -/
theorem maskBlock_apply (i : grid0.Coords) (x0 : Vec Ideal S8192 .i32) (x1 : Vec Ideal S128x4096 .f32)
    (x2 x3 : Vec Ideal S128x2048 .f32) (x4 : Vec Ideal S8192 .f32) (rr : Fin 128) (j : Fin 4096) :
    maskBlock (F := Ideal) i x0 x1 x2 x3 x4 (ix2 rr j)
      = Cert.Spec.bern (upad x1 x2 x3 rr (⟨(shiftAt i x0 rr + j.val) % 8192, Nat.mod_lt _ (by decide)⟩ : Fin 8192))
          (x4 (ix1 (⟨(shiftAt i x0 rr + j.val) % 8192, Nat.mod_lt _ (by decide)⟩ : Fin 8192))) := by
  show maskAt i x0 x1 x2 x3 x4 rr j = _
  unfold maskAt
  exact scr_apply x1 x2 x3 x4 rr _

/-- The middle columns of the scratch at (rr, j): column j + 2048 lies in the block's own range, where the padded
    uniform is the block's entry (rr, j). -/
theorem core_apply (x1 : Vec Ideal S128x4096 .f32) (x2 x3 : Vec Ideal S128x2048 .f32) (x4 : Vec Ideal S8192 .f32)
    (rr : Fin 128) (j : Fin 4096) :
    core (F := Ideal) x1 x2 x3 x4 (ix2 rr j)
      = Cert.Spec.bern (x1 (ix2 rr j)) (x4 (ix1 (⟨j.val + 2048, by have := j.isLt; omega⟩ : Fin 8192))) := by
  show coreAt x1 x2 x3 x4 rr j = _
  unfold coreAt
  rw [scr_apply]
  congr 1
  unfold upad
  have h1 : ¬ (j.val + 2048 < 2048) := by omega
  have h2 : j.val + 2048 < 6144 := by have := j.isLt; omega
  simp only [dif_neg h1, dif_pos h2]
  congr 2

/-- The second result block at (rr, 0): the sum over the banks of -(softplus x) + g * x, g the middle columns of the
    scratch. -/
theorem lpBlock_apply (x1 : Vec Ideal S128x4096 .f32) (x2 x3 : Vec Ideal S128x2048 .f32) (x4 : Vec Ideal S8192 .f32)
    (x5 : Vec Ideal S4096 .f32) (rr : Fin 128) :
    lpBlock (F := Ideal) x1 x2 x3 x4 x5 (ix2 rr (0 : Fin 1))
      = ∑ j : Fin 4096, (-(Cert.Spec.softplus (x5 (ix1 j)))
          + Cert.Spec.bern (x1 (ix2 rr j)) (x4 (ix1 (⟨j.val + 2048, by have := j.isLt; omega⟩ : Fin 8192))) * x5 (ix1 j)) := by
  unfold lpBlock
  rw [KPay.pay5_eq, KPay.pay6_apply]
  refine Finset.sum_congr rfl fun j _ => ?_
  rw [core_apply]

end Cert.KernelIdeal.KBlockValue

end
-- ==== Proof.KValue.lean ====
/-
  The kernel program's two result arrays at the ideal values, read at explicit coordinates, are the specification's
  functions.

  Each of the 64 grid points handles the 128 rows t * 128 … t * 128 + 127. Its input blocks are read off the arguments:
  the uniforms' block is those rows of the uniforms, the two strips' blocks are their columns 2048 - q and 4094 - q, the
  padded probabilities are prob of the logit of column reflIdx k, the fifth block is the logits, and the table's word
  for row rr is the shift of row t * 128 + rr. So the padded uniform at (rr, k) is the uniform of that row at column
  reflIdx k in all three ranges, and the scratch at (rr, k) is the Bernoulli grid of that row at column reflIdx k.
  With a shift of at most 4096 the column shift + j stays below 8192, so the first result at (R, j) is the grid of row R
  at column reflIdx (shift R + j); and position j + 2048 of the padded row is column j, so the second result at R is the
  sum over the banks of -(softplus (logit j)) + grid R j * logit j.
-/
import proofs.«422330_j45105746542888_3_alg».proof.Proof.KFrame
import proofs.«422330_j45105746542888_3_alg».proof.Proof.KHost
import proofs.«422330_j45105746542888_3_alg».proof.Proof.KBlocks
import proofs.«422330_j45105746542888_3_alg».proof.Proof.KBlockValue
import proofs.«422330_j45105746542888_3_alg».proof.Proof.Spec
import Idealize.ShloMosaic.Lib.ValueIdx

set_option maxRecDepth 16384

noncomputable section

namespace Cert.KernelIdeal.KValue

open Cert.KernelIdeal Cert.KernelIdeal.Gen Cert.KernelIdeal.KFrame
open Idealize.ShloMosaic Idealize.ShloMosaic.TcCoe Idealize.ShloMosaic.ValueIdx
open Idealize.SL Idealize.SL.Sem

/-! ## The windows' index maps over the 64 points -/

theorem tr0_eq : ∀ t : Fin grid0.N, cc0_transform_0 (grid0.coords t) = ![t.val, 0] := by decide +kernel
theorem tr1_eq : ∀ t : Fin grid0.N, cc0_transform_1 (grid0.coords t) = ![t.val, 0] := by decide +kernel
theorem tr2_eq : ∀ t : Fin grid0.N, cc0_transform_2 (grid0.coords t) = ![t.val, 0] := by decide +kernel
theorem tr3_eq : ∀ t : Fin grid0.N, cc0_transform_3 (grid0.coords t) = ![0] := by decide +kernel
theorem tr4_eq : ∀ t : Fin grid0.N, cc0_transform_4 (grid0.coords t) = ![0] := by decide +kernel
theorem coord_eq : ∀ t : Fin grid0.N, ((grid0.coords t) 0).val = t.val := by decide +kernel

variable {F : FTy → Type} [FloatOps F]

theorem index0 (a : (pcfg0 (F := F)).Adm) (t : Fin (cfg0 a).N) : ((cfg0 a).win 0).index t = ![t.val, 0] := tr0_eq t
theorem index1 (a : (pcfg0 (F := F)).Adm) (t : Fin (cfg0 a).N) : ((cfg0 a).win 1).index t = ![t.val, 0] := tr1_eq t
theorem index2 (a : (pcfg0 (F := F)).Adm) (t : Fin (cfg0 a).N) : ((cfg0 a).win 2).index t = ![t.val, 0] := tr2_eq t
theorem index3 (a : (pcfg0 (F := F)).Adm) (t : Fin (cfg0 a).N) : ((cfg0 a).win 3).index t = ![0] := tr3_eq t
theorem index4 (a : (pcfg0 (F := F)).Adm) (t : Fin (cfg0 a).N) : ((cfg0 a).win 4).index t = ![0] := tr4_eq t

/-! ## Where a block's element sits in its array -/

/-- Element (p, q) of point t's block of the uniforms sits at row t * 128 + p, column q. -/
theorem emb0 (a : (pcfg0 (F := F)).Adm) (t : Fin (cfg0 a).N) (p : Fin 128) (q : Fin 4096) (h : t.val * 128 + p.val < 8192) :
    (((cfg0 a).win 0).blk t).view.emb (ix2 p q) = ix2 (⟨t.val * 128 + p.val, h⟩ : Fin 8192) q := by
  funext d; apply Fin.ext
  match d with
  | ⟨0, _⟩ =>
    show ((cfg0 a).win 0).index t (0 : Fin 2) * 128 + 1 * p.val = t.val * 128 + p.val
    rw [index0]; show t.val * 128 + 1 * p.val = _; omega
  | ⟨1, _⟩ =>
    show ((cfg0 a).win 0).index t (1 : Fin 2) * 4096 + 1 * q.val = q.val
    rw [index0]; show 0 * 4096 + 1 * q.val = _; omega

/-- Element (p, q) of point t's block of the left strip sits at row t * 128 + p, column q. -/
theorem emb1 (a : (pcfg0 (F := F)).Adm) (t : Fin (cfg0 a).N) (p : Fin 128) (q : Fin 2048) (h : t.val * 128 + p.val < 8192) :
    (((cfg0 a).win 1).blk t).view.emb (ix2 p q) = ix2 (⟨t.val * 128 + p.val, h⟩ : Fin 8192) q := by
  funext d; apply Fin.ext
  match d with
  | ⟨0, _⟩ =>
    show ((cfg0 a).win 1).index t (0 : Fin 2) * 128 + 1 * p.val = t.val * 128 + p.val
    rw [index1]; show t.val * 128 + 1 * p.val = _; omega
  | ⟨1, _⟩ =>
    show ((cfg0 a).win 1).index t (1 : Fin 2) * 2048 + 1 * q.val = q.val
    rw [index1]; show 0 * 2048 + 1 * q.val = _; omega

/-- Element (p, q) of point t's block of the right strip sits at row t * 128 + p, column q. -/
theorem emb2 (a : (pcfg0 (F := F)).Adm) (t : Fin (cfg0 a).N) (p : Fin 128) (q : Fin 2048) (h : t.val * 128 + p.val < 8192) :
    (((cfg0 a).win 2).blk t).view.emb (ix2 p q) = ix2 (⟨t.val * 128 + p.val, h⟩ : Fin 8192) q := by
  funext d; apply Fin.ext
  match d with
  | ⟨0, _⟩ =>
    show ((cfg0 a).win 2).index t (0 : Fin 2) * 128 + 1 * p.val = t.val * 128 + p.val
    rw [index2]; show t.val * 128 + 1 * p.val = _; omega
  | ⟨1, _⟩ =>
    show ((cfg0 a).win 2).index t (1 : Fin 2) * 2048 + 1 * q.val = q.val
    rw [index2]; show 0 * 2048 + 1 * q.val = _; omega

/-- The padded probabilities' window is the whole vector at every point. -/
theorem emb3 (a : (pcfg0 (F := F)).Adm) (t : Fin (cfg0 a).N) (k : Fin 8192) :
    (((cfg0 a).win 3).blk t).view.emb (ix1 k) = ix1 k := by
  funext d; apply Fin.ext
  match d with
  | ⟨0, _⟩ =>
    show ((cfg0 a).win 3).index t (0 : Fin 1) * 8192 + 1 * k.val = k.val
    rw [index3]; show 0 * 8192 + 1 * k.val = _; omega

/-- The logits' window is the whole vector at every point. -/
theorem emb4 (a : (pcfg0 (F := F)).Adm) (t : Fin (cfg0 a).N) (j : Fin 4096) :
    (((cfg0 a).win 4).blk t).view.emb (ix1 j) = ix1 j := by
  funext d; apply Fin.ext
  match d with
  | ⟨0, _⟩ =>
    show ((cfg0 a).win 4).index t (0 : Fin 1) * 4096 + 1 * j.val = j.val
    rw [index4]; show 0 * 4096 + 1 * j.val = _; omega

/-! ## One grid point's blocks, for any blocks that read the arguments as the windows do -/

/-- Shift plus column stays below 8192 for a shift of at most 4096, so reducing it modulo 8192 changes nothing. -/
theorem fin_mod (s : ℕ) (j : Fin 4096) (hs : s ≤ 4096) :
    (⟨(s + j.val) % 8192, Nat.mod_lt _ (by decide)⟩ : Fin 8192) = ⟨s + j.val, by have := j.isLt; omega⟩ :=
  Fin.ext (Nat.mod_eq_of_lt (by have := j.isLt; omega))

/-- Position j + 2048 of the padded row shows column j. -/
theorem refl_mid (j : Fin 4096) (h : Cert.Spec.reflIdx (j.val + 2048) < 4096) :
    (⟨Cert.Spec.reflIdx (j.val + 2048), h⟩ : Fin 4096) = j := by
  apply Fin.ext
  show Cert.Spec.reflIdx (j.val + 2048) = j.val
  unfold Cert.Spec.reflIdx
  have := j.isLt
  split_ifs <;> omega

/-- The padded uniform at (rr, k) is the uniform at row R, column reflIdx k, in all three ranges, when the block is row R's
    and the two strips are its columns 2048 - q and 4094 - q. -/
theorem upad_of (x1 : Vec Ideal S128x4096 .f32) (x2 x3 : Vec Ideal S128x2048 .f32) (U : Fin 8192 → Fin 4096 → EReal)
    (R : Fin 8192) (rr : Fin 128) (h0 : ∀ q : Fin 4096, x1 (ix2 rr q) = U R q)
    (h1 : ∀ q : Fin 2048, x2 (ix2 rr q) = U R (⟨2048 - q.val, by omega⟩ : Fin 4096))
    (h2 : ∀ q : Fin 2048, x3 (ix2 rr q) = U R (⟨4094 - q.val, by omega⟩ : Fin 4096)) (k : Fin 8192) :
    KBlockValue.upad x1 x2 x3 rr k = U R (⟨Cert.Spec.reflIdx k.val, Cert.Spec.reflIdx_lt k.isLt⟩ : Fin 4096) := by
  unfold KBlockValue.upad
  by_cases c1 : k.val < 2048
  · rw [dif_pos c1, h1]
    refine congrArg (U R) (Fin.ext ?_)
    show 2048 - k.val = Cert.Spec.reflIdx k.val
    unfold Cert.Spec.reflIdx
    rw [if_pos c1]
  · rw [dif_neg c1]
    by_cases c2 : k.val < 6144
    · rw [dif_pos c2, h0]
      refine congrArg (U R) (Fin.ext ?_)
      show k.val - 2048 = Cert.Spec.reflIdx k.val
      unfold Cert.Spec.reflIdx
      rw [if_neg c1, if_pos c2]
    · rw [dif_neg c2, h2]
      refine congrArg (U R) (Fin.ext ?_)
      show 4094 - (k.val - 6144) = Cert.Spec.reflIdx k.val
      unfold Cert.Spec.reflIdx
      rw [if_neg c1, if_neg c2]
      have := k.isLt
      omega

/-- The first result block at (rr, j) is the specification's mask at (R, j), when the table's word is row R's shift, the
    padded uniform is row R's at column reflIdx k and the padded probability is that of column reflIdx k. -/
theorem maskBlock_of (i : grid0.Coords) (x0 : Vec Ideal S8192 .i32) (x1 : Vec Ideal S128x4096 .f32)
    (x2 x3 : Vec Ideal S128x2048 .f32) (x4 : Vec Ideal S8192 .f32)
    (L : Fin 4096 → EReal) (U : Fin 8192 → Fin 4096 → EReal) (S : Fin 8192 → ℕ) (hS : ∀ r, S r ≤ 4096)
    (R : Fin 8192) (rr : Fin 128) (hsh : KBlocks.shiftAt i x0 rr = S R)
    (hu : ∀ k : Fin 8192, KBlockValue.upad x1 x2 x3 rr k = U R (⟨Cert.Spec.reflIdx k.val, Cert.Spec.reflIdx_lt k.isLt⟩ : Fin 4096))
    (hp : ∀ k : Fin 8192, x4 (ix1 k) = Cert.Spec.prob (L (⟨Cert.Spec.reflIdx k.val, Cert.Spec.reflIdx_lt k.isLt⟩ : Fin 4096)))
    (j : Fin 4096) :
    KBlocks.maskBlock i x0 x1 x2 x3 x4 (ix2 rr j) = Cert.Spec.masks L U S hS R j := by
  rw [KBlockValue.maskBlock_apply, hsh, fin_mod (S R) j (hS R), hu, hp]
  rfl

/-- The second result block at (rr, 0) is the specification's log-probability of row R, when the block is row R's, the
    padded probability is that of column reflIdx k and the fifth block is the logits. -/
theorem lpBlock_of (x1 : Vec Ideal S128x4096 .f32) (x2 x3 : Vec Ideal S128x2048 .f32) (x4 : Vec Ideal S8192 .f32)
    (x5 : Vec Ideal S4096 .f32) (L : Fin 4096 → EReal) (U : Fin 8192 → Fin 4096 → EReal) (R : Fin 8192) (rr : Fin 128)
    (h0 : ∀ q : Fin 4096, x1 (ix2 rr q) = U R q)
    (hp : ∀ k : Fin 8192, x4 (ix1 k) = Cert.Spec.prob (L (⟨Cert.Spec.reflIdx k.val, Cert.Spec.reflIdx_lt k.isLt⟩ : Fin 4096)))
    (h5 : ∀ j : Fin 4096, x5 (ix1 j) = L j) :
    KBlocks.lpBlock x1 x2 x3 x4 x5 (ix2 rr (0 : Fin 1)) = Cert.Spec.logprob L U R := by
  rw [KBlockValue.lpBlock_apply]
  unfold Cert.Spec.logprob Cert.Spec.grid Cert.Spec.bern
  refine Finset.sum_congr rfl fun j _ => ?_
  rw [h5, h0, hp, refl_mid]

/-! ## The five input blocks read off the arguments -/

section Reads

variable (m : (ℓ : Loc nD τ sig) → Buf (Elt Ideal) ℓ)

/-- The uniforms' block of point t at (p, q) is the uniform at row t * 128 + p, column q. -/
theorem iblk0_apply (c : Dev nD) (t : Fin (cfgM m).N) (p : Fin 128) (q : Fin 4096) (h : t.val * 128 + p.val < 8192) :
    iblk m c 0 t (ix2 p q) = m ((c.tc : Thread nD τ).loc main_arg1) (ix2 (⟨t.val * 128 + p.val, h⟩ : Fin 8192) q) := by
  show V m c (Pipeline.arrRef spec0 0) ((((cfgM m).win 0).blk t).view.emb (ix2 p q)) = _
  rw [emb0 (adm m 0) t p q h]
  exact congrFun (V_main_arg1 m c) _

/-- The left strip's block of point t at (p, q) is the uniform at row t * 128 + p, column 2048 - q. -/
theorem iblk1_apply (c : Dev nD) (t : Fin (cfgM m).N) (p : Fin 128) (q : Fin 2048) (h : t.val * 128 + p.val < 8192) :
    iblk m c 1 t (ix2 p q)
      = m ((c.tc : Thread nD τ).loc main_arg1) (ix2 (⟨t.val * 128 + p.val, h⟩ : Fin 8192) (⟨2048 - q.val, by omega⟩ : Fin 4096)) := by
  show V m c (Pipeline.arrRef spec0 1) ((((cfgM m).win 1).blk t).view.emb (ix2 p q)) = _
  rw [emb1 (adm m 0) t p q h]
  exact (congrFun (V_main_v8 m c) _).trans (KHost.kleft_apply _ _ _)

/-- The right strip's block of point t at (p, q) is the uniform at row t * 128 + p, column 4094 - q. -/
theorem iblk2_apply (c : Dev nD) (t : Fin (cfgM m).N) (p : Fin 128) (q : Fin 2048) (h : t.val * 128 + p.val < 8192) :
    iblk m c 2 t (ix2 p q)
      = m ((c.tc : Thread nD τ).loc main_arg1) (ix2 (⟨t.val * 128 + p.val, h⟩ : Fin 8192) (⟨4094 - q.val, by omega⟩ : Fin 4096)) := by
  show V m c (Pipeline.arrRef spec0 2) ((((cfgM m).win 2).blk t).view.emb (ix2 p q)) = _
  rw [emb2 (adm m 0) t p q h]
  exact (congrFun (V_main_v10 m c) _).trans (KHost.kright_apply _ _ _)

/-- The padded probability at position k is the logistic function of the logit of column reflIdx k. -/
theorem iblk3_apply (c : Dev nD) (t : Fin (cfgM m).N) (k : Fin 8192) :
    iblk m c 3 t (ix1 k)
      = Cert.Spec.prob (m ((c.tc : Thread nD τ).loc main_arg0) (ix1 (⟨Cert.Spec.reflIdx k.val, Cert.Spec.reflIdx_lt k.isLt⟩ : Fin 4096))) := by
  show V m c (Pipeline.arrRef spec0 3) ((((cfgM m).win 3).blk t).view.emb (ix1 k)) = _
  rw [emb3 (adm m 0) t k]
  exact (congrFun (V_main_v6 m c) _).trans (KHost.kppad_apply _ k)

/-- The logits' block is the logits. -/
theorem iblk4_apply (c : Dev nD) (t : Fin (cfgM m).N) (j : Fin 4096) :
    iblk m c 4 t (ix1 j) = m ((c.tc : Thread nD τ).loc main_arg0) (ix1 j) := by
  show V m c (Pipeline.arrRef spec0 4) ((((cfgM m).win 4).blk t).view.emb (ix1 j)) = _
  rw [emb4 (adm m 0) t j]
  exact congrFun (V_main_arg0 m c) _

/-- The table's word for row rr of point t is the shift of row t * 128 + rr. -/
theorem shiftAt_blocks (c : Dev nD) (t : Fin (cfgM m).N) (rr : Fin 128) (h : t.val * 128 + rr.val < 8192) :
    KBlocks.shiftAt (grid0.coords t) (shifts m c) rr
      = (m ((c.tc : Thread nD τ).loc main_arg2) (ix1 (⟨t.val * 128 + rr.val, h⟩ : Fin 8192))).toNat := by
  unfold KBlocks.shiftAt shifts
  rw [V_main_arg2]
  congr 3
  apply Fin.ext
  show (128 * ((grid0.coords t) 0).val + rr.val) % 8192 = t.val * 128 + rr.val
  rw [coord_eq]
  have := t.isLt
  have hN : (cfgM m).N = 64 := N_0
  omega

/-- The first result block of point t at (rr, j) is the specification's mask at (t * 128 + rr, j). -/
theorem masks_block (hs : ∀ (c : Dev nD) (k : S8192.Idx), (m ((c.tc : Thread nD τ).loc main_arg2) k).toNat ≤ 4096)
    (c : Dev nD) (t : Fin (cfgM m).N) (rr : Fin 128) (j : Fin 4096) (h : t.val * 128 + rr.val < 8192) :
    KBlocks.maskBlock (grid0.coords t) (shifts m c) (iblk m c 0 t) (iblk m c 1 t) (iblk m c 2 t) (iblk m c 3 t) (ix2 rr j)
      = Cert.Spec.masks (fun j => m ((c.tc : Thread nD τ).loc main_arg0) (ix1 j))
          (fun r j => m ((c.tc : Thread nD τ).loc main_arg1) (ix2 r j))
          (fun r => (m ((c.tc : Thread nD τ).loc main_arg2) (ix1 r)).toNat) (fun r => hs c (ix1 r))
          (⟨t.val * 128 + rr.val, h⟩ : Fin 8192) j :=
  maskBlock_of (grid0.coords t) (shifts m c) (iblk m c 0 t) (iblk m c 1 t) (iblk m c 2 t) (iblk m c 3 t)
    (fun j => m ((c.tc : Thread nD τ).loc main_arg0) (ix1 j)) (fun r j => m ((c.tc : Thread nD τ).loc main_arg1) (ix2 r j))
    (fun r => (m ((c.tc : Thread nD τ).loc main_arg2) (ix1 r)).toNat) (fun r => hs c (ix1 r))
    (⟨t.val * 128 + rr.val, h⟩ : Fin 8192) rr (shiftAt_blocks m c t rr h)
    (upad_of (iblk m c 0 t) (iblk m c 1 t) (iblk m c 2 t) (fun r j => m ((c.tc : Thread nD τ).loc main_arg1) (ix2 r j))
      (⟨t.val * 128 + rr.val, h⟩ : Fin 8192) rr (fun q => iblk0_apply m c t rr q h) (fun q => iblk1_apply m c t rr q h)
      (fun q => iblk2_apply m c t rr q h))
    (fun k => iblk3_apply m c t k) j

/-- The second result block of point t at (rr, 0) is the specification's log-probability of row t * 128 + rr. -/
theorem lp_block (c : Dev nD) (t : Fin (cfgM m).N) (rr : Fin 128) (h : t.val * 128 + rr.val < 8192) :
    KBlocks.lpBlock (iblk m c 0 t) (iblk m c 1 t) (iblk m c 2 t) (iblk m c 3 t) (iblk m c 4 t) (ix2 rr (0 : Fin 1))
      = Cert.Spec.logprob (fun j => m ((c.tc : Thread nD τ).loc main_arg0) (ix1 j))
          (fun r j => m ((c.tc : Thread nD τ).loc main_arg1) (ix2 r j)) (⟨t.val * 128 + rr.val, h⟩ : Fin 8192) :=
  lpBlock_of (iblk m c 0 t) (iblk m c 1 t) (iblk m c 2 t) (iblk m c 3 t) (iblk m c 4 t)
    (fun j => m ((c.tc : Thread nD τ).loc main_arg0) (ix1 j)) (fun r j => m ((c.tc : Thread nD τ).loc main_arg1) (ix2 r j))
    (⟨t.val * 128 + rr.val, h⟩ : Fin 8192) rr (fun q => iblk0_apply m c t rr q h) (fun k => iblk3_apply m c t k)
    (fun j => iblk4_apply m c t j)

end Reads

/-! ## The two result arrays -/

section Final

variable (m : (ℓ : Loc nD τ sig) → Buf (Elt Ideal) ℓ)

/-- Row R is row R % 128 of the block of point R / 128. -/
theorem row_split (R : Fin 8192) : (ptOf m R).val * 128 + (rowOf R).val < 8192 := by
  show R.val / 128 * 128 + R.val % 128 < 8192
  have := R.isLt
  omega

theorem row_join (R : Fin 8192) : (⟨(ptOf m R).val * 128 + (rowOf R).val, row_split m R⟩ : Fin 8192) = R :=
  Fin.ext (by show R.val / 128 * 128 + R.val % 128 = R.val; omega)

/-- The first result array at (R, j) is the specification's mask, for shifts of at most 4096. -/
theorem masks_final (hs : ∀ (c : Dev nD) (k : S8192.Idx), (m ((c.tc : Thread nD τ).loc main_arg2) k).toNat ≤ 4096)
    (c : Dev nD) (R : Fin 8192) (j : Fin 4096) :
    KFrame.resMasks m hs c (ix2 R j)
      = Cert.Spec.masks (fun j => m ((c.tc : Thread nD τ).loc main_arg0) (ix1 j))
          (fun r j => m ((c.tc : Thread nD τ).loc main_arg1) (ix2 r j))
          (fun r => (m ((c.tc : Thread nD τ).loc main_arg2) (ix1 r)).toNat) (fun r => hs c (ix1 r)) R j := by
  rw [KFrame.resMasks_apply]
  have e := masks_block m hs c (ptOf m R) (rowOf R) j (row_split m R)
  rw [row_join m R] at e
  exact e

/-- The second result array at (R, 0) is the specification's log-probability of row R. -/
theorem lp_final (hs : ∀ (c : Dev nD) (k : S8192.Idx), (m ((c.tc : Thread nD τ).loc main_arg2) k).toNat ≤ 4096)
    (c : Dev nD) (R : Fin 8192) :
    KFrame.resLp m hs c (ix2 R (0 : Fin 1))
      = Cert.Spec.logprob (fun j => m ((c.tc : Thread nD τ).loc main_arg0) (ix1 j))
          (fun r j => m ((c.tc : Thread nD τ).loc main_arg1) (ix2 r j)) R := by
  rw [KFrame.resLp_apply]
  have e := lp_block m c (ptOf m R) (rowOf R) (row_split m R)
  rw [row_join m R] at e
  exact e

end Final

end Cert.KernelIdeal.KValue

end
-- ==== Proof.RefTerms.lean ====
/-
  The reference program's two results as pure terms of its argument arrays, stage by stage in the
  order of @main: the probabilities, the sampled grid, the two log-sigmoids, the summed
  log-probability, the reflect-padded grid, the shifted window of indices and the gather along the
  bank axis. Every stage is the composition of exactly the host operations @main (or the outlined
  function it calls) lists for it, with the same shape evidence.
-/
import proofs.«422330_j45105746542888_3_alg».proof.Proof.Gen.ReferenceIdeal

noncomputable section

namespace Cert.ReferenceIdeal.RefTerms

open Cert.ReferenceIdeal Cert.ReferenceIdeal.Gen Idealize.ShloMosaic Idealize.ShloMosaic.TcCoe

variable {F : FTy → Type} [FloatOps F]

/-! ## Broadcasts used more than once -/

/-- The scalar 1.0 at every bank. -/
def ones4096 : FVec F S4096 .f32 :=
  broadcastInDim S4096 ![] bcast_S_S4096 (constant S_ .f32 0x3F800000#32)

/-- The scalar 0.0 at every bank. -/
def zeros4096 : FVec F S4096 .f32 :=
  broadcastInDim S4096 ![] bcast_S_S4096 (constant S_ .f32 0x00000000#32)

/-- A per-bank row repeated over the batch: `[4096] → [1,4096] → [8192,4096]`. -/
def rowsF (x : FVec F S4096 .f32) : FVec F S8192x4096 .f32 :=
  broadcastInDim S8192x4096 ![0, 1] bcast_S1x4096_S8192x4096_0_1 (broadcastInDim S1x4096 ![1] bcast_S4096_S1x4096_1 x)

/-! ## The probabilities and the grid -/

/-- `p = 1 / (1 + exp (-logits))`. -/
def pvec (a0 : FVec F S4096 .f32) : FVec F S4096 .f32 :=
  Host.divf ones4096 (addf ones4096 (Host.exp (Host.negf a0)))

/-- `grid = float (u < p)`, `p` repeated over the batch. -/
def gridv (a0 : FVec F S4096 .f32) (a1 : FVec F S8192x4096 .f32) : FVec F S8192x4096 .f32 :=
  uitofp .f32 (cmpf .olt a1 (rowsF (pvec a0)))

/-! ## softplus and log-sigmoid -/

/-- `z - 0`, the value softplus tests for NaN and takes the absolute value of. -/
def spDiff (z : FVec F S4096 .f32) : FVec F S4096 .f32 := subf z zeros4096

/-- `max z 0 + log1p (exp (-|z - 0|))`. -/
def spMain (z : FVec F S4096 .f32) : FVec F S4096 .f32 :=
  addf (maximumf z zeros4096) (Host.log1p (Host.exp (Host.negf (Host.absf (spDiff z)))))

/-- softplus: `z + 0` where `z - 0` is a NaN, `max z 0 + log1p (exp (-|z - 0|))` elsewhere. -/
def softplusv (z : FVec F S4096 .f32) : FVec F S4096 .f32 :=
  select (cmpf .une (spDiff z) (spDiff z)) (addf z zeros4096) (spMain z)

/-- `log_sigmoid x = -(softplus (-x))`. -/
def logsigv (x : FVec F S4096 .f32) : FVec F S4096 .f32 :=
  Host.negf (softplusv (Host.negf x))

/-! ## The summed log-probability -/

/-- `grid * log_sigmoid logits`. -/
def lpPos (a0 : FVec F S4096 .f32) (a1 : FVec F S8192x4096 .f32) : FVec F S8192x4096 .f32 :=
  mulf (gridv a0 a1) (rowsF (logsigv a0))

/-- `(1 - grid) * log_sigmoid (-logits)`. -/
def lpNeg (a0 : FVec F S4096 .f32) (a1 : FVec F S8192x4096 .f32) : FVec F S8192x4096 .f32 :=
  mulf (subf (broadcastInDim S8192x4096 ![] bcast_S_S8192x4096 (constant S_ .f32 0x3F800000#32)) (gridv a0 a1))
    (rowsF (logsigv (Host.negf a0)))

/-- The summand of the log-probability, per sample and bank. -/
def lpTerm (a0 : FVec F S4096 .f32) (a1 : FVec F S8192x4096 .f32) : FVec F S8192x4096 .f32 :=
  addf (lpPos a0 a1) (lpNeg a0 a1)

/-- The log-probability per sample: the summand added up over the banks, from 0.0. -/
def lpOut (a0 : FVec F S4096 .f32) (a1 : FVec F S8192x4096 .f32) : FVec F S8192 .f32 :=
  Host.reduceAdd (lpTerm a0 a1) (constant S_ .f32 0x00000000#32) reducesTo_S8192x4096_S8192_d1 h_S_

/-! ## The reflect padding -/

/-- Columns `1 … 2048` of the grid reversed, then the grid: width 6144. -/
def padLeft (g : FVec F S8192x4096 .f32) : FVec F S8192x6144 .f32 :=
  concatenate S8192x6144 1
    [⟨S8192x2048, Host.reverse [1] (extractStridedSlice S8192x2048 ![0, 1] g slices_S8192x4096_S8192x2048_0_1)⟩,
     ⟨S8192x4096, g⟩] concatenates_S8192x2048_S8192x4096_S8192x6144_d1

/-- The left-padded grid, then its columns `4095 … 6142` reversed: width 8192. -/
def paddedv (g : FVec F S8192x4096 .f32) : FVec F S8192x8192 .f32 :=
  concatenate S8192x8192 1
    [⟨S8192x6144, padLeft g⟩,
     ⟨S8192x2048, Host.reverse [1] (extractStridedSlice S8192x2048 ![0, 4095] (padLeft g) slices_S8192x6144_S8192x2048_0_4095)⟩]
    concatenates_S8192x6144_S8192x2048_S8192x8192_d1

/-! ## The window of indices -/

/-- `idx[r, j] = shift[r] + j`. -/
def idxv (a2 : IVec S8192 32) : IVec S8192x4096 32 :=
  addi (broadcastInDim S8192x4096 ![0, 1] bcast_S8192x1_S8192x4096_0_1 (broadcastInDim S8192x1 ![0] bcast_S8192_S8192x1_0 a2))
    (broadcastInDim S8192x4096 ![0, 1] bcast_S1x4096_S8192x4096_0_1
      (broadcastInDim S1x4096 ![1] bcast_S4096_S1x4096_1 (iotaInDim S4096 32 0)))

/-! ## take_along_axis -/

/-- A negative index counted from the end: `i + 8192` where `i < 0`, `i` elsewhere. -/
def wrapIdx (i : IVec S8192x4096 32) : IVec S8192x4096 32 :=
  select (cmpi .slt i (broadcastInDim S8192x4096 ![] bcast_S_S8192x4096 (constantI S_ 32 0#32)))
    (addi i (broadcastInDim S8192x4096 ![] bcast_S_S8192x4096 (constantI S_ 32 8192#32))) i

/-- The wrapped index with a trailing unit axis, the gather's index vector. -/
def idx3 (i : IVec S8192x4096 32) : IVec S8192x4096x1 32 :=
  shapeCast S8192x4096x1 (wrapIdx i) shapeCasts_S8192x4096_S8192x4096x1

/-- Where the wrapped index lies in `0 … 8191`. -/
def inBounds (i : IVec S8192x4096 32) : IVec S8192x4096 1 :=
  Host.reduce IntOp.andi
    (andi (cmpi .sge (idx3 i) (broadcastInDim S8192x4096x1 ![] bcast_S_S8192x4096x1 (constantI S_ 32 0#32)))
      (cmpi .sle (idx3 i)
        (broadcastInDim S8192x4096x1 ![0, 1, 2] bcast_S1x1x1_S8192x4096x1_0_1_2
          (broadcastInDim S1x1x1 ![2] bcast_S1_S1x1x1_2 (constantI S1 32 8191#32)))))
    (constantI S_ 1 1#1) reducesTo_S8192x4096x1_S8192x4096_d2 h_S_

/-- `x[r, i[r, j]]` where the wrapped index is in bounds, a NaN elsewhere. -/
def takev (x : FVec F S8192x8192 .f32) (i : IVec S8192x4096 32) : FVec F S8192x4096 .f32 :=
  select (inBounds i) (Host.gather gather_S8192x8192_S8192x4096x1_S8192x4096_n_1_0_0_1_2_11 x (idx3 i))
    (broadcastInDim S8192x4096 ![] bcast_S_S8192x4096 (constant S_ .f32 0x7FC00000#32))

/-! ## The masks -/

/-- The shifted window of the padded grid, with a unit axis in the middle. -/
def masksOut (a0 : FVec F S4096 .f32) (a1 : FVec F S8192x4096 .f32) (a2 : IVec S8192 32) : FVec F S8192x1x4096 .f32 :=
  broadcastInDim S8192x1x4096 ![0, 2] bcast_S8192x4096_S8192x1x4096_0_2 (takev (paddedv (gridv a0 a1)) (idxv a2))

end Cert.ReferenceIdeal.RefTerms

end
-- ==== Proof.RefRun.lean ====
/-
  The reference program's run. @main is a straight line of host operations once each call of an
  outlined function is replaced by the callee's operations over that call's buffers; `ops` is that
  line, 95 operations in program order. Every weakly fair execution of it terminates with each
  buffer at the fold of the operations' results over the launch contents, and at the two result
  buffers that fold is the pure term of `RefTerms`: the masks and the summed log-probability as
  functions of the three argument arrays, which are left unchanged.
-/
import proofs.«422330_j45105746542888_3_alg».proof.Proof.RefTerms
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
open Idealize.ShloMosaic.StableHlo (seq after after_cons after_nil run_seq tcRefs launchContents nullary_bufs_sub unary_bufs_sub
  binary_bufs_sub ternary_bufs_sub reshape_bufs_sub)

variable {F : FTy → Type} [FloatOps F]

/-- @main's operations in order: its own, and at each call the callee's over the call's buffers
    (log_sigmoid and log_sigmoid_0 each one negation, softplus's fourteen operations, one negation;
    _pad two slices, a reversal, a concatenation, two slices, a reversal, a concatenation;
    take_along_axis its twenty-two). -/
abbrev ops : List (HloOp τ sig (Elt F)) :=
  [
    StableHlo.unary main_arg0 main_v0 (Host.negf : (⟨S4096, .f32⟩ : BufTy).Contents (Elt F) → (⟨S4096, .f32⟩ : BufTy).Contents (Elt F)),
    StableHlo.unary main_v0 main_v1 (Host.exp : (⟨S4096, .f32⟩ : BufTy).Contents (Elt F) → (⟨S4096, .f32⟩ : BufTy).Contents (Elt F)),
    StableHlo.nullary main_cst (constant S_ .f32 0x3F800000#32),
    StableHlo.unary main_cst main_v2 (broadcastInDim S4096 ![] bcast_S_S4096 : (⟨S_, .f32⟩ : BufTy).Contents (Elt F) → (⟨S4096, .f32⟩ : BufTy).Contents (Elt F)),
    StableHlo.binary main_v2 main_v1 main_v3 (addf : (⟨S4096, .f32⟩ : BufTy).Contents (Elt F) → (⟨S4096, .f32⟩ : BufTy).Contents (Elt F) → (⟨S4096, .f32⟩ : BufTy).Contents (Elt F)),
    StableHlo.nullary main_cst_0 (constant S_ .f32 0x3F800000#32),
    StableHlo.unary main_cst_0 main_v4 (broadcastInDim S4096 ![] bcast_S_S4096 : (⟨S_, .f32⟩ : BufTy).Contents (Elt F) → (⟨S4096, .f32⟩ : BufTy).Contents (Elt F)),
    StableHlo.binary main_v4 main_v3 main_v5 (Host.divf : (⟨S4096, .f32⟩ : BufTy).Contents (Elt F) → (⟨S4096, .f32⟩ : BufTy).Contents (Elt F) → (⟨S4096, .f32⟩ : BufTy).Contents (Elt F)),
    StableHlo.unary main_v5 main_v6 (broadcastInDim S1x4096 ![1] bcast_S4096_S1x4096_1 : (⟨S4096, .f32⟩ : BufTy).Contents (Elt F) → (⟨S1x4096, .f32⟩ : BufTy).Contents (Elt F)),
    StableHlo.unary main_v6 main_v7 (broadcastInDim S8192x4096 ![0, 1] bcast_S1x4096_S8192x4096_0_1 : (⟨S1x4096, .f32⟩ : BufTy).Contents (Elt F) → (⟨S8192x4096, .f32⟩ : BufTy).Contents (Elt F)),
    StableHlo.binary main_arg1 main_v7 main_v8 (cmpf .olt : (⟨S8192x4096, .f32⟩ : BufTy).Contents (Elt F) → (⟨S8192x4096, .f32⟩ : BufTy).Contents (Elt F) → (⟨S8192x4096, .i1⟩ : BufTy).Contents (Elt F)),
    StableHlo.unary main_v8 main_v9 (uitofp .f32 : (⟨S8192x4096, .i1⟩ : BufTy).Contents (Elt F) → (⟨S8192x4096, .f32⟩ : BufTy).Contents (Elt F)),
    StableHlo.TRef.unary (.of main_arg0 : StableHlo.TRef sig ⟨S4096, .f32⟩) main_call0.v0 Host.negf,
    StableHlo.TRef.nullary main_call0.call0.cst (constant S_ .f32 0x00000000#32),
    StableHlo.TRef.unary main_call0.call0.cst main_call0.call0.v0 (broadcastInDim S4096 ![] bcast_S_S4096),
    StableHlo.TRef.binary main_call0.v0 main_call0.call0.v0 main_call0.call0.v1 maximumf,
    StableHlo.TRef.unary main_call0.call0.cst main_call0.call0.v2 (broadcastInDim S4096 ![] bcast_S_S4096),
    StableHlo.TRef.binary main_call0.v0 main_call0.call0.v2 main_call0.call0.v3 subf,
    StableHlo.TRef.binary main_call0.call0.v3 main_call0.call0.v3 main_call0.call0.v4 (cmpf .une),
    StableHlo.TRef.unary main_call0.call0.cst main_call0.call0.v5 (broadcastInDim S4096 ![] bcast_S_S4096),
    StableHlo.TRef.binary main_call0.v0 main_call0.call0.v5 main_call0.call0.v6 addf,
    StableHlo.TRef.unary main_call0.call0.v3 main_call0.call0.v7 Host.absf,
    StableHlo.TRef.unary main_call0.call0.v7 main_call0.call0.v8 Host.negf,
    StableHlo.TRef.unary main_call0.call0.v8 main_call0.call0.v9 Host.exp,
    StableHlo.TRef.unary main_call0.call0.v9 main_call0.call0.v10 Host.log1p,
    StableHlo.TRef.binary main_call0.call0.v1 main_call0.call0.v10 main_call0.call0.v11 addf,
    StableHlo.TRef.ternary main_call0.call0.v4 main_call0.call0.v6 main_call0.call0.v11 main_call0.call0.v12 select,
    StableHlo.TRef.unary main_call0.call0.v12 main_call0.v2 Host.negf,
    StableHlo.unary main_v10 main_v11 (broadcastInDim S1x4096 ![1] bcast_S4096_S1x4096_1 : (⟨S4096, .f32⟩ : BufTy).Contents (Elt F) → (⟨S1x4096, .f32⟩ : BufTy).Contents (Elt F)),
    StableHlo.unary main_v11 main_v12 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v9 main_v12 main_v13 (mulf : (⟨S8192x4096, .f32⟩ : BufTy).Contents (Elt F) → (⟨S8192x4096, .f32⟩ : BufTy).Contents (Elt F) → (⟨S8192x4096, .f32⟩ : BufTy).Contents (Elt F)),
    StableHlo.nullary main_cst_1 (constant S_ .f32 0x3F800000#32),
    StableHlo.unary main_cst_1 main_v14 (broadcastInDim S8192x4096 ![] bcast_S_S8192x4096 : (⟨S_, .f32⟩ : BufTy).Contents (Elt F) → (⟨S8192x4096, .f32⟩ : BufTy).Contents (Elt F)),
    StableHlo.binary main_v14 main_v9 main_v15 (subf : (⟨S8192x4096, .f32⟩ : BufTy).Contents (Elt F) → (⟨S8192x4096, .f32⟩ : BufTy).Contents (Elt F) → (⟨S8192x4096, .f32⟩ : BufTy).Contents (Elt F)),
    StableHlo.unary main_arg0 main_v16 (Host.negf : (⟨S4096, .f32⟩ : BufTy).Contents (Elt F) → (⟨S4096, .f32⟩ : BufTy).Contents (Elt F)),
    StableHlo.TRef.unary (.of main_v16 : StableHlo.TRef sig ⟨S4096, .f32⟩) main_call1.v0 Host.negf,
    StableHlo.TRef.nullary main_call1.call0.cst (constant S_ .f32 0x00000000#32),
    StableHlo.TRef.unary main_call1.call0.cst main_call1.call0.v0 (broadcastInDim S4096 ![] bcast_S_S4096),
    StableHlo.TRef.binary main_call1.v0 main_call1.call0.v0 main_call1.call0.v1 maximumf,
    StableHlo.TRef.unary main_call1.call0.cst main_call1.call0.v2 (broadcastInDim S4096 ![] bcast_S_S4096),
    StableHlo.TRef.binary main_call1.v0 main_call1.call0.v2 main_call1.call0.v3 subf,
    StableHlo.TRef.binary main_call1.call0.v3 main_call1.call0.v3 main_call1.call0.v4 (cmpf .une),
    StableHlo.TRef.unary main_call1.call0.cst main_call1.call0.v5 (broadcastInDim S4096 ![] bcast_S_S4096),
    StableHlo.TRef.binary main_call1.v0 main_call1.call0.v5 main_call1.call0.v6 addf,
    StableHlo.TRef.unary main_call1.call0.v3 main_call1.call0.v7 Host.absf,
    StableHlo.TRef.unary main_call1.call0.v7 main_call1.call0.v8 Host.negf,
    StableHlo.TRef.unary main_call1.call0.v8 main_call1.call0.v9 Host.exp,
    StableHlo.TRef.unary main_call1.call0.v9 main_call1.call0.v10 Host.log1p,
    StableHlo.TRef.binary main_call1.call0.v1 main_call1.call0.v10 main_call1.call0.v11 addf,
    StableHlo.TRef.ternary main_call1.call0.v4 main_call1.call0.v6 main_call1.call0.v11 main_call1.call0.v12 select,
    StableHlo.TRef.unary main_call1.call0.v12 main_call1.v2 Host.negf,
    StableHlo.unary main_v17 main_v18 (broadcastInDim S1x4096 ![1] bcast_S4096_S1x4096_1 : (⟨S4096, .f32⟩ : BufTy).Contents (Elt F) → (⟨S1x4096, .f32⟩ : BufTy).Contents (Elt F)),
    StableHlo.unary main_v18 main_v19 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v15 main_v19 main_v20 (mulf : (⟨S8192x4096, .f32⟩ : BufTy).Contents (Elt F) → (⟨S8192x4096, .f32⟩ : BufTy).Contents (Elt F) → (⟨S8192x4096, .f32⟩ : BufTy).Contents (Elt F)),
    StableHlo.binary main_v13 main_v20 main_v21 (addf : (⟨S8192x4096, .f32⟩ : BufTy).Contents (Elt F) → (⟨S8192x4096, .f32⟩ : BufTy).Contents (Elt F) → (⟨S8192x4096, .f32⟩ : BufTy).Contents (Elt F)),
    StableHlo.nullary main_cst_2 (constant S_ .f32 0x00000000#32),
    StableHlo.binary main_v21 main_cst_2 main_v22 ((fun x v => Host.reduceAdd x v reducesTo_S8192x4096_S8192_d1 h_S_) : (⟨S8192x4096, .f32⟩ : BufTy).Contents (Elt F) → (⟨S_, .f32⟩ : BufTy).Contents (Elt F) → (⟨S8192, .f32⟩ : BufTy).Contents (Elt F)),
    StableHlo.nullary main_c (constantI S_ 32 0#32),
    StableHlo.TRef.unary (.of main_v9 : StableHlo.TRef sig ⟨S8192x4096, .f32⟩) main_call2.v0 (extractStridedSlice S8192x1 ![0, 0] · slices_S8192x4096_S8192x1_0_0),
    StableHlo.TRef.unary (.of main_v9 : StableHlo.TRef sig ⟨S8192x4096, .f32⟩) main_call2.v1 (extractStridedSlice S8192x2048 ![0, 1] · slices_S8192x4096_S8192x2048_0_1),
    StableHlo.TRef.unary main_call2.v1 main_call2.call0.v0 (Host.reverse [1]),
    StableHlo.TRef.binary main_call2.call0.v0 (.of main_v9 : StableHlo.TRef sig ⟨S8192x4096, .f32⟩) main_call2.v3 (fun a b => concatenate S8192x6144 1 [⟨S8192x2048, a⟩, ⟨S8192x4096, b⟩] concatenates_S8192x2048_S8192x4096_S8192x6144_d1),
    StableHlo.TRef.unary main_call2.v3 main_call2.v4 (extractStridedSlice S8192x1 ![0, 6143] · slices_S8192x6144_S8192x1_0_6143),
    StableHlo.TRef.unary main_call2.v3 main_call2.v5 (extractStridedSlice S8192x2048 ![0, 4095] · slices_S8192x6144_S8192x2048_0_4095),
    StableHlo.TRef.unary main_call2.v5 main_call2.call1.v0 (Host.reverse [1]),
    StableHlo.TRef.binary main_call2.v3 main_call2.call1.v0 main_call2.v7 (fun a b => concatenate S8192x8192 1 [⟨S8192x6144, a⟩, ⟨S8192x2048, b⟩] concatenates_S8192x6144_S8192x2048_S8192x8192_d1),
    StableHlo.unary main_arg2 main_v24 (broadcastInDim S8192x1 ![0] bcast_S8192_S8192x1_0 : (⟨S8192, .i32⟩ : BufTy).Contents (Elt F) → (⟨S8192x1, .i32⟩ : BufTy).Contents (Elt F)),
    StableHlo.nullary main_v25 (iotaInDim S4096 32 0),
    StableHlo.unary main_v25 main_v26 (broadcastInDim S1x4096 ![1] bcast_S4096_S1x4096_1 : (⟨S4096, .i32⟩ : BufTy).Contents (Elt F) → (⟨S1x4096, .i32⟩ : BufTy).Contents (Elt F)),
    StableHlo.unary main_v24 main_v27 (broadcastInDim S8192x4096 ![0, 1] bcast_S8192x1_S8192x4096_0_1 : (⟨S8192x1, .i32⟩ : BufTy).Contents (Elt F) → (⟨S8192x4096, .i32⟩ : BufTy).Contents (Elt F)),
    StableHlo.unary main_v26 main_v28 (broadcastInDim S8192x4096 ![0, 1] bcast_S1x4096_S8192x4096_0_1 : (⟨S1x4096, .i32⟩ : BufTy).Contents (Elt F) → (⟨S8192x4096, .i32⟩ : BufTy).Contents (Elt F)),
    StableHlo.binary main_v27 main_v28 main_v29 (addi : (⟨S8192x4096, .i32⟩ : BufTy).Contents (Elt F) → (⟨S8192x4096, .i32⟩ : BufTy).Contents (Elt F) → (⟨S8192x4096, .i32⟩ : BufTy).Contents (Elt F)),
    StableHlo.TRef.nullary main_call3.c (constantI S_ 32 0#32),
    StableHlo.TRef.unary main_call3.c main_call3.v0 (broadcastInDim S8192x4096 ![] bcast_S_S8192x4096),
    StableHlo.TRef.binary (.of main_v29 : StableHlo.TRef sig ⟨S8192x4096, .i32⟩) main_call3.v0 main_call3.v1 (cmpi .slt),
    StableHlo.TRef.nullary main_call3.c_0 (constantI S_ 32 8192#32),
    StableHlo.TRef.unary main_call3.c_0 main_call3.v2 (broadcastInDim S8192x4096 ![] bcast_S_S8192x4096),
    StableHlo.TRef.binary (.of main_v29 : StableHlo.TRef sig ⟨S8192x4096, .i32⟩) main_call3.v2 main_call3.v3 addi,
    StableHlo.TRef.ternary main_call3.v1 main_call3.v3 (.of main_v29 : StableHlo.TRef sig ⟨S8192x4096, .i32⟩) main_call3.v4 select,
    StableHlo.TRef.reshape main_call3.v4 main_call3.v5 rfl shapeCasts_S8192x4096_S8192x4096x1,
    StableHlo.TRef.nullary main_call3.c_1 (constantI S1 32 8191#32),
    StableHlo.TRef.nullary main_call3.c_2 (constantI S_ 32 0#32),
    StableHlo.TRef.unary main_call3.c_2 main_call3.v6 (broadcastInDim S8192x4096x1 ![] bcast_S_S8192x4096x1),
    StableHlo.TRef.binary main_call3.v5 main_call3.v6 main_call3.v7 (cmpi .sge),
    StableHlo.TRef.unary main_call3.c_1 main_call3.v8 (broadcastInDim S1x1x1 ![2] bcast_S1_S1x1x1_2),
    StableHlo.TRef.unary main_call3.v8 main_call3.v9 (broadcastInDim S8192x4096x1 ![0, 1, 2] bcast_S1x1x1_S8192x4096x1_0_1_2),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S8192x4096x1_S8192x4096_d2 h_S_),
    StableHlo.TRef.binary (.of main_v23 : StableHlo.TRef sig ⟨S8192x8192, .f32⟩) main_call3.v5 main_call3.v13 (fun x i => Host.gather gather_S8192x8192_S8192x4096x1_S8192x4096_n_1_0_0_1_2_11 x i),
    StableHlo.TRef.nullary main_call3.cst (constant S_ .f32 0x7FC00000#32),
    StableHlo.TRef.unary main_call3.cst main_call3.v14 (broadcastInDim S8192x4096 ![] bcast_S_S8192x4096),
    StableHlo.TRef.ternary main_call3.v12 main_call3.v13 main_call3.v14 main_call3.v15 select,
    StableHlo.unary main_v30 main_v31 (broadcastInDim S8192x1x4096 ![0, 2] bcast_S8192x4096_S8192x1x4096_0_2 : (⟨S8192x4096, .f32⟩ : BufTy).Contents (Elt F) → (⟨S8192x1x4096, .f32⟩ : BufTy).Contents (Elt F)) ]

theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    unary_bufs_sub .., unary_bufs_sub .., nullary_bufs_sub .., unary_bufs_sub .., binary_bufs_sub .., nullary_bufs_sub ..,
    unary_bufs_sub .., binary_bufs_sub .., unary_bufs_sub .., unary_bufs_sub .., binary_bufs_sub .., unary_bufs_sub ..,
    unary_bufs_sub .., nullary_bufs_sub .., unary_bufs_sub .., binary_bufs_sub .., unary_bufs_sub .., binary_bufs_sub ..,
    binary_bufs_sub .., unary_bufs_sub .., binary_bufs_sub .., unary_bufs_sub .., unary_bufs_sub .., unary_bufs_sub ..,
    unary_bufs_sub .., binary_bufs_sub .., ternary_bufs_sub .., unary_bufs_sub .., unary_bufs_sub .., unary_bufs_sub ..,
    binary_bufs_sub .., nullary_bufs_sub .., unary_bufs_sub .., binary_bufs_sub .., unary_bufs_sub .., unary_bufs_sub ..,
    nullary_bufs_sub .., unary_bufs_sub .., binary_bufs_sub .., unary_bufs_sub .., binary_bufs_sub .., binary_bufs_sub ..,
    unary_bufs_sub .., binary_bufs_sub .., unary_bufs_sub .., unary_bufs_sub .., unary_bufs_sub .., unary_bufs_sub ..,
    binary_bufs_sub .., ternary_bufs_sub .., unary_bufs_sub .., unary_bufs_sub .., unary_bufs_sub .., binary_bufs_sub ..,
    binary_bufs_sub .., nullary_bufs_sub .., binary_bufs_sub .., nullary_bufs_sub .., unary_bufs_sub .., unary_bufs_sub ..,
    unary_bufs_sub .., binary_bufs_sub .., unary_bufs_sub .., unary_bufs_sub .., unary_bufs_sub .., binary_bufs_sub ..,
    unary_bufs_sub .., nullary_bufs_sub .., unary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., reshape_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub .., unary_bufs_sub ..⟩

/-! ## The line in seven stretches

The masks' term reads the grid four times and the wrapped index nine. With the line cut into
stretches each stretch's result is a term of what the stretch before left in the buffers it reads,
and the fold over the whole line is the stretches' folds composed. -/

/-- The first twelve operations: the probabilities and the sampled grid. -/
abbrev opsA : List (HloOp τ sig (Elt F)) :=
  [
    StableHlo.unary main_arg0 main_v0 (Host.negf : (⟨S4096, .f32⟩ : BufTy).Contents (Elt F) → (⟨S4096, .f32⟩ : BufTy).Contents (Elt F)),
    StableHlo.unary main_v0 main_v1 (Host.exp : (⟨S4096, .f32⟩ : BufTy).Contents (Elt F) → (⟨S4096, .f32⟩ : BufTy).Contents (Elt F)),
    StableHlo.nullary main_cst (constant S_ .f32 0x3F800000#32),
    StableHlo.unary main_cst main_v2 (broadcastInDim S4096 ![] bcast_S_S4096 : (⟨S_, .f32⟩ : BufTy).Contents (Elt F) → (⟨S4096, .f32⟩ : BufTy).Contents (Elt F)),
    StableHlo.binary main_v2 main_v1 main_v3 (addf : (⟨S4096, .f32⟩ : BufTy).Contents (Elt F) → (⟨S4096, .f32⟩ : BufTy).Contents (Elt F) → (⟨S4096, .f32⟩ : BufTy).Contents (Elt F)),
    StableHlo.nullary main_cst_0 (constant S_ .f32 0x3F800000#32),
    StableHlo.unary main_cst_0 main_v4 (broadcastInDim S4096 ![] bcast_S_S4096 : (⟨S_, .f32⟩ : BufTy).Contents (Elt F) → (⟨S4096, .f32⟩ : BufTy).Contents (Elt F)),
    StableHlo.binary main_v4 main_v3 main_v5 (Host.divf : (⟨S4096, .f32⟩ : BufTy).Contents (Elt F) → (⟨S4096, .f32⟩ : BufTy).Contents (Elt F) → (⟨S4096, .f32⟩ : BufTy).Contents (Elt F)),
    StableHlo.unary main_v5 main_v6 (broadcastInDim S1x4096 ![1] bcast_S4096_S1x4096_1 : (⟨S4096, .f32⟩ : BufTy).Contents (Elt F) → (⟨S1x4096, .f32⟩ : BufTy).Contents (Elt F)),
    StableHlo.unary main_v6 main_v7 (broadcastInDim S8192x4096 ![0, 1] bcast_S1x4096_S8192x4096_0_1 : (⟨S1x4096, .f32⟩ : BufTy).Contents (Elt F) → (⟨S8192x4096, .f32⟩ : BufTy).Contents (Elt F)),
    StableHlo.binary main_arg1 main_v7 main_v8 (cmpf .olt : (⟨S8192x4096, .f32⟩ : BufTy).Contents (Elt F) → (⟨S8192x4096, .f32⟩ : BufTy).Contents (Elt F) → (⟨S8192x4096, .i1⟩ : BufTy).Contents (Elt F)),
    StableHlo.unary main_v8 main_v9 (uitofp .f32 : (⟨S8192x4096, .i1⟩ : BufTy).Contents (Elt F) → (⟨S8192x4096, .f32⟩ : BufTy).Contents (Elt F)) ]

/-- The next forty-five: the two log-sigmoids and the summed log-probability. -/
abbrev opsB : List (HloOp τ sig (Elt F)) :=
  [
    StableHlo.TRef.unary (.of main_arg0 : StableHlo.TRef sig ⟨S4096, .f32⟩) main_call0.v0 Host.negf,
    StableHlo.TRef.nullary main_call0.call0.cst (constant S_ .f32 0x00000000#32),
    StableHlo.TRef.unary main_call0.call0.cst main_call0.call0.v0 (broadcastInDim S4096 ![] bcast_S_S4096),
    StableHlo.TRef.binary main_call0.v0 main_call0.call0.v0 main_call0.call0.v1 maximumf,
    StableHlo.TRef.unary main_call0.call0.cst main_call0.call0.v2 (broadcastInDim S4096 ![] bcast_S_S4096),
    StableHlo.TRef.binary main_call0.v0 main_call0.call0.v2 main_call0.call0.v3 subf,
    StableHlo.TRef.binary main_call0.call0.v3 main_call0.call0.v3 main_call0.call0.v4 (cmpf .une),
    StableHlo.TRef.unary main_call0.call0.cst main_call0.call0.v5 (broadcastInDim S4096 ![] bcast_S_S4096),
    StableHlo.TRef.binary main_call0.v0 main_call0.call0.v5 main_call0.call0.v6 addf,
    StableHlo.TRef.unary main_call0.call0.v3 main_call0.call0.v7 Host.absf,
    StableHlo.TRef.unary main_call0.call0.v7 main_call0.call0.v8 Host.negf,
    StableHlo.TRef.unary main_call0.call0.v8 main_call0.call0.v9 Host.exp,
    StableHlo.TRef.unary main_call0.call0.v9 main_call0.call0.v10 Host.log1p,
    StableHlo.TRef.binary main_call0.call0.v1 main_call0.call0.v10 main_call0.call0.v11 addf,
    StableHlo.TRef.ternary main_call0.call0.v4 main_call0.call0.v6 main_call0.call0.v11 main_call0.call0.v12 select,
    StableHlo.TRef.unary main_call0.call0.v12 main_call0.v2 Host.negf,
    StableHlo.unary main_v10 main_v11 (broadcastInDim S1x4096 ![1] bcast_S4096_S1x4096_1 : (⟨S4096, .f32⟩ : BufTy).Contents (Elt F) → (⟨S1x4096, .f32⟩ : BufTy).Contents (Elt F)),
    StableHlo.unary main_v11 main_v12 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v9 main_v12 main_v13 (mulf : (⟨S8192x4096, .f32⟩ : BufTy).Contents (Elt F) → (⟨S8192x4096, .f32⟩ : BufTy).Contents (Elt F) → (⟨S8192x4096, .f32⟩ : BufTy).Contents (Elt F)),
    StableHlo.nullary main_cst_1 (constant S_ .f32 0x3F800000#32),
    StableHlo.unary main_cst_1 main_v14 (broadcastInDim S8192x4096 ![] bcast_S_S8192x4096 : (⟨S_, .f32⟩ : BufTy).Contents (Elt F) → (⟨S8192x4096, .f32⟩ : BufTy).Contents (Elt F)),
    StableHlo.binary main_v14 main_v9 main_v15 (subf : (⟨S8192x4096, .f32⟩ : BufTy).Contents (Elt F) → (⟨S8192x4096, .f32⟩ : BufTy).Contents (Elt F) → (⟨S8192x4096, .f32⟩ : BufTy).Contents (Elt F)),
    StableHlo.unary main_arg0 main_v16 (Host.negf : (⟨S4096, .f32⟩ : BufTy).Contents (Elt F) → (⟨S4096, .f32⟩ : BufTy).Contents (Elt F)),
    StableHlo.TRef.unary (.of main_v16 : StableHlo.TRef sig ⟨S4096, .f32⟩) main_call1.v0 Host.negf,
    StableHlo.TRef.nullary main_call1.call0.cst (constant S_ .f32 0x00000000#32),
    StableHlo.TRef.unary main_call1.call0.cst main_call1.call0.v0 (broadcastInDim S4096 ![] bcast_S_S4096),
    StableHlo.TRef.binary main_call1.v0 main_call1.call0.v0 main_call1.call0.v1 maximumf,
    StableHlo.TRef.unary main_call1.call0.cst main_call1.call0.v2 (broadcastInDim S4096 ![] bcast_S_S4096),
    StableHlo.TRef.binary main_call1.v0 main_call1.call0.v2 main_call1.call0.v3 subf,
    StableHlo.TRef.binary main_call1.call0.v3 main_call1.call0.v3 main_call1.call0.v4 (cmpf .une),
    StableHlo.TRef.unary main_call1.call0.cst main_call1.call0.v5 (broadcastInDim S4096 ![] bcast_S_S4096),
    StableHlo.TRef.binary main_call1.v0 main_call1.call0.v5 main_call1.call0.v6 addf,
    StableHlo.TRef.unary main_call1.call0.v3 main_call1.call0.v7 Host.absf,
    StableHlo.TRef.unary main_call1.call0.v7 main_call1.call0.v8 Host.negf,
    StableHlo.TRef.unary main_call1.call0.v8 main_call1.call0.v9 Host.exp,
    StableHlo.TRef.unary main_call1.call0.v9 main_call1.call0.v10 Host.log1p,
    StableHlo.TRef.binary main_call1.call0.v1 main_call1.call0.v10 main_call1.call0.v11 addf,
    StableHlo.TRef.ternary main_call1.call0.v4 main_call1.call0.v6 main_call1.call0.v11 main_call1.call0.v12 select,
    StableHlo.TRef.unary main_call1.call0.v12 main_call1.v2 Host.negf,
    StableHlo.unary main_v17 main_v18 (broadcastInDim S1x4096 ![1] bcast_S4096_S1x4096_1 : (⟨S4096, .f32⟩ : BufTy).Contents (Elt F) → (⟨S1x4096, .f32⟩ : BufTy).Contents (Elt F)),
    StableHlo.unary main_v18 main_v19 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v15 main_v19 main_v20 (mulf : (⟨S8192x4096, .f32⟩ : BufTy).Contents (Elt F) → (⟨S8192x4096, .f32⟩ : BufTy).Contents (Elt F) → (⟨S8192x4096, .f32⟩ : BufTy).Contents (Elt F)),
    StableHlo.binary main_v13 main_v20 main_v21 (addf : (⟨S8192x4096, .f32⟩ : BufTy).Contents (Elt F) → (⟨S8192x4096, .f32⟩ : BufTy).Contents (Elt F) → (⟨S8192x4096, .f32⟩ : BufTy).Contents (Elt F)),
    StableHlo.nullary main_cst_2 (constant S_ .f32 0x00000000#32),
    StableHlo.binary main_v21 main_cst_2 main_v22 ((fun x v => Host.reduceAdd x v reducesTo_S8192x4096_S8192_d1 h_S_) : (⟨S8192x4096, .f32⟩ : BufTy).Contents (Elt F) → (⟨S_, .f32⟩ : BufTy).Contents (Elt F) → (⟨S8192, .f32⟩ : BufTy).Contents (Elt F)) ]

/-- The next nine: the constant the padding takes and does not read, and the reflect padding. -/
abbrev opsC : List (HloOp τ sig (Elt F)) :=
  [
    StableHlo.nullary main_c (constantI S_ 32 0#32),
    StableHlo.TRef.unary (.of main_v9 : StableHlo.TRef sig ⟨S8192x4096, .f32⟩) main_call2.v0 (extractStridedSlice S8192x1 ![0, 0] · slices_S8192x4096_S8192x1_0_0),
    StableHlo.TRef.unary (.of main_v9 : StableHlo.TRef sig ⟨S8192x4096, .f32⟩) main_call2.v1 (extractStridedSlice S8192x2048 ![0, 1] · slices_S8192x4096_S8192x2048_0_1),
    StableHlo.TRef.unary main_call2.v1 main_call2.call0.v0 (Host.reverse [1]),
    StableHlo.TRef.binary main_call2.call0.v0 (.of main_v9 : StableHlo.TRef sig ⟨S8192x4096, .f32⟩) main_call2.v3 (fun a b => concatenate S8192x6144 1 [⟨S8192x2048, a⟩, ⟨S8192x4096, b⟩] concatenates_S8192x2048_S8192x4096_S8192x6144_d1),
    StableHlo.TRef.unary main_call2.v3 main_call2.v4 (extractStridedSlice S8192x1 ![0, 6143] · slices_S8192x6144_S8192x1_0_6143),
    StableHlo.TRef.unary main_call2.v3 main_call2.v5 (extractStridedSlice S8192x2048 ![0, 4095] · slices_S8192x6144_S8192x2048_0_4095),
    StableHlo.TRef.unary main_call2.v5 main_call2.call1.v0 (Host.reverse [1]),
    StableHlo.TRef.binary main_call2.v3 main_call2.call1.v0 main_call2.v7 (fun a b => concatenate S8192x8192 1 [⟨S8192x6144, a⟩, ⟨S8192x2048, b⟩] concatenates_S8192x6144_S8192x2048_S8192x8192_d1) ]

/-- The next six: the window of indices. -/
abbrev opsD : List (HloOp τ sig (Elt F)) :=
  [
    StableHlo.unary main_arg2 main_v24 (broadcastInDim S8192x1 ![0] bcast_S8192_S8192x1_0 : (⟨S8192, .i32⟩ : BufTy).Contents (Elt F) → (⟨S8192x1, .i32⟩ : BufTy).Contents (Elt F)),
    StableHlo.nullary main_v25 (iotaInDim S4096 32 0),
    StableHlo.unary main_v25 main_v26 (broadcastInDim S1x4096 ![1] bcast_S4096_S1x4096_1 : (⟨S4096, .i32⟩ : BufTy).Contents (Elt F) → (⟨S1x4096, .i32⟩ : BufTy).Contents (Elt F)),
    StableHlo.unary main_v24 main_v27 (broadcastInDim S8192x4096 ![0, 1] bcast_S8192x1_S8192x4096_0_1 : (⟨S8192x1, .i32⟩ : BufTy).Contents (Elt F) → (⟨S8192x4096, .i32⟩ : BufTy).Contents (Elt F)),
    StableHlo.unary main_v26 main_v28 (broadcastInDim S8192x4096 ![0, 1] bcast_S1x4096_S8192x4096_0_1 : (⟨S1x4096, .i32⟩ : BufTy).Contents (Elt F) → (⟨S8192x4096, .i32⟩ : BufTy).Contents (Elt F)),
    StableHlo.binary main_v27 main_v28 main_v29 (addi : (⟨S8192x4096, .i32⟩ : BufTy).Contents (Elt F) → (⟨S8192x4096, .i32⟩ : BufTy).Contents (Elt F) → (⟨S8192x4096, .i32⟩ : BufTy).Contents (Elt F)) ]

/-- The next eight: the index wrapped from the end where negative, with a trailing unit axis. -/
abbrev opsE : List (HloOp τ sig (Elt F)) :=
  [
    StableHlo.TRef.nullary main_call3.c (constantI S_ 32 0#32),
    StableHlo.TRef.unary main_call3.c main_call3.v0 (broadcastInDim S8192x4096 ![] bcast_S_S8192x4096),
    StableHlo.TRef.binary (.of main_v29 : StableHlo.TRef sig ⟨S8192x4096, .i32⟩) main_call3.v0 main_call3.v1 (cmpi .slt),
    StableHlo.TRef.nullary main_call3.c_0 (constantI S_ 32 8192#32),
    StableHlo.TRef.unary main_call3.c_0 main_call3.v2 (broadcastInDim S8192x4096 ![] bcast_S_S8192x4096),
    StableHlo.TRef.binary (.of main_v29 : StableHlo.TRef sig ⟨S8192x4096, .i32⟩) main_call3.v2 main_call3.v3 addi,
    StableHlo.TRef.ternary main_call3.v1 main_call3.v3 (.of main_v29 : StableHlo.TRef sig ⟨S8192x4096, .i32⟩) main_call3.v4 select,
    StableHlo.TRef.reshape main_call3.v4 main_call3.v5 rfl shapeCasts_S8192x4096_S8192x4096x1 ]

/-- The next ten: where that index lies in bounds. -/
abbrev opsG : List (HloOp τ sig (Elt F)) :=
  [
    StableHlo.TRef.nullary main_call3.c_1 (constantI S1 32 8191#32),
    StableHlo.TRef.nullary main_call3.c_2 (constantI S_ 32 0#32),
    StableHlo.TRef.unary main_call3.c_2 main_call3.v6 (broadcastInDim S8192x4096x1 ![] bcast_S_S8192x4096x1),
    StableHlo.TRef.binary main_call3.v5 main_call3.v6 main_call3.v7 (cmpi .sge),
    StableHlo.TRef.unary main_call3.c_1 main_call3.v8 (broadcastInDim S1x1x1 ![2] bcast_S1_S1x1x1_2),
    StableHlo.TRef.unary main_call3.v8 main_call3.v9 (broadcastInDim S8192x4096x1 ![0, 1, 2] bcast_S1x1x1_S8192x4096x1_0_1_2),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S8192x4096x1_S8192x4096_d2 h_S_) ]

/-- The last five: the gather along the bank axis, a NaN out of bounds, and the unit axis put in the middle. -/
abbrev opsH : List (HloOp τ sig (Elt F)) :=
  [
    StableHlo.TRef.binary (.of main_v23 : StableHlo.TRef sig ⟨S8192x8192, .f32⟩) main_call3.v5 main_call3.v13 (fun x i => Host.gather gather_S8192x8192_S8192x4096x1_S8192x4096_n_1_0_0_1_2_11 x i),
    StableHlo.TRef.nullary main_call3.cst (constant S_ .f32 0x7FC00000#32),
    StableHlo.TRef.unary main_call3.cst main_call3.v14 (broadcastInDim S8192x4096 ![] bcast_S_S8192x4096),
    StableHlo.TRef.ternary main_call3.v12 main_call3.v13 main_call3.v14 main_call3.v15 select,
    StableHlo.unary main_v30 main_v31 (broadcastInDim S8192x1x4096 ![0, 2] bcast_S8192x4096_S8192x1x4096_0_2 : (⟨S8192x4096, .f32⟩ : BufTy).Contents (Elt F) → (⟨S8192x1x4096, .f32⟩ : BufTy).Contents (Elt F)) ]

/-- The line is its seven stretches one after the other. -/
theorem ops_split : (ops : List (HloOp τ sig (Elt F)))
    = opsA ++ (opsB ++ (opsC ++ (opsD ++ (opsE ++ (opsG ++ opsH))))) := rfl

/-- Two stretches run one after the other fold as their concatenation. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- Where an index vector lies in `0 … 8191`. -/
def inBounds3 (j : IVec S8192x4096x1 32) : IVec S8192x4096 1 :=
  Host.reduce IntOp.andi
    (andi (cmpi .sge j (broadcastInDim S8192x4096x1 ![] bcast_S_S8192x4096x1 (constantI S_ 32 0#32)))
      (cmpi .sle j
        (broadcastInDim S8192x4096x1 ![0, 1, 2] bcast_S1x1x1_S8192x4096x1_0_1_2
          (broadcastInDim S1x1x1 ![2] bcast_S1_S1x1x1_2 (constantI S1 32 8191#32)))))
    (constantI S_ 1 1#1) reducesTo_S8192x4096x1_S8192x4096_d2 h_S_

section Stretches

variable (W : Valuation τ sig (Elt F))

/-- After the first stretch the grid's buffer holds the grid of the logits and the uniforms. -/
theorem A_v9 : after opsA W (main_v9 : DevRef τ sig)
    = RefTerms.gridv (W (main_arg0 : DevRef τ sig)) (W (main_arg1 : DevRef τ sig)) := by
  simp only [after_cons, after_nil]
  rfl

theorem A_arg2 : after opsA W (main_arg2 : DevRef τ sig) = W (main_arg2 : DevRef τ sig) := by
  simp only [after_cons, after_nil]
  rfl

theorem B_v9 : after opsB W (main_v9 : DevRef τ sig) = W (main_v9 : DevRef τ sig) := by
  simp only [after_cons, after_nil]
  rfl

theorem B_arg2 : after opsB W (main_arg2 : DevRef τ sig) = W (main_arg2 : DevRef τ sig) := by
  simp only [after_cons, after_nil]
  rfl

attribute [local irreducible] concatenate Host.reverse in
/-- The padding's stretch leaves the reflect-padded grid in its result buffer. -/
theorem C_v23 : after opsC W (main_v23 : DevRef τ sig) = RefTerms.paddedv (W (main_v9 : DevRef τ sig)) := by
  simp only [after_cons, after_nil]
  rfl

theorem C_arg2 : after opsC W (main_arg2 : DevRef τ sig) = W (main_arg2 : DevRef τ sig) := by
  simp only [after_cons, after_nil]
  rfl

/-- The indices' stretch leaves `shift + iota` in its result buffer. -/
theorem D_v29 : after opsD W (main_v29 : DevRef τ sig) = RefTerms.idxv (W (main_arg2 : DevRef τ sig)) := by
  simp only [after_cons, after_nil]
  rfl

theorem D_v23 : after opsD W (main_v23 : DevRef τ sig) = W (main_v23 : DevRef τ sig) := by
  simp only [after_cons, after_nil]
  rfl

/-- The fifth stretch leaves the wrapped index with its trailing unit axis. -/
theorem E_v5 : after opsE W (main_call3_v5 : DevRef τ sig) = RefTerms.idx3 (W (main_v29 : DevRef τ sig)) := by
  simp only [after_cons, after_nil]
  rfl

theorem E_v23 : after opsE W (main_v23 : DevRef τ sig) = W (main_v23 : DevRef τ sig) := by
  simp only [after_cons, after_nil]
  rfl

attribute [local irreducible] Host.reduce in
/-- The sixth stretch leaves where the index vector is in bounds. -/
theorem G_v12 : after opsG W (main_call3_v12 : DevRef τ sig) = inBounds3 (W (main_call3_v5 : DevRef τ sig)) := by
  simp only [after_cons, after_nil]
  rfl

theorem G_call3_v5 : after opsG W (main_call3_v5 : DevRef τ sig) = W (main_call3_v5 : DevRef τ sig) := by
  simp only [after_cons, after_nil]
  rfl

theorem G_v23 : after opsG W (main_v23 : DevRef τ sig) = W (main_v23 : DevRef τ sig) := by
  simp only [after_cons, after_nil]
  rfl

attribute [local irreducible] Host.gather in
/-- The last stretch leaves the gather where in bounds, a NaN elsewhere, a unit axis in the middle. -/
theorem H_v31 : after opsH W (main_v31 : DevRef τ sig)
    = broadcastInDim S8192x1x4096 ![0, 2] bcast_S8192x4096_S8192x1x4096_0_2
        (select (W (main_call3_v12 : DevRef τ sig))
          (Host.gather gather_S8192x8192_S8192x4096x1_S8192x4096_n_1_0_0_1_2_11 (W (main_v23 : DevRef τ sig))
            (W (main_call3_v5 : DevRef τ sig)))
          (broadcastInDim S8192x4096 ![] bcast_S_S8192x4096 (constant S_ .f32 0x7FC00000#32))) := by
  simp only [after_cons, after_nil]
  rfl

end Stretches

/-- The masks' buffer after the whole line: stretch by stretch, each result read where the stretch
    before left it; what is left is `masksOut` with its stages unfolded. -/
theorem v31_eq (V : Valuation τ sig (Elt F)) :
    after ops V (main_v31 : DevRef τ sig)
      = RefTerms.masksOut (V (main_arg0 : DevRef τ sig)) (V (main_arg1 : DevRef τ sig)) (V (main_arg2 : DevRef τ sig)) := by
  rw [ops_split, after_app, after_app, after_app, after_app, after_app, after_app,
    H_v31, G_v12, G_call3_v5, G_v23, E_v5, E_v23, D_v29, D_v23, C_v23, C_arg2, B_v9, B_arg2, A_v9, A_arg2]
  unfold RefTerms.masksOut RefTerms.takev RefTerms.inBounds inBounds3
  rfl

attribute [local irreducible] Host.reduce Host.reduceAdd Host.gather concatenate Host.reverse in
set_option maxRecDepth 16384 in
set_option maxHeartbeats 1600000 in
/-- The log-probability's buffer after the whole line: the fold unrolled, each operation's result
    decides whether the buffer read is the one it writes; the sum over the banks is kept folded. -/
theorem v22_eq (V : Valuation τ sig (Elt F)) :
    after ops V (main_v22 : DevRef τ sig)
      = RefTerms.lpOut (V (main_arg0 : DevRef τ sig)) (V (main_arg1 : DevRef τ sig)) := by
  simp only [after_cons, after_nil]
  rfl

set_option maxRecDepth 16384 in
set_option maxHeartbeats 1600000 in
theorem arg0_eq (V : Valuation τ sig (Elt F)) :
    after ops V (main_arg0 : DevRef τ sig) = V (main_arg0 : DevRef τ sig) := by
  simp only [after_cons, after_nil]
  rfl

set_option maxRecDepth 16384 in
set_option maxHeartbeats 1600000 in
theorem arg1_eq (V : Valuation τ sig (Elt F)) :
    after ops V (main_arg1 : DevRef τ sig) = V (main_arg1 : DevRef τ sig) := by
  simp only [after_cons, after_nil]
  rfl

set_option maxRecDepth 16384 in
set_option maxHeartbeats 1600000 in
theorem arg2_eq (V : Valuation τ sig (Elt F)) :
    after ops V (main_arg2 : DevRef τ sig) = V (main_arg2 : DevRef τ sig) := by
  simp only [after_cons, after_nil]
  rfl

/-- On every device, for any float values, from any memory with zero counters: every weakly fair
    execution of @main terminates with the masks and the log-probability at their pure terms of the
    arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31) = RefTerms.masksOut (m ((c.tc : Thread nD τ).loc main_arg0)) (m ((c.tc : Thread nD τ).loc main_arg1)) (m ((c.tc : Thread nD τ).loc main_arg2))
      ∧ r.2.mem ((c.tc : Thread nD τ).loc main_v22) = RefTerms.lpOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v31).trans (v31_eq _),
      (h c main_v22).trans (v22_eq _),
      (h c main_arg0).trans (arg0_eq _),
      (h c main_arg1).trans (arg1_eq _),
      (h c main_arg2).trans (arg2_eq _)⟩)
    (run_seq scopedRefs_eq scopedSems_eq defs main (fun _ => ops) main_eq (fun _ => ops_sub) m ρ)

end Cert.ReferenceIdeal.RefRun

end
-- ==== Proof.RefValuePad.lean ====
/-
  The reference's Bernoulli grid and its reflect padding, read at explicit coordinates.

  At the ideal values p j = 1 / (1 + exp (-logits j)) is the specification's prob, the grid at (r, j) is
  1 when u r j < p j and 0 otherwise, and the padded row of length 8192 shows at position k the grid's
  column reflIdx k: positions below 2048 mirror the columns 2048, …, 1, positions 2048 … 6143 are the
  columns 0 … 4095 themselves, and positions from 6144 on mirror the columns 4094, …, 2047.
-/
import proofs.«422330_j45105746542888_3_alg».proof.Proof.RefTerms
import proofs.«422330_j45105746542888_3_alg».proof.Proof.Spec
import Idealize.ShloMosaic.Lib.ValueIdx
import Idealize.ShloMosaic.Lib.Pipeline.Value
import Idealize.ShloMosaic.PureOps.Ideal

noncomputable section

namespace Cert.ReferenceIdeal.RefValue

open Cert.ReferenceIdeal Idealize.ShloMosaic Idealize.ShloMosaic.ValueIdx

/-! ## Broadcasts of a vector over the 8192 × 4096 rectangle -/

/-- A vector laid along the columns of the rectangle reads, at (r, j), the vector at j. -/
theorem bcastCols_apply {α : Type} (h₁ : S4096.BroadcastsInDim S1x4096 ![1]) (h₂ : S1x4096.BroadcastsInDim S8192x4096 ![0, 1])
    (x : S4096.Idx → α) (r : Fin 8192) (j : Fin 4096) :
    broadcastInDim S8192x4096 ![0, 1] h₂ (broadcastInDim S1x4096 ![1] h₁ x) (ix2 r j) = x (ix1 j) := by
  refine (broadcastInDim_apply _ _ _ (ix2 r j) (ix2 (0 : Fin 1) j) ?_).trans ?_
  · intro a
    match a with
    | ⟨0, _⟩ => rfl
    | ⟨1, _⟩ => rfl
  · refine broadcastInDim_apply _ _ _ _ (ix1 j) ?_
    intro a
    match a with
    | ⟨0, _⟩ => rfl

/-- A vector laid along the rows of the rectangle reads, at (r, j), the vector at r. -/
theorem bcastRows_apply {α : Type} (h₁ : S8192.BroadcastsInDim S8192x1 ![0]) (h₂ : S8192x1.BroadcastsInDim S8192x4096 ![0, 1])
    (x : S8192.Idx → α) (r : Fin 8192) (j : Fin 4096) :
    broadcastInDim S8192x4096 ![0, 1] h₂ (broadcastInDim S8192x1 ![0] h₁ x) (ix2 r j) = x (ix1 r) := by
  refine (broadcastInDim_apply _ _ _ (ix2 r j) (ix2 r (0 : Fin 1)) ?_).trans ?_
  · intro a
    match a with
    | ⟨0, _⟩ => rfl
    | ⟨1, _⟩ => rfl
  · refine broadcastInDim_apply _ _ _ _ (ix1 r) ?_
    intro a
    match a with
    | ⟨0, _⟩ => rfl

/-- A per-bank row repeated over the batch reads, at (r, j), the row at j. -/
theorem rowsF_apply {F : FTy → Type} [FloatOps F] (x : FVec F S4096 .f32) (r : Fin 8192) (j : Fin 4096) :
    RefTerms.rowsF x (ix2 r j) = x (ix1 j) := by
  unfold RefTerms.rowsF
  exact bcastCols_apply _ _ x r j

/-! ## The probabilities and the grid -/

/-- The probability of bank j is the logistic function of its logit. -/
theorem pvec_apply (a0 : FVec Ideal S4096 .f32) (j : Fin 4096) :
    RefTerms.pvec (F := Ideal) a0 (ix1 j) = Cert.Spec.prob (a0 (ix1 j)) := rfl

/-- The grid at (r, j) is 1 when the uniform is below the probability and 0 otherwise. -/
theorem gridv_apply (a0 : FVec Ideal S4096 .f32) (a1 : FVec Ideal S8192x4096 .f32) (r : Fin 8192) (j : Fin 4096) :
    RefTerms.gridv (F := Ideal) a0 a1 (ix2 r j)
      = Cert.Spec.grid (fun j => a0 (ix1 j)) (fun r j => a1 (ix2 r j)) r j := by
  unfold RefTerms.gridv Cert.Spec.grid Cert.Spec.bern
  show FloatOps.uitofp .f32 (FloatOps.cmpf .olt (a1 (ix2 r j)) (RefTerms.rowsF (RefTerms.pvec a0) (ix2 r j))) = _
  rw [rowsF_apply, pvec_apply]
  show (((Ideal.cmp .olt (a1 (ix2 r j)) (Cert.Spec.prob (a0 (ix1 j)))).toNat : ℝ) : EReal) = _
  unfold Ideal.cmp
  by_cases h : a1 (ix2 r j) < Cert.Spec.prob (a0 (ix1 j))
  · simp [h]
  · simp [h]

/-! ## The reflect padding -/

/-- A reversal along the columns of an 8192 × 2048 array reads column 2047 - k. -/
theorem reverse_cols_apply {α : Type} (x : S8192x2048.Idx → α) (r : Fin 8192) (k : Fin 2048) :
    Host.reverse [1] x (ix2 r k) = x (ix2 r k.rev) := by
  unfold Host.reverse
  congr 1
  funext a
  match a with
  | ⟨0, _⟩ => rfl
  | ⟨1, _⟩ => rfl

/-- The left-padded row at position k: the mirrored column 2048 - k below 2048, the column k - 2048 from there on. -/
theorem padLeft_apply {F : FTy → Type} [FloatOps F] (g : FVec F S8192x4096 .f32) (r : Fin 8192) (k : Fin 6144) :
    RefTerms.padLeft g (ix2 r k)
      = g (ix2 r ⟨if k.val < 2048 then 2048 - k.val else k.val - 2048, by have := k.isLt; split_ifs <;> omega⟩) := by
  unfold RefTerms.padLeft
  by_cases hk : k.val < 2048
  · refine (concatenate_pair_apply_left (s₁ := S8192x2048) (s₂ := S8192x4096) (1 : Fin 2) _ _ _ (ix2 r k) rfl
      (ix2 r (⟨k.val, hk⟩ : Fin 2048)) ?_).trans ?_
    · intro b
      match b with
      | ⟨0, _⟩ => rfl
      | ⟨1, _⟩ => rfl
    · rw [reverse_cols_apply]
      refine (extractStridedSlice_apply _ _ _ _ (ix2 r (⟨2048 - k.val, by omega⟩ : Fin 4096)) ?_).trans ?_
      · intro a
        match a with
        | ⟨0, _⟩ => show r.val = 0 + r.val; omega
        | ⟨1, _⟩ => show 2048 - k.val = 1 + (2048 - (k.val + 1)); omega
      · congr 2
        exact Fin.ext (by simp [hk])
  · refine (concatenate_pair_apply_right (s₁ := S8192x2048) (s₂ := S8192x4096) (1 : Fin 2) _ _ _ (ix2 r k) rfl rfl
      (ix2 r (⟨k.val - 2048, by have := k.isLt; omega⟩ : Fin 4096)) ?_ ?_).trans ?_
    · intro b hb
      match b with
      | ⟨0, _⟩ => rfl
      | ⟨1, _⟩ => exact absurd rfl hb
    · show k.val - 2048 + 2048 = k.val
      omega
    · congr 2
      exact Fin.ext (by simp [hk])

/-- The padded row at position k shows the column the specification's fold names. -/
theorem paddedv_apply {F : FTy → Type} [FloatOps F] (g : FVec F S8192x4096 .f32) (r : Fin 8192) (k : Fin 8192) :
    RefTerms.paddedv g (ix2 r k) = g (ix2 r ⟨Cert.Spec.reflIdx k.val, Cert.Spec.reflIdx_lt k.isLt⟩) := by
  unfold RefTerms.paddedv
  by_cases hk : k.val < 6144
  · refine (concatenate_pair_apply_left (s₁ := S8192x6144) (s₂ := S8192x2048) (1 : Fin 2) _ _ _ (ix2 r k) rfl
      (ix2 r (⟨k.val, hk⟩ : Fin 6144)) ?_).trans ?_
    · intro b
      match b with
      | ⟨0, _⟩ => rfl
      | ⟨1, _⟩ => rfl
    · rw [padLeft_apply]
      congr 2
      apply Fin.ext
      show (if k.val < 2048 then 2048 - k.val else k.val - 2048) = Cert.Spec.reflIdx k.val
      unfold Cert.Spec.reflIdx
      split_ifs <;> omega
  · refine (concatenate_pair_apply_right (s₁ := S8192x6144) (s₂ := S8192x2048) (1 : Fin 2) _ _ _ (ix2 r k) rfl rfl
      (ix2 r (⟨k.val - 6144, by have := k.isLt; omega⟩ : Fin 2048)) ?_ ?_).trans ?_
    · intro b hb
      match b with
      | ⟨0, _⟩ => rfl
      | ⟨1, _⟩ => exact absurd rfl hb
    · show k.val - 6144 + 6144 = k.val
      omega
    · rw [reverse_cols_apply]
      refine (extractStridedSlice_apply _ _ _ _ (ix2 r (⟨12286 - k.val, by have := k.isLt; omega⟩ : Fin 6144)) ?_).trans ?_
      · intro a
        match a with
        | ⟨0, _⟩ => show r.val = 0 + r.val; omega
        | ⟨1, _⟩ =>
          show 12286 - k.val = 4095 + (2048 - (k.val - 6144 + 1))
          have := k.isLt
          omega
      · rw [padLeft_apply]
        congr 2
        apply Fin.ext
        show (if 12286 - k.val < 2048 then 2048 - (12286 - k.val) else 12286 - k.val - 2048) = Cert.Spec.reflIdx k.val
        unfold Cert.Spec.reflIdx
        have := k.isLt
        split_ifs <;> omega

end Cert.ReferenceIdeal.RefValue

end
-- ==== Proof.RefValueTake.lean ====
/-
  The reference's window of indices and its gather along the bank axis, read at explicit coordinates.

  The index at (r, j) is shift r + j. When every index lies in 0 … 8191 (a shift of at most 4096 gives at most
  4096 + 4095) no index is counted from the end, the range test 0 ≤ · ≤ 8191 is true everywhere, the gather's
  clamp into 0 … 8191 does nothing, and the select takes the gathered value: the take of x at (r, j) is x at
  (r, index at (r, j)).
-/
import proofs.«422330_j45105746542888_3_alg».proof.Proof.RefTerms
import proofs.«422330_j45105746542888_3_alg».proof.Proof.RefValuePad
import Idealize.ShloMosaic.Lib.ValueIdx
import Idealize.ShloMosaic.Lib.Pipeline.Value
import Idealize.ShloMosaic.Lib.StableHlo.Predicate

noncomputable section

namespace Cert.ReferenceIdeal.RefValue

open Cert.ReferenceIdeal Idealize.ShloMosaic Idealize.ShloMosaic.ValueIdx

/-! ## The window of indices -/

/-- The window of indices at row r and column j: the row's shift plus j. -/
theorem idxv_apply (a2 : IVec S8192 32) (r : Fin 8192) (j : Fin 4096) :
    RefTerms.idxv a2 (ix2 r j) = a2 (ix1 r) + BitVec.ofNat 32 j.val := by
  unfold RefTerms.idxv
  show IntOp.addi _ _ = _
  rw [bcastRows_apply, bcastCols_apply]
  rfl

/-- Its value, for a shift of at most 4096: no wrap. -/
theorem idxv_toNat (a2 : IVec S8192 32) (r : Fin 8192) (j : Fin 4096) (hs : (a2 (ix1 r)).toNat ≤ 4096) :
    (RefTerms.idxv a2 (ix2 r j)).toNat = (a2 (ix1 r)).toNat + j.val := by
  rw [idxv_apply, BitVec.toNat_add, BitVec.toNat_ofNat]
  have := j.isLt
  omega

/-- A non-negative index is not counted from the end. -/
theorem wrapIdx_apply (i : IVec S8192x4096 32) (y : S8192x4096.Idx) (hy : (i y).toNat < 2 ^ 31) :
    RefTerms.wrapIdx i y = i y := by
  unfold RefTerms.wrapIdx
  show Scalar.select (IntOp.cmpi .slt (i y) 0#32) _ (i y) = i y
  have h0 : IntOp.cmpi .slt (i y) 0#32 = 0#1 := by
    refine eq_zero_of_ne_one fun h => ?_
    have := (StableHlo.Predicate.slt_iff_toNat hy (by decide)).1 h
    simp at this
  rw [h0, select_zero]

/-- The gather's index vector at (r, j, 0) is the wrapped index at (r, j). -/
theorem idx3_apply (i : IVec S8192x4096 32) (r : Fin 8192) (j : Fin 4096) :
    RefTerms.idx3 i (ix3 r j (0 : Fin 1)) = RefTerms.wrapIdx i (ix2 r j) := by
  unfold RefTerms.idx3
  refine shapeCast_apply _ _ _ (ix2 r j) ?_
  rw [Shape.rowMajor_val_two, Shape.rowMajor_val_three]
  show r.val * 4096 + j.val = (r.val * 4096 + j.val) * 1 + 0
  omega

/-! ## The range test -/

/-- A left fold by and from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

/-- Where every index lies in 0 … 8191 the range test is true everywhere. -/
theorem inBounds_eq_one (i : IVec S8192x4096 32) (hi : ∀ y, (i y).toNat ≤ 8191) (y : S8192x4096.Idx) :
    RefTerms.inBounds i y = 1#1 := by
  unfold RefTerms.inBounds Host.reduce
  refine foldl_andi_one _ _ fun n _ => ?_
  obtain ⟨a, b, c, hc⟩ : ∃ (a : Fin 8192) (b : Fin 4096) (c : Fin 1), S8192x4096x1.rowMajor.symm n = ix3 a b c :=
    ⟨_, _, _, eq_ix3 _⟩
  obtain rfl : c = 0 := Subsingleton.elim _ _
  rw [hc]
  show IntOp.andi (IntOp.cmpi .sge (RefTerms.idx3 i (ix3 a b (0 : Fin 1))) 0#32)
      (IntOp.cmpi .sle (RefTerms.idx3 i (ix3 a b (0 : Fin 1))) 8191#32) = 1#1
  have hw := hi (ix2 a b)
  rw [idx3_apply, wrapIdx_apply i _ (by omega)]
  exact IntOp.andi_eq_one.2 ⟨(StableHlo.Predicate.sge_iff_toNat (by omega) (by decide)).2 (by simp),
    (StableHlo.Predicate.sle_iff_toNat (by omega) (by decide)).2 (by simpa using hw)⟩

/-! ## The gather along the bank axis -/

/-- The gather at (r, j): row r of the operand at the start index the index vector holds at (r, j, 0), read signed and
    clamped into 0 … 8191. -/
theorem gather_apply {α : Type} (x : S8192x8192.Idx → α) (idx : IVec S8192x4096x1 32) (r : Fin 8192) (j : Fin 4096) :
    Host.gather gather_S8192x8192_S8192x4096x1_S8192x4096_n_1_0_0_1_2_11 x idx (ix2 r j)
      = x (ix2 r ⟨min (idx (ix3 r j (0 : Fin 1))).toInt.toNat 8191, by omega⟩) := by
  unfold Host.gather
  congr 1
  funext a
  refine Fin.ext ?_
  match a with
  | ⟨0, _⟩ =>
    show GatherDims.start _ (ix2 r j) idx 0 + GatherDims.batchCoord _ (ix2 r j) 0 + GatherDims.offCoord _ (ix2 r j) 0 = r.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S8192x8192_S8192x4096x1_S8192x4096_n_1_0_0_1_2_11.operandBatchingDims from
      List.mem_singleton.mpr rfl)]
    unfold GatherDims.siCoord
    simp only [Fin.val_cast]
    have e : ∀ X : Fin 2, X.val = 0 → ((ix2 r j : S8192x4096.Idx) X).val = r.val := fun X hX => by
      obtain rfl : X = 0 := Fin.ext hX
      rfl
    refine e _ ?_
    decide
  | ⟨1, _⟩ =>
    show GatherDims.start _ (ix2 r j) idx 1 + GatherDims.batchCoord _ (ix2 r j) 1 + GatherDims.offCoord _ (ix2 r j) 1 = _
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S8192x8192_S8192x4096x1_S8192x4096_n_1_0_0_1_2_11.startIndexMap from
      List.mem_singleton.mpr rfl)]
    have hsi : GatherDims.siIdx gather_S8192x8192_S8192x4096x1_S8192x4096_n_1_0_0_1_2_11 (ix2 r j)
        ⟨List.idxOf (1 : Fin 2) gather_S8192x8192_S8192x4096x1_S8192x4096_n_1_0_0_1_2_11.startIndexMap,
          List.idxOf_lt_length_iff.2 (List.mem_singleton.mpr rfl)⟩ = ix3 r j (0 : Fin 1) := by
      funext b
      refine Fin.ext ?_
      match b with
      | ⟨0, _⟩ => rfl
      | ⟨1, _⟩ => rfl
      | ⟨2, _⟩ => rfl
    rw [hsi]
    rfl

/-! ## take_along_axis and the masks -/

/-- With every index in 0 … 8191 the take reads the operand's row r at that index. -/
theorem takev_apply {F : FTy → Type} [FloatOps F] (x : FVec F S8192x8192 .f32) (i : IVec S8192x4096 32)
    (hi : ∀ y, (i y).toNat ≤ 8191) (r : Fin 8192) (j : Fin 4096) :
    RefTerms.takev x i (ix2 r j) = x (ix2 r ⟨(i (ix2 r j)).toNat, by have := hi (ix2 r j); omega⟩) := by
  unfold RefTerms.takev
  show Scalar.select (RefTerms.inBounds i (ix2 r j)) (Host.gather _ x (RefTerms.idx3 i) (ix2 r j)) _ = _
  have hw := hi (ix2 r j)
  rw [inBounds_eq_one i hi, select_one, gather_apply]
  congr 2
  apply Fin.ext
  show min (RefTerms.idx3 i (ix3 r j (0 : Fin 1))).toInt.toNat 8191 = (i (ix2 r j)).toNat
  rw [idx3_apply, wrapIdx_apply i _ (by omega), StableHlo.Predicate.toInt_eq_toNat_of_lt (by omega), Int.toNat_natCast]
  omega

/-- The masks at (r, 0, j) are the take at (r, j). -/
theorem masksOut_read {F : FTy → Type} [FloatOps F] (a0 : FVec F S4096 .f32) (a1 : FVec F S8192x4096 .f32) (a2 : IVec S8192 32)
    (r : Fin 8192) (j : Fin 4096) :
    RefTerms.masksOut a0 a1 a2 (ix3 r (0 : Fin 1) j)
      = RefTerms.takev (RefTerms.paddedv (RefTerms.gridv a0 a1)) (RefTerms.idxv a2) (ix2 r j) := by
  unfold RefTerms.masksOut
  refine broadcastInDim_apply _ _ _ _ (ix2 r j) ?_
  intro a
  match a with
  | ⟨0, _⟩ => rfl
  | ⟨1, _⟩ => rfl

end Cert.ReferenceIdeal.RefValue

end
-- ==== Proof.RefValueLp.lean ====
/-
  The reference's summed log-probability, read at explicit coordinates.

  At the ideal values nothing differs from itself, so softplus z is max z 0 + log1p (exp (-|z|)) with z - 0 = z and
  |z| = max z (-z); log_sigmoid x is -(softplus (-x)); the summand at (r, j) is
  g * log_sigmoid x + (1 - g) * log_sigmoid (-x) with g the grid at (r, j) and x the logit of bank j; and the host's
  sum over the bank axis from 0 is the finite sum over the 4096 banks. For real logits the summand is
  -(softplus x) + g * x, because log_sigmoid x - log_sigmoid (-x) = x and g is 0 or 1.
-/
import proofs.«422330_j45105746542888_3_alg».proof.Proof.RefTerms
import proofs.«422330_j45105746542888_3_alg».proof.Proof.Spec
import proofs.«422330_j45105746542888_3_alg».proof.Proof.SpecLaws
import proofs.«422330_j45105746542888_3_alg».proof.Proof.RefValuePad
import Idealize.ShloMosaic.Lib.ValueIdx
import Idealize.ShloMosaic.PureOps.Ideal.Laws

noncomputable section

namespace Cert.ReferenceIdeal.RefValue

open Cert.ReferenceIdeal Idealize.ShloMosaic Idealize.ShloMosaic.ValueIdx

/-! ## softplus and log-sigmoid -/

/-- At the ideal values nothing differs from itself, so softplus is max z 0 + log1p (exp (-|z|)) at every bank. -/
theorem softplusv_apply (z : FVec Ideal S4096 .f32) (j : Fin 4096) :
    RefTerms.softplusv (F := Ideal) z (ix1 j) = Cert.Spec.softplus (z (ix1 j)) := by
  unfold RefTerms.softplusv
  show Scalar.select (Ideal.cmp .une (RefTerms.spDiff z (ix1 j)) (RefTerms.spDiff z (ix1 j))) _ (RefTerms.spMain z (ix1 j)) = _
  have h0 : Ideal.cmp .une (RefTerms.spDiff z (ix1 j)) (RefTerms.spDiff z (ix1 j)) = 0#1 := by
    unfold Ideal.cmp
    simp
  rw [h0, select_zero]
  unfold RefTerms.spMain RefTerms.spDiff Cert.Spec.softplus
  show max (z (ix1 j)) (Ideal.ofBits .f32 0x00000000#32)
      + Ideal.log1p (Ideal.exp (-(max (z (ix1 j) - Ideal.ofBits .f32 0x00000000#32) (-(z (ix1 j) - Ideal.ofBits .f32 0x00000000#32))))) = _
  rw [Ideal.ofBits_zero_f32, sub_zero]

/-- log_sigmoid x = -(softplus (-x)) at every bank. -/
theorem logsigv_apply (x : FVec Ideal S4096 .f32) (j : Fin 4096) :
    RefTerms.logsigv (F := Ideal) x (ix1 j) = -(Cert.Spec.softplus (-(x (ix1 j)))) := by
  unfold RefTerms.logsigv
  show -(RefTerms.softplusv (Host.negf x) (ix1 j)) = _
  rw [softplusv_apply]
  rfl

/-! ## The summed log-probability -/

/-- The summand at (r, j): g * log_sigmoid x + (1 - g) * log_sigmoid (-x), g the grid there and x the bank's logit. -/
theorem lpTerm_apply (a0 : FVec Ideal S4096 .f32) (a1 : FVec Ideal S8192x4096 .f32) (r : Fin 8192) (j : Fin 4096) :
    RefTerms.lpTerm (F := Ideal) a0 a1 (ix2 r j)
      = Cert.Spec.grid (fun j => a0 (ix1 j)) (fun r j => a1 (ix2 r j)) r j * (-(Cert.Spec.softplus (-(a0 (ix1 j)))))
        + (Cert.Spec.one - Cert.Spec.grid (fun j => a0 (ix1 j)) (fun r j => a1 (ix2 r j)) r j)
          * (-(Cert.Spec.softplus (-(-(a0 (ix1 j)))))) := by
  unfold RefTerms.lpTerm RefTerms.lpPos RefTerms.lpNeg
  show RefTerms.gridv a0 a1 (ix2 r j) * RefTerms.rowsF (RefTerms.logsigv a0) (ix2 r j)
      + (Ideal.ofBits .f32 0x3F800000#32 - RefTerms.gridv a0 a1 (ix2 r j)) * RefTerms.rowsF (RefTerms.logsigv (Host.negf a0)) (ix2 r j) = _
  rw [gridv_apply, rowsF_apply, rowsF_apply, logsigv_apply, logsigv_apply]
  rfl

/-- The log-probability of row r is the summand added up over the 4096 banks. -/
theorem lpOut_apply (a0 : FVec Ideal S4096 .f32) (a1 : FVec Ideal S8192x4096 .f32) (r : Fin 8192) :
    RefTerms.lpOut (F := Ideal) a0 a1 (ix1 r) = ∑ j : Fin 4096, RefTerms.lpTerm (F := Ideal) a0 a1 (ix2 r j) := by
  unfold RefTerms.lpOut Host.reduceAdd
  have hR : S8192x4096.Reduces [1] S8192 := by decide
  show Ideal.hostReduceAdd _ (RefTerms.lpTerm a0 a1) (Ideal.ofBits .f32 0x00000000#32) (ix1 r) = _
  rw [Ideal.hostReduceAdd_single _ hR, Ideal.ofBits_zero_f32, zero_add]
  refine Finset.sum_congr rfl fun k _ => congrArg (RefTerms.lpTerm a0 a1) (funext fun a => Fin.ext ?_)
  match a with
  | ⟨0, _⟩ => rfl
  | ⟨1, _⟩ => rfl

/-- The second result at row r is the specification's log-probability, for real logits. -/
theorem lp_apply (a0 : FVec Ideal S4096 .f32) (a1 : FVec Ideal S8192x4096 .f32)
    (hfin : ∀ j : Fin 4096, ∃ x : ℝ, a0 (ix1 j) = (x : EReal)) (r : Fin 8192) :
    RefTerms.lpOut (F := Ideal) a0 a1 (ix1 r) = Cert.Spec.logprob (fun j => a0 (ix1 j)) (fun r j => a1 (ix2 r j)) r := by
  choose x hx using hfin
  rw [lpOut_apply]
  unfold Cert.Spec.logprob
  calc ∑ j : Fin 4096, RefTerms.lpTerm (F := Ideal) a0 a1 (ix2 r j)
      = ∑ j : Fin 4096, (Cert.Spec.grid (fun j => a0 (ix1 j)) (fun r j => a1 (ix2 r j)) r j * (-(Cert.Spec.softplus (-((x j : ℝ) : EReal))))
          + (Cert.Spec.one - Cert.Spec.grid (fun j => a0 (ix1 j)) (fun r j => a1 (ix2 r j)) r j)
            * (-(Cert.Spec.softplus (-(-((x j : ℝ) : EReal)))))) :=
        Finset.sum_congr rfl fun j _ => by rw [lpTerm_apply, hx j]
    _ = ∑ j : Fin 4096, (-(Cert.Spec.softplus ((x j : ℝ) : EReal))
          + Cert.Spec.grid (fun j => a0 (ix1 j)) (fun r j => a1 (ix2 r j)) r j * ((x j : ℝ) : EReal)) :=
        Cert.Spec.logsig_sum x (fun j => Cert.Spec.grid (fun j => a0 (ix1 j)) (fun r j => a1 (ix2 r j)) r j)
          (fun j => Cert.Spec.bern_cases _ _)
    _ = _ := Finset.sum_congr rfl fun j _ => by rw [← hx j]

end Cert.ReferenceIdeal.RefValue

end
-- ==== Proof.RefValue.lean ====
/-
  The reference program's two results at an index, at the ideal values, are the specification's functions.

  The first result at (r, 0, j) is the Bernoulli grid of row r at the column reflIdx (shift r + j), for shifts of at
  most 4096; the second result at r is the row's Bernoulli log-probability, for real logits (lp_apply, proved with the
  log-probability's stages).
-/
import proofs.«422330_j45105746542888_3_alg».proof.Proof.RefTerms
import proofs.«422330_j45105746542888_3_alg».proof.Proof.Spec
import proofs.«422330_j45105746542888_3_alg».proof.Proof.SpecLaws
import proofs.«422330_j45105746542888_3_alg».proof.Proof.RefValuePad
import proofs.«422330_j45105746542888_3_alg».proof.Proof.RefValueTake
import proofs.«422330_j45105746542888_3_alg».proof.Proof.RefValueLp
import Idealize.ShloMosaic.Lib.ValueIdx

noncomputable section

namespace Cert.ReferenceIdeal.RefValue

open Cert.ReferenceIdeal Idealize.ShloMosaic Idealize.ShloMosaic.ValueIdx

/-- The first result at (r, 0, j) is the specification's mask, for shifts of at most 4096: every index shift r + j lies in
    0 … 8191, so the take reads the padded grid there, which shows the grid's column reflIdx (shift r + j). -/
theorem masks_apply (a0 : FVec Ideal S4096 .f32) (a1 : FVec Ideal S8192x4096 .f32) (a2 : IVec S8192 32)
    (hs : ∀ r : Fin 8192, (a2 (ix1 r)).toNat ≤ 4096) (r : Fin 8192) (j : Fin 4096) :
    RefTerms.masksOut (F := Ideal) a0 a1 a2 (ix3 r (0 : Fin 1) j)
      = Cert.Spec.masks (fun j => a0 (ix1 j)) (fun r j => a1 (ix2 r j)) (fun r => (a2 (ix1 r)).toNat) hs r j := by
  have hi : ∀ y : S8192x4096.Idx, (RefTerms.idxv a2 y).toNat ≤ 8191 := fun y => by
    obtain ⟨p, q, rfl⟩ : ∃ (p : Fin 8192) (q : Fin 4096), y = ix2 p q := ⟨_, _, eq_ix2 y⟩
    rw [idxv_toNat a2 p q (hs p)]
    have := hs p
    have := q.isLt
    omega
  rw [masksOut_read, takev_apply _ _ hi, paddedv_apply, gridv_apply]
  unfold Cert.Spec.masks
  congr 1
  apply Fin.ext
  show Cert.Spec.reflIdx (RefTerms.idxv a2 (ix2 r j)).toNat = Cert.Spec.reflIdx ((a2 (ix1 r)).toNat + j.val)
  rw [idxv_toNat a2 r j (hs r)]

end Cert.ReferenceIdeal.RefValue

end
-- ==== Proof.lean ====
/- The proof of `Cert.Claim` (proofs.«422330_j45105746542888_3_alg».proof.Defs): frame_Kernel ∧ frame_KernelIdeal ∧ frame_ReferenceIdeal ∧ preserves_Kernel_KernelIdeal ∧
   algebraic_KernelIdeal_ReferenceIdeal.

   The kernel samples a Bernoulli grid by comparing uniforms with sigmoid(logits), reflect-pads each row, and returns per
   row the window of the padded row that starts at that row's shift, together with the row's log-probability. The
   reference computes the same window by a gather along the padded row and the same log-probability written with two
   log-sigmoids. Both results are read at an index against one specification (Proof/Spec.lean): the window entry (r, j)
   is the grid at row r and the column that position shift r + j of the padded row shows; the log-probabilities agree
   because log_sigmoid x - log_sigmoid (-x) = x on finite logits. The precondition (finite inputs, 0 ≤ shift ≤ 4096)
   gives the two facts used: every shift is at most 4096, so the kernel's windows lie inside its scratch and the
   reference's indices lie inside the padded row; and the logits are real numbers. The kernel's run is one proof,
   generic in the float values, read at the word level for frame_Kernel and at the ideal level for the other two. -/
import proofs.«422330_j45105746542888_3_alg».proof.Defs
import proofs.«422330_j45105746542888_3_alg».proof.Proof.Gen.Kernel
import proofs.«422330_j45105746542888_3_alg».proof.Proof.Gen.Kernel.Skeleton
import proofs.«422330_j45105746542888_3_alg».proof.Proof.Gen.Kernel.Launch
import proofs.«422330_j45105746542888_3_alg».proof.Proof.Gen.Kernel.Flash
import proofs.«422330_j45105746542888_3_alg».proof.Proof.Gen.KernelIdeal
import proofs.«422330_j45105746542888_3_alg».proof.Proof.Gen.KernelIdeal.Skeleton
import proofs.«422330_j45105746542888_3_alg».proof.Proof.Gen.KernelIdeal.Launch
import proofs.«422330_j45105746542888_3_alg».proof.Proof.Gen.KernelIdeal.Flash
import proofs.«422330_j45105746542888_3_alg».proof.Proof.Gen.ReferenceIdeal
import proofs.«422330_j45105746542888_3_alg».proof.Proof.Gen.Pre_finite_inputs
import proofs.«422330_j45105746542888_3_alg».proof.Proof.PreFacts
import proofs.«422330_j45105746542888_3_alg».proof.Proof.KFrame
import proofs.«422330_j45105746542888_3_alg».proof.Proof.KFrameW
import proofs.«422330_j45105746542888_3_alg».proof.Proof.KValue
import proofs.«422330_j45105746542888_3_alg».proof.Proof.RefRun
import proofs.«422330_j45105746542888_3_alg».proof.Proof.RefValue
import Idealize.ShloMosaic.Adequacy
import Idealize.ShloMosaic.Init

noncomputable section

namespace Cert.Proof

open Idealize.ShloMosaic Idealize.SL.Sem Idealize.ShloMosaic.TcCoe Idealize.ShloMosaic.ValueIdx

/-- The word-level kernel program runs and leaves its arguments unchanged: every shift is at most 4096 by the precondition. -/
theorem frameKernel : Cert.frame_Kernel (hKernel := Cert.Kernel.Gen.facts) (hPre_finite_inputs := Cert.Pre_finite_inputs.Gen.facts) := fun m g hpre =>
  Cert.Kernel.KFrame.frame m g fun c k => by
    obtain ⟨r, rfl⟩ : ∃ r : Fin 8192, k = ix1 r := ⟨k 0, eq_ix1 k⟩
    exact Cert.PreFacts.shift_le _ _ _ (hpre c) r

/-- The idealized kernel program likewise. -/
theorem frameKernelIdeal : Cert.frame_KernelIdeal (hKernelIdeal := Cert.KernelIdeal.Gen.facts) (hPre_finite_inputs := Cert.Pre_finite_inputs.Gen.facts) := fun m g hpre =>
  Cert.KernelIdeal.KFrame.frame m g fun c k => by
    obtain ⟨r, rfl⟩ : ∃ r : Fin 8192, k = ix1 r := ⟨k 0, eq_ix1 k⟩
    exact Cert.PreFacts.shift_le _ _ _ (hpre c) r

/-- The reference runs from any memory and leaves its arguments unchanged. -/
theorem frameReferenceIdeal : Cert.frame_ReferenceIdeal (hReferenceIdeal := Cert.ReferenceIdeal.Gen.facts) (hPre_finite_inputs := Cert.Pre_finite_inputs.Gen.facts) := fun m g _ =>
  (θ_run _ _ _).mono (fun _ h c => ⟨(h c).2.2.1, (h c).2.2.2.1, (h c).2.2.2.2⟩) (Cert.ReferenceIdeal.RefRun.run m g)

open Cert.KernelIdeal in
/-- At the ideal instance the two programs, from memories that agree on the arguments, end with equal results. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m g m' g' hpre hag
  have hs : ∀ (c : Dev Cert.KernelIdeal.nD) (k : Cert.KernelIdeal.S8192.Idx),
      (m ((c.tc : Thread Cert.KernelIdeal.nD Cert.KernelIdeal.τ).loc Cert.KernelIdeal.main_arg2) k).toNat ≤ 4096 := fun c k => by
    obtain ⟨r, rfl⟩ : ∃ r : Fin 8192, k = ix1 r := ⟨k 0, eq_ix1 k⟩
    exact Cert.PreFacts.shift_le _ _ _ (hpre c) r
  have hfin : ∀ (c : Dev Cert.KernelIdeal.nD) (j : Fin 4096), ∃ x : ℝ,
      m ((c.tc : Thread Cert.KernelIdeal.nD Cert.KernelIdeal.τ).loc Cert.KernelIdeal.main_arg0) (ix1 j) = (x : EReal) := fun c j =>
    Cert.PreFacts.logits_finite _ _ _ (hpre c) j
  refine ⟨fun c => broadcastInDim Cert.KernelIdeal.S8192x1x4096 ![0, 2] Cert.KernelIdeal.Facts₀.bcast_S8192x4096_S8192x1x4096_0_2 (Cert.KernelIdeal.KFrame.resMasks m hs c),
    fun c => fun i => shapeCast Cert.KernelIdeal.S8192 (Cert.KernelIdeal.KFrame.resLp m hs c) Cert.KernelIdeal.Facts₀.shapeCasts_S8192x1_S8192 i, ?_, ?_⟩
  · exact (θ_run _ _ _).mono (fun _ h c => ⟨(h c).2.2.2.1, (h c).2.2.2.2, (h c).1, (h c).2.1, (h c).2.2.1⟩)
      (Cert.KernelIdeal.KFrame.run_results m g hs)
  · refine (θ_run _ _ _).mono (fun _ h c => ?_) (Cert.ReferenceIdeal.RefRun.run m' g')
    obtain ⟨h31, h22, h0, h1, h2⟩ := h c
    obtain ⟨e0, e1, e2⟩ := hag c
    refine ⟨?_, ?_, h0, h1, h2⟩
    · rw [h31, e0, e1, e2]
      funext idx
      obtain ⟨R, z, j, rfl⟩ : ∃ (R : Fin 8192) (z : Fin 1) (j : Fin 4096), idx = ix3 R z j := ⟨idx 0, idx 1, idx 2, eq_ix3 idx⟩
      obtain rfl : z = 0 := Subsingleton.elim _ _
      exact (Cert.ReferenceIdeal.RefValue.masks_apply _ _ _ (fun r => hs c (ix1 r)) R j).trans
        ((Cert.KernelIdeal.KValue.masks_final m hs c R j).symm.trans (Cert.KernelIdeal.KFrame.resV12_apply _ R j).symm)
    · rw [h22, e0, e1]
      funext idx
      obtain ⟨R, rfl⟩ : ∃ R : Fin 8192, idx = ix1 R := ⟨idx 0, eq_ix1 idx⟩
      exact (Cert.ReferenceIdeal.RefValue.lp_apply _ _ (hfin c) R).trans
        ((Cert.KernelIdeal.KValue.lp_final m hs c R).symm.trans (Cert.KernelIdeal.KFrame.resV13_apply _ R).symm)

theorem claim : Cert.Claim := ⟨Cert.Kernel.Gen.facts, Cert.KernelIdeal.Gen.facts, Cert.ReferenceIdeal.Gen.facts, Cert.Pre_finite_inputs.Gen.facts,
  frameKernel, frameKernelIdeal, frameReferenceIdeal, trivial, algebraic⟩

end Cert.Proof

end
